-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S2000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1 : Shape := ⟨2, ![20000, 1]⟩
abbrev S2x640000 : Shape := ⟨2, ![2, 640000]⟩
abbrev S20000 : Shape := ⟨1, ![20000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S128x2 : Shape := ⟨2, ![128, 2]⟩
abbrev S2 : Shape := ⟨1, ![2]⟩
abbrev S_ : Shape := ⟨0, ![]⟩

class Facts : Prop where
  bcast_S_S20000x1 : S_.BroadcastsInDim S20000x1 (![] : Fin 0 → Fin S20000x1.rank)
  reducesTo_S20000x1_S_d0_1 : S20000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x128 .f32) (main_arg14 : FVec F S128x2 .f32) (main_arg15 : FVec F S2 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x2 .f32 := Host.absf main_arg14
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S3x128x128 .f32) (main_arg10 : FVec F S3x128 .f32) (main_arg11 : FVec F S3 .f32) (main_arg12 : FVec F S3x128 .f32) (main_arg13 : FVec F S3x128 .f32) (main_arg14 : FVec F S128x2 .f32) (main_arg15 : FVec F S2 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S3 .f32) (main_arg12 : FVec F S3x128 .f32) (main_arg13 : FVec F S3x128 .f32) (main_arg14 : FVec F S128x2 .f32) (main_arg15 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S20000x1 .f32) (main_arg1 : IVec S2x640000 32) (main_arg2 : IVec S20000 32) (main_arg3 : FVec F S1x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S3 .f32) (main_arg12 : FVec F S3x128 .f32) (main_arg13 : FVec F S3x128 .f32) (main_arg14 : FVec F S128x2 .f32) (main_arg15 : FVec F S2 .f32) : IVec S_ 1 :=
  let main_v0 : FVec F S20000x1 .f32 := Host.absf main_arg0
  let main_cst : FVec F S_ .f32 := constant S_ .f32 0x7F800000#32
  let main_v1 : FVec F S20000x1 .f32 := broadcastInDim S20000x1 ![] bcast_S_S20000x1 main_cst
  let main_v2 : IVec S20000x1 1 := cmpf .olt main_v0 main_v1
  let main_c : IVec S_ 1 := constantI S_ 1 1#1
  let main_v3 : IVec S_ 1 := (fun x v => Host.reduce IntOp.andi x v reducesTo_S20000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S20000x1 : Shape := ⟨2, ![20000, 1]⟩
abbrev S2x640000 : Shape := ⟨2, ![2, 640000]⟩
abbrev S20000 : Shape := ⟨1, ![20000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S20000x128 : Shape := ⟨2, ![20000, 128]⟩
abbrev S2000x1 : Shape := ⟨2, ![2000, 1]⟩
abbrev S2000x128 : Shape := ⟨2, ![2000, 128]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S1x2 : Shape := ⟨2, ![1, 2]⟩
abbrev S128x1 : Shape := ⟨2, ![128, 1]⟩

abbrev nBuf : Space → Nat
  | .hbm => 220
  | .vmem => 99
  | .smem => 0
  | _ => 0

abbrev hbmTy0_0 (i : Nat) : BufTy := match i % 128 with
  | 0 => ⟨S20000x1, .f32⟩
  | 1 => ⟨S2x640000, .i32⟩
  | 2 => ⟨S20000, .i32⟩
  | 3 => ⟨S1x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3, .f32⟩
  | 12 => ⟨S3x128, .f32⟩
  | 13 => ⟨S3x128, .f32⟩
  | 14 => ⟨S128x2, .f32⟩
  | 15 => ⟨S2, .f32⟩
  | 16 => ⟨S1x640000, .i32⟩
  | 17 => ⟨S640000, .i32⟩
  | 18 => ⟨S1x640000, .i32⟩
  | 19 => ⟨S640000, .i32⟩
  | 20 => ⟨S20000x1, .i32⟩
  | 21 => ⟨S1x128, .f32⟩
  | 22 => ⟨S20000x128, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S_, .f32⟩
  | 33 => ⟨S20000x128, .f32⟩
  | 34 => ⟨S640000x1, .i32⟩
  | 35 => ⟨S20000x128, .f32⟩
  | 36 => ⟨S1, .f32⟩
  | 37 => ⟨S_, .f32⟩
  | 38 => ⟨S_, .f32⟩
  | 39 => ⟨S_, .f32⟩
  | 40 => ⟨S20000x128, .f32⟩
  | 41 => ⟨S20000x128, .f32⟩
  | 42 => ⟨S20000x128, .f32⟩
  | 43 => ⟨S1x128, .f32⟩
  | 44 => ⟨S128, .f32⟩
  | 45 => ⟨S1x128, .f32⟩
  | 46 => ⟨S1x128x128, .f32⟩
  | 47 => ⟨S128x128, .f32⟩
  | 48 => ⟨S20000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S128, .f32⟩
  | 61 => ⟨S1x128, .f32⟩
  | 62 => ⟨S1x128, .f32⟩
  | 63 => ⟨S128, .f32⟩
  | 64 => ⟨S1x128, .f32⟩
  | 65 => ⟨S1x128, .f32⟩
  | 66 => ⟨S128, .f32⟩
  | 67 => ⟨S1x128, .f32⟩
  | 68 => ⟨S1x128x128, .f32⟩
  | 69 => ⟨S128x128, .f32⟩
  | 70 => ⟨S20000x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S20000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S_, .f32⟩
  | 98 => ⟨S20000x128, .f32⟩
  | 99 => ⟨S640000x1, .i32⟩
  | 100 => ⟨S20000x128, .f32⟩
  | 101 => ⟨S1, .f32⟩
  | 102 => ⟨S_, .f32⟩
  | 103 => ⟨S_, .f32⟩
  | 104 => ⟨S_, .f32⟩
  | 105 => ⟨S20000x128, .f32⟩
  | 106 => ⟨S20000x128, .f32⟩
  | 107 => ⟨S20000x128, .f32⟩
  | 108 => ⟨S1x128, .f32⟩
  | 109 => ⟨S128, .f32⟩
  | 110 => ⟨S1x128, .f32⟩
  | 111 => ⟨S1x128x128, .f32⟩
  | 112 => ⟨S128x128, .f32⟩
  | 113 => ⟨S20000x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S128, .f32⟩
  | 126 => ⟨S1x128, .f32⟩
  | 127 => ⟨S1x128, .f32⟩
  | _ => ⟨S20000x1, .f32⟩

abbrev hbmTy0_1 (i : Nat) : BufTy := match i % 128 with
  | 0 => ⟨S128, .f32⟩
  | 1 => ⟨S1x128, .f32⟩
  | 2 => ⟨S1x128, .f32⟩
  | 3 => ⟨S128, .f32⟩
  | 4 => ⟨S1x128, .f32⟩
  | 5 => ⟨S1x128x128, .f32⟩
  | 6 => ⟨S128x128, .f32⟩
  | 7 => ⟨S20000x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S20000x128, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S_, .f32⟩
  | 35 => ⟨S20000x128, .f32⟩
  | 36 => ⟨S640000x1, .i32⟩
  | 37 => ⟨S20000x128, .f32⟩
  | 38 => ⟨S1, .f32⟩
  | 39 => ⟨S_, .f32⟩
  | 40 => ⟨S_, .f32⟩
  | 41 => ⟨S_, .f32⟩
  | 42 => ⟨S20000x128, .f32⟩
  | 43 => ⟨S20000x128, .f32⟩
  | 44 => ⟨S20000x128, .f32⟩
  | 45 => ⟨S1x128, .f32⟩
  | 46 => ⟨S128, .f32⟩
  | 47 => ⟨S1x128, .f32⟩
  | 48 => ⟨S1x128x128, .f32⟩
  | 49 => ⟨S128x128, .f32⟩
  | 50 => ⟨S20000x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128x128, .f32⟩
  | 71 => ⟨S128x128, .f32⟩
  | 72 => ⟨S20000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S20000x128, .f32⟩
  | 90 => ⟨S1x2, .f32⟩
  | 91 => ⟨S128x2, .f32⟩
  | _ => ⟨S20000x1, .f32⟩

abbrev hbmTy (i : Nat) : BufTy := match i / 128 with
  | 0 => hbmTy0_0 i
  | 1 => hbmTy0_1 i
  | _ => ⟨S20000x1, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S1x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S128x128, .f32⟩
  | .local _ .vmem, ⟨65, _⟩ => ⟨S1x128, .f32⟩
  | .local _ .vmem, ⟨66, _⟩ => ⟨S2000x128, .f32⟩
  | .local _ .vmem, ⟨67, _⟩ => ⟨S2000x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S2000x1, .i32⟩
  | .local _ .vmem, ⟨93, _⟩ => ⟨S2000x1, .i32⟩
  | .local _ .vmem, ⟨94, _⟩ => ⟨S128x2, .f32⟩
  | .local _ .vmem, ⟨95, _⟩ => ⟨S1x2, .f32⟩
  | .local _ .vmem, ⟨96, _⟩ => ⟨S128x2, .f32⟩
  | .local _ .vmem, ⟨97, _⟩ => ⟨S128x128, .f32⟩
  | .local _ .vmem, ⟨98, _⟩ => ⟨S128x1, .f32⟩
  | _, _ => ⟨S20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_v28_2 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_6 : Ref sig .tc := ⟨.hbm, 88, rfl⟩
abbrev main_v60 : Ref sig .tc := ⟨.hbm, 89, rfl⟩
abbrev main_v61 : Ref sig .tc := ⟨.hbm, 90, rfl⟩
abbrev main_c_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81_0 : Ref sig .tc := ⟨.hbm, 113, rfl⟩
abbrev main_v81_1 : Ref sig .tc := ⟨.hbm, 114, rfl⟩
abbrev main_v81_2 : Ref sig .tc := ⟨.hbm, 115, rfl⟩
abbrev main_cst_10 : Ref sig .tc := ⟨.hbm, 116, rfl⟩
abbrev main_v82 : Ref sig .tc := ⟨.hbm, 117, rfl⟩
abbrev main_v83 : Ref sig .tc := ⟨.hbm, 118, rfl⟩
abbrev main_cst_11 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99_0 : Ref sig .tc := ⟨.hbm, 135, rfl⟩
abbrev main_v99_1 : Ref sig .tc := ⟨.hbm, 136, rfl⟩
abbrev main_v99_2 : Ref sig .tc := ⟨.hbm, 137, rfl⟩
abbrev main_cst_12 : Ref sig .tc := ⟨.hbm, 138, rfl⟩
abbrev main_v100 : Ref sig .tc := ⟨.hbm, 139, rfl⟩
abbrev main_v101 : Ref sig .tc := ⟨.hbm, 140, rfl⟩
abbrev main_cst_13 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_14 : Ref sig .tc := ⟨.hbm, 153, rfl⟩
abbrev main_v113 : Ref sig .tc := ⟨.hbm, 154, rfl⟩
abbrev main_v114 : Ref sig .tc := ⟨.hbm, 155, rfl⟩
abbrev main_c_15 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_16 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_17 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134_0 : Ref sig .tc := ⟨.hbm, 178, rfl⟩
abbrev main_v134_1 : Ref sig .tc := ⟨.hbm, 179, rfl⟩
abbrev main_v134_2 : Ref sig .tc := ⟨.hbm, 180, rfl⟩
abbrev main_cst_18 : Ref sig .tc := ⟨.hbm, 181, rfl⟩
abbrev main_v135 : Ref sig .tc := ⟨.hbm, 182, rfl⟩
abbrev main_v136 : Ref sig .tc := ⟨.hbm, 183, rfl⟩
abbrev main_cst_19 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152_0 : Ref sig .tc := ⟨.hbm, 200, rfl⟩
abbrev main_v152_1 : Ref sig .tc := ⟨.hbm, 201, rfl⟩
abbrev main_v152_2 : Ref sig .tc := ⟨.hbm, 202, rfl⟩
abbrev main_cst_20 : Ref sig .tc := ⟨.hbm, 203, rfl⟩
abbrev main_v153 : Ref sig .tc := ⟨.hbm, 204, rfl⟩
abbrev main_v154 : Ref sig .tc := ⟨.hbm, 205, rfl⟩
abbrev main_cst_21 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg9_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc5_stg8_0 : Ref sig .tc := ⟨.vmem, 52, rfl⟩
abbrev cc5_stg9_0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc7_stg4_0 : Ref sig .tc := ⟨.vmem, 68, rfl⟩
abbrev cc7_stg5_0 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg6_0 : Ref sig .tc := ⟨.vmem, 77, rfl⟩
abbrev cc8_stg7_0 : Ref sig .tc := ⟨.vmem, 78, rfl⟩
abbrev cc8_stg7_1 : Ref sig .tc := ⟨.vmem, 79, rfl⟩
abbrev cc8_stg8_0 : Ref sig .tc := ⟨.vmem, 80, rfl⟩
abbrev cc8_stg9_0 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_stg3_0 : Ref sig .tc := ⟨.vmem, 95, rfl⟩
abbrev cc10_stg4_0 : Ref sig .tc := ⟨.vmem, 96, rfl⟩
abbrev cc10_scratch0 : Ref sig .tc := ⟨.vmem, 97, rfl⟩
abbrev cc10_scratch1 : Ref sig .tc := ⟨.vmem, 98, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem9_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51
abbrev cc5_sem8_0 : DmaSem sig := 52
abbrev cc5_sem9_0 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc7_sem4_0 : DmaSem sig := 68
abbrev cc7_sem5_0 : DmaSem sig := 69
abbrev cc8_sem0_0 : DmaSem sig := 70
abbrev cc8_sem0_1 : DmaSem sig := 71
abbrev cc8_sem1_0 : DmaSem sig := 72
abbrev cc8_sem2_0 : DmaSem sig := 73
abbrev cc8_sem3_0 : DmaSem sig := 74
abbrev cc8_sem4_0 : DmaSem sig := 75
abbrev cc8_sem5_0 : DmaSem sig := 76
abbrev cc8_sem6_0 : DmaSem sig := 77
abbrev cc8_sem7_0 : DmaSem sig := 78
abbrev cc8_sem7_1 : DmaSem sig := 79
abbrev cc8_sem8_0 : DmaSem sig := 80
abbrev cc8_sem9_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem4_0 : DmaSem sig := 96

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_13 : BitVec 32 := 0#32
  let v30 : BitVec 1 := Scalar.cmpi .ne v29 c0_i32_13
  v30

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S20000_S20000x1 : S20000.ShapeCasts S20000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  inb_S1x128_S1x128_0_0 : ∀ a, (![0, 0] : Fin 2 → Nat) a + S1x128.size a ≤ S1x128.size a
  h_S1x128 : 0 < S1x128.numel
  broadcasts_S2000x1_S2000x128 : S2000x1.Broadcasts S2000x128
  broadcasts_S1x128_S2000x128 : S1x128.Broadcasts S2000x128
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  slices_S3_S1_0 : S3.Slices ![0] S1
  shapeCasts_S1_S_ : S1.ShapeCasts S_
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S128 : S2000x128.Reduces [0] S128
  bcast_S_S1x128 : S_.BroadcastsInDim S1x128 (![] : Fin 0 → Fin S1x128.rank)
  slices_S3_S1_1 : S3.Slices ![1] S1
  slices_S3x128_S1x128_1_0 : S3x128.Slices ![1, 0] S1x128
  slices_S3x128x128_S1x128x128_1_0_0 : S3x128x128.Slices ![1, 0, 0] S1x128x128
  slices_S3_S1_2 : S3.Slices ![2] S1
  slices_S3x128_S1x128_2_0 : S3x128.Slices ![2, 0] S1x128
  slices_S3x128x128_S1x128x128_2_0_0 : S3x128x128.Slices ![2, 0, 0] S1x128x128
  shapeCasts_S2_S1x2 : S2.ShapeCasts S1x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S2000x1_S2000x1 : S2000x1.ShapeCasts S2000x1
  iota_S2000x128_d1_w32 : S2000x128.Iotas .tc 32 [1]
  natLt_1_32 : 1 < 32
  shapeCasts_S128_S128x1 : S128.ShapeCasts S128x1
  broadcasts_S128x1_S128x128 : S128x1.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S20000x1.size a
  hwx0_0 : ∀ i : grid0.Coords, EltTy.bits .f32 = 32 ∨ (Rect.block (s := S20000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S20000x128.size a
  hwx3_5 : ∀ i : grid3.Coords, EltTy.bits .f32 = 32 ∨ (Rect.block (s := S20000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S20000x128.size a
  hwx4_3 : ∀ i : grid4.Coords, EltTy.bits .f32 = 32 ∨ (Rect.block (s := S20000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S20000x128.size a
  hwx5_7 : ∀ i : grid5.Coords, EltTy.bits .f32 = 32 ∨ (Rect.block (s := S20000x128) S2000x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S20000x128.size a
  hwx6_0 : ∀ i : grid6.Coords, EltTy.bits .f32 = 32 ∨ (Rect.block (s := S20000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S20000x128.size a
  hwx6_5 : ∀ i : grid6.Coords, EltTy.bits .f32 = 32 ∨ (Rect.block (s := S20000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S20000x128.size a
  hwx7_3 : ∀ i : grid7.Coords, EltTy.bits .f32 = 32 ∨ (Rect.block (s := S20000x128) S2000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S20000x128.size a
  hwx8_0 : ∀ i : grid8.Coords, EltTy.bits .f32 = 32 ∨ (Rect.block (s := S20000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2000x128.size a ≤ S20000x128.size a
  hwx8_7 : ∀ i : grid8.Coords, EltTy.bits .f32 = 32 ∨ (Rect.block (s := S20000x128) S2000x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x128.size a ≤ S1x128.size a
  hwx8_9 : ∀ i : grid8.Coords, EltTy.bits .f32 = 32 ∨ (Rect.block (s := S1x128) S1x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S20000x128.size a
  hwx9_5 : ∀ i : grid9.Coords, EltTy.bits .f32 = 32 ∨ (Rect.block (s := S20000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S20000x128.size a
  hwx10_0 : ∀ i : grid10.Coords, EltTy.bits .f32 = 32 ∨ (Rect.block (s := S20000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S20000x1.size a
  hwx10_1 : ∀ i : grid10.Coords, EltTy.bits .i32 = 32 ∨ (Rect.block (s := S20000x1) S2000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x2.size a ≤ S128x2.size a
  hwx10_2 : ∀ i : grid10.Coords, EltTy.bits .f32 = 32 ∨ (Rect.block (s := S128x2) S128x2.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x2.size a ≤ S1x2.size a
  hwx10_3 : ∀ i : grid10.Coords, EltTy.bits .f32 = 32 ∨ (Rect.block (s := S1x2) S1x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x2.size a ≤ S128x2.size a
  hwx10_4 : ∀ i : grid10.Coords, EltTy.bits .f32 = 32 ∨ (Rect.block (s := S128x2) S128x2.size (cc10_transform_4 i) (hinb10_4 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v46_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81_0) S2000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v81_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v96) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v99_0) S2000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v99_1) S1x128.size cc5_transform_8 reads5_8 true true 1 stage5_8 sem5_8
    hrank5 hreads5_8 hinb5_8 nbuf5_8 (Memref.isWhole_whole _) hwx5_8 hstage5_8

abbrev win5_9 : Pipeline.Window sig grid5 :=
  Pipeline.Window.ofSpec (Memref.whole main_v99_2) S1x128.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v99_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v128) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v131) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134_0) S2000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v134_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v134_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v134_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v140) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v143) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v151) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v149) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v152_0) S2000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v152_1) S1x128.size cc8_transform_8 reads8_8 true true 1 stage8_8 sem8_8
    hrank8 hreads8_8 hinb8_8 nbuf8_8 (Memref.isWhole_whole _) hwx8_8 hstage8_8

abbrev win8_9 : Pipeline.Window sig grid8 :=
  Pipeline.Window.ofSpec (Memref.whole main_v152_2) S1x128.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v152_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v154) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v158) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v161) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v164) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v165) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v165) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v4) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg14) S128x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v166) S1x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v167) S128x2.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

class Facts : Prop extends Facts₀ where

variable [Facts]
-- ==== ReferenceIdeal.lean ====
abbrev S20000x1 : Shape := ⟨2, ![20000, 1]⟩
abbrev S2x640000 : Shape := ⟨2, ![2, 640000]⟩
abbrev S20000 : Shape := ⟨1, ![20000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S20000x128 : Shape := ⟨2, ![20000, 128]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S128x1 : Shape := ⟨2, ![128, 1]⟩
abbrev S1x2 : Shape := ⟨2, ![1, 2]⟩

abbrev nBuf : Space → Nat
  | .hbm => 458
  | .vmem => 0
  | .smem => 0
  | _ => 0

abbrev hbmTy0_0 (i : Nat) : BufTy := match i % 128 with
  | 0 => ⟨S20000x1, .f32⟩
  | 1 => ⟨S2x640000, .i32⟩
  | 2 => ⟨S20000, .i32⟩
  | 3 => ⟨S1x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3, .f32⟩
  | 12 => ⟨S3x128, .f32⟩
  | 13 => ⟨S3x128, .f32⟩
  | 14 => ⟨S128x2, .f32⟩
  | 15 => ⟨S2, .f32⟩
  | 16 => ⟨S1x640000, .i32⟩
  | 17 => ⟨S640000, .i32⟩
  | 18 => ⟨S1x640000, .i32⟩
  | 19 => ⟨S640000, .i32⟩
  | 20 => ⟨S20000x128, .f32⟩
  | 21 => ⟨S1x128, .f32⟩
  | 22 => ⟨S20000x128, .f32⟩
  | 23 => ⟨S20000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S20000x128, .f32⟩
  | 35 => ⟨S640000x1, .i32⟩
  | 36 => ⟨S20000x128, .f32⟩
  | 37 => ⟨S1, .f32⟩
  | 38 => ⟨S_, .f32⟩
  | 39 => ⟨S_, .f32⟩
  | 40 => ⟨S_, .f32⟩
  | 41 => ⟨S20000x128, .f32⟩
  | 42 => ⟨S20000x128, .f32⟩
  | 43 => ⟨S20000x128, .f32⟩
  | 44 => ⟨S1x128x128, .f32⟩
  | 45 => ⟨S128x128, .f32⟩
  | 46 => ⟨S20000x128, .f32⟩
  | 47 => ⟨S1x128, .f32⟩
  | 48 => ⟨S128, .f32⟩
  | 49 => ⟨S1x128, .f32⟩
  | 50 => ⟨S20000x128, .f32⟩
  | 51 => ⟨S20000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S20000x128, .f32⟩
  | 69 => ⟨S20000x128, .f32⟩
  | 70 => ⟨S20000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S20000x128, .f32⟩
  | 86 => ⟨S20000x128, .f32⟩
  | 87 => ⟨S1x128, .f32⟩
  | 88 => ⟨S20000x128, .f32⟩
  | 89 => ⟨S20000x128, .f32⟩
  | 90 => ⟨S_, .f32⟩
  | 91 => ⟨S128, .f32⟩
  | 92 => ⟨S128, .f32⟩
  | 93 => ⟨S128, .f32⟩
  | 94 => ⟨S1x128, .f32⟩
  | 95 => ⟨S20000x128, .f32⟩
  | 96 => ⟨S20000x128, .f32⟩
  | 97 => ⟨S1x128, .f32⟩
  | 98 => ⟨S20000x128, .f32⟩
  | 99 => ⟨S20000x128, .f32⟩
  | 100 => ⟨S_, .f32⟩
  | 101 => ⟨S20000x128, .f32⟩
  | 102 => ⟨S20000x128, .f32⟩
  | 103 => ⟨S1x128x128, .f32⟩
  | 104 => ⟨S128x128, .f32⟩
  | 105 => ⟨S20000x128, .f32⟩
  | 106 => ⟨S1x128, .f32⟩
  | 107 => ⟨S128, .f32⟩
  | 108 => ⟨S1x128, .f32⟩
  | 109 => ⟨S20000x128, .f32⟩
  | 110 => ⟨S20000x128, .f32⟩
  | 111 => ⟨S1x128, .f32⟩
  | 112 => ⟨S128, .f32⟩
  | 113 => ⟨S1x128, .f32⟩
  | 114 => ⟨S128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S20000x128, .f32⟩
  | _ => ⟨S20000x1, .f32⟩

abbrev hbmTy0_1 (i : Nat) : BufTy := match i % 128 with
  | 0 => ⟨S20000x128, .f32⟩
  | 1 => ⟨S20000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S20000x128, .f32⟩
  | 17 => ⟨S20000x128, .f32⟩
  | 18 => ⟨S1x128, .f32⟩
  | 19 => ⟨S20000x128, .f32⟩
  | 20 => ⟨S20000x128, .f32⟩
  | 21 => ⟨S_, .f32⟩
  | 22 => ⟨S128, .f32⟩
  | 23 => ⟨S128, .f32⟩
  | 24 => ⟨S128, .f32⟩
  | 25 => ⟨S1x128, .f32⟩
  | 26 => ⟨S20000x128, .f32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S20000x128, .f32⟩
  | 33 => ⟨S20000x128, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S_, .f32⟩
  | 44 => ⟨S20000x128, .f32⟩
  | 45 => ⟨S640000x1, .i32⟩
  | 46 => ⟨S20000x128, .f32⟩
  | 47 => ⟨S1, .f32⟩
  | 48 => ⟨S_, .f32⟩
  | 49 => ⟨S_, .f32⟩
  | 50 => ⟨S_, .f32⟩
  | 51 => ⟨S20000x128, .f32⟩
  | 52 => ⟨S20000x128, .f32⟩
  | 53 => ⟨S20000x128, .f32⟩
  | 54 => ⟨S1x128x128, .f32⟩
  | 55 => ⟨S128x128, .f32⟩
  | 56 => ⟨S20000x128, .f32⟩
  | 57 => ⟨S1x128, .f32⟩
  | 58 => ⟨S128, .f32⟩
  | 59 => ⟨S1x128, .f32⟩
  | 60 => ⟨S20000x128, .f32⟩
  | 61 => ⟨S20000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S20000x128, .f32⟩
  | 79 => ⟨S20000x128, .f32⟩
  | 80 => ⟨S20000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S20000x128, .f32⟩
  | 96 => ⟨S20000x128, .f32⟩
  | 97 => ⟨S1x128, .f32⟩
  | 98 => ⟨S20000x128, .f32⟩
  | 99 => ⟨S20000x128, .f32⟩
  | 100 => ⟨S_, .f32⟩
  | 101 => ⟨S128, .f32⟩
  | 102 => ⟨S128, .f32⟩
  | 103 => ⟨S128, .f32⟩
  | 104 => ⟨S1x128, .f32⟩
  | 105 => ⟨S20000x128, .f32⟩
  | 106 => ⟨S20000x128, .f32⟩
  | 107 => ⟨S1x128, .f32⟩
  | 108 => ⟨S20000x128, .f32⟩
  | 109 => ⟨S20000x128, .f32⟩
  | 110 => ⟨S_, .f32⟩
  | 111 => ⟨S20000x128, .f32⟩
  | 112 => ⟨S20000x128, .f32⟩
  | 113 => ⟨S1x128x128, .f32⟩
  | 114 => ⟨S128x128, .f32⟩
  | 115 => ⟨S20000x128, .f32⟩
  | 116 => ⟨S1x128, .f32⟩
  | 117 => ⟨S128, .f32⟩
  | 118 => ⟨S1x128, .f32⟩
  | 119 => ⟨S20000x128, .f32⟩
  | 120 => ⟨S20000x128, .f32⟩
  | 121 => ⟨S1x128, .f32⟩
  | 122 => ⟨S128, .f32⟩
  | 123 => ⟨S1x128, .f32⟩
  | 124 => ⟨S128, .f32⟩
  | 125 => ⟨S_, .f32⟩
  | 126 => ⟨S128, .f32⟩
  | 127 => ⟨S_, .f32⟩
  | _ => ⟨S20000x1, .f32⟩

abbrev hbmTy0_2 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S20000x128, .f32⟩
  | 10 => ⟨S20000x128, .f32⟩
  | 11 => ⟨S20000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S20000x128, .f32⟩
  | 27 => ⟨S20000x128, .f32⟩
  | 28 => ⟨S1x128, .f32⟩
  | 29 => ⟨S20000x128, .f32⟩
  | 30 => ⟨S20000x128, .f32⟩
  | 31 => ⟨S_, .f32⟩
  | 32 => ⟨S128, .f32⟩
  | 33 => ⟨S128, .f32⟩
  | 34 => ⟨S128, .f32⟩
  | 35 => ⟨S1x128, .f32⟩
  | 36 => ⟨S20000x128, .f32⟩
  | 37 => ⟨S20000x128, .f32⟩
  | 38 => ⟨S1x128, .f32⟩
  | 39 => ⟨S20000x128, .f32⟩
  | 40 => ⟨S20000x128, .f32⟩
  | 41 => ⟨S_, .f32⟩
  | 42 => ⟨S20000x128, .f32⟩
  | 43 => ⟨S20000x128, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x128, .f32⟩
  | 53 => ⟨S_, .f32⟩
  | 54 => ⟨S20000x128, .f32⟩
  | 55 => ⟨S640000x1, .i32⟩
  | 56 => ⟨S20000x128, .f32⟩
  | 57 => ⟨S1, .f32⟩
  | 58 => ⟨S_, .f32⟩
  | 59 => ⟨S_, .f32⟩
  | 60 => ⟨S_, .f32⟩
  | 61 => ⟨S20000x128, .f32⟩
  | 62 => ⟨S20000x128, .f32⟩
  | 63 => ⟨S20000x128, .f32⟩
  | 64 => ⟨S1x128x128, .f32⟩
  | 65 => ⟨S128x128, .f32⟩
  | 66 => ⟨S20000x128, .f32⟩
  | 67 => ⟨S1x128, .f32⟩
  | 68 => ⟨S128, .f32⟩
  | 69 => ⟨S1x128, .f32⟩
  | 70 => ⟨S20000x128, .f32⟩
  | 71 => ⟨S20000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S20000x128, .f32⟩
  | 89 => ⟨S20000x128, .f32⟩
  | 90 => ⟨S20000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S20000x128, .f32⟩
  | 106 => ⟨S20000x128, .f32⟩
  | 107 => ⟨S1x128, .f32⟩
  | 108 => ⟨S20000x128, .f32⟩
  | 109 => ⟨S20000x128, .f32⟩
  | 110 => ⟨S_, .f32⟩
  | 111 => ⟨S128, .f32⟩
  | 112 => ⟨S128, .f32⟩
  | 113 => ⟨S128, .f32⟩
  | 114 => ⟨S1x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S_, .f32⟩
  | 121 => ⟨S20000x128, .f32⟩
  | 122 => ⟨S20000x128, .f32⟩
  | 123 => ⟨S1x128x128, .f32⟩
  | 124 => ⟨S128x128, .f32⟩
  | 125 => ⟨S20000x128, .f32⟩
  | 126 => ⟨S1x128, .f32⟩
  | 127 => ⟨S128, .f32⟩
  | _ => ⟨S20000x1, .f32⟩

abbrev hbmTy0_3 (i : Nat) : BufTy := match i % 128 with
  | 0 => ⟨S1x128, .f32⟩
  | 1 => ⟨S20000x128, .f32⟩
  | 2 => ⟨S20000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S20000x128, .f32⟩
  | 20 => ⟨S20000x128, .f32⟩
  | 21 => ⟨S20000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S20000x128, .f32⟩
  | 37 => ⟨S20000x128, .f32⟩
  | 38 => ⟨S1x128, .f32⟩
  | 39 => ⟨S20000x128, .f32⟩
  | 40 => ⟨S20000x128, .f32⟩
  | 41 => ⟨S_, .f32⟩
  | 42 => ⟨S128, .f32⟩
  | 43 => ⟨S128, .f32⟩
  | 44 => ⟨S128, .f32⟩
  | 45 => ⟨S1x128, .f32⟩
  | 46 => ⟨S20000x128, .f32⟩
  | 47 => ⟨S20000x128, .f32⟩
  | 48 => ⟨S1x128, .f32⟩
  | 49 => ⟨S20000x128, .f32⟩
  | 50 => ⟨S20000x128, .f32⟩
  | 51 => ⟨S_, .f32⟩
  | 52 => ⟨S20000x128, .f32⟩
  | 53 => ⟨S20000x128, .f32⟩
  | 54 => ⟨S_, .f32⟩
  | 55 => ⟨S128x128, .f32⟩
  | 56 => ⟨S20000x1, .i32⟩
  | 57 => ⟨S128x128, .f32⟩
  | 58 => ⟨S_, .f32⟩
  | 59 => ⟨S20000, .f32⟩
  | 60 => ⟨S_, .f32⟩
  | 61 => ⟨S128, .f32⟩
  | 62 => ⟨S20000x1, .i32⟩
  | 63 => ⟨S128, .f32⟩
  | 64 => ⟨S_, .f32⟩
  | 65 => ⟨S128, .f32⟩
  | 66 => ⟨S128, .f32⟩
  | 67 => ⟨S128x1, .f32⟩
  | 68 => ⟨S128x128, .f32⟩
  | 69 => ⟨S128x128, .f32⟩
  | 70 => ⟨S128x2, .f32⟩
  | 71 => ⟨S1x2, .f32⟩
  | 72 => ⟨S128x2, .f32⟩
  | 73 => ⟨S128x2, .f32⟩
  | _ => ⟨S20000x1, .f32⟩

abbrev hbmTy (i : Nat) : BufTy := match i / 128 with
  | 0 => hbmTy0_0 i
  | 1 => hbmTy0_1 i
  | 2 => hbmTy0_2 i
  | 3 => hbmTy0_3 i
  | _ => ⟨S20000x1, .f32⟩

abbrev bufTy : (tb : Table) → Fin (tcTables nBuf tb) → BufTy
  | .hbm, ⟨i, _⟩ => hbmTy i
  | _, _ => ⟨S20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_cst_3 : Ref sig .tc := ⟨.hbm, 78, rfl⟩
abbrev main_call0_v12 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_5 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call1_cst : Ref sig .tc := ⟨.hbm, 100, rfl⟩
abbrev main_call1_v0 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_6 : Ref sig .tc := ⟨.hbm, 115, rfl⟩
abbrev main_v68 : Ref sig .tc := ⟨.hbm, 116, rfl⟩
abbrev main_cst_7 : Ref sig .tc := ⟨.hbm, 117, rfl⟩
abbrev main_v69 : Ref sig .tc := ⟨.hbm, 118, rfl⟩
abbrev main_v70 : Ref sig .tc := ⟨.hbm, 119, rfl⟩
abbrev main_c_8 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_cst_9 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_call3_cst : Ref sig .tc := ⟨.hbm, 159, rfl⟩
abbrev main_call3_v0 : Ref sig .tc := ⟨.hbm, 160, rfl⟩
abbrev main_v87 : Ref sig .tc := ⟨.hbm, 161, rfl⟩
abbrev main_c_10 : Ref sig .tc := ⟨.hbm, 162, rfl⟩
abbrev main_v88 : Ref sig .tc := ⟨.hbm, 163, rfl⟩
abbrev main_v89 : Ref sig .tc := ⟨.hbm, 164, rfl⟩
abbrev main_c_11 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_12 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_cst_13 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_cst_14 : Ref sig .tc := ⟨.hbm, 194, rfl⟩
abbrev main_v116 : Ref sig .tc := ⟨.hbm, 195, rfl⟩
abbrev main_cst_15 : Ref sig .tc := ⟨.hbm, 196, rfl⟩
abbrev main_v117 : Ref sig .tc := ⟨.hbm, 197, rfl⟩
abbrev main_v118 : Ref sig .tc := ⟨.hbm, 198, rfl⟩
abbrev main_c_16 : Ref sig .tc := ⟨.hbm, 199, rfl⟩
abbrev main_call4_cst : Ref sig .tc := ⟨.hbm, 200, rfl⟩
abbrev main_call4_v0 : Ref sig .tc := ⟨.hbm, 201, rfl⟩
abbrev main_call4_v1 : Ref sig .tc := ⟨.hbm, 202, rfl⟩
abbrev main_call4_cst_0 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_v5 : Ref sig .tc := ⟨.hbm, 207, rfl⟩
abbrev main_call4_v6 : Ref sig .tc := ⟨.hbm, 208, rfl⟩
abbrev main_call4_v7 : Ref sig .tc := ⟨.hbm, 209, rfl⟩
abbrev main_call4_cst_1 : Ref sig .tc := ⟨.hbm, 210, rfl⟩
abbrev main_call4_v8 : Ref sig .tc := ⟨.hbm, 211, rfl⟩
abbrev main_call4_cst_2 : Ref sig .tc := ⟨.hbm, 212, rfl⟩
abbrev main_call4_v9 : Ref sig .tc := ⟨.hbm, 213, rfl⟩
abbrev main_call4_v10 : Ref sig .tc := ⟨.hbm, 214, rfl⟩
abbrev main_call4_v11 : Ref sig .tc := ⟨.hbm, 215, rfl⟩
abbrev main_call4_cst_3 : Ref sig .tc := ⟨.hbm, 216, rfl⟩
abbrev main_call4_v12 : Ref sig .tc := ⟨.hbm, 217, rfl⟩
abbrev main_call4_cst_4 : Ref sig .tc := ⟨.hbm, 218, rfl⟩
abbrev main_call4_call0_v0 : Ref sig .tc := ⟨.hbm, 219, rfl⟩
abbrev main_call4_call0_v1 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_cst_17 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_call5_cst : Ref sig .tc := ⟨.hbm, 238, rfl⟩
abbrev main_call5_v0 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_cst_18 : Ref sig .tc := ⟨.hbm, 253, rfl⟩
abbrev main_v148 : Ref sig .tc := ⟨.hbm, 254, rfl⟩
abbrev main_cst_19 : Ref sig .tc := ⟨.hbm, 255, rfl⟩
abbrev main_v149 : Ref sig .tc := ⟨.hbm, 256, rfl⟩
abbrev main_v150 : Ref sig .tc := ⟨.hbm, 257, rfl⟩
abbrev main_c_20 : Ref sig .tc := ⟨.hbm, 258, rfl⟩
abbrev main_call6_cst : Ref sig .tc := ⟨.hbm, 259, rfl⟩
abbrev main_call6_v0 : Ref sig .tc := ⟨.hbm, 260, rfl⟩
abbrev main_call6_v1 : Ref sig .tc := ⟨.hbm, 261, rfl⟩
abbrev main_call6_cst_0 : Ref sig .tc := ⟨.hbm, 262, rfl⟩
abbrev main_call6_v2 : Ref sig .tc := ⟨.hbm, 263, rfl⟩
abbrev main_call6_v3 : Ref sig .tc := ⟨.hbm, 264, rfl⟩
abbrev main_call6_v4 : Ref sig .tc := ⟨.hbm, 265, rfl⟩
abbrev main_call6_v5 : Ref sig .tc := ⟨.hbm, 266, rfl⟩
abbrev main_call6_v6 : Ref sig .tc := ⟨.hbm, 267, rfl⟩
abbrev main_call6_v7 : Ref sig .tc := ⟨.hbm, 268, rfl⟩
abbrev main_call6_cst_1 : Ref sig .tc := ⟨.hbm, 269, rfl⟩
abbrev main_call6_v8 : Ref sig .tc := ⟨.hbm, 270, rfl⟩
abbrev main_call6_cst_2 : Ref sig .tc := ⟨.hbm, 271, rfl⟩
abbrev main_call6_v9 : Ref sig .tc := ⟨.hbm, 272, rfl⟩
abbrev main_call6_v10 : Ref sig .tc := ⟨.hbm, 273, rfl⟩
abbrev main_call6_v11 : Ref sig .tc := ⟨.hbm, 274, rfl⟩
abbrev main_call6_cst_3 : Ref sig .tc := ⟨.hbm, 275, rfl⟩
abbrev main_call6_v12 : Ref sig .tc := ⟨.hbm, 276, rfl⟩
abbrev main_call6_cst_4 : Ref sig .tc := ⟨.hbm, 277, rfl⟩
abbrev main_call6_call0_v0 : Ref sig .tc := ⟨.hbm, 278, rfl⟩
abbrev main_call6_call0_v1 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_cst_21 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_call7_cst : Ref sig .tc := ⟨.hbm, 297, rfl⟩
abbrev main_call7_v0 : Ref sig .tc := ⟨.hbm, 298, rfl⟩
abbrev main_v167 : Ref sig .tc := ⟨.hbm, 299, rfl⟩
abbrev main_c_22 : Ref sig .tc := ⟨.hbm, 300, rfl⟩
abbrev main_v168 : Ref sig .tc := ⟨.hbm, 301, rfl⟩
abbrev main_v169 : Ref sig .tc := ⟨.hbm, 302, rfl⟩
abbrev main_c_23 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_cst_24 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_cst_25 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_cst_26 : Ref sig .tc := ⟨.hbm, 332, rfl⟩
abbrev main_v196 : Ref sig .tc := ⟨.hbm, 333, rfl⟩
abbrev main_cst_27 : Ref sig .tc := ⟨.hbm, 334, rfl⟩
abbrev main_v197 : Ref sig .tc := ⟨.hbm, 335, rfl⟩
abbrev main_v198 : Ref sig .tc := ⟨.hbm, 336, rfl⟩
abbrev main_c_28 : Ref sig .tc := ⟨.hbm, 337, rfl⟩
abbrev main_call8_cst : Ref sig .tc := ⟨.hbm, 338, rfl⟩
abbrev main_call8_v0 : Ref sig .tc := ⟨.hbm, 339, rfl⟩
abbrev main_call8_v1 : Ref sig .tc := ⟨.hbm, 340, rfl⟩
abbrev main_call8_cst_0 : Ref sig .tc := ⟨.hbm, 341, rfl⟩
abbrev main_call8_v2 : Ref sig .tc := ⟨.hbm, 342, rfl⟩
abbrev main_call8_v3 : Ref sig .tc := ⟨.hbm, 343, rfl⟩
abbrev main_call8_v4 : Ref sig .tc := ⟨.hbm, 344, rfl⟩
abbrev main_call8_v5 : Ref sig .tc := ⟨.hbm, 345, rfl⟩
abbrev main_call8_v6 : Ref sig .tc := ⟨.hbm, 346, rfl⟩
abbrev main_call8_v7 : Ref sig .tc := ⟨.hbm, 347, rfl⟩
abbrev main_call8_cst_1 : Ref sig .tc := ⟨.hbm, 348, rfl⟩
abbrev main_call8_v8 : Ref sig .tc := ⟨.hbm, 349, rfl⟩
abbrev main_call8_cst_2 : Ref sig .tc := ⟨.hbm, 350, rfl⟩
abbrev main_call8_v9 : Ref sig .tc := ⟨.hbm, 351, rfl⟩
abbrev main_call8_v10 : Ref sig .tc := ⟨.hbm, 352, rfl⟩
abbrev main_call8_v11 : Ref sig .tc := ⟨.hbm, 353, rfl⟩
abbrev main_call8_cst_3 : Ref sig .tc := ⟨.hbm, 354, rfl⟩
abbrev main_call8_v12 : Ref sig .tc := ⟨.hbm, 355, rfl⟩
abbrev main_call8_cst_4 : Ref sig .tc := ⟨.hbm, 356, rfl⟩
abbrev main_call8_call0_v0 : Ref sig .tc := ⟨.hbm, 357, rfl⟩
abbrev main_call8_call0_v1 : Ref sig .tc := ⟨.hbm, 358, rfl⟩
abbrev main_v199 : Ref sig .tc := ⟨.hbm, 359, rfl⟩
abbrev main_v200 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_v205 : Ref sig .tc := ⟨.hbm, 365, rfl⟩
abbrev main_cst_29 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_call9_cst : Ref sig .tc := ⟨.hbm, 376, rfl⟩
abbrev main_call9_v0 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_v223 : Ref sig .tc := ⟨.hbm, 386, rfl⟩
abbrev main_v224 : Ref sig .tc := ⟨.hbm, 387, rfl⟩
abbrev main_v225 : Ref sig .tc := ⟨.hbm, 388, rfl⟩
abbrev main_v226 : Ref sig .tc := ⟨.hbm, 389, rfl⟩
abbrev main_v227 : Ref sig .tc := ⟨.hbm, 390, rfl⟩
abbrev main_cst_30 : Ref sig .tc := ⟨.hbm, 391, rfl⟩
abbrev main_v228 : Ref sig .tc := ⟨.hbm, 392, rfl⟩
abbrev main_cst_31 : Ref sig .tc := ⟨.hbm, 393, rfl⟩
abbrev main_v229 : Ref sig .tc := ⟨.hbm, 394, rfl⟩
abbrev main_v230 : Ref sig .tc := ⟨.hbm, 395, rfl⟩
abbrev main_c_32 : Ref sig .tc := ⟨.hbm, 396, rfl⟩
abbrev main_call10_cst : Ref sig .tc := ⟨.hbm, 397, rfl⟩
abbrev main_call10_v0 : Ref sig .tc := ⟨.hbm, 398, rfl⟩
abbrev main_call10_v1 : Ref sig .tc := ⟨.hbm, 399, rfl⟩
abbrev main_call10_cst_0 : Ref sig .tc := ⟨.hbm, 400, rfl⟩
abbrev main_call10_v2 : Ref sig .tc := ⟨.hbm, 401, rfl⟩
abbrev main_call10_v3 : Ref sig .tc := ⟨.hbm, 402, rfl⟩
abbrev main_call10_v4 : Ref sig .tc := ⟨.hbm, 403, rfl⟩
abbrev main_call10_v5 : Ref sig .tc := ⟨.hbm, 404, rfl⟩
abbrev main_call10_v6 : Ref sig .tc := ⟨.hbm, 405, rfl⟩
abbrev main_call10_v7 : Ref sig .tc := ⟨.hbm, 406, rfl⟩
abbrev main_call10_cst_1 : Ref sig .tc := ⟨.hbm, 407, rfl⟩
abbrev main_call10_v8 : Ref sig .tc := ⟨.hbm, 408, rfl⟩
abbrev main_call10_cst_2 : Ref sig .tc := ⟨.hbm, 409, rfl⟩
abbrev main_call10_v9 : Ref sig .tc := ⟨.hbm, 410, rfl⟩
abbrev main_call10_v10 : Ref sig .tc := ⟨.hbm, 411, rfl⟩
abbrev main_call10_v11 : Ref sig .tc := ⟨.hbm, 412, rfl⟩
abbrev main_call10_cst_3 : Ref sig .tc := ⟨.hbm, 413, rfl⟩
abbrev main_call10_v12 : Ref sig .tc := ⟨.hbm, 414, rfl⟩
abbrev main_call10_cst_4 : Ref sig .tc := ⟨.hbm, 415, rfl⟩
abbrev main_call10_call0_v0 : Ref sig .tc := ⟨.hbm, 416, rfl⟩
abbrev main_call10_call0_v1 : Ref sig .tc := ⟨.hbm, 417, rfl⟩
abbrev main_v231 : Ref sig .tc := ⟨.hbm, 418, rfl⟩
abbrev main_v232 : Ref sig .tc := ⟨.hbm, 419, rfl⟩
abbrev main_v233 : Ref sig .tc := ⟨.hbm, 420, rfl⟩
abbrev main_v234 : Ref sig .tc := ⟨.hbm, 421, rfl⟩
abbrev main_v235 : Ref sig .tc := ⟨.hbm, 422, rfl⟩
abbrev main_v236 : Ref sig .tc := ⟨.hbm, 423, rfl⟩
abbrev main_v237 : Ref sig .tc := ⟨.hbm, 424, rfl⟩
abbrev main_cst_33 : Ref sig .tc := ⟨.hbm, 425, rfl⟩
abbrev main_v238 : Ref sig .tc := ⟨.hbm, 426, rfl⟩
abbrev main_v239 : Ref sig .tc := ⟨.hbm, 427, rfl⟩
abbrev main_v240 : Ref sig .tc := ⟨.hbm, 428, rfl⟩
abbrev main_v241 : Ref sig .tc := ⟨.hbm, 429, rfl⟩
abbrev main_v242 : Ref sig .tc := ⟨.hbm, 430, rfl⟩
abbrev main_v243 : Ref sig .tc := ⟨.hbm, 431, rfl⟩
abbrev main_v244 : Ref sig .tc := ⟨.hbm, 432, rfl⟩
abbrev main_v245 : Ref sig .tc := ⟨.hbm, 433, rfl⟩
abbrev main_v246 : Ref sig .tc := ⟨.hbm, 434, rfl⟩
abbrev main_call11_cst : Ref sig .tc := ⟨.hbm, 435, rfl⟩
abbrev main_call11_v0 : Ref sig .tc := ⟨.hbm, 436, rfl⟩
abbrev main_v247 : Ref sig .tc := ⟨.hbm, 437, rfl⟩
abbrev main_cst_34 : Ref sig .tc := ⟨.hbm, 438, rfl⟩
abbrev main_v248 : Ref sig .tc := ⟨.hbm, 439, rfl⟩
abbrev main_v249 : Ref sig .tc := ⟨.hbm, 440, rfl⟩
abbrev main_v250 : Ref sig .tc := ⟨.hbm, 441, rfl⟩
abbrev main_cst_35 : Ref sig .tc := ⟨.hbm, 442, rfl⟩
abbrev main_v251 : Ref sig .tc := ⟨.hbm, 443, rfl⟩
abbrev main_cst_36 : Ref sig .tc := ⟨.hbm, 444, rfl⟩
abbrev main_v252 : Ref sig .tc := ⟨.hbm, 445, rfl⟩
abbrev main_v253 : Ref sig .tc := ⟨.hbm, 446, rfl⟩
abbrev main_v254 : Ref sig .tc := ⟨.hbm, 447, rfl⟩
abbrev main_cst_37 : Ref sig .tc := ⟨.hbm, 448, rfl⟩
abbrev main_v255 : Ref sig .tc := ⟨.hbm, 449, rfl⟩
abbrev main_v256 : Ref sig .tc := ⟨.hbm, 450, rfl⟩
abbrev main_v257 : Ref sig .tc := ⟨.hbm, 451, rfl⟩
abbrev main_v258 : Ref sig .tc := ⟨.hbm, 452, rfl⟩
abbrev main_v259 : Ref sig .tc := ⟨.hbm, 453, rfl⟩
abbrev main_v260 : Ref sig .tc := ⟨.hbm, 454, rfl⟩
abbrev main_v261 : Ref sig .tc := ⟨.hbm, 455, rfl⟩
abbrev main_v262 : Ref sig .tc := ⟨.hbm, 456, rfl⟩
abbrev main_v263 : Ref sig .tc := ⟨.hbm, 457, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S20000x128_S128_d0 : S20000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S20000_S20000x1_0 : S20000.BroadcastsInDim S20000x1 (![0] : Fin 1 → Fin S20000x1.rank)
  bcast_S_S20000 : S_.BroadcastsInDim S20000 (![] : Fin 0 → Fin S20000.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S20000x1_S1x128_S20000x128_1_0_0_1_n_n_wf : DotDims.WF S20000x1 S1x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []
  scatter_S128x128_S20000x1_S20000x128_1_0_0_1_wf : ScatterDims.WF S128x128 S20000x1 S20000x128 [1] [0] [0] 1
  scatter_S128_S20000x1_S20000_n_0_0_1_wf : ScatterDims.WF S128 S20000x1 S20000 [] [0] [0] 1
  dot_S128x128_S128x2_S128x2_1_0_0_1_n_n_wf : DotDims.WF S128x128 S128x2 S128x2 [1] [0] [0] [1] [] []

variable [Facts₀]

def dot_S20000x1_S1x128_S20000x128_1_0_0_1_n_n : DotDims S20000x1 S1x128 S20000x128 where
  lhsContracting := [1]
  rhsContracting := [0]
  lhsNonContracting := [0]
  rhsNonContracting := [1]
  lhsBatch := []
  rhsBatch := []
  wf := dot_S20000x1_S1x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KB.Reg0.lean ====
/- Region 0 of @main (the encoder kernel `cc0__encoder_kernel`, pipeline 0) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (unfetched, the block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (unfetched, the block index has not moved), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (unfetched, the block index has not moved), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole of their buffer -/

abbrev r0_0 : Rect S2000x1 := Rect.unit (s := S2000x1) ![0, 0] S2000x1.size inb_S2000x1_S2000x1_0_0
abbrev r0_1 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- Window 3's staging buffer after the body, from the three input blocks: the one store's payload
    `x · W + b` (each operand broadcast to 2000x128) laid over the whole buffer. -/
def out0_3 (x0 : Vec F S2000x1 .f32) (x1 : Vec F S1x128 .f32) (x2 : Vec F S1x128 .f32) : Vec F S2000x128 .f32 :=
  View.canon [⟨r0_3, k0_pay1 (View.ld x0 r0_0) (View.ld x1 r0_1) (View.ld x2 r0_1)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The kernel body on whole staging memrefs, the inputs' at contents `x0 x1 x2` and the output's at anything, runs to
    the continuation holding the inputs' as they were and the output's at `out0_3 x0 x1 x2`. -/
theorem sound_kernel0 (c : Dev nD) (E : Set ℕ) (i : grid0.Coords)
    (arg1 : Memref sig .tc .vmem S2000x1 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x1 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (j : Fin (cfg0.N + 1)) : (dat0 V c).Φ j = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.Reg1.lean ====
/-
  Region 1 of the kernel: the first dense map of layer one, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    its block index has not moved): the tile of rows, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the weight matrix, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one condition -/

/-- "This is the first tile": the body's comparison of the grid coordinate with zero, as it computes it. -/
abbrev cond1_0 (i : grid1.Coords) : Prop := (Scalar.cmpi .ne (Scalar.extui (Scalar.cmpi .eq (BitVec.ofNat 32 (i 0).val) 0#32)) 0#32) = 1#1
/-- It holds at point 0 and at no other of the ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- One staging buffer of each output window, through which its contents are stated. -/
abbrev VO1_3 : View sig .tc .vmem S2000x128 .f32 := (Memref.whole cc1_stg3_0 : Memref sig .tc .vmem S2000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun1_A (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__stage1_kernel i arg1 harg1 arg2 harg2 arg3 harg3 arg4 harg4 arg5 harg5 arg6 harg6) K } := by
  refine ⟨?_, ?_, ?_, fun E K => ?run⟩
  case run =>
    simp only [cc1__stage1_kernel_eq_skeleton]; unfold cc1__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun1_B (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__stage1_kernel i arg1 harg1 arg2 harg2 arg3 harg3 arg4 harg4 arg5 harg5 arg6 harg6) K } := by
  refine ⟨?_, ?_, ?_, fun E K => ?run⟩
  case run =>
    simp only [cc1__stage1_kernel_eq_skeleton]; unfold cc1__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover1_A_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S2000x128.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S2000x128.size (by sl_kernel_rfl) y

/-- What case A leaves in window 3's staging buffer: its pieces read back. -/
def out1_A_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S2000x128 .f32 :=
  VO1_3.read (Elt F) (VO1_3.writes (Elt F) VO1_3.junk (kernelRun1_A c i arg1 harg1 arg2 harg2 arg3 harg3 arg4 harg4 arg5 harg5 arg6 harg6 hc0 x0 x1 x2).1)

/-- The stores of window 4 in case A tile its block, so every index is written. -/
theorem cover1_A_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S1x128.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x128.size (by sl_kernel_rfl) y

/-- What case A leaves in window 4's staging buffer: its pieces read back. -/
def out1_A_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S1x128 .f32 :=
  VO1_4.read (Elt F) (VO1_4.writes (Elt F) VO1_4.junk (kernelRun1_A c i arg1 harg1 arg2 harg2 arg3 harg3 arg4 harg4 arg5 harg5 arg6 harg6 hc0 x0 x1 x2).2.1)

/-- The stores of window 5 in case A tile its block, so every index is written. -/
theorem cover1_A_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S1x128.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1x128.size (by sl_kernel_rfl) y

/-- What case A leaves in window 5's staging buffer: its pieces read back. -/
def out1_A_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S1x128 .f32 :=
  VO1_5.read (Elt F) (VO1_5.writes (Elt F) VO1_5.junk (kernelRun1_A c i arg1 harg1 arg2 harg2 arg3 harg3 arg4 harg4 arg5 harg5 arg6 harg6 hc0 x0 x1 x2).2.2.1)

/-- The stores of window 3 in case B tile its block, so every index is written. -/
theorem cover1_B_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun1_B c i arg1 harg1 arg2 harg2 arg3 harg3 arg4 harg4 arg5 harg5 arg6 harg6 hc0 x0 x1 x2 xo4 xo5).1, y ∈ pc.1.set :=
  View.cover_of_tiledL (kernelRun1_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out1_B_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S2000x128 .f32 :=
  VO1_3.read (Elt F) (VO1_3.writes (Elt F) VO1_3.junk (kernelRun1_B c i arg1 harg1 arg2 harg2 arg3 harg3 arg4 harg4 arg5 harg5 arg6 harg6 hc0 x0 x1 x2 xo4 xo5).1)

/-- The stores of window 4 in case B tile its block, so every index is written. -/
theorem cover1_B_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun1_B c i arg1 harg1 arg2 harg2 arg3 harg3 arg4 harg4 arg5 harg5 arg6 harg6 hc0 x0 x1 x2 xo4 xo5).2.1, y ∈ pc.1.set :=
  View.cover_of_tiledL (kernelRun1_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out1_B_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S1x128 .f32 :=
  VO1_4.read (Elt F) (VO1_4.writes (Elt F) VO1_4.junk (kernelRun1_B c i arg1 harg1 arg2 harg2 arg3 harg3 arg4 harg4 arg5 harg5 arg6 harg6 hc0 x0 x1 x2 xo4 xo5).2.1)

/-- The stores of window 5 in case B tile its block, so every index is written. -/
theorem cover1_B_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun1_B c i arg1 harg1 arg2 harg2 arg3 harg3 arg4 harg4 arg5 harg5 arg6 harg6 hc0 x0 x1 x2 xo4 xo5).2.2.1, y ∈ pc.1.set :=
  View.cover_of_tiledL (kernelRun1_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out1_B_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S1x128 .f32 :=
  VO1_5.read (Elt F) (VO1_5.writes (Elt F) VO1_5.junk (kernelRun1_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)

/-- THE ACCUMULATION. What the three outputs' staging buffers hold after the body at point `n`: at the first tile what
    the first case leaves; at a later tile what the second case leaves, the two running rows read at what this
    gives at `n - 1` (their buffers are not written back in between). -/
def outsAt1 (c : Dev nD) : (n : ℕ) → n < cfg1.N → Vec F S2000x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩),
       out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 10 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at the first tile. -/
theorem outsAt1_A (c : Dev nD) (t : Fin cfg1.N) (h0 : t.val % 10 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
       out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a later tile, over what the point before left. -/
theorem outsAt1_B (c : Dev nD) (t : Fin cfg1.N) (h0 : ¬t.val % 10 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
       out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 1 on core `c`: the arrays as the region finds them; after the body at point `t` each
    input's buffer at its block and the outputs' at `outsAt1`; the invariant says nothing of the windows; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi1 (c : Dev nD) (j : Fin (cfg1.N + 1)) : (dat1 V c).Φ j = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later tile the buffer of the running sums holds what the body left at the point before: it is written back
    after the last point only, and the window is live and uncut. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-- The same for the running sums of squares. -/
theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2.2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 10 := lt_of_lt_of_eq t.isLt (show cfg1.N = 10 from N_1)
  by_cases h0 : t.val % 10 = 0
  · rw [outsAt1_A V c t h0]
    dsimp only
    unfold out1_A_3 out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _)
  · rw [outsAt1_B V c t h0]
    simp only [before1_4_B V c t h0, before1_5_B V c t h0]
    (try dsimp only)
    unfold out1_B_3 out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

/-! Region 2 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every tile, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every tile, fetched there or not (when it is not
    fetched its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every tile, fetched there or not (when it is not
    fetched its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every tile, fetched there or not (when it is not
    fetched its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every tile, fetched there or not (when it is not
    fetched its block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every tile, fetched there or not (when it is not
    fetched its block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every tile, fetched there or not (when it is not
    fetched its block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch -/

/-- The body's one branch asks whether the tile is the first. -/
abbrev cond2_0 (i : grid2.Coords) : Prop := (Scalar.cmpi .ne (Scalar.extui (Scalar.cmpi .eq (BitVec.ofNat 32 (i 0).val) 0#32)) 0#32) = 1#1
/-- It is, at tile 0 only: decided over the ten tiles. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of each output window, through which its contents are stated. -/
abbrev VO2_7 : View sig .tc .vmem S2000x128 .f32 := (Memref.whole cc2_stg7_0 : Memref sig .tc .vmem S2000x128 .f32).view
abbrev VO2_8 : View sig .tc .vmem S1x128 .f32 := (Memref.whole cc2_stg8_0 : Memref sig .tc .vmem S1x128 .f32).view
abbrev VO2_9 : View sig .tc .vmem S1x128 .f32 := (Memref.whole cc2_stg9_0 : Memref sig .tc .vmem S1x128 .f32).view
/-- Each window's current staging memref at tile t, as the pipeline passes it to the body, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun2_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__stage2_kernel_eq_skeleton]; unfold cc2__stage2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun2_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__stage2_kernel_eq_skeleton]; unfold cc2__stage2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover2_A_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out2_A_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover2_A_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out2_A_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover2_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out2_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover2_B_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out2_B_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover2_B_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out2_B_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover2_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out2_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt2 (c : Dev nD) : (n : ℕ) → n < cfg2.N → Vec F S2000x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩),
       out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩),
       out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩),
       out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩),
       out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2,
       out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2,
       out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2)

/-- At the first tile: the first tile's contents. -/
theorem outsAt2_A (c : Dev nD) (t : Fin cfg2.N) (h0 : t.val % 10 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t),
       out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- At a later tile: the later-tile contents over what the tile before left. -/
theorem outsAt2_B (c : Dev nD) (t : Fin cfg2.N) (h0 : ¬t.val % 10 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2,
       out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Its invariant is the scoped rest and the generator register, at every tile. -/
theorem Phi2 (c : Dev nD) (j) : (dat2 V c).Φ j = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2 := by dsimp only [dat2]

/-- Each input's current staging buffer holds its block at every tile. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- At a later tile the running row of window 8 holds what the body left at the tile before: the tile is not the first,
    the buffer was not written back in between, the window is uncut. -/
theorem before2_8_B (c : Dev nD) (t : Fin cfg2.N) (h0 : ¬t.val % 10 = 0) (d) :
    (dat2 V c).before 8 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 8 rfl t (by omega) (Bool.eq_false_iff.mpr fun h => by have := (flush2_8 _).mp h; dsimp only at this; omega)
    (fun _ => rfl) (fun _ _ => rfl)]
  dsimp only [dat2]

/-- At a later tile the running row of window 9 holds what the body left at the tile before: the tile is not the first,
    the buffer was not written back in between, the window is uncut. -/
theorem before2_9_B (c : Dev nD) (t : Fin cfg2.N) (h0 : ¬t.val % 10 = 0) (d) :
    (dat2 V c).before 9 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic tile -/

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  have hN : t.val < 10 := lt_of_lt_of_eq t.isLt (show cfg2.N = 10 from N_2)
  by_cases h0 : t.val % 10 = 0
  · rw [outsAt2_A V c t h0]
    dsimp only
    unfold out2_A_7 out2_A_8 out2_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover2_A_9 c _ _ _ _ _ _ _ _ _ _ _ _ _ _ _ _ _ _ _ _ _ _ _ _ _ _ _ _ _)
  · rw [outsAt2_B V c t h0]
    dsimp only
    simp only [before2_8_B V c t h0, before2_9_B V c t h0]
    unfold out2_B_7 out2_B_8 out2_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover2_B_9 c _ _ _ _ _ _ _ _ _ _ _ _ _ _ _ _ _ _ _ _ _ _ _ _ _ _ _ _ _ _ _)

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/- Region 3 of @main (the normalise-and-rectify kernel `cc3__stage3_kernel`, pipeline 3) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (unfetched, the block index has not moved), for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (unfetched, the block index has not moved), for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (unfetched, the block index has not moved), for any proof data whose array is `V`'s and whose body leaves
    the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched there
    (unfetched, the block index has not moved), for any proof data whose array is `V`'s and whose body leaves
    the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not it was fetched there
    (unfetched, the block index has not moved), for any proof data whose array is `V`'s and whose body leaves
    the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole of their buffer -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out3_5 (x0 : Vec F S2000x128 .f32) (x1 x2 x3 x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The one store covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at contents `x0 … x4` and the output's at anything, runs to
    the continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__stage3_kernel i arg1 harg1 arg2 harg2 arg3 harg3 arg4 harg4 arg5 harg5 arg6 harg6) K := by
  simp only [cc3__stage3_kernel_eq_skeleton]; unfold cc3__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point. -/
theorem Phi3 (c : Dev nD) (j : Fin (cfg3.N + 1)) : (dat3 V c).Φ j = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KB.Reg4.lean ====
/-
  Region 4 of the kernel: the first dense map of layer two, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched
    its block index has not moved): the tile of rows, -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- the weight matrix, -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- and the bias row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one condition -/

/-- "This is the first tile": the body's comparison of the grid coordinate with zero, as it computes it. -/
abbrev cond4_0 (i : grid4.Coords) : Prop := (Scalar.cmpi .ne (Scalar.extui (Scalar.cmpi .eq (BitVec.ofNat 32 (i 0).val) 0#32)) 0#32) = 1#1
/-- It holds at point 0 and at no other of the ten. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S2000x128 .f32 := (Memref.whole cc4_stg3_0 : Memref sig .tc .vmem S2000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun4_A (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__stage1_kernel i arg1 harg1 arg2 harg2 arg3 harg3 arg4 harg4 arg5 harg5 arg6 harg6) K } := by
  refine ⟨?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun4_B (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__stage1_kernel i arg1 harg1 arg2 harg2 arg3 harg3 arg4 harg4 arg5 harg5 arg6 harg6) K } := by
  refine ⟨?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover4_A_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S2000x128.Idx) :
    ∃ pc ∈ (kernelRun4_A c i arg1 harg1 arg2 harg2 arg3 harg3 arg4 harg4 arg5 harg5 arg6 harg6 hc0 x0 x1 x2).1, y ∈ pc.1.set :=
  View.cover_of_tiledL (kernelRun4_A c i arg1 harg1 arg2 harg2 arg3 harg3 arg4 harg4 arg5 harg5 arg6 harg6 hc0 x0 x1 x2).1 S2000x128.size (by sl_kernel_rfl) y

/-- What case A leaves in window 3's staging buffer: its pieces read back. -/
def out4_A_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S2000x128 .f32 :=
  VO4_3.read (Elt F) (VO4_3.writes (Elt F) VO4_3.junk (kernelRun4_A c i arg1 harg1 arg2 harg2 arg3 harg3 arg4 harg4 arg5 harg5 arg6 harg6 hc0 x0 x1 x2).1)

/-- The stores of window 4 in case A tile its block, so every index is written. -/
theorem cover4_A_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.1, y ∈ pc.1.set :=
  View.cover_of_tiledL (kernelRun4_A c i arg1 harg1 arg2 harg2 arg3 harg3 arg4 harg4 arg5 harg5 arg6 harg6 hc0 x0 x1 x2).2.1 S1x128.size (by sl_kernel_rfl) y

/-- What case A leaves in window 4's staging buffer: its pieces read back. -/
def out4_A_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S1x128 .f32 :=
  VO4_4.read (Elt F) (VO4_4.writes (Elt F) VO4_4.junk (kernelRun4_A c i arg1 harg1 arg2 harg2 arg3 harg3 arg4 harg4 arg5 harg5 arg6 harg6 hc0 x0 x1 x2).2.1)

/-- The stores of window 5 in case A tile its block, so every index is written. -/
theorem cover4_A_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.2.1, y ∈ pc.1.set :=
  View.cover_of_tiledL (kernelRun4_A c i arg1 harg1 arg2 harg2 arg3 harg3 arg4 harg4 arg5 harg5 arg6 harg6 hc0 x0 x1 x2).2.2.1 S1x128.size (by sl_kernel_rfl) y

/-- What case A leaves in window 5's staging buffer: its pieces read back. -/
def out4_A_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 hc0 x0 x1 x2).2.2.1)

/-- The stores of window 3 in case B tile its block, so every index is written. -/
theorem cover4_B_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun4_B c i arg1 harg1 arg2 harg2 arg3 harg3 arg4 harg4 arg5 harg5 arg6 harg6 hc0 x0 x1 x2 xo4 xo5).1, y ∈ pc.1.set :=
  View.cover_of_tiledL (kernelRun4_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out4_B_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S2000x128 .f32 :=
  VO4_3.read (Elt F) (VO4_3.writes (Elt F) VO4_3.junk (kernelRun4_B c i arg1 harg1 arg2 harg2 arg3 harg3 arg4 harg4 arg5 harg5 arg6 harg6 hc0 x0 x1 x2 xo4 xo5).1)

/-- The stores of window 4 in case B tile its block, so every index is written. -/
theorem cover4_B_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.1, y ∈ pc.1.set :=
  View.cover_of_tiledL (kernelRun4_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out4_B_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S1x128 .f32 :=
  VO4_4.read (Elt F) (VO4_4.writes (Elt F) VO4_4.junk (kernelRun4_B c i arg1 harg1 arg2 harg2 arg3 harg3 arg4 harg4 arg5 harg5 arg6 harg6 hc0 x0 x1 x2 xo4 xo5).2.1)

/-- The stores of window 5 in case B tile its block, so every index is written. -/
theorem cover4_B_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.2.1, y ∈ pc.1.set :=
  View.cover_of_tiledL (kernelRun4_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out4_B_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-- THE ACCUMULATION. What the three outputs' staging buffers hold after the body at point `n`: at the first tile what
    the first case leaves; at a later tile what the second case leaves, the two running rows read at what this
    gives at `n - 1` (their buffers are not written back in between). -/
def outsAt4 (c : Dev nD) : (n : ℕ) → n < cfg4.N → Vec F S2000x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩))
  | n + 1, hn =>
    if h0 : (n + 1) % 10 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2)

/-- `outsAt4` at the first tile. -/
theorem outsAt4_A (c : Dev nD) (t : Fin cfg4.N) (h0 : t.val % 10 = 0) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)) := by
  obtain ⟨n, hn⟩ := t
  cases n with
  | zero => exact rfl
  | succ n => exact (dif_pos h0).trans rfl

/-- `outsAt4` at a later tile, over what the point before left. -/
theorem outsAt4_B (c : Dev nD) (t : Fin cfg4.N) (h0 : ¬t.val % 10 = 0) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 4 on core `c`: the arrays as the region finds them; after the body at point `t` each
    input's buffer at its block and the outputs' at `outsAt4`; the invariant says nothing of the windows; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem Phi4 (c : Dev nD) (j : Fin (cfg4.N + 1)) : (dat4 V c).Φ j = Pipeline.ΦA spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- At a later tile the buffer of the running sums holds what the body left at the point before: it is written back
    after the last point only, and the window is live and uncut. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]

/-- The same for the running sums of squares. -/
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    dsimp only
    unfold out4_A_3 out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 c _ _ _ _ _ _ _ _ _ _ _ _ _ _ _ _ _)
    isplitl [H4]
    · unfold owns; iexists _; isplitr
      swap; · iexact H4
      ipureintro; exact View.read_writes_of_cover _ _ _ _ _ (cover4_A_4 c _ _ _ _ _ _ _ _ _ _ _ _ _ _ _ _ _)
    unfold owns; iexists _; isplitr
    swap; · iexact H5
    ipureintro; exact View.read_writes_of_cover _ _ _ _ _ (cover4_A_5 c _ _ _ _ _ _ _ _ _ _ _ _ _ _ _ _ _)
  · rw [outsAt4_B V c t h0]
    simp only [before4_4_B V c t h0, before4_5_B V c t h0]
    (try dsimp only)
    unfold out4_B_3 out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 c _ _ _ _ _ _ _ _ _ _ _ _ _ _ _ _ _ _ _)
    isplitl [H4]
    · unfold owns; iexists _; isplitr
      swap; · iexact H4
      ipureintro; exact View.read_writes_of_cover _ _ _ _ _ (cover4_B_4 c _ _ _ _ _ _ _ _ _ _ _ _ _ _ _ _ _ _ _)
    unfold owns; iexists _; isplitr
    swap; · iexact H5
    ipureintro; exact View.read_writes_of_cover _ _ _ _ _ (cover4_B_5 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

/-! Region 5 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every tile, fetched there or not (when it is not
    fetched its block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every tile, fetched there or not (when it is not
    fetched its block index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every tile, fetched there or not (when it is not
    fetched its block index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every tile, fetched there or not (when it is not
    fetched its block index has not moved). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every tile, fetched there or not (when it is not
    fetched its block index has not moved). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every tile, fetched there or not (when it is not
    fetched its block index has not moved). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every tile, fetched there or not (when it is not
    fetched its block index has not moved). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch -/

/-- The body's one branch asks whether the tile is the first. -/
abbrev cond5_0 (i : grid5.Coords) : Prop := (Scalar.cmpi .ne (Scalar.extui (Scalar.cmpi .eq (BitVec.ofNat 32 (i 0).val) 0#32)) 0#32) = 1#1
/-- It is, at tile 0 only: decided over the ten tiles. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs -/

/-- One staging buffer of each output window, through which its contents are stated. -/
abbrev VO5_7 : View sig .tc .vmem S2000x128 .f32 := (Memref.whole cc5_stg7_0 : Memref sig .tc .vmem S2000x128 .f32).view
abbrev VO5_8 : View sig .tc .vmem S1x128 .f32 := (Memref.whole cc5_stg8_0 : Memref sig .tc .vmem S1x128 .f32).view
abbrev VO5_9 : View sig .tc .vmem S1x128 .f32 := (Memref.whole cc5_stg9_0 : Memref sig .tc .vmem S1x128 .f32).view
/-- Each window's current staging memref at tile t, as the pipeline passes it to the body, and its wholeness. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S2000x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x128 .f32 := win5_9.stage (cfg5.slots t 9)
abbrev hs5_9 (t : Fin cfg5.N) : (ms5_9 t).IsWhole := hstage5_9 ((cfg5.slots t 9).cast nbuf5_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun5_A (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun5_B (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover5_A_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out5_A_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover5_A_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out5_A_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover5_A_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out5_A_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover5_B_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out5_B_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover5_B_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out5_B_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover5_B_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out5_B_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO5_9.read (Elt F) (VO5_9.writes (Elt F) VO5_9.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt5 (c : Dev nD) : (n : ℕ) → n < cfg5.N → Vec F S2000x128 .f32 × Vec F S1x128 .f32 × Vec F S1x128 .f32
  | 0, hn => (out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩),
       out5_A_8 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩),
       out5_A_9 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩))
  | n + 1, hn =>
    if h0 : (n + 1) % 10 = 0 then
      (out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩),
       out5_A_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩),
       out5_A_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩))
    else
      (out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2,
       out5_B_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2,
       out5_B_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2)

/-- At the first tile: the first tile's contents. -/
theorem outsAt5_A (c : Dev nD) (t : Fin cfg5.N) (h0 : t.val % 10 = 0) :
    outsAt5 V c t.val t.isLt = (out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t),
       out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t),
       out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t)) := by
  obtain ⟨n, hn⟩ := t
  cases n with
  | zero => exact rfl
  | succ n => exact (dif_pos h0).trans rfl

/-- At a later tile: the later-tile contents over what the tile before left. -/
theorem outsAt5_B (c : Dev nD) (t : Fin cfg5.N) (h0 : ¬t.val % 10 = 0) :
    outsAt5 V c t.val t.isLt = (out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2,
       out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2,
       out5_B_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
    | ⟨9, _⟩ => (outsAt5 V c t.val t.isLt).2.2
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- Its invariant is the scoped rest and the generator register, at every tile. -/
theorem Phi5 (c : Dev nD) (j) : (dat5 V c).Φ j = Pipeline.ΦA spec5 c := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem after5_9 (c : Dev nD) (t : Fin cfg5.N) : (dat5 V c).after 9 t = (outsAt5 V c t.val t.isLt).2.2 := by dsimp only [dat5]

/-- Each input's current staging buffer holds its block at every tile. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- At a later tile the running row of window 8 holds what the body left at the tile before: the tile is not the first,
    the buffer was not written back in between, the window is uncut. -/
theorem before5_8_B (c : Dev nD) (t : Fin cfg5.N) (h0 : ¬t.val % 10 = 0) (d) :
    (dat5 V c).before 8 t d = (outsAt5 V c (t.val - 1) (Nat.lt_of_le_of_lt (Nat.sub_le _ _) t.isLt)).2.1 := by
  have hN : t.val < 10 := lt_of_lt_of_eq t.isLt (show cfg5.N = 10 from N_5)
  rw [Dat.before_out_kept _ 8 rfl t (by omega) (Bool.eq_false_iff.mpr fun h => by have := (flush5_8 _).mp h; dsimp only at this; omega)
    (fun _ => rfl) (fun _ _ => rfl)]
  dsimp only [dat5]

/-- At a later tile the running row of window 9 holds what the body left at the tile before: the tile is not the first,
    the buffer was not written back in between, the window is uncut. -/
theorem before5_9_B (c : Dev nD) (t : Fin cfg5.N) (h0 : ¬t.val % 10 = 0) (d) :
    (dat5 V c).before 9 t d = (outsAt5 V c (t.val - 1) (Nat.lt_of_le_of_lt (Nat.sub_le _ _) t.isLt)).2.2 := by
  have hN : t.val < 10 := lt_of_lt_of_eq t.isLt (show cfg5.N = 10 from N_5)
  rw [Dat.before_out_kept _ 9 rfl t (by omega) (Bool.eq_false_iff.mpr fun h => by have := (flush5_9 _).mp h; dsimp only at this; omega)
    (fun _ => rfl) (fun _ _ => rfl)]
  dsimp only [dat5]

/-! ## The body obligation, at a generic tile -/

/-- What the body is called with at tile t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t)
    ∗ owns (c : Thread nD τ) (ms5_8 t) fullShare ((dat5 V c).after 8 t)
    ∗ owns (c : Thread nD τ) (ms5_9 t) fullShare ((dat5 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  have hN : t.val < 10 := lt_of_lt_of_eq t.isLt (show cfg5.N = 10 from N_5)
  by_cases h0 : t.val % 10 = 0
  · rw [outsAt5_A V c t h0]
    dsimp only
    unfold out5_A_7 out5_A_8 out5_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_A c (grid5.coords t) _ _ _ _ _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t) (iblk5 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover5_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover5_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover5_A_9 c _ _ _ _ _ _ _ _ _ _ _ _ _ _ _ _ _ _ _ _ _ _ _ _ _ _ _ _ _)
  · rw [outsAt5_B V c t h0]
    dsimp only
    simp only [before5_8_B V c t h0, before5_9_B V c t h0]
    unfold out5_B_7 out5_B_8 out5_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_B c (grid5.coords t) _ _ _ _ _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) (iblk5 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover5_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover5_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover5_B_9 c _ _ _ _ _ _ _ _ _ _ _ _ _ _ _ _ _ _ _ _ _ _ _ _ _ _ _ _ _ _ _)

/-- The library's body obligation, at every tile. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
/- Region 6 of @main (the normalise-and-rectify kernel `cc6__stage3_kernel`, pipeline 6) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not it was fetched there
    (unfetched, the block index has not moved), for any proof data whose array is `V`'s and whose body leaves
    the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not it was fetched there
    (unfetched, the block index has not moved), for any proof data whose array is `V`'s and whose body leaves
    the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not it was fetched there
    (unfetched, the block index has not moved), for any proof data whose array is `V`'s and whose body leaves
    the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not it was fetched there
    (unfetched, the block index has not moved), for any proof data whose array is `V`'s and whose body leaves
    the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether or not it was fetched there
    (unfetched, the block index has not moved), for any proof data whose array is `V`'s and whose body leaves
    the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take the whole of their buffer -/

abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out6_5 (x0 : Vec F S2000x128 .f32) (x1 x2 x3 x4 : Vec F S1x128 .f32) : Vec F S2000x128 .f32 :=
  View.canon [⟨r6_0, k6_pay1 (View.ld x0 r6_0) (View.ld x1 r6_1) (View.ld x2 r6_1) (View.ld x3 r6_1) (View.ld x4 r6_1)⟩]

/-- The one store covers the buffer. -/
theorem cover6_5 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The kernel body on whole staging memrefs, the inputs' at contents `x0 … x4` and the output's at anything, runs to
    the continuation holding the inputs' as they were and the output's at `out6_5 x0 x1 x2 x3 x4`. -/
theorem sound_kernel6 (c : Dev nD) (E : Set ℕ) (i : grid6.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__stage3_kernel i arg1 harg1 arg2 harg2 arg3 harg3 arg4 harg4 arg5 harg5 arg6 harg6) K := by
  simp only [cc6__stage3_kernel_eq_skeleton]; unfold cc6__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t`
    each input's buffer at its block and the output's at `out6_5` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant is the same at every point. -/
theorem Phi6 (c : Dev nD) (j : Fin (cfg6.N + 1)) : (dat6 V c).Φ j = Pipeline.ΦA spec6 c := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the kernel's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.Reg7.lean ====
/-
  Region 7 of the kernel: the first dense map of layer three, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not (where it is not fetched
    its block index has not moved): the tile of rows, -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- the weight matrix, -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- and the bias row. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's one condition -/

/-- "This is the first tile": the body's comparison of the grid coordinate with zero, as it computes it. -/
abbrev cond7_0 (i : grid7.Coords) : Prop := (Scalar.cmpi .ne (Scalar.extui (Scalar.cmpi .eq (BitVec.ofNat 32 (i 0).val) 0#32)) 0#32) = 1#1
/-- It holds at point 0 and at no other of the ten. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated. -/
abbrev VO7_3 : View sig .tc .vmem S2000x128 .f32 := (Memref.whole cc7_stg3_0 : Memref sig .tc .vmem S2000x128 .f32).view
abbrev VO7_4 : View sig .tc .vmem S1x128 .f32 := (Memref.whole cc7_stg4_0 : Memref sig .tc .vmem S1x128 .f32).view
abbrev VO7_5 : View sig .tc .vmem S1x128 .f32 := (Memref.whole cc7_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun7_A (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__stage1_kernel i arg1 harg1 arg2 harg2 arg3 harg3 arg4 harg4 arg5 harg5 arg6 harg6) K } := by
  refine ⟨?_, ?_, ?_, fun E K => ?run⟩
  case run =>
    simp only [cc7__stage1_kernel_eq_skeleton]; unfold cc7__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun7_B (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__stage1_kernel i arg1 harg1 arg2 harg2 arg3 harg3 arg4 harg4 arg5 harg5 arg6 harg6) K } := by
  refine ⟨?_, ?_, ?_, fun E K => ?run⟩
  case run =>
    simp only [cc7__stage1_kernel_eq_skeleton]; unfold cc7__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover7_A_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S2000x128.Idx) :
    ∃ pc ∈ (kernelRun7_A c i arg1 harg1 arg2 harg2 arg3 harg3 arg4 harg4 arg5 harg5 arg6 harg6 hc0 x0 x1 x2).1, y ∈ pc.1.set :=
  View.cover_of_tiledL (kernelRun7_A c i arg1 harg1 arg2 harg2 arg3 harg3 arg4 harg4 arg5 harg5 arg6 harg6 hc0 x0 x1 x2).1 S2000x128.size (by sl_kernel_rfl) y

/-- What case A leaves in window 3's staging buffer: its pieces read back. -/
def out7_A_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S2000x128 .f32 :=
  VO7_3.read (Elt F) (VO7_3.writes (Elt F) VO7_3.junk (kernelRun7_A c i arg1 harg1 arg2 harg2 arg3 harg3 arg4 harg4 arg5 harg5 arg6 harg6 hc0 x0 x1 x2).1)

/-- The stores of window 4 in case A tile its block, so every index is written. -/
theorem cover7_A_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S1x128.Idx) :
    ∃ pc ∈ (kernelRun7_A c i arg1 harg1 arg2 harg2 arg3 harg3 arg4 harg4 arg5 harg5 arg6 harg6 hc0 x0 x1 x2).2.1, y ∈ pc.1.set :=
  View.cover_of_tiledL (kernelRun7_A c i arg1 harg1 arg2 harg2 arg3 harg3 arg4 harg4 arg5 harg5 arg6 harg6 hc0 x0 x1 x2).2.1 S1x128.size (by sl_kernel_rfl) y

/-- What case A leaves in window 4's staging buffer: its pieces read back. -/
def out7_A_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S1x128 .f32 :=
  VO7_4.read (Elt F) (VO7_4.writes (Elt F) VO7_4.junk (kernelRun7_A c i arg1 harg1 arg2 harg2 arg3 harg3 arg4 harg4 arg5 harg5 arg6 harg6 hc0 x0 x1 x2).2.1)

/-- The stores of window 5 in case A tile its block, so every index is written. -/
theorem cover7_A_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S1x128.Idx) :
    ∃ pc ∈ (kernelRun7_A c i arg1 harg1 arg2 harg2 arg3 harg3 arg4 harg4 arg5 harg5 arg6 harg6 hc0 x0 x1 x2).2.2.1, y ∈ pc.1.set :=
  View.cover_of_tiledL (kernelRun7_A c i arg1 harg1 arg2 harg2 arg3 harg3 arg4 harg4 arg5 harg5 arg6 harg6 hc0 x0 x1 x2).2.2.1 S1x128.size (by sl_kernel_rfl) y

/-- What case A leaves in window 5's staging buffer: its pieces read back. -/
def out7_A_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S1x128 .f32 :=
  VO7_5.read (Elt F) (VO7_5.writes (Elt F) VO7_5.junk (kernelRun7_A c i arg1 harg1 arg2 harg2 arg3 harg3 arg4 harg4 arg5 harg5 arg6 harg6 hc0 x0 x1 x2).2.2.1)

/-- The stores of window 3 in case B tile its block, so every index is written. -/
theorem cover7_B_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun7_B c i arg1 harg1 arg2 harg2 arg3 harg3 arg4 harg4 arg5 harg5 arg6 harg6 hc0 x0 x1 x2 xo4 xo5).1, y ∈ pc.1.set :=
  View.cover_of_tiledL (kernelRun7_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out7_B_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S2000x128 .f32 :=
  VO7_3.read (Elt F) (VO7_3.writes (Elt F) VO7_3.junk (kernelRun7_B c i arg1 harg1 arg2 harg2 arg3 harg3 arg4 harg4 arg5 harg5 arg6 harg6 hc0 x0 x1 x2 xo4 xo5).1)

/-- The stores of window 4 in case B tile its block, so every index is written. -/
theorem cover7_B_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.1, y ∈ pc.1.set :=
  View.cover_of_tiledL (kernelRun7_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out7_B_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S1x128 .f32 :=
  VO7_4.read (Elt F) (VO7_4.writes (Elt F) VO7_4.junk (kernelRun7_B c i arg1 harg1 arg2 harg2 arg3 harg3 arg4 harg4 arg5 harg5 arg6 harg6 hc0 x0 x1 x2 xo4 xo5).2.1)

/-- The stores of window 5 in case B tile its block, so every index is written. -/
theorem cover7_B_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.2.1, y ∈ pc.1.set :=
  View.cover_of_tiledL (kernelRun7_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out7_B_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S1x128 .f32 :=
  VO7_5.read (Elt F) (VO7_5.writes (Elt F) VO7_5.junk (kernelRun7_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2000x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)

/-- THE ACCUMULATION. What the three outputs' staging buffers hold after the body at point `n`: at the first tile what
    the first case leaves; at a later tile what the second case leaves, the two running rows read at what this
    gives at `n - 1` (their buffers are not written back in between). -/
def outsAt7 (c : Dev nD) : (n : ℕ) → n < cfg7.N → Vec F S2000x128 .f32 × Vec F S1x128 .f32 × Vec F S1x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩))
  | n + 1, hn =>
    if h0 : (n + 1) % 10 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2)

/-- `outsAt7` at the first tile. -/
theorem outsAt7_A (c : Dev nD) (t : Fin cfg7.N) (h0 : t.val % 10 = 0) :
    outsAt7 V c t.val t.isLt = (out7_A_3 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)) := by
  obtain ⟨n, hn⟩ := t
  cases n with
  | zero => exact rfl
  | succ n => exact (dif_pos h0).trans rfl

/-- `outsAt7` at a later tile, over what the point before left. -/
theorem outsAt7_B (c : Dev nD) (t : Fin cfg7.N) (h0 : ¬t.val % 10 = 0) :
    outsAt7 V c t.val t.isLt = (out7_B_3 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 7 on core `c`: the arrays as the region finds them; after the body at point `t` each
    input's buffer at its block and the outputs' at `outsAt7`; the invariant says nothing of the windows; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi7 (c : Dev nD) (j : Fin (cfg7.N + 1)) : (dat7 V c).Φ j = Pipeline.ΦA spec7 c := rfl

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- At a later tile the buffer of the running sums holds what the body left at the point before: it is written back
    after the last point only, and the window is live and uncut. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]

/-- The same for the running sums of squares. -/
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    dsimp only
    unfold out7_A_3 out7_A_4 out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (iblk7 V c 0 t) (iblk7 V c 1 t) (iblk7 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 c _ _ _ _ _ _ _ _ _ _ _ _ _ _ _ _ _)
    isplitl [H4]
    · unfold owns; iexists _; isplitr
      swap; · iexact H4
      ipureintro; exact View.read_writes_of_cover _ _ _ _ _ (cover7_A_4 c _ _ _ _ _ _ _ _ _ _ _ _ _ _ _ _ _)
    unfold owns; iexists _; isplitr
    swap; · iexact H5
    ipureintro; exact View.read_writes_of_cover _ _ _ _ _ (cover7_A_5 c _ _ _ _ _ _ _ _ _ _ _ _ _ _ _ _ _)
  · rw [outsAt7_B V c t h0]
    simp only [before7_4_B V c t h0, before7_5_B V c t h0]
    (try dsimp only)
    unfold out7_B_3 out7_B_4 out7_B_5
    iintro ⟨HΦ, Ho, ⟨%d0, H0⟩, ⟨%d1, H1⟩, ⟨%d2, H2⟩, ⟨%d3, H3⟩, ⟨%d4, H4⟩, ⟨%d5, H5⟩⟩
    iapply ((kernelRun7_B c (grid7.coords t) _ _ _ _ _ _ _ _ _ _ _ _ (fun h => h0 ((hcond7_0 t).mp h)) (iblk7 V c 0 t) (iblk7 V c 1 t) (iblk7 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 c _ _ _ _ _ _ _ _ _ _ _ _ _ _ _ _ _ _ _)
    isplitl [H4]
    · unfold owns; iexists _; isplitr
      swap; · iexact H4
      ipureintro; exact View.read_writes_of_cover _ _ _ _ _ (cover7_B_4 c _ _ _ _ _ _ _ _ _ _ _ _ _ _ _ _ _ _ _)
    unfold owns; iexists _; isplitr
    swap; · iexact H5
    ipureintro; exact View.read_writes_of_cover _ _ _ _ _ (cover7_B_5 c _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg8.lean ====
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Ring
import Idealize.ShloMosaic.Lib.Tactic

/-! Region 8 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every tile, fetched there or not (when it is not
    fetched its block index has not moved). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every tile, fetched there or not (when it is not
    fetched its block index has not moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every tile, fetched there or not (when it is not
    fetched its block index has not moved). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every tile, fetched there or not (when it is not
    fetched its block index has not moved). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every tile, fetched there or not (when it is not
    fetched its block index has not moved). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every tile, fetched there or not (when it is not
    fetched its block index has not moved). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds its block at every tile, fetched there or not (when it is not
    fetched its block index has not moved). -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch -/

/-- The body's one branch asks whether the tile is the first. -/
abbrev cond8_0 (i : grid8.Coords) : Prop := (Scalar.cmpi .ne (Scalar.extui (Scalar.cmpi .eq (BitVec.ofNat 32 (i 0).val) 0#32)) 0#32) = 1#1
/-- It is, at tile 0 only: decided over the ten tiles. -/
theorem hcond8_0 : ∀ t : Fin cfg8.N, cond8_0 (grid8.coords t) ↔ t.val % 10 = 0 :=
  (by decide +kernel : ∀ t : Fin grid8.N, cond8_0 (grid8.coords t) ↔ t.val % 10 = 0)

/-! ## The staging memrefs -/

/-- One staging buffer of each output window, through which its contents are stated. -/
abbrev VO8_7 : View sig .tc .vmem S2000x128 .f32 := (Memref.whole cc8_stg7_0 : Memref sig .tc .vmem S2000x128 .f32).view
abbrev VO8_8 : View sig .tc .vmem S1x128 .f32 := (Memref.whole cc8_stg8_0 : Memref sig .tc .vmem S1x128 .f32).view
abbrev VO8_9 : View sig .tc .vmem S1x128 .f32 := (Memref.whole cc8_stg9_0 : Memref sig .tc .vmem S1x128 .f32).view
/-- Each window's current staging memref at tile t, as the pipeline passes it to the body, and its wholeness. -/
abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S128x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S2000x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
abbrev ms8_9 (t : Fin cfg8.N) : Memref sig .tc .vmem S1x128 .f32 := win8_9.stage (cfg8.slots t 9)
abbrev hs8_9 (t : Fin cfg8.N) : (ms8_9 t).IsWhole := hstage8_9 ((cfg8.slots t 9).cast nbuf8_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun8_A (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc8__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc8__stage2_kernel_eq_skeleton]; unfold cc8__stage2_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun8_B (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc8__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc8__stage2_kernel_eq_skeleton]; unfold cc8__stage2_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover8_A_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out8_A_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO8_7.read (Elt F) (VO8_7.writes (Elt F) VO8_7.junk (kernelRun8_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover8_A_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out8_A_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO8_8.read (Elt F) (VO8_8.writes (Elt F) VO8_8.junk (kernelRun8_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover8_A_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out8_A_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO8_9.read (Elt F) (VO8_9.writes (Elt F) VO8_9.junk (kernelRun8_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover8_B_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out8_B_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO8_7.read (Elt F) (VO8_7.writes (Elt F) VO8_7.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover8_B_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out8_B_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO8_8.read (Elt F) (VO8_8.writes (Elt F) VO8_8.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover8_B_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out8_B_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO8_9.read (Elt F) (VO8_9.writes (Elt F) VO8_9.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt8 (c : Dev nD) : (n : ℕ) → n < cfg8.N → Vec F S2000x128 .f32 × Vec F S1x128 .f32 × Vec F S1x128 .f32
  | 0, hn => (out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩),
       out8_A_8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩),
       out8_A_9 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩))
  | n + 1, hn =>
    if h0 : (n + 1) % 10 = 0 then
      (out8_A_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩),
       out8_A_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩),
       out8_A_9 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩))
    else
      (out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2,
       out8_B_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2,
       out8_B_9 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2)

/-- At the first tile: the first tile's contents. -/
theorem outsAt8_A (c : Dev nD) (t : Fin cfg8.N) (h0 : t.val % 10 = 0) :
    outsAt8 V c t.val t.isLt = (out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t),
       out8_A_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t),
       out8_A_9 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t)) := by
  obtain ⟨n, hn⟩ := t
  cases n with
  | zero => exact rfl
  | succ n => exact (dif_pos h0).trans rfl

/-- At a later tile: the later-tile contents over what the tile before left. -/
theorem outsAt8_B (c : Dev nD) (t : Fin cfg8.N) (h0 : ¬t.val % 10 = 0) :
    outsAt8 V c t.val t.isLt = (out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2,
       out8_B_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2,
       out8_B_9 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt8; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => (outsAt8 V c t.val t.isLt).1
    | ⟨8, _⟩ => (outsAt8 V c t.val t.isLt).2.1
    | ⟨9, _⟩ => (outsAt8 V c t.val t.isLt).2.2
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Its invariant is the scoped rest and the generator register, at every tile. -/
theorem Phi8 (c : Dev nD) (j) : (dat8 V c).Φ j = Pipeline.ΦA spec8 c := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = (outsAt8 V c t.val t.isLt).1 := by dsimp only [dat8]
theorem after8_8 (c : Dev nD) (t : Fin cfg8.N) : (dat8 V c).after 8 t = (outsAt8 V c t.val t.isLt).2.1 := by dsimp only [dat8]
theorem after8_9 (c : Dev nD) (t : Fin cfg8.N) : (dat8 V c).after 9 t = (outsAt8 V c t.val t.isLt).2.2 := by dsimp only [dat8]

/-- Each input's current staging buffer holds its block at every tile. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-- At a later tile the running row of window 8 holds what the body left at the tile before: the tile is not the first,
    the buffer was not written back in between, the window is uncut. -/
theorem before8_8_B (c : Dev nD) (t : Fin cfg8.N) (h0 : ¬t.val % 10 = 0) (d) :
    (dat8 V c).before 8 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 8 rfl t (by omega) (Bool.eq_false_iff.mpr fun h => by have := (flush8_8 _).mp h; dsimp only at this; omega)
    (fun _ => rfl) (fun _ _ => rfl)]
  dsimp only [dat8]

/-- At a later tile the running row of window 9 holds what the body left at the tile before: the tile is not the first,
    the buffer was not written back in between, the window is uncut. -/
theorem before8_9_B (c : Dev nD) (t : Fin cfg8.N) (h0 : ¬t.val % 10 = 0) (d) :
    (dat8 V c).before 9 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 9 rfl t (by omega) (Bool.eq_false_iff.mpr fun h => by have := (flush8_9 _).mp h; dsimp only at this; omega)
    (fun _ => rfl) (fun _ _ => rfl)]
  dsimp only [dat8]

/-! ## The body obligation, at a generic tile -/

/-- What the body is called with at tile t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t)
    ∗ owns (c : Thread nD τ) (ms8_8 t) fullShare ((dat8 V c).after 8 t)
    ∗ owns (c : Thread nD τ) (ms8_9 t) fullShare ((dat8 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  have hN : t.val < 10 := lt_of_lt_of_eq t.isLt (show cfg8.N = 10 from N_8)
  by_cases h0 : t.val % 10 = 0
  · rw [outsAt8_A V c t h0]
    dsimp only
    unfold out8_A_7 out8_A_8 out8_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun8_A c (grid8.coords t) _ _ _ _ _ _ _ _ _ _ _ _ _ _ _ _ _ _ _ _ ((hcond8_0 t).mpr h0) (iblk8 V c 0 t) (iblk8 V c 1 t) (iblk8 V c 2 t) (iblk8 V c 3 t) (iblk8 V c 4 t) (iblk8 V c 5 t) (iblk8 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover8_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover8_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover8_A_9 c _ _ _ _ _ _ _ _ _ _ _ _ _ _ _ _ _ _ _ _ _ _ _ _ _ _ _ _ _)
  · rw [outsAt8_B V c t h0]
    dsimp only
    simp only [before8_8_B V c t h0, before8_9_B V c t h0]
    unfold out8_B_7 out8_B_8 out8_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun8_B c (grid8.coords t) _ _ _ _ _ _ _ _ _ _ _ _ _ _ _ _ _ _ _ _ (fun h => h0 ((hcond8_0 t).mp h)) (iblk8 V c 0 t) (iblk8 V c 1 t) (iblk8 V c 2 t) (iblk8 V c 3 t) (iblk8 V c 4 t) (iblk8 V c 5 t) (iblk8 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover8_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover8_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover8_B_9 c _ _ _ _ _ _ _ _ _ _ _ _ _ _ _ _ _ _ _ _ _ _ _ _ _ _ _ _ _ _ _)

/-- The library's body obligation, at every tile. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KB.Reg9.lean ====
/- Region 9 of @main (the normalise-and-rectify kernel `cc9__stage3_kernel`, pipeline 9) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not it was fetched there
    (unfetched, the block index has not moved), for any proof data whose array is `V`'s and whose body leaves
    the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not it was fetched there
    (unfetched, the block index has not moved), for any proof data whose array is `V`'s and whose body leaves
    the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not it was fetched there
    (unfetched, the block index has not moved), for any proof data whose array is `V`'s and whose body leaves
    the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether or not it was fetched there
    (unfetched, the block index has not moved), for any proof data whose array is `V`'s and whose body leaves
    the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether or not it was fetched there
    (unfetched, the block index has not moved), for any proof data whose array is `V`'s and whose body leaves
    the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take the whole of their buffer -/

abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out9_5 (x0 : Vec F S2000x128 .f32) (x1 x2 x3 x4 : Vec F S1x128 .f32) : Vec F S2000x128 .f32 :=
  View.canon [⟨r9_0, k9_pay1 (View.ld x0 r9_0) (View.ld x1 r9_1) (View.ld x2 r9_1) (View.ld x3 r9_1) (View.ld x4 r9_1)⟩]

/-- The one store covers the buffer. -/
theorem cover9_5 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The kernel body on whole staging memrefs, the inputs' at contents `x0 … x4` and the output's at anything, runs to
    the continuation holding the inputs' as they were and the output's at `out9_5 x0 x1 x2 x3 x4`. -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__stage3_kernel i arg1 harg1 arg2 harg2 arg3 harg3 arg4 harg4 arg5 harg5 arg6 harg6) K := by
  simp only [cc9__stage3_kernel_eq_skeleton]; unfold cc9__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them; after the body at point `t`
    each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the same at every point. -/
theorem Phi9 (c : Dev nD) (j : Fin (cfg9.N + 1)) : (dat9 V c).Φ j = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the kernel's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KB.Reg10.lean ====
/-
  Region 10, the mean pooling by graph and the read-out, at any interpretation of the floats. At every grid point the
  kernel adds one node tile's per-graph sums (the one-hot of the tile's graph numbers, transposed, times the tile's
  features) and per-graph node counts into two accumulators it keeps from point to point, zeroed at the first point; at
  the last point it stores the logits computed from what the accumulators then hold. Here: the blocks the windows hand the
  body; the accumulators' contents after each point, a recursion on the point; the region's invariant, which carries the
  two accumulators at those contents beside the scoped buffers it leaves alone; the proof data; the body's triple in its
  three cases (first point, a point in between, last point) and the obligation at every point; the invariant's entry
  and exit.
-/
import proofs.«411025_j54640573939922_1_alg».proof.Proof.Gen.Kernel.Launch
import proofs.«411025_j54640573939922_1_alg».proof.Proof.Gen.Kernel.Skeleton
import proofs.«411025_j54640573939922_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Stores and loads through a buffer's whole rectangle -/

theorem zero2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-- A load through the whole rectangle reads the contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-- Every load of the body is through a buffer's whole rectangle, and so is every read-back of a store made earlier at the same point. -/
macro "whole_reads" : tactic => `(tactic| simp only [readAt_whole (S := S2000x128) _ _ zero2, readAt_whole (S := S2000x1) _ _ zero2, readAt_whole (S := S128x128) _ _ zero2, readAt_whole (S := S128x1) _ _ zero2, readAt_whole (S := S128x2) _ _ zero2, readAt_whole (S := S1x2) _ _ zero2, View.readCov_unit_zero (S := S128x128) _ zero2, View.readCov_unit_zero (S := S128x1) _ zero2])

/-! ## The body's two branches, from the grid coordinate -/

/-- The first branch (the accumulators are zeroed) is taken at the grid's first point, -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)

/-- the second (the read-out) at its last. -/
abbrev cond10_1 (i : grid10.Coords) : Prop := k10_cond2 i = 1#1
theorem hcond10_1 : ∀ t : Fin cfg10.N, cond10_1 (grid10.coords t) ↔ t.val = 9 :=
  (by decide +kernel : ∀ t : Fin grid10.N, cond10_1 (grid10.coords t) ↔ t.val = 9)

/-- The inputs are never idle; the logits' window is idle, and not written back, wherever the read-out is not taken. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem idleAt10_4 : ∀ t : Fin cfg10.N, ¬cond10_1 (grid10.coords t) → cfg10.idle 4 (grid10.coords t) = true := by decide +kernel
theorem noFlush10_4 : ∀ t : Fin cfg10.N, ¬cond10_1 (grid10.coords t) → (cfg10.win 4).flush t = false := by decide +kernel
theorem liveAt10_4 : ∀ t : Fin cfg10.N, cond10_1 (grid10.coords t) → cfg10.idle 4 (grid10.coords t) = false := by decide +kernel

/-! ## The body's triple, case by case -/

set_option maxHeartbeats 1000000 in
/-- At the first point: the accumulators, found at anything, are zeroed and then take the tile's sums and counts. -/
theorem sound_kernel10_first (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : cond10_0 i) (hc1 : ¬cond10_1 i)
    (x0 : Vec F S2000x128 .f32) (x1 : Vec F S2000x1 .i32) (x2 : Vec F S128x2 .f32) (x3 : Vec F S1x2 .f32) (x4 : Vec F S128x2 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x0 x1 k10_pay1) ∗ owns (c : Thread nD τ) arg7 fullShare (k10_pay5 x1 k10_pay2)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_whole _ _ zero2]
    whole_reads
  iexists _; isplitr
  swap; · iexact H6
  ipureintro
  sl_unfold_run_names
  rw [read_writes_whole _ _ zero2]
  whole_reads

set_option maxHeartbeats 1000000 in
/-- Between the first and the last point: the accumulators, found at `s` and `n`, take the tile's sums and counts. -/
theorem sound_kernel10_mid (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : ¬cond10_0 i) (hc1 : ¬cond10_1 i)
    (x0 : Vec F S2000x128 .f32) (x1 : Vec F S2000x1 .i32) (x2 : Vec F S128x2 .f32) (x3 : Vec F S1x2 .f32) (x4 : Vec F S128x2 .f32)
    (s : Vec F S128x128 .f32) (n : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x0 x1 s) ∗ owns (c : Thread nD τ) arg7 fullShare (k10_pay5 x1 n)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ zero2]
    whole_reads
  iexists _; isplitr
  swap; · iexact H6
  ipureintro
  rw [read_writes_whole _ _ zero2]
  whole_reads

set_option maxHeartbeats 1000000 in
/-- At the last point: the accumulators take the tile's sums and counts, and the logits' buffer, found at anything, the
    read-out of what they then hold. -/
theorem sound_kernel10_last (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : ¬cond10_0 i) (hc1 : cond10_1 i)
    (x0 : Vec F S2000x128 .f32) (x1 : Vec F S2000x1 .i32) (x2 : Vec F S128x2 .f32) (x3 : Vec F S1x2 .f32)
    (s : Vec F S128x128 .f32) (n : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k10_pay6 (k10_pay4 x0 x1 s) (k10_pay5 x1 n) x2 x3)
            ∗ owns (c : Thread nD τ) arg6 fullShare (k10_pay4 x0 x1 s) ∗ owns (c : Thread nD τ) arg7 fullShare (k10_pay5 x1 n)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole _ _ zero2]
    whole_reads
  isplitl [H5]
  · iexists _; isplitr
    swap; · iexact H5
    ipureintro
    sl_unfold_run_names
    rw [read_writes_whole _ _ zero2]
    whole_reads
  iexists _; isplitr
  swap; · iexact H6
  ipureintro
  sl_unfold_run_names
  rw [read_writes_whole _ _ zero2]
  whole_reads

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not: unfetched, its block
    index has not moved; the body leaves the block in place; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The accumulation -/

/-- The two accumulators (the pooled sums, graphs × hidden; the node counts, graphs × 1) after the body at position `n`:
    zeroed at the first point, then at every point the tile's sums and counts added to what the point before left. -/
def scr10 (c : Dev nD) : (n : ℕ) → n < cfg10.N → Vec F S128x128 .f32 × Vec F S128x1 .f32
  | 0, hn => (k10_pay4 (iblk10 V c 0 ⟨0, hn⟩) (iblk10 V c 1 ⟨0, hn⟩) k10_pay1, k10_pay5 (iblk10 V c 1 ⟨0, hn⟩) k10_pay2)
  | n + 1, hn => (k10_pay4 (iblk10 V c 0 ⟨n + 1, hn⟩) (iblk10 V c 1 ⟨n + 1, hn⟩) (scr10 c n (Nat.lt_of_succ_lt hn)).1,
      k10_pay5 (iblk10 V c 1 ⟨n + 1, hn⟩) (scr10 c n (Nat.lt_of_succ_lt hn)).2)

theorem scr10_first (c : Dev nD) (t : Fin cfg10.N) (h0 : t.val = 0) :
    scr10 V c t.val t.isLt = (k10_pay4 (iblk10 V c 0 t) (iblk10 V c 1 t) k10_pay1, k10_pay5 (iblk10 V c 1 t) k10_pay2) := by
  obtain ⟨n, hn⟩ := t
  cases n with
  | zero => rfl
  | succ n => exact absurd h0 (Nat.succ_ne_zero n)

theorem scr10_pos (c : Dev nD) (t : Fin cfg10.N) (h0 : t.val ≠ 0) :
    scr10 V c t.val t.isLt = (k10_pay4 (iblk10 V c 0 t) (iblk10 V c 1 t) (scr10 V c (t.val - 1) (Nat.lt_of_le_of_lt (Nat.sub_le _ _) t.isLt)).1,
      k10_pay5 (iblk10 V c 1 t) (scr10 V c (t.val - 1) (Nat.lt_of_le_of_lt (Nat.sub_le _ _) t.isLt)).2) := by
  obtain ⟨n, hn⟩ := t
  cases n with
  | zero => exact absurd rfl h0
  | succ n => rfl

/-! ## The region's invariant -/

/-- The two accumulators: whole scoped buffers of the kernel's own, passed beside the windows. -/
abbrev scM10_0 : Memref sig .tc .vmem S128x128 .f32 := Memref.whole cc10_scratch0
abbrev scM10_1 : Memref sig .tc .vmem S128x1 .f32 := Memref.whole cc10_scratch1

/-- The class's invariant with the two accumulators taken out of the scoped rest, each at some contents. -/
theorem PhiA10_eq (c : Dev nD) :
    (Pipeline.ΦA spec10 c : sProp 𝕄)
      = iprop((((∃ d, owns (c : Thread nD τ) scM10_0 fullShare d) ∗ (∃ d, owns (c : Thread nD τ) scM10_1 fullShare d)) ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-- The invariant before position `n`: before the first point the class's (every scoped buffer no window stages at
    anything, the generator register at some state); afterwards the same with the two accumulators at what the point
    before left in them. -/
def Phi10 (c : Dev nD) : (n : ℕ) → n ≤ cfg10.N → sProp 𝕄
  | 0, _ => Pipeline.ΦA spec10 c
  | n + 1, hn => iprop(((owns (c : Thread nD τ) scM10_0 fullShare (scr10 V c n hn).1 ∗ owns (c : Thread nD τ) scM10_1 fullShare (scr10 V c n hn).2) ∗ Pipeline.scopedRestBut (Ix := Unit) (Name := ℕ) (U := UR sig nD τ) (Lvl := ℕ) (Val := Elt F) spec10 c [cc10_scratch0, cc10_scratch1]) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(((owns (c : Thread nD τ) scM10_0 fullShare (scr10 V c n hn).1 ∗ owns (c : Thread nD τ) scM10_1 fullShare (scr10 V c n hn).2) ∗ Pipeline.scopedRestBut (Ix := Unit) (Name := ℕ) (U := UR sig nD τ) (Lvl := ℕ) (Val := Elt F) spec10 c [cc10_scratch0, cc10_scratch1]) ∗ (∃ r, prngReg c r)) := rfl

theorem Phi10_pos (c : Dev nD) (n : ℕ) (h : n ≤ cfg10.N) (hz : n ≠ 0) :
    Phi10 V c n h = iprop(((owns (c : Thread nD τ) scM10_0 fullShare (scr10 V c (n - 1) (by omega)).1 ∗ owns (c : Thread nD τ) scM10_1 fullShare (scr10 V c (n - 1) (by omega)).2) ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- The proof data of pipeline 10 on core `c`: the arrays as the region finds them (`V`); after the body at point `t`
    each input's buffer at its block and the logits' at the read-out of the accumulators' contents there (read only at
    the last point: elsewhere the window is idle); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => k10_pay6 (scr10 V c t.val t.isLt).1 (scr10 V c t.val t.isLt).2 (iblk10 V c 2 t) (iblk10 V c 3 t)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = k10_pay6 (scr10 V c t.val t.isLt).1 (scr10 V c t.val t.isLt).2 (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- An input's buffer is left at its block. -/
theorem leaves10_0 (c : Dev nD) (t : Fin cfg10.N) : (dat10 V c).leavesExact 0 t = owns (c : Thread nD τ) (st10_0 t) fullShare (iblk10 V c 0 t) := by
  unfold Dat.leavesExact; rw [liveAt10_0 t, after10_0]
theorem leaves10_1 (c : Dev nD) (t : Fin cfg10.N) : (dat10 V c).leavesExact 1 t = owns (c : Thread nD τ) (st10_1 t) fullShare (iblk10 V c 1 t) := by
  unfold Dat.leavesExact; rw [liveAt10_1 t, after10_1]
theorem leaves10_2 (c : Dev nD) (t : Fin cfg10.N) : (dat10 V c).leavesExact 2 t = owns (c : Thread nD τ) (st10_2 t) fullShare (iblk10 V c 2 t) := by
  unfold Dat.leavesExact; rw [liveAt10_2 t, after10_2]
theorem leaves10_3 (c : Dev nD) (t : Fin cfg10.N) : (dat10 V c).leavesExact 3 t = owns (c : Thread nD τ) (st10_3 t) fullShare (iblk10 V c 3 t) := by
  unfold Dat.leavesExact; rw [liveAt10_3 t, after10_3]

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t ∗ (dat10 V c).leavesExact 2 t
    ∗ (dat10 V c).leavesExact 3 t ∗ (dat10 V c).leavesExact 4 t)

set_option maxHeartbeats 4000000 in
/-- The body at any point: the inputs' buffers hold their blocks; the coordinate says which case the point is in; the
    invariant hands the body the accumulators at what the point before left (at anything at the first point) and takes
    them back at this point's contents; the logits' buffer is handed back untouched except at the last point. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, leaves10_3]
  have hN : t.val < 10 := lt_of_lt_of_eq t.isLt (show cfg10.N = 10 from N_10)
  by_cases h0 : t.val = 0
  · have h1 : ¬t.val = 9 := by omega
    rw [Dat.leavesExact_idle (dat10 V c) 4 t (idleAt10_4 t (fun h => h1 ((hcond10_1 t).mp h))) (noFlush10_4 t (fun h => h1 ((hcond10_1 t).mp h)))]
    rw [Phi10_castSucc V c t, Phi10_zero V c _ _ h0, PhiA10_eq, scr10_first V c t h0]
    dsimp only
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel10_first c Set.univ (grid10.coords t) _ _ _ _ _ _ _ _ _ _ _ _ _ _ ((hcond10_0 t).mpr h0) (fun h => h1 ((hcond10_1 t).mp h))
      (iblk10 V c 0 t) (iblk10 V c 1 t) (iblk10 V c 2 t) (iblk10 V c 3 t) ((dat10 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · rw [show (dat10 V c).leavesExact 4 t = owns (c : Thread nD τ) (st10_4 t) fullShare ((dat10 V c).after 4 t) from by
        unfold Dat.leavesExact; rw [liveAt10_4 t ((hcond10_1 t).mpr h1)], after10_4]
      rw [Phi10_castSucc V c t, Phi10_pos V c _ _ h0, scr10_pos V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_last c Set.univ (grid10.coords t) _ _ _ _ _ _ _ _ _ _ _ _ _ _ (fun h => h0 ((hcond10_0 t).mp h)) ((hcond10_1 t).mpr h1)
        (iblk10 V c 0 t) (iblk10 V c 1 t) (iblk10 V c 2 t) (iblk10 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat10 V c) 4 t (idleAt10_4 t (fun h => h1 ((hcond10_1 t).mp h))) (noFlush10_4 t (fun h => h1 ((hcond10_1 t).mp h)))]
      rw [Phi10_castSucc V c t, Phi10_pos V c _ _ h0, scr10_pos V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_mid c Set.univ (grid10.coords t) _ _ _ _ _ _ _ _ _ _ _ _ _ _ (fun h => h0 ((hcond10_0 t).mp h)) (fun h => h1 ((hcond10_1 t).mp h))
        (iblk10 V c 0 t) (iblk10 V c 1 t) (iblk10 V c 2 t) (iblk10 V c 3 t) ((dat10 V c).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the region is entered with — the generator register, the (empty) prefetched tables, the scoped buffers no
    window stages — is the invariant before the first point. -/
theorem hin10 (c : Dev nD) (T : (pcfgs (F := F) 10).pre.Contents (Elt F)) :
    iprop((∃ r, prngReg c r) ∗ Pipeline.prefHeld (pcfgs (F := F) 10).pre c (fun _ => fullShare) T ∗ Pipeline.scopedRest spec10 c) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After the last point the invariant gives those back: the accumulators' named contents are forgotten. -/
theorem hout10 (c : Dev nD) :
    (dat10 V c).Φ (Fin.last cfg10.N) ⊢ iprop((∃ r, prngReg c r) ∗ Pipeline.ownSems0 (fun k : PEmpty => k.elim) c ∗ Pipeline.scopedRest spec10 c) := by
  rw [Pipeline.ownSems0_none, show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega), scopedRest10_split]
  simp only [scM10_0, scM10_1, owns_whole]
  iintro ⟨⟨⟨HS0, HS1⟩, HR⟩, Hg⟩
  isplitl [Hg]; · iexact Hg
  isplitr; · iempintro
  isplitl [HS0 HS1]
  · isplitl [HS0]
    · iexists _; iexact HS0
    iexists _; iexact HS1
  iexact HR

end Cert.Kernel.Hand

end
-- ==== Proof.KB.RunA.lean ====
/- The buffer contents at the 23 segment boundaries of the kernel program's @main: a fold from the launch memory,
   a host stretch applying its operations, a region leaving in its windows' arrays what its write-backs fold to and every
   other buffer as entered. Each argument array is written by no host operation and by no region's output window, so it
   reads at the last boundary what the launch memory holds. -/
import proofs.«411025_j54640573939922_1_alg».proof.Proof.Gen.Kernel.Regions
import proofs.«411025_j54640573939922_1_alg».proof.Proof.KB.Reg0
import proofs.«411025_j54640573939922_1_alg».proof.Proof.KB.Reg1
import proofs.«411025_j54640573939922_1_alg».proof.Proof.KB.Reg2
import proofs.«411025_j54640573939922_1_alg».proof.Proof.KB.Reg3
import proofs.«411025_j54640573939922_1_alg».proof.Proof.KB.Reg4
import proofs.«411025_j54640573939922_1_alg».proof.Proof.KB.Reg5
import proofs.«411025_j54640573939922_1_alg».proof.Proof.KB.Reg6
import proofs.«411025_j54640573939922_1_alg».proof.Proof.KB.Reg7
import proofs.«411025_j54640573939922_1_alg».proof.Proof.KB.Reg8
import proofs.«411025_j54640573939922_1_alg».proof.Proof.KB.Reg9
import proofs.«411025_j54640573939922_1_alg».proof.Proof.KB.Reg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer host stretch 0 does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: each of its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output window's array of region 0 holds at its exit what it held at its entry: an input window's
    array is never written back, a buffer that is no window's array bypasses the region. -/
theorem W2_in (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩

/-- After host stretch 1: region 1's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer host stretch 1 does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: each of its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output window's array of region 1 holds at its exit what it held at its entry: an input window's
    array is never written back, a buffer that is no window's array bypasses the region. -/
theorem W4_in (c : Dev nD) (b : Ref sig .tc) (h : ∀ w, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b fun w e => hb ⟨w, e⟩

/-- After host stretch 2: region 2's entry. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer host stretch 2 does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: each of its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output window's array of region 2 holds at its exit what it held at its entry: an input window's
    array is never written back, a buffer that is no window's array bypasses the region. -/
theorem W6_in (c : Dev nD) (b : Ref sig .tc) (h : ∀ w, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b fun w e => hb ⟨w, e⟩

/-- After host stretch 3: region 3's entry. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer host stretch 3 does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: each of its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no output window's array of region 3 holds at its exit what it held at its entry: an input window's
    array is never written back, a buffer that is no window's array bypasses the region. -/
theorem W8_in (c : Dev nD) (b : Ref sig .tc) (h : ∀ w, Pipeline.arrRef spec3 w = b → (cfg3.win w).isOut = false) :
    W8 m ρ c (Proc.devRef .tc b) = W7 m ρ c (Proc.devRef .tc b) := by
  by_cases hb : ∃ w, Pipeline.arrRef spec3 w = b
  · obtain ⟨w, rfl⟩ := hb
    exact (W8_arr m ρ c w).trans (((dat3 (V7 m ρ) c).arrAt_in w (h w rfl) _).trans (A_eq3 (V7 m ρ) c w))
  · exact W8_of_ne m ρ c b fun w e => hb ⟨w, e⟩

/-- After host stretch 4: region 4's entry. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer host stretch 4 does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: each of its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is no output window's array of region 4 holds at its exit what it held at its entry: an input window's
    array is never written back, a buffer that is no window's array bypasses the region. -/
theorem W10_in (c : Dev nD) (b : Ref sig .tc) (h : ∀ w, Pipeline.arrRef spec4 w = b → (cfg4.win w).isOut = false) :
    W10 m ρ c (Proc.devRef .tc b) = W9 m ρ c (Proc.devRef .tc b) := by
  by_cases hb : ∃ w, Pipeline.arrRef spec4 w = b
  · obtain ⟨w, rfl⟩ := hb
    exact (W10_arr m ρ c w).trans (((dat4 (V9 m ρ) c).arrAt_in w (h w rfl) _).trans (A_eq4 (V9 m ρ) c w))
  · exact W10_of_ne m ρ c b fun w e => hb ⟨w, e⟩

/-- After host stretch 5: region 5's entry. -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- A buffer host stretch 5 does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: each of its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is no output window's array of region 5 holds at its exit what it held at its entry: an input window's
    array is never written back, a buffer that is no window's array bypasses the region. -/
theorem W12_in (c : Dev nD) (b : Ref sig .tc) (h : ∀ w, Pipeline.arrRef spec5 w = b → (cfg5.win w).isOut = false) :
    W12 m ρ c (Proc.devRef .tc b) = W11 m ρ c (Proc.devRef .tc b) := by
  by_cases hb : ∃ w, Pipeline.arrRef spec5 w = b
  · obtain ⟨w, rfl⟩ := hb
    exact (W12_arr m ρ c w).trans (((dat5 (V11 m ρ) c).arrAt_in w (h w rfl) _).trans (A_eq5 (V11 m ρ) c w))
  · exact W12_of_ne m ρ c b fun w e => hb ⟨w, e⟩

/-- After host stretch 6: region 6's entry. -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- A buffer host stretch 6 does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: each of its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same, read at the TensorCore's references. -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is no output window's array of region 6 holds at its exit what it held at its entry: an input window's
    array is never written back, a buffer that is no window's array bypasses the region. -/
theorem W14_in (c : Dev nD) (b : Ref sig .tc) (h : ∀ w, Pipeline.arrRef spec6 w = b → (cfg6.win w).isOut = false) :
    W14 m ρ c (Proc.devRef .tc b) = W13 m ρ c (Proc.devRef .tc b) := by
  by_cases hb : ∃ w, Pipeline.arrRef spec6 w = b
  · obtain ⟨w, rfl⟩ := hb
    exact (W14_arr m ρ c w).trans (((dat6 (V13 m ρ) c).arrAt_in w (h w rfl) _).trans (A_eq6 (V13 m ρ) c w))
  · exact W14_of_ne m ρ c b fun w e => hb ⟨w, e⟩

/-- After host stretch 7: region 7's entry. -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- A buffer host stretch 7 does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: each of its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same, read at the TensorCore's references. -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is no output window's array of region 7 holds at its exit what it held at its entry: an input window's
    array is never written back, a buffer that is no window's array bypasses the region. -/
theorem W16_in (c : Dev nD) (b : Ref sig .tc) (h : ∀ w, Pipeline.arrRef spec7 w = b → (cfg7.win w).isOut = false) :
    W16 m ρ c (Proc.devRef .tc b) = W15 m ρ c (Proc.devRef .tc b) := by
  by_cases hb : ∃ w, Pipeline.arrRef spec7 w = b
  · obtain ⟨w, rfl⟩ := hb
    exact (W16_arr m ρ c w).trans (((dat7 (V15 m ρ) c).arrAt_in w (h w rfl) _).trans (A_eq7 (V15 m ρ) c w))
  · exact W16_of_ne m ρ c b fun w e => hb ⟨w, e⟩

/-- After host stretch 8: region 8's entry. -/
abbrev W17 : Dev nD → Valuation τ sig (Elt F) := fun c => StableHlo.after hostOps8 (W16 m ρ c)
/-- The same, read at the TensorCore's references. -/
abbrev V17 : (c : Dev nD) → (b : Ref sig .tc) → Buf (Elt F) ((c : Thread nD τ).loc b) := fun c b => W17 m ρ c b
/-- A buffer host stretch 8 does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: each of its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same, read at the TensorCore's references. -/
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer that is no output window's array of region 8 holds at its exit what it held at its entry: an input window's
    array is never written back, a buffer that is no window's array bypasses the region. -/
theorem W18_in (c : Dev nD) (b : Ref sig .tc) (h : ∀ w, Pipeline.arrRef spec8 w = b → (cfg8.win w).isOut = false) :
    W18 m ρ c (Proc.devRef .tc b) = W17 m ρ c (Proc.devRef .tc b) := by
  by_cases hb : ∃ w, Pipeline.arrRef spec8 w = b
  · obtain ⟨w, rfl⟩ := hb
    exact (W18_arr m ρ c w).trans (((dat8 (V17 m ρ) c).arrAt_in w (h w rfl) _).trans (A_eq8 (V17 m ρ) c w))
  · exact W18_of_ne m ρ c b fun w e => hb ⟨w, e⟩

/-- After host stretch 9: region 9's entry. -/
abbrev W19 : Dev nD → Valuation τ sig (Elt F) := fun c => StableHlo.after hostOps9 (W18 m ρ c)
/-- The same, read at the TensorCore's references. -/
abbrev V19 : (c : Dev nD) → (b : Ref sig .tc) → Buf (Elt F) ((c : Thread nD τ).loc b) := fun c b => W19 m ρ c b
/-- A buffer host stretch 9 does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: each of its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same, read at the TensorCore's references. -/
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A buffer that is no output window's array of region 9 holds at its exit what it held at its entry: an input window's
    array is never written back, a buffer that is no window's array bypasses the region. -/
theorem W20_in (c : Dev nD) (b : Ref sig .tc) (h : ∀ w, Pipeline.arrRef spec9 w = b → (cfg9.win w).isOut = false) :
    W20 m ρ c (Proc.devRef .tc b) = W19 m ρ c (Proc.devRef .tc b) := by
  by_cases hb : ∃ w, Pipeline.arrRef spec9 w = b
  · obtain ⟨w, rfl⟩ := hb
    exact (W20_arr m ρ c w).trans (((dat9 (V19 m ρ) c).arrAt_in w (h w rfl) _).trans (A_eq9 (V19 m ρ) c w))
  · exact W20_of_ne m ρ c b fun w e => hb ⟨w, e⟩

/-- After host stretch 10: region 10's entry. -/
abbrev W21 : Dev nD → Valuation τ sig (Elt F) := fun c => StableHlo.after hostOps10 (W20 m ρ c)
/-- The same, read at the TensorCore's references. -/
abbrev V21 : (c : Dev nD) → (b : Ref sig .tc) → Buf (Elt F) ((c : Thread nD τ).loc b) := fun c b => W21 m ρ c b
/-- A buffer host stretch 10 does not write holds what it held. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
/-- At region 10's exit: each of its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same, read at the TensorCore's references. -/
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A buffer that is no output window's array of region 10 holds at its exit what it held at its entry: an input window's
    array is never written back, a buffer that is no window's array bypasses the region. -/
theorem W22_in (c : Dev nD) (b : Ref sig .tc) (h : ∀ w, Pipeline.arrRef spec10 w = b → (cfg10.win w).isOut = false) :
    W22 m ρ c (Proc.devRef .tc b) = W21 m ρ c (Proc.devRef .tc b) := by
  by_cases hb : ∃ w, Pipeline.arrRef spec10 w = b
  · obtain ⟨w, rfl⟩ := hb
    exact (W22_arr m ρ c w).trans (((dat10 (V21 m ρ) c).arrAt_in w (h w rfl) _).trans (A_eq10 (V21 m ρ) c w))
  · exact W22_of_ne m ρ c b fun w e => hb ⟨w, e⟩

/-! ## A buffer nothing writes ends as launched -/

/-- A buffer no host stretch writes and no region has as an output window's array holds at the last boundary what the
    launch memory holds: the fold walked back step by step. -/
theorem W22_keep (c : Dev nD) (b : Ref sig .tc)
    (h0 : b ∉ hostOps0_W) (g0 : ∀ w, Pipeline.arrRef spec0 w = b → (cfg0.win w).isOut = false)
    (h1 : b ∉ hostOps1_W) (g1 : ∀ w, Pipeline.arrRef spec1 w = b → (cfg1.win w).isOut = false)
    (h2 : b ∉ hostOps2_W) (g2 : ∀ w, Pipeline.arrRef spec2 w = b → (cfg2.win w).isOut = false)
    (h3 : b ∉ hostOps3_W) (g3 : ∀ w, Pipeline.arrRef spec3 w = b → (cfg3.win w).isOut = false)
    (h4 : b ∉ hostOps4_W) (g4 : ∀ w, Pipeline.arrRef spec4 w = b → (cfg4.win w).isOut = false)
    (h5 : b ∉ hostOps5_W) (g5 : ∀ w, Pipeline.arrRef spec5 w = b → (cfg5.win w).isOut = false)
    (h6 : b ∉ hostOps6_W) (g6 : ∀ w, Pipeline.arrRef spec6 w = b → (cfg6.win w).isOut = false)
    (h7 : b ∉ hostOps7_W) (g7 : ∀ w, Pipeline.arrRef spec7 w = b → (cfg7.win w).isOut = false)
    (h8 : b ∉ hostOps8_W) (g8 : ∀ w, Pipeline.arrRef spec8 w = b → (cfg8.win w).isOut = false)
    (h9 : b ∉ hostOps9_W) (g9 : ∀ w, Pipeline.arrRef spec9 w = b → (cfg9.win w).isOut = false)
    (h10 : b ∉ hostOps10_W) (g10 : ∀ w, Pipeline.arrRef spec10 w = b → (cfg10.win w).isOut = false) :
    W22 m ρ c (Proc.devRef .tc b) = m ((c : Thread nD τ).loc b) :=
  (W22_in m ρ c b g10).trans <| (W21_of m ρ c b h10).trans <|
  (W20_in m ρ c b g9).trans <| (W19_of m ρ c b h9).trans <|
  (W18_in m ρ c b g8).trans <| (W17_of m ρ c b h8).trans <|
  (W16_in m ρ c b g7).trans <| (W15_of m ρ c b h7).trans <|
  (W14_in m ρ c b g6).trans <| (W13_of m ρ c b h6).trans <|
  (W12_in m ρ c b g5).trans <| (W11_of m ρ c b h5).trans <|
  (W10_in m ρ c b g4).trans <| (W9_of m ρ c b h4).trans <|
  (W8_in m ρ c b g3).trans <| (W7_of m ρ c b h3).trans <|
  (W6_in m ρ c b g2).trans <| (W5_of m ρ c b h2).trans <|
  (W4_in m ρ c b g1).trans <| (W3_of m ρ c b h1).trans <|
  (W2_in m ρ c b g0).trans <| (W1_of m ρ c b h0).trans <|
  rfl

theorem W22_main_arg0 (c : Dev nD) : W22 m ρ c (Proc.devRef .tc main_arg0) = m ((c : Thread nD τ).loc main_arg0) :=
  W22_keep m ρ c main_arg0 (by decide) (by decide) (by decide) (by decide) (by decide) (by decide) (by decide) (by decide) (by decide) (by decide) (by decide) (by decide) (by decide) (by decide) (by decide) (by decide) (by decide) (by decide) (by decide) (by decide) (by decide) (by decide)
theorem W22_main_arg1 (c : Dev nD) : W22 m ρ c (Proc.devRef .tc main_arg1) = m ((c : Thread nD τ).loc main_arg1) :=
  W22_keep m ρ c main_arg1 (by decide) (by decide) (by decide) (by decide) (by decide) (by decide) (by decide) (by decide) (by decide) (by decide) (by decide) (by decide) (by decide) (by decide) (by decide) (by decide) (by decide) (by decide) (by decide) (by decide) (by decide) (by decide)
theorem W22_main_arg2 (c : Dev nD) : W22 m ρ c (Proc.devRef .tc main_arg2) = m ((c : Thread nD τ).loc main_arg2) :=
  W22_keep m ρ c main_arg2 (by decide) (by decide) (by decide) (by decide) (by decide) (by decide) (by decide) (by decide) (by decide) (by decide) (by decide) (by decide) (by decide) (by decide) (by decide) (by decide) (by decide) (by decide) (by decide) (by decide) (by decide) (by decide)
theorem W22_main_arg3 (c : Dev nD) : W22 m ρ c (Proc.devRef .tc main_arg3) = m ((c : Thread nD τ).loc main_arg3) :=
  W22_keep m ρ c main_arg3 (by decide) (by decide) (by decide) (by decide) (by decide) (by decide) (by decide) (by decide) (by decide) (by decide) (by decide) (by decide) (by decide) (by decide) (by decide) (by decide) (by decide) (by decide) (by decide) (by decide) (by decide) (by decide)
theorem W22_main_arg4 (c : Dev nD) : W22 m ρ c (Proc.devRef .tc main_arg4) = m ((c : Thread nD τ).loc main_arg4) :=
  W22_keep m ρ c main_arg4 (by decide) (by decide) (by decide) (by decide) (by decide) (by decide) (by decide) (by decide) (by decide) (by decide) (by decide) (by decide) (by decide) (by decide) (by decide) (by decide) (by decide) (by decide) (by decide) (by decide) (by decide) (by decide)
theorem W22_main_arg5 (c : Dev nD) : W22 m ρ c (Proc.devRef .tc main_arg5) = m ((c : Thread nD τ).loc main_arg5) :=
  W22_keep m ρ c main_arg5 (by decide) (by decide) (by decide) (by decide) (by decide) (by decide) (by decide) (by decide) (by decide) (by decide) (by decide) (by decide) (by decide) (by decide) (by decide) (by decide) (by decide) (by decide) (by decide) (by decide) (by decide) (by decide)
theorem W22_main_arg6 (c : Dev nD) : W22 m ρ c (Proc.devRef .tc main_arg6) = m ((c : Thread nD τ).loc main_arg6) :=
  W22_keep m ρ c main_arg6 (by decide) (by decide) (by decide) (by decide) (by decide) (by decide) (by decide) (by decide) (by decide) (by decide) (by decide) (by decide) (by decide) (by decide) (by decide) (by decide) (by decide) (by decide) (by decide) (by decide) (by decide) (by decide)
theorem W22_main_arg7 (c : Dev nD) : W22 m ρ c (Proc.devRef .tc main_arg7) = m ((c : Thread nD τ).loc main_arg7) :=
  W22_keep m ρ c main_arg7 (by decide) (by decide) (by decide) (by decide) (by decide) (by decide) (by decide) (by decide) (by decide) (by decide) (by decide) (by decide) (by decide) (by decide) (by decide) (by decide) (by decide) (by decide) (by decide) (by decide) (by decide) (by decide)
theorem W22_main_arg8 (c : Dev nD) : W22 m ρ c (Proc.devRef .tc main_arg8) = m ((c : Thread nD τ).loc main_arg8) :=
  W22_keep m ρ c main_arg8 (by decide) (by decide) (by decide) (by decide) (by decide) (by decide) (by decide) (by decide) (by decide) (by decide) (by decide) (by decide) (by decide) (by decide) (by decide) (by decide) (by decide) (by decide) (by decide) (by decide) (by decide) (by decide)
theorem W22_main_arg9 (c : Dev nD) : W22 m ρ c (Proc.devRef .tc main_arg9) = m ((c : Thread nD τ).loc main_arg9) :=
  W22_keep m ρ c main_arg9 (by decide) (by decide) (by decide) (by decide) (by decide) (by decide) (by decide) (by decide) (by decide) (by decide) (by decide) (by decide) (by decide) (by decide) (by decide) (by decide) (by decide) (by decide) (by decide) (by decide) (by decide) (by decide)
theorem W22_main_arg10 (c : Dev nD) : W22 m ρ c (Proc.devRef .tc main_arg10) = m ((c : Thread nD τ).loc main_arg10) :=
  W22_keep m ρ c main_arg10 (by decide) (by decide) (by decide) (by decide) (by decide) (by decide) (by decide) (by decide) (by decide) (by decide) (by decide) (by decide) (by decide) (by decide) (by decide) (by decide) (by decide) (by decide) (by decide) (by decide) (by decide) (by decide)
theorem W22_main_arg11 (c : Dev nD) : W22 m ρ c (Proc.devRef .tc main_arg11) = m ((c : Thread nD τ).loc main_arg11) :=
  W22_keep m ρ c main_arg11 (by decide) (by decide) (by decide) (by decide) (by decide) (by decide) (by decide) (by decide) (by decide) (by decide) (by decide) (by decide) (by decide) (by decide) (by decide) (by decide) (by decide) (by decide) (by decide) (by decide) (by decide) (by decide)
theorem W22_main_arg12 (c : Dev nD) : W22 m ρ c (Proc.devRef .tc main_arg12) = m ((c : Thread nD τ).loc main_arg12) :=
  W22_keep m ρ c main_arg12 (by decide) (by decide) (by decide) (by decide) (by decide) (by decide) (by decide) (by decide) (by decide) (by decide) (by decide) (by decide) (by decide) (by decide) (by decide) (by decide) (by decide) (by decide) (by decide) (by decide) (by decide) (by decide)
theorem W22_main_arg13 (c : Dev nD) : W22 m ρ c (Proc.devRef .tc main_arg13) = m ((c : Thread nD τ).loc main_arg13) :=
  W22_keep m ρ c main_arg13 (by decide) (by decide) (by decide) (by decide) (by decide) (by decide) (by decide) (by decide) (by decide) (by decide) (by decide) (by decide) (by decide) (by decide) (by decide) (by decide) (by decide) (by decide) (by decide) (by decide) (by decide) (by decide)
theorem W22_main_arg14 (c : Dev nD) : W22 m ρ c (Proc.devRef .tc main_arg14) = m ((c : Thread nD τ).loc main_arg14) :=
  W22_keep m ρ c main_arg14 (by decide) (by decide) (by decide) (by decide) (by decide) (by decide) (by decide) (by decide) (by decide) (by decide) (by decide) (by decide) (by decide) (by decide) (by decide) (by decide) (by decide) (by decide) (by decide) (by decide) (by decide) (by decide)
theorem W22_main_arg15 (c : Dev nD) : W22 m ρ c (Proc.devRef .tc main_arg15) = m ((c : Thread nD τ).loc main_arg15) :=
  W22_keep m ρ c main_arg15 (by decide) (by decide) (by decide) (by decide) (by decide) (by decide) (by decide) (by decide) (by decide) (by decide) (by decide) (by decide) (by decide) (by decide) (by decide) (by decide) (by decide) (by decide) (by decide) (by decide) (by decide) (by decide)

end Cert.Kernel.Hand

end
-- ==== Proof.KB.RunB0.lean ====
/- The proof data of the kernel program's 11 pipelines, each at its region's entry contents, and the thread state that rides
   beside the buffers through every segment. -/
import proofs.«411025_j54640573939922_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W22 m ρ c) ∗ ∃ r, prngReg c r)

end Cert.Kernel.Hand

end
-- ==== Proof.KB.RunB1.lean ====
/- The kernel program's regions 0..3 as segments over the thread state "every unscoped buffer at the boundary's contents, the
   generator register at some state, nothing owed". -/
import proofs.«411025_j54640573939922_1_alg».proof.Proof.KB.RunB0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.RunB2.lean ====
/- The kernel program's regions 4..7 as segments over the thread state "every unscoped buffer at the boundary's contents, the
   generator register at some state, nothing owed". -/
import proofs.«411025_j54640573939922_1_alg».proof.Proof.KB.RunB0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: entered from every unscoped buffer at `W9`, left at `W10`. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.RunB3.lean ====
/- The kernel program's regions 8..10 as segments over the thread state "every unscoped buffer at the boundary's contents, the
   generator register at some state, nothing owed". -/
import proofs.«411025_j54640573939922_1_alg».proof.Proof.KB.RunB0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: entered from every unscoped buffer at `W17`, left at `W18`. Its arrays are split out
    of the unscoped buffers and put back at the exit contents; the generator register goes into the invariant and comes
    back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its arrays are split out
    of the unscoped buffers and put back at the exit contents; the generator register goes into the invariant and comes
    back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its arrays are split out
    of the unscoped buffers and put back at the exit contents; the generator register goes into the invariant and comes
    back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (V21 m ρ) c _
  hout c := hout10 (V21 m ρ) c
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KB.Run.lean ====
/- The run of the kernel program: @main as its 22 segments, a host segment per stretch and a region per kernel call, launched
   from any memory with zero counters; every weakly fair execution terminates and every final memory holds in every unscoped
   buffer the last boundary's contents. -/
import proofs.«411025_j54640573939922_1_alg».proof.Proof.KB.RunB1
import proofs.«411025_j54640573939922_1_alg».proof.Proof.KB.RunB2
import proofs.«411025_j54640573939922_1_alg».proof.Proof.KB.RunB3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 22 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ) ]

/-- @main is the run of the segments. -/
theorem main_run (c : Dev nD) : main (F := F) c = Pipeline.Seg.run (segs m ρ) := (main_chain c).trans (by chain_rfl)

set_option backward.isDefEq.respectTransparency.types false in
/-- From any memory `m` with zero counters, every weakly fair execution of @main on the TensorCores terminates, nothing
    faulting, and every final memory holds in every unscoped buffer `b` of core `c` the contents `W22 m ρ c b`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

/-- Every weakly fair execution of @main terminates and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun _ h c => ⟨(h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c),
      (h c _ (mem_uc main_arg4 (by decide))).trans (W22_main_arg4 m ρ c),
      (h c _ (mem_uc main_arg5 (by decide))).trans (W22_main_arg5 m ρ c),
      (h c _ (mem_uc main_arg6 (by decide))).trans (W22_main_arg6 m ρ c),
      (h c _ (mem_uc main_arg7 (by decide))).trans (W22_main_arg7 m ρ c),
      (h c _ (mem_uc main_arg8 (by decide))).trans (W22_main_arg8 m ρ c),
      (h c _ (mem_uc main_arg9 (by decide))).trans (W22_main_arg9 m ρ c),
      (h c _ (mem_uc main_arg10 (by decide))).trans (W22_main_arg10 m ρ c),
      (h c _ (mem_uc main_arg11 (by decide))).trans (W22_main_arg11 m ρ c),
      (h c _ (mem_uc main_arg12 (by decide))).trans (W22_main_arg12 m ρ c),
      (h c _ (mem_uc main_arg13 (by decide))).trans (W22_main_arg13 m ρ c),
      (h c _ (mem_uc main_arg14 (by decide))).trans (W22_main_arg14 m ρ c),
      (h c _ (mem_uc main_arg15 (by decide))).trans (W22_main_arg15 m ρ c)⟩)
    (run_main m ρ)

/-- The same with the result: every final memory holds in the result buffer the last boundary's contents of it. -/
theorem run_value : θ_run defs (onTc (τ := τ) (main (F := F))) ⟨m, fun _ => 0, ρ⟩ (fun r => ∀ c : Dev nD,
      r.2.mem ((c.tc : Thread nD τ).loc main_v167) = W22 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun _ h c => ⟨h c _ (mem_uc main_v167 (by decide)),
      (h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c),
      (h c _ (mem_uc main_arg4 (by decide))).trans (W22_main_arg4 m ρ c),
      (h c _ (mem_uc main_arg5 (by decide))).trans (W22_main_arg5 m ρ c),
      (h c _ (mem_uc main_arg6 (by decide))).trans (W22_main_arg6 m ρ c),
      (h c _ (mem_uc main_arg7 (by decide))).trans (W22_main_arg7 m ρ c),
      (h c _ (mem_uc main_arg8 (by decide))).trans (W22_main_arg8 m ρ c),
      (h c _ (mem_uc main_arg9 (by decide))).trans (W22_main_arg9 m ρ c),
      (h c _ (mem_uc main_arg10 (by decide))).trans (W22_main_arg10 m ρ c),
      (h c _ (mem_uc main_arg11 (by decide))).trans (W22_main_arg11 m ρ c),
      (h c _ (mem_uc main_arg12 (by decide))).trans (W22_main_arg12 m ρ c),
      (h c _ (mem_uc main_arg13 (by decide))).trans (W22_main_arg13 m ρ c),
      (h c _ (mem_uc main_arg14 (by decide))).trans (W22_main_arg14 m ρ c),
      (h c _ (mem_uc main_arg15 (by decide))).trans (W22_main_arg15 m ρ c)⟩)
    (run_main m ρ)

/-- info: 'Cert.Kernel.Hand.run_main' depends on axioms: [propext, Classical.choice, Quot.sound] -/
#guard_msgs in #print axioms run_main

end Cert.Kernel.Hand

end
-- ==== Proof.KI.Reg0.lean ====
/- Region 0 of @main (the encoder kernel `cc0__encoder_kernel`, pipeline 0) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (unfetched, the block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there
    (unfetched, the block index has not moved), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there
    (unfetched, the block index has not moved), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole of their buffer -/

abbrev r0_0 : Rect S2000x1 := Rect.unit (s := S2000x1) ![0, 0] S2000x1.size inb_S2000x1_S2000x1_0_0
abbrev r0_1 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- Window 3's staging buffer after the body, from the three input blocks: the one store's payload
    `x · W + b` (each operand broadcast to 2000x128) laid over the whole buffer. -/
def out0_3 (x0 : Vec F S2000x1 .f32) (x1 : Vec F S1x128 .f32) (x2 : Vec F S1x128 .f32) : Vec F S2000x128 .f32 :=
  View.canon [⟨r0_3, k0_pay1 (View.ld x0 r0_0) (View.ld x1 r0_1) (View.ld x2 r0_1)⟩]

/-- The one store covers the buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-! ## The body's triple -/

set_option maxHeartbeats 1000000 in
/-- The kernel body on whole staging memrefs, the inputs' at contents `x0 x1 x2` and the output's at anything, runs to
    the continuation holding the inputs' as they were and the output's at `out0_3 x0 x1 x2`. -/
theorem sound_kernel0 (c : Dev nD) (E : Set ℕ) (i : grid0.Coords)
    (arg1 : Memref sig .tc .vmem S2000x1 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x1 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (j : Fin (cfg0.N + 1)) : (dat0 V c).Φ j = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/-
  Region 1 of the kernel: the first dense map of layer one, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched
    its block index has not moved): the tile of rows, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the weight matrix, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one condition -/

/-- "This is the first tile": the body's comparison of the grid coordinate with zero, as it computes it. -/
abbrev cond1_0 (i : grid1.Coords) : Prop := (Scalar.cmpi .ne (Scalar.extui (Scalar.cmpi .eq (BitVec.ofNat 32 (i 0).val) 0#32)) 0#32) = 1#1
/-- It holds at point 0 and at no other of the ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- One staging buffer of each output window, through which its contents are stated. -/
abbrev VO1_3 : View sig .tc .vmem S2000x128 .f32 := (Memref.whole cc1_stg3_0 : Memref sig .tc .vmem S2000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun1_A (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__stage1_kernel i arg1 harg1 arg2 harg2 arg3 harg3 arg4 harg4 arg5 harg5 arg6 harg6) K } := by
  refine ⟨?_, ?_, ?_, fun E K => ?run⟩
  case run =>
    simp only [cc1__stage1_kernel_eq_skeleton]; unfold cc1__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun1_B (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__stage1_kernel i arg1 harg1 arg2 harg2 arg3 harg3 arg4 harg4 arg5 harg5 arg6 harg6) K } := by
  refine ⟨?_, ?_, ?_, fun E K => ?run⟩
  case run =>
    simp only [cc1__stage1_kernel_eq_skeleton]; unfold cc1__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover1_A_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S2000x128.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S2000x128.size (by sl_kernel_rfl) y

/-- What case A leaves in window 3's staging buffer: its pieces read back. -/
def out1_A_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S2000x128 .f32 :=
  VO1_3.read (Elt F) (VO1_3.writes (Elt F) VO1_3.junk (kernelRun1_A c i arg1 harg1 arg2 harg2 arg3 harg3 arg4 harg4 arg5 harg5 arg6 harg6 hc0 x0 x1 x2).1)

/-- The stores of window 4 in case A tile its block, so every index is written. -/
theorem cover1_A_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S1x128.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x128.size (by sl_kernel_rfl) y

/-- What case A leaves in window 4's staging buffer: its pieces read back. -/
def out1_A_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S1x128 .f32 :=
  VO1_4.read (Elt F) (VO1_4.writes (Elt F) VO1_4.junk (kernelRun1_A c i arg1 harg1 arg2 harg2 arg3 harg3 arg4 harg4 arg5 harg5 arg6 harg6 hc0 x0 x1 x2).2.1)

/-- The stores of window 5 in case A tile its block, so every index is written. -/
theorem cover1_A_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) (y : S1x128.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1x128.size (by sl_kernel_rfl) y

/-- What case A leaves in window 5's staging buffer: its pieces read back. -/
def out1_A_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) : Vec F S1x128 .f32 :=
  VO1_5.read (Elt F) (VO1_5.writes (Elt F) VO1_5.junk (kernelRun1_A c i arg1 harg1 arg2 harg2 arg3 harg3 arg4 harg4 arg5 harg5 arg6 harg6 hc0 x0 x1 x2).2.2.1)

/-- The stores of window 3 in case B tile its block, so every index is written. -/
theorem cover1_B_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun1_B c i arg1 harg1 arg2 harg2 arg3 harg3 arg4 harg4 arg5 harg5 arg6 harg6 hc0 x0 x1 x2 xo4 xo5).1, y ∈ pc.1.set :=
  View.cover_of_tiledL (kernelRun1_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out1_B_3 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S2000x128 .f32 :=
  VO1_3.read (Elt F) (VO1_3.writes (Elt F) VO1_3.junk (kernelRun1_B c i arg1 harg1 arg2 harg2 arg3 harg3 arg4 harg4 arg5 harg5 arg6 harg6 hc0 x0 x1 x2 xo4 xo5).1)

/-- The stores of window 4 in case B tile its block, so every index is written. -/
theorem cover1_B_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun1_B c i arg1 harg1 arg2 harg2 arg3 harg3 arg4 harg4 arg5 harg5 arg6 harg6 hc0 x0 x1 x2 xo4 xo5).2.1, y ∈ pc.1.set :=
  View.cover_of_tiledL (kernelRun1_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out1_B_4 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S1x128 .f32 :=
  VO1_4.read (Elt F) (VO1_4.writes (Elt F) VO1_4.junk (kernelRun1_B c i arg1 harg1 arg2 harg2 arg3 harg3 arg4 harg4 arg5 harg5 arg6 harg6 hc0 x0 x1 x2 xo4 xo5).2.1)

/-- The stores of window 5 in case B tile its block, so every index is written. -/
theorem cover1_B_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun1_B c i arg1 harg1 arg2 harg2 arg3 harg3 arg4 harg4 arg5 harg5 arg6 harg6 hc0 x0 x1 x2 xo4 xo5).2.2.1, y ∈ pc.1.set :=
  View.cover_of_tiledL (kernelRun1_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out1_B_5 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) : Vec F S1x128 .f32 :=
  VO1_5.read (Elt F) (VO1_5.writes (Elt F) VO1_5.junk (kernelRun1_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)

/-- THE ACCUMULATION. What the three outputs' staging buffers hold after the body at point `n`: at the first tile what
    the first case leaves; at a later tile what the second case leaves, the two running rows read at what this
    gives at `n - 1` (their buffers are not written back in between). -/
def outsAt1 (c : Dev nD) : (n : ℕ) → n < cfg1.N → Vec F S2000x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩),
       out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩),
       out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 10 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at the first tile. -/
theorem outsAt1_A (c : Dev nD) (t : Fin cfg1.N) (h0 : t.val % 10 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
       out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a later tile, over what the point before left. -/
theorem outsAt1_B (c : Dev nD) (t : Fin cfg1.N) (h0 : ¬t.val % 10 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
       out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 1 on core `c`: the arrays as the region finds them; after the body at point `t` each
    input's buffer at its block and the outputs' at `outsAt1`; the invariant says nothing of the windows; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi1 (c : Dev nD) (j : Fin (cfg1.N + 1)) : (dat1 V c).Φ j = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later tile the buffer of the running sums holds what the body left at the point before: it is written back
    after the last point only, and the window is live and uncut. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-- The same for the running sums of squares. -/
theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2.2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 10 := lt_of_lt_of_eq t.isLt (show cfg1.N = 10 from N_1)
  by_cases h0 : t.val % 10 = 0
  · rw [outsAt1_A V c t h0]
    dsimp only
    unfold out1_A_3 out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _)
  · rw [outsAt1_B V c t h0]
    simp only [before1_4_B V c t h0, before1_5_B V c t h0]
    (try dsimp only)
    unfold out1_B_3 out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

/-! Region 2 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every tile, fetched there or not (when it is not
    fetched its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every tile, fetched there or not (when it is not
    fetched its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every tile, fetched there or not (when it is not
    fetched its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every tile, fetched there or not (when it is not
    fetched its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every tile, fetched there or not (when it is not
    fetched its block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every tile, fetched there or not (when it is not
    fetched its block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds its block at every tile, fetched there or not (when it is not
    fetched its block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch -/

/-- The body's one branch asks whether the tile is the first. -/
abbrev cond2_0 (i : grid2.Coords) : Prop := (Scalar.cmpi .ne (Scalar.extui (Scalar.cmpi .eq (BitVec.ofNat 32 (i 0).val) 0#32)) 0#32) = 1#1
/-- It is, at tile 0 only: decided over the ten tiles. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of each output window, through which its contents are stated. -/
abbrev VO2_7 : View sig .tc .vmem S2000x128 .f32 := (Memref.whole cc2_stg7_0 : Memref sig .tc .vmem S2000x128 .f32).view
abbrev VO2_8 : View sig .tc .vmem S1x128 .f32 := (Memref.whole cc2_stg8_0 : Memref sig .tc .vmem S1x128 .f32).view
abbrev VO2_9 : View sig .tc .vmem S1x128 .f32 := (Memref.whole cc2_stg9_0 : Memref sig .tc .vmem S1x128 .f32).view
/-- Each window's current staging memref at tile t, as the pipeline passes it to the body, and its wholeness. -/
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun2_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__stage2_kernel_eq_skeleton]; unfold cc2__stage2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun2_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__stage2_kernel_eq_skeleton]; unfold cc2__stage2_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover2_A_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out2_A_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover2_A_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out2_A_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover2_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out2_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover2_B_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out2_B_7 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover2_B_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out2_B_8 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover2_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out2_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt2 (c : Dev nD) : (n : ℕ) → n < cfg2.N → Vec F S2000x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩),
       out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩),
       out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩),
       out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩),
       out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2,
       out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2,
       out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2)

/-- At the first tile: the first tile's contents. -/
theorem outsAt2_A (c : Dev nD) (t : Fin cfg2.N) (h0 : t.val % 10 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t),
       out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- At a later tile: the later-tile contents over what the tile before left. -/
theorem outsAt2_B (c : Dev nD) (t : Fin cfg2.N) (h0 : ¬t.val % 10 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2,
       out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Its invariant is the scoped rest and the generator register, at every tile. -/
theorem Phi2 (c : Dev nD) (j) : (dat2 V c).Φ j = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2 := by dsimp only [dat2]

/-- Each input's current staging buffer holds its block at every tile. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- At a later tile the running row of window 8 holds what the body left at the tile before: the tile is not the first,
    the buffer was not written back in between, the window is uncut. -/
theorem before2_8_B (c : Dev nD) (t : Fin cfg2.N) (h0 : ¬t.val % 10 = 0) (d) :
    (dat2 V c).before 8 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 8 rfl t (by omega) (Bool.eq_false_iff.mpr fun h => by have := (flush2_8 _).mp h; dsimp only at this; omega)
    (fun _ => rfl) (fun _ _ => rfl)]
  dsimp only [dat2]

/-- At a later tile the running row of window 9 holds what the body left at the tile before: the tile is not the first,
    the buffer was not written back in between, the window is uncut. -/
theorem before2_9_B (c : Dev nD) (t : Fin cfg2.N) (h0 : ¬t.val % 10 = 0) (d) :
    (dat2 V c).before 9 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic tile -/

/-- What the body is called with at tile t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  have hN : t.val < 10 := lt_of_lt_of_eq t.isLt (show cfg2.N = 10 from N_2)
  by_cases h0 : t.val % 10 = 0
  · rw [outsAt2_A V c t h0]
    dsimp only
    unfold out2_A_7 out2_A_8 out2_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover2_A_9 c _ _ _ _ _ _ _ _ _ _ _ _ _ _ _ _ _ _ _ _ _ _ _ _ _ _ _ _ _)
  · rw [outsAt2_B V c t h0]
    dsimp only
    simp only [before2_8_B V c t h0, before2_9_B V c t h0]
    unfold out2_B_7 out2_B_8 out2_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover2_B_9 c _ _ _ _ _ _ _ _ _ _ _ _ _ _ _ _ _ _ _ _ _ _ _ _ _ _ _ _ _ _ _)

/-- The library's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of @main (the normalise-and-rectify kernel `cc3__stage3_kernel`, pipeline 3) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it was fetched there
    (unfetched, the block index has not moved), for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not it was fetched there
    (unfetched, the block index has not moved), for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not it was fetched there
    (unfetched, the block index has not moved), for any proof data whose array is `V`'s and whose body leaves
    the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not it was fetched there
    (unfetched, the block index has not moved), for any proof data whose array is `V`'s and whose body leaves
    the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not it was fetched there
    (unfetched, the block index has not moved), for any proof data whose array is `V`'s and whose body leaves
    the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole of their buffer -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out3_5 (x0 : Vec F S2000x128 .f32) (x1 x2 x3 x4 : Vec F S1x128 .f32) : Vec F S2000x128 .f32 :=
  View.canon [⟨r3_0, k3_pay1 (View.ld x0 r3_0) (View.ld x1 r3_1) (View.ld x2 r3_1) (View.ld x3 r3_1) (View.ld x4 r3_1)⟩]

/-- The one store covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at contents `x0 … x4` and the output's at anything, runs to
    the continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__stage3_kernel i arg1 harg1 arg2 harg2 arg3 harg3 arg4 harg4 arg5 harg5 arg6 harg6) K := by
  simp only [cc3__stage3_kernel_eq_skeleton]; unfold cc3__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant is the same at every point. -/
theorem Phi3 (c : Dev nD) (j : Fin (cfg3.N + 1)) : (dat3 V c).Φ j = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
/-
  Region 4 of the kernel: the first dense map of layer two, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched
    its block index has not moved): the tile of rows, -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- the weight matrix, -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- and the bias row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one condition -/

/-- "This is the first tile": the body's comparison of the grid coordinate with zero, as it computes it. -/
abbrev cond4_0 (i : grid4.Coords) : Prop := (Scalar.cmpi .ne (Scalar.extui (Scalar.cmpi .eq (BitVec.ofNat 32 (i 0).val) 0#32)) 0#32) = 1#1
/-- It holds at point 0 and at no other of the ten. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S2000x128 .f32 := (Memref.whole cc4_stg3_0 : Memref sig .tc .vmem S2000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun4_A (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__stage1_kernel i arg1 harg1 arg2 harg2 arg3 harg3 arg4 harg4 arg5 harg5 arg6 harg6) K } := by
  refine ⟨?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun4_B (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__stage1_kernel i arg1 harg1 arg2 harg2 arg3 harg3 arg4 harg4 arg5 harg5 arg6 harg6) K } := by
  refine ⟨?_, ?_, ?_, fun E K => ?run⟩
  case run =>
    simp only [cc4__stage1_kernel_eq_skeleton]; unfold cc4__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover4_A_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S2000x128.Idx) :
    ∃ pc ∈ (kernelRun4_A c i arg1 harg1 arg2 harg2 arg3 harg3 arg4 harg4 arg5 harg5 arg6 harg6 hc0 x0 x1 x2).1, y ∈ pc.1.set :=
  View.cover_of_tiledL (kernelRun4_A c i arg1 harg1 arg2 harg2 arg3 harg3 arg4 harg4 arg5 harg5 arg6 harg6 hc0 x0 x1 x2).1 S2000x128.size (by sl_kernel_rfl) y

/-- What case A leaves in window 3's staging buffer: its pieces read back. -/
def out4_A_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S2000x128 .f32 :=
  VO4_3.read (Elt F) (VO4_3.writes (Elt F) VO4_3.junk (kernelRun4_A c i arg1 harg1 arg2 harg2 arg3 harg3 arg4 harg4 arg5 harg5 arg6 harg6 hc0 x0 x1 x2).1)

/-- The stores of window 4 in case A tile its block, so every index is written. -/
theorem cover4_A_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.1, y ∈ pc.1.set :=
  View.cover_of_tiledL (kernelRun4_A c i arg1 harg1 arg2 harg2 arg3 harg3 arg4 harg4 arg5 harg5 arg6 harg6 hc0 x0 x1 x2).2.1 S1x128.size (by sl_kernel_rfl) y

/-- What case A leaves in window 4's staging buffer: its pieces read back. -/
def out4_A_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S1x128 .f32 :=
  VO4_4.read (Elt F) (VO4_4.writes (Elt F) VO4_4.junk (kernelRun4_A c i arg1 harg1 arg2 harg2 arg3 harg3 arg4 harg4 arg5 harg5 arg6 harg6 hc0 x0 x1 x2).2.1)

/-- The stores of window 5 in case A tile its block, so every index is written. -/
theorem cover4_A_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.2.1, y ∈ pc.1.set :=
  View.cover_of_tiledL (kernelRun4_A c i arg1 harg1 arg2 harg2 arg3 harg3 arg4 harg4 arg5 harg5 arg6 harg6 hc0 x0 x1 x2).2.2.1 S1x128.size (by sl_kernel_rfl) y

/-- What case A leaves in window 5's staging buffer: its pieces read back. -/
def out4_A_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 hc0 x0 x1 x2).2.2.1)

/-- The stores of window 3 in case B tile its block, so every index is written. -/
theorem cover4_B_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun4_B c i arg1 harg1 arg2 harg2 arg3 harg3 arg4 harg4 arg5 harg5 arg6 harg6 hc0 x0 x1 x2 xo4 xo5).1, y ∈ pc.1.set :=
  View.cover_of_tiledL (kernelRun4_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out4_B_3 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S2000x128 .f32 :=
  VO4_3.read (Elt F) (VO4_3.writes (Elt F) VO4_3.junk (kernelRun4_B c i arg1 harg1 arg2 harg2 arg3 harg3 arg4 harg4 arg5 harg5 arg6 harg6 hc0 x0 x1 x2 xo4 xo5).1)

/-- The stores of window 4 in case B tile its block, so every index is written. -/
theorem cover4_B_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.1, y ∈ pc.1.set :=
  View.cover_of_tiledL (kernelRun4_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out4_B_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S1x128 .f32 :=
  VO4_4.read (Elt F) (VO4_4.writes (Elt F) VO4_4.junk (kernelRun4_B c i arg1 harg1 arg2 harg2 arg3 harg3 arg4 harg4 arg5 harg5 arg6 harg6 hc0 x0 x1 x2 xo4 xo5).2.1)

/-- The stores of window 5 in case B tile its block, so every index is written. -/
theorem cover4_B_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.2.1, y ∈ pc.1.set :=
  View.cover_of_tiledL (kernelRun4_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out4_B_5 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-- THE ACCUMULATION. What the three outputs' staging buffers hold after the body at point `n`: at the first tile what
    the first case leaves; at a later tile what the second case leaves, the two running rows read at what this
    gives at `n - 1` (their buffers are not written back in between). -/
def outsAt4 (c : Dev nD) : (n : ℕ) → n < cfg4.N → Vec F S2000x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩))
  | n + 1, hn =>
    if h0 : (n + 1) % 10 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2)

/-- `outsAt4` at the first tile. -/
theorem outsAt4_A (c : Dev nD) (t : Fin cfg4.N) (h0 : t.val % 10 = 0) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)) := by
  obtain ⟨n, hn⟩ := t
  cases n with
  | zero => exact rfl
  | succ n => exact (dif_pos h0).trans rfl

/-- `outsAt4` at a later tile, over what the point before left. -/
theorem outsAt4_B (c : Dev nD) (t : Fin cfg4.N) (h0 : ¬t.val % 10 = 0) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 4 on core `c`: the arrays as the region finds them; after the body at point `t` each
    input's buffer at its block and the outputs' at `outsAt4`; the invariant says nothing of the windows; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem Phi4 (c : Dev nD) (j : Fin (cfg4.N + 1)) : (dat4 V c).Φ j = Pipeline.ΦA spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- At a later tile the buffer of the running sums holds what the body left at the point before: it is written back
    after the last point only, and the window is live and uncut. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]

/-- The same for the running sums of squares. -/
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    dsimp only
    unfold out4_A_3 out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 c _ _ _ _ _ _ _ _ _ _ _ _ _ _ _ _ _)
    isplitl [H4]
    · unfold owns; iexists _; isplitr
      swap; · iexact H4
      ipureintro; exact View.read_writes_of_cover _ _ _ _ _ (cover4_A_4 c _ _ _ _ _ _ _ _ _ _ _ _ _ _ _ _ _)
    unfold owns; iexists _; isplitr
    swap; · iexact H5
    ipureintro; exact View.read_writes_of_cover _ _ _ _ _ (cover4_A_5 c _ _ _ _ _ _ _ _ _ _ _ _ _ _ _ _ _)
  · rw [outsAt4_B V c t h0]
    simp only [before4_4_B V c t h0, before4_5_B V c t h0]
    (try dsimp only)
    unfold out4_B_3 out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 c _ _ _ _ _ _ _ _ _ _ _ _ _ _ _ _ _ _ _)
    isplitl [H4]
    · unfold owns; iexists _; isplitr
      swap; · iexact H4
      ipureintro; exact View.read_writes_of_cover _ _ _ _ _ (cover4_B_4 c _ _ _ _ _ _ _ _ _ _ _ _ _ _ _ _ _ _ _)
    unfold owns; iexists _; isplitr
    swap; · iexact H5
    ipureintro; exact View.read_writes_of_cover _ _ _ _ _ (cover4_B_5 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

/-! Region 5 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every tile, fetched there or not (when it is not
    fetched its block index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every tile, fetched there or not (when it is not
    fetched its block index has not moved). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every tile, fetched there or not (when it is not
    fetched its block index has not moved). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every tile, fetched there or not (when it is not
    fetched its block index has not moved). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every tile, fetched there or not (when it is not
    fetched its block index has not moved). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every tile, fetched there or not (when it is not
    fetched its block index has not moved). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every tile, fetched there or not (when it is not
    fetched its block index has not moved). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch -/

/-- The body's one branch asks whether the tile is the first. -/
abbrev cond5_0 (i : grid5.Coords) : Prop := (Scalar.cmpi .ne (Scalar.extui (Scalar.cmpi .eq (BitVec.ofNat 32 (i 0).val) 0#32)) 0#32) = 1#1
/-- It is, at tile 0 only: decided over the ten tiles. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs -/

/-- One staging buffer of each output window, through which its contents are stated. -/
abbrev VO5_7 : View sig .tc .vmem S2000x128 .f32 := (Memref.whole cc5_stg7_0 : Memref sig .tc .vmem S2000x128 .f32).view
abbrev VO5_8 : View sig .tc .vmem S1x128 .f32 := (Memref.whole cc5_stg8_0 : Memref sig .tc .vmem S1x128 .f32).view
abbrev VO5_9 : View sig .tc .vmem S1x128 .f32 := (Memref.whole cc5_stg9_0 : Memref sig .tc .vmem S1x128 .f32).view
/-- Each window's current staging memref at tile t, as the pipeline passes it to the body, and its wholeness. -/
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S2000x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x128 .f32 := win5_9.stage (cfg5.slots t 9)
abbrev hs5_9 (t : Fin cfg5.N) : (ms5_9 t).IsWhole := hstage5_9 ((cfg5.slots t 9).cast nbuf5_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun5_A (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun5_B (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__stage2_kernel_eq_skeleton]; unfold cc5__stage2_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover5_A_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out5_A_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover5_A_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out5_A_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover5_A_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out5_A_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover5_B_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out5_B_7 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover5_B_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out5_B_8 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover5_B_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out5_B_9 (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO5_9.read (Elt F) (VO5_9.writes (Elt F) VO5_9.junk (kernelRun5_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt5 (c : Dev nD) : (n : ℕ) → n < cfg5.N → Vec F S2000x128 .f32 × Vec F S1x128 .f32 × Vec F S1x128 .f32
  | 0, hn => (out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩),
       out5_A_8 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩),
       out5_A_9 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩))
  | n + 1, hn =>
    if h0 : (n + 1) % 10 = 0 then
      (out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩),
       out5_A_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩),
       out5_A_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩))
    else
      (out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2,
       out5_B_8 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2,
       out5_B_9 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (outsAt5 c n (Nat.lt_of_succ_lt hn)).2.1 (outsAt5 c n (Nat.lt_of_succ_lt hn)).2.2)

/-- At the first tile: the first tile's contents. -/
theorem outsAt5_A (c : Dev nD) (t : Fin cfg5.N) (h0 : t.val % 10 = 0) :
    outsAt5 V c t.val t.isLt = (out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t),
       out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t),
       out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (iblk5 V c 0 t) (iblk5 V c 1 t) (iblk5 V c 2 t) (iblk5 V c 3 t) (iblk5 V c 4 t) (iblk5 V c 5 t) (iblk5 V c 6 t)) := by
  obtain ⟨n, hn⟩ := t
  cases n with
  | zero => exact rfl
  | succ n => exact (dif_pos h0).trans rfl

/-- At a later tile: the later-tile contents over what the tile before left. -/
theorem outsAt5_B (c : Dev nD) (t : Fin cfg5.N) (h0 : ¬t.val % 10 = 0) :
    outsAt5 V c t.val t.isLt = (out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2,
       out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2,
       out5_B_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) (iblk5 V c 0 t) (iblk5 V c 1 t) (iblk5 V c 2 t) (iblk5 V c 3 t) (iblk5 V c 4 t) (iblk5 V c 5 t) (iblk5 V c 6 t) (outsAt5 V c (t.val - 1) (Nat.lt_of_le_of_lt (Nat.sub_le _ _) t.isLt)).2.1 (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt5; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
    | ⟨9, _⟩ => (outsAt5 V c t.val t.isLt).2.2
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- Its invariant is the scoped rest and the generator register, at every tile. -/
theorem Phi5 (c : Dev nD) (j) : (dat5 V c).Φ j = Pipeline.ΦA spec5 c := rfl

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem after5_9 (c : Dev nD) (t : Fin cfg5.N) : (dat5 V c).after 9 t = (outsAt5 V c t.val t.isLt).2.2 := by dsimp only [dat5]

/-- Each input's current staging buffer holds its block at every tile. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- At a later tile the running row of window 8 holds what the body left at the tile before: the tile is not the first,
    the buffer was not written back in between, the window is uncut. -/
theorem before5_8_B (c : Dev nD) (t : Fin cfg5.N) (h0 : ¬t.val % 10 = 0) (d) :
    (dat5 V c).before 8 t d = (outsAt5 V c (t.val - 1) (Nat.lt_of_le_of_lt (Nat.sub_le _ _) t.isLt)).2.1 := by
  have hN : t.val < 10 := lt_of_lt_of_eq t.isLt (show cfg5.N = 10 from N_5)
  rw [Dat.before_out_kept _ 8 rfl t (by omega) (Bool.eq_false_iff.mpr fun h => by have := (flush5_8 _).mp h; dsimp only at this; omega)
    (fun _ => rfl) (fun _ _ => rfl)]
  dsimp only [dat5]

/-- At a later tile the running row of window 9 holds what the body left at the tile before: the tile is not the first,
    the buffer was not written back in between, the window is uncut. -/
theorem before5_9_B (c : Dev nD) (t : Fin cfg5.N) (h0 : ¬t.val % 10 = 0) (d) :
    (dat5 V c).before 9 t d = (outsAt5 V c (t.val - 1) (Nat.lt_of_le_of_lt (Nat.sub_le _ _) t.isLt)).2.2 := by
  have hN : t.val < 10 := lt_of_lt_of_eq t.isLt (show cfg5.N = 10 from N_5)
  rw [Dat.before_out_kept _ 9 rfl t (by omega) (Bool.eq_false_iff.mpr fun h => by have := (flush5_9 _).mp h; dsimp only at this; omega)
    (fun _ => rfl) (fun _ _ => rfl)]
  dsimp only [dat5]

/-! ## The body obligation, at a generic tile -/

/-- What the body is called with at tile t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t)
    ∗ owns (c : Thread nD τ) (ms5_8 t) fullShare ((dat5 V c).after 8 t)
    ∗ owns (c : Thread nD τ) (ms5_9 t) fullShare ((dat5 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  have hN : t.val < 10 := lt_of_lt_of_eq t.isLt (show cfg5.N = 10 from N_5)
  by_cases h0 : t.val % 10 = 0
  · rw [outsAt5_A V c t h0]
    dsimp only
    unfold out5_A_7 out5_A_8 out5_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_A c (grid5.coords t) _ _ _ _ _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t) (iblk5 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover5_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover5_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover5_A_9 c _ _ _ _ _ _ _ _ _ _ _ _ _ _ _ _ _ _ _ _ _ _ _ _ _ _ _ _ _)
  · rw [outsAt5_B V c t h0]
    dsimp only
    simp only [before5_8_B V c t h0, before5_9_B V c t h0]
    unfold out5_B_7 out5_B_8 out5_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_B c (grid5.coords t) _ _ _ _ _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) (iblk5 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover5_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover5_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover5_B_9 c _ _ _ _ _ _ _ _ _ _ _ _ _ _ _ _ _ _ _ _ _ _ _ _ _ _ _ _ _ _ _)

/-- The library's body obligation, at every tile. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- Region 6 of @main (the normalise-and-rectify kernel `cc6__stage3_kernel`, pipeline 6) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not it was fetched there
    (unfetched, the block index has not moved), for any proof data whose array is `V`'s and whose body leaves
    the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not it was fetched there
    (unfetched, the block index has not moved), for any proof data whose array is `V`'s and whose body leaves
    the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not it was fetched there
    (unfetched, the block index has not moved), for any proof data whose array is `V`'s and whose body leaves
    the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not it was fetched there
    (unfetched, the block index has not moved), for any proof data whose array is `V`'s and whose body leaves
    the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether or not it was fetched there
    (unfetched, the block index has not moved), for any proof data whose array is `V`'s and whose body leaves
    the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take the whole of their buffer -/

abbrev r6_0 : Rect S2000x128 := Rect.unit (s := S2000x128) ![0, 0] S2000x128.size inb_S2000x128_S2000x128_0_0
abbrev r6_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out6_5 (x0 : Vec F S2000x128 .f32) (x1 x2 x3 x4 : Vec F S1x128 .f32) : Vec F S2000x128 .f32 :=
  View.canon [⟨r6_0, k6_pay1 (View.ld x0 r6_0) (View.ld x1 r6_1) (View.ld x2 r6_1) (View.ld x3 r6_1) (View.ld x4 r6_1)⟩]

/-- The one store covers the buffer. -/
theorem cover6_5 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

/-! ## The body's triple -/

set_option maxHeartbeats 1000000 in
/-- The kernel body on whole staging memrefs, the inputs' at contents `x0 … x4` and the output's at anything, runs to
    the continuation holding the inputs' as they were and the output's at `out6_5 x0 x1 x2 x3 x4`. -/
theorem sound_kernel6 (c : Dev nD) (E : Set ℕ) (i : grid6.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__stage3_kernel i arg1 harg1 arg2 harg2 arg3 harg3 arg4 harg4 arg5 harg5 arg6 harg6) K := by
  simp only [cc6__stage3_kernel_eq_skeleton]; unfold cc6__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t`
    each input's buffer at its block and the output's at `out6_5` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant is the same at every point. -/
theorem Phi6 (c : Dev nD) (j : Fin (cfg6.N + 1)) : (dat6 V c).Φ j = Pipeline.ΦA spec6 c := rfl

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the kernel's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7.lean ====
/-
  Region 7 of the kernel: the first dense map of layer three, tile by tile. At grid point t (ten tiles of two
  thousand nodes) the body reads the tile z of its input rows, the weight matrix W and the bias row b, stores the
  tile y = z · W + b whole, and keeps two 1 × 128 rows whose block never moves: the column sums of y and the
  column sums of y², set to zero at the first point, increased by the tile's column sums at every point, and
  written back after the last point only. Stated at a parameter V, the buffer contents at the region's entry, and
  for any float model F: what each window's staging buffer holds after every point (by recursion on the point,
  the two running rows taken from the point before), and the body's triple at every point.
-/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds its block at every point, fetched there or not (where it is not fetched
    its block index has not moved): the tile of rows, -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- the weight matrix, -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- and the bias row. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's one condition -/

/-- "This is the first tile": the body's comparison of the grid coordinate with zero, as it computes it. -/
abbrev cond7_0 (i : grid7.Coords) : Prop := (Scalar.cmpi .ne (Scalar.extui (Scalar.cmpi .eq (BitVec.ofNat 32 (i 0).val) 0#32)) 0#32) = 1#1
/-- It holds at point 0 and at no other of the ten. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated. -/
abbrev VO7_3 : View sig .tc .vmem S2000x128 .f32 := (Memref.whole cc7_stg3_0 : Memref sig .tc .vmem S2000x128 .f32).view
abbrev VO7_4 : View sig .tc .vmem S1x128 .f32 := (Memref.whole cc7_stg4_0 : Memref sig .tc .vmem S1x128 .f32).view
abbrev VO7_5 : View sig .tc .vmem S1x128 .f32 := (Memref.whole cc7_stg5_0 : Memref sig .tc .vmem S1x128 .f32).view

/-! ## The body at the first tile -/

set_option maxHeartbeats 1000000 in
/-- At the first tile, on whole staging buffers — the inputs' at `x0` (rows), `x1` (weights), `x2` (bias), the
    outputs' at anything — the body runs and hands back the inputs' as they were and each output's with the stores
    it made, as pieces, last first: one store of the tile `y`; for each running row the zero row, then zero plus the
    tile's column sums. -/
noncomputable def kernelRun7_A (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__stage1_kernel i arg1 harg1 arg2 harg2 arg3 harg3 arg4 harg4 arg5 harg5 arg6 harg6) K } := by
  refine ⟨?_, ?_, ?_, fun E K => ?run⟩
  case run =>
    simp only [cc7__stage1_kernel_eq_skeleton]; unfold cc7__stage1_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## The body at a later tile -/

set_option maxHeartbeats 1000000 in
/-- At a later tile the two running rows' buffers are read before they are written: held at `xo4` (sums so far) and
    `xo5` (sums of squares so far), each ends with one store, what it held plus the tile's column sums. -/
noncomputable def kernelRun7_B (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) :
    Σ' (L3 : List (View.Piece (Elt F) S2000x128 .f32)), Σ' (L4 : List (View.Piece (Elt F) S1x128 .f32)),
    { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__stage1_kernel i arg1 harg1 arg2 harg2 arg3 harg3 arg4 harg4 arg5 harg5 arg6 harg6) K } := by
  refine ⟨?_, ?_, ?_, fun E K => ?run⟩
  case run =>
    simp only [cc7__stage1_kernel_eq_skeleton]; unfold cc7__stage1_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    iexists _; iexact H5

/-! ## What each case leaves in the outputs' staging buffers -/

/-- The stores of window 3 in case A tile its block, so every index is written. -/
theorem cover7_A_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S2000x128.Idx) :
    ∃ pc ∈ (kernelRun7_A c i arg1 harg1 arg2 harg2 arg3 harg3 arg4 harg4 arg5 harg5 arg6 harg6 hc0 x0 x1 x2).1, y ∈ pc.1.set :=
  View.cover_of_tiledL (kernelRun7_A c i arg1 harg1 arg2 harg2 arg3 harg3 arg4 harg4 arg5 harg5 arg6 harg6 hc0 x0 x1 x2).1 S2000x128.size (by sl_kernel_rfl) y

/-- What case A leaves in window 3's staging buffer: its pieces read back. -/
def out7_A_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S2000x128 .f32 :=
  VO7_3.read (Elt F) (VO7_3.writes (Elt F) VO7_3.junk (kernelRun7_A c i arg1 harg1 arg2 harg2 arg3 harg3 arg4 harg4 arg5 harg5 arg6 harg6 hc0 x0 x1 x2).1)

/-- The stores of window 4 in case A tile its block, so every index is written. -/
theorem cover7_A_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S1x128.Idx) :
    ∃ pc ∈ (kernelRun7_A c i arg1 harg1 arg2 harg2 arg3 harg3 arg4 harg4 arg5 harg5 arg6 harg6 hc0 x0 x1 x2).2.1, y ∈ pc.1.set :=
  View.cover_of_tiledL (kernelRun7_A c i arg1 harg1 arg2 harg2 arg3 harg3 arg4 harg4 arg5 harg5 arg6 harg6 hc0 x0 x1 x2).2.1 S1x128.size (by sl_kernel_rfl) y

/-- What case A leaves in window 4's staging buffer: its pieces read back. -/
def out7_A_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S1x128 .f32 :=
  VO7_4.read (Elt F) (VO7_4.writes (Elt F) VO7_4.junk (kernelRun7_A c i arg1 harg1 arg2 harg2 arg3 harg3 arg4 harg4 arg5 harg5 arg6 harg6 hc0 x0 x1 x2).2.1)

/-- The stores of window 5 in case A tile its block, so every index is written. -/
theorem cover7_A_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) (y : S1x128.Idx) :
    ∃ pc ∈ (kernelRun7_A c i arg1 harg1 arg2 harg2 arg3 harg3 arg4 harg4 arg5 harg5 arg6 harg6 hc0 x0 x1 x2).2.2.1, y ∈ pc.1.set :=
  View.cover_of_tiledL (kernelRun7_A c i arg1 harg1 arg2 harg2 arg3 harg3 arg4 harg4 arg5 harg5 arg6 harg6 hc0 x0 x1 x2).2.2.1 S1x128.size (by sl_kernel_rfl) y

/-- What case A leaves in window 5's staging buffer: its pieces read back. -/
def out7_A_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) : Vec F S1x128 .f32 :=
  VO7_5.read (Elt F) (VO7_5.writes (Elt F) VO7_5.junk (kernelRun7_A c i arg1 harg1 arg2 harg2 arg3 harg3 arg4 harg4 arg5 harg5 arg6 harg6 hc0 x0 x1 x2).2.2.1)

/-- The stores of window 3 in case B tile its block, so every index is written. -/
theorem cover7_B_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S2000x128.Idx) :
    ∃ pc ∈ (kernelRun7_B c i arg1 harg1 arg2 harg2 arg3 harg3 arg4 harg4 arg5 harg5 arg6 harg6 hc0 x0 x1 x2 xo4 xo5).1, y ∈ pc.1.set :=
  View.cover_of_tiledL (kernelRun7_B c i arg1 harg1 arg2 harg2 arg3 harg3 arg4 harg4 arg5 harg5 arg6 harg6 hc0 x0 x1 x2 xo4 xo5).1 S2000x128.size (by sl_kernel_rfl) y

/-- What case B leaves in window 3's staging buffer: its pieces read back. -/
def out7_B_3 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S2000x128 .f32 :=
  VO7_3.read (Elt F) (VO7_3.writes (Elt F) VO7_3.junk (kernelRun7_B c i arg1 harg1 arg2 harg2 arg3 harg3 arg4 harg4 arg5 harg5 arg6 harg6 hc0 x0 x1 x2 xo4 xo5).1)

/-- The stores of window 4 in case B tile its block, so every index is written. -/
theorem cover7_B_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.1, y ∈ pc.1.set :=
  View.cover_of_tiledL (kernelRun7_B c i arg1 harg1 arg2 harg2 arg3 harg3 arg4 harg4 arg5 harg5 arg6 harg6 hc0 x0 x1 x2 xo4 xo5).2.1 S1x128.size (by sl_kernel_rfl) y

/-- What case B leaves in window 4's staging buffer: its pieces read back. -/
def out7_B_4 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S1x128 .f32 :=
  VO7_4.read (Elt F) (VO7_4.writes (Elt F) VO7_4.junk (kernelRun7_B c i arg1 harg1 arg2 harg2 arg3 harg3 arg4 harg4 arg5 harg5 arg6 harg6 hc0 x0 x1 x2 xo4 xo5).2.1)

/-- The stores of window 5 in case B tile its block, so every index is written. -/
theorem cover7_B_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.2.1, y ∈ pc.1.set :=
  View.cover_of_tiledL (kernelRun7_B c i arg1 harg1 arg2 harg2 arg3 harg3 arg4 harg4 arg5 harg5 arg6 harg6 hc0 x0 x1 x2 xo4 xo5).2.2.1 S1x128.size (by sl_kernel_rfl) y

/-- What case B leaves in window 5's staging buffer: its pieces read back. -/
def out7_B_5 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) : Vec F S1x128 .f32 :=
  VO7_5.read (Elt F) (VO7_5.writes (Elt F) VO7_5.junk (kernelRun7_B c i arg1 harg1 arg2 harg2 arg3 harg3 arg4 harg4 arg5 harg5 arg6 harg6 hc0 x0 x1 x2 xo4 xo5).2.2.1)

/-! ## What the outputs hold after each point -/

/-- Each window's current staging memref at point `t`, as the pipeline passes it to the body, and its wholeness. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2000x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)

/-- THE ACCUMULATION. What the three outputs' staging buffers hold after the body at point `n`: at the first tile what
    the first case leaves; at a later tile what the second case leaves, the two running rows read at what this
    gives at `n - 1` (their buffers are not written back in between). -/
def outsAt7 (c : Dev nD) : (n : ℕ) → n < cfg7.N → Vec F S2000x128 .f32 × Vec F S1x128 .f32 × Vec F S1x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩))
  | n + 1, hn =>
    if h0 : (n + 1) % 10 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2)

/-- `outsAt7` at the first tile. -/
theorem outsAt7_A (c : Dev nD) (t : Fin cfg7.N) (h0 : t.val % 10 = 0) :
    outsAt7 V c t.val t.isLt = (out7_A_3 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)) := by
  obtain ⟨n, hn⟩ := t
  cases n with
  | zero => exact rfl
  | succ n => exact (dif_pos h0).trans rfl

/-- `outsAt7` at a later tile, over what the point before left. -/
theorem outsAt7_B (c : Dev nD) (t : Fin cfg7.N) (h0 : ¬t.val % 10 = 0) :
    outsAt7 V c t.val t.isLt = (out7_B_3 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 7 on core `c`: the arrays as the region finds them; after the body at point `t` each
    input's buffer at its block and the outputs' at `outsAt7`; the invariant says nothing of the windows; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi7 (c : Dev nD) (j : Fin (cfg7.N + 1)) : (dat7 V c).Φ j = Pipeline.ΦA spec7 c := rfl

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- At a later tile the buffer of the running sums holds what the body left at the point before: it is written back
    after the last point only, and the window is live and uncut. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]

/-- The same for the running sums of squares. -/
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 1600000 in
/-- The body at any point: the inputs' memrefs hold their blocks; the point is the first tile or a later one; at a
    later one the two running rows' buffers hold what the point before left; so that case's run applies; the
    invariant passes through unread and the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    dsimp only
    unfold out7_A_3 out7_A_4 out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (iblk7 V c 0 t) (iblk7 V c 1 t) (iblk7 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 c _ _ _ _ _ _ _ _ _ _ _ _ _ _ _ _ _)
    isplitl [H4]
    · unfold owns; iexists _; isplitr
      swap; · iexact H4
      ipureintro; exact View.read_writes_of_cover _ _ _ _ _ (cover7_A_4 c _ _ _ _ _ _ _ _ _ _ _ _ _ _ _ _ _)
    unfold owns; iexists _; isplitr
    swap; · iexact H5
    ipureintro; exact View.read_writes_of_cover _ _ _ _ _ (cover7_A_5 c _ _ _ _ _ _ _ _ _ _ _ _ _ _ _ _ _)
  · rw [outsAt7_B V c t h0]
    simp only [before7_4_B V c t h0, before7_5_B V c t h0]
    (try dsimp only)
    unfold out7_B_3 out7_B_4 out7_B_5
    iintro ⟨HΦ, Ho, ⟨%d0, H0⟩, ⟨%d1, H1⟩, ⟨%d2, H2⟩, ⟨%d3, H3⟩, ⟨%d4, H4⟩, ⟨%d5, H5⟩⟩
    iapply ((kernelRun7_B c (grid7.coords t) _ _ _ _ _ _ _ _ _ _ _ _ (fun h => h0 ((hcond7_0 t).mp h)) (iblk7 V c 0 t) (iblk7 V c 1 t) (iblk7 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 c _ _ _ _ _ _ _ _ _ _ _ _ _ _ _ _ _ _ _)
    isplitl [H4]
    · unfold owns; iexists _; isplitr
      swap; · iexact H4
      ipureintro; exact View.read_writes_of_cover _ _ _ _ _ (cover7_B_4 c _ _ _ _ _ _ _ _ _ _ _ _ _ _ _ _ _ _ _)
    unfold owns; iexists _; isplitr
    swap; · iexact H5
    ipureintro; exact View.read_writes_of_cover _ _ _ _ _ (cover7_B_5 c _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Ring
import Idealize.ShloMosaic.Lib.Tactic

/-! Region 8 of the network: on each tile of 2000 nodes the normalised, rectified activations
    a = max ((g * (y - mean)) * rsqrt (var + eps) + beta, 0) are multiplied by the layer's second
    weight matrix and shifted by its bias; the product tile is stored whole, and two rows of 128
    numbers, whose block never moves, collect the column sums of the product and of its square:
    cleared on the first tile, added to on every tile, written back after the last. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at tile t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every tile, fetched there or not (when it is not
    fetched its block index has not moved). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every tile, fetched there or not (when it is not
    fetched its block index has not moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every tile, fetched there or not (when it is not
    fetched its block index has not moved). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every tile, fetched there or not (when it is not
    fetched its block index has not moved). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every tile, fetched there or not (when it is not
    fetched its block index has not moved). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every tile, fetched there or not (when it is not
    fetched its block index has not moved). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's staging buffer holds its block at every tile, fetched there or not (when it is not
    fetched its block index has not moved). -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch -/

/-- The body's one branch asks whether the tile is the first. -/
abbrev cond8_0 (i : grid8.Coords) : Prop := (Scalar.cmpi .ne (Scalar.extui (Scalar.cmpi .eq (BitVec.ofNat 32 (i 0).val) 0#32)) 0#32) = 1#1
/-- It is, at tile 0 only: decided over the ten tiles. -/
theorem hcond8_0 : ∀ t : Fin cfg8.N, cond8_0 (grid8.coords t) ↔ t.val % 10 = 0 :=
  (by decide +kernel : ∀ t : Fin grid8.N, cond8_0 (grid8.coords t) ↔ t.val % 10 = 0)

/-! ## The staging memrefs -/

/-- One staging buffer of each output window, through which its contents are stated. -/
abbrev VO8_7 : View sig .tc .vmem S2000x128 .f32 := (Memref.whole cc8_stg7_0 : Memref sig .tc .vmem S2000x128 .f32).view
abbrev VO8_8 : View sig .tc .vmem S1x128 .f32 := (Memref.whole cc8_stg8_0 : Memref sig .tc .vmem S1x128 .f32).view
abbrev VO8_9 : View sig .tc .vmem S1x128 .f32 := (Memref.whole cc8_stg9_0 : Memref sig .tc .vmem S1x128 .f32).view
/-- Each window's current staging memref at tile t, as the pipeline passes it to the body, and its wholeness. -/
abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S128x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S2000x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
abbrev ms8_9 (t : Fin cfg8.N) : Memref sig .tc .vmem S1x128 .f32 := win8_9.stage (cfg8.slots t 9)
abbrev hs8_9 (t : Fin cfg8.N) : (ms8_9 t).IsWhole := hstage8_9 ((cfg8.slots t 9).cast nbuf8_9)

/-! ## The body on the first tile -/

set_option maxHeartbeats 4000000 in
/-- What the body's stores leave in the three output buffers ON THE FIRST TILE, as lists of written pieces (last
    first), with the proof that from whole staging memrefs, the inputs' at their blocks and the outputs' at
    anything, the body runs to a continuation that is handed the inputs' back as they were and each output's
    buffer with its pieces written. The two running rows are cleared, then added to. -/
noncomputable def kernelRun8_A (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc8__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc8__stage2_kernel_eq_skeleton]; unfold cc8__stage2_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## The body on a later tile -/

set_option maxHeartbeats 4000000 in
/-- The same ON A LATER TILE: the two running rows are read first, so their buffers are taken at the contents the
    tile before left, and are added to without being cleared. -/
noncomputable def kernelRun8_B (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S2000x128 .f32)), Σ' (L8 : List (View.Piece (Elt F) S1x128 .f32)),
    { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc8__stage2_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc8__stage2_kernel_eq_skeleton]; unfold cc8__stage2_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

/-! ## What each case leaves in each output buffer -/

/-- On the first tile the pieces written into output 7 (the product tile) tile its block, so they cover it. -/
theorem cover8_A_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S2000x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).1 S2000x128.size (by sl_kernel_rfl) y

/-- What the first tile leaves in output 7's staging buffer: its pieces read back. -/
def out8_A_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S2000x128 .f32 :=
  VO8_7.read (Elt F) (VO8_7.writes (Elt F) VO8_7.junk (kernelRun8_A c i arg1 harg1 arg2 harg2 arg3 harg3 arg4 harg4 arg5 harg5 arg6 harg6 arg7 harg7 arg8 harg8 arg9 harg9 arg10 harg10 hc0 x0 x1 x2 x3 x4 x5 x6).1)

/-- On the first tile the pieces written into output 8 (the running column sums) tile its block, so they cover it. -/
theorem cover8_A_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What the first tile leaves in output 8's staging buffer: its pieces read back. -/
def out8_A_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO8_8.read (Elt F) (VO8_8.writes (Elt F) VO8_8.junk (kernelRun8_A c i arg1 harg1 arg2 harg2 arg3 harg3 arg4 harg4 arg5 harg5 arg6 harg6 arg7 harg7 arg8 harg8 arg9 harg9 arg10 harg10 hc0 x0 x1 x2 x3 x4 x5 x6).2.1)

/-- On the first tile the pieces written into output 9 (the running column sums of squares) tile its block, so they cover it. -/
theorem cover8_A_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun8_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What the first tile leaves in output 9's staging buffer: its pieces read back. -/
def out8_A_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) : Vec F S1x128 .f32 :=
  VO8_9.read (Elt F) (VO8_9.writes (Elt F) VO8_9.junk (kernelRun8_A c i arg1 harg1 arg2 harg2 arg3 harg3 arg4 harg4 arg5 harg5 arg6 harg6 arg7 harg7 arg8 harg8 arg9 harg9 arg10 harg10 hc0 x0 x1 x2 x3 x4 x5 x6).2.2.1)

/-- On a later tile the pieces written into output 7 (the product tile) tile its block, so they cover it. -/
theorem cover8_B_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S2000x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1 S2000x128.size (by sl_kernel_rfl) y

/-- What a later tile leaves in output 7's staging buffer: its pieces read back. -/
def out8_B_7 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S2000x128 .f32 :=
  VO8_7.read (Elt F) (VO8_7.writes (Elt F) VO8_7.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).1)

/-- On a later tile the pieces written into output 8 (the running column sums) tile its block, so they cover it. -/
theorem cover8_B_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What a later tile leaves in output 8's staging buffer: its pieces read back. -/
def out8_B_8 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO8_8.read (Elt F) (VO8_8.writes (Elt F) VO8_8.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- On a later tile the pieces written into output 9 (the running column sums of squares) tile its block, so they cover it. -/
theorem cover8_B_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What a later tile leaves in output 9's staging buffer: its pieces read back. -/
def out8_B_9 (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) : Vec F S1x128 .f32 :=
  VO8_9.read (Elt F) (VO8_9.writes (Elt F) VO8_9.junk (kernelRun8_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each tile -/

/-- THE ACCUMULATION. What the three output buffers hold after the body at tile n: the first tile's contents at
    n = 0; afterwards the later-tile contents, the two running rows taken at what tile n - 1 left (their buffer is not
    written back in between). -/
def outsAt8 (c : Dev nD) : (n : ℕ) → n < cfg8.N → Vec F S2000x128 .f32 × Vec F S1x128 .f32 × Vec F S1x128 .f32
  | 0, hn => (out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩),
       out8_A_8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩),
       out8_A_9 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) ((hcond8_0 ⟨0, hn⟩).mpr (Nat.zero_mod _)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩))
  | n + 1, hn =>
    if h0 : (n + 1) % 10 = 0 then
      (out8_A_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩),
       out8_A_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩),
       out8_A_9 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) ((hcond8_0 ⟨n + 1, hn⟩).mpr h0) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩))
    else
      (out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2,
       out8_B_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2,
       out8_B_9 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (fun h => h0 ((hcond8_0 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (outsAt8 c n (Nat.lt_of_succ_lt hn)).2.1 (outsAt8 c n (Nat.lt_of_succ_lt hn)).2.2)

/-- At the first tile: the first tile's contents. -/
theorem outsAt8_A (c : Dev nD) (t : Fin cfg8.N) (h0 : t.val % 10 = 0) :
    outsAt8 V c t.val t.isLt = (out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t),
       out8_A_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t),
       out8_A_9 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) ((hcond8_0 t).mpr h0) (iblk8 V c 0 t) (iblk8 V c 1 t) (iblk8 V c 2 t) (iblk8 V c 3 t) (iblk8 V c 4 t) (iblk8 V c 5 t) (iblk8 V c 6 t)) := by
  obtain ⟨n, hn⟩ := t
  cases n with
  | zero => exact rfl
  | succ n => exact (dif_pos h0).trans rfl

/-- At a later tile: the later-tile contents over what the tile before left. -/
theorem outsAt8_B (c : Dev nD) (t : Fin cfg8.N) (h0 : ¬t.val % 10 = 0) :
    outsAt8 V c t.val t.isLt = (out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2,
       out8_B_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2,
       out8_B_9 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (fun h => h0 ((hcond8_0 t).mp h)) (iblk8 V c 0 t) (iblk8 V c 1 t) (iblk8 V c 2 t) (iblk8 V c 3 t) (iblk8 V c 4 t) (iblk8 V c 5 t) (iblk8 V c 6 t) (outsAt8 V c (t.val - 1) (Nat.lt_of_le_of_lt (Nat.sub_le _ _) t.isLt)).2.1 (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core c: the arrays as the region finds them; after the body at
    tile t each input's buffer at its block and the outputs' at outsAt8; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => (outsAt8 V c t.val t.isLt).1
    | ⟨8, _⟩ => (outsAt8 V c t.val t.isLt).2.1
    | ⟨9, _⟩ => (outsAt8 V c t.val t.isLt).2.2
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Its invariant is the scoped rest and the generator register, at every tile. -/
theorem Phi8 (c : Dev nD) (j) : (dat8 V c).Φ j = Pipeline.ΦA spec8 c := rfl

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = (outsAt8 V c t.val t.isLt).1 := by dsimp only [dat8]
theorem after8_8 (c : Dev nD) (t : Fin cfg8.N) : (dat8 V c).after 8 t = (outsAt8 V c t.val t.isLt).2.1 := by dsimp only [dat8]
theorem after8_9 (c : Dev nD) (t : Fin cfg8.N) : (dat8 V c).after 9 t = (outsAt8 V c t.val t.isLt).2.2 := by dsimp only [dat8]

/-- Each input's current staging buffer holds its block at every tile. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-- At a later tile the running row of window 8 holds what the body left at the tile before: the tile is not the first,
    the buffer was not written back in between, the window is uncut. -/
theorem before8_8_B (c : Dev nD) (t : Fin cfg8.N) (h0 : ¬t.val % 10 = 0) (d) :
    (dat8 V c).before 8 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 8 rfl t (by omega) (Bool.eq_false_iff.mpr fun h => by have := (flush8_8 _).mp h; dsimp only at this; omega)
    (fun _ => rfl) (fun _ _ => rfl)]
  dsimp only [dat8]

/-- At a later tile the running row of window 9 holds what the body left at the tile before: the tile is not the first,
    the buffer was not written back in between, the window is uncut. -/
theorem before8_9_B (c : Dev nD) (t : Fin cfg8.N) (h0 : ¬t.val % 10 = 0) (d) :
    (dat8 V c).before 9 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 9 rfl t (by omega) (Bool.eq_false_iff.mpr fun h => by have := (flush8_9 _).mp h; dsimp only at this; omega)
    (fun _ => rfl) (fun _ _ => rfl)]
  dsimp only [dat8]

/-! ## The body obligation, at a generic tile -/

/-- What the body is called with at tile t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t)
    ∗ owns (c : Thread nD τ) (ms8_8 t) fullShare ((dat8 V c).after 8 t)
    ∗ owns (c : Thread nD τ) (ms8_9 t) fullShare ((dat8 V c).after 9 t))

set_option maxHeartbeats 4000000 in
/-- The body at any tile: the inputs' memrefs hold their blocks; the tile is the first or a later one; at a later one
    the two running rows hold what the tile before left; so the matching run applies. The invariant passes through
    unread and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  have hN : t.val < 10 := lt_of_lt_of_eq t.isLt (show cfg8.N = 10 from N_8)
  by_cases h0 : t.val % 10 = 0
  · rw [outsAt8_A V c t h0]
    dsimp only
    unfold out8_A_7 out8_A_8 out8_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun8_A c (grid8.coords t) _ _ _ _ _ _ _ _ _ _ _ _ _ _ _ _ _ _ _ _ ((hcond8_0 t).mpr h0) (iblk8 V c 0 t) (iblk8 V c 1 t) (iblk8 V c 2 t) (iblk8 V c 3 t) (iblk8 V c 4 t) (iblk8 V c 5 t) (iblk8 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover8_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover8_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover8_A_9 c _ _ _ _ _ _ _ _ _ _ _ _ _ _ _ _ _ _ _ _ _ _ _ _ _ _ _ _ _)
  · rw [outsAt8_B V c t h0]
    dsimp only
    simp only [before8_8_B V c t h0, before8_9_B V c t h0]
    unfold out8_B_7 out8_B_8 out8_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun8_B c (grid8.coords t) _ _ _ _ _ _ _ _ _ _ _ _ _ _ _ _ _ _ _ _ (fun h => h0 ((hcond8_0 t).mp h)) (iblk8 V c 0 t) (iblk8 V c 1 t) (iblk8 V c 2 t) (iblk8 V c 3 t) (iblk8 V c 4 t) (iblk8 V c 5 t) (iblk8 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover8_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover8_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover8_B_9 c _ _ _ _ _ _ _ _ _ _ _ _ _ _ _ _ _ _ _ _ _ _ _ _ _ _ _ _ _ _ _)

/-- The library's body obligation, at every tile. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/- Region 9 of @main (the normalise-and-rectify kernel `cc9__stage3_kernel`, pipeline 9) at a parameter `V`, the buffer contents the region is entered with:
   each window's block at a point, what the body's one store leaves in the output window's buffer as a
   function of the input blocks, the body's triple, the pipeline's proof data and its body obligation.
   Every statement is at an arbitrary float interpretation `F`. -/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not it was fetched there
    (unfetched, the block index has not moved), for any proof data whose array is `V`'s and whose body leaves
    the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not it was fetched there
    (unfetched, the block index has not moved), for any proof data whose array is `V`'s and whose body leaves
    the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not it was fetched there
    (unfetched, the block index has not moved), for any proof data whose array is `V`'s and whose body leaves
    the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether or not it was fetched there
    (unfetched, the block index has not moved), for any proof data whose array is `V`'s and whose body leaves
    the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether or not it was fetched there
    (unfetched, the block index has not moved), for any proof data whose array is `V`'s and whose body leaves
    the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take the whole of their buffer -/

abbrev r9_0 : Rect S2000x128 := Rect.unit (s := S2000x128) ![0, 0] S2000x128.size inb_S2000x128_S2000x128_0_0
abbrev r9_1 : Rect S1x128 := Rect.unit (s := S1x128) ![0, 0] S1x128.size inb_S1x128_S1x128_0_0

/-! ## What the body leaves in the output window's buffer -/

/-- Window 5's staging buffer after the body, from the five input blocks `y, mean, var, g, be`: the one store's payload
    `max (g · (y − mean) · rsqrt (var + ε) + be) 0` (each row operand broadcast to 2000x128) laid over the whole buffer. -/
def out9_5 (x0 : Vec F S2000x128 .f32) (x1 x2 x3 x4 : Vec F S1x128 .f32) : Vec F S2000x128 .f32 :=
  View.canon [⟨r9_0, k9_pay1 (View.ld x0 r9_0) (View.ld x1 r9_1) (View.ld x2 r9_1) (View.ld x3 r9_1) (View.ld x4 r9_1)⟩]

/-- The one store covers the buffer. -/
theorem cover9_5 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

/-! ## The body's triple -/

set_option maxHeartbeats 1000000 in
/-- The kernel body on whole staging memrefs, the inputs' at contents `x0 … x4` and the output's at anything, runs to
    the continuation holding the inputs' as they were and the output's at `out9_5 x0 x1 x2 x3 x4`. -/
theorem sound_kernel9 (c : Dev nD) (E : Set ℕ) (i : grid9.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__stage3_kernel i arg1 harg1 arg2 harg2 arg3 harg3 arg4 harg4 arg5 harg5 arg6 harg6) K := by
  simp only [cc9__stage3_kernel_eq_skeleton]; unfold cc9__stage3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them; after the body at point `t`
    each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant is the same at every point. -/
theorem Phi9 (c : Dev nD) (j : Fin (cfg9.N + 1)) : (dat9 V c).Φ j = Pipeline.ΦA spec9 c := rfl

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the kernel's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Reg10.lean ====
/-
  Region 10, the mean pooling by graph and the read-out, at any interpretation of the floats. At every grid point the
  kernel adds one node tile's per-graph sums (the one-hot of the tile's graph numbers, transposed, times the tile's
  features) and per-graph node counts into two accumulators it keeps from point to point, zeroed at the first point; at
  the last point it stores the logits computed from what the accumulators then hold. Here: the blocks the windows hand the
  body; the accumulators' contents after each point, a recursion on the point; the region's invariant, which carries the
  two accumulators at those contents beside the scoped buffers it leaves alone; the proof data; the body's triple in its
  three cases (first point, a point in between, last point) and the obligation at every point; the invariant's entry
  and exit.
-/
import proofs.«411025_j54640573939922_1_alg».proof.Proof.Gen.KernelIdeal.Launch
import proofs.«411025_j54640573939922_1_alg».proof.Proof.Gen.KernelIdeal.Skeleton
import proofs.«411025_j54640573939922_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Stores and loads through a buffer's whole rectangle -/

theorem zero2 : (![0, 0] : Fin 2 → Nat) = fun _ => 0 := funext fun a => by fin_cases a <;> rfl

section Whole

variable {Val : EltTy → Type} [∀ e, Nonempty (Val e)] {sg : RefSig} {κ : Kind} {sp : Space} {S : Shape} {e : EltTy}

/-- A store through the whole rectangle, made last, leaves its payload, whatever was stored before it. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

/-- A load through the whole rectangle reads the contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

/-- Every load of the body is through a buffer's whole rectangle, and so is every read-back of a store made earlier at the same point. -/
macro "whole_reads" : tactic => `(tactic| simp only [readAt_whole (S := S2000x128) _ _ zero2, readAt_whole (S := S2000x1) _ _ zero2, readAt_whole (S := S128x128) _ _ zero2, readAt_whole (S := S128x1) _ _ zero2, readAt_whole (S := S128x2) _ _ zero2, readAt_whole (S := S1x2) _ _ zero2, View.readCov_unit_zero (S := S128x128) _ zero2, View.readCov_unit_zero (S := S128x1) _ zero2])

/-! ## The body's two branches, from the grid coordinate -/

/-- The first branch (the accumulators are zeroed) is taken at the grid's first point, -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)

/-- the second (the read-out) at its last. -/
abbrev cond10_1 (i : grid10.Coords) : Prop := k10_cond2 i = 1#1
theorem hcond10_1 : ∀ t : Fin cfg10.N, cond10_1 (grid10.coords t) ↔ t.val = 9 :=
  (by decide +kernel : ∀ t : Fin grid10.N, cond10_1 (grid10.coords t) ↔ t.val = 9)

/-- The inputs are never idle; the logits' window is idle, and not written back, wherever the read-out is not taken. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem idleAt10_4 : ∀ t : Fin cfg10.N, ¬cond10_1 (grid10.coords t) → cfg10.idle 4 (grid10.coords t) = true := by decide +kernel
theorem noFlush10_4 : ∀ t : Fin cfg10.N, ¬cond10_1 (grid10.coords t) → (cfg10.win 4).flush t = false := by decide +kernel
theorem liveAt10_4 : ∀ t : Fin cfg10.N, cond10_1 (grid10.coords t) → cfg10.idle 4 (grid10.coords t) = false := by decide +kernel

/-! ## The body's triple, case by case -/

set_option maxHeartbeats 1000000 in
/-- At the first point: the accumulators, found at anything, are zeroed and then take the tile's sums and counts. -/
theorem sound_kernel10_first (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : cond10_0 i) (hc1 : ¬cond10_1 i)
    (x0 : Vec F S2000x128 .f32) (x1 : Vec F S2000x1 .i32) (x2 : Vec F S128x2 .f32) (x3 : Vec F S1x2 .f32) (x4 : Vec F S128x2 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x0 x1 k10_pay1) ∗ owns (c : Thread nD τ) arg7 fullShare (k10_pay5 x1 k10_pay2)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_whole _ _ zero2]
    whole_reads
  iexists _; isplitr
  swap; · iexact H6
  ipureintro
  sl_unfold_run_names
  rw [read_writes_whole _ _ zero2]
  whole_reads

set_option maxHeartbeats 1000000 in
/-- Between the first and the last point: the accumulators, found at `s` and `n`, take the tile's sums and counts. -/
theorem sound_kernel10_mid (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : ¬cond10_0 i) (hc1 : ¬cond10_1 i)
    (x0 : Vec F S2000x128 .f32) (x1 : Vec F S2000x1 .i32) (x2 : Vec F S128x2 .f32) (x3 : Vec F S1x2 .f32) (x4 : Vec F S128x2 .f32)
    (s : Vec F S128x128 .f32) (n : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x0 x1 s) ∗ owns (c : Thread nD τ) arg7 fullShare (k10_pay5 x1 n)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_whole _ _ zero2]
    whole_reads
  iexists _; isplitr
  swap; · iexact H6
  ipureintro
  rw [read_writes_whole _ _ zero2]
  whole_reads

set_option maxHeartbeats 1000000 in
/-- At the last point: the accumulators take the tile's sums and counts, and the logits' buffer, found at anything, the
    read-out of what they then hold. -/
theorem sound_kernel10_last (c : Dev nD) (E : Set ℕ) (i : grid10.Coords)
    (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc0 : ¬cond10_0 i) (hc1 : cond10_1 i)
    (x0 : Vec F S2000x128 .f32) (x1 : Vec F S2000x1 .i32) (x2 : Vec F S128x2 .f32) (x3 : Vec F S1x2 .f32)
    (s : Vec F S128x128 .f32) (n : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s ∗ owns (c : Thread nD τ) arg7 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k10_pay6 (k10_pay4 x0 x1 s) (k10_pay5 x1 n) x2 x3)
            ∗ owns (c : Thread nD τ) arg6 fullShare (k10_pay4 x0 x1 s) ∗ owns (c : Thread nD τ) arg7 fullShare (k10_pay5 x1 n)) -∗ K ⟨⟩))
      ⊢ wp frame (wpE (defs₀ (F := F)) Variants.none c none) E (cc10__pool_classify_kernel i arg1 harg1 arg2 harg2 arg3 harg3 arg4 harg4 arg5 harg5 arg6 harg6 arg7 harg7) K := by
  simp only [cc10__pool_classify_kernel_eq_skeleton]; unfold cc10__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_whole _ _ zero2]
    whole_reads
  isplitl [H5]
  · iexists _; isplitr
    swap; · iexact H5
    ipureintro
    sl_unfold_run_names
    rw [read_writes_whole _ _ zero2]
    whole_reads
  iexists _; isplitr
  swap; · iexact H6
  ipureintro
  sl_unfold_run_names
  rw [read_writes_whole _ _ zero2]
  whole_reads

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not: unfetched, its block
    index has not moved; the body leaves the block in place; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The accumulation -/

/-- The two accumulators (the pooled sums, graphs × hidden; the node counts, graphs × 1) after the body at position `n`:
    zeroed at the first point, then at every point the tile's sums and counts added to what the point before left. -/
def scr10 (c : Dev nD) : (n : ℕ) → n < cfg10.N → Vec F S128x128 .f32 × Vec F S128x1 .f32
  | 0, hn => (k10_pay4 (iblk10 V c 0 ⟨0, hn⟩) (iblk10 V c 1 ⟨0, hn⟩) k10_pay1, k10_pay5 (iblk10 V c 1 ⟨0, hn⟩) k10_pay2)
  | n + 1, hn => (k10_pay4 (iblk10 V c 0 ⟨n + 1, hn⟩) (iblk10 V c 1 ⟨n + 1, hn⟩) (scr10 c n (Nat.lt_of_succ_lt hn)).1,
      k10_pay5 (iblk10 V c 1 ⟨n + 1, hn⟩) (scr10 c n (Nat.lt_of_succ_lt hn)).2)

theorem scr10_first (c : Dev nD) (t : Fin cfg10.N) (h0 : t.val = 0) :
    scr10 V c t.val t.isLt = (k10_pay4 (iblk10 V c 0 t) (iblk10 V c 1 t) k10_pay1, k10_pay5 (iblk10 V c 1 t) k10_pay2) := by
  obtain ⟨n, hn⟩ := t
  cases n with
  | zero => rfl
  | succ n => exact absurd h0 (Nat.succ_ne_zero n)

theorem scr10_pos (c : Dev nD) (t : Fin cfg10.N) (h0 : t.val ≠ 0) :
    scr10 V c t.val t.isLt = (k10_pay4 (iblk10 V c 0 t) (iblk10 V c 1 t) (scr10 V c (t.val - 1) (Nat.lt_of_le_of_lt (Nat.sub_le _ _) t.isLt)).1,
      k10_pay5 (iblk10 V c 1 t) (scr10 V c (t.val - 1) (Nat.lt_of_le_of_lt (Nat.sub_le _ _) t.isLt)).2) := by
  obtain ⟨n, hn⟩ := t
  cases n with
  | zero => exact absurd rfl h0
  | succ n => rfl

/-! ## The region's invariant -/

/-- The two accumulators: whole scoped buffers of the kernel's own, passed beside the windows. -/
abbrev scM10_0 : Memref sig .tc .vmem S128x128 .f32 := Memref.whole cc10_scratch0
abbrev scM10_1 : Memref sig .tc .vmem S128x1 .f32 := Memref.whole cc10_scratch1

/-- The class's invariant with the two accumulators taken out of the scoped rest, each at some contents. -/
theorem PhiA10_eq (c : Dev nD) :
    (Pipeline.ΦA spec10 c : sProp 𝕄)
      = iprop((((∃ d, owns (c : Thread nD τ) scM10_0 fullShare d) ∗ (∃ d, owns (c : Thread nD τ) scM10_1 fullShare d)) ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-- The invariant before position `n`: before the first point the class's (every scoped buffer no window stages at
    anything, the generator register at some state); afterwards the same with the two accumulators at what the point
    before left in them. -/
def Phi10 (c : Dev nD) : (n : ℕ) → n ≤ cfg10.N → sProp 𝕄
  | 0, _ => Pipeline.ΦA spec10 c
  | n + 1, hn => iprop(((owns (c : Thread nD τ) scM10_0 fullShare (scr10 V c n hn).1 ∗ owns (c : Thread nD τ) scM10_1 fullShare (scr10 V c n hn).2) ∗ Pipeline.scopedRestBut (Ix := Unit) (Name := ℕ) (U := UR sig nD τ) (Lvl := ℕ) (Val := Elt F) spec10 c [cc10_scratch0, cc10_scratch1]) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(((owns (c : Thread nD τ) scM10_0 fullShare (scr10 V c n hn).1 ∗ owns (c : Thread nD τ) scM10_1 fullShare (scr10 V c n hn).2) ∗ Pipeline.scopedRestBut (Ix := Unit) (Name := ℕ) (U := UR sig nD τ) (Lvl := ℕ) (Val := Elt F) spec10 c [cc10_scratch0, cc10_scratch1]) ∗ (∃ r, prngReg c r)) := rfl

theorem Phi10_pos (c : Dev nD) (n : ℕ) (h : n ≤ cfg10.N) (hz : n ≠ 0) :
    Phi10 V c n h = iprop(((owns (c : Thread nD τ) scM10_0 fullShare (scr10 V c (n - 1) (by omega)).1 ∗ owns (c : Thread nD τ) scM10_1 fullShare (scr10 V c (n - 1) (by omega)).2) ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- The proof data of pipeline 10 on core `c`: the arrays as the region finds them (`V`); after the body at point `t`
    each input's buffer at its block and the logits' at the read-out of the accumulators' contents there (read only at
    the last point: elsewhere the window is idle); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => k10_pay6 (scr10 V c t.val t.isLt).1 (scr10 V c t.val t.isLt).2 (iblk10 V c 2 t) (iblk10 V c 3 t)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = k10_pay6 (scr10 V c t.val t.isLt).1 (scr10 V c t.val t.isLt).2 (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-- An input's buffer is left at its block. -/
theorem leaves10_0 (c : Dev nD) (t : Fin cfg10.N) : (dat10 V c).leavesExact 0 t = owns (c : Thread nD τ) (st10_0 t) fullShare (iblk10 V c 0 t) := by
  unfold Dat.leavesExact; rw [liveAt10_0 t, after10_0]
theorem leaves10_1 (c : Dev nD) (t : Fin cfg10.N) : (dat10 V c).leavesExact 1 t = owns (c : Thread nD τ) (st10_1 t) fullShare (iblk10 V c 1 t) := by
  unfold Dat.leavesExact; rw [liveAt10_1 t, after10_1]
theorem leaves10_2 (c : Dev nD) (t : Fin cfg10.N) : (dat10 V c).leavesExact 2 t = owns (c : Thread nD τ) (st10_2 t) fullShare (iblk10 V c 2 t) := by
  unfold Dat.leavesExact; rw [liveAt10_2 t, after10_2]
theorem leaves10_3 (c : Dev nD) (t : Fin cfg10.N) : (dat10 V c).leavesExact 3 t = owns (c : Thread nD τ) (st10_3 t) fullShare (iblk10 V c 3 t) := by
  unfold Dat.leavesExact; rw [liveAt10_3 t, after10_3]

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t ∗ (dat10 V c).leavesExact 2 t
    ∗ (dat10 V c).leavesExact 3 t ∗ (dat10 V c).leavesExact 4 t)

set_option maxHeartbeats 4000000 in
/-- The body at any point: the inputs' buffers hold their blocks; the coordinate says which case the point is in; the
    invariant hands the body the accumulators at what the point before left (at anything at the first point) and takes
    them back at this point's contents; the logits' buffer is handed back untouched except at the last point. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, leaves10_3]
  have hN : t.val < 10 := lt_of_lt_of_eq t.isLt (show cfg10.N = 10 from N_10)
  by_cases h0 : t.val = 0
  · have h1 : ¬t.val = 9 := by omega
    rw [Dat.leavesExact_idle (dat10 V c) 4 t (idleAt10_4 t (fun h => h1 ((hcond10_1 t).mp h))) (noFlush10_4 t (fun h => h1 ((hcond10_1 t).mp h)))]
    rw [Phi10_castSucc V c t, Phi10_zero V c _ _ h0, PhiA10_eq, scr10_first V c t h0]
    dsimp only
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel10_first c Set.univ (grid10.coords t) _ _ _ _ _ _ _ _ _ _ _ _ _ _ ((hcond10_0 t).mpr h0) (fun h => h1 ((hcond10_1 t).mp h))
      (iblk10 V c 0 t) (iblk10 V c 1 t) (iblk10 V c 2 t) (iblk10 V c 3 t) ((dat10 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexists _; iexact H4
  · by_cases h1 : t.val = 9
    · rw [show (dat10 V c).leavesExact 4 t = owns (c : Thread nD τ) (st10_4 t) fullShare ((dat10 V c).after 4 t) from by
        unfold Dat.leavesExact; rw [liveAt10_4 t ((hcond10_1 t).mpr h1)], after10_4]
      rw [Phi10_castSucc V c t, Phi10_pos V c _ _ h0, scr10_pos V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_last c Set.univ (grid10.coords t) _ _ _ _ _ _ _ _ _ _ _ _ _ _ (fun h => h0 ((hcond10_0 t).mp h)) ((hcond10_1 t).mpr h1)
        (iblk10 V c 0 t) (iblk10 V c 1 t) (iblk10 V c 2 t) (iblk10 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat10 V c) 4 t (idleAt10_4 t (fun h => h1 ((hcond10_1 t).mp h))) (noFlush10_4 t (fun h => h1 ((hcond10_1 t).mp h)))]
      rw [Phi10_castSucc V c t, Phi10_pos V c _ _ h0, scr10_pos V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_mid c Set.univ (grid10.coords t) _ _ _ _ _ _ _ _ _ _ _ _ _ _ (fun h => h0 ((hcond10_0 t).mp h)) (fun h => h1 ((hcond10_1 t).mp h))
        (iblk10 V c 0 t) (iblk10 V c 1 t) (iblk10 V c 2 t) (iblk10 V c 3 t) ((dat10 V c).before 4 t d4) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the region is entered with — the generator register, the (empty) prefetched tables, the scoped buffers no
    window stages — is the invariant before the first point. -/
theorem hin10 (c : Dev nD) (T : (pcfgs (F := F) 10).pre.Contents (Elt F)) :
    iprop((∃ r, prngReg c r) ∗ Pipeline.prefHeld (pcfgs (F := F) 10).pre c (fun _ => fullShare) T ∗ Pipeline.scopedRest spec10 c) ⊢ (dat10 V c).Φ 0 := by
  rw [show (dat10 V c).Φ 0 = Pipeline.ΦA spec10 c from rfl]; unfold Pipeline.ΦA
  iintro ⟨Hp, -, Hr⟩
  isplitl [Hr]; · iexact Hr
  iexact Hp

/-- After the last point the invariant gives those back: the accumulators' named contents are forgotten. -/
theorem hout10 (c : Dev nD) :
    (dat10 V c).Φ (Fin.last cfg10.N) ⊢ iprop((∃ r, prngReg c r) ∗ Pipeline.ownSems0 (fun k : PEmpty => k.elim) c ∗ Pipeline.scopedRest spec10 c) := by
  rw [Pipeline.ownSems0_none, show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega), scopedRest10_split]
  simp only [scM10_0, scM10_1, owns_whole]
  iintro ⟨⟨⟨HS0, HS1⟩, HR⟩, Hg⟩
  isplitl [Hg]; · iexact Hg
  isplitr; · iempintro
  isplitl [HS0 HS1]
  · isplitl [HS0]
    · iexists _; iexact HS0
    iexists _; iexact HS1
  iexact HR

end Cert.KernelIdeal.Hand

end
-- ==== Proof.KI.RunA.lean ====
/- The buffer contents at the 23 segment boundaries of the kernel program's @main: a fold from the launch memory,
   a host stretch applying its operations, a region leaving in its windows' arrays what its write-backs fold to and every
   other buffer as entered. Each argument array is written by no host operation and by no region's output window, so it
   reads at the last boundary what the launch memory holds. -/
import proofs.«411025_j54640573939922_1_alg».proof.Proof.Gen.KernelIdeal.Regions
import proofs.«411025_j54640573939922_1_alg».proof.Proof.KI.Reg0
import proofs.«411025_j54640573939922_1_alg».proof.Proof.KI.Reg1
import proofs.«411025_j54640573939922_1_alg».proof.Proof.KI.Reg2
import proofs.«411025_j54640573939922_1_alg».proof.Proof.KI.Reg3
import proofs.«411025_j54640573939922_1_alg».proof.Proof.KI.Reg4
import proofs.«411025_j54640573939922_1_alg».proof.Proof.KI.Reg5
import proofs.«411025_j54640573939922_1_alg».proof.Proof.KI.Reg6
import proofs.«411025_j54640573939922_1_alg».proof.Proof.KI.Reg7
import proofs.«411025_j54640573939922_1_alg».proof.Proof.KI.Reg8
import proofs.«411025_j54640573939922_1_alg».proof.Proof.KI.Reg9
import proofs.«411025_j54640573939922_1_alg».proof.Proof.KI.Reg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer host stretch 0 does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: each of its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer that is no output window's array of region 0 holds at its exit what it held at its entry: an input window's
    array is never written back, a buffer that is no window's array bypasses the region. -/
theorem W2_in (c : Dev nD) (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩

/-- After host stretch 1: region 1's entry. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer host stretch 1 does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: each of its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer that is no output window's array of region 1 holds at its exit what it held at its entry: an input window's
    array is never written back, a buffer that is no window's array bypasses the region. -/
theorem W4_in (c : Dev nD) (b : Ref sig .tc) (h : ∀ w, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b fun w e => hb ⟨w, e⟩

/-- After host stretch 2: region 2's entry. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer host stretch 2 does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: each of its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer that is no output window's array of region 2 holds at its exit what it held at its entry: an input window's
    array is never written back, a buffer that is no window's array bypasses the region. -/
theorem W6_in (c : Dev nD) (b : Ref sig .tc) (h : ∀ w, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b fun w e => hb ⟨w, e⟩

/-- After host stretch 3: region 3's entry. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer host stretch 3 does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: each of its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer that is no output window's array of region 3 holds at its exit what it held at its entry: an input window's
    array is never written back, a buffer that is no window's array bypasses the region. -/
theorem W8_in (c : Dev nD) (b : Ref sig .tc) (h : ∀ w, Pipeline.arrRef spec3 w = b → (cfg3.win w).isOut = false) :
    W8 m ρ c (Proc.devRef .tc b) = W7 m ρ c (Proc.devRef .tc b) := by
  by_cases hb : ∃ w, Pipeline.arrRef spec3 w = b
  · obtain ⟨w, rfl⟩ := hb
    exact (W8_arr m ρ c w).trans (((dat3 (V7 m ρ) c).arrAt_in w (h w rfl) _).trans (A_eq3 (V7 m ρ) c w))
  · exact W8_of_ne m ρ c b fun w e => hb ⟨w, e⟩

/-- After host stretch 4: region 4's entry. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer host stretch 4 does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: each of its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer that is no output window's array of region 4 holds at its exit what it held at its entry: an input window's
    array is never written back, a buffer that is no window's array bypasses the region. -/
theorem W10_in (c : Dev nD) (b : Ref sig .tc) (h : ∀ w, Pipeline.arrRef spec4 w = b → (cfg4.win w).isOut = false) :
    W10 m ρ c (Proc.devRef .tc b) = W9 m ρ c (Proc.devRef .tc b) := by
  by_cases hb : ∃ w, Pipeline.arrRef spec4 w = b
  · obtain ⟨w, rfl⟩ := hb
    exact (W10_arr m ρ c w).trans (((dat4 (V9 m ρ) c).arrAt_in w (h w rfl) _).trans (A_eq4 (V9 m ρ) c w))
  · exact W10_of_ne m ρ c b fun w e => hb ⟨w, e⟩

/-- After host stretch 5: region 5's entry. -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- A buffer host stretch 5 does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: each of its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer that is no output window's array of region 5 holds at its exit what it held at its entry: an input window's
    array is never written back, a buffer that is no window's array bypasses the region. -/
theorem W12_in (c : Dev nD) (b : Ref sig .tc) (h : ∀ w, Pipeline.arrRef spec5 w = b → (cfg5.win w).isOut = false) :
    W12 m ρ c (Proc.devRef .tc b) = W11 m ρ c (Proc.devRef .tc b) := by
  by_cases hb : ∃ w, Pipeline.arrRef spec5 w = b
  · obtain ⟨w, rfl⟩ := hb
    exact (W12_arr m ρ c w).trans (((dat5 (V11 m ρ) c).arrAt_in w (h w rfl) _).trans (A_eq5 (V11 m ρ) c w))
  · exact W12_of_ne m ρ c b fun w e => hb ⟨w, e⟩

/-- After host stretch 6: region 6's entry. -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- A buffer host stretch 6 does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: each of its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same, read at the TensorCore's references. -/
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer that is no output window's array of region 6 holds at its exit what it held at its entry: an input window's
    array is never written back, a buffer that is no window's array bypasses the region. -/
theorem W14_in (c : Dev nD) (b : Ref sig .tc) (h : ∀ w, Pipeline.arrRef spec6 w = b → (cfg6.win w).isOut = false) :
    W14 m ρ c (Proc.devRef .tc b) = W13 m ρ c (Proc.devRef .tc b) := by
  by_cases hb : ∃ w, Pipeline.arrRef spec6 w = b
  · obtain ⟨w, rfl⟩ := hb
    exact (W14_arr m ρ c w).trans (((dat6 (V13 m ρ) c).arrAt_in w (h w rfl) _).trans (A_eq6 (V13 m ρ) c w))
  · exact W14_of_ne m ρ c b fun w e => hb ⟨w, e⟩

/-- After host stretch 7: region 7's entry. -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- A buffer host stretch 7 does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: each of its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same, read at the TensorCore's references. -/
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer that is no output window's array of region 7 holds at its exit what it held at its entry: an input window's
    array is never written back, a buffer that is no window's array bypasses the region. -/
theorem W16_in (c : Dev nD) (b : Ref sig .tc) (h : ∀ w, Pipeline.arrRef spec7 w = b → (cfg7.win w).isOut = false) :
    W16 m ρ c (Proc.devRef .tc b) = W15 m ρ c (Proc.devRef .tc b) := by
  by_cases hb : ∃ w, Pipeline.arrRef spec7 w = b
  · obtain ⟨w, rfl⟩ := hb
    exact (W16_arr m ρ c w).trans (((dat7 (V15 m ρ) c).arrAt_in w (h w rfl) _).trans (A_eq7 (V15 m ρ) c w))
  · exact W16_of_ne m ρ c b fun w e => hb ⟨w, e⟩

/-- After host stretch 8: region 8's entry. -/
abbrev W17 : Dev nD → Valuation τ sig (Elt F) := fun c => StableHlo.after hostOps8 (W16 m ρ c)
/-- The same, read at the TensorCore's references. -/
abbrev V17 : (c : Dev nD) → (b : Ref sig .tc) → Buf (Elt F) ((c : Thread nD τ).loc b) := fun c b => W17 m ρ c b
/-- A buffer host stretch 8 does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: each of its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same, read at the TensorCore's references. -/
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer that is no output window's array of region 8 holds at its exit what it held at its entry: an input window's
    array is never written back, a buffer that is no window's array bypasses the region. -/
theorem W18_in (c : Dev nD) (b : Ref sig .tc) (h : ∀ w, Pipeline.arrRef spec8 w = b → (cfg8.win w).isOut = false) :
    W18 m ρ c (Proc.devRef .tc b) = W17 m ρ c (Proc.devRef .tc b) := by
  by_cases hb : ∃ w, Pipeline.arrRef spec8 w = b
  · obtain ⟨w, rfl⟩ := hb
    exact (W18_arr m ρ c w).trans (((dat8 (V17 m ρ) c).arrAt_in w (h w rfl) _).trans (A_eq8 (V17 m ρ) c w))
  · exact W18_of_ne m ρ c b fun w e => hb ⟨w, e⟩

/-- After host stretch 9: region 9's entry. -/
abbrev W19 : Dev nD → Valuation τ sig (Elt F) := fun c => StableHlo.after hostOps9 (W18 m ρ c)
/-- The same, read at the TensorCore's references. -/
abbrev V19 : (c : Dev nD) → (b : Ref sig .tc) → Buf (Elt F) ((c : Thread nD τ).loc b) := fun c b => W19 m ρ c b
/-- A buffer host stretch 9 does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: each of its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same, read at the TensorCore's references. -/
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A buffer that is no output window's array of region 9 holds at its exit what it held at its entry: an input window's
    array is never written back, a buffer that is no window's array bypasses the region. -/
theorem W20_in (c : Dev nD) (b : Ref sig .tc) (h : ∀ w, Pipeline.arrRef spec9 w = b → (cfg9.win w).isOut = false) :
    W20 m ρ c (Proc.devRef .tc b) = W19 m ρ c (Proc.devRef .tc b) := by
  by_cases hb : ∃ w, Pipeline.arrRef spec9 w = b
  · obtain ⟨w, rfl⟩ := hb
    exact (W20_arr m ρ c w).trans (((dat9 (V19 m ρ) c).arrAt_in w (h w rfl) _).trans (A_eq9 (V19 m ρ) c w))
  · exact W20_of_ne m ρ c b fun w e => hb ⟨w, e⟩

/-- After host stretch 10: region 10's entry. -/
abbrev W21 : Dev nD → Valuation τ sig (Elt F) := fun c => StableHlo.after hostOps10 (W20 m ρ c)
/-- The same, read at the TensorCore's references. -/
abbrev V21 : (c : Dev nD) → (b : Ref sig .tc) → Buf (Elt F) ((c : Thread nD τ).loc b) := fun c b => W21 m ρ c b
/-- A buffer host stretch 10 does not write holds what it held. -/
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h
/-- At region 10's exit: each of its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same, read at the TensorCore's references. -/
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A buffer that is no output window's array of region 10 holds at its exit what it held at its entry: an input window's
    array is never written back, a buffer that is no window's array bypasses the region. -/
theorem W22_in (c : Dev nD) (b : Ref sig .tc) (h : ∀ w, Pipeline.arrRef spec10 w = b → (cfg10.win w).isOut = false) :
    W22 m ρ c (Proc.devRef .tc b) = W21 m ρ c (Proc.devRef .tc b) := by
  by_cases hb : ∃ w, Pipeline.arrRef spec10 w = b
  · obtain ⟨w, rfl⟩ := hb
    exact (W22_arr m ρ c w).trans (((dat10 (V21 m ρ) c).arrAt_in w (h w rfl) _).trans (A_eq10 (V21 m ρ) c w))
  · exact W22_of_ne m ρ c b fun w e => hb ⟨w, e⟩

/-! ## A buffer nothing writes ends as launched -/

/-- A buffer no host stretch writes and no region has as an output window's array holds at the last boundary what the
    launch memory holds: the fold walked back step by step. -/
theorem W22_keep (c : Dev nD) (b : Ref sig .tc)
    (h0 : b ∉ hostOps0_W) (g0 : ∀ w, Pipeline.arrRef spec0 w = b → (cfg0.win w).isOut = false)
    (h1 : b ∉ hostOps1_W) (g1 : ∀ w, Pipeline.arrRef spec1 w = b → (cfg1.win w).isOut = false)
    (h2 : b ∉ hostOps2_W) (g2 : ∀ w, Pipeline.arrRef spec2 w = b → (cfg2.win w).isOut = false)
    (h3 : b ∉ hostOps3_W) (g3 : ∀ w, Pipeline.arrRef spec3 w = b → (cfg3.win w).isOut = false)
    (h4 : b ∉ hostOps4_W) (g4 : ∀ w, Pipeline.arrRef spec4 w = b → (cfg4.win w).isOut = false)
    (h5 : b ∉ hostOps5_W) (g5 : ∀ w, Pipeline.arrRef spec5 w = b → (cfg5.win w).isOut = false)
    (h6 : b ∉ hostOps6_W) (g6 : ∀ w, Pipeline.arrRef spec6 w = b → (cfg6.win w).isOut = false)
    (h7 : b ∉ hostOps7_W) (g7 : ∀ w, Pipeline.arrRef spec7 w = b → (cfg7.win w).isOut = false)
    (h8 : b ∉ hostOps8_W) (g8 : ∀ w, Pipeline.arrRef spec8 w = b → (cfg8.win w).isOut = false)
    (h9 : b ∉ hostOps9_W) (g9 : ∀ w, Pipeline.arrRef spec9 w = b → (cfg9.win w).isOut = false)
    (h10 : b ∉ hostOps10_W) (g10 : ∀ w, Pipeline.arrRef spec10 w = b → (cfg10.win w).isOut = false) :
    W22 m ρ c (Proc.devRef .tc b) = m ((c : Thread nD τ).loc b) :=
  (W22_in m ρ c b g10).trans <| (W21_of m ρ c b h10).trans <|
  (W20_in m ρ c b g9).trans <| (W19_of m ρ c b h9).trans <|
  (W18_in m ρ c b g8).trans <| (W17_of m ρ c b h8).trans <|
  (W16_in m ρ c b g7).trans <| (W15_of m ρ c b h7).trans <|
  (W14_in m ρ c b g6).trans <| (W13_of m ρ c b h6).trans <|
  (W12_in m ρ c b g5).trans <| (W11_of m ρ c b h5).trans <|
  (W10_in m ρ c b g4).trans <| (W9_of m ρ c b h4).trans <|
  (W8_in m ρ c b g3).trans <| (W7_of m ρ c b h3).trans <|
  (W6_in m ρ c b g2).trans <| (W5_of m ρ c b h2).trans <|
  (W4_in m ρ c b g1).trans <| (W3_of m ρ c b h1).trans <|
  (W2_in m ρ c b g0).trans <| (W1_of m ρ c b h0).trans <|
  rfl

theorem W22_main_arg0 (c : Dev nD) : W22 m ρ c (Proc.devRef .tc main_arg0) = m ((c : Thread nD τ).loc main_arg0) :=
  W22_keep m ρ c main_arg0 (by decide) (by decide) (by decide) (by decide) (by decide) (by decide) (by decide) (by decide) (by decide) (by decide) (by decide) (by decide) (by decide) (by decide) (by decide) (by decide) (by decide) (by decide) (by decide) (by decide) (by decide) (by decide)
theorem W22_main_arg1 (c : Dev nD) : W22 m ρ c (Proc.devRef .tc main_arg1) = m ((c : Thread nD τ).loc main_arg1) :=
  W22_keep m ρ c main_arg1 (by decide) (by decide) (by decide) (by decide) (by decide) (by decide) (by decide) (by decide) (by decide) (by decide) (by decide) (by decide) (by decide) (by decide) (by decide) (by decide) (by decide) (by decide) (by decide) (by decide) (by decide) (by decide)
theorem W22_main_arg2 (c : Dev nD) : W22 m ρ c (Proc.devRef .tc main_arg2) = m ((c : Thread nD τ).loc main_arg2) :=
  W22_keep m ρ c main_arg2 (by decide) (by decide) (by decide) (by decide) (by decide) (by decide) (by decide) (by decide) (by decide) (by decide) (by decide) (by decide) (by decide) (by decide) (by decide) (by decide) (by decide) (by decide) (by decide) (by decide) (by decide) (by decide)
theorem W22_main_arg3 (c : Dev nD) : W22 m ρ c (Proc.devRef .tc main_arg3) = m ((c : Thread nD τ).loc main_arg3) :=
  W22_keep m ρ c main_arg3 (by decide) (by decide) (by decide) (by decide) (by decide) (by decide) (by decide) (by decide) (by decide) (by decide) (by decide) (by decide) (by decide) (by decide) (by decide) (by decide) (by decide) (by decide) (by decide) (by decide) (by decide) (by decide)
theorem W22_main_arg4 (c : Dev nD) : W22 m ρ c (Proc.devRef .tc main_arg4) = m ((c : Thread nD τ).loc main_arg4) :=
  W22_keep m ρ c main_arg4 (by decide) (by decide) (by decide) (by decide) (by decide) (by decide) (by decide) (by decide) (by decide) (by decide) (by decide) (by decide) (by decide) (by decide) (by decide) (by decide) (by decide) (by decide) (by decide) (by decide) (by decide) (by decide)
theorem W22_main_arg5 (c : Dev nD) : W22 m ρ c (Proc.devRef .tc main_arg5) = m ((c : Thread nD τ).loc main_arg5) :=
  W22_keep m ρ c main_arg5 (by decide) (by decide) (by decide) (by decide) (by decide) (by decide) (by decide) (by decide) (by decide) (by decide) (by decide) (by decide) (by decide) (by decide) (by decide) (by decide) (by decide) (by decide) (by decide) (by decide) (by decide) (by decide)
theorem W22_main_arg6 (c : Dev nD) : W22 m ρ c (Proc.devRef .tc main_arg6) = m ((c : Thread nD τ).loc main_arg6) :=
  W22_keep m ρ c main_arg6 (by decide) (by decide) (by decide) (by decide) (by decide) (by decide) (by decide) (by decide) (by decide) (by decide) (by decide) (by decide) (by decide) (by decide) (by decide) (by decide) (by decide) (by decide) (by decide) (by decide) (by decide) (by decide)
theorem W22_main_arg7 (c : Dev nD) : W22 m ρ c (Proc.devRef .tc main_arg7) = m ((c : Thread nD τ).loc main_arg7) :=
  W22_keep m ρ c main_arg7 (by decide) (by decide) (by decide) (by decide) (by decide) (by decide) (by decide) (by decide) (by decide) (by decide) (by decide) (by decide) (by decide) (by decide) (by decide) (by decide) (by decide) (by decide) (by decide) (by decide) (by decide) (by decide)
theorem W22_main_arg8 (c : Dev nD) : W22 m ρ c (Proc.devRef .tc main_arg8) = m ((c : Thread nD τ).loc main_arg8) :=
  W22_keep m ρ c main_arg8 (by decide) (by decide) (by decide) (by decide) (by decide) (by decide) (by decide) (by decide) (by decide) (by decide) (by decide) (by decide) (by decide) (by decide) (by decide) (by decide) (by decide) (by decide) (by decide) (by decide) (by decide) (by decide)
theorem W22_main_arg9 (c : Dev nD) : W22 m ρ c (Proc.devRef .tc main_arg9) = m ((c : Thread nD τ).loc main_arg9) :=
  W22_keep m ρ c main_arg9 (by decide) (by decide) (by decide) (by decide) (by decide) (by decide) (by decide) (by decide) (by decide) (by decide) (by decide) (by decide) (by decide) (by decide) (by decide) (by decide) (by decide) (by decide) (by decide) (by decide) (by decide) (by decide)
theorem W22_main_arg10 (c : Dev nD) : W22 m ρ c (Proc.devRef .tc main_arg10) = m ((c : Thread nD τ).loc main_arg10) :=
  W22_keep m ρ c main_arg10 (by decide) (by decide) (by decide) (by decide) (by decide) (by decide) (by decide) (by decide) (by decide) (by decide) (by decide) (by decide) (by decide) (by decide) (by decide) (by decide) (by decide) (by decide) (by decide) (by decide) (by decide) (by decide)
theorem W22_main_arg11 (c : Dev nD) : W22 m ρ c (Proc.devRef .tc main_arg11) = m ((c : Thread nD τ).loc main_arg11) :=
  W22_keep m ρ c main_arg11 (by decide) (by decide) (by decide) (by decide) (by decide) (by decide) (by decide) (by decide) (by decide) (by decide) (by decide) (by decide) (by decide) (by decide) (by decide) (by decide) (by decide) (by decide) (by decide) (by decide) (by decide) (by decide)
theorem W22_main_arg12 (c : Dev nD) : W22 m ρ c (Proc.devRef .tc main_arg12) = m ((c : Thread nD τ).loc main_arg12) :=
  W22_keep m ρ c main_arg12 (by decide) (by decide) (by decide) (by decide) (by decide) (by decide) (by decide) (by decide) (by decide) (by decide) (by decide) (by decide) (by decide) (by decide) (by decide) (by decide) (by decide) (by decide) (by decide) (by decide) (by decide) (by decide)
theorem W22_main_arg13 (c : Dev nD) : W22 m ρ c (Proc.devRef .tc main_arg13) = m ((c : Thread nD τ).loc main_arg13) :=
  W22_keep m ρ c main_arg13 (by decide) (by decide) (by decide) (by decide) (by decide) (by decide) (by decide) (by decide) (by decide) (by decide) (by decide) (by decide) (by decide) (by decide) (by decide) (by decide) (by decide) (by decide) (by decide) (by decide) (by decide) (by decide)
theorem W22_main_arg14 (c : Dev nD) : W22 m ρ c (Proc.devRef .tc main_arg14) = m ((c : Thread nD τ).loc main_arg14) :=
  W22_keep m ρ c main_arg14 (by decide) (by decide) (by decide) (by decide) (by decide) (by decide) (by decide) (by decide) (by decide) (by decide) (by decide) (by decide) (by decide) (by decide) (by decide) (by decide) (by decide) (by decide) (by decide) (by decide) (by decide) (by decide)
theorem W22_main_arg15 (c : Dev nD) : W22 m ρ c (Proc.devRef .tc main_arg15) = m ((c : Thread nD τ).loc main_arg15) :=
  W22_keep m ρ c main_arg15 (by decide) (by decide) (by decide) (by decide) (by decide) (by decide) (by decide) (by decide) (by decide) (by decide) (by decide) (by decide) (by decide) (by decide) (by decide) (by decide) (by decide) (by decide) (by decide) (by decide) (by decide) (by decide)

end Cert.KernelIdeal.Hand

end
-- ==== Proof.KI.RunB0.lean ====
/- The proof data of the kernel program's 11 pipelines, each at its region's entry contents, and the thread state that rides
   beside the buffers through every segment. -/
import proofs.«411025_j54640573939922_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W22 m ρ c) ∗ ∃ r, prngReg c r)

end Cert.KernelIdeal.Hand

end
-- ==== Proof.KI.RunB1.lean ====
/- The kernel program's regions 0..3 as segments over the thread state "every unscoped buffer at the boundary's contents, the
   generator register at some state, nothing owed". -/
import proofs.«411025_j54640573939922_1_alg».proof.Proof.KI.RunB0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunB2.lean ====
/- The kernel program's regions 4..7 as segments over the thread state "every unscoped buffer at the boundary's contents, the
   generator register at some state, nothing owed". -/
import proofs.«411025_j54640573939922_1_alg».proof.Proof.KI.RunB0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: entered from every unscoped buffer at `W9`, left at `W10`. Its arrays are split out
    of the unscoped buffers and put back at the exit contents; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunB3.lean ====
/- The kernel program's regions 8..10 as segments over the thread state "every unscoped buffer at the boundary's contents, the
   generator register at some state, nothing owed". -/
import proofs.«411025_j54640573939922_1_alg».proof.Proof.KI.RunB0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: entered from every unscoped buffer at `W17`, left at `W18`. Its arrays are split out
    of the unscoped buffers and put back at the exit contents; the generator register goes into the invariant and comes
    back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its arrays are split out
    of the unscoped buffers and put back at the exit contents; the generator register goes into the invariant and comes
    back; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its arrays are split out
    of the unscoped buffers and put back at the exit contents; the generator register goes into the invariant and comes
    back; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (V21 m ρ) c _
  hout c := hout10 (V21 m ρ) c
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/- The run of the kernel program: @main as its 22 segments, a host segment per stretch and a region per kernel call, launched
   from any memory with zero counters; every weakly fair execution terminates and every final memory holds in every unscoped
   buffer the last boundary's contents. -/
import proofs.«411025_j54640573939922_1_alg».proof.Proof.KI.RunB1
import proofs.«411025_j54640573939922_1_alg».proof.Proof.KI.RunB2
import proofs.«411025_j54640573939922_1_alg».proof.Proof.KI.RunB3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 22 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ) ]

/-- @main is the run of the segments. -/
theorem main_run (c : Dev nD) : main (F := F) c = Pipeline.Seg.run (segs m ρ) := (main_chain c).trans (by chain_rfl)

set_option backward.isDefEq.respectTransparency.types false in
/-- From any memory `m` with zero counters, every weakly fair execution of @main on the TensorCores terminates, nothing
    faulting, and every final memory holds in every unscoped buffer `b` of core `c` the contents `W22 m ρ c b`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

/-- Every weakly fair execution of @main terminates and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun _ h c => ⟨(h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c),
      (h c _ (mem_uc main_arg4 (by decide))).trans (W22_main_arg4 m ρ c),
      (h c _ (mem_uc main_arg5 (by decide))).trans (W22_main_arg5 m ρ c),
      (h c _ (mem_uc main_arg6 (by decide))).trans (W22_main_arg6 m ρ c),
      (h c _ (mem_uc main_arg7 (by decide))).trans (W22_main_arg7 m ρ c),
      (h c _ (mem_uc main_arg8 (by decide))).trans (W22_main_arg8 m ρ c),
      (h c _ (mem_uc main_arg9 (by decide))).trans (W22_main_arg9 m ρ c),
      (h c _ (mem_uc main_arg10 (by decide))).trans (W22_main_arg10 m ρ c),
      (h c _ (mem_uc main_arg11 (by decide))).trans (W22_main_arg11 m ρ c),
      (h c _ (mem_uc main_arg12 (by decide))).trans (W22_main_arg12 m ρ c),
      (h c _ (mem_uc main_arg13 (by decide))).trans (W22_main_arg13 m ρ c),
      (h c _ (mem_uc main_arg14 (by decide))).trans (W22_main_arg14 m ρ c),
      (h c _ (mem_uc main_arg15 (by decide))).trans (W22_main_arg15 m ρ c)⟩)
    (run_main m ρ)

/-- The same with the result: every final memory holds in the result buffer the last boundary's contents of it. -/
theorem run_value : θ_run defs (onTc (τ := τ) (main (F := F))) ⟨m, fun _ => 0, ρ⟩ (fun r => ∀ c : Dev nD,
      r.2.mem ((c.tc : Thread nD τ).loc main_v167) = W22 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun _ h c => ⟨h c _ (mem_uc main_v167 (by decide)),
      (h c _ (mem_uc main_arg0 (by decide))).trans (W22_main_arg0 m ρ c),
      (h c _ (mem_uc main_arg1 (by decide))).trans (W22_main_arg1 m ρ c),
      (h c _ (mem_uc main_arg2 (by decide))).trans (W22_main_arg2 m ρ c),
      (h c _ (mem_uc main_arg3 (by decide))).trans (W22_main_arg3 m ρ c),
      (h c _ (mem_uc main_arg4 (by decide))).trans (W22_main_arg4 m ρ c),
      (h c _ (mem_uc main_arg5 (by decide))).trans (W22_main_arg5 m ρ c),
      (h c _ (mem_uc main_arg6 (by decide))).trans (W22_main_arg6 m ρ c),
      (h c _ (mem_uc main_arg7 (by decide))).trans (W22_main_arg7 m ρ c),
      (h c _ (mem_uc main_arg8 (by decide))).trans (W22_main_arg8 m ρ c),
      (h c _ (mem_uc main_arg9 (by decide))).trans (W22_main_arg9 m ρ c),
      (h c _ (mem_uc main_arg10 (by decide))).trans (W22_main_arg10 m ρ c),
      (h c _ (mem_uc main_arg11 (by decide))).trans (W22_main_arg11 m ρ c),
      (h c _ (mem_uc main_arg12 (by decide))).trans (W22_main_arg12 m ρ c),
      (h c _ (mem_uc main_arg13 (by decide))).trans (W22_main_arg13 m ρ c),
      (h c _ (mem_uc main_arg14 (by decide))).trans (W22_main_arg14 m ρ c),
      (h c _ (mem_uc main_arg15 (by decide))).trans (W22_main_arg15 m ρ c)⟩)
    (run_main m ρ)

/-- info: 'Cert.KernelIdeal.Hand.run_main' depends on axioms: [propext, Classical.choice, Quot.sound] -/
#guard_msgs in #print axioms run_main

end Cert.KernelIdeal.Hand

end
-- ==== Proof.KV.ChainKeep.lean ====
/-
  Buffers carried along the run. A buffer that no host stretch after the first writes and that is no region's output
  array holds at every later boundary what it held after the first stretch; if the first stretch does not write it
  either (an argument), it holds the launch memory's array at every boundary.
-/
import proofs.«411025_j54640573939922_1_alg».proof.Proof.KI.RunA

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem

variable {F : FTy → Type} [FloatOps F]

/-- Nothing after host stretch 0 writes `b`: no later stretch, and no region as an output array. -/
structure Un1 (b : Ref sig .tc) : Prop where
  g0 : ∀ w, Pipeline.arrRef spec0 w = b → (cfg0.win w).isOut = false
  h1 : b ∉ hostOps1_W
  g1 : ∀ w, Pipeline.arrRef spec1 w = b → (cfg1.win w).isOut = false
  h2 : b ∉ hostOps2_W
  g2 : ∀ w, Pipeline.arrRef spec2 w = b → (cfg2.win w).isOut = false
  h3 : b ∉ hostOps3_W
  g3 : ∀ w, Pipeline.arrRef spec3 w = b → (cfg3.win w).isOut = false
  h4 : b ∉ hostOps4_W
  g4 : ∀ w, Pipeline.arrRef spec4 w = b → (cfg4.win w).isOut = false
  h5 : b ∉ hostOps5_W
  g5 : ∀ w, Pipeline.arrRef spec5 w = b → (cfg5.win w).isOut = false
  h6 : b ∉ hostOps6_W
  g6 : ∀ w, Pipeline.arrRef spec6 w = b → (cfg6.win w).isOut = false
  h7 : b ∉ hostOps7_W
  g7 : ∀ w, Pipeline.arrRef spec7 w = b → (cfg7.win w).isOut = false
  h8 : b ∉ hostOps8_W
  g8 : ∀ w, Pipeline.arrRef spec8 w = b → (cfg8.win w).isOut = false
  h9 : b ∉ hostOps9_W
  g9 : ∀ w, Pipeline.arrRef spec9 w = b → (cfg9.win w).isOut = false
  h10 : b ∉ hostOps10_W

variable (m : (ℓ : Loc nD τ sig) → Buf (Elt F) ℓ) (ρ : Dev nD → PrngReg) {b : Ref sig .tc}

/-! ## From the first boundary on -/

theorem W2_un1 (h : Un1 b) (c : Dev nD) : W2 m ρ c (Proc.devRef .tc b) = W1 m ρ c (Proc.devRef .tc b) :=
  (W2_in m ρ c b h.g0)
theorem W3_un1 (h : Un1 b) (c : Dev nD) : W3 m ρ c (Proc.devRef .tc b) = W1 m ρ c (Proc.devRef .tc b) :=
  (W3_of m ρ c b h.h1).trans (W2_un1 m ρ h c)
theorem W4_un1 (h : Un1 b) (c : Dev nD) : W4 m ρ c (Proc.devRef .tc b) = W1 m ρ c (Proc.devRef .tc b) :=
  (W4_in m ρ c b h.g1).trans (W3_un1 m ρ h c)
theorem W5_un1 (h : Un1 b) (c : Dev nD) : W5 m ρ c (Proc.devRef .tc b) = W1 m ρ c (Proc.devRef .tc b) :=
  (W5_of m ρ c b h.h2).trans (W4_un1 m ρ h c)
theorem W6_un1 (h : Un1 b) (c : Dev nD) : W6 m ρ c (Proc.devRef .tc b) = W1 m ρ c (Proc.devRef .tc b) :=
  (W6_in m ρ c b h.g2).trans (W5_un1 m ρ h c)
theorem W7_un1 (h : Un1 b) (c : Dev nD) : W7 m ρ c (Proc.devRef .tc b) = W1 m ρ c (Proc.devRef .tc b) :=
  (W7_of m ρ c b h.h3).trans (W6_un1 m ρ h c)
theorem W8_un1 (h : Un1 b) (c : Dev nD) : W8 m ρ c (Proc.devRef .tc b) = W1 m ρ c (Proc.devRef .tc b) :=
  (W8_in m ρ c b h.g3).trans (W7_un1 m ρ h c)
theorem W9_un1 (h : Un1 b) (c : Dev nD) : W9 m ρ c (Proc.devRef .tc b) = W1 m ρ c (Proc.devRef .tc b) :=
  (W9_of m ρ c b h.h4).trans (W8_un1 m ρ h c)
theorem W10_un1 (h : Un1 b) (c : Dev nD) : W10 m ρ c (Proc.devRef .tc b) = W1 m ρ c (Proc.devRef .tc b) :=
  (W10_in m ρ c b h.g4).trans (W9_un1 m ρ h c)
theorem W11_un1 (h : Un1 b) (c : Dev nD) : W11 m ρ c (Proc.devRef .tc b) = W1 m ρ c (Proc.devRef .tc b) :=
  (W11_of m ρ c b h.h5).trans (W10_un1 m ρ h c)
theorem W12_un1 (h : Un1 b) (c : Dev nD) : W12 m ρ c (Proc.devRef .tc b) = W1 m ρ c (Proc.devRef .tc b) :=
  (W12_in m ρ c b h.g5).trans (W11_un1 m ρ h c)
theorem W13_un1 (h : Un1 b) (c : Dev nD) : W13 m ρ c (Proc.devRef .tc b) = W1 m ρ c (Proc.devRef .tc b) :=
  (W13_of m ρ c b h.h6).trans (W12_un1 m ρ h c)
theorem W14_un1 (h : Un1 b) (c : Dev nD) : W14 m ρ c (Proc.devRef .tc b) = W1 m ρ c (Proc.devRef .tc b) :=
  (W14_in m ρ c b h.g6).trans (W13_un1 m ρ h c)
theorem W15_un1 (h : Un1 b) (c : Dev nD) : W15 m ρ c (Proc.devRef .tc b) = W1 m ρ c (Proc.devRef .tc b) :=
  (W15_of m ρ c b h.h7).trans (W14_un1 m ρ h c)
theorem W16_un1 (h : Un1 b) (c : Dev nD) : W16 m ρ c (Proc.devRef .tc b) = W1 m ρ c (Proc.devRef .tc b) :=
  (W16_in m ρ c b h.g7).trans (W15_un1 m ρ h c)
theorem W17_un1 (h : Un1 b) (c : Dev nD) : W17 m ρ c (Proc.devRef .tc b) = W1 m ρ c (Proc.devRef .tc b) :=
  (W17_of m ρ c b h.h8).trans (W16_un1 m ρ h c)
theorem W18_un1 (h : Un1 b) (c : Dev nD) : W18 m ρ c (Proc.devRef .tc b) = W1 m ρ c (Proc.devRef .tc b) :=
  (W18_in m ρ c b h.g8).trans (W17_un1 m ρ h c)
theorem W19_un1 (h : Un1 b) (c : Dev nD) : W19 m ρ c (Proc.devRef .tc b) = W1 m ρ c (Proc.devRef .tc b) :=
  (W19_of m ρ c b h.h9).trans (W18_un1 m ρ h c)
theorem W20_un1 (h : Un1 b) (c : Dev nD) : W20 m ρ c (Proc.devRef .tc b) = W1 m ρ c (Proc.devRef .tc b) :=
  (W20_in m ρ c b h.g9).trans (W19_un1 m ρ h c)
theorem W21_un1 (h : Un1 b) (c : Dev nD) : W21 m ρ c (Proc.devRef .tc b) = W1 m ρ c (Proc.devRef .tc b) :=
  (W21_of m ρ c b h.h10).trans (W20_un1 m ρ h c)

/-! ## An argument, at every boundary -/

theorem W0_arg (c : Dev nD) : W0 m ρ c (Proc.devRef .tc b) = m ((c : Thread nD τ).loc b) := rfl
theorem W1_arg (h0 : b ∉ hostOps0_W) (c : Dev nD) : W1 m ρ c (Proc.devRef .tc b) = m ((c : Thread nD τ).loc b) :=
  (W1_of m ρ c b h0).trans rfl
theorem W2_arg (h0 : b ∉ hostOps0_W) (h : Un1 b) (c : Dev nD) : W2 m ρ c (Proc.devRef .tc b) = m ((c : Thread nD τ).loc b) :=
  (W2_un1 m ρ h c).trans (W1_arg m ρ h0 c)
theorem W3_arg (h0 : b ∉ hostOps0_W) (h : Un1 b) (c : Dev nD) : W3 m ρ c (Proc.devRef .tc b) = m ((c : Thread nD τ).loc b) :=
  (W3_un1 m ρ h c).trans (W1_arg m ρ h0 c)
theorem W4_arg (h0 : b ∉ hostOps0_W) (h : Un1 b) (c : Dev nD) : W4 m ρ c (Proc.devRef .tc b) = m ((c : Thread nD τ).loc b) :=
  (W4_un1 m ρ h c).trans (W1_arg m ρ h0 c)
theorem W5_arg (h0 : b ∉ hostOps0_W) (h : Un1 b) (c : Dev nD) : W5 m ρ c (Proc.devRef .tc b) = m ((c : Thread nD τ).loc b) :=
  (W5_un1 m ρ h c).trans (W1_arg m ρ h0 c)
theorem W6_arg (h0 : b ∉ hostOps0_W) (h : Un1 b) (c : Dev nD) : W6 m ρ c (Proc.devRef .tc b) = m ((c : Thread nD τ).loc b) :=
  (W6_un1 m ρ h c).trans (W1_arg m ρ h0 c)
theorem W7_arg (h0 : b ∉ hostOps0_W) (h : Un1 b) (c : Dev nD) : W7 m ρ c (Proc.devRef .tc b) = m ((c : Thread nD τ).loc b) :=
  (W7_un1 m ρ h c).trans (W1_arg m ρ h0 c)
theorem W8_arg (h0 : b ∉ hostOps0_W) (h : Un1 b) (c : Dev nD) : W8 m ρ c (Proc.devRef .tc b) = m ((c : Thread nD τ).loc b) :=
  (W8_un1 m ρ h c).trans (W1_arg m ρ h0 c)
theorem W9_arg (h0 : b ∉ hostOps0_W) (h : Un1 b) (c : Dev nD) : W9 m ρ c (Proc.devRef .tc b) = m ((c : Thread nD τ).loc b) :=
  (W9_un1 m ρ h c).trans (W1_arg m ρ h0 c)
theorem W10_arg (h0 : b ∉ hostOps0_W) (h : Un1 b) (c : Dev nD) : W10 m ρ c (Proc.devRef .tc b) = m ((c : Thread nD τ).loc b) :=
  (W10_un1 m ρ h c).trans (W1_arg m ρ h0 c)
theorem W11_arg (h0 : b ∉ hostOps0_W) (h : Un1 b) (c : Dev nD) : W11 m ρ c (Proc.devRef .tc b) = m ((c : Thread nD τ).loc b) :=
  (W11_un1 m ρ h c).trans (W1_arg m ρ h0 c)
theorem W12_arg (h0 : b ∉ hostOps0_W) (h : Un1 b) (c : Dev nD) : W12 m ρ c (Proc.devRef .tc b) = m ((c : Thread nD τ).loc b) :=
  (W12_un1 m ρ h c).trans (W1_arg m ρ h0 c)
theorem W13_arg (h0 : b ∉ hostOps0_W) (h : Un1 b) (c : Dev nD) : W13 m ρ c (Proc.devRef .tc b) = m ((c : Thread nD τ).loc b) :=
  (W13_un1 m ρ h c).trans (W1_arg m ρ h0 c)
theorem W14_arg (h0 : b ∉ hostOps0_W) (h : Un1 b) (c : Dev nD) : W14 m ρ c (Proc.devRef .tc b) = m ((c : Thread nD τ).loc b) :=
  (W14_un1 m ρ h c).trans (W1_arg m ρ h0 c)
theorem W15_arg (h0 : b ∉ hostOps0_W) (h : Un1 b) (c : Dev nD) : W15 m ρ c (Proc.devRef .tc b) = m ((c : Thread nD τ).loc b) :=
  (W15_un1 m ρ h c).trans (W1_arg m ρ h0 c)
theorem W16_arg (h0 : b ∉ hostOps0_W) (h : Un1 b) (c : Dev nD) : W16 m ρ c (Proc.devRef .tc b) = m ((c : Thread nD τ).loc b) :=
  (W16_un1 m ρ h c).trans (W1_arg m ρ h0 c)
theorem W17_arg (h0 : b ∉ hostOps0_W) (h : Un1 b) (c : Dev nD) : W17 m ρ c (Proc.devRef .tc b) = m ((c : Thread nD τ).loc b) :=
  (W17_un1 m ρ h c).trans (W1_arg m ρ h0 c)
theorem W18_arg (h0 : b ∉ hostOps0_W) (h : Un1 b) (c : Dev nD) : W18 m ρ c (Proc.devRef .tc b) = m ((c : Thread nD τ).loc b) :=
  (W18_un1 m ρ h c).trans (W1_arg m ρ h0 c)
theorem W19_arg (h0 : b ∉ hostOps0_W) (h : Un1 b) (c : Dev nD) : W19 m ρ c (Proc.devRef .tc b) = m ((c : Thread nD τ).loc b) :=
  (W19_un1 m ρ h c).trans (W1_arg m ρ h0 c)
theorem W20_arg (h0 : b ∉ hostOps0_W) (h : Un1 b) (c : Dev nD) : W20 m ρ c (Proc.devRef .tc b) = m ((c : Thread nD τ).loc b) :=
  (W20_un1 m ρ h c).trans (W1_arg m ρ h0 c)
theorem W21_arg (h0 : b ∉ hostOps0_W) (h : Un1 b) (c : Dev nD) : W21 m ρ c (Proc.devRef .tc b) = m ((c : Thread nD τ).loc b) :=
  (W21_un1 m ρ h c).trans (W1_arg m ρ h0 c)

/-! ## The buffers carried: the sixteen arguments; the edge list's rows and the graph index, written by the first stretch -/

theorem un1_main_arg0 : Un1 main_arg0 := by constructor <;> decide
theorem un1_main_arg1 : Un1 main_arg1 := by constructor <;> decide
theorem un1_main_arg2 : Un1 main_arg2 := by constructor <;> decide
theorem un1_main_arg3 : Un1 main_arg3 := by constructor <;> decide
theorem un1_main_arg4 : Un1 main_arg4 := by constructor <;> decide
theorem un1_main_arg5 : Un1 main_arg5 := by constructor <;> decide
theorem un1_main_arg6 : Un1 main_arg6 := by constructor <;> decide
theorem un1_main_arg7 : Un1 main_arg7 := by constructor <;> decide
theorem un1_main_arg8 : Un1 main_arg8 := by constructor <;> decide
theorem un1_main_arg9 : Un1 main_arg9 := by constructor <;> decide
theorem un1_main_arg10 : Un1 main_arg10 := by constructor <;> decide
theorem un1_main_arg11 : Un1 main_arg11 := by constructor <;> decide
theorem un1_main_arg12 : Un1 main_arg12 := by constructor <;> decide
theorem un1_main_arg13 : Un1 main_arg13 := by constructor <;> decide
theorem un1_main_arg14 : Un1 main_arg14 := by constructor <;> decide
theorem un1_main_arg15 : Un1 main_arg15 := by constructor <;> decide
theorem un1_main_v1 : Un1 main_v1 := by constructor <;> decide
theorem un1_main_v3 : Un1 main_v3 := by constructor <;> decide
theorem un1_main_v4 : Un1 main_v4 := by constructor <;> decide

end Cert.KernelIdeal.HandV

end
-- ==== Proof.Math.Spec.lean ====
/-
  The mathematics both programs compute, stated once over the extended reals and over literal shapes: a
  three-layer graph network (neighbour sums, two dense layers per layer, each followed by a batch normalisation
  over the 20000 nodes and a rectifier), a mean pooling of the nodes by graph, and a two-class linear read-out.
  Two spellings of the batch statistics are given: the one a node-tiled accumulation produces (column sums taken
  tile by tile, the variance as the mean of squares minus the squared mean) and the textbook one (column sums over
  all nodes, the variance as the mean of the squared deviations). No program is imported here.
-/
import Idealize.ShloMosaic.PureOps.Ideal
import Idealize.ShloMosaic.Lib.ValueIdx

noncomputable section

namespace Cert.Spec

open Idealize.ShloMosaic Idealize.ShloMosaic.ValueIdx

/-- nodes × 1, nodes × hidden, 1 × hidden, hidden × hidden, graphs × hidden, graphs × 1, hidden × classes, 1 × classes,
    graphs × classes. -/
abbrev SN1 : Shape := ⟨2, ![20000, 1]⟩
abbrev SNH : Shape := ⟨2, ![20000, 128]⟩
abbrev S1H : Shape := ⟨2, ![1, 128]⟩
abbrev SHH : Shape := ⟨2, ![128, 128]⟩
abbrev SG1 : Shape := ⟨2, ![128, 1]⟩
abbrev SH2 : Shape := ⟨2, ![128, 2]⟩
abbrev S12 : Shape := ⟨2, ![1, 2]⟩

/-- The number of nodes, the variance's guard term and the count's floor, as the float words both programs carry. -/
def cN : EReal := Ideal.ofBits .f32 0x469C4000#32
def cEps : EReal := Ideal.ofBits .f32 0x3727C5AC#32
def cOne : EReal := Ideal.ofBits .f32 0x3F800000#32
def cZero : EReal := Ideal.ofBits .f32 0x00000000#32

/-- Row `r` of node tile `t` (ten tiles of two thousand rows). -/
def row (t : Fin 10) (r : Fin 2000) : Fin 20000 := ⟨2000 * t.val + r.val, by omega⟩

/-- The node encoder: one input feature times a weight row, plus a bias row. -/
def enc (x : SN1.Idx → EReal) (w b : S1H.Idx → EReal) : SNH.Idx → EReal :=
  fun i => x (ix2 (i 0) 0) * w (ix2 0 (i 1)) + b (ix2 0 (i 1))

/-- A dense layer: `z · W` plus a bias row. -/
def lin (z : SNH.Idx → EReal) (w : SHH.Idx → EReal) (b : S1H.Idx → EReal) : SNH.Idx → EReal :=
  fun i => (∑ k : Fin 128, z (ix2 (i 0) k) * w (ix2 k (i 1))) + b (ix2 0 (i 1))

/-- Column sums over the nodes, tile by tile. -/
def colsumT (y : SNH.Idx → EReal) : S1H.Idx → EReal :=
  fun i => ∑ t : Fin 10, ∑ r : Fin 2000, y (ix2 (row t r) (i 1))

/-- Column sums over the nodes. -/
def colsum (y : SNH.Idx → EReal) : S1H.Idx → EReal :=
  fun i => ∑ n : Fin 20000, y (ix2 n (i 1))

/-- The tiled statistics: the mean, and the mean of squares minus the squared mean. -/
def meanT (y : SNH.Idx → EReal) : S1H.Idx → EReal := fun i => Ideal.div (colsumT y i) cN
def varT (y : SNH.Idx → EReal) : S1H.Idx → EReal :=
  fun i => Ideal.div (colsumT (fun a => y a * y a) i) cN - meanT y i * meanT y i

/-- The textbook statistics: the mean, and the mean of the squared deviations from it. -/
def meanU (y : SNH.Idx → EReal) : S1H.Idx → EReal := fun i => Ideal.div (colsum y i) cN
def varU (y : SNH.Idx → EReal) : S1H.Idx → EReal :=
  fun i => Ideal.div (colsum (fun a => (y a - meanU y (ix2 0 (a 1))) * (y a - meanU y (ix2 0 (a 1)))) i) cN

/-- Normalise, scale, shift, rectify: `max ((g · (y − mean)) · rsqrt (var + ε) + β) 0`. -/
def bnrelu (y : SNH.Idx → EReal) (mean var g be : S1H.Idx → EReal) : SNH.Idx → EReal :=
  fun i => max ((g (ix2 0 (i 1)) * (y i - mean (ix2 0 (i 1)))) * Ideal.rsqrt (var (ix2 0 (i 1)) + cEps) + be (ix2 0 (i 1))) cZero

/-- The input of a layer's first dense map: `(1 + ε_l) · h` plus the neighbour sums `agg h`. -/
def mix (s : EReal) (agg : (SNH.Idx → EReal) → SNH.Idx → EReal) (h : SNH.Idx → EReal) : SNH.Idx → EReal :=
  fun i => s * h i + agg h i

/-- One layer with the tiled statistics. -/
def layerT (s : EReal) (agg : (SNH.Idx → EReal) → SNH.Idx → EReal) (w1 : SHH.Idx → EReal) (b1 g1 be1 : S1H.Idx → EReal)
    (w2 : SHH.Idx → EReal) (b2 g2 be2 : S1H.Idx → EReal) (h : SNH.Idx → EReal) : SNH.Idx → EReal :=
  let y1 := lin (mix s agg h) w1 b1
  let y2 := lin (bnrelu y1 (meanT y1) (varT y1) g1 be1) w2 b2
  bnrelu y2 (meanT y2) (varT y2) g2 be2

/-- One layer with the textbook statistics. -/
def layerU (s : EReal) (agg : (SNH.Idx → EReal) → SNH.Idx → EReal) (w1 : SHH.Idx → EReal) (b1 g1 be1 : S1H.Idx → EReal)
    (w2 : SHH.Idx → EReal) (b2 g2 be2 : S1H.Idx → EReal) (h : SNH.Idx → EReal) : SNH.Idx → EReal :=
  let y1 := lin (mix s agg h) w1 b1
  let y2 := lin (bnrelu y1 (meanU y1) (varU y1) g1 be1) w2 b2
  bnrelu y2 (meanU y2) (varU y2) g2 be2

/-- Pooling, tiled: per graph `g` the sum over the nodes of `[batch n = g] · h n`, and the count of such nodes. -/
def poolSumT (h : SNH.Idx → EReal) (batch : SN1.Idx → BitVec 32) : SHH.Idx → EReal :=
  fun i => ∑ t : Fin 10, ∑ r : Fin 2000,
    (if batch (ix2 (row t r) 0) = BitVec.ofNat 32 (i 0).val then (1 : EReal) else 0) * h (ix2 (row t r) (i 1))
def poolCntT (batch : SN1.Idx → BitVec 32) : SG1.Idx → EReal :=
  fun i => ∑ t : Fin 10, ∑ r : Fin 2000, (if batch (ix2 (row t r) 0) = BitVec.ofNat 32 (i 0).val then (1 : EReal) else 0)

/-- Pooling, untiled: the same sums and counts over all nodes at once. -/
def poolSumU (h : SNH.Idx → EReal) (batch : SN1.Idx → BitVec 32) : SHH.Idx → EReal :=
  fun i => ∑ n : Fin 20000, (if batch (ix2 n 0) = BitVec.ofNat 32 (i 0).val then (1 : EReal) else 0) * h (ix2 n (i 1))
def poolCntU (batch : SN1.Idx → BitVec 32) : SG1.Idx → EReal :=
  fun i => ∑ n : Fin 20000, (if batch (ix2 n 0) = BitVec.ofNat 32 (i 0).val then (1 : EReal) else 0)

/-- The read-out: the pooled sums over `max count 1`, times the class weights, plus the class bias. -/
def readout (sums : SHH.Idx → EReal) (cnt : SG1.Idx → EReal) (w : SH2.Idx → EReal) (b : S12.Idx → EReal) : SH2.Idx → EReal :=
  fun i => (∑ k : Fin 128, Ideal.div (sums (ix2 (i 0) k)) (max (cnt (ix2 (i 0) 0)) cOne) * w (ix2 k (i 1))) + b (ix2 0 (i 1))

/-- The parameters as the layers read them: row `l` of a stacked 3×128 array as a 1×128 row, slab `l` of a stacked
    3×128×128 array as a matrix, entry `l` of a length-3 vector; a length-128 (length-2) vector as a 1×128 (1×2) row; a
    length-20000 integer vector as a 20000×1 column. -/
abbrev S3H : Shape := ⟨2, ![3, 128]⟩
abbrev S3HH : Shape := ⟨3, ![3, 128, 128]⟩
abbrev S3 : Shape := ⟨1, ![3]⟩
abbrev SH : Shape := ⟨1, ![128]⟩
abbrev S2 : Shape := ⟨1, ![2]⟩
abbrev SN : Shape := ⟨1, ![20000]⟩
def rowOf (p : S3H.Idx → EReal) (l : Fin 3) : S1H.Idx → EReal := fun i => p (ix2 l (i 1))
def matOf (p : S3HH.Idx → EReal) (l : Fin 3) : SHH.Idx → EReal := fun i => p (ix3 l (i 0) (i 1))
def atOf (p : S3.Idx → EReal) (l : Fin 3) : EReal := p (ix1 l)
def rowH (b : SH.Idx → EReal) : S1H.Idx → EReal := fun i => b (ix1 (i 1))
def row2 (b : S2.Idx → EReal) : S12.Idx → EReal := fun i => b (ix1 (i 1))
def colN (b : SN.Idx → BitVec 32) : SN1.Idx → BitVec 32 := fun i => b (ix1 (i 0))

/-- Every entry a real number. -/
def Fin' {s : Shape} (f : s.Idx → EReal) : Prop := ∀ i, ∃ r : ℝ, f i = (r : EReal)

end Cert.Spec
-- ==== Proof.Math.Bridge1.lean ====
/-
  The float words the specification carries denote the reals 20000, 10995116 / 2^40, 1 and 0; the guard term is positive.
-/
import Idealize.ShloMosaic.PureOps.Ideal
import Idealize.ShloMosaic.Lib.ValueIdx
import proofs.«411025_j54640573939922_1_alg».proof.Proof.Math.Spec

noncomputable section

namespace Cert.Spec

open Idealize.ShloMosaic Idealize.ShloMosaic.ValueIdx

/-- The node count is the real 20000. -/
theorem cN_eq : cN = ((20000 : ℝ) : EReal) := by
  simp [cN, Ideal.ofBits, Ideal.ieee, -EReal.coe_mul]; norm_num

/-- The guard term is the real 10995116 / 2^40. -/
theorem cEps_eq : cEps = ((10995116 / 2 ^ 40 : ℝ) : EReal) := by
  simp [cEps, Ideal.ofBits, Ideal.ieee, -EReal.coe_mul]; norm_num

theorem cEps_pos : (0 : ℝ) < 10995116 / 2 ^ 40 := by norm_num

theorem cOne_eq : cOne = 1 := by
  simp [cOne, Ideal.ofBits, Ideal.ieee, -EReal.coe_mul]; norm_num

theorem cZero_eq : cZero = 0 := by
  simp [cZero, Ideal.ofBits, Ideal.ieee]

end Cert.Spec

end
-- ==== Proof.Math.Bridge3.lean ====
/-
  Extended reals that are real numbers: they are closed under sums, differences, products, maxima, finite sums and
  division by the node count, and a finite sum of coerced reals is the coerced sum.
-/
import Idealize.ShloMosaic.PureOps.Ideal
import Idealize.ShloMosaic.Lib.ValueIdx
import proofs.«411025_j54640573939922_1_alg».proof.Proof.Math.Spec
import proofs.«411025_j54640573939922_1_alg».proof.Proof.Math.Bridge1

noncomputable section

namespace Cert.Spec

open Idealize.ShloMosaic Idealize.ShloMosaic.ValueIdx

/-- An extended real that is a real number. -/
def Re (a : EReal) : Prop := ∃ r : ℝ, a = (r : EReal)

theorem Re.coe (r : ℝ) : Re (r : EReal) := ⟨r, rfl⟩

theorem Re.zero : Re 0 := ⟨0, rfl⟩

theorem Re.one : Re 1 := ⟨1, rfl⟩

theorem Re.add {a b : EReal} (ha : Re a) (hb : Re b) : Re (a + b) := by
  obtain ⟨x, rfl⟩ := ha
  obtain ⟨y, rfl⟩ := hb
  exact ⟨x + y, (EReal.coe_add x y).symm⟩

theorem Re.sub {a b : EReal} (ha : Re a) (hb : Re b) : Re (a - b) := by
  obtain ⟨x, rfl⟩ := ha
  obtain ⟨y, rfl⟩ := hb
  exact ⟨x - y, (EReal.coe_sub x y).symm⟩

theorem Re.mul {a b : EReal} (ha : Re a) (hb : Re b) : Re (a * b) := by
  obtain ⟨x, rfl⟩ := ha
  obtain ⟨y, rfl⟩ := hb
  exact ⟨x * y, (EReal.coe_mul x y).symm⟩

/-- The maximum of two coerced reals is the coerced maximum. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem Re.max {a b : EReal} (ha : Re a) (hb : Re b) : Re (max a b) := by
  obtain ⟨x, rfl⟩ := ha
  obtain ⟨y, rfl⟩ := hb
  exact ⟨_, coe_max x y⟩

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Re.sum {ι : Type*} (s : Finset ι) (f : ι → EReal) (hf : ∀ i ∈ s, Re (f i)) : Re (∑ i ∈ s, f i) := by
  classical
  induction s using Finset.induction_on with
  | empty => simpa using Re.zero
  | insert a s ha ih =>
    rw [Finset.sum_insert ha]
    exact (hf a (Finset.mem_insert_self a s)).add (ih fun i hi => hf i (Finset.mem_insert_of_mem hi))

/-- Division by the node count is multiplication by the real 1 / 20000. -/
theorem div_cN (a : EReal) : Ideal.div a cN = a * ((1 / 20000 : ℝ) : EReal) := by
  rw [cN_eq]
  exact Ideal.div_coe (by norm_num) a

theorem Re.div_cN {a : EReal} (ha : Re a) : Re (Ideal.div a cN) := by
  rw [Cert.Spec.div_cN]
  exact ha.mul (Re.coe _)

/-- The reciprocal square root of a non-negative real plus the guard term is a real. -/
theorem Re.rsqrt_add_cEps {v : ℝ} (hv : 0 ≤ v) : Re (Ideal.rsqrt ((v : EReal) + cEps)) := by
  have hpos : 0 < v + 10995116 / 2 ^ 40 := add_pos_of_nonneg_of_pos hv cEps_pos
  rw [cEps_eq, ← EReal.coe_add, Ideal.rsqrt_coe, if_neg (not_lt.mpr hpos.le), if_neg hpos.ne']
  exact Re.coe _

/-- Entrywise real arrays, in terms of `Re`. -/
theorem fin'_iff {s : Shape} (f : s.Idx → EReal) : Fin' f ↔ ∀ i, Re (f i) := Iff.rfl

end Cert.Spec

end
-- ==== Proof.Math.Agg.lean ====
/-
  The neighbour sums of a graph layer, stated once over literal shapes: the two rows of the edge list (sources and
  targets), the rule that a negative source index counts from the end, and the sum, at every node, of the rows of the
  node features that its incoming edges carry. The sums of real rows are real.
-/
import Idealize.ShloMosaic.PureOps.Ideal
import Idealize.ShloMosaic.Lib.ValueIdx
import Idealize.ShloMosaic.Lib.IdealHost
import proofs.«411025_j54640573939922_1_alg».proof.Proof.Math.Spec
import proofs.«411025_j54640573939922_1_alg».proof.Proof.Math.Bridge3

noncomputable section

namespace Cert.Spec

open Idealize.ShloMosaic Idealize.ShloMosaic.ValueIdx

/-- no axes; edges; edges × 1; edges × hidden; 2 × edges. -/
abbrev S0 : Shape := ⟨0, ![]⟩
abbrev SE : Shape := ⟨1, ![640000]⟩
abbrev SE1 : Shape := ⟨2, ![640000, 1]⟩
abbrev SEH : Shape := ⟨2, ![640000, 128]⟩
abbrev S2xE : Shape := ⟨2, ![2, 640000]⟩

theorem bc_S0_SNH : S0.BroadcastsInDim SNH (![] : Fin 0 → Fin SNH.rank) := by decide
theorem bc_S0_SE : S0.BroadcastsInDim SE (![] : Fin 0 → Fin SE.rank) := by decide
theorem bc_SE_SE1 : SE.BroadcastsInDim SE1 (![0] : Fin 1 → Fin SE1.rank) := by decide

/-- The edge list's two rows: each edge's source node and its target node. -/
def srcOf (e : S2xE.Idx → BitVec 32) : SE.Idx → BitVec 32 := fun i => e (ix2 0 (i 0))
def dstOf (e : S2xE.Idx → BitVec 32) : SE.Idx → BitVec 32 := fun i => e (ix2 1 (i 0))

/-- A source index below zero counts from the end: the node count is added to it. -/
def wrap (src : SE.Idx → BitVec 32) : SE.Idx → BitVec 32 :=
  select (cmpi .slt src (broadcastInDim SE ![] bc_S0_SE (constantI S0 32 0#32)))
    (addi src (broadcastInDim SE ![] bc_S0_SE (constantI S0 32 20000#32))) src

/-- The neighbour sums: every edge carries its source node's row of `h` to its target node, where the rows
    arriving are added up, starting from zero. -/
def nbr (gd : GatherDims SNH SE1 SEH) (sd : ScatterDims SNH SE1 SEH) (src dst : SE.Idx → BitVec 32)
    (h : SNH.Idx → EReal) : SNH.Idx → EReal :=
  Host.scatterAdd (F := Ideal) (φ := .f32) sd
    (broadcastInDim SNH ![] bc_S0_SNH (constant (F := Ideal) S0 .f32 0x00000000#32))
    (broadcastInDim SE1 ![0] bc_SE_SE1 dst)
    (Host.gather gd h (broadcastInDim SE1 ![0] bc_SE_SE1 (wrap src)))

/-- The neighbour sums of an array of real numbers are real numbers: each is zero plus a finite sum of entries. -/
theorem Fin'_nbr (gd : GatherDims SNH SE1 SEH) (sd : ScatterDims SNH SE1 SEH) (src dst : SE.Idx → BitVec 32)
    (h : SNH.Idx → EReal) (hh : Fin' h) : Fin' (nbr gd sd src dst h) := by
  intro i
  unfold nbr Host.scatterAdd
  rw [Ideal.hostScatterAdd_def]
  unfold Ideal.hostScatterAdd
  refine Re.add ?_ (Re.sum _ _ fun j _ => hh _)
  rw [broadcastInDim_scalar_apply, constant_apply, Ideal.ofBits_zero_f32]
  exact Re.zero

end Cert.Spec

end
-- ==== Proof.Math.Reads.lean ====
/-
  How the arrays a layer reads are cut out of the argument arrays and computed from the running sums, each stated once
  over literal shapes: a vector laid out as a row or a column, row `l` of a stack of rows, slab `l` of a stack of
  matrices, entry `l` of a short vector, the two rows of the edge list; the batch statistics from the column sums; and
  the input of a layer's first dense map, `(1 + ε_l) · h` plus the neighbour sums.
-/
import Idealize.ShloMosaic.PureOps.Ideal
import Idealize.ShloMosaic.Lib.ValueIdx
import Idealize.ShloMosaic.Lib.ValueLayout
import Idealize.ShloMosaic.Lib.IdealHost
import proofs.«411025_j54640573939922_1_alg».proof.Proof.Math.Spec
import proofs.«411025_j54640573939922_1_alg».proof.Proof.Math.Agg

noncomputable section

namespace Cert.Spec

open Idealize.ShloMosaic Idealize.ShloMosaic.ValueIdx

/-- 1 × 128 × 128; one entry; 1 × edges. -/
abbrev S1HH : Shape := ⟨3, ![1, 128, 128]⟩
abbrev S1' : Shape := ⟨1, ![1]⟩
abbrev S1xE : Shape := ⟨2, ![1, 640000]⟩

/-- A length-128 vector laid out as a row is `rowH` of it. -/
theorem rowH_read (b : SH.Idx → EReal) (h : SH.ShapeCasts S1H) : shapeCast S1H b h = rowH b := by
  funext i
  rw [eq_ix2 i]
  exact shapeCast_a_1a_apply _ _ _ _

/-- A length-2 vector laid out as a row is `row2` of it. -/
theorem row2_read (b : S2.Idx → EReal) (h : S2.ShapeCasts S12) : shapeCast S12 b h = row2 b := by
  funext i
  rw [eq_ix2 i]
  exact shapeCast_a_1a_apply _ _ _ _

/-- A length-20000 vector laid out as a column is `colN` of it. -/
theorem colN_read (b : SN.Idx → BitVec 32) (h : SN.ShapeCasts SN1) : shapeCast SN1 b h = colN b := by
  funext i
  refine (shapeCast_apply b h i (ix1 (i 0)) ?_).trans rfl
  rw [Shape.rowMajor_val_two, Shape.rowMajor_val_one]
  have h1 : (i 1).val < 1 := (i 1).isLt
  show (i 0).val = (i 0).val * 1 + (i 1).val
  omega

/-- Row `l` cut out of a 3 × 128 array, flattened and laid out as a row again, is `rowOf` at `l`. -/
theorem rowOf_read (p : S3H.Idx → EReal) (l : Fin 3) (hs : S3H.Slices ![l.val, 0] S1H) (h1 : S1H.ShapeCasts SH)
    (h2 : SH.ShapeCasts S1H) :
    shapeCast S1H (shapeCast SH (extractStridedSlice S1H ![l.val, 0] p hs) h1) h2 = rowOf p l := by
  funext i
  rw [eq_ix2 i]
  refine (shapeCast_a_1a_apply _ _ _ _).trans ?_
  refine (shapeCast_1a_a_apply _ _ _).trans ?_
  exact slice2_axis0_apply l.val p hs 0 (i 1) l (by simp)

/-- Slab `l` cut out of a 3 × 128 × 128 array, as a matrix, is `matOf` at `l`. -/
theorem matOf_read (p : S3HH.Idx → EReal) (l : Fin 3) (hs : S3HH.Slices ![l.val, 0, 0] S1HH) (h : S1HH.ShapeCasts SHH) :
    shapeCast SHH (extractStridedSlice S1HH ![l.val, 0, 0] p hs) h = matOf p l := by
  funext i
  rw [eq_ix2 i]
  refine (shapeCast_1ab_ab_apply _ _ _ _).trans ?_
  refine extractStridedSlice_apply _ p hs _ (ix3 l (i 0) (i 1)) fun ax => ?_
  match ax with
  | ⟨0, _⟩ => exact (Nat.add_zero _).symm
  | ⟨1, _⟩ => exact (Nat.zero_add _).symm
  | ⟨2, _⟩ => exact (Nat.zero_add _).symm

/-- Entry `l` cut out of a length-3 vector, as a number, is `atOf` at `l`. -/
theorem atOf_read (p : S3.Idx → EReal) (l : Fin 3) (hs : S3.Slices ![l.val] S1') (h : S1'.ShapeCasts S0) (j : S0.Idx) :
    shapeCast S0 (extractStridedSlice S1' ![l.val] p hs) h j = atOf p l := by
  refine (shapeCast_apply _ h j (ix1 (0 : Fin 1)) ?_).trans ?_
  · have a : (S1'.rowMajor (ix1 (0 : Fin 1))).val < 1 := (S1'.rowMajor (ix1 (0 : Fin 1))).isLt
    have b : (S0.rowMajor j).val < 1 := (S0.rowMajor j).isLt
    omega
  · refine extractStridedSlice_apply _ p hs _ (ix1 l) fun ax => ?_
    match ax with
    | ⟨0, _⟩ => exact (Nat.add_zero _).symm

/-- Row 0 (row 1) of the edge list, flattened, is its sources (its targets). -/
theorem srcOf_read (e : S2xE.Idx → BitVec 32) (hs : S2xE.Slices ![0, 0] S1xE) (h : S1xE.ShapeCasts SE) :
    shapeCast SE (extractStridedSlice S1xE ![0, 0] e hs) h = srcOf e := by
  funext i
  rw [eq_ix1 i]
  refine (shapeCast_1a_a_apply _ _ _).trans ?_
  exact slice2_axis0_apply 0 e hs 0 (i 0) 0 (by simp)
theorem dstOf_read (e : S2xE.Idx → BitVec 32) (hs : S2xE.Slices ![1, 0] S1xE) (h : S1xE.ShapeCasts SE) :
    shapeCast SE (extractStridedSlice S1xE ![1, 0] e hs) h = dstOf e := by
  funext i
  rw [eq_ix1 i]
  refine (shapeCast_1a_a_apply _ _ _).trans ?_
  exact slice2_axis0_apply 1 e hs 0 (i 0) 1 (by simp)

end Cert.Spec

namespace Cert.Spec

open Idealize.ShloMosaic Idealize.ShloMosaic.ValueIdx

theorem bc_S0_S1H : S0.BroadcastsInDim S1H (![] : Fin 0 → Fin S1H.rank) := by decide

/-- The batch statistics from the column sums and the column sums of squares: the sums over the node count, and
    the mean of squares minus the squared mean. -/
def meanOf (s : S1H.Idx → EReal) : S1H.Idx → EReal := fun i => Ideal.div (s i) cN
def varOf (s q : S1H.Idx → EReal) : S1H.Idx → EReal := fun i => Ideal.div (q i) cN - meanOf s i * meanOf s i

theorem meanOf_colsumT (y : SNH.Idx → EReal) : meanOf (colsumT y) = meanT y := rfl
theorem varOf_colsumT (y : SNH.Idx → EReal) : varOf (colsumT y) (colsumT fun a => y a * y a) = varT y := rfl

/-- Column sums divided by the node count, as the host spells it, are `meanOf`. -/
theorem meanOf_read (s : S1H.Idx → EReal) (hb : S0.BroadcastsInDim S1H (![] : Fin 0 → Fin S1H.rank)) :
    Host.divf (F := Ideal) (φ := .f32) s (broadcastInDim S1H ![] hb (constant (F := Ideal) S0 .f32 0x469C4000#32)) = meanOf s := by
  funext i
  rw [hostDivf_apply, broadcastInDim_scalar_apply, constant_apply]
  rfl

/-- The mean of squares minus the squared mean, as the host spells it, is `varOf`. -/
theorem varOf_read (s q : S1H.Idx → EReal) (hb hb' : S0.BroadcastsInDim S1H (![] : Fin 0 → Fin S1H.rank)) :
    subf (F := Ideal) (φ := .f32)
      (Host.divf (F := Ideal) (φ := .f32) q (broadcastInDim S1H ![] hb' (constant (F := Ideal) S0 .f32 0x469C4000#32)))
      (mulf (F := Ideal) (φ := .f32)
        (Host.divf (F := Ideal) (φ := .f32) s (broadcastInDim S1H ![] hb (constant (F := Ideal) S0 .f32 0x469C4000#32)))
        (Host.divf (F := Ideal) (φ := .f32) s (broadcastInDim S1H ![] hb (constant (F := Ideal) S0 .f32 0x469C4000#32))))
      = varOf s q := by
  funext i
  rw [subf_apply, mulf_apply, meanOf_read, hostDivf_apply, broadcastInDim_scalar_apply, constant_apply]
  rfl

/-- One plus entry `l` of the scale vector, times the features, plus the neighbour sums, as the host spells it, is
    `mix` at the scale `cOne + atOf p l` and the neighbour sums `nbr`. -/
theorem mix_read (gd : GatherDims SNH SE1 SEH) (sd : ScatterDims SNH SE1 SEH) (p : S3.Idx → EReal) (l : Fin 3)
    (hs : S3.Slices ![l.val] S1') (hc : S1'.ShapeCasts S0) (src dst : SE.Idx → BitVec 32) (h : SNH.Idx → EReal)
    (hb hb' : S0.BroadcastsInDim SNH (![] : Fin 0 → Fin SNH.rank)) (hb1 hb1' : SE.BroadcastsInDim SE1 (![0] : Fin 1 → Fin SE1.rank))
    (hb2 hb2' : S0.BroadcastsInDim SE (![] : Fin 0 → Fin SE.rank)) :
    addf (F := Ideal) (φ := .f32)
      (mulf (F := Ideal) (φ := .f32)
        (broadcastInDim SNH ![] hb
          (addf (F := Ideal) (φ := .f32) (constant (F := Ideal) S0 .f32 0x3F800000#32)
            (fun j => shapeCast S0 (extractStridedSlice S1' ![l.val] p hs) hc j)))
        h)
      (Host.scatterAdd (F := Ideal) (φ := .f32) sd
        (broadcastInDim SNH ![] hb' (constant (F := Ideal) S0 .f32 0x00000000#32))
        (broadcastInDim SE1 ![0] hb1 dst)
        (Host.gather gd h
          (broadcastInDim SE1 ![0] hb1'
            (select (cmpi .slt src (broadcastInDim SE ![] hb2 (constantI S0 32 0#32)))
              (addi src (broadcastInDim SE ![] hb2' (constantI S0 32 20000#32))) src))))
      = mix (cOne + atOf p l) (nbr gd sd src dst) h := by
  funext i
  rw [addf_apply, mulf_apply, broadcastInDim_scalar_apply, addf_apply, constant_apply, atOf_read]
  rfl

end Cert.Spec

end
-- ==== Proof.KV.HostA.lean ====
/-
  What the host operations between the kernel's regions leave in the arrays a later region reads, at the extended
  reals and from any contents `W` of the buffers: before the encoder, before the read-out, and the three stretches of
  the first layer. Each result is a reading of an argument array (a row, a slab, an entry), a batch statistic of two
  running sums, or `(1 + ε) · h` plus the neighbour sums of `h`.
-/
import proofs.«411025_j54640573939922_1_alg».proof.Proof.Gen.KernelIdeal.Launch
import proofs.«411025_j54640573939922_1_alg».proof.Proof.Math.Spec
import proofs.«411025_j54640573939922_1_alg».proof.Proof.Math.Agg
import proofs.«411025_j54640573939922_1_alg».proof.Proof.Math.Reads
import Idealize.ShloMosaic.Lib.StableHlo.Run
import Idealize.ShloMosaic.Lib.ValueLayout
import Idealize.ShloMosaic.Lib.ValueIdx
import Idealize.ShloMosaic.Lib.IdealHost

set_option maxRecDepth 16384

noncomputable section

namespace Cert.KernelIdeal.HandV

open Idealize.ShloMosaic Idealize.ShloMosaic.TcCoe Idealize.ShloMosaic.ValueIdx
open Cert.KernelIdeal Cert.KernelIdeal.Gen

variable (W : Valuation τ sig (Elt Ideal))

/-! ## Before the encoder: the edge list's rows, the graph index as a column, the encoder's bias as a row -/

theorem h0_v1 : (StableHlo.after (hostOps0 (F := Ideal)) W (Proc.devRef .tc main_v1) : Cert.Spec.SE.Idx → BitVec 32)
    = Cert.Spec.srcOf (W (Proc.devRef .tc main_arg1)) := by
  dsimp only [hostOps0]
  after_results
  exact Cert.Spec.srcOf_read _ _ _

theorem h0_v3 : (StableHlo.after (hostOps0 (F := Ideal)) W (Proc.devRef .tc main_v3) : Cert.Spec.SE.Idx → BitVec 32)
    = Cert.Spec.dstOf (W (Proc.devRef .tc main_arg1)) := by
  dsimp only [hostOps0]
  after_results
  exact Cert.Spec.dstOf_read _ _ _

theorem h0_v4 : (StableHlo.after (hostOps0 (F := Ideal)) W (Proc.devRef .tc main_v4) : Cert.Spec.SN1.Idx → BitVec 32)
    = Cert.Spec.colN (W (Proc.devRef .tc main_arg2)) := by
  dsimp only [hostOps0]
  after_results
  exact Cert.Spec.colN_read _ _

theorem h0_v5 : (StableHlo.after (hostOps0 (F := Ideal)) W (Proc.devRef .tc main_v5) : Cert.Spec.S1H.Idx → EReal)
    = Cert.Spec.rowH (W (Proc.devRef .tc main_arg4)) := by
  dsimp only [hostOps0]
  after_results
  exact Cert.Spec.rowH_read _ _

/-! ## Before the read-out: the class bias as a row -/

theorem h10_v166 : (StableHlo.after (hostOps10 (F := Ideal)) W (Proc.devRef .tc main_v166) : Cert.Spec.S12.Idx → EReal)
    = Cert.Spec.row2 (W (Proc.devRef .tc main_arg15)) := by
  dsimp only [hostOps10]
  after_results
  exact Cert.Spec.row2_read _ _

/-! ## Layer 1: the stretch before its first dense map -/

set_option maxHeartbeats 4000000 in
/-- The first dense map's input: `(1 + ε) · h` plus the neighbour sums of `h`. -/
theorem h1_v22 : (StableHlo.after (hostOps1 (F := Ideal)) W (Proc.devRef .tc main_v22) : Cert.Spec.SNH.Idx → EReal)
    = Cert.Spec.mix (Cert.Spec.cOne + Cert.Spec.atOf (W (Proc.devRef .tc main_arg11)) (0 : Fin 3))
        (Cert.Spec.nbr gather_S20000x128_S640000x1_S640000x128_1_0_n_n_0_1_1128 scatter_S20000x128_S640000x1_S640000x128_1_0_0_1 (W (Proc.devRef .tc main_v1)) (W (Proc.devRef .tc main_v3))) (W (Proc.devRef .tc main_v6)) := by
  dsimp only [hostOps1]
  after_results_simp
  exact Cert.Spec.mix_read _ _ _ (0 : Fin 3) _ _ _ _ _ _ _ _ _ _ _

/-- The first dense map's bias row and weight matrix. -/
theorem h1_v25 : (StableHlo.after (hostOps1 (F := Ideal)) W (Proc.devRef .tc main_v25) : Cert.Spec.S1H.Idx → EReal)
    = Cert.Spec.rowOf (W (Proc.devRef .tc main_arg6)) (0 : Fin 3) := by
  dsimp only [hostOps1]
  after_results
  exact Cert.Spec.rowOf_read _ (0 : Fin 3) _ _ _

theorem h1_v27 : (StableHlo.after (hostOps1 (F := Ideal)) W (Proc.devRef .tc main_v27) : Cert.Spec.SHH.Idx → EReal)
    = Cert.Spec.matOf (W (Proc.devRef .tc main_arg5)) (0 : Fin 3) := by
  dsimp only [hostOps1]
  after_results
  exact Cert.Spec.matOf_read _ (0 : Fin 3) _ _

/-! ## Layer 1: the stretch before its second dense map -/

/-- The first normalisation's mean and variance, from the column sums and the column sums of squares. -/
theorem h2_v30 : (StableHlo.after (hostOps2 (F := Ideal)) W (Proc.devRef .tc main_v30) : Cert.Spec.S1H.Idx → EReal)
    = Cert.Spec.meanOf (W (Proc.devRef .tc main_v28_1)) := by
  dsimp only [hostOps2]
  after_results
  exact Cert.Spec.meanOf_read _ _

theorem h2_v34 : (StableHlo.after (hostOps2 (F := Ideal)) W (Proc.devRef .tc main_v34) : Cert.Spec.S1H.Idx → EReal)
    = Cert.Spec.varOf (W (Proc.devRef .tc main_v28_1)) (W (Proc.devRef .tc main_v28_2)) := by
  dsimp only [hostOps2]
  after_results
  exact Cert.Spec.varOf_read _ _ _ _

/-- The first normalisation's scale and shift rows, the second dense map's bias row and weight matrix. -/
theorem h2_v37 : (StableHlo.after (hostOps2 (F := Ideal)) W (Proc.devRef .tc main_v37) : Cert.Spec.S1H.Idx → EReal)
    = Cert.Spec.rowOf (W (Proc.devRef .tc main_arg7)) (0 : Fin 3) := by
  dsimp only [hostOps2]
  after_results
  exact Cert.Spec.rowOf_read _ (0 : Fin 3) _ _ _

theorem h2_v40 : (StableHlo.after (hostOps2 (F := Ideal)) W (Proc.devRef .tc main_v40) : Cert.Spec.S1H.Idx → EReal)
    = Cert.Spec.rowOf (W (Proc.devRef .tc main_arg8)) (0 : Fin 3) := by
  dsimp only [hostOps2]
  after_results
  exact Cert.Spec.rowOf_read _ (0 : Fin 3) _ _ _

theorem h2_v43 : (StableHlo.after (hostOps2 (F := Ideal)) W (Proc.devRef .tc main_v43) : Cert.Spec.S1H.Idx → EReal)
    = Cert.Spec.rowOf (W (Proc.devRef .tc main_arg10)) (0 : Fin 3) := by
  dsimp only [hostOps2]
  after_results
  exact Cert.Spec.rowOf_read _ (0 : Fin 3) _ _ _

theorem h2_v45 : (StableHlo.after (hostOps2 (F := Ideal)) W (Proc.devRef .tc main_v45) : Cert.Spec.SHH.Idx → EReal)
    = Cert.Spec.matOf (W (Proc.devRef .tc main_arg9)) (0 : Fin 3) := by
  dsimp only [hostOps2]
  after_results
  exact Cert.Spec.matOf_read _ (0 : Fin 3) _ _

/-! ## Layer 1: the stretch before its closing normalisation -/

/-- The closing normalisation's mean and variance, and its scale and shift rows. -/
theorem h3_v48 : (StableHlo.after (hostOps3 (F := Ideal)) W (Proc.devRef .tc main_v48) : Cert.Spec.S1H.Idx → EReal)
    = Cert.Spec.meanOf (W (Proc.devRef .tc main_v46_1)) := by
  dsimp only [hostOps3]
  after_results
  exact Cert.Spec.meanOf_read _ _

theorem h3_v52 : (StableHlo.after (hostOps3 (F := Ideal)) W (Proc.devRef .tc main_v52) : Cert.Spec.S1H.Idx → EReal)
    = Cert.Spec.varOf (W (Proc.devRef .tc main_v46_1)) (W (Proc.devRef .tc main_v46_2)) := by
  dsimp only [hostOps3]
  after_results
  exact Cert.Spec.varOf_read _ _ _ _

theorem h3_v55 : (StableHlo.after (hostOps3 (F := Ideal)) W (Proc.devRef .tc main_v55) : Cert.Spec.S1H.Idx → EReal)
    = Cert.Spec.rowOf (W (Proc.devRef .tc main_arg12)) (0 : Fin 3) := by
  dsimp only [hostOps3]
  after_results
  exact Cert.Spec.rowOf_read _ (0 : Fin 3) _ _ _

theorem h3_v58 : (StableHlo.after (hostOps3 (F := Ideal)) W (Proc.devRef .tc main_v58) : Cert.Spec.S1H.Idx → EReal)
    = Cert.Spec.rowOf (W (Proc.devRef .tc main_arg13)) (0 : Fin 3) := by
  dsimp only [hostOps3]
  after_results
  exact Cert.Spec.rowOf_read _ (0 : Fin 3) _ _ _

end Cert.KernelIdeal.HandV

end
-- ==== Proof.KV.Val10Pay.lean ====
/-
  The arithmetic of region 10's payloads over the extended reals, read at an index: the one-hot of a node tile's graph
  numbers; the pooled sums and the node counts after one more tile; the read-out. No program is run here.
-/
import proofs.«411025_j54640573939922_1_alg».proof.Proof.Gen.KernelIdeal.Skeleton
import proofs.«411025_j54640573939922_1_alg».proof.Proof.Math.Spec
import Idealize.ShloMosaic.Lib.ValueIdx
import Idealize.ShloMosaic.Lib.Pipeline.Value
import Idealize.ShloMosaic.Lib.KernelVsHost
import Idealize.ShloMosaic.PureOps.Ideal.Laws

set_option maxRecDepth 16384

noncomputable section

namespace Cert.KernelIdeal.HandV

open Cert.KernelIdeal Cert.KernelIdeal.Gen
open Idealize.ShloMosaic Idealize.ShloMosaic.ValueIdx

/-- Whether a node's graph number is `g`, as a real: one or zero. -/
def hot (b : BitVec 32) (g : Fin 128) : EReal := if b = BitVec.ofNat 32 g.val then 1 else 0

/-- The tile's one-hot matrix: entry (node `r`, graph `g`) is whether node `r`'s graph number is `g`. -/
theorem pay3_apply (v6 : Vec Ideal S2000x1 .i32) (r : Fin 2000) (g : Fin 128) :
    k10_pay3 (F := Ideal) v6 (ix2 r g) = hot (v6 (ix2 r 0)) g := by
  unfold k10_pay3
  dsimp only
  rw [sitofp_apply, extui_apply]
  show FloatOps.sitofp FTy.f32 (BitVec.setWidth 32 (IntOp.cmpi .eq
    (broadcastTo S2000x128 (shapeCast S2000x1 v6 shapeCasts_S2000x1_S2000x1) broadcasts_S2000x1_S2000x128 (ix2 r g))
    (iota Kind.tc S2000x128 32 [1] iota_S2000x128_d1_w32 (ix2 r g)))) = _
  rw [iota_single_apply, broadcastTo_apply _ _ (ix2 r g) (ix2 r 0) (fun a => by fin_cases a <;> rfl),
    shapeCast_apply _ _ (ix2 r 0) (ix2 r 0) rfl]
  show ((((BitVec.setWidth 32 (IntOp.cmpi .eq (v6 (ix2 r 0)) (BitVec.ofNat 32 g.val))).toInt : ℤ) : ℝ) : EReal) = _
  unfold hot IntOp.cmpi
  by_cases h : v6 (ix2 r 0) = BitVec.ofNat 32 g.val
  · have hb : (v6 (ix2 r 0) == BitVec.ofNat 32 g.val) = true := by simpa using h
    simp [h, hb]
  · have hb : (v6 (ix2 r 0) == BitVec.ofNat 32 g.val) = false := by simpa using h
    simp [h, hb]

abbrev D1 := dot_S2000x128_S2000x128_S128x128_0_0_1_1_n_n
abbrev D2 := dot_S128x128_S128x2_S128x2_1_0_0_1_n_n

/-- The first product contracts the node axis of both operands: at result (graph `g`, feature `k`) and node `r` it reads
    the one-hot at (`r`, `g`) and the features at (`r`, `k`). -/
theorem D1_lhs (g k : Fin 128) (r : Fin 2000) :
    D1.lhsIdx (ix2 g k) ((contrEquiv1 D1 2000 rfl rfl).symm r) = ix2 r g := by
  funext a
  fin_cases a
  · apply Fin.ext
    simp [DotDims.lhsIdx, D1, dot_S2000x128_S2000x128_S128x128_0_0_1_1_n_n, contrEquiv1]
    rfl
  · apply Fin.ext
    simp [DotDims.lhsIdx, D1, dot_S2000x128_S2000x128_S128x128_0_0_1_1_n_n, contrEquiv1]
    rfl

theorem D1_rhs (g k : Fin 128) (r : Fin 2000) :
    D1.rhsIdx (ix2 g k) ((contrEquiv1 D1 2000 rfl rfl).symm r) = ix2 r k := by
  funext a
  fin_cases a
  · apply Fin.ext
    simp [DotDims.rhsIdx, D1, dot_S2000x128_S2000x128_S128x128_0_0_1_1_n_n, contrEquiv1]
    rfl
  · apply Fin.ext
    simp [DotDims.rhsIdx, D1, dot_S2000x128_S2000x128_S128x128_0_0_1_1_n_n, contrEquiv1]
    rfl

/-- The second product is rows by columns: at result (graph `g`, class `j`) and feature `k` it reads (`g`, `k`) and (`k`, `j`). -/
theorem D2_lhs (g : Fin 128) (j : Fin 2) (k : Fin 128) :
    D2.lhsIdx (ix2 g j) ((contrEquiv1 D2 128 rfl rfl).symm k) = ix2 g k := by
  funext a
  fin_cases a
  · apply Fin.ext
    simp [DotDims.lhsIdx, D2, dot_S128x128_S128x2_S128x2_1_0_0_1_n_n, contrEquiv1]
    rfl
  · apply Fin.ext
    simp [DotDims.lhsIdx, D2, dot_S128x128_S128x2_S128x2_1_0_0_1_n_n, contrEquiv1]
    rfl

theorem D2_rhs (g : Fin 128) (j : Fin 2) (k : Fin 128) :
    D2.rhsIdx (ix2 g j) ((contrEquiv1 D2 128 rfl rfl).symm k) = ix2 k j := by
  funext a
  fin_cases a
  · apply Fin.ext
    simp [DotDims.rhsIdx, D2, dot_S128x128_S128x2_S128x2_1_0_0_1_n_n, contrEquiv1]
    rfl
  · apply Fin.ext
    simp [DotDims.rhsIdx, D2, dot_S128x128_S128x2_S128x2_1_0_0_1_n_n, contrEquiv1]
    rfl

/-- The pooled sums after one more tile: what they held plus, per graph and feature, the sum over the tile's nodes of the
    one-hot times the feature. -/
theorem pay4_apply (x0 : Vec Ideal S2000x128 .f32) (x1 : Vec Ideal S2000x1 .i32) (s : Vec Ideal S128x128 .f32) (g k : Fin 128) :
    k10_pay4 (F := Ideal) x0 x1 s (ix2 g k) = s (ix2 g k) + ∑ r : Fin 2000, hot (x1 (ix2 r 0)) g * x0 (ix2 r k) := by
  unfold k10_pay4
  rw [shapeCast_apply _ _ (ix2 g k) (ix2 g k) rfl, addf_apply]
  congr 1
  simp only [matmul]
  rw [Ideal.matmul_constant_zero_apply]
  refine ((Equiv.sum_comp (contrEquiv1 D1 2000 rfl rfl).symm _).symm.trans ?_)
  refine Finset.sum_congr rfl fun r _ => ?_
  rw [D1_lhs, D1_rhs, truncf_apply, truncf_apply, pay3_apply, shapeCast_apply _ _ (ix2 r k) (ix2 r k) rfl]

/-- The node counts after one more tile: what they held plus, per graph, the number of the tile's nodes in it. -/
theorem pay5_apply (x1 : Vec Ideal S2000x1 .i32) (n : Vec Ideal S128x1 .f32) (g : Fin 128) :
    k10_pay5 (F := Ideal) x1 n (ix2 g 0) = n (ix2 g 0) + ∑ r : Fin 2000, hot (x1 (ix2 r 0)) g := by
  unfold k10_pay5
  rw [shapeCast_apply _ _ (ix2 g 0) (ix2 g 0) rfl, addf_apply]
  congr 1
  rw [shapeCast_apply _ _ (ix2 g 0) (ix1 g) rfl]
  refine (Ideal.multiReduction_add_single _ _ _ _ _ (ix1 g)).trans ?_
  refine Finset.sum_congr rfl fun r _ => ?_
  refine (congrArg (k10_pay3 (F := Ideal) x1) (?_ : _ = ix2 r g)).trans (pay3_apply x1 r g)
  funext a
  fin_cases a
  · exact Fin.ext rfl
  · exact Fin.ext rfl

/-- The read-out: per graph and class, the pooled sums over the count (at least one) times the class weights, plus the bias. -/
theorem pay6_apply (S : Vec Ideal S128x128 .f32) (C : Vec Ideal S128x1 .f32) (W : Vec Ideal S128x2 .f32) (b : Vec Ideal S1x2 .f32)
    (g : Fin 128) (j : Fin 2) :
    k10_pay6 (F := Ideal) S C W b (ix2 g j)
      = (∑ k : Fin 128, Ideal.div (S (ix2 g k)) (max (C (ix2 g 0)) Cert.Spec.cOne) * W (ix2 k j)) + b (ix2 0 j) := by
  unfold k10_pay6
  rw [addf_apply]
  congr 1
  · simp only [matmul]
    rw [Ideal.matmul_constant_zero_apply]
    refine ((Equiv.sum_comp (contrEquiv1 D2 128 rfl rfl).symm _).symm.trans ?_)
    refine Finset.sum_congr rfl fun k _ => ?_
    rw [D2_lhs, D2_rhs, truncf_apply, truncf_apply, divf_apply,
      broadcastTo_apply _ _ (ix2 g k) (ix2 g 0) (fun a => by fin_cases a <;> rfl), maximumf_apply, broadcast_apply]
    rfl
  · rw [broadcastTo_apply _ _ (ix2 g j) (ix2 0 j) (fun a => by fin_cases a <;> rfl), shapeCast_apply _ _ (ix2 0 j) (ix2 0 j) rfl]

end Cert.KernelIdeal.HandV

end
-- ==== Proof.KV.Val10.lean ====
/-
  Region 10 over the extended reals: what the logits' array holds after the region, as the read-out of the tiled pooling
  of the node features by the graph numbers. The accumulators after point `n` hold the shares of the node tiles up to
  `n` (an induction on the point over the payloads' arithmetic); the last point stores the read-out of all ten tiles'
  shares, and its write-back covers the array.
-/
import proofs.«411025_j54640573939922_1_alg».proof.Proof.KI.Reg10
import proofs.«411025_j54640573939922_1_alg».proof.Proof.KV.Val10Pay
import proofs.«411025_j54640573939922_1_alg».proof.Proof.Math.Spec
import Idealize.ShloMosaic.Lib.ValueIdx
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The blocks, read off the arrays -/

/-- The printed index maps, decided over the grid: the node tiles move with the point; the weights, the bias and the
    logits stay at block (0, 0). -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem lt10 (t : Fin cfg10.N) : t.val < 10 := lt_of_lt_of_eq t.isLt (show cfg10.N = 10 from N_10)

/-- Row `r` of the node tile at point `t` is node `2000 t + r`. -/
theorem hblk_apply (c : Dev nD) (t : Fin cfg10.N) (r : Fin 2000) (k : Fin 128) :
    iblk10 V c 0 t (ix2 r k) = V c main_v165 (ix2 (Cert.Spec.row ⟨t.val, lt10 t⟩ r) k) := by
  obtain ⟨e0, e1, -⟩ := idx10 t
  show V c main_v165 (((cfg10.win 0).blk t).view.emb (ix2 r k)) = _
  refine congrArg (V c main_v165) (funext fun a => Fin.ext ?_)
  match a with
  | ⟨0, _⟩ => show win10_0.index t (0 : Fin 2) * 2000 + 1 * r.val = 2000 * t.val + r.val; omega
  | ⟨1, _⟩ => show win10_0.index t (1 : Fin 2) * 128 + 1 * k.val = k.val; omega

theorem bblk_apply (c : Dev nD) (t : Fin cfg10.N) (r : Fin 2000) :
    iblk10 V c 1 t (ix2 r 0) = V c main_v4 (ix2 (Cert.Spec.row ⟨t.val, lt10 t⟩ r) 0) := by
  obtain ⟨-, -, e0, e1, -⟩ := idx10 t
  show V c main_v4 (((cfg10.win 1).blk t).view.emb (ix2 r 0)) = _
  refine congrArg (V c main_v4) (funext fun a => Fin.ext ?_)
  match a with
  | ⟨0, _⟩ => show win10_1.index t (0 : Fin 2) * 2000 + 1 * r.val = 2000 * t.val + r.val; omega
  | ⟨1, _⟩ => show win10_1.index t (1 : Fin 2) * 1 + 1 * 0 = 0; omega

theorem wblk_apply (c : Dev nD) (t : Fin cfg10.N) (k : Fin 128) (j : Fin 2) :
    iblk10 V c 2 t (ix2 k j) = V c main_arg14 (ix2 k j) := by
  obtain ⟨-, -, -, -, e0, e1, -⟩ := idx10 t
  show V c main_arg14 (((cfg10.win 2).blk t).view.emb (ix2 k j)) = _
  refine congrArg (V c main_arg14) (funext fun a => Fin.ext ?_)
  match a with
  | ⟨0, _⟩ => show win10_2.index t (0 : Fin 2) * 128 + 1 * k.val = k.val; omega
  | ⟨1, _⟩ => show win10_2.index t (1 : Fin 2) * 2 + 1 * j.val = j.val; omega

theorem cblk_apply (c : Dev nD) (t : Fin cfg10.N) (j : Fin 2) :
    iblk10 V c 3 t (ix2 0 j) = V c main_v166 (ix2 0 j) := by
  obtain ⟨-, -, -, -, -, -, e0, e1, -⟩ := idx10 t
  show V c main_v166 (((cfg10.win 3).blk t).view.emb (ix2 0 j)) = _
  refine congrArg (V c main_v166) (funext fun a => Fin.ext ?_)
  match a with
  | ⟨0, _⟩ => show win10_3.index t (0 : Fin 2) * 1 + 1 * 0 = 0; omega
  | ⟨1, _⟩ => show win10_3.index t (1 : Fin 2) * 2 + 1 * j.val = j.val; omega

/-! ## One tile's share, and the accumulators after each point -/

/-- Tile `i`'s share of graph `g`'s pooled feature `k`, and of its node count; nothing past the last tile. -/
def tS (c : Dev nD) (g k : Fin 128) (i : ℕ) : EReal :=
  if h : i < 10 then ∑ r : Fin 2000, hot (V c main_v4 (ix2 (Cert.Spec.row ⟨i, h⟩ r) 0)) g * V c main_v165 (ix2 (Cert.Spec.row ⟨i, h⟩ r) k) else 0
def tC (c : Dev nD) (g : Fin 128) (i : ℕ) : EReal :=
  if h : i < 10 then ∑ r : Fin 2000, hot (V c main_v4 (ix2 (Cert.Spec.row ⟨i, h⟩ r) 0)) g else 0

/-- The zeroed accumulators. -/
theorem pay1_apply (g k : Fin 128) : k10_pay1 (F := Ideal) (ix2 g k) = 0 := by
  unfold k10_pay1
  rw [shapeCast_apply _ _ (ix2 g k) (ix2 g k) rfl, broadcast_apply]
  exact Ideal.ofBits_zero_f32
theorem pay2_apply (g : Fin 128) : k10_pay2 (F := Ideal) (ix2 g 0) = 0 := by
  unfold k10_pay2
  rw [shapeCast_apply _ _ (ix2 g 0) (ix2 g 0) rfl, broadcast_apply]
  exact Ideal.ofBits_zero_f32

/-- The body's step on the sums at point `t` adds tile `t`'s share; -/
theorem step_sum (c : Dev nD) (t : Fin cfg10.N) (s : Vec Ideal S128x128 .f32) (g k : Fin 128) :
    k10_pay4 (F := Ideal) (iblk10 V c 0 t) (iblk10 V c 1 t) s (ix2 g k) = s (ix2 g k) + tS V c g k t.val := by
  refine (pay4_apply (iblk10 V c 0 t) (iblk10 V c 1 t) s g k).trans ?_
  unfold tS; rw [dif_pos (lt10 t)]
  congr 1
  refine Finset.sum_congr rfl fun r _ => ?_
  rw [hblk_apply V c t r k, bblk_apply V c t r]

/-- on the counts likewise. -/
theorem step_cnt (c : Dev nD) (t : Fin cfg10.N) (n : Vec Ideal S128x1 .f32) (g : Fin 128) :
    k10_pay5 (F := Ideal) (iblk10 V c 1 t) n (ix2 g 0) = n (ix2 g 0) + tC V c g t.val := by
  refine (pay5_apply (iblk10 V c 1 t) n g).trans ?_
  unfold tC; rw [dif_pos (lt10 t)]
  congr 1
  refine Finset.sum_congr rfl fun r _ => ?_
  rw [bblk_apply V c t r]

/-- After point `n` the accumulators hold the shares of the tiles up to `n`. -/
theorem scr_sum (c : Dev nD) (g k : Fin 128) (n : ℕ) (hn : n < cfg10.N) :
    (scr10 V c n hn).1 (ix2 g k) = ∑ i ∈ Finset.range (n + 1), tS V c g k i := by
  induction n with
  | zero =>
    rw [scr10]; dsimp only
    rw [step_sum V c ⟨0, hn⟩, pay1_apply, zero_add, Finset.sum_range_one]
  | succ n ih =>
    rw [scr10]; dsimp only
    rw [step_sum V c ⟨n + 1, hn⟩, ih (Nat.lt_of_succ_lt hn)]
    exact (Finset.sum_range_succ (fun i => tS V c g k i) (n + 1)).symm

theorem scr_cnt (c : Dev nD) (g : Fin 128) (n : ℕ) (hn : n < cfg10.N) :
    (scr10 V c n hn).2 (ix2 g 0) = ∑ i ∈ Finset.range (n + 1), tC V c g i := by
  induction n with
  | zero =>
    rw [scr10]; dsimp only
    rw [step_cnt V c ⟨0, hn⟩, pay2_apply, zero_add, Finset.sum_range_one]
  | succ n ih =>
    rw [scr10]; dsimp only
    rw [step_cnt V c ⟨n + 1, hn⟩, ih (Nat.lt_of_succ_lt hn)]
    exact (Finset.sum_range_succ (fun i => tC V c g i) (n + 1)).symm

/-- All ten tiles' shares are the tiled pooling. -/
theorem sum_tS (c : Dev nD) (g k : Fin 128) :
    ∑ i ∈ Finset.range 10, tS V c g k i = Cert.Spec.poolSumT (V c main_v165) (V c main_v4) (ix2 g k) := by
  rw [← Fin.sum_univ_eq_sum_range (fun i => tS V c g k i) 10]
  unfold Cert.Spec.poolSumT
  refine Finset.sum_congr rfl fun t _ => ?_
  unfold tS; rw [dif_pos t.isLt]
  rfl

theorem sum_tC (c : Dev nD) (g : Fin 128) :
    ∑ i ∈ Finset.range 10, tC V c g i = Cert.Spec.poolCntT (V c main_v4) (ix2 g 0) := by
  rw [← Fin.sum_univ_eq_sum_range (fun i => tC V c g i) 10]
  unfold Cert.Spec.poolCntT
  refine Finset.sum_congr rfl fun t _ => ?_
  unfold tC; rw [dif_pos t.isLt]
  rfl

/-! ## The logits -/

/-- The logits as the reference spells them: the read-out of the tiled pooling. -/
abbrev G10 (c : Dev nD) : Cert.Spec.SH2.Idx → EReal :=
  Cert.Spec.readout (Cert.Spec.poolSumT (V c main_v165) (V c main_v4)) (Cert.Spec.poolCntT (V c main_v4)) (V c main_arg14) (V c main_v166)

/-- What the last point stores is that, index by index. -/
theorem last_apply (c : Dev nD) (t : Fin cfg10.N) (h9 : t.val = 9) (g : Fin 128) (j : Fin 2) :
    k10_pay6 (F := Ideal) (scr10 V c t.val t.isLt).1 (scr10 V c t.val t.isLt).2 (iblk10 V c 2 t) (iblk10 V c 3 t) (ix2 g j) = G10 V c (ix2 g j) := by
  refine (pay6_apply _ _ _ _ g j).trans ?_
  unfold G10 Cert.Spec.readout
  rw [scr_cnt V c g t.val t.isLt, cblk_apply V c t j]
  congr 1
  refine Finset.sum_congr rfl fun k _ => ?_
  rw [scr_sum V c g k t.val t.isLt, wblk_apply V c t k j, h9, sum_tS, sum_tC]

/-- WHAT THE LAST POINT WRITES BACK is the logits' one block. -/
theorem flushed10_eq (c : Dev nD) (t : Fin cfg10.N) (hf : (cfg10.win 4).flush t = true) :
    (dat10 V c).flushed 4 t = ((cfg10.win 4).blk t).view.read (Elt Ideal) (G10 V c) := by
  have h9 : t.val = 9 := by have := (flush10_4 t).mp hf; have := lt10 t; omega
  obtain ⟨-, -, -, -, -, -, -, -, e0, e1⟩ := idx10 t
  show (cfg10.win 4).cut (grid10.coords t) ((dat10 V c).after 4 t) = _
  rw [after10_4]
  funext y
  have hy : y = ix2 (y 0) (y 1) := eq_ix2 y
  rw [hy]
  refine (last_apply V c t h9 (y 0) (y 1)).trans ?_
  show G10 V c (ix2 (y 0) (y 1)) = G10 V c (((cfg10.win 4).blk t).view.emb (ix2 (y 0) (y 1)))
  refine congrArg (G10 V c) (funext fun a => Fin.ext ?_)
  match a with
  | ⟨0, _⟩ => show (y 0).val = win10_4.index t (0 : Fin 2) * 128 + 1 * (y 0).val; omega
  | ⟨1, _⟩ => show (y 1).val = win10_4.index t (1 : Fin 2) * 2 + 1 * (y 1).val; omega

/-- An index of the logits' array is in point `t`'s block iff each coordinate is in the block's range on its axis. -/
theorem mem_blk10 (t : Fin cfg10.N) (i : S128x2.Idx) :
    i ∈ ((cfg10.win 4).blk t).view.set ↔ ∀ a : Fin 2, win10_4.index t a * S128x2.size a ≤ (i a).val ∧ (i a).val < win10_4.index t a * S128x2.size a + S128x2.size a := by
  show i ∈ ((View.whole main_v167).slice (win10_4.rect t)).set ↔ _
  rw [View.set_slice_whole, Rect.mem_set_unit]
  exact Iff.rfl

/-- THE LOGITS' ARRAY after the region: the read-out of the tiled pooling of the features by the graph numbers. -/
theorem out10 (c : Dev nD) :
    (dat10 V c).arrAt 4 cfg10.N
      = Cert.Spec.readout (Cert.Spec.poolSumT (V c main_v165) (V c main_v4)) (Cert.Spec.poolCntT (V c main_v4)) (V c main_arg14) (V c main_v166) := by
  refine (dat10 V c).arrAt_eq_of_cover 4 (G10 V c) (fun t hf => flushed10_eq V c t hf) (fun i => ?_)
  have h9 : (9 : ℕ) < cfg10.N := by rw [show cfg10.N = 10 from N_10]; omega
  refine ⟨⟨9, h9⟩, (flush10_4 ⟨9, h9⟩).mpr rfl, ?_⟩
  obtain ⟨-, -, -, -, -, -, -, -, e0, e1⟩ := idx10 ⟨9, h9⟩
  rw [mem_blk10]
  intro a
  match a with
  | ⟨0, _⟩ =>
    show win10_4.index ⟨9, h9⟩ (0 : Fin 2) * 128 ≤ (i 0).val ∧ (i 0).val < win10_4.index ⟨9, h9⟩ (0 : Fin 2) * 128 + 128
    have hi : (i 0).val < 128 := (i 0).isLt; omega
  | ⟨1, _⟩ =>
    show win10_4.index ⟨9, h9⟩ (1 : Fin 2) * 2 ≤ (i 1).val ∧ (i 1).val < win10_4.index ⟨9, h9⟩ (1 : Fin 2) * 2 + 2
    have hi : (i 1).val < 2 := (i 1).isLt; omega

end Cert.KernelIdeal.HandV

end
-- ==== Proof.KV.Val0.lean ====
/- Region 0 at the extended reals: the array its output window ends holding, as one function of the arrays
   the region is entered with — the encoder `x · w + b`. The body's payload is read at an index; each point writes back the
   block of that function its output rectangle names; the ten blocks of two thousand rows cover the array. -/
import proofs.«411025_j54640573939922_1_alg».proof.Proof.KI.Reg0
import proofs.«411025_j54640573939922_1_alg».proof.Proof.Math.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zero_off0 : (![0, 0] : Fin 2 → Nat) = fun _ => 0 := funext fun a => by fin_cases a <;> rfl

/-- The encoder's payload at row `p`, column `q`: the row's feature times the column's weight, plus the column's bias. -/
theorem enc_pay_apply (x0 : Vec Ideal S2000x1 .f32) (x1 x2 : Vec Ideal S1x128 .f32) (p : Fin 2000) (q : Fin 128) :
    k0_pay1 x0 x1 x2 (ix2 p q) = x0 (ix2 p 0) * x1 (ix2 0 q) + x2 (ix2 0 q) := by
  unfold k0_pay1
  rw [addf_apply, mulf_apply, shapeCast_self,
    broadcastTo_apply x0 _ (ix2 p q) (ix2 p 0) (fun a => by match a with | ⟨0, _⟩ => rfl | ⟨1, _⟩ => rfl),
    broadcastTo_apply x1 _ (ix2 p q) (ix2 0 q) (fun a => by match a with | ⟨0, _⟩ => rfl | ⟨1, _⟩ => rfl),
    broadcastTo_apply x2 _ (ix2 p q) (ix2 0 q) (fun a => by match a with | ⟨0, _⟩ => rfl | ⟨1, _⟩ => rfl)]

/-- Equal factors and equal summands give equal values of `a * b + d`. -/
theorem mul_add_congr (a b d a' b' d' : EReal) (ha : a = a') (hb : b = b') (hd : d = d') : a * b + d = a' * b' + d' := by
  rw [ha, hb, hd]

/-- The index maps, decided over the ten points: the feature column and the output move together down the rows, the
    weight and bias rows stay put. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 2000000 in
/-- What point `t` writes back is block `t` of the encoder of the entry arrays. -/
theorem flushed0_eq (c : Dev nD) (t : Fin cfg0.N) :
    (dat0 V c).flushed 3 t = ((cfg0.win 3).blk t).view.read (Elt Ideal) (Cert.Spec.enc (V c main_arg0) (V c main_arg3) (V c main_v5)) := by
  show (cfg0.win 3).cut (grid0.coords t) ((dat0 V c).after 3 t) = _
  rw [after0_3]
  unfold out0_3
  rw [View.canon_unit_zero zero_off0]
  simp only [View.ld_unit_zero (S := S2000x1) zero_off0, View.ld_unit_zero (S := S1x128) zero_off0]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q)
    = Cert.Spec.enc (V c main_arg0) (V c main_arg3) (V c main_v5) (((cfg0.win 3).blk t).view.emb (ix2 p q))
  rw [enc_pay_apply]
  unfold Cert.Spec.enc iblk0
  simp only [View.read_apply]
  obtain ⟨e00, e01, e10, e11, e20, e21, e30, e31⟩ := idx_facts0 t
  refine mul_add_congr _ _ _ _ _ _ (congrArg (V c main_arg0) ?_) (congrArg (V c main_arg3) ?_) (congrArg (V c main_v5) ?_)
  · funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 1 + 1 * 0 = 0; omega
  · funext a; apply Fin.ext
    match a with
    | ⟨0, _⟩ => show win0_1.index t (0 : Fin 2) * 1 + 1 * 0 = 0; omega
    | ⟨1, _⟩ => show win0_1.index t (1 : Fin 2) * 128 + 1 * q.val = win0_3.index t (1 : Fin 2) * 128 + 1 * q.val; omega
  · funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the array is in point `t`'s block iff each coordinate is in the block's range on its axis. -/
theorem mem_blk0 (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v6).slice (win0_3.rect t)).set ↔ _
  rw [View.set_slice_whole, Rect.mem_set_unit]
  exact Iff.rfl

/-- Every index of the array is in the block of the point its row falls in: row `r` is in tile `r / 2000`. -/
theorem cover0 (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  refine ⟨⟨(i 0).val / 2000, by show (i 0).val / 2000 < 10; omega⟩, flush0_3 _, ?_⟩
  rw [mem_blk0]
  obtain ⟨e00, e01, e10, e11, e20, e21, e30, e31⟩ := idx_facts0 ⟨(i 0).val / 2000, by show (i 0).val / 2000 < 10; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

/-- The array window 3 ends holding: the encoder of the feature column, the weight row and the bias row the region
    is entered with. -/
theorem out0 (c : Dev nD) : (dat0 V c).arrAt 3 cfg0.N = Cert.Spec.enc (V c main_arg0) (V c main_arg3) (V c main_v5) :=
  (dat0 V c).arrAt_eq_of_cover 3 (Cert.Spec.enc (V c main_arg0) (V c main_arg3) (V c main_v5)) (fun t _ => flushed0_eq V c t) cover0

end Cert.KernelIdeal.HandV
-- ==== Proof.KV.Pay1.lean ====
/-
  The arithmetic of region 1's body at an entry, over the extended reals: the tile of the dense map is, at row r and
  column j, the sum over k of z(r,k) · W(k,j) plus the bias b(j) (the narrowing casts around the product are the
  identity here); a running row after the body is what it held plus the tile's column sum at j, of y or of y².
-/
import proofs.«411025_j54640573939922_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen
open Idealize.ShloMosaic Idealize.ShloMosaic.ValueIdx

/-- The product's dimension numbers: rows × contraction times contraction × columns. -/
abbrev dot_1 : DotDims S2000x128 S128x128 S2000x128 := dot_S2000x128_S128x128_S2000x128_1_0_0_1_n_n

/-- The operand indices of the product at output entry `i` and contraction position `q`, axis by axis: the left operand
    is read at (row of `i`, `q`), the right at (`q`, column of `i`). -/
theorem lhs0_1 (i : S2000x128.Idx) (q : dot_1.contr.Idx) : (dot_1.lhsIdx i q 0).val = (i 0).val := by
  unfold DotDims.lhsIdx
  rw [dif_neg (show ¬(0 : Fin S2000x128.rank) ∈ dot_1.lhsBatch by decide), dif_pos (show (0 : Fin S2000x128.rank) ∈ dot_1.lhsNonContracting by decide)]
  rfl
theorem lhs1_1 (i : S2000x128.Idx) (q : dot_1.contr.Idx) : (dot_1.lhsIdx i q 1).val = (q ⟨0, by decide⟩).val :=
  dot_1.lhsIdx_val_of_single rfl i q
theorem rhs0_1 (i : S2000x128.Idx) (q : dot_1.contr.Idx) : (dot_1.rhsIdx i q 0).val = (q ⟨0, by decide⟩).val :=
  dot_1.rhsIdx_val_of_single rfl i q
theorem rhs1_1 (i : S2000x128.Idx) (q : dot_1.contr.Idx) : (dot_1.rhsIdx i q 1).val = (i 1).val := by
  unfold DotDims.rhsIdx
  rw [dif_neg (show ¬(1 : Fin S128x128.rank) ∈ dot_1.rhsBatch by decide), dif_pos (show (1 : Fin S128x128.rank) ∈ dot_1.rhsNonContracting by decide)]
  rfl

/-- The tile of the dense map at an entry. -/
theorem pay1_apply_1 (x0 : Vec Ideal S2000x128 .f32) (x1 : Vec Ideal S128x128 .f32) (x2 : Vec Ideal S1x128 .f32) (r : Fin 2000) (j : Fin 128) :
    k1_pay1 x0 x1 x2 (ix2 r j) = (∑ k : Fin 128, x0 (ix2 r k) * x1 (ix2 k j)) + x2 (ix2 0 j) := by
  unfold k1_pay1
  refine (addf_apply _ _ _).trans ?_
  congr 1
  · simp only [matmul]
    rw [Ideal.matmul_constant_zero_apply, ← Equiv.sum_comp (contrEquiv1 dot_1 128 rfl rfl).symm]
    refine Finset.sum_congr rfl fun k _ => ?_
    have hk := contrEquiv1_symm_val dot_1 128 rfl rfl k
    have el : dot_1.lhsIdx (ix2 r j) ((contrEquiv1 dot_1 128 rfl rfl).symm k) = ix2 r k := funext fun a => Fin.ext (by
      match a with
      | ⟨0, _⟩ => exact lhs0_1 _ _
      | ⟨1, _⟩ => exact (lhs1_1 _ _).trans hk)
    have er : dot_1.rhsIdx (ix2 r j) ((contrEquiv1 dot_1 128 rfl rfl).symm k) = ix2 k j := funext fun a => Fin.ext (by
      match a with
      | ⟨0, _⟩ => exact (rhs0_1 _ _).trans hk
      | ⟨1, _⟩ => exact rhs1_1 _ _)
    rw [el, er]
    simp only [truncf_apply, shapeCast_self]
  · rw [shapeCast_self]
    exact broadcastTo_apply x2 broadcasts_S1x128_S2000x128 (ix2 r j) (ix2 0 j) (fun a => by
      match a with
      | ⟨0, _⟩ => rfl
      | ⟨1, _⟩ => rfl)

/-- The zero row stored at the first tile. -/
theorem pay2_apply_1 (i : S1x128.Idx) : (k1_pay2 (F := Ideal)) i = 0 := by
  unfold k1_pay2
  exact Ideal.ofBits_zero_f32
theorem pay3_apply_1 (i : S1x128.Idx) : (k1_pay3 (F := Ideal)) i = 0 := by
  unfold k1_pay3
  exact Ideal.ofBits_zero_f32

/-- The source entry over column `j` with row `k` put back. -/
theorem lift_1 (j : Fin 128) (k : Fin 2000) : reduces_S2000x128_S128.lift (ix1 j) k = ix2 k j :=
  funext fun a => Fin.ext (by
    match a with
    | ⟨0, _⟩ => rfl
    | ⟨1, _⟩ => rfl)

/-- The running column sums after the body: what the row held plus the tile's column sums. -/
theorem pay4_apply_1 (x0 : Vec Ideal S2000x128 .f32) (x1 : Vec Ideal S128x128 .f32) (x2 : Vec Ideal S1x128 .f32) (acc : Vec Ideal S1x128 .f32) (u : Fin 1) (j : Fin 128) :
    k1_pay4 x0 x1 x2 acc (ix2 u j) = acc (ix2 u j) + ∑ r : Fin 2000, k1_pay1 x0 x1 x2 (ix2 r j) := by
  unfold k1_pay4
  refine (addf_apply _ _ _).trans ?_
  rw [shapeCast_self]
  congr 1
  refine (shapeCast_a_1a_apply _ shapeCasts_S128_S1x128 u j).trans ?_
  refine (Ideal.multiReduction_add_single (k1_pay1 x0 x1 x2) 0x00000000#32 reduces_S2000x128_S128 (.inl rfl) rfl (ix1 j)).trans ?_
  exact Finset.sum_congr rfl fun k _ => congrArg (k1_pay1 x0 x1 x2) (lift_1 j k)

/-- The running column sums of squares likewise. -/
theorem pay5_apply_1 (x0 : Vec Ideal S2000x128 .f32) (x1 : Vec Ideal S128x128 .f32) (x2 : Vec Ideal S1x128 .f32) (acc : Vec Ideal S1x128 .f32) (u : Fin 1) (j : Fin 128) :
    k1_pay5 x0 x1 x2 acc (ix2 u j) = acc (ix2 u j) + ∑ r : Fin 2000, k1_pay1 x0 x1 x2 (ix2 r j) * k1_pay1 x0 x1 x2 (ix2 r j) := by
  unfold k1_pay5
  refine (addf_apply _ _ _).trans ?_
  rw [shapeCast_self]
  congr 1
  refine (shapeCast_a_1a_apply _ shapeCasts_S128_S1x128 u j).trans ?_
  refine (Ideal.multiReduction_add_single (mulf (k1_pay1 x0 x1 x2) (k1_pay1 x0 x1 x2)) 0x00000000#32 reduces_S2000x128_S128 (.inl rfl) rfl (ix1 j)).trans ?_
  exact Finset.sum_congr rfl fun k _ => (mulf_apply _ _ _).trans (congrArg (fun i => k1_pay1 x0 x1 x2 i * k1_pay1 x0 x1 x2 i) (lift_1 j k))

end Cert.KernelIdeal.HandV

end
-- ==== Proof.KV.Piece1.lean ====
/-
  What each case of region 1's body leaves in the three outputs' staging buffers, as values: the tile y of the
  dense map; and for a running row, at the first tile zero plus the tile's column sums (the zero row is stored and
  read back), at a later tile what the row held plus the tile's column sums. For any float model.
-/
import proofs.«411025_j54640573939922_1_alg».proof.Proof.KI.Reg1
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz_1 : (![0, 0] : Fin 2 → Nat) = fun _ => 0 := funext fun a => by fin_cases a <;> rfl

/-- First tile: the tile of the dense map, -/
theorem out_A_3_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) :
    out1_A_3 c i arg1 harg1 arg2 harg2 arg3 harg3 arg4 harg4 arg5 harg5 arg6 harg6 hc0 x0 x1 x2 = k1_pay1 x0 x1 x2 := by
  unfold out1_A_3
  rw [View.read_writes_eq_canon _ _ _ (cover1_A_3 c i arg1 harg1 arg2 harg2 arg3 harg3 arg4 harg4 arg5 harg5 arg6 harg6 hc0 x0 x1 x2)]
  unfold kernelRun1_A
  dsimp only
  sl_unfold_words
  rw [View.canon_unit_zero hz_1]
  simp only [View.readAt_eq_ld, harg1.read_unread, harg2.read_unread, harg3.read_unread, View.ld_unit_zero (S := S2000x128) hz_1, View.ld_unit_zero (S := S128x128) hz_1, View.ld_unit_zero (S := S1x128) hz_1]

/-- zero plus its column sums, -/
theorem out_A_4_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) :
    out1_A_4 c i arg1 harg1 arg2 harg2 arg3 harg3 arg4 harg4 arg5 harg5 arg6 harg6 hc0 x0 x1 x2 = k1_pay4 x0 x1 x2 (k1_pay2 (F := F)) := by
  unfold out1_A_4
  rw [View.read_writes_eq_canon _ _ _ (cover1_A_4 c i arg1 harg1 arg2 harg2 arg3 harg3 arg4 harg4 arg5 harg5 arg6 harg6 hc0 x0 x1 x2)]
  unfold kernelRun1_A
  dsimp only
  sl_unfold_words
  rw [View.canon_cons_unit_zero (S := S1x128) hz_1, View.readCov_unit_zero (S := S1x128) _ hz_1]
  simp only [View.readAt_eq_ld, harg1.read_unread, harg2.read_unread, harg3.read_unread, View.ld_unit_zero (S := S2000x128) hz_1, View.ld_unit_zero (S := S128x128) hz_1, View.ld_unit_zero (S := S1x128) hz_1]

/-- zero plus the column sums of its squares. -/
theorem out_A_5_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (x0 : Vec F S2000x128 .f32) (x1 : Vec F S128x128 .f32) (x2 : Vec F S1x128 .f32) :
    out1_A_5 c i arg1 harg1 arg2 harg2 arg3 harg3 arg4 harg4 arg5 harg5 arg6 harg6 hc0 x0 x1 x2 = k1_pay5 x0 x1 x2 (k1_pay3 (F := F)) := by
  unfold out1_A_5
  rw [View.read_writes_eq_canon _ _ _ (cover1_A_5 c i arg1 harg1 arg2 harg2 arg3 harg3 arg4 harg4 arg5 harg5 arg6 harg6 hc0 x0 x1 x2)]
  unfold kernelRun1_A
  dsimp only
  sl_unfold_words
  rw [View.canon_cons_unit_zero (S := S1x128) hz_1, View.readCov_unit_zero (S := S1x128) _ hz_1]
  simp only [View.readAt_eq_ld, harg1.read_unread, harg2.read_unread, harg3.read_unread, View.ld_unit_zero (S := S2000x128) hz_1, View.ld_unit_zero (S := S128x128) hz_1, View.ld_unit_zero (S := S1x128) hz_1]

/-- A later tile: the tile of the dense map, -/
theorem out_B_3_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) :
    out1_B_3 c i arg1 harg1 arg2 harg2 arg3 harg3 arg4 harg4 arg5 harg5 arg6 harg6 hc0 x0 x1 x2 xo4 xo5 = k1_pay1 x0 x1 x2 := by
  unfold out1_B_3
  rw [View.read_writes_eq_canon _ _ _ (cover1_B_3 c i arg1 harg1 arg2 harg2 arg3 harg3 arg4 harg4 arg5 harg5 arg6 harg6 hc0 x0 x1 x2 xo4 xo5)]
  unfold kernelRun1_B
  dsimp only
  sl_unfold_words
  rw [View.canon_unit_zero hz_1]
  simp only [View.readAt_eq_ld, harg1.read_unread, harg2.read_unread, harg3.read_unread, harg5.read_unread, harg6.read_unread, View.ld_unit_zero (S := S2000x128) hz_1, View.ld_unit_zero (S := S128x128) hz_1, View.ld_unit_zero (S := S1x128) hz_1]

/-- the sums so far plus its column sums, -/
theorem out_B_4_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) :
    out1_B_4 c i arg1 harg1 arg2 harg2 arg3 harg3 arg4 harg4 arg5 harg5 arg6 harg6 hc0 x0 x1 x2 xo4 xo5 = k1_pay4 x0 x1 x2 xo4 := by
  unfold out1_B_4
  rw [View.read_writes_eq_canon _ _ _ (cover1_B_4 c i arg1 harg1 arg2 harg2 arg3 harg3 arg4 harg4 arg5 harg5 arg6 harg6 hc0 x0 x1 x2 xo4 xo5)]
  unfold kernelRun1_B
  dsimp only
  sl_unfold_words
  rw [View.canon_unit_zero hz_1]
  simp only [View.readAt_eq_ld, harg1.read_unread, harg2.read_unread, harg3.read_unread, harg5.read_unread, harg6.read_unread, View.ld_unit_zero (S := S2000x128) hz_1, View.ld_unit_zero (S := S128x128) hz_1, View.ld_unit_zero (S := S1x128) hz_1]

/-- the sums of squares so far plus the column sums of its squares. -/
theorem out_B_5_1 (c : Dev nD) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (x0 : Vec F S2000x128 .f32) (x1 : Vec F S128x128 .f32) (x2 : Vec F S1x128 .f32) (xo4 : Vec F S1x128 .f32) (xo5 : Vec F S1x128 .f32) :
    out1_B_5 c i arg1 harg1 arg2 harg2 arg3 harg3 arg4 harg4 arg5 harg5 arg6 harg6 hc0 x0 x1 x2 xo4 xo5 = k1_pay5 x0 x1 x2 xo5 := by
  unfold out1_B_5
  rw [View.read_writes_eq_canon _ _ _ (cover1_B_5 c i arg1 harg1 arg2 harg2 arg3 harg3 arg4 harg4 arg5 harg5 arg6 harg6 hc0 x0 x1 x2 xo4 xo5)]
  unfold kernelRun1_B
  dsimp only
  sl_unfold_words
  rw [View.canon_unit_zero hz_1]
  simp only [View.readAt_eq_ld, harg1.read_unread, harg2.read_unread, harg3.read_unread, harg5.read_unread, harg6.read_unread, View.ld_unit_zero (S := S2000x128) hz_1, View.ld_unit_zero (S := S128x128) hz_1, View.ld_unit_zero (S := S1x128) hz_1]

end Cert.KernelIdeal.HandV

end
-- ==== Proof.KV.Val1.lean ====
/-
  What region 1 leaves in its three result arrays, over the extended reals, as functions of the arrays it reads:
  the dense map y = z · W + b of all twenty thousand rows (each tile's write-back is that tile of y, and the ten
  tiles cover the array); the column sums of y taken tile by tile; and the column sums of y² likewise. The running
  rows are handled by induction on the tile: after tile n the row holds the sum over tiles 0..n of the tile's
  column sums (zero plus the first tile's at the start); only the last tile's contents are written back.
-/
import proofs.«411025_j54640573939922_1_alg».proof.Proof.KV.Pay1
import proofs.«411025_j54640573939922_1_alg».proof.Proof.KV.Piece1
import proofs.«411025_j54640573939922_1_alg».proof.Proof.Math.Spec
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The arrays the region reads: the rows z, the weights W, the bias b; and the dense map of them. -/
abbrev zarr_1 (c : Dev nD) : Cert.Spec.SNH.Idx → EReal := V c main_v22
abbrev warr_1 (c : Dev nD) : Cert.Spec.SHH.Idx → EReal := V c main_v27
abbrev barr_1 (c : Dev nD) : Cert.Spec.S1H.Idx → EReal := V c main_v25
abbrev yarr_1 (c : Dev nD) : Cert.Spec.SNH.Idx → EReal := Cert.Spec.lin (zarr_1 V c) (warr_1 V c) (barr_1 V c)

/-- The three input blocks at tile `t`, at their literal shapes. -/
abbrev zblk_1 (c : Dev nD) (t : Fin cfg1.N) : Vec Ideal S2000x128 .f32 := iblk1 V c 0 t
abbrev wblk_1 (c : Dev nD) (t : Fin cfg1.N) : Vec Ideal S128x128 .f32 := iblk1 V c 1 t
abbrev bblk_1 (c : Dev nD) (t : Fin cfg1.N) : Vec Ideal S1x128 .f32 := iblk1 V c 2 t

/-- The block index of every window at tile `t`: the rows' and the result tile's move with `t`, the others stay. -/
theorem idx_1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- A grid point as one of the ten tiles. -/
abbrev tile_1 (t : Fin cfg1.N) : Fin 10 := ⟨t.val, lt_of_lt_of_eq t.isLt (show cfg1.N = 10 from N_1)⟩

/-- The blocks read through their windows: row `r` of tile `t` is row `2000 t + r` of z; W and b are read whole. -/
theorem zblk_apply_1 (c : Dev nD) (t : Fin cfg1.N) (r : Fin 2000) (k : Fin 128) :
    zblk_1 V c t (ix2 r k) = zarr_1 V c (ix2 (Cert.Spec.row (tile_1 t) r) k) := by
  obtain ⟨e0, e1, -⟩ := idx_1 t
  show ((cfg1.win 0).blk t).view.read (Elt Ideal) (V c main_v22) (ix2 r k) = V c main_v22 _
  rw [View.read_apply]
  have he : ((cfg1.win 0).blk t).view.emb (ix2 r k) = ix2 (Cert.Spec.row (tile_1 t) r) k := by
    funext a
    apply Fin.ext
    match a with
    | ⟨0, _⟩ => show win1_0.index t 0 * 2000 + 1 * r.val = 2000 * t.val + r.val; rw [e0]; omega
    | ⟨1, _⟩ => show win1_0.index t 1 * 128 + 1 * k.val = k.val; rw [e1]; omega
  exact congrArg (V c main_v22) he

theorem wblk_apply_1 (c : Dev nD) (t : Fin cfg1.N) (k : Fin 128) (j : Fin 128) :
    wblk_1 V c t (ix2 k j) = warr_1 V c (ix2 k j) := by
  obtain ⟨-, -, e2, e3, -⟩ := idx_1 t
  show ((cfg1.win 1).blk t).view.read (Elt Ideal) (V c main_v27) (ix2 k j) = V c main_v27 _
  rw [View.read_apply]
  have he : ((cfg1.win 1).blk t).view.emb (ix2 k j) = ix2 k j := by
    funext a
    apply Fin.ext
    match a with
    | ⟨0, _⟩ => show win1_1.index t 0 * 128 + 1 * k.val = k.val; rw [e2]; omega
    | ⟨1, _⟩ => show win1_1.index t 1 * 128 + 1 * j.val = j.val; rw [e3]; omega
  exact congrArg (V c main_v27) he

theorem bblk_apply_1 (c : Dev nD) (t : Fin cfg1.N) (u : Fin 1) (j : Fin 128) :
    bblk_1 V c t (ix2 u j) = barr_1 V c (ix2 0 j) := by
  obtain ⟨-, -, -, -, e4, e5, -⟩ := idx_1 t
  show ((cfg1.win 2).blk t).view.read (Elt Ideal) (V c main_v25) (ix2 u j) = V c main_v25 _
  rw [View.read_apply]
  have he : ((cfg1.win 2).blk t).view.emb (ix2 u j) = ix2 0 j := by
    funext a
    apply Fin.ext
    match a with
    | ⟨0, _⟩ => show win1_2.index t 0 * 1 + 1 * u.val = 0; rw [e4]; omega
    | ⟨1, _⟩ => show win1_2.index t 1 * 128 + 1 * j.val = j.val; rw [e5]; omega
  exact congrArg (V c main_v25) he

/-- The body's tile is tile `t` of the dense map. -/
theorem tile_eq_1 (c : Dev nD) (t : Fin cfg1.N) (r : Fin 2000) (j : Fin 128) :
    k1_pay1 (zblk_1 V c t) (wblk_1 V c t) (bblk_1 V c t) (ix2 r j) = yarr_1 V c (ix2 (Cert.Spec.row (tile_1 t) r) j) := by
  refine (pay1_apply_1 (zblk_1 V c t) (wblk_1 V c t) (bblk_1 V c t) r j).trans ?_
  show _ = (∑ k : Fin 128, zarr_1 V c (ix2 (Cert.Spec.row (tile_1 t) r) k) * warr_1 V c (ix2 k j)) + barr_1 V c (ix2 0 j)
  rw [bblk_apply_1 V c t 0 j]
  congr 1
  exact Finset.sum_congr rfl fun k _ => by rw [zblk_apply_1 V c t r k, wblk_apply_1 V c t k j]

/-! ## The dense map's array -/

/-- After any tile the result window's buffer holds the body's tile. -/
theorem after3_eq_1 (c : Dev nD) (t : Fin cfg1.N) :
    (dat1 V c).after 3 t = k1_pay1 (zblk_1 V c t) (wblk_1 V c t) (bblk_1 V c t) := by
  rw [after1_3]
  by_cases h0 : t.val % 10 = 0
  · rw [outsAt1_A V c t h0]; dsimp only
    exact out_A_3_1 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]; dsimp only
    exact out_B_3_1 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- What tile `t` writes back is block `t` of the dense map. -/
theorem flushed3_eq_1 (c : Dev nD) (t : Fin cfg1.N) :
    (dat1 V c).flushed 3 t = ((cfg1.win 3).blk t).view.read (Elt Ideal) (yarr_1 V c) := by
  show (cfg1.win 3).cut (grid1.coords t) ((dat1 V c).after 3 t) = _
  rw [after3_eq_1]
  obtain ⟨-, -, -, -, -, -, e6, e7, -⟩ := idx_1 t
  funext y
  obtain ⟨r, j, rfl⟩ : ∃ (r : Fin 2000) (j : Fin 128), y = ix2 r j := ⟨y 0, y 1, eq_ix2 y⟩
  show k1_pay1 (zblk_1 V c t) (wblk_1 V c t) (bblk_1 V c t) (ix2 r j) = yarr_1 V c (((cfg1.win 3).blk t).view.emb (ix2 r j))
  rw [tile_eq_1]
  congr 1
  funext a
  apply Fin.ext
  match a with
  | ⟨0, _⟩ => show 2000 * t.val + r.val = win1_3.index t 0 * 2000 + 1 * r.val; rw [e6]; omega
  | ⟨1, _⟩ => show j.val = win1_3.index t 1 * 128 + 1 * j.val; rw [e7]; omega

/-- The array of the dense map after the region: the ten tiles' write-backs cover it. -/
theorem y1_1 (c : Dev nD) : (dat1 V c).arrAt 3 cfg1.N = Cert.Spec.lin (V c main_v22) (V c main_v27) (V c main_v25) :=
  (dat1 V c).arrAt_eq_of_cover 3 (yarr_1 V c) (fun t _ => flushed3_eq_1 V c t) fun i => by
    have hi0 : (i 0).val < 20000 := (i 0).isLt
    have hi1 : (i 1).val < 128 := (i 1).isLt
    have hN : cfg1.N = 10 := N_1
    obtain ⟨t, ht⟩ : ∃ t : Fin cfg1.N, t.val = (i 0).val / 2000 := ⟨⟨(i 0).val / 2000, by omega⟩, rfl⟩
    obtain ⟨-, -, -, -, -, -, e6, e7, -⟩ := idx_1 t
    refine ⟨t, flush1_3 t, ?_⟩
    show i ∈ ((View.whole main_v28_0).slice (win1_3.rect t)).set
    rw [View.set_slice_whole, Rect.mem_set_unit]
    intro a
    match a with
    | ⟨0, _⟩ => show win1_3.index t 0 * 2000 ≤ (i 0).val ∧ (i 0).val < win1_3.index t 0 * 2000 + 2000; rw [e6]; omega
    | ⟨1, _⟩ => show win1_3.index t 1 * 128 ≤ (i 1).val ∧ (i 1).val < win1_3.index t 1 * 128 + 128; rw [e7]; omega

/-! ## The two running rows -/

/-- Column `j`'s sum over tile `k` of an array of all the rows (nothing past the tenth tile). -/
def tileSum_1 (y : Cert.Spec.SNH.Idx → EReal) (j : Fin 128) (k : ℕ) : EReal :=
  if h : k < 10 then ∑ r : Fin 2000, y (ix2 (Cert.Spec.row ⟨k, h⟩ r) j) else 0

/-- One step of each row at tile `t`: what it held plus that tile's column sum. -/
theorem step4_1 (c : Dev nD) (t : Fin cfg1.N) (acc : Vec Ideal S1x128 .f32) (u : Fin 1) (j : Fin 128) :
    k1_pay4 (zblk_1 V c t) (wblk_1 V c t) (bblk_1 V c t) acc (ix2 u j) = acc (ix2 u j) + tileSum_1 (yarr_1 V c) j t.val := by
  refine (pay4_apply_1 (zblk_1 V c t) (wblk_1 V c t) (bblk_1 V c t) acc u j).trans ?_
  congr 1
  unfold tileSum_1
  rw [dif_pos (lt_of_lt_of_eq t.isLt (show cfg1.N = 10 from N_1))]
  exact Finset.sum_congr rfl fun r _ => tile_eq_1 V c t r j

theorem step5_1 (c : Dev nD) (t : Fin cfg1.N) (acc : Vec Ideal S1x128 .f32) (u : Fin 1) (j : Fin 128) :
    k1_pay5 (zblk_1 V c t) (wblk_1 V c t) (bblk_1 V c t) acc (ix2 u j)
      = acc (ix2 u j) + tileSum_1 (fun a => yarr_1 V c a * yarr_1 V c a) j t.val := by
  refine (pay5_apply_1 (zblk_1 V c t) (wblk_1 V c t) (bblk_1 V c t) acc u j).trans ?_
  congr 1
  unfold tileSum_1
  rw [dif_pos (lt_of_lt_of_eq t.isLt (show cfg1.N = 10 from N_1))]
  exact Finset.sum_congr rfl fun r _ => by rw [tile_eq_1 V c t r j]

/-- What the rows' buffers hold after tile `t`, case by case. -/
theorem after4_A_1 (c : Dev nD) (t : Fin cfg1.N) (h0 : t.val % 10 = 0) :
    (outsAt1 V c t.val t.isLt).2.1 = k1_pay4 (zblk_1 V c t) (wblk_1 V c t) (bblk_1 V c t) (k1_pay2 (F := Ideal)) := by
  rw [outsAt1_A V c t h0]; dsimp only
  exact out_A_4_1 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
theorem after4_B_1 (c : Dev nD) (t : Fin cfg1.N) (h0 : ¬t.val % 10 = 0) :
    (outsAt1 V c t.val t.isLt).2.1 = k1_pay4 (zblk_1 V c t) (wblk_1 V c t) (bblk_1 V c t) (outsAt1 V c (t.val - 1) (Nat.lt_of_le_of_lt (Nat.sub_le _ _) t.isLt)).2.1 := by
  rw [outsAt1_B V c t h0]; dsimp only
  exact out_B_4_1 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2
theorem after5_A_1 (c : Dev nD) (t : Fin cfg1.N) (h0 : t.val % 10 = 0) :
    (outsAt1 V c t.val t.isLt).2.2 = k1_pay5 (zblk_1 V c t) (wblk_1 V c t) (bblk_1 V c t) (k1_pay3 (F := Ideal)) := by
  rw [outsAt1_A V c t h0]; dsimp only
  exact out_A_5_1 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
theorem after5_B_1 (c : Dev nD) (t : Fin cfg1.N) (h0 : ¬t.val % 10 = 0) :
    (outsAt1 V c t.val t.isLt).2.2 = k1_pay5 (zblk_1 V c t) (wblk_1 V c t) (bblk_1 V c t) (outsAt1 V c (t.val - 1) (Nat.lt_of_le_of_lt (Nat.sub_le _ _) t.isLt)).2.2 := by
  rw [outsAt1_B V c t h0]; dsimp only
  exact out_B_5_1 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After tile `n` the row of sums holds the sum over tiles `0..n` of the tile's column sums: by induction on the tile. -/
theorem acc4_1 (c : Dev nD) : ∀ (n : ℕ) (h : n < cfg1.N) (u : Fin 1) (j : Fin 128),
    ((outsAt1 V c n h).2.1 : Vec Ideal S1x128 .f32) (ix2 u j) = ∑ k ∈ Finset.range (n + 1), tileSum_1 (yarr_1 V c) j k
  | 0, h, u, j => by
    refine (congrFun (after4_A_1 V c ⟨0, h⟩ rfl) (ix2 u j)).trans ?_
    rw [step4_1 V c ⟨0, h⟩, pay2_apply_1, zero_add, Finset.sum_range_one]
  | n + 1, h, u, j => by
    have hN : cfg1.N = 10 := N_1
    have hB : ¬(⟨n + 1, h⟩ : Fin cfg1.N).val % 10 = 0 := by dsimp only; omega
    refine (congrFun (after4_B_1 V c ⟨n + 1, h⟩ hB) (ix2 u j)).trans ?_
    rw [step4_1 V c ⟨n + 1, h⟩, Finset.sum_range_succ]
    congr 1
    exact acc4_1 c n _ u j

/-- The row of sums of squares likewise. -/
theorem acc5_1 (c : Dev nD) : ∀ (n : ℕ) (h : n < cfg1.N) (u : Fin 1) (j : Fin 128),
    ((outsAt1 V c n h).2.2 : Vec Ideal S1x128 .f32) (ix2 u j)
      = ∑ k ∈ Finset.range (n + 1), tileSum_1 (fun a => yarr_1 V c a * yarr_1 V c a) j k
  | 0, h, u, j => by
    refine (congrFun (after5_A_1 V c ⟨0, h⟩ rfl) (ix2 u j)).trans ?_
    rw [step5_1 V c ⟨0, h⟩, pay3_apply_1, zero_add, Finset.sum_range_one]
  | n + 1, h, u, j => by
    have hN : cfg1.N = 10 := N_1
    have hB : ¬(⟨n + 1, h⟩ : Fin cfg1.N).val % 10 = 0 := by dsimp only; omega
    refine (congrFun (after5_B_1 V c ⟨n + 1, h⟩ hB) (ix2 u j)).trans ?_
    rw [step5_1 V c ⟨n + 1, h⟩, Finset.sum_range_succ]
    congr 1
    exact acc5_1 c n _ u j

/-- The sum over the ten tiles, tile by tile, is the tiled column sum. -/
theorem tileSum_total_1 (y : Cert.Spec.SNH.Idx → EReal) (j : Fin 128) :
    ∑ k ∈ Finset.range 10, tileSum_1 y j k = ∑ t : Fin 10, ∑ r : Fin 2000, y (ix2 (Cert.Spec.row t r) j) := by
  rw [← Fin.sum_univ_eq_sum_range (fun k => tileSum_1 y j k) 10]
  exact Finset.sum_congr rfl fun k _ => by unfold tileSum_1; rw [dif_pos k.isLt]

/-- The one write-back of the row of sums, after the last tile, writes the tiled column sums of the dense map. -/
theorem flushed4_eq_1 (c : Dev nD) (t : Fin cfg1.N) (hf : (cfg1.win 4).flush t = true) :
    (dat1 V c).flushed 4 t = ((cfg1.win 4).blk t).view.read (Elt Ideal) (Cert.Spec.colsumT (yarr_1 V c)) := by
  have hN : cfg1.N = 10 := N_1
  have h9 : t.val = 9 := by have := (flush1_4 t).mp hf; have := t.isLt; omega
  obtain ⟨-, -, -, -, -, -, -, -, e8, e9, -⟩ := idx_1 t
  show (cfg1.win 4).cut (grid1.coords t) ((dat1 V c).after 4 t) = _
  rw [after1_4]
  funext y
  obtain ⟨u, j, rfl⟩ : ∃ (u : Fin 1) (j : Fin 128), y = ix2 u j := ⟨y 0, y 1, eq_ix2 y⟩
  have hemb : (((cfg1.win 4).blk t).view.emb (ix2 u j)) 1 = j :=
    Fin.ext (by show win1_4.index t 1 * 128 + 1 * j.val = j.val; rw [e9]; omega)
  show (outsAt1 V c t.val t.isLt).2.1 (ix2 u j)
    = ∑ t' : Fin 10, ∑ r : Fin 2000, yarr_1 V c (ix2 (Cert.Spec.row t' r) ((((cfg1.win 4).blk t).view.emb (ix2 u j)) 1))
  rw [hemb, acc4_1 V c t.val t.isLt u j, h9]
  exact tileSum_total_1 (yarr_1 V c) j

theorem flushed5_eq_1 (c : Dev nD) (t : Fin cfg1.N) (hf : (cfg1.win 5).flush t = true) :
    (dat1 V c).flushed 5 t = ((cfg1.win 5).blk t).view.read (Elt Ideal)
      (Cert.Spec.colsumT (fun a => yarr_1 V c a * yarr_1 V c a)) := by
  have hN : cfg1.N = 10 := N_1
  have h9 : t.val = 9 := by have := (flush1_5 t).mp hf; have := t.isLt; omega
  obtain ⟨-, -, -, -, -, -, -, -, -, -, e10, e11⟩ := idx_1 t
  show (cfg1.win 5).cut (grid1.coords t) ((dat1 V c).after 5 t) = _
  rw [after1_5]
  funext y
  obtain ⟨u, j, rfl⟩ : ∃ (u : Fin 1) (j : Fin 128), y = ix2 u j := ⟨y 0, y 1, eq_ix2 y⟩
  have hemb : (((cfg1.win 5).blk t).view.emb (ix2 u j)) 1 = j :=
    Fin.ext (by show win1_5.index t 1 * 128 + 1 * j.val = j.val; rw [e11]; omega)
  show (outsAt1 V c t.val t.isLt).2.2 (ix2 u j)
    = ∑ t' : Fin 10, ∑ r : Fin 2000, (fun a => yarr_1 V c a * yarr_1 V c a) (ix2 (Cert.Spec.row t' r) ((((cfg1.win 5).blk t).view.emb (ix2 u j)) 1))
  rw [hemb, acc5_1 V c t.val t.isLt u j, h9]
  exact tileSum_total_1 (fun a => yarr_1 V c a * yarr_1 V c a) j

/-- The array of column sums after the region. -/
theorem sum_1 (c : Dev nD) : (dat1 V c).arrAt 4 cfg1.N = Cert.Spec.colsumT (Cert.Spec.lin (V c main_v22) (V c main_v27) (V c main_v25)) :=
  (dat1 V c).arrAt_eq_of_cover 4 (Cert.Spec.colsumT (yarr_1 V c)) (flushed4_eq_1 V c) fun i => by
    have hi0 : (i 0).val < 1 := (i 0).isLt
    have hi1 : (i 1).val < 128 := (i 1).isLt
    have hN : cfg1.N = 10 := N_1
    obtain ⟨t, ht⟩ : ∃ t : Fin cfg1.N, t.val = 9 := ⟨⟨9, by omega⟩, rfl⟩
    obtain ⟨-, -, -, -, -, -, -, -, e8, e9, -⟩ := idx_1 t
    refine ⟨t, (flush1_4 t).mpr (by rw [ht]), ?_⟩
    show i ∈ ((View.whole main_v28_1).slice (win1_4.rect t)).set
    rw [View.set_slice_whole, Rect.mem_set_unit]
    intro a
    match a with
    | ⟨0, _⟩ => show win1_4.index t 0 * 1 ≤ (i 0).val ∧ (i 0).val < win1_4.index t 0 * 1 + 1; rw [e8]; omega
    | ⟨1, _⟩ => show win1_4.index t 1 * 128 ≤ (i 1).val ∧ (i 1).val < win1_4.index t 1 * 128 + 128; rw [e9]; omega

/-- The array of column sums of squares after the region. -/
theorem sumsq_1 (c : Dev nD) : (dat1 V c).arrAt 5 cfg1.N = Cert.Spec.colsumT (fun a => Cert.Spec.lin (V c main_v22) (V c main_v27) (V c main_v25) a * Cert.Spec.lin (V c main_v22) (V c main_v27) (V c main_v25) a) :=
  (dat1 V c).arrAt_eq_of_cover 5 (Cert.Spec.colsumT (fun a => yarr_1 V c a * yarr_1 V c a)) (flushed5_eq_1 V c) fun i => by
    have hi0 : (i 0).val < 1 := (i 0).isLt
    have hi1 : (i 1).val < 128 := (i 1).isLt
    have hN : cfg1.N = 10 := N_1
    obtain ⟨t, ht⟩ : ∃ t : Fin cfg1.N, t.val = 9 := ⟨⟨9, by omega⟩, rfl⟩
    obtain ⟨-, -, -, -, -, -, -, -, -, -, e10, e11⟩ := idx_1 t
    refine ⟨t, (flush1_5 t).mpr (by rw [ht]), ?_⟩
    show i ∈ ((View.whole main_v28_2).slice (win1_5.rect t)).set
    rw [View.set_slice_whole, Rect.mem_set_unit]
    intro a
    match a with
    | ⟨0, _⟩ => show win1_5.index t 0 * 1 ≤ (i 0).val ∧ (i 0).val < win1_5.index t 0 * 1 + 1; rw [e10]; omega
    | ⟨1, _⟩ => show win1_5.index t 1 * 128 ≤ (i 1).val ∧ (i 1).val < win1_5.index t 1 * 128 + 128; rw [e11]; omega

end Cert.KernelIdeal.HandV

end
-- ==== Proof.KV.Val2M.lean ====
import proofs.«411025_j54640573939922_1_alg».proof.Proof.Gen.KernelIdeal.Skeleton
import proofs.«411025_j54640573939922_1_alg».proof.Proof.Math.Spec
import Idealize.ShloMosaic.Lib.ValueIdx
import Idealize.ShloMosaic.Lib.ValueLayout
import Idealize.ShloMosaic.PureOps.Ideal.Laws

/-! The arithmetic of region 2's body over the extended reals, entry by entry: the product tile is
    (sum over k of a(r,k) * W(k,j)) + b(j) with a the normalised, rectified activation, and each running row
    gains, at column j, the sum over the tile's 2000 rows of the product tile (or of its square). -/

noncomputable section

namespace Cert.KernelIdeal.HandV

open Cert.KernelIdeal Cert.KernelIdeal.Gen
open Idealize.ShloMosaic Idealize.ShloMosaic.ValueIdx
open scoped BigOperators

/-- The normalised, rectified activation at row r and feature k of a tile. -/
def act2 (y : Vec Ideal S2000x128 .f32) (mean var g be : Vec Ideal S1x128 .f32) (r : Fin 2000) (k : Fin 128) : EReal :=
  max ((g (ix2 0 k) * (y (ix2 r k) - mean (ix2 0 k))) * Ideal.rsqrt (var (ix2 0 k) + Cert.Spec.cEps) + be (ix2 0 k)) Cert.Spec.cZero

/-- Where the product at (r, j) and contraction index k reads its factors: (r, k) on the left, (k, j) on the right. -/
theorem lhs2_0 (j : S2000x128.Idx) (k : dot_S2000x128_S128x128_S2000x128_1_0_0_1_n_n.contr.Idx) :
    (dot_S2000x128_S128x128_S2000x128_1_0_0_1_n_n.lhsIdx j k 0).val = (j 0).val := rfl
theorem lhs2_1 (j : S2000x128.Idx) (k : dot_S2000x128_S128x128_S2000x128_1_0_0_1_n_n.contr.Idx) :
    (dot_S2000x128_S128x128_S2000x128_1_0_0_1_n_n.lhsIdx j k 1).val = (k ⟨0, by decide⟩).val := rfl
theorem rhs2_0 (j : S2000x128.Idx) (k : dot_S2000x128_S128x128_S2000x128_1_0_0_1_n_n.contr.Idx) :
    (dot_S2000x128_S128x128_S2000x128_1_0_0_1_n_n.rhsIdx j k 0).val = (k ⟨0, by decide⟩).val := rfl
theorem rhs2_1 (j : S2000x128.Idx) (k : dot_S2000x128_S128x128_S2000x128_1_0_0_1_n_n.contr.Idx) :
    (dot_S2000x128_S128x128_S2000x128_1_0_0_1_n_n.rhsIdx j k 1).val = (j 1).val := rfl

/-- The tile product into a zero accumulator, at row r and column j: the sum over the 128 contracted features. -/
theorem matmul2_apply {φ₁ φ₂ : FTy} (a : FVec Ideal S2000x128 φ₁) (w : FVec Ideal S128x128 φ₂) (r : Fin 2000) (j : Fin 128) :
    FloatOps.matmul dot_S2000x128_S128x128_S2000x128_1_0_0_1_n_n none a w (constant S2000x128 .f32 0x00000000#32) (ix2 r j)
      = ∑ k : Fin 128, a (ix2 r k) * w (ix2 k j) := by
  refine (Ideal.matmul_constant_zero_apply _ _ a w (ix2 r j)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r j) ((contrEquiv1 dot_S2000x128_S128x128_S2000x128_1_0_0_1_n_n 128 rfl rfl).symm k) = ix2 r k :=
    funext fun d => Fin.ext (by
      match d with
      | ⟨0, _⟩ => exact lhs2_0 _ _
      | ⟨1, _⟩ => exact (lhs2_1 _ _).trans hk)
  have hr : dot_S2000x128_S128x128_S2000x128_1_0_0_1_n_n.rhsIdx (ix2 r j) ((contrEquiv1 dot_S2000x128_S128x128_S2000x128_1_0_0_1_n_n 128 rfl rfl).symm k) = ix2 k j :=
    funext fun d => Fin.ext (by
      match d with
      | ⟨0, _⟩ => exact (rhs2_0 _ _).trans hk
      | ⟨1, _⟩ => exact rhs2_1 _ _)
  rw [hl, hr]

/-- One row of 128 numbers laid over the tile's rows, read at (r, k): its entry k. -/
theorem rowOver2 (v : Vec Ideal S1x128 .f32) (hs : S1x128.ShapeCasts S1x128) (hb : S1x128.Broadcasts S2000x128) (r : Fin 2000) (k : Fin 128) :
    broadcastTo S2000x128 (shapeCast S1x128 v hs) hb (ix2 r k) = v (ix2 0 k) :=
  (broadcastTo_1b_ab_apply (shapeCast S1x128 v hs) hb r k).trans (congrFun (shapeCast_self v hs) (ix2 0 k))

/-- The sum of a tile's column j over its 2000 rows, laid out as a row of 128. -/
theorem colOf2 (src : FVec Ideal S2000x128 .f32) (h : S2000x128.Reduces [0] S128) (hφ : FKind.Formats .f32)
    (hacc : (0x00000000#32 : BitVec FTy.f32.bits) = FKind.add.neutral .f32 hφ) (hc : S128.ShapeCasts S1x128) (j : Fin 128) :
    shapeCast S1x128 (multiReduction .add [0] S128 src 0x00000000#32 h hφ hacc) hc (ix2 0 j) = ∑ r : Fin 2000, src (ix2 r j) := by
  refine (shapeCast_a_1a_apply _ hc 0 j).trans ?_
  refine (Ideal.multiReduction_add_single src 0x00000000#32 h hφ hacc (ix1 j)).trans ?_
  refine Finset.sum_congr rfl fun r _ => congrArg src ?_
  funext d
  match d with
  | ⟨0, _⟩ => rfl
  | ⟨1, _⟩ => rfl

/-- The product tile at row r and column j: the activations of row r against column j of the weights, plus the bias. -/
theorem k2_pay3_apply (x0 : Vec Ideal S2000x128 .f32) (x1 x2 x3 x4 : Vec Ideal S1x128 .f32) (x5 : Vec Ideal S128x128 .f32)
    (x6 : Vec Ideal S1x128 .f32) (r : Fin 2000) (j : Fin 128) :
    k2_pay3 (F := Ideal) x0 x1 x2 x3 x4 x5 x6 (ix2 r j)
      = (∑ k : Fin 128, act2 x0 x1 x2 x3 x4 r k * x5 (ix2 k j)) + x6 (ix2 0 j) := by
  unfold k2_pay3
  refine (addf_apply _ _ (ix2 r j)).trans ?_
  refine congrArg₂ (· + ·) ((matmul2_apply _ _ r j).trans (Finset.sum_congr rfl fun k _ => ?_)) (rowOver2 x6 _ _ r j)
  refine congrArg₂ (· * ·) ?_ (congrFun (shapeCast_self x5 _) (ix2 k j))
  unfold act2
  refine congrArg₂ max ?_ rfl
  refine congrArg₂ (· + ·) (congrArg₂ (· * ·) (congrArg₂ (· * ·) (rowOver2 x3 _ _ r k) (congrArg₂ (· - ·) (congrFun (shapeCast_self x0 _) (ix2 r k)) (rowOver2 x1 _ _ r k))) ?_) (rowOver2 x4 _ _ r k)
  refine (broadcastTo_1b_ab_apply _ _ r k).trans ?_
  show Ideal.rsqrt (shapeCast S1x128 x2 _ (ix2 0 k) + _) = _
  rw [shapeCast_self]
  rfl

/-- A running row after the body: what it held, plus the column sums of the product tile. -/
theorem k2_pay1_apply (y : FVec Ideal S2000x128 .f32) (acc : Vec Ideal S1x128 .f32) (j : Fin 128) :
    k2_pay1 (F := Ideal) y acc (ix2 0 j) = acc (ix2 0 j) + ∑ r : Fin 2000, y (ix2 r j) := by
  unfold k2_pay1
  refine (addf_apply _ _ (ix2 0 j)).trans ?_
  exact congrArg₂ (· + ·) (congrFun (shapeCast_self acc _) (ix2 0 j)) (colOf2 y _ _ _ _ j)

/-- The same for the squares. -/
theorem k2_pay2_apply (y : FVec Ideal S2000x128 .f32) (acc : Vec Ideal S1x128 .f32) (j : Fin 128) :
    k2_pay2 (F := Ideal) y acc (ix2 0 j) = acc (ix2 0 j) + ∑ r : Fin 2000, y (ix2 r j) * y (ix2 r j) := by
  unfold k2_pay2
  refine (addf_apply _ _ (ix2 0 j)).trans ?_
  exact congrArg₂ (· + ·) (congrFun (shapeCast_self acc _) (ix2 0 j)) (colOf2 (mulf y y) _ _ _ _ j)

/-- The cleared rows hold zero. -/
theorem k2_pay4_apply (i : S1x128.Idx) : k2_pay4 (F := Ideal) i = 0 := by
  unfold k2_pay4
  exact Ideal.ofBits_zero_f32
theorem k2_pay5_apply (i : S1x128.Idx) : k2_pay5 (F := Ideal) i = 0 := by
  unfold k2_pay5
  exact Ideal.ofBits_zero_f32

end Cert.KernelIdeal.HandV

end
-- ==== Proof.KV.Val2.lean ====
import proofs.«411025_j54640573939922_1_alg».proof.Proof.KI.Reg2
import proofs.«411025_j54640573939922_1_alg».proof.Proof.KV.Val2M
import Idealize.ShloMosaic.Lib.Pipeline.Value
import Idealize.ShloMosaic.Lib.Tactic

/-! What region 2 leaves in its three result arrays, over the extended reals: the product array is the dense
    layer of the normalised, rectified first-stage output; the two rows are its column sums and the column sums of
    its square, each taken tile by tile in tile order. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.Tactic
open Idealize.SL.Sem
open Idealize.ShloMosaic.Pipeline (Dat)
open scoped BigOperators

theorem hz2 : (![0, 0] : Fin 2 → Nat) = fun _ => 0 := funext fun a => by fin_cases a <;> rfl

section AnyValues
variable {F : FTy → Type} [FloatOps F]

/-! ## What the runs found, as values -/

/-- On the first tile the product tile's buffer ends with one store of the whole tile: the body's arithmetic of the seven loaded blocks. -/
theorem out2_A_7_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out2_A_7 c i arg1 harg1 arg2 harg2 arg3 harg3 arg4 harg4 arg5 harg5 arg6 harg6 arg7 harg7 arg8 harg8 arg9 harg9 arg10 harg10 hc0 x0 x1 x2 x3 x4 x5 x6 = k2_pay3 x0 x1 x2 x3 x4 x5 x6 := by
  unfold out2_A_7
  rw [View.read_writes_eq_canon _ _ _ (cover2_A_7 c i arg1 harg1 arg2 harg2 arg3 harg3 arg4 harg4 arg5 harg5 arg6 harg6 arg7 harg7 arg8 harg8 arg9 harg9 arg10 harg10 hc0 x0 x1 x2 x3 x4 x5 x6)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S1x128) hz2, View.ld_unit_zero (S := S128x128) hz2]

/-- On the first tile the row of sums is cleared, read back, and stored with the tile's column sums added: the cleared row plus the sums. -/
theorem out2_A_8_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out2_A_8 c i arg1 harg1 arg2 harg2 arg3 harg3 arg4 harg4 arg5 harg5 arg6 harg6 arg7 harg7 arg8 harg8 arg9 harg9 arg10 harg10 hc0 x0 x1 x2 x3 x4 x5 x6 = k2_pay1 (k2_pay3 x0 x1 x2 x3 x4 x5 x6) k2_pay4 := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 hc0 x0 x1 x2 x3 x4 x5 x6)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S1x128) hz2, View.ld_unit_zero (S := S128x128) hz2]

/-- The same for the row of sums of squares. -/
theorem out2_A_9_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out2_A_9 c i arg1 harg1 arg2 harg2 arg3 harg3 arg4 harg4 arg5 harg5 arg6 harg6 arg7 harg7 arg8 harg8 arg9 harg9 arg10 harg10 hc0 x0 x1 x2 x3 x4 x5 x6 = k2_pay2 (k2_pay3 x0 x1 x2 x3 x4 x5 x6) k2_pay5 := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 hc0 x0 x1 x2 x3 x4 x5 x6)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, View.ld_unit_zero (S := S2000x128) hz2, View.ld_unit_zero (S := S1x128) hz2, View.ld_unit_zero (S := S128x128) hz2]

/-- On a later tile likewise. -/
theorem out2_B_7_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out2_B_7 c i arg1 harg1 arg2 harg2 arg3 harg3 arg4 harg4 arg5 harg5 arg6 harg6 arg7 harg7 arg8 harg8 arg9 harg9 arg10 harg10 hc0 x0 x1 x2 x3 x4 x5 x6 xo8 xo9 = k2_pay3 x0 x1 x2 x3 x4 x5 x6 := by
  unfold out2_B_7
  rw [View.read_writes_eq_canon _ _ _ (cover2_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S2000x128) hz2, View.ld_unit_zero (S := S1x128) hz2, View.ld_unit_zero (S := S128x128) hz2]

/-- On a later tile the row of sums is read as the tile before left it and stored with the tile's column sums added. -/
theorem out2_B_8_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out2_B_8 c i arg1 harg1 arg2 harg2 arg3 harg3 arg4 harg4 arg5 harg5 arg6 harg6 arg7 harg7 arg8 harg8 arg9 harg9 arg10 harg10 hc0 x0 x1 x2 x3 x4 x5 x6 xo8 xo9 = k2_pay1 (k2_pay3 x0 x1 x2 x3 x4 x5 x6) xo8 := by
  unfold out2_B_8
  rw [View.read_writes_eq_canon _ _ _ (cover2_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg9.read_unread, View.ld_unit_zero (S := S2000x128) hz2, View.ld_unit_zero (S := S1x128) hz2, View.ld_unit_zero (S := S128x128) hz2]

/-- The same for the row of sums of squares. -/
theorem out2_B_9_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out2_B_9 c i arg1 harg1 arg2 harg2 arg3 harg3 arg4 harg4 arg5 harg5 arg6 harg6 arg7 harg7 arg8 harg8 arg9 harg9 arg10 harg10 hc0 x0 x1 x2 x3 x4 x5 x6 xo8 xo9 = k2_pay2 (k2_pay3 x0 x1 x2 x3 x4 x5 x6) xo9 := by
  unfold out2_B_9
  rw [View.read_writes_eq_canon _ _ _ (cover2_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg10.read_unread, View.ld_unit_zero (S := S2000x128) hz2, View.ld_unit_zero (S := S1x128) hz2, View.ld_unit_zero (S := S128x128) hz2]

end AnyValues

section AnyValues
variable {F : FTy → Type} [FloatOps F]
variable (V : (c : Dev nD) → (b : Ref sig .tc) → Buf (Elt F) ((c : Thread nD τ).loc b))

/-- The product tile at tile n: the body's arithmetic of the seven input blocks there. -/
def tile2 (c : Dev nD) (n : ℕ) (h : n < cfg2.N) : Vec F S2000x128 .f32 :=
  k2_pay3 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (iblk2 V c 6 ⟨n, h⟩)

/-- The two running rows after tile n: cleared and added to at tile 0, added to afterwards. -/
def rows2 (c : Dev nD) : (n : ℕ) → n < cfg2.N → Vec F S1x128 .f32 × Vec F S1x128 .f32
  | 0, h => (k2_pay1 (tile2 V c 0 h) (k2_pay4 (F := F)), k2_pay2 (tile2 V c 0 h) (k2_pay5 (F := F)))
  | n + 1, h => (k2_pay1 (tile2 V c (n + 1) h) (rows2 c n (Nat.lt_of_succ_lt h)).1,
                 k2_pay2 (tile2 V c (n + 1) h) (rows2 c n (Nat.lt_of_succ_lt h)).2)

/-- What the output buffers hold after tile n is the product tile there and the two running rows: by induction on the
    tile, the first tile's contents at 0 and the later-tile contents over the tile before afterwards. -/
theorem outsAt2_eq (c : Dev nD) : ∀ (n : ℕ) (h : n < cfg2.N),
    outsAt2 V c n h = (tile2 V c n h, (rows2 V c n h).1, (rows2 V c n h).2)
  | 0, h => by
    rw [outsAt2_A V c ⟨0, h⟩ rfl, out2_A_7_eq, out2_A_8_eq, out2_A_9_eq]
    rfl
  | n + 1, h => by
    have hN : n + 1 < 10 := lt_of_lt_of_eq h N_2
    have hB : ¬(⟨n + 1, h⟩ : Fin cfg2.N).val % 10 = 0 := by dsimp only; omega
    rw [outsAt2_B V c ⟨n + 1, h⟩ hB, out2_B_7_eq, out2_B_8_eq, out2_B_9_eq]
    show (_, k2_pay1 _ (outsAt2 V c n _).2.1, k2_pay2 _ (outsAt2 V c n _).2.2) = _
    rw [outsAt2_eq c n]
    rfl

end AnyValues

variable (V : (c : Dev nD) → (b : Ref sig .tc) → Buf (Elt Ideal) ((c : Thread nD τ).loc b))

/-! ## The blocks, read off the arrays the region finds -/

/-- The seven arrays the region reads, by their literal shapes: the first-stage output, its mean and variance rows,
    the scale and shift rows, the second weight matrix and its bias row. -/
abbrev arr2_0 (c : Dev nD) : Cert.Spec.SNH.Idx → EReal := V c main_v28_0
abbrev arr2_1 (c : Dev nD) : Cert.Spec.S1H.Idx → EReal := V c main_v30
abbrev arr2_2 (c : Dev nD) : Cert.Spec.S1H.Idx → EReal := V c main_v34
abbrev arr2_3 (c : Dev nD) : Cert.Spec.S1H.Idx → EReal := V c main_v37
abbrev arr2_4 (c : Dev nD) : Cert.Spec.S1H.Idx → EReal := V c main_v40
abbrev arr2_5 (c : Dev nD) : Cert.Spec.SHH.Idx → EReal := V c main_v45
abbrev arr2_6 (c : Dev nD) : Cert.Spec.S1H.Idx → EReal := V c main_v43

/-- Where the windows' blocks sit: the first-stage output and the product move one tile of rows per point, every
    other window stays on block (0, 0). Decided over the ten tiles. -/
theorem wpos2 : ∀ t : Fin cfg2.N, (win2_0.index t (0 : Fin 2) = t.val ∧ win2_0.index t (1 : Fin 2) = 0)
    ∧ (win2_7.index t (0 : Fin 2) = t.val ∧ win2_7.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- Tile t of the ten, as a number below ten. -/
abbrev tileOf2 (t : Fin cfg2.N) : Fin 10 := ⟨t.val, lt_of_lt_of_eq t.isLt N_2⟩

/-- Row r of the first-stage output's block at tile t is row 2000 t + r of the array. -/
theorem blk2_0 (c : Dev nD) (t : Fin cfg2.N) (r : Fin 2000) (k : Fin 128) :
    (iblk2 V c 0 t : Vec Ideal S2000x128 .f32) (ix2 r k) = arr2_0 V c (ix2 (Cert.Spec.row (tileOf2 t) r) k) := by
  obtain ⟨⟨e0, e1⟩, -⟩ := wpos2 t
  unfold iblk2
  rw [View.read_apply]
  show V c main_v28_0 _ = V c main_v28_0 _
  congr 1
  funext a
  apply Fin.ext
  match a with
  | ⟨0, _⟩ => show win2_0.index t (0 : Fin 2) * 2000 + 1 * r.val = 2000 * t.val + r.val; rw [e0]; omega
  | ⟨1, _⟩ => show win2_0.index t (1 : Fin 2) * 128 + 1 * k.val = k.val; rw [e1]; omega

/-- Window 1's one block is its whole array. -/
theorem blk2_1 (c : Dev nD) (t : Fin cfg2.N) (p : Fin 1) (q : Fin 128) :
    (iblk2 V c 1 t : Vec Ideal S1x128 .f32) (ix2 p q) = arr2_1 V c (ix2 p q) := by
  have e := wpos2 t
  have e0 : win2_1.index t (0 : Fin 2) = 0 := by omega
  have e1 : win2_1.index t (1 : Fin 2) = 0 := by omega
  unfold iblk2
  rw [View.read_apply]
  show V c main_v30 _ = V c main_v30 _
  congr 1
  funext a
  apply Fin.ext
  match a with
  | ⟨0, _⟩ => show win2_1.index t (0 : Fin 2) * 1 + 1 * p.val = p.val; rw [e0]; omega
  | ⟨1, _⟩ => show win2_1.index t (1 : Fin 2) * 128 + 1 * q.val = q.val; rw [e1]; omega

/-- Window 2's one block is its whole array. -/
theorem blk2_2 (c : Dev nD) (t : Fin cfg2.N) (p : Fin 1) (q : Fin 128) :
    (iblk2 V c 2 t : Vec Ideal S1x128 .f32) (ix2 p q) = arr2_2 V c (ix2 p q) := by
  have e := wpos2 t
  have e0 : win2_2.index t (0 : Fin 2) = 0 := by omega
  have e1 : win2_2.index t (1 : Fin 2) = 0 := by omega
  unfold iblk2
  rw [View.read_apply]
  show V c main_v34 _ = V c main_v34 _
  congr 1
  funext a
  apply Fin.ext
  match a with
  | ⟨0, _⟩ => show win2_2.index t (0 : Fin 2) * 1 + 1 * p.val = p.val; rw [e0]; omega
  | ⟨1, _⟩ => show win2_2.index t (1 : Fin 2) * 128 + 1 * q.val = q.val; rw [e1]; omega

/-- Window 3's one block is its whole array. -/
theorem blk2_3 (c : Dev nD) (t : Fin cfg2.N) (p : Fin 1) (q : Fin 128) :
    (iblk2 V c 3 t : Vec Ideal S1x128 .f32) (ix2 p q) = arr2_3 V c (ix2 p q) := by
  have e := wpos2 t
  have e0 : win2_3.index t (0 : Fin 2) = 0 := by omega
  have e1 : win2_3.index t (1 : Fin 2) = 0 := by omega
  unfold iblk2
  rw [View.read_apply]
  show V c main_v37 _ = V c main_v37 _
  congr 1
  funext a
  apply Fin.ext
  match a with
  | ⟨0, _⟩ => show win2_3.index t (0 : Fin 2) * 1 + 1 * p.val = p.val; rw [e0]; omega
  | ⟨1, _⟩ => show win2_3.index t (1 : Fin 2) * 128 + 1 * q.val = q.val; rw [e1]; omega

/-- Window 4's one block is its whole array. -/
theorem blk2_4 (c : Dev nD) (t : Fin cfg2.N) (p : Fin 1) (q : Fin 128) :
    (iblk2 V c 4 t : Vec Ideal S1x128 .f32) (ix2 p q) = arr2_4 V c (ix2 p q) := by
  have e := wpos2 t
  have e0 : win2_4.index t (0 : Fin 2) = 0 := by omega
  have e1 : win2_4.index t (1 : Fin 2) = 0 := by omega
  unfold iblk2
  rw [View.read_apply]
  show V c main_v40 _ = V c main_v40 _
  congr 1
  funext a
  apply Fin.ext
  match a with
  | ⟨0, _⟩ => show win2_4.index t (0 : Fin 2) * 1 + 1 * p.val = p.val; rw [e0]; omega
  | ⟨1, _⟩ => show win2_4.index t (1 : Fin 2) * 128 + 1 * q.val = q.val; rw [e1]; omega

/-- Window 5's one block is its whole array. -/
theorem blk2_5 (c : Dev nD) (t : Fin cfg2.N) (p : Fin 128) (q : Fin 128) :
    (iblk2 V c 5 t : Vec Ideal S128x128 .f32) (ix2 p q) = arr2_5 V c (ix2 p q) := by
  have e := wpos2 t
  have e0 : win2_5.index t (0 : Fin 2) = 0 := by omega
  have e1 : win2_5.index t (1 : Fin 2) = 0 := by omega
  unfold iblk2
  rw [View.read_apply]
  show V c main_v45 _ = V c main_v45 _
  congr 1
  funext a
  apply Fin.ext
  match a with
  | ⟨0, _⟩ => show win2_5.index t (0 : Fin 2) * 128 + 1 * p.val = p.val; rw [e0]; omega
  | ⟨1, _⟩ => show win2_5.index t (1 : Fin 2) * 128 + 1 * q.val = q.val; rw [e1]; omega

/-- Window 6's one block is its whole array. -/
theorem blk2_6 (c : Dev nD) (t : Fin cfg2.N) (p : Fin 1) (q : Fin 128) :
    (iblk2 V c 6 t : Vec Ideal S1x128 .f32) (ix2 p q) = arr2_6 V c (ix2 p q) := by
  have e := wpos2 t
  have e0 : win2_6.index t (0 : Fin 2) = 0 := by omega
  have e1 : win2_6.index t (1 : Fin 2) = 0 := by omega
  unfold iblk2
  rw [View.read_apply]
  show V c main_v43 _ = V c main_v43 _
  congr 1
  funext a
  apply Fin.ext
  match a with
  | ⟨0, _⟩ => show win2_6.index t (0 : Fin 2) * 1 + 1 * p.val = p.val; rw [e0]; omega
  | ⟨1, _⟩ => show win2_6.index t (1 : Fin 2) * 128 + 1 * q.val = q.val; rw [e1]; omega

/-! ## The product tile and the running rows, as numbers -/

/-- The dense layer of the normalised, rectified first-stage output: what the product array is to hold. -/
abbrev Y2 (c : Dev nD) : Cert.Spec.SNH.Idx → EReal :=
  Cert.Spec.lin (Cert.Spec.bnrelu (arr2_0 V c) (arr2_1 V c) (arr2_2 V c) (arr2_3 V c) (arr2_4 V c)) (arr2_5 V c) (arr2_6 V c)

/-- The product tile at tile t holds rows 2000 t .. 2000 t + 1999 of it. -/
theorem tile2_apply (c : Dev nD) (t : Fin cfg2.N) (r : Fin 2000) (j : Fin 128) :
    tile2 V c t.val t.isLt (ix2 r j) = Y2 V c (ix2 (Cert.Spec.row (tileOf2 t) r) j) := by
  unfold tile2
  refine (k2_pay3_apply _ _ _ _ _ _ _ r j).trans ?_
  show _ = (∑ k : Fin 128, Cert.Spec.bnrelu (arr2_0 V c) (arr2_1 V c) (arr2_2 V c) (arr2_3 V c) (arr2_4 V c) (ix2 (Cert.Spec.row (tileOf2 t) r) k) * arr2_5 V c (ix2 k j)) + arr2_6 V c (ix2 0 j)
  refine congrArg₂ (· + ·) (Finset.sum_congr rfl fun k _ => congrArg₂ (· * ·) ?_ (blk2_5 V c t k j)) (blk2_6 V c t 0 j)
  unfold act2
  show _ = max ((arr2_3 V c (ix2 0 k) * (arr2_0 V c (ix2 (Cert.Spec.row (tileOf2 t) r) k) - arr2_1 V c (ix2 0 k))) * Ideal.rsqrt (arr2_2 V c (ix2 0 k) + Cert.Spec.cEps) + arr2_4 V c (ix2 0 k)) Cert.Spec.cZero
  rw [blk2_0 V c t r k, blk2_1 V c t 0 k, blk2_2 V c t 0 k, blk2_3 V c t 0 k, blk2_4 V c t 0 k]

/-- The sum of column j of a 20000-row array over the rows of tile s (nothing past the tenth tile). -/
def tileSum2 (Y : Cert.Spec.SNH.Idx → EReal) (j : Fin 128) (s : ℕ) : EReal :=
  if h : s < 10 then ∑ r : Fin 2000, Y (ix2 (Cert.Spec.row ⟨s, h⟩ r) j) else 0

/-- After tile n the running rows hold the column sums of the product, and of its square, over tiles 0..n. -/
theorem rows2_apply (c : Dev nD) : ∀ (n : ℕ) (h : n < cfg2.N) (j : Fin 128),
    (rows2 V c n h).1 (ix2 0 j) = ∑ s ∈ Finset.range (n + 1), tileSum2 (Y2 V c) j s
    ∧ (rows2 V c n h).2 (ix2 0 j) = ∑ s ∈ Finset.range (n + 1), tileSum2 (fun a => Y2 V c a * Y2 V c a) j s
  | 0, h, j => by
    have h10 : (0 : ℕ) < 10 := by omega
    constructor
    · show k2_pay1 (tile2 V c 0 h) (k2_pay4 (F := Ideal)) (ix2 0 j) = _
      rw [k2_pay1_apply, k2_pay4_apply, zero_add, Finset.sum_range_one]
      unfold tileSum2
      rw [dif_pos h10]
      exact Finset.sum_congr rfl fun r _ => tile2_apply V c ⟨0, h⟩ r j
    · show k2_pay2 (tile2 V c 0 h) (k2_pay5 (F := Ideal)) (ix2 0 j) = _
      rw [k2_pay2_apply, k2_pay5_apply, zero_add, Finset.sum_range_one]
      unfold tileSum2
      rw [dif_pos h10]
      exact Finset.sum_congr rfl fun r _ => by rw [tile2_apply V c ⟨0, h⟩ r j]
  | n + 1, h, j => by
    have hN : n + 1 < 10 := lt_of_lt_of_eq h N_2
    obtain ⟨ih1, ih2⟩ := rows2_apply c n (Nat.lt_of_succ_lt h) j
    constructor
    · show k2_pay1 (tile2 V c (n + 1) h) (rows2 V c n _).1 (ix2 0 j) = _
      rw [k2_pay1_apply, ih1, Finset.sum_range_succ _ (n + 1)]
      congr 1
      unfold tileSum2
      rw [dif_pos hN]
      exact Finset.sum_congr rfl fun r _ => tile2_apply V c ⟨n + 1, h⟩ r j
    · show k2_pay2 (tile2 V c (n + 1) h) (rows2 V c n _).2 (ix2 0 j) = _
      rw [k2_pay2_apply, ih2, Finset.sum_range_succ _ (n + 1)]
      congr 1
      unfold tileSum2
      rw [dif_pos hN]
      exact Finset.sum_congr rfl fun r _ => by rw [tile2_apply V c ⟨n + 1, h⟩ r j]

/-- Over all ten tiles that is the tile-by-tile column sum. -/
theorem sum_tiles2 (Y : Cert.Spec.SNH.Idx → EReal) (j : Fin 128) :
    ∑ s ∈ Finset.range (9 + 1), tileSum2 Y j s = Cert.Spec.colsumT Y (ix2 0 j) := by
  rw [Finset.sum_range]
  unfold Cert.Spec.colsumT
  refine Finset.sum_congr rfl fun t _ => ?_
  unfold tileSum2
  rw [dif_pos t.isLt]

/-! ## The product array -/

/-- What tile t writes back into the product array is block t of the dense layer's output. -/
theorem flushed2_7 (c : Dev nD) (t : Fin cfg2.N) :
    (dat2 V c).flushed 7 t = ((cfg2.win 7).blk t).view.read (Elt Ideal) (Y2 V c) := by
  obtain ⟨-, ⟨e0, e1⟩, -⟩ := wpos2 t
  show (cfg2.win 7).cut (grid2.coords t) ((dat2 V c).after 7 t) = _
  rw [after2_7, outsAt2_eq]
  funext y
  show tile2 V c t.val t.isLt y = Y2 V c (((cfg2.win 7).blk t).view.emb y)
  obtain ⟨r, hr⟩ : ∃ r : Fin 2000, r = (y : S2000x128.Idx) 0 := ⟨_, rfl⟩
  obtain ⟨j, hj⟩ : ∃ j : Fin 128, j = (y : S2000x128.Idx) 1 := ⟨_, rfl⟩
  have hy : (y : S2000x128.Idx) = ix2 r j := by
    funext a
    apply Fin.ext
    match a with
    | ⟨0, _⟩ => show ((y : S2000x128.Idx) 0).val = r.val; rw [hr]
    | ⟨1, _⟩ => show ((y : S2000x128.Idx) 1).val = j.val; rw [hj]
  refine ((congrArg (tile2 V c t.val t.isLt) hy).trans (tile2_apply V c t r j)).trans ?_
  refine congrArg (Y2 V c) ?_
  funext a
  apply Fin.ext
  match a with
  | ⟨0, _⟩ => show 2000 * t.val + r.val = win2_7.index t (0 : Fin 2) * 2000 + 1 * ((y : S2000x128.Idx) 0).val; rw [e0, hr]; omega
  | ⟨1, _⟩ => show j.val = win2_7.index t (1 : Fin 2) * 128 + 1 * ((y : S2000x128.Idx) 1).val; rw [e1, hj]; omega

/-- An index of the product array is in tile t's block iff each coordinate is in the block's range. -/
theorem mem_blk2_7 (t : Fin cfg2.N) (i : S20000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v46_0).slice (win2_7.rect t)).set ↔ _
  rw [View.set_slice_whole, Rect.mem_set_unit]
  exact Iff.rfl

/-- THE PRODUCT ARRAY after the region: the dense layer of the normalised, rectified first-stage output. Row n lies in
    tile n / 2000. -/
theorem y2_2 (c : Dev nD) : (dat2 V c).arrAt 7 cfg2.N = Cert.Spec.lin (Cert.Spec.bnrelu (V c main_v28_0) (V c main_v30) (V c main_v34) (V c main_v37) (V c main_v40)) (V c main_v45) (V c main_v43) :=
  (dat2 V c).arrAt_eq_of_cover 7 (Y2 V c) (fun t _ => flushed2_7 V c t) fun i => by
    have hi0 : ((i : S20000x128.Idx) 0).val < 20000 := ((i : S20000x128.Idx) 0).isLt
    have hi1 : ((i : S20000x128.Idx) 1).val < 128 := ((i : S20000x128.Idx) 1).isLt
    have hq : ((i : S20000x128.Idx) 0).val / 2000 < cfg2.N := by rw [show cfg2.N = 10 from N_2]; omega
    obtain ⟨-, ⟨e0, e1⟩, -⟩ := wpos2 ⟨((i : S20000x128.Idx) 0).val / 2000, hq⟩
    refine ⟨⟨((i : S20000x128.Idx) 0).val / 2000, hq⟩, flush2_7 _, ?_⟩
    rw [mem_blk2_7]
    intro a
    match a with
    | ⟨0, _⟩ => show win2_7.index ⟨((i : S20000x128.Idx) 0).val / 2000, hq⟩ (0 : Fin 2) * 2000 ≤ ((i : S20000x128.Idx) 0).val ∧ ((i : S20000x128.Idx) 0).val < win2_7.index ⟨((i : S20000x128.Idx) 0).val / 2000, hq⟩ (0 : Fin 2) * 2000 + 2000
                rw [e0]; dsimp only; omega
    | ⟨1, _⟩ => show win2_7.index ⟨((i : S20000x128.Idx) 0).val / 2000, hq⟩ (1 : Fin 2) * 128 ≤ ((i : S20000x128.Idx) 1).val ∧ ((i : S20000x128.Idx) 1).val < win2_7.index ⟨((i : S20000x128.Idx) 0).val / 2000, hq⟩ (1 : Fin 2) * 128 + 128
                rw [e1]; omega

/-! ## The two rows of column sums -/

/-- The one write-back of window 8, after the last tile, writes the sums over all ten tiles: its block is the whole row. -/
theorem flushed2_8 (c : Dev nD) (t : Fin cfg2.N) (hf : (cfg2.win 8).flush t = true) :
    (dat2 V c).flushed 8 t = ((cfg2.win 8).blk t).view.read (Elt Ideal) (Cert.Spec.colsumT (Y2 V c)) := by
  have h9 : t.val = 9 := by have := (flush2_8 t).mp hf; have := lt_of_lt_of_eq t.isLt N_2; omega
  have e := wpos2 t
  have e0 : win2_8.index t (0 : Fin 2) = 0 := by omega
  have e1 : win2_8.index t (1 : Fin 2) = 0 := by omega
  clear e
  obtain ⟨n, hn⟩ := t
  obtain rfl : n = 9 := h9
  show (cfg2.win 8).cut (grid2.coords ⟨9, hn⟩) ((dat2 V c).after 8 ⟨9, hn⟩) = _
  rw [after2_8, outsAt2_eq]
  funext y
  show (rows2 V c 9 hn).1 y = Cert.Spec.colsumT (Y2 V c) (((cfg2.win 8).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg2.win 8).blk ⟨9, hn⟩).view.emb y = (ix2 0 j : S1x128.Idx) := by
    funext a
    apply Fin.ext
    match a with
    | ⟨0, _⟩ => show win2_8.index ⟨9, hn⟩ (0 : Fin 2) * 1 + 1 * ((y : S1x128.Idx) 0).val = 0; rw [e0]; omega
    | ⟨1, _⟩ => show win2_8.index ⟨9, hn⟩ (1 : Fin 2) * 128 + 1 * ((y : S1x128.Idx) 1).val = j.val; rw [e1, hj]; omega
  have h := rows2_apply V c 9 hn j
  exact (congrArg (rows2 V c 9 hn).1 hy).trans (h.1.trans ((sum_tiles2 (Y2 V c) j).trans (congrArg (Cert.Spec.colsumT (Y2 V c)) hemb.symm)))

/-- An index of that row is in the last tile's block: the block is the whole row. -/
theorem mem_blk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v46_1).slice (win2_8.rect t)).set ↔ _
  rw [View.set_slice_whole, Rect.mem_set_unit]
  exact Iff.rfl

/-- The one write-back of window 9, after the last tile, writes the sums over all ten tiles: its block is the whole row. -/
theorem flushed2_9 (c : Dev nD) (t : Fin cfg2.N) (hf : (cfg2.win 9).flush t = true) :
    (dat2 V c).flushed 9 t = ((cfg2.win 9).blk t).view.read (Elt Ideal) (Cert.Spec.colsumT (fun a => Y2 V c a * Y2 V c a)) := by
  have h9 : t.val = 9 := by have := (flush2_9 t).mp hf; have := lt_of_lt_of_eq t.isLt N_2; omega
  have e := wpos2 t
  have e0 : win2_9.index t (0 : Fin 2) = 0 := by omega
  have e1 : win2_9.index t (1 : Fin 2) = 0 := by omega
  clear e
  obtain ⟨n, hn⟩ := t
  obtain rfl : n = 9 := h9
  show (cfg2.win 9).cut (grid2.coords ⟨9, hn⟩) ((dat2 V c).after 9 ⟨9, hn⟩) = _
  rw [after2_9, outsAt2_eq]
  funext y
  show (rows2 V c 9 hn).2 y = Cert.Spec.colsumT (fun a => Y2 V c a * Y2 V c a) (((cfg2.win 9).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg2.win 9).blk ⟨9, hn⟩).view.emb y = (ix2 0 j : S1x128.Idx) := by
    funext a
    apply Fin.ext
    match a with
    | ⟨0, _⟩ => show win2_9.index ⟨9, hn⟩ (0 : Fin 2) * 1 + 1 * ((y : S1x128.Idx) 0).val = 0; rw [e0]; omega
    | ⟨1, _⟩ => show win2_9.index ⟨9, hn⟩ (1 : Fin 2) * 128 + 1 * ((y : S1x128.Idx) 1).val = j.val; rw [e1, hj]; omega
  have h := rows2_apply V c 9 hn j
  exact (congrArg (rows2 V c 9 hn).2 hy).trans (h.2.trans ((sum_tiles2 (fun a => Y2 V c a * Y2 V c a) j).trans (congrArg (Cert.Spec.colsumT (fun a => Y2 V c a * Y2 V c a)) hemb.symm)))

/-- An index of that row is in the last tile's block: the block is the whole row. -/
theorem mem_blk2_9 (t : Fin cfg2.N) (i : S1x128.Idx) :
    i ∈ ((cfg2.win 9).blk t).view.set ↔ ∀ a : Fin 2, win2_9.index t a * S1x128.size a ≤ (i a).val ∧ (i a).val < win2_9.index t a * S1x128.size a + S1x128.size a := by
  show i ∈ ((View.whole main_v46_2).slice (win2_9.rect t)).set ↔ _
  rw [View.set_slice_whole, Rect.mem_set_unit]
  exact Iff.rfl

/-- THE ROW OF SUMS after the region: the column sums of the product array, tile by tile. -/
theorem sum_2 (c : Dev nD) : (dat2 V c).arrAt 8 cfg2.N = Cert.Spec.colsumT (Cert.Spec.lin (Cert.Spec.bnrelu (V c main_v28_0) (V c main_v30) (V c main_v34) (V c main_v37) (V c main_v40)) (V c main_v45) (V c main_v43)) :=
  (dat2 V c).arrAt_eq_of_cover 8 (Cert.Spec.colsumT (Y2 V c)) (flushed2_8 V c) fun i => by
    have h9 : (9 : ℕ) < cfg2.N := by rw [show cfg2.N = 10 from N_2]; omega
    have e := wpos2 ⟨9, h9⟩
    have e0 : win2_8.index ⟨9, h9⟩ (0 : Fin 2) = 0 := by omega
    have e1 : win2_8.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush2_8 _).mpr rfl, ?_⟩
    rw [mem_blk2_8]
    intro a
    match a with
    | ⟨0, _⟩ => show win2_8.index ⟨9, h9⟩ (0 : Fin 2) * 1 ≤ ((i : S1x128.Idx) 0).val ∧ ((i : S1x128.Idx) 0).val < win2_8.index ⟨9, h9⟩ (0 : Fin 2) * 1 + 1; rw [e0]; omega
    | ⟨1, _⟩ => show win2_8.index ⟨9, h9⟩ (1 : Fin 2) * 128 ≤ ((i : S1x128.Idx) 1).val ∧ ((i : S1x128.Idx) 1).val < win2_8.index ⟨9, h9⟩ (1 : Fin 2) * 128 + 128; rw [e1]; omega

/-- THE ROW OF SUMS OF SQUARES after the region: the column sums of the squared product array, tile by tile. -/
theorem sumsq_2 (c : Dev nD) : (dat2 V c).arrAt 9 cfg2.N = Cert.Spec.colsumT (fun a => Cert.Spec.lin (Cert.Spec.bnrelu (V c main_v28_0) (V c main_v30) (V c main_v34) (V c main_v37) (V c main_v40)) (V c main_v45) (V c main_v43) a * Cert.Spec.lin (Cert.Spec.bnrelu (V c main_v28_0) (V c main_v30) (V c main_v34) (V c main_v37) (V c main_v40)) (V c main_v45) (V c main_v43) a) :=
  (dat2 V c).arrAt_eq_of_cover 9 (Cert.Spec.colsumT (fun a => Y2 V c a * Y2 V c a)) (flushed2_9 V c) fun i => by
    have h9 : (9 : ℕ) < cfg2.N := by rw [show cfg2.N = 10 from N_2]; omega
    have e := wpos2 ⟨9, h9⟩
    have e0 : win2_9.index ⟨9, h9⟩ (0 : Fin 2) = 0 := by omega
    have e1 : win2_9.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush2_9 _).mpr rfl, ?_⟩
    rw [mem_blk2_9]
    intro a
    match a with
    | ⟨0, _⟩ => show win2_9.index ⟨9, h9⟩ (0 : Fin 2) * 1 ≤ ((i : S1x128.Idx) 0).val ∧ ((i : S1x128.Idx) 0).val < win2_9.index ⟨9, h9⟩ (0 : Fin 2) * 1 + 1; rw [e0]; omega
    | ⟨1, _⟩ => show win2_9.index ⟨9, h9⟩ (1 : Fin 2) * 128 ≤ ((i : S1x128.Idx) 1).val ∧ ((i : S1x128.Idx) 1).val < win2_9.index ⟨9, h9⟩ (1 : Fin 2) * 128 + 128; rw [e1]; omega

end Cert.KernelIdeal.HandV

end
-- ==== Proof.KV.Val3.lean ====
/- Region 3 at the extended reals: the array its output window ends holding, as one function of the arrays
   the region is entered with — normalise, scale, shift, rectify: `max ((g · (y − mean)) · rsqrt (var + ε) + β) 0`. The body's payload is read at an index; each point writes back the
   block of that function its output rectangle names; the ten blocks of two thousand rows cover the array. -/
import proofs.«411025_j54640573939922_1_alg».proof.Proof.KI.Reg3
import proofs.«411025_j54640573939922_1_alg».proof.Proof.Math.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zero_off3 : (![0, 0] : Fin 2 → Nat) = fun _ => 0 := funext fun a => by fin_cases a <;> rfl

/-- A row broadcast down the two thousand rows of a tile reads, at row `p` column `q`, the row's entry at column `q`. -/
theorem bcast_row3 {α : Type} (x : S1x128.Idx → α) (h : S1x128.Broadcasts S2000x128) (p : Fin 2000) (q : Fin 128) :
    broadcastTo S2000x128 x h (ix2 p q) = x (ix2 0 q) :=
  broadcastTo_apply x h (ix2 p q) (ix2 0 q) (fun a => by match a with | ⟨0, _⟩ => rfl | ⟨1, _⟩ => rfl)

/-- The reciprocal square root of a vector, at an index, is that of the entry. -/
theorem rsqrt_apply3 {s : Shape} {φ : FTy} (a : FVec Ideal s φ) (i : s.Idx) : rsqrt a i = Ideal.rsqrt (a i) := rfl

/-- The payload at row `p`, column `q`: the entry minus the column's mean, scaled by the column's gain and by the
    reciprocal square root of the column's variance plus the guard term, shifted by the column's offset, rectified. -/
theorem bn_pay_apply3 (x0 : Vec Ideal S2000x128 .f32) (x1 x2 x3 x4 : Vec Ideal S1x128 .f32) (p : Fin 2000) (q : Fin 128) :
    k3_pay1 x0 x1 x2 x3 x4 (ix2 p q)
      = max ((x3 (ix2 0 q) * (x0 (ix2 p q) - x1 (ix2 0 q))) * Ideal.rsqrt (x2 (ix2 0 q) + Cert.Spec.cEps) + x4 (ix2 0 q)) Cert.Spec.cZero := by
  unfold k3_pay1
  simp only [maximumf_apply, addf_apply, mulf_apply, subf_apply, broadcast_apply, shapeCast_self, bcast_row3, rsqrt_apply3]
  rfl

/-- Equal entries give equal values of `max ((g · (y − m)) · rsqrt (v + ε) + b) 0`. -/
theorem bn_congr3 (g y m v b g' y' m' v' b' : EReal) (hg : g = g') (hy : y = y') (hm : m = m') (hv : v = v') (hb : b = b') :
    max ((g * (y - m)) * Ideal.rsqrt (v + Cert.Spec.cEps) + b) Cert.Spec.cZero
      = max ((g' * (y' - m')) * Ideal.rsqrt (v' + Cert.Spec.cEps) + b') Cert.Spec.cZero := by
  rw [hg, hy, hm, hv, hb]

/-- The index maps, decided over the ten points: the input tile and the output tile move together down the rows, the
    four statistic and parameter rows stay put. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 4000000 in
/-- What point `t` writes back is block `t` of the normalised, rectified array of the entry arrays. -/
theorem flushed3_eq (c : Dev nD) (t : Fin cfg3.N) :
    (dat3 V c).flushed 5 t = ((cfg3.win 5).blk t).view.read (Elt Ideal)
      (Cert.Spec.bnrelu (V c main_v46_0) (V c main_v48) (V c main_v52) (V c main_v55) (V c main_v58)) := by
  show (cfg3.win 5).cut (grid3.coords t) ((dat3 V c).after 5 t) = _
  rw [after3_5]
  unfold out3_5
  rw [View.canon_unit_zero zero_off3]
  simp only [View.ld_unit_zero (S := S2000x128) zero_off3, View.ld_unit_zero (S := S1x128) zero_off3]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = Cert.Spec.bnrelu (V c main_v46_0) (V c main_v48) (V c main_v52) (V c main_v55) (V c main_v58) (((cfg3.win 5).blk t).view.emb (ix2 p q))
  rw [bn_pay_apply3]
  unfold Cert.Spec.bnrelu iblk3
  simp only [View.read_apply]
  obtain ⟨e00, e01, e10, e11, e20, e21, e30, e31, e40, e41, e50, e51⟩ := idx_facts3 t
  refine bn_congr3 _ _ _ _ _ _ _ _ _ _ (congrArg (V c main_v55) ?_) (congrArg (V c main_v46_0) ?_) (congrArg (V c main_v48) ?_)
    (congrArg (V c main_v52) ?_) (congrArg (V c main_v58) ?_)
  · funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  · funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega
  · funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  · funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  · funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega

/-- An index of the array is in point `t`'s block iff each coordinate is in the block's range on its axis. -/
theorem mem_blk3 (t : Fin cfg3.N) (i : S20000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v59).slice (win3_5.rect t)).set ↔ _
  rw [View.set_slice_whole, Rect.mem_set_unit]
  exact Iff.rfl

/-- Every index of the array is in the block of the point its row falls in: row `r` is in tile `r / 2000`. -/
theorem cover3 (i : S20000x128.Idx) : ∃ t : Fin cfg3.N, (cfg3.win 5).flush t = true ∧ i ∈ ((cfg3.win 5).blk t).view.set := by
  have hi0 : (i 0).val < 20000 := (i 0).isLt
  have hi1 : (i 1).val < 128 := (i 1).isLt
  refine ⟨⟨(i 0).val / 2000, by show (i 0).val / 2000 < 10; omega⟩, flush3_5 _, ?_⟩
  rw [mem_blk3]
  obtain ⟨e00, e01, e10, e11, e20, e21, e30, e31, e40, e41, e50, e51⟩ := idx_facts3 ⟨(i 0).val / 2000, by show (i 0).val / 2000 < 10; omega⟩
  intro a
  match a with
  | ⟨0, _⟩ =>
    show win3_5.index _ (0 : Fin 2) * 2000 ≤ (i 0).val ∧ (i 0).val < win3_5.index _ (0 : Fin 2) * 2000 + 2000
    rw [e50]; show (i 0).val / 2000 * 2000 ≤ (i 0).val ∧ (i 0).val < (i 0).val / 2000 * 2000 + 2000; omega
  | ⟨1, _⟩ =>
    show win3_5.index _ (1 : Fin 2) * 128 ≤ (i 1).val ∧ (i 1).val < win3_5.index _ (1 : Fin 2) * 128 + 128
    rw [e51]; omega

/-- The array window 5 ends holding: the normalised, scaled, shifted, rectified form of the input array, by the mean,
    variance, gain and offset rows the region is entered with. -/
theorem out3 (c : Dev nD) : (dat3 V c).arrAt 5 cfg3.N
    = Cert.Spec.bnrelu (V c main_v46_0) (V c main_v48) (V c main_v52) (V c main_v55) (V c main_v58) :=
  (dat3 V c).arrAt_eq_of_cover 5 (Cert.Spec.bnrelu (V c main_v46_0) (V c main_v48) (V c main_v52) (V c main_v55) (V c main_v58))
    (fun t _ => flushed3_eq V c t) cover3

end Cert.KernelIdeal.HandV
-- ==== Proof.Math.Bridge2.lean ====
/-
  Summing tile by tile is summing over all nodes: the pairs (tile, row in tile) correspond one to one to the nodes
  through n = 2000 · t + r. Hence the tiled column sums, pooled sums and pooled counts are the untiled ones.
-/
import Idealize.ShloMosaic.PureOps.Ideal
import Idealize.ShloMosaic.Lib.ValueIdx
import proofs.«411025_j54640573939922_1_alg».proof.Proof.Math.Spec

noncomputable section

namespace Cert.Spec

open Idealize.ShloMosaic Idealize.ShloMosaic.ValueIdx

/-- (tile, row in tile) ↦ node, with inverse n ↦ (n / 2000, n % 2000). -/
def rowEquiv : Fin 10 × Fin 2000 ≃ Fin 20000 where
  toFun p := row p.1 p.2
  invFun n := (⟨n.val / 2000, by omega⟩, ⟨n.val % 2000, by omega⟩)
  left_inv p := by
    obtain ⟨⟨t, ht⟩, ⟨r, hr⟩⟩ := p
    simp only [row, Prod.mk.injEq, Fin.mk.injEq]
    constructor <;> omega
  right_inv n := by
    obtain ⟨n, hn⟩ := n
    simp only [row, Fin.mk.injEq]
    omega

/-- A double sum over tiles and rows is the single sum over nodes. -/
theorem sum_row {M : Type*} [AddCommMonoid M] (f : Fin 20000 → M) :
    ∑ t : Fin 10, ∑ r : Fin 2000, f (row t r) = ∑ n : Fin 20000, f n :=
  calc ∑ t : Fin 10, ∑ r : Fin 2000, f (row t r)
      = ∑ p : Fin 10 × Fin 2000, f (row p.1 p.2) := (Fintype.sum_prod_type' (fun t r => f (row t r))).symm
    _ = ∑ n : Fin 20000, f n := Fintype.sum_equiv rowEquiv _ _ (fun _ => rfl)

theorem colsumT_eq (y : SNH.Idx → EReal) : colsumT y = colsum y := by
  funext i
  exact sum_row (fun n => y (ix2 n (i 1)))

theorem meanT_eq (y : SNH.Idx → EReal) : meanT y = meanU y := by
  funext i
  simp only [meanT, meanU, colsumT_eq]

theorem poolSumT_eq (h : SNH.Idx → EReal) (batch : SN1.Idx → BitVec 32) : poolSumT h batch = poolSumU h batch := by
  funext i
  exact sum_row (fun n => (if batch (ix2 n 0) = BitVec.ofNat 32 (i 0).val then (1 : EReal) else 0) * h (ix2 n (i 1)))

theorem poolCntT_eq (batch : SN1.Idx → BitVec 32) : poolCntT batch = poolCntU batch := by
  funext i
  exact sum_row (fun n => (if batch (ix2 n 0) = BitVec.ofNat 32 (i 0).val then (1 : EReal) else 0))

end Cert.Spec

end
-- ==== Proof.Math.Bridge4.lean ====
/-
  For an array whose entries are all real, the two spellings of the batch variance agree: the mean of the squares minus
  the squared mean is the mean of the squared deviations from the mean. Both are the coercion of one real number,
  which is non-negative.
-/
import Idealize.ShloMosaic.PureOps.Ideal
import Idealize.ShloMosaic.Lib.ValueIdx
import proofs.«411025_j54640573939922_1_alg».proof.Proof.Math.Spec
import proofs.«411025_j54640573939922_1_alg».proof.Proof.Math.Bridge1
import proofs.«411025_j54640573939922_1_alg».proof.Proof.Math.Bridge2
import proofs.«411025_j54640573939922_1_alg».proof.Proof.Math.Bridge3

noncomputable section

namespace Cert.Spec

open Idealize.ShloMosaic Idealize.ShloMosaic.ValueIdx

/-- Over the reals: Σ (f − μ)² / N = Σ f² / N − μ², with μ = Σ f / N and N = 20000 the number of terms. -/
theorem real_var (f : Fin 20000 → ℝ) :
    (∑ n, (f n - (∑ m, f m) * (1 / 20000)) * (f n - (∑ m, f m) * (1 / 20000))) * (1 / 20000)
      = (∑ n, f n * f n) * (1 / 20000) - ((∑ m, f m) * (1 / 20000)) * ((∑ m, f m) * (1 / 20000)) := by
  have h : ∀ n, (f n - (∑ m, f m) * (1 / 20000)) * (f n - (∑ m, f m) * (1 / 20000))
      = f n * f n - (2 * ((∑ m, f m) * (1 / 20000))) * f n
        + ((∑ m, f m) * (1 / 20000)) * ((∑ m, f m) * (1 / 20000)) := fun n => by ring
  simp only [h, Finset.sum_add_distrib, Finset.sum_sub_distrib, ← Finset.mul_sum, Finset.sum_const,
    Finset.card_univ, Fintype.card_fin, nsmul_eq_mul, Nat.cast_ofNat]
  ring

/-- The real column mean of a real array. -/
def rmean (yr : SNH.Idx → ℝ) (j : Fin 128) : ℝ := (∑ n : Fin 20000, yr (ix2 n j)) * (1 / 20000)

/-- The real column variance of a real array, as the mean of the squared deviations. -/
def rvar (yr : SNH.Idx → ℝ) (j : Fin 128) : ℝ :=
  (∑ n : Fin 20000, (yr (ix2 n j) - rmean yr j) * (yr (ix2 n j) - rmean yr j)) * (1 / 20000)

theorem rvar_nonneg (yr : SNH.Idx → ℝ) (j : Fin 128) : 0 ≤ rvar yr j :=
  mul_nonneg (Finset.sum_nonneg fun n _ => mul_self_nonneg _) (by norm_num)

theorem colsum_coe (yr : SNH.Idx → ℝ) (i : S1H.Idx) :
    colsum (fun a => (yr a : EReal)) i = ((∑ n : Fin 20000, yr (ix2 n (i 1)) : ℝ) : EReal) := by
  simp only [colsum]
  exact coe_sum _ _

theorem meanU_coe (yr : SNH.Idx → ℝ) (i : S1H.Idx) :
    meanU (fun a => (yr a : EReal)) i = ((rmean yr (i 1) : ℝ) : EReal) := by
  simp only [meanU, rmean]
  rw [colsum_coe, div_cN, ← EReal.coe_mul]

theorem varU_coe (yr : SNH.Idx → ℝ) (i : S1H.Idx) :
    varU (fun a => (yr a : EReal)) i = ((rvar yr (i 1) : ℝ) : EReal) := by
  simp only [varU, meanU_coe, ← EReal.coe_sub, ← EReal.coe_mul]
  rw [colsum_coe, div_cN, ← EReal.coe_mul]
  rfl

theorem varT_coe (yr : SNH.Idx → ℝ) (i : S1H.Idx) :
    varT (fun a => (yr a : EReal)) i = ((rvar yr (i 1) : ℝ) : EReal) := by
  simp only [varT, meanT_eq, colsumT_eq, meanU_coe, ← EReal.coe_mul]
  rw [colsum_coe, div_cN, ← EReal.coe_mul, ← EReal.coe_sub]
  congr 1
  exact (real_var (fun n => yr (ix2 n (i 1)))).symm

/-- An entrywise real array is the coercion of a real array. -/
theorem Fin'.exists_real {s : Shape} {f : s.Idx → EReal} (hf : Fin' f) : ∃ fr : s.Idx → ℝ, f = fun a => (fr a : EReal) := by
  choose fr hfr using hf
  exact ⟨fr, funext hfr⟩

/-- The two variances agree on an entrywise real array. -/
theorem varT_eq {y : SNH.Idx → EReal} (hy : Fin' y) : varT y = varU y := by
  obtain ⟨yr, rfl⟩ := hy.exists_real
  funext i
  rw [varT_coe, varU_coe]

/-- The textbook variance of an entrywise real array is a non-negative real. -/
theorem varU_nonneg {y : SNH.Idx → EReal} (hy : Fin' y) (i : S1H.Idx) : ∃ v : ℝ, 0 ≤ v ∧ varU y i = (v : EReal) := by
  obtain ⟨yr, rfl⟩ := hy.exists_real
  exact ⟨_, rvar_nonneg yr (i 1), varU_coe yr i⟩

end Cert.Spec

end
-- ==== Proof.Math.Bridge5.lean ====
/-
  Entrywise reality is preserved by every step of a layer: the encoder, a dense map, the mixing with neighbour sums,
  the column statistics, and the normalise-scale-shift-rectify step (its reciprocal square root is taken of a
  non-negative variance plus a positive guard term, hence of a positive real).
-/
import Idealize.ShloMosaic.PureOps.Ideal
import Idealize.ShloMosaic.Lib.ValueIdx
import proofs.«411025_j54640573939922_1_alg».proof.Proof.Math.Spec
import proofs.«411025_j54640573939922_1_alg».proof.Proof.Math.Bridge1
import proofs.«411025_j54640573939922_1_alg».proof.Proof.Math.Bridge2
import proofs.«411025_j54640573939922_1_alg».proof.Proof.Math.Bridge3
import proofs.«411025_j54640573939922_1_alg».proof.Proof.Math.Bridge4

noncomputable section

namespace Cert.Spec

open Idealize.ShloMosaic Idealize.ShloMosaic.ValueIdx

/-- An entry of an entrywise real array is real. -/
theorem Fin'.re {s : Shape} {f : s.Idx → EReal} (hf : Fin' f) (i : s.Idx) : Re (f i) := hf i

theorem fin'_enc {x : SN1.Idx → EReal} {w b : S1H.Idx → EReal} (hx : Fin' x) (hw : Fin' w) (hb : Fin' b) :
    Fin' (enc x w b) := fun _ => ((hx.re _).mul (hw.re _)).add (hb.re _)

theorem fin'_lin {z : SNH.Idx → EReal} {w : SHH.Idx → EReal} {b : S1H.Idx → EReal} (hz : Fin' z) (hw : Fin' w)
    (hb : Fin' b) : Fin' (lin z w b) :=
  fun _ => (Re.sum _ _ fun _ _ => (hz.re _).mul (hw.re _)).add (hb.re _)

theorem fin'_mix {s : EReal} {agg : (SNH.Idx → EReal) → SNH.Idx → EReal} {h : SNH.Idx → EReal} (hs : Re s)
    (hh : Fin' h) (ha : Fin' (agg h)) : Fin' (mix s agg h) := fun _ => (hs.mul (hh.re _)).add (ha.re _)

theorem fin'_colsum {y : SNH.Idx → EReal} (hy : Fin' y) : Fin' (colsum y) :=
  fun _ => Re.sum _ _ fun _ _ => hy.re _

theorem fin'_meanU {y : SNH.Idx → EReal} (hy : Fin' y) : Fin' (meanU y) :=
  fun i => ((fin'_colsum hy).re i).div_cN

theorem fin'_varU {y : SNH.Idx → EReal} (hy : Fin' y) : Fin' (varU y) := fun i => by
  obtain ⟨v, _, hv⟩ := varU_nonneg hy i
  exact ⟨v, hv⟩

/-- The normalise-scale-shift-rectify step keeps entries real when the variance row is non-negative real. -/
theorem fin'_bnrelu {y : SNH.Idx → EReal} {mean var g be : S1H.Idx → EReal} (hy : Fin' y) (hm : Fin' mean)
    (hv : ∀ i, ∃ v : ℝ, 0 ≤ v ∧ var i = (v : EReal)) (hg : Fin' g) (hbe : Fin' be) :
    Fin' (bnrelu y mean var g be) := fun i => by
  obtain ⟨v, hv0, hvi⟩ := hv (ix2 0 (i 1))
  have hr : Re (Ideal.rsqrt (var (ix2 0 (i 1)) + cEps)) := by
    rw [hvi]
    exact Re.rsqrt_add_cEps hv0
  have hz : Re cZero := by
    rw [cZero_eq]
    exact Re.zero
  exact ((((hg.re _).mul ((hy.re i).sub (hm.re _))).mul hr).add (hbe.re _)).max hz

/-- With the textbook statistics of the array itself. -/
theorem fin'_bnreluU {y : SNH.Idx → EReal} {g be : S1H.Idx → EReal} (hy : Fin' y) (hg : Fin' g) (hbe : Fin' be) :
    Fin' (bnrelu y (meanU y) (varU y) g be) :=
  fin'_bnrelu hy (fin'_meanU hy) (varU_nonneg hy) hg hbe

end Cert.Spec

end
-- ==== Proof.Math.Bridge6.lean ====
/-
  One layer computed with the tiled statistics equals the layer computed with the textbook statistics, and its result
  is entrywise real, whenever the inputs are: every intermediate array is entrywise real, so the two variances agree
  at both normalisations. Also: the host's accumulating scatter and any reindexing keep entries real.
-/
import Idealize.ShloMosaic.PureOps.Ideal
import Idealize.ShloMosaic.Lib.ValueIdx
import proofs.«411025_j54640573939922_1_alg».proof.Proof.Math.Spec
import proofs.«411025_j54640573939922_1_alg».proof.Proof.Math.Bridge1
import proofs.«411025_j54640573939922_1_alg».proof.Proof.Math.Bridge2
import proofs.«411025_j54640573939922_1_alg».proof.Proof.Math.Bridge3
import proofs.«411025_j54640573939922_1_alg».proof.Proof.Math.Bridge4
import proofs.«411025_j54640573939922_1_alg».proof.Proof.Math.Bridge5

noncomputable section

namespace Cert.Spec

open Idealize.ShloMosaic Idealize.ShloMosaic.ValueIdx

/-- The normalisation with the tiled statistics is the one with the textbook statistics on an entrywise real array. -/
theorem bnreluT_eq {y : SNH.Idx → EReal} (g be : S1H.Idx → EReal) (hy : Fin' y) :
    bnrelu y (meanT y) (varT y) g be = bnrelu y (meanU y) (varU y) g be := by
  rw [meanT_eq, varT_eq hy]

/-- The layer with tiled statistics is the layer with textbook statistics, and the result is entrywise real. -/
theorem layerT_eq_layerU {s : EReal} {agg : (SNH.Idx → EReal) → SNH.Idx → EReal}
    {w1 : SHH.Idx → EReal} {b1 g1 be1 : S1H.Idx → EReal} {w2 : SHH.Idx → EReal} {b2 g2 be2 : S1H.Idx → EReal}
    {h : SNH.Idx → EReal}
    (hs : Re s) (hagg : ∀ h : SNH.Idx → EReal, Fin' h → Fin' (agg h))
    (hw1 : Fin' w1) (hb1 : Fin' b1) (hg1 : Fin' g1) (hbe1 : Fin' be1)
    (hw2 : Fin' w2) (hb2 : Fin' b2) (hg2 : Fin' g2) (hbe2 : Fin' be2) (hh : Fin' h) :
    layerT s agg w1 b1 g1 be1 w2 b2 g2 be2 h = layerU s agg w1 b1 g1 be1 w2 b2 g2 be2 h
      ∧ Fin' (layerU s agg w1 b1 g1 be1 w2 b2 g2 be2 h) := by
  have hy1 : Fin' (lin (mix s agg h) w1 b1) := fin'_lin (fin'_mix hs hh (hagg h hh)) hw1 hb1
  have hy2 : Fin' (lin (bnrelu (lin (mix s agg h) w1 b1) (meanU (lin (mix s agg h) w1 b1))
      (varU (lin (mix s agg h) w1 b1)) g1 be1) w2 b2) := fin'_lin (fin'_bnreluU hy1 hg1 hbe1) hw2 hb2
  refine ⟨?_, fin'_bnreluU hy2 hg2 hbe2⟩
  simp only [layerT, layerU]
  rw [bnreluT_eq g1 be1 hy1, bnreluT_eq g2 be2 hy2]

/-- The host's accumulating scatter of entrywise real updates into an entrywise real operand is entrywise real. -/
theorem fin'_hostScatterAdd {s si su : Shape} (d : ScatterDims s si su) {w : Nat} {x : s.Idx → EReal} (idx : IVec si w)
    {upd : su.Idx → EReal} (hx : Fin' x) (hu : Fin' upd) : Fin' (Ideal.hostScatterAdd d x idx upd) :=
  fun i => (hx.re i).add (Re.sum _ _ fun j _ => hu.re j)

/-- Any reindexing (a gather is one) of an entrywise real array is entrywise real. -/
theorem fin'_reindex {s t : Shape} {x : s.Idx → EReal} (f : t.Idx → s.Idx) (hx : Fin' x) : Fin' (fun j => x (f j)) :=
  fun j => hx (f j)

theorem Re.cN : Re cN := cN_eq ▸ Re.coe _

theorem Re.cEps : Re cEps := cEps_eq ▸ Re.coe _

theorem Re.cOne : Re cOne := cOne_eq ▸ Re.one

theorem Re.cZero : Re cZero := cZero_eq ▸ Re.zero

/-- A constant real array is entrywise real. -/
theorem fin'_const {s : Shape} {a : EReal} (ha : Re a) : Fin' (fun _ : s.Idx => a) := fun _ => ha

end Cert.Spec

end
-- ==== Proof.Math.Net.lean ====
/-
  The whole network as one term of its sixteen argument arrays, with the neighbour sum abstract: the encoder, three
  layers whose parameters are read from the stacked arrays, the pooling by graph and the read-out. Two spellings: with
  the tiled statistics and tiled pooling, and with the textbook statistics and untiled pooling. They agree whenever
  every float argument is entrywise real and the neighbour sum keeps entries real.
-/
import Idealize.ShloMosaic.PureOps.Ideal
import Idealize.ShloMosaic.Lib.ValueIdx
import proofs.«411025_j54640573939922_1_alg».proof.Proof.Math.Spec
import proofs.«411025_j54640573939922_1_alg».proof.Proof.Math.Bridge1
import proofs.«411025_j54640573939922_1_alg».proof.Proof.Math.Bridge2
import proofs.«411025_j54640573939922_1_alg».proof.Proof.Math.Bridge3
import proofs.«411025_j54640573939922_1_alg».proof.Proof.Math.Bridge4
import proofs.«411025_j54640573939922_1_alg».proof.Proof.Math.Bridge5
import proofs.«411025_j54640573939922_1_alg».proof.Proof.Math.Bridge6

noncomputable section

namespace Cert.Spec

open Idealize.ShloMosaic Idealize.ShloMosaic.ValueIdx

/-- The network with tiled statistics and tiled pooling. -/
def netT (agg : (SNH.Idx → EReal) → SNH.Idx → EReal) (a0 : SN1.Idx → EReal) (a2 : SN.Idx → BitVec 32)
    (a3 : S1H.Idx → EReal) (a4 : SH.Idx → EReal) (a5 : S3HH.Idx → EReal) (a6 a7 a8 : S3H.Idx → EReal)
    (a9 : S3HH.Idx → EReal) (a10 : S3H.Idx → EReal) (a11 : S3.Idx → EReal) (a12 a13 : S3H.Idx → EReal)
    (a14 : SH2.Idx → EReal) (a15 : S2.Idx → EReal) : SH2.Idx → EReal :=
  readout
    (poolSumT
      (layerT (cOne + atOf a11 2) agg (matOf a5 2) (rowOf a6 2) (rowOf a7 2) (rowOf a8 2) (matOf a9 2) (rowOf a10 2)
        (rowOf a12 2) (rowOf a13 2)
        (layerT (cOne + atOf a11 1) agg (matOf a5 1) (rowOf a6 1) (rowOf a7 1) (rowOf a8 1) (matOf a9 1) (rowOf a10 1)
          (rowOf a12 1) (rowOf a13 1)
          (layerT (cOne + atOf a11 0) agg (matOf a5 0) (rowOf a6 0) (rowOf a7 0) (rowOf a8 0) (matOf a9 0) (rowOf a10 0)
            (rowOf a12 0) (rowOf a13 0)
            (enc a0 a3 (rowH a4)))))
      (colN a2))
    (poolCntT (colN a2)) a14 (row2 a15)

/-- The network with textbook statistics and untiled pooling. -/
def netU (agg : (SNH.Idx → EReal) → SNH.Idx → EReal) (a0 : SN1.Idx → EReal) (a2 : SN.Idx → BitVec 32)
    (a3 : S1H.Idx → EReal) (a4 : SH.Idx → EReal) (a5 : S3HH.Idx → EReal) (a6 a7 a8 : S3H.Idx → EReal)
    (a9 : S3HH.Idx → EReal) (a10 : S3H.Idx → EReal) (a11 : S3.Idx → EReal) (a12 a13 : S3H.Idx → EReal)
    (a14 : SH2.Idx → EReal) (a15 : S2.Idx → EReal) : SH2.Idx → EReal :=
  readout
    (poolSumU
      (layerU (cOne + atOf a11 2) agg (matOf a5 2) (rowOf a6 2) (rowOf a7 2) (rowOf a8 2) (matOf a9 2) (rowOf a10 2)
        (rowOf a12 2) (rowOf a13 2)
        (layerU (cOne + atOf a11 1) agg (matOf a5 1) (rowOf a6 1) (rowOf a7 1) (rowOf a8 1) (matOf a9 1) (rowOf a10 1)
          (rowOf a12 1) (rowOf a13 1)
          (layerU (cOne + atOf a11 0) agg (matOf a5 0) (rowOf a6 0) (rowOf a7 0) (rowOf a8 0) (matOf a9 0) (rowOf a10 0)
            (rowOf a12 0) (rowOf a13 0)
            (enc a0 a3 (rowH a4)))))
      (colN a2))
    (poolCntU (colN a2)) a14 (row2 a15)

theorem fin'_rowOf {p : S3H.Idx → EReal} (hp : Fin' p) (l : Fin 3) : Fin' (rowOf p l) := fun _ => hp _

theorem fin'_matOf {p : S3HH.Idx → EReal} (hp : Fin' p) (l : Fin 3) : Fin' (matOf p l) := fun _ => hp _

theorem re_atOf {p : S3.Idx → EReal} (hp : Fin' p) (l : Fin 3) : Re (atOf p l) := hp _

theorem fin'_rowH {b : SH.Idx → EReal} (hb : Fin' b) : Fin' (rowH b) := fun _ => hb _

theorem fin'_row2 {b : S2.Idx → EReal} (hb : Fin' b) : Fin' (row2 b) := fun _ => hb _

/-- The two spellings of the network agree on entrywise real arguments. -/
theorem netT_eq_netU {agg : (SNH.Idx → EReal) → SNH.Idx → EReal} {a0 : SN1.Idx → EReal} (a2 : SN.Idx → BitVec 32)
    {a3 : S1H.Idx → EReal} {a4 : SH.Idx → EReal} {a5 : S3HH.Idx → EReal} {a6 a7 a8 : S3H.Idx → EReal}
    {a9 : S3HH.Idx → EReal} {a10 : S3H.Idx → EReal} {a11 : S3.Idx → EReal} {a12 a13 : S3H.Idx → EReal}
    (a14 : SH2.Idx → EReal) (a15 : S2.Idx → EReal)
    (hagg : ∀ h : SNH.Idx → EReal, Fin' h → Fin' (agg h))
    (h0 : Fin' a0) (h3 : Fin' a3) (h4 : Fin' a4) (h5 : Fin' a5) (h6 : Fin' a6) (h7 : Fin' a7) (h8 : Fin' a8)
    (h9 : Fin' a9) (h10 : Fin' a10) (h11 : Fin' a11) (h12 : Fin' a12) (h13 : Fin' a13) :
    netT agg a0 a2 a3 a4 a5 a6 a7 a8 a9 a10 a11 a12 a13 a14 a15
      = netU agg a0 a2 a3 a4 a5 a6 a7 a8 a9 a10 a11 a12 a13 a14 a15 := by
  have H0 : Fin' (enc a0 a3 (rowH a4)) := fin'_enc h0 h3 (fin'_rowH h4)
  have L0 := layerT_eq_layerU (Re.cOne.add (re_atOf h11 0)) hagg (fin'_matOf h5 0) (fin'_rowOf h6 0)
    (fin'_rowOf h7 0) (fin'_rowOf h8 0) (fin'_matOf h9 0) (fin'_rowOf h10 0) (fin'_rowOf h12 0) (fin'_rowOf h13 0) H0
  have L1 := layerT_eq_layerU (Re.cOne.add (re_atOf h11 1)) hagg (fin'_matOf h5 1) (fin'_rowOf h6 1)
    (fin'_rowOf h7 1) (fin'_rowOf h8 1) (fin'_matOf h9 1) (fin'_rowOf h10 1) (fin'_rowOf h12 1) (fin'_rowOf h13 1) L0.2
  have L2 := layerT_eq_layerU (Re.cOne.add (re_atOf h11 2)) hagg (fin'_matOf h5 2) (fin'_rowOf h6 2)
    (fin'_rowOf h7 2) (fin'_rowOf h8 2) (fin'_matOf h9 2) (fin'_rowOf h10 2) (fin'_rowOf h12 2) (fin'_rowOf h13 2) L1.2
  simp only [netT, netU]
  rw [L0.1, L1.1, L2.1, poolSumT_eq, poolCntT_eq]

/-- The network's last hidden array (textbook spelling) is entrywise real on entrywise real arguments. -/
theorem fin'_net_hidden {agg : (SNH.Idx → EReal) → SNH.Idx → EReal} {a0 : SN1.Idx → EReal}
    {a3 : S1H.Idx → EReal} {a4 : SH.Idx → EReal} {a5 : S3HH.Idx → EReal} {a6 a7 a8 : S3H.Idx → EReal}
    {a9 : S3HH.Idx → EReal} {a10 : S3H.Idx → EReal} {a11 : S3.Idx → EReal} {a12 a13 : S3H.Idx → EReal}
    (hagg : ∀ h : SNH.Idx → EReal, Fin' h → Fin' (agg h))
    (h0 : Fin' a0) (h3 : Fin' a3) (h4 : Fin' a4) (h5 : Fin' a5) (h6 : Fin' a6) (h7 : Fin' a7) (h8 : Fin' a8)
    (h9 : Fin' a9) (h10 : Fin' a10) (h11 : Fin' a11) (h12 : Fin' a12) (h13 : Fin' a13) :
    Fin' (layerU (cOne + atOf a11 2) agg (matOf a5 2) (rowOf a6 2) (rowOf a7 2) (rowOf a8 2) (matOf a9 2) (rowOf a10 2)
        (rowOf a12 2) (rowOf a13 2)
        (layerU (cOne + atOf a11 1) agg (matOf a5 1) (rowOf a6 1) (rowOf a7 1) (rowOf a8 1) (matOf a9 1) (rowOf a10 1)
          (rowOf a12 1) (rowOf a13 1)
          (layerU (cOne + atOf a11 0) agg (matOf a5 0) (rowOf a6 0) (rowOf a7 0) (rowOf a8 0) (matOf a9 0) (rowOf a10 0)
            (rowOf a12 0) (rowOf a13 0)
            (enc a0 a3 (rowH a4))))) := by
  have H0 : Fin' (enc a0 a3 (rowH a4)) := fin'_enc h0 h3 (fin'_rowH h4)
  have L0 := layerT_eq_layerU (Re.cOne.add (re_atOf h11 0)) hagg (fin'_matOf h5 0) (fin'_rowOf h6 0)
    (fin'_rowOf h7 0) (fin'_rowOf h8 0) (fin'_matOf h9 0) (fin'_rowOf h10 0) (fin'_rowOf h12 0) (fin'_rowOf h13 0) H0
  have L1 := layerT_eq_layerU (Re.cOne.add (re_atOf h11 1)) hagg (fin'_matOf h5 1) (fin'_rowOf h6 1)
    (fin'_rowOf h7 1) (fin'_rowOf h8 1) (fin'_matOf h9 1) (fin'_rowOf h10 1) (fin'_rowOf h12 1) (fin'_rowOf h13 1) L0.2
  exact (layerT_eq_layerU (Re.cOne.add (re_atOf h11 2)) hagg (fin'_matOf h5 2) (fin'_rowOf h6 2)
    (fin'_rowOf h7 2) (fin'_rowOf h8 2) (fin'_matOf h9 2) (fin'_rowOf h10 2) (fin'_rowOf h12 2) (fin'_rowOf h13 2) L1.2).2

end Cert.Spec

end
-- ==== Proof.KV.Chain1.lean ====
/-
  The value chain, first part. Walking the run's boundaries at the extended reals: the encoder's region leaves the
  encoding of the node features; then, for any array `H` in the first layer's input buffer, the layer's three
  stretches and three regions leave in its output buffer the layer of `H` with the tiled statistics, its parameters
  read from row 0 of the argument arrays and its neighbour sums taken along the edge list.
-/
import proofs.«411025_j54640573939922_1_alg».proof.Proof.KI.RunA
import proofs.«411025_j54640573939922_1_alg».proof.Proof.KV.ChainKeep
import proofs.«411025_j54640573939922_1_alg».proof.Proof.KV.HostA
import proofs.«411025_j54640573939922_1_alg».proof.Proof.KV.Val0
import proofs.«411025_j54640573939922_1_alg».proof.Proof.KV.Val1
import proofs.«411025_j54640573939922_1_alg».proof.Proof.KV.Val2
import proofs.«411025_j54640573939922_1_alg».proof.Proof.KV.Val3
import proofs.«411025_j54640573939922_1_alg».proof.Proof.Math.Spec
import proofs.«411025_j54640573939922_1_alg».proof.Proof.Math.Agg
import proofs.«411025_j54640573939922_1_alg».proof.Proof.Math.Reads
import proofs.«411025_j54640573939922_1_alg».proof.Proof.Math.Net

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## Equal arguments give equal arrays -/

theorem enc_congr {x x' : Cert.Spec.SN1.Idx → EReal} {w w' b b' : Cert.Spec.S1H.Idx → EReal}
    (hx : x = x') (hw : w = w') (hb : b = b') : Cert.Spec.enc x w b = Cert.Spec.enc x' w' b' := by rw [hx, hw, hb]
theorem lin_congr {z z' : Cert.Spec.SNH.Idx → EReal} {w w' : Cert.Spec.SHH.Idx → EReal} {b b' : Cert.Spec.S1H.Idx → EReal}
    (hz : z = z') (hw : w = w') (hb : b = b') : Cert.Spec.lin z w b = Cert.Spec.lin z' w' b' := by rw [hz, hw, hb]
theorem bnrelu_congr {y y' : Cert.Spec.SNH.Idx → EReal} {mu mu' va va' g g' be be' : Cert.Spec.S1H.Idx → EReal}
    (hy : y = y') (hmu : mu = mu') (hva : va = va') (hg : g = g') (hbe : be = be') :
    Cert.Spec.bnrelu y mu va g be = Cert.Spec.bnrelu y' mu' va' g' be' := by rw [hy, hmu, hva, hg, hbe]
theorem mix_congr {s s' : EReal} {agg agg' : (Cert.Spec.SNH.Idx → EReal) → Cert.Spec.SNH.Idx → EReal}
    {h h' : Cert.Spec.SNH.Idx → EReal} (hs : s = s') (hagg : agg = agg') (hh : h = h') :
    Cert.Spec.mix s agg h = Cert.Spec.mix s' agg' h' := by rw [hs, hagg, hh]
theorem nbr_congr (gd : GatherDims Cert.Spec.SNH Cert.Spec.SE1 Cert.Spec.SEH) (sd : ScatterDims Cert.Spec.SNH Cert.Spec.SE1 Cert.Spec.SEH)
    {src src' dst dst' : Cert.Spec.SE.Idx → BitVec 32} (hs : src = src') (hd : dst = dst') :
    Cert.Spec.nbr gd sd src dst = Cert.Spec.nbr gd sd src' dst' := by rw [hs, hd]
theorem readout_congr {s s' : Cert.Spec.SHH.Idx → EReal} {n n' : Cert.Spec.SG1.Idx → EReal} {w w' : Cert.Spec.SH2.Idx → EReal}
    {b b' : Cert.Spec.S12.Idx → EReal} (hs : s = s') (hn : n = n') (hw : w = w') (hb : b = b') :
    Cert.Spec.readout s n w b = Cert.Spec.readout s' n' w' b' := by rw [hs, hn, hw, hb]

/-- An argument array, as the launch memory holds it on core `c`. -/
abbrev argA (m : (ℓ : Loc nD τ sig) → Buf (Elt Ideal) ℓ) (c : Dev nD) (b : Ref sig .tc) : Buf (Elt Ideal) ((c : Thread nD τ).loc b) :=
  m ((c : Thread nD τ).loc b)

variable (m : (ℓ : Loc nD τ sig) → Buf (Elt Ideal) ℓ) (ρ : Dev nD → PrngReg) (c : Dev nD)

/-! ## The encoder -/

/-- After the encoder's region its output buffer holds the encoding of the node features. -/
theorem enc_at2 : W2 m ρ c (Proc.devRef .tc main_v6) =
    Cert.Spec.enc (argA m c main_arg0) (argA m c main_arg3) (Cert.Spec.rowH (argA m c main_arg4)) := by
  have e0 : V1 m ρ c main_arg0 = argA m c main_arg0 := W1_arg m ρ (b := main_arg0) (by decide) c
  have e3 : V1 m ρ c main_arg3 = argA m c main_arg3 := W1_arg m ρ (b := main_arg3) (by decide) c
  have e5 : V1 m ρ c main_v5 = Cert.Spec.rowH (argA m c main_arg4) :=
    (h0_v5 (W0 m ρ c)).trans (congrArg Cert.Spec.rowH (W0_arg m ρ (b := main_arg4) c))
  have o_a := W2_arr m ρ c (3 : Fin cfg0.W)
  have o_b := (out0 (V1 m ρ) c).trans (enc_congr e0 e3 e5)
  exact o_a.trans o_b

/-! ## The first layer -/

set_option maxHeartbeats 4000000 in
/-- Layer 1: if the layer's input buffer holds `H` when its first stretch starts, its output buffer holds the layer of
    `H` (tiled statistics) when its last region ends. -/
theorem layer1 (H : Cert.Spec.SNH.Idx → EReal) (hH : W2 m ρ c (Proc.devRef .tc main_v6) = H) :
    W8 m ρ c (Proc.devRef .tc main_v59) =
      Cert.Spec.layerT (Cert.Spec.cOne + Cert.Spec.atOf (argA m c main_arg11) (0 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1)))
        (Cert.Spec.matOf (argA m c main_arg5) (0 : Fin 3)) (Cert.Spec.rowOf (argA m c main_arg6) (0 : Fin 3)) (Cert.Spec.rowOf (argA m c main_arg7) (0 : Fin 3)) (Cert.Spec.rowOf (argA m c main_arg8) (0 : Fin 3))
        (Cert.Spec.matOf (argA m c main_arg9) (0 : Fin 3)) (Cert.Spec.rowOf (argA m c main_arg10) (0 : Fin 3)) (Cert.Spec.rowOf (argA m c main_arg12) (0 : Fin 3)) (Cert.Spec.rowOf (argA m c main_arg13) (0 : Fin 3)) H := by
  -- the edge list's rows, carried from the first boundary
  have s1 : W2 m ρ c (Proc.devRef .tc main_v1) = Cert.Spec.srcOf (argA m c main_arg1) :=
    (W2_un1 m ρ un1_main_v1 c).trans ((h0_v1 (W0 m ρ c)).trans (congrArg Cert.Spec.srcOf (W0_arg m ρ (b := main_arg1) c)))
  have d1 : W2 m ρ c (Proc.devRef .tc main_v3) = Cert.Spec.dstOf (argA m c main_arg1) :=
    (W2_un1 m ρ un1_main_v3 c).trans ((h0_v3 (W0 m ρ c)).trans (congrArg Cert.Spec.dstOf (W0_arg m ρ (b := main_arg1) c)))
  -- the first dense map's input, weights and bias
  have e_x : V3 m ρ c main_v22 = Cert.Spec.mix (Cert.Spec.cOne + Cert.Spec.atOf (argA m c main_arg11) (0 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1))) H :=
    (h1_v22 (W2 m ρ c)).trans (mix_congr (congrArg (fun p => Cert.Spec.cOne + Cert.Spec.atOf p (0 : Fin 3)) (W2_arg m ρ (b := main_arg11) (by decide) un1_main_arg11 c))
      (nbr_congr _ _ s1 d1) hH)
  have e_w1 : V3 m ρ c main_v27 = Cert.Spec.matOf (argA m c main_arg5) (0 : Fin 3) :=
    (h1_v27 (W2 m ρ c)).trans (congrArg (fun p => Cert.Spec.matOf p (0 : Fin 3)) (W2_arg m ρ (b := main_arg5) (by decide) un1_main_arg5 c))
  have e_b1 : V3 m ρ c main_v25 = Cert.Spec.rowOf (argA m c main_arg6) (0 : Fin 3) :=
    (h1_v25 (W2 m ρ c)).trans (congrArg (fun p => Cert.Spec.rowOf p (0 : Fin 3)) (W2_arg m ρ (b := main_arg6) (by decide) un1_main_arg6 c))
  have e_y1 := lin_congr e_x e_w1 e_b1
  -- what the first dense region leaves: the array and its two running sums
  have y1_a := W4_arr m ρ c (3 : Fin cfg1.W)
  have y1_b := (y1_1 (V3 m ρ) c).trans (e_y1)
  have y1 : W4 m ρ c (Proc.devRef .tc main_v28_0) = _ := y1_a.trans y1_b
  have su1_a := W4_arr m ρ c (4 : Fin cfg1.W)
  have su1_b := (sum_1 (V3 m ρ) c).trans (congrArg Cert.Spec.colsumT e_y1)
  have su1 : W4 m ρ c (Proc.devRef .tc main_v28_1) = _ := su1_a.trans su1_b
  have sq1_a := W4_arr m ρ c (5 : Fin cfg1.W)
  have sq1_b := (sumsq_1 (V3 m ρ) c).trans (congrArg (fun y : Cert.Spec.SNH.Idx → EReal => Cert.Spec.colsumT fun a => y a * y a) e_y1)
  have sq1 : W4 m ρ c (Proc.devRef .tc main_v28_2) = _ := sq1_a.trans sq1_b
  -- the second dense map's input statistics, scale, shift, weights and bias
  have e_y1' : V5 m ρ c main_v28_0 = _ := (W5_of m ρ c main_v28_0 (by decide)).trans y1
  have e_m1 : V5 m ρ c main_v30 = _ :=
    (h2_v30 (W4 m ρ c)).trans ((congrArg Cert.Spec.meanOf su1).trans (Cert.Spec.meanOf_colsumT _))
  have e_v1 : V5 m ρ c main_v34 = _ :=
    (h2_v34 (W4 m ρ c)).trans ((congrArg₂ Cert.Spec.varOf su1 sq1).trans (Cert.Spec.varOf_colsumT _))
  have e_g1 : V5 m ρ c main_v37 = Cert.Spec.rowOf (argA m c main_arg7) (0 : Fin 3) :=
    (h2_v37 (W4 m ρ c)).trans (congrArg (fun p => Cert.Spec.rowOf p (0 : Fin 3)) (W4_arg m ρ (b := main_arg7) (by decide) un1_main_arg7 c))
  have e_be1 : V5 m ρ c main_v40 = Cert.Spec.rowOf (argA m c main_arg8) (0 : Fin 3) :=
    (h2_v40 (W4 m ρ c)).trans (congrArg (fun p => Cert.Spec.rowOf p (0 : Fin 3)) (W4_arg m ρ (b := main_arg8) (by decide) un1_main_arg8 c))
  have e_b2 : V5 m ρ c main_v43 = Cert.Spec.rowOf (argA m c main_arg10) (0 : Fin 3) :=
    (h2_v43 (W4 m ρ c)).trans (congrArg (fun p => Cert.Spec.rowOf p (0 : Fin 3)) (W4_arg m ρ (b := main_arg10) (by decide) un1_main_arg10 c))
  have e_w2 : V5 m ρ c main_v45 = Cert.Spec.matOf (argA m c main_arg9) (0 : Fin 3) :=
    (h2_v45 (W4 m ρ c)).trans (congrArg (fun p => Cert.Spec.matOf p (0 : Fin 3)) (W4_arg m ρ (b := main_arg9) (by decide) un1_main_arg9 c))
  have e_y2 := lin_congr (bnrelu_congr e_y1' e_m1 e_v1 e_g1 e_be1) e_w2 e_b2
  -- what the second dense region leaves
  have y2_a := W6_arr m ρ c (7 : Fin cfg2.W)
  have y2_b := (y2_2 (V5 m ρ) c).trans (e_y2)
  have y2 : W6 m ρ c (Proc.devRef .tc main_v46_0) = _ := y2_a.trans y2_b
  have su2_a := W6_arr m ρ c (8 : Fin cfg2.W)
  have su2_b := (sum_2 (V5 m ρ) c).trans (congrArg Cert.Spec.colsumT e_y2)
  have su2 : W6 m ρ c (Proc.devRef .tc main_v46_1) = _ := su2_a.trans su2_b
  have sq2_a := W6_arr m ρ c (9 : Fin cfg2.W)
  have sq2_b := (sumsq_2 (V5 m ρ) c).trans (congrArg (fun y : Cert.Spec.SNH.Idx → EReal => Cert.Spec.colsumT fun a => y a * y a) e_y2)
  have sq2 : W6 m ρ c (Proc.devRef .tc main_v46_2) = _ := sq2_a.trans sq2_b
  -- the closing normalisation's statistics, scale and shift
  have e_y2' : V7 m ρ c main_v46_0 = _ := (W7_of m ρ c main_v46_0 (by decide)).trans y2
  have e_m2 : V7 m ρ c main_v48 = _ :=
    (h3_v48 (W6 m ρ c)).trans ((congrArg Cert.Spec.meanOf su2).trans (Cert.Spec.meanOf_colsumT _))
  have e_v2 : V7 m ρ c main_v52 = _ :=
    (h3_v52 (W6 m ρ c)).trans ((congrArg₂ Cert.Spec.varOf su2 sq2).trans (Cert.Spec.varOf_colsumT _))
  have e_g2 : V7 m ρ c main_v55 = Cert.Spec.rowOf (argA m c main_arg12) (0 : Fin 3) :=
    (h3_v55 (W6 m ρ c)).trans (congrArg (fun p => Cert.Spec.rowOf p (0 : Fin 3)) (W6_arg m ρ (b := main_arg12) (by decide) un1_main_arg12 c))
  have e_be2 : V7 m ρ c main_v58 = Cert.Spec.rowOf (argA m c main_arg13) (0 : Fin 3) :=
    (h3_v58 (W6 m ρ c)).trans (congrArg (fun p => Cert.Spec.rowOf p (0 : Fin 3)) (W6_arg m ρ (b := main_arg13) (by decide) un1_main_arg13 c))
  have o_a := W8_arr m ρ c (5 : Fin cfg3.W)
  have o_b := (out3 (V7 m ρ) c).trans (bnrelu_congr e_y2' e_m2 e_v2 e_g2 e_be2)
  exact o_a.trans o_b

end Cert.KernelIdeal.HandV

end
-- ==== Proof.KV.HostB.lean ====
/-
  What the host operations between the kernel's regions leave in the arrays a later region reads, at the extended
  reals and from any contents `W` of the buffers: the three stretches of the second layer. The statements are the first
  layer's at this layer's buffers and at row 1 of every parameter array.
-/
import proofs.«411025_j54640573939922_1_alg».proof.Proof.Gen.KernelIdeal.Launch
import proofs.«411025_j54640573939922_1_alg».proof.Proof.Math.Spec
import proofs.«411025_j54640573939922_1_alg».proof.Proof.Math.Agg
import proofs.«411025_j54640573939922_1_alg».proof.Proof.Math.Reads
import Idealize.ShloMosaic.Lib.StableHlo.Run
import Idealize.ShloMosaic.Lib.ValueLayout
import Idealize.ShloMosaic.Lib.ValueIdx
import Idealize.ShloMosaic.Lib.IdealHost

set_option maxRecDepth 16384

noncomputable section

namespace Cert.KernelIdeal.HandV

open Idealize.ShloMosaic Idealize.ShloMosaic.TcCoe Idealize.ShloMosaic.ValueIdx
open Cert.KernelIdeal Cert.KernelIdeal.Gen

variable (W : Valuation τ sig (Elt Ideal))

/-! ## Layer 2: the stretch before its first dense map -/

set_option maxHeartbeats 4000000 in
/-- The first dense map's input: `(1 + ε) · h` plus the neighbour sums of `h`. -/
theorem h4_v75 : (StableHlo.after (hostOps4 (F := Ideal)) W (Proc.devRef .tc main_v75) : Cert.Spec.SNH.Idx → EReal)
    = Cert.Spec.mix (Cert.Spec.cOne + Cert.Spec.atOf (W (Proc.devRef .tc main_arg11)) (1 : Fin 3))
        (Cert.Spec.nbr gather_S20000x128_S640000x1_S640000x128_1_0_n_n_0_1_1128 scatter_S20000x128_S640000x1_S640000x128_1_0_0_1 (W (Proc.devRef .tc main_v1)) (W (Proc.devRef .tc main_v3))) (W (Proc.devRef .tc main_v59)) := by
  dsimp only [hostOps4]
  after_results_simp
  exact Cert.Spec.mix_read _ _ _ (1 : Fin 3) _ _ _ _ _ _ _ _ _ _ _

/-- The first dense map's bias row and weight matrix. -/
theorem h4_v78 : (StableHlo.after (hostOps4 (F := Ideal)) W (Proc.devRef .tc main_v78) : Cert.Spec.S1H.Idx → EReal)
    = Cert.Spec.rowOf (W (Proc.devRef .tc main_arg6)) (1 : Fin 3) := by
  dsimp only [hostOps4]
  after_results
  exact Cert.Spec.rowOf_read _ (1 : Fin 3) _ _ _

theorem h4_v80 : (StableHlo.after (hostOps4 (F := Ideal)) W (Proc.devRef .tc main_v80) : Cert.Spec.SHH.Idx → EReal)
    = Cert.Spec.matOf (W (Proc.devRef .tc main_arg5)) (1 : Fin 3) := by
  dsimp only [hostOps4]
  after_results
  exact Cert.Spec.matOf_read _ (1 : Fin 3) _ _

/-! ## Layer 2: the stretch before its second dense map -/

/-- The first normalisation's mean and variance, from the column sums and the column sums of squares. -/
theorem h5_v83 : (StableHlo.after (hostOps5 (F := Ideal)) W (Proc.devRef .tc main_v83) : Cert.Spec.S1H.Idx → EReal)
    = Cert.Spec.meanOf (W (Proc.devRef .tc main_v81_1)) := by
  dsimp only [hostOps5]
  after_results
  exact Cert.Spec.meanOf_read _ _

theorem h5_v87 : (StableHlo.after (hostOps5 (F := Ideal)) W (Proc.devRef .tc main_v87) : Cert.Spec.S1H.Idx → EReal)
    = Cert.Spec.varOf (W (Proc.devRef .tc main_v81_1)) (W (Proc.devRef .tc main_v81_2)) := by
  dsimp only [hostOps5]
  after_results
  exact Cert.Spec.varOf_read _ _ _ _

/-- The first normalisation's scale and shift rows, the second dense map's bias row and weight matrix. -/
theorem h5_v90 : (StableHlo.after (hostOps5 (F := Ideal)) W (Proc.devRef .tc main_v90) : Cert.Spec.S1H.Idx → EReal)
    = Cert.Spec.rowOf (W (Proc.devRef .tc main_arg7)) (1 : Fin 3) := by
  dsimp only [hostOps5]
  after_results
  exact Cert.Spec.rowOf_read _ (1 : Fin 3) _ _ _

theorem h5_v93 : (StableHlo.after (hostOps5 (F := Ideal)) W (Proc.devRef .tc main_v93) : Cert.Spec.S1H.Idx → EReal)
    = Cert.Spec.rowOf (W (Proc.devRef .tc main_arg8)) (1 : Fin 3) := by
  dsimp only [hostOps5]
  after_results
  exact Cert.Spec.rowOf_read _ (1 : Fin 3) _ _ _

theorem h5_v96 : (StableHlo.after (hostOps5 (F := Ideal)) W (Proc.devRef .tc main_v96) : Cert.Spec.S1H.Idx → EReal)
    = Cert.Spec.rowOf (W (Proc.devRef .tc main_arg10)) (1 : Fin 3) := by
  dsimp only [hostOps5]
  after_results
  exact Cert.Spec.rowOf_read _ (1 : Fin 3) _ _ _

theorem h5_v98 : (StableHlo.after (hostOps5 (F := Ideal)) W (Proc.devRef .tc main_v98) : Cert.Spec.SHH.Idx → EReal)
    = Cert.Spec.matOf (W (Proc.devRef .tc main_arg9)) (1 : Fin 3) := by
  dsimp only [hostOps5]
  after_results
  exact Cert.Spec.matOf_read _ (1 : Fin 3) _ _

/-! ## Layer 2: the stretch before its closing normalisation -/

/-- The closing normalisation's mean and variance, and its scale and shift rows. -/
theorem h6_v101 : (StableHlo.after (hostOps6 (F := Ideal)) W (Proc.devRef .tc main_v101) : Cert.Spec.S1H.Idx → EReal)
    = Cert.Spec.meanOf (W (Proc.devRef .tc main_v99_1)) := by
  dsimp only [hostOps6]
  after_results
  exact Cert.Spec.meanOf_read _ _

theorem h6_v105 : (StableHlo.after (hostOps6 (F := Ideal)) W (Proc.devRef .tc main_v105) : Cert.Spec.S1H.Idx → EReal)
    = Cert.Spec.varOf (W (Proc.devRef .tc main_v99_1)) (W (Proc.devRef .tc main_v99_2)) := by
  dsimp only [hostOps6]
  after_results
  exact Cert.Spec.varOf_read _ _ _ _

theorem h6_v108 : (StableHlo.after (hostOps6 (F := Ideal)) W (Proc.devRef .tc main_v108) : Cert.Spec.S1H.Idx → EReal)
    = Cert.Spec.rowOf (W (Proc.devRef .tc main_arg12)) (1 : Fin 3) := by
  dsimp only [hostOps6]
  after_results
  exact Cert.Spec.rowOf_read _ (1 : Fin 3) _ _ _

theorem h6_v111 : (StableHlo.after (hostOps6 (F := Ideal)) W (Proc.devRef .tc main_v111) : Cert.Spec.S1H.Idx → EReal)
    = Cert.Spec.rowOf (W (Proc.devRef .tc main_arg13)) (1 : Fin 3) := by
  dsimp only [hostOps6]
  after_results
  exact Cert.Spec.rowOf_read _ (1 : Fin 3) _ _ _

end Cert.KernelIdeal.HandV

end
-- ==== Proof.KV.Pay4.lean ====
/-
  The arithmetic of region 4's body at an entry, over the extended reals: the tile of the dense map is, at row r and
  column j, the sum over k of z(r,k) · W(k,j) plus the bias b(j) (the narrowing casts around the product are the
  identity here); a running row after the body is what it held plus the tile's column sum at j, of y or of y².
-/
import proofs.«411025_j54640573939922_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen
open Idealize.ShloMosaic Idealize.ShloMosaic.ValueIdx

/-- The product's dimension numbers: rows × contraction times contraction × columns. -/
abbrev dot_4 : DotDims S2000x128 S128x128 S2000x128 := dot_S2000x128_S128x128_S2000x128_1_0_0_1_n_n

/-- The operand indices of the product at output entry `i` and contraction position `q`, axis by axis: the left operand
    is read at (row of `i`, `q`), the right at (`q`, column of `i`). -/
theorem lhs0_4 (i : S2000x128.Idx) (q : dot_4.contr.Idx) : (dot_4.lhsIdx i q 0).val = (i 0).val := by
  unfold DotDims.lhsIdx
  rw [dif_neg (show ¬(0 : Fin S2000x128.rank) ∈ dot_4.lhsBatch by decide), dif_pos (show (0 : Fin S2000x128.rank) ∈ dot_4.lhsNonContracting by decide)]
  rfl
theorem lhs1_4 (i : S2000x128.Idx) (q : dot_4.contr.Idx) : (dot_4.lhsIdx i q 1).val = (q ⟨0, by decide⟩).val :=
  dot_4.lhsIdx_val_of_single rfl i q
theorem rhs0_4 (i : S2000x128.Idx) (q : dot_4.contr.Idx) : (dot_4.rhsIdx i q 0).val = (q ⟨0, by decide⟩).val :=
  dot_4.rhsIdx_val_of_single rfl i q
theorem rhs1_4 (i : S2000x128.Idx) (q : dot_4.contr.Idx) : (dot_4.rhsIdx i q 1).val = (i 1).val := by
  unfold DotDims.rhsIdx
  rw [dif_neg (show ¬(1 : Fin S128x128.rank) ∈ dot_4.rhsBatch by decide), dif_pos (show (1 : Fin S128x128.rank) ∈ dot_4.rhsNonContracting by decide)]
  rfl

/-- The tile of the dense map at an entry. -/
theorem pay1_apply_4 (x0 : Vec Ideal S2000x128 .f32) (x1 : Vec Ideal S128x128 .f32) (x2 : Vec Ideal S1x128 .f32) (r : Fin 2000) (j : Fin 128) :
    k4_pay1 x0 x1 x2 (ix2 r j) = (∑ k : Fin 128, x0 (ix2 r k) * x1 (ix2 k j)) + x2 (ix2 0 j) := by
  unfold k4_pay1
  refine (addf_apply _ _ _).trans ?_
  congr 1
  · simp only [matmul]
    rw [Ideal.matmul_constant_zero_apply, ← Equiv.sum_comp (contrEquiv1 dot_4 128 rfl rfl).symm]
    refine Finset.sum_congr rfl fun k _ => ?_
    have hk := contrEquiv1_symm_val dot_4 128 rfl rfl k
    have el : dot_4.lhsIdx (ix2 r j) ((contrEquiv1 dot_4 128 rfl rfl).symm k) = ix2 r k := funext fun a => Fin.ext (by
      match a with
      | ⟨0, _⟩ => exact lhs0_4 _ _
      | ⟨1, _⟩ => exact (lhs1_4 _ _).trans hk)
    have er : dot_4.rhsIdx (ix2 r j) ((contrEquiv1 dot_4 128 rfl rfl).symm k) = ix2 k j := funext fun a => Fin.ext (by
      match a with
      | ⟨0, _⟩ => exact (rhs0_4 _ _).trans hk
      | ⟨1, _⟩ => exact rhs1_4 _ _)
    rw [el, er]
    simp only [truncf_apply, shapeCast_self]
  · rw [shapeCast_self]
    exact broadcastTo_apply x2 broadcasts_S1x128_S2000x128 (ix2 r j) (ix2 0 j) (fun a => by
      match a with
      | ⟨0, _⟩ => rfl
      | ⟨1, _⟩ => rfl)

/-- The zero row stored at the first tile. -/
theorem pay2_apply_4 (i : S1x128.Idx) : (k4_pay2 (F := Ideal)) i = 0 := by
  unfold k4_pay2
  exact Ideal.ofBits_zero_f32
theorem pay3_apply_4 (i : S1x128.Idx) : (k4_pay3 (F := Ideal)) i = 0 := by
  unfold k4_pay3
  exact Ideal.ofBits_zero_f32

/-- The source entry over column `j` with row `k` put back. -/
theorem lift_4 (j : Fin 128) (k : Fin 2000) : reduces_S2000x128_S128.lift (ix1 j) k = ix2 k j :=
  funext fun a => Fin.ext (by
    match a with
    | ⟨0, _⟩ => rfl
    | ⟨1, _⟩ => rfl)

/-- The running column sums after the body: what the row held plus the tile's column sums. -/
theorem pay4_apply_4 (x0 : Vec Ideal S2000x128 .f32) (x1 : Vec Ideal S128x128 .f32) (x2 : Vec Ideal S1x128 .f32) (acc : Vec Ideal S1x128 .f32) (u : Fin 1) (j : Fin 128) :
    k4_pay4 x0 x1 x2 acc (ix2 u j) = acc (ix2 u j) + ∑ r : Fin 2000, k4_pay1 x0 x1 x2 (ix2 r j) := by
  unfold k4_pay4
  refine (addf_apply _ _ _).trans ?_
  rw [shapeCast_self]
  congr 1
  refine (shapeCast_a_1a_apply _ shapeCasts_S128_S1x128 u j).trans ?_
  refine (Ideal.multiReduction_add_single (k4_pay1 x0 x1 x2) 0x00000000#32 reduces_S2000x128_S128 (.inl rfl) rfl (ix1 j)).trans ?_
  exact Finset.sum_congr rfl fun k _ => congrArg (k4_pay1 x0 x1 x2) (lift_4 j k)

/-- The running column sums of squares likewise. -/
theorem pay5_apply_4 (x0 : Vec Ideal S2000x128 .f32) (x1 : Vec Ideal S128x128 .f32) (x2 : Vec Ideal S1x128 .f32) (acc : Vec Ideal S1x128 .f32) (u : Fin 1) (j : Fin 128) :
    k4_pay5 x0 x1 x2 acc (ix2 u j) = acc (ix2 u j) + ∑ r : Fin 2000, k4_pay1 x0 x1 x2 (ix2 r j) * k4_pay1 x0 x1 x2 (ix2 r j) := by
  unfold k4_pay5
  refine (addf_apply _ _ _).trans ?_
  rw [shapeCast_self]
  congr 1
  refine (shapeCast_a_1a_apply _ shapeCasts_S128_S1x128 u j).trans ?_
  refine (Ideal.multiReduction_add_single (mulf (k4_pay1 x0 x1 x2) (k4_pay1 x0 x1 x2)) 0x00000000#32 reduces_S2000x128_S128 (.inl rfl) rfl (ix1 j)).trans ?_
  exact Finset.sum_congr rfl fun k _ => (mulf_apply _ _ _).trans (congrArg (fun i => k4_pay1 x0 x1 x2 i * k4_pay1 x0 x1 x2 i) (lift_4 j k))

end Cert.KernelIdeal.HandV

end
-- ==== Proof.KV.Piece4.lean ====
/-
  What each case of region 4's body leaves in the three outputs' staging buffers, as values: the tile y of the
  dense map; and for a running row, at the first tile zero plus the tile's column sums (the zero row is stored and
  read back), at a later tile what the row held plus the tile's column sums. For any float model.
-/
import proofs.«411025_j54640573939922_1_alg».proof.Proof.KI.Reg4
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz_4 : (![0, 0] : Fin 2 → Nat) = fun _ => 0 := funext fun a => by fin_cases a <;> rfl

/-- First tile: the tile of the dense map, -/
theorem out_A_3_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) :
    out4_A_3 c i arg1 harg1 arg2 harg2 arg3 harg3 arg4 harg4 arg5 harg5 arg6 harg6 hc0 x0 x1 x2 = k4_pay1 x0 x1 x2 := by
  unfold out4_A_3
  rw [View.read_writes_eq_canon _ _ _ (cover4_A_3 c i arg1 harg1 arg2 harg2 arg3 harg3 arg4 harg4 arg5 harg5 arg6 harg6 hc0 x0 x1 x2)]
  unfold kernelRun4_A
  dsimp only
  sl_unfold_words
  rw [View.canon_unit_zero hz_4]
  simp only [View.readAt_eq_ld, harg1.read_unread, harg2.read_unread, harg3.read_unread, View.ld_unit_zero (S := S2000x128) hz_4, View.ld_unit_zero (S := S128x128) hz_4, View.ld_unit_zero (S := S1x128) hz_4]

/-- zero plus its column sums, -/
theorem out_A_4_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) :
    out4_A_4 c i arg1 harg1 arg2 harg2 arg3 harg3 arg4 harg4 arg5 harg5 arg6 harg6 hc0 x0 x1 x2 = k4_pay4 x0 x1 x2 (k4_pay2 (F := F)) := by
  unfold out4_A_4
  rw [View.read_writes_eq_canon _ _ _ (cover4_A_4 c i arg1 harg1 arg2 harg2 arg3 harg3 arg4 harg4 arg5 harg5 arg6 harg6 hc0 x0 x1 x2)]
  unfold kernelRun4_A
  dsimp only
  sl_unfold_words
  rw [View.canon_cons_unit_zero (S := S1x128) hz_4, View.readCov_unit_zero (S := S1x128) _ hz_4]
  simp only [View.readAt_eq_ld, harg1.read_unread, harg2.read_unread, harg3.read_unread, View.ld_unit_zero (S := S2000x128) hz_4, View.ld_unit_zero (S := S128x128) hz_4, View.ld_unit_zero (S := S1x128) hz_4]

/-- zero plus the column sums of its squares. -/
theorem out_A_5_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (x0 : Vec F S2000x128 .f32) (x1 : Vec F S128x128 .f32) (x2 : Vec F S1x128 .f32) :
    out4_A_5 c i arg1 harg1 arg2 harg2 arg3 harg3 arg4 harg4 arg5 harg5 arg6 harg6 hc0 x0 x1 x2 = k4_pay5 x0 x1 x2 (k4_pay3 (F := F)) := by
  unfold out4_A_5
  rw [View.read_writes_eq_canon _ _ _ (cover4_A_5 c i arg1 harg1 arg2 harg2 arg3 harg3 arg4 harg4 arg5 harg5 arg6 harg6 hc0 x0 x1 x2)]
  unfold kernelRun4_A
  dsimp only
  sl_unfold_words
  rw [View.canon_cons_unit_zero (S := S1x128) hz_4, View.readCov_unit_zero (S := S1x128) _ hz_4]
  simp only [View.readAt_eq_ld, harg1.read_unread, harg2.read_unread, harg3.read_unread, View.ld_unit_zero (S := S2000x128) hz_4, View.ld_unit_zero (S := S128x128) hz_4, View.ld_unit_zero (S := S1x128) hz_4]

/-- A later tile: the tile of the dense map, -/
theorem out_B_3_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) :
    out4_B_3 c i arg1 harg1 arg2 harg2 arg3 harg3 arg4 harg4 arg5 harg5 arg6 harg6 hc0 x0 x1 x2 xo4 xo5 = k4_pay1 x0 x1 x2 := by
  unfold out4_B_3
  rw [View.read_writes_eq_canon _ _ _ (cover4_B_3 c i arg1 harg1 arg2 harg2 arg3 harg3 arg4 harg4 arg5 harg5 arg6 harg6 hc0 x0 x1 x2 xo4 xo5)]
  unfold kernelRun4_B
  dsimp only
  sl_unfold_words
  rw [View.canon_unit_zero hz_4]
  simp only [View.readAt_eq_ld, harg1.read_unread, harg2.read_unread, harg3.read_unread, harg5.read_unread, harg6.read_unread, View.ld_unit_zero (S := S2000x128) hz_4, View.ld_unit_zero (S := S128x128) hz_4, View.ld_unit_zero (S := S1x128) hz_4]

/-- the sums so far plus its column sums, -/
theorem out_B_4_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) :
    out4_B_4 c i arg1 harg1 arg2 harg2 arg3 harg3 arg4 harg4 arg5 harg5 arg6 harg6 hc0 x0 x1 x2 xo4 xo5 = k4_pay4 x0 x1 x2 xo4 := by
  unfold out4_B_4
  rw [View.read_writes_eq_canon _ _ _ (cover4_B_4 c i arg1 harg1 arg2 harg2 arg3 harg3 arg4 harg4 arg5 harg5 arg6 harg6 hc0 x0 x1 x2 xo4 xo5)]
  unfold kernelRun4_B
  dsimp only
  sl_unfold_words
  rw [View.canon_unit_zero hz_4]
  simp only [View.readAt_eq_ld, harg1.read_unread, harg2.read_unread, harg3.read_unread, harg5.read_unread, harg6.read_unread, View.ld_unit_zero (S := S2000x128) hz_4, View.ld_unit_zero (S := S128x128) hz_4, View.ld_unit_zero (S := S1x128) hz_4]

/-- the sums of squares so far plus the column sums of its squares. -/
theorem out_B_5_4 (c : Dev nD) (i : grid4.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (x0 : Vec F S2000x128 .f32) (x1 : Vec F S128x128 .f32) (x2 : Vec F S1x128 .f32) (xo4 : Vec F S1x128 .f32) (xo5 : Vec F S1x128 .f32) :
    out4_B_5 c i arg1 harg1 arg2 harg2 arg3 harg3 arg4 harg4 arg5 harg5 arg6 harg6 hc0 x0 x1 x2 xo4 xo5 = k4_pay5 x0 x1 x2 xo5 := by
  unfold out4_B_5
  rw [View.read_writes_eq_canon _ _ _ (cover4_B_5 c i arg1 harg1 arg2 harg2 arg3 harg3 arg4 harg4 arg5 harg5 arg6 harg6 hc0 x0 x1 x2 xo4 xo5)]
  unfold kernelRun4_B
  dsimp only
  sl_unfold_words
  rw [View.canon_unit_zero hz_4]
  simp only [View.readAt_eq_ld, harg1.read_unread, harg2.read_unread, harg3.read_unread, harg5.read_unread, harg6.read_unread, View.ld_unit_zero (S := S2000x128) hz_4, View.ld_unit_zero (S := S128x128) hz_4, View.ld_unit_zero (S := S1x128) hz_4]

end Cert.KernelIdeal.HandV

end
-- ==== Proof.KV.Val4.lean ====
/-
  What region 4 leaves in its three result arrays, over the extended reals, as functions of the arrays it reads:
  the dense map y = z · W + b of all twenty thousand rows (each tile's write-back is that tile of y, and the ten
  tiles cover the array); the column sums of y taken tile by tile; and the column sums of y² likewise. The running
  rows are handled by induction on the tile: after tile n the row holds the sum over tiles 0..n of the tile's
  column sums (zero plus the first tile's at the start); only the last tile's contents are written back.
-/
import proofs.«411025_j54640573939922_1_alg».proof.Proof.KV.Pay4
import proofs.«411025_j54640573939922_1_alg».proof.Proof.KV.Piece4
import proofs.«411025_j54640573939922_1_alg».proof.Proof.Math.Spec
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The arrays the region reads: the rows z, the weights W, the bias b; and the dense map of them. -/
abbrev zarr_4 (c : Dev nD) : Cert.Spec.SNH.Idx → EReal := V c main_v75
abbrev warr_4 (c : Dev nD) : Cert.Spec.SHH.Idx → EReal := V c main_v80
abbrev barr_4 (c : Dev nD) : Cert.Spec.S1H.Idx → EReal := V c main_v78
abbrev yarr_4 (c : Dev nD) : Cert.Spec.SNH.Idx → EReal := Cert.Spec.lin (zarr_4 V c) (warr_4 V c) (barr_4 V c)

/-- The three input blocks at tile `t`, at their literal shapes. -/
abbrev zblk_4 (c : Dev nD) (t : Fin cfg4.N) : Vec Ideal S2000x128 .f32 := iblk4 V c 0 t
abbrev wblk_4 (c : Dev nD) (t : Fin cfg4.N) : Vec Ideal S128x128 .f32 := iblk4 V c 1 t
abbrev bblk_4 (c : Dev nD) (t : Fin cfg4.N) : Vec Ideal S1x128 .f32 := iblk4 V c 2 t

/-- The block index of every window at tile `t`: the rows' and the result tile's move with `t`, the others stay. -/
theorem idx_4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- A grid point as one of the ten tiles. -/
abbrev tile_4 (t : Fin cfg4.N) : Fin 10 := ⟨t.val, lt_of_lt_of_eq t.isLt (show cfg4.N = 10 from N_4)⟩

/-- The blocks read through their windows: row `r` of tile `t` is row `2000 t + r` of z; W and b are read whole. -/
theorem zblk_apply_4 (c : Dev nD) (t : Fin cfg4.N) (r : Fin 2000) (k : Fin 128) :
    zblk_4 V c t (ix2 r k) = zarr_4 V c (ix2 (Cert.Spec.row (tile_4 t) r) k) := by
  obtain ⟨e0, e1, -⟩ := idx_4 t
  show ((cfg4.win 0).blk t).view.read (Elt Ideal) (V c main_v75) (ix2 r k) = V c main_v75 _
  rw [View.read_apply]
  have he : ((cfg4.win 0).blk t).view.emb (ix2 r k) = ix2 (Cert.Spec.row (tile_4 t) r) k := by
    funext a
    apply Fin.ext
    match a with
    | ⟨0, _⟩ => show win4_0.index t 0 * 2000 + 1 * r.val = 2000 * t.val + r.val; rw [e0]; omega
    | ⟨1, _⟩ => show win4_0.index t 1 * 128 + 1 * k.val = k.val; rw [e1]; omega
  exact congrArg (V c main_v75) he

theorem wblk_apply_4 (c : Dev nD) (t : Fin cfg4.N) (k : Fin 128) (j : Fin 128) :
    wblk_4 V c t (ix2 k j) = warr_4 V c (ix2 k j) := by
  obtain ⟨-, -, e2, e3, -⟩ := idx_4 t
  show ((cfg4.win 1).blk t).view.read (Elt Ideal) (V c main_v80) (ix2 k j) = V c main_v80 _
  rw [View.read_apply]
  have he : ((cfg4.win 1).blk t).view.emb (ix2 k j) = ix2 k j := by
    funext a
    apply Fin.ext
    match a with
    | ⟨0, _⟩ => show win4_1.index t 0 * 128 + 1 * k.val = k.val; rw [e2]; omega
    | ⟨1, _⟩ => show win4_1.index t 1 * 128 + 1 * j.val = j.val; rw [e3]; omega
  exact congrArg (V c main_v80) he

theorem bblk_apply_4 (c : Dev nD) (t : Fin cfg4.N) (u : Fin 1) (j : Fin 128) :
    bblk_4 V c t (ix2 u j) = barr_4 V c (ix2 0 j) := by
  obtain ⟨-, -, -, -, e4, e5, -⟩ := idx_4 t
  show ((cfg4.win 2).blk t).view.read (Elt Ideal) (V c main_v78) (ix2 u j) = V c main_v78 _
  rw [View.read_apply]
  have he : ((cfg4.win 2).blk t).view.emb (ix2 u j) = ix2 0 j := by
    funext a
    apply Fin.ext
    match a with
    | ⟨0, _⟩ => show win4_2.index t 0 * 1 + 1 * u.val = 0; rw [e4]; omega
    | ⟨1, _⟩ => show win4_2.index t 1 * 128 + 1 * j.val = j.val; rw [e5]; omega
  exact congrArg (V c main_v78) he

/-- The body's tile is tile `t` of the dense map. -/
theorem tile_eq_4 (c : Dev nD) (t : Fin cfg4.N) (r : Fin 2000) (j : Fin 128) :
    k4_pay1 (zblk_4 V c t) (wblk_4 V c t) (bblk_4 V c t) (ix2 r j) = yarr_4 V c (ix2 (Cert.Spec.row (tile_4 t) r) j) := by
  refine (pay1_apply_4 (zblk_4 V c t) (wblk_4 V c t) (bblk_4 V c t) r j).trans ?_
  show _ = (∑ k : Fin 128, zarr_4 V c (ix2 (Cert.Spec.row (tile_4 t) r) k) * warr_4 V c (ix2 k j)) + barr_4 V c (ix2 0 j)
  rw [bblk_apply_4 V c t 0 j]
  congr 1
  exact Finset.sum_congr rfl fun k _ => by rw [zblk_apply_4 V c t r k, wblk_apply_4 V c t k j]

/-! ## The dense map's array -/

/-- After any tile the result window's buffer holds the body's tile. -/
theorem after3_eq_4 (c : Dev nD) (t : Fin cfg4.N) :
    (dat4 V c).after 3 t = k4_pay1 (zblk_4 V c t) (wblk_4 V c t) (bblk_4 V c t) := by
  rw [after4_3]
  by_cases h0 : t.val % 10 = 0
  · rw [outsAt4_A V c t h0]; dsimp only
    exact out_A_3_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]; dsimp only
    exact out_B_3_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- What tile `t` writes back is block `t` of the dense map. -/
theorem flushed3_eq_4 (c : Dev nD) (t : Fin cfg4.N) :
    (dat4 V c).flushed 3 t = ((cfg4.win 3).blk t).view.read (Elt Ideal) (yarr_4 V c) := by
  show (cfg4.win 3).cut (grid4.coords t) ((dat4 V c).after 3 t) = _
  rw [after3_eq_4]
  obtain ⟨-, -, -, -, -, -, e6, e7, -⟩ := idx_4 t
  funext y
  obtain ⟨r, j, rfl⟩ : ∃ (r : Fin 2000) (j : Fin 128), y = ix2 r j := ⟨y 0, y 1, eq_ix2 y⟩
  show k4_pay1 (zblk_4 V c t) (wblk_4 V c t) (bblk_4 V c t) (ix2 r j) = yarr_4 V c (((cfg4.win 3).blk t).view.emb (ix2 r j))
  rw [tile_eq_4]
  congr 1
  funext a
  apply Fin.ext
  match a with
  | ⟨0, _⟩ => show 2000 * t.val + r.val = win4_3.index t 0 * 2000 + 1 * r.val; rw [e6]; omega
  | ⟨1, _⟩ => show j.val = win4_3.index t 1 * 128 + 1 * j.val; rw [e7]; omega

/-- The array of the dense map after the region: the ten tiles' write-backs cover it. -/
theorem y1_4 (c : Dev nD) : (dat4 V c).arrAt 3 cfg4.N = Cert.Spec.lin (V c main_v75) (V c main_v80) (V c main_v78) :=
  (dat4 V c).arrAt_eq_of_cover 3 (yarr_4 V c) (fun t _ => flushed3_eq_4 V c t) fun i => by
    have hi0 : (i 0).val < 20000 := (i 0).isLt
    have hi1 : (i 1).val < 128 := (i 1).isLt
    have hN : cfg4.N = 10 := N_4
    obtain ⟨t, ht⟩ : ∃ t : Fin cfg4.N, t.val = (i 0).val / 2000 := ⟨⟨(i 0).val / 2000, by omega⟩, rfl⟩
    obtain ⟨-, -, -, -, -, -, e6, e7, -⟩ := idx_4 t
    refine ⟨t, flush4_3 t, ?_⟩
    show i ∈ ((View.whole main_v81_0).slice (win4_3.rect t)).set
    rw [View.set_slice_whole, Rect.mem_set_unit]
    intro a
    match a with
    | ⟨0, _⟩ => show win4_3.index t 0 * 2000 ≤ (i 0).val ∧ (i 0).val < win4_3.index t 0 * 2000 + 2000; rw [e6]; omega
    | ⟨1, _⟩ => show win4_3.index t 1 * 128 ≤ (i 1).val ∧ (i 1).val < win4_3.index t 1 * 128 + 128; rw [e7]; omega

/-! ## The two running rows -/

/-- Column `j`'s sum over tile `k` of an array of all the rows (nothing past the tenth tile). -/
def tileSum_4 (y : Cert.Spec.SNH.Idx → EReal) (j : Fin 128) (k : ℕ) : EReal :=
  if h : k < 10 then ∑ r : Fin 2000, y (ix2 (Cert.Spec.row ⟨k, h⟩ r) j) else 0

/-- One step of each row at tile `t`: what it held plus that tile's column sum. -/
theorem step4_4 (c : Dev nD) (t : Fin cfg4.N) (acc : Vec Ideal S1x128 .f32) (u : Fin 1) (j : Fin 128) :
    k4_pay4 (zblk_4 V c t) (wblk_4 V c t) (bblk_4 V c t) acc (ix2 u j) = acc (ix2 u j) + tileSum_4 (yarr_4 V c) j t.val := by
  refine (pay4_apply_4 (zblk_4 V c t) (wblk_4 V c t) (bblk_4 V c t) acc u j).trans ?_
  congr 1
  unfold tileSum_4
  rw [dif_pos (lt_of_lt_of_eq t.isLt (show cfg4.N = 10 from N_4))]
  exact Finset.sum_congr rfl fun r _ => tile_eq_4 V c t r j

theorem step5_4 (c : Dev nD) (t : Fin cfg4.N) (acc : Vec Ideal S1x128 .f32) (u : Fin 1) (j : Fin 128) :
    k4_pay5 (zblk_4 V c t) (wblk_4 V c t) (bblk_4 V c t) acc (ix2 u j)
      = acc (ix2 u j) + tileSum_4 (fun a => yarr_4 V c a * yarr_4 V c a) j t.val := by
  refine (pay5_apply_4 (zblk_4 V c t) (wblk_4 V c t) (bblk_4 V c t) acc u j).trans ?_
  congr 1
  unfold tileSum_4
  rw [dif_pos (lt_of_lt_of_eq t.isLt (show cfg4.N = 10 from N_4))]
  exact Finset.sum_congr rfl fun r _ => by rw [tile_eq_4 V c t r j]

/-- What the rows' buffers hold after tile `t`, case by case. -/
theorem after4_A_4 (c : Dev nD) (t : Fin cfg4.N) (h0 : t.val % 10 = 0) :
    (outsAt4 V c t.val t.isLt).2.1 = k4_pay4 (zblk_4 V c t) (wblk_4 V c t) (bblk_4 V c t) (k4_pay2 (F := Ideal)) := by
  rw [outsAt4_A V c t h0]; dsimp only
  exact out_A_4_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
theorem after4_B_4 (c : Dev nD) (t : Fin cfg4.N) (h0 : ¬t.val % 10 = 0) :
    (outsAt4 V c t.val t.isLt).2.1 = k4_pay4 (zblk_4 V c t) (wblk_4 V c t) (bblk_4 V c t) (outsAt4 V c (t.val - 1) (Nat.lt_of_le_of_lt (Nat.sub_le _ _) t.isLt)).2.1 := by
  rw [outsAt4_B V c t h0]; dsimp only
  exact out_B_4_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2
theorem after5_A_4 (c : Dev nD) (t : Fin cfg4.N) (h0 : t.val % 10 = 0) :
    (outsAt4 V c t.val t.isLt).2.2 = k4_pay5 (zblk_4 V c t) (wblk_4 V c t) (bblk_4 V c t) (k4_pay3 (F := Ideal)) := by
  rw [outsAt4_A V c t h0]; dsimp only
  exact out_A_5_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
theorem after5_B_4 (c : Dev nD) (t : Fin cfg4.N) (h0 : ¬t.val % 10 = 0) :
    (outsAt4 V c t.val t.isLt).2.2 = k4_pay5 (zblk_4 V c t) (wblk_4 V c t) (bblk_4 V c t) (outsAt4 V c (t.val - 1) (Nat.lt_of_le_of_lt (Nat.sub_le _ _) t.isLt)).2.2 := by
  rw [outsAt4_B V c t h0]; dsimp only
  exact out_B_5_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2

/-- After tile `n` the row of sums holds the sum over tiles `0..n` of the tile's column sums: by induction on the tile. -/
theorem acc4_4 (c : Dev nD) : ∀ (n : ℕ) (h : n < cfg4.N) (u : Fin 1) (j : Fin 128),
    ((outsAt4 V c n h).2.1 : Vec Ideal S1x128 .f32) (ix2 u j) = ∑ k ∈ Finset.range (n + 1), tileSum_4 (yarr_4 V c) j k
  | 0, h, u, j => by
    refine (congrFun (after4_A_4 V c ⟨0, h⟩ rfl) (ix2 u j)).trans ?_
    rw [step4_4 V c ⟨0, h⟩, pay2_apply_4, zero_add, Finset.sum_range_one]
  | n + 1, h, u, j => by
    have hN : cfg4.N = 10 := N_4
    have hB : ¬(⟨n + 1, h⟩ : Fin cfg4.N).val % 10 = 0 := by dsimp only; omega
    refine (congrFun (after4_B_4 V c ⟨n + 1, h⟩ hB) (ix2 u j)).trans ?_
    rw [step4_4 V c ⟨n + 1, h⟩, Finset.sum_range_succ]
    congr 1
    exact acc4_4 c n _ u j

/-- The row of sums of squares likewise. -/
theorem acc5_4 (c : Dev nD) : ∀ (n : ℕ) (h : n < cfg4.N) (u : Fin 1) (j : Fin 128),
    ((outsAt4 V c n h).2.2 : Vec Ideal S1x128 .f32) (ix2 u j)
      = ∑ k ∈ Finset.range (n + 1), tileSum_4 (fun a => yarr_4 V c a * yarr_4 V c a) j k
  | 0, h, u, j => by
    refine (congrFun (after5_A_4 V c ⟨0, h⟩ rfl) (ix2 u j)).trans ?_
    rw [step5_4 V c ⟨0, h⟩, pay3_apply_4, zero_add, Finset.sum_range_one]
  | n + 1, h, u, j => by
    have hN : cfg4.N = 10 := N_4
    have hB : ¬(⟨n + 1, h⟩ : Fin cfg4.N).val % 10 = 0 := by dsimp only; omega
    refine (congrFun (after5_B_4 V c ⟨n + 1, h⟩ hB) (ix2 u j)).trans ?_
    rw [step5_4 V c ⟨n + 1, h⟩, Finset.sum_range_succ]
    congr 1
    exact acc5_4 c n _ u j

/-- The sum over the ten tiles, tile by tile, is the tiled column sum. -/
theorem tileSum_total_4 (y : Cert.Spec.SNH.Idx → EReal) (j : Fin 128) :
    ∑ k ∈ Finset.range 10, tileSum_4 y j k = ∑ t : Fin 10, ∑ r : Fin 2000, y (ix2 (Cert.Spec.row t r) j) := by
  rw [← Fin.sum_univ_eq_sum_range (fun k => tileSum_4 y j k) 10]
  exact Finset.sum_congr rfl fun k _ => by unfold tileSum_4; rw [dif_pos k.isLt]

/-- The one write-back of the row of sums, after the last tile, writes the tiled column sums of the dense map. -/
theorem flushed4_eq_4 (c : Dev nD) (t : Fin cfg4.N) (hf : (cfg4.win 4).flush t = true) :
    (dat4 V c).flushed 4 t = ((cfg4.win 4).blk t).view.read (Elt Ideal) (Cert.Spec.colsumT (yarr_4 V c)) := by
  have hN : cfg4.N = 10 := N_4
  have h9 : t.val = 9 := by have := (flush4_4 t).mp hf; have := t.isLt; omega
  obtain ⟨-, -, -, -, -, -, -, -, e8, e9, -⟩ := idx_4 t
  show (cfg4.win 4).cut (grid4.coords t) ((dat4 V c).after 4 t) = _
  rw [after4_4]
  funext y
  obtain ⟨u, j, rfl⟩ : ∃ (u : Fin 1) (j : Fin 128), y = ix2 u j := ⟨y 0, y 1, eq_ix2 y⟩
  have hemb : (((cfg4.win 4).blk t).view.emb (ix2 u j)) 1 = j :=
    Fin.ext (by show win4_4.index t 1 * 128 + 1 * j.val = j.val; rw [e9]; omega)
  show (outsAt4 V c t.val t.isLt).2.1 (ix2 u j)
    = ∑ t' : Fin 10, ∑ r : Fin 2000, yarr_4 V c (ix2 (Cert.Spec.row t' r) ((((cfg4.win 4).blk t).view.emb (ix2 u j)) 1))
  rw [hemb, acc4_4 V c t.val t.isLt u j, h9]
  exact tileSum_total_4 (yarr_4 V c) j

theorem flushed5_eq_4 (c : Dev nD) (t : Fin cfg4.N) (hf : (cfg4.win 5).flush t = true) :
    (dat4 V c).flushed 5 t = ((cfg4.win 5).blk t).view.read (Elt Ideal)
      (Cert.Spec.colsumT (fun a => yarr_4 V c a * yarr_4 V c a)) := by
  have hN : cfg4.N = 10 := N_4
  have h9 : t.val = 9 := by have := (flush4_5 t).mp hf; have := t.isLt; omega
  obtain ⟨-, -, -, -, -, -, -, -, -, -, e10, e11⟩ := idx_4 t
  show (cfg4.win 5).cut (grid4.coords t) ((dat4 V c).after 5 t) = _
  rw [after4_5]
  funext y
  obtain ⟨u, j, rfl⟩ : ∃ (u : Fin 1) (j : Fin 128), y = ix2 u j := ⟨y 0, y 1, eq_ix2 y⟩
  have hemb : (((cfg4.win 5).blk t).view.emb (ix2 u j)) 1 = j :=
    Fin.ext (by show win4_5.index t 1 * 128 + 1 * j.val = j.val; rw [e11]; omega)
  show (outsAt4 V c t.val t.isLt).2.2 (ix2 u j)
    = ∑ t' : Fin 10, ∑ r : Fin 2000, (fun a => yarr_4 V c a * yarr_4 V c a) (ix2 (Cert.Spec.row t' r) ((((cfg4.win 5).blk t).view.emb (ix2 u j)) 1))
  rw [hemb, acc5_4 V c t.val t.isLt u j, h9]
  exact tileSum_total_4 (fun a => yarr_4 V c a * yarr_4 V c a) j

/-- The array of column sums after the region. -/
theorem sum_4 (c : Dev nD) : (dat4 V c).arrAt 4 cfg4.N = Cert.Spec.colsumT (Cert.Spec.lin (V c main_v75) (V c main_v80) (V c main_v78)) :=
  (dat4 V c).arrAt_eq_of_cover 4 (Cert.Spec.colsumT (yarr_4 V c)) (flushed4_eq_4 V c) fun i => by
    have hi0 : (i 0).val < 1 := (i 0).isLt
    have hi1 : (i 1).val < 128 := (i 1).isLt
    have hN : cfg4.N = 10 := N_4
    obtain ⟨t, ht⟩ : ∃ t : Fin cfg4.N, t.val = 9 := ⟨⟨9, by omega⟩, rfl⟩
    obtain ⟨-, -, -, -, -, -, -, -, e8, e9, -⟩ := idx_4 t
    refine ⟨t, (flush4_4 t).mpr (by rw [ht]), ?_⟩
    show i ∈ ((View.whole main_v81_1).slice (win4_4.rect t)).set
    rw [View.set_slice_whole, Rect.mem_set_unit]
    intro a
    match a with
    | ⟨0, _⟩ => show win4_4.index t 0 * 1 ≤ (i 0).val ∧ (i 0).val < win4_4.index t 0 * 1 + 1; rw [e8]; omega
    | ⟨1, _⟩ => show win4_4.index t 1 * 128 ≤ (i 1).val ∧ (i 1).val < win4_4.index t 1 * 128 + 128; rw [e9]; omega

/-- The array of column sums of squares after the region. -/
theorem sumsq_4 (c : Dev nD) : (dat4 V c).arrAt 5 cfg4.N = Cert.Spec.colsumT (fun a => Cert.Spec.lin (V c main_v75) (V c main_v80) (V c main_v78) a * Cert.Spec.lin (V c main_v75) (V c main_v80) (V c main_v78) a) :=
  (dat4 V c).arrAt_eq_of_cover 5 (Cert.Spec.colsumT (fun a => yarr_4 V c a * yarr_4 V c a)) (flushed5_eq_4 V c) fun i => by
    have hi0 : (i 0).val < 1 := (i 0).isLt
    have hi1 : (i 1).val < 128 := (i 1).isLt
    have hN : cfg4.N = 10 := N_4
    obtain ⟨t, ht⟩ : ∃ t : Fin cfg4.N, t.val = 9 := ⟨⟨9, by omega⟩, rfl⟩
    obtain ⟨-, -, -, -, -, -, -, -, -, -, e10, e11⟩ := idx_4 t
    refine ⟨t, (flush4_5 t).mpr (by rw [ht]), ?_⟩
    show i ∈ ((View.whole main_v81_2).slice (win4_5.rect t)).set
    rw [View.set_slice_whole, Rect.mem_set_unit]
    intro a
    match a with
    | ⟨0, _⟩ => show win4_5.index t 0 * 1 ≤ (i 0).val ∧ (i 0).val < win4_5.index t 0 * 1 + 1; rw [e10]; omega
    | ⟨1, _⟩ => show win4_5.index t 1 * 128 ≤ (i 1).val ∧ (i 1).val < win4_5.index t 1 * 128 + 128; rw [e11]; omega

end Cert.KernelIdeal.HandV

end
-- ==== Proof.KV.Val5M.lean ====
import proofs.«411025_j54640573939922_1_alg».proof.Proof.Gen.KernelIdeal.Skeleton
import proofs.«411025_j54640573939922_1_alg».proof.Proof.Math.Spec
import Idealize.ShloMosaic.Lib.ValueIdx
import Idealize.ShloMosaic.Lib.ValueLayout
import Idealize.ShloMosaic.PureOps.Ideal.Laws

/-! The arithmetic of region 5's body over the extended reals, entry by entry: the product tile is
    (sum over k of a(r,k) * W(k,j)) + b(j) with a the normalised, rectified activation, and each running row
    gains, at column j, the sum over the tile's 2000 rows of the product tile (or of its square). -/

noncomputable section

namespace Cert.KernelIdeal.HandV

open Cert.KernelIdeal Cert.KernelIdeal.Gen
open Idealize.ShloMosaic Idealize.ShloMosaic.ValueIdx
open scoped BigOperators

/-- The normalised, rectified activation at row r and feature k of a tile. -/
def act5 (y : Vec Ideal S2000x128 .f32) (mean var g be : Vec Ideal S1x128 .f32) (r : Fin 2000) (k : Fin 128) : EReal :=
  max ((g (ix2 0 k) * (y (ix2 r k) - mean (ix2 0 k))) * Ideal.rsqrt (var (ix2 0 k) + Cert.Spec.cEps) + be (ix2 0 k)) Cert.Spec.cZero

/-- Where the product at (r, j) and contraction index k reads its factors: (r, k) on the left, (k, j) on the right. -/
theorem lhs5_0 (j : S2000x128.Idx) (k : dot_S2000x128_S128x128_S2000x128_1_0_0_1_n_n.contr.Idx) :
    (dot_S2000x128_S128x128_S2000x128_1_0_0_1_n_n.lhsIdx j k 0).val = (j 0).val := rfl
theorem lhs5_1 (j : S2000x128.Idx) (k : dot_S2000x128_S128x128_S2000x128_1_0_0_1_n_n.contr.Idx) :
    (dot_S2000x128_S128x128_S2000x128_1_0_0_1_n_n.lhsIdx j k 1).val = (k ⟨0, by decide⟩).val := rfl
theorem rhs5_0 (j : S2000x128.Idx) (k : dot_S2000x128_S128x128_S2000x128_1_0_0_1_n_n.contr.Idx) :
    (dot_S2000x128_S128x128_S2000x128_1_0_0_1_n_n.rhsIdx j k 0).val = (k ⟨0, by decide⟩).val := rfl
theorem rhs5_1 (j : S2000x128.Idx) (k : dot_S2000x128_S128x128_S2000x128_1_0_0_1_n_n.contr.Idx) :
    (dot_S2000x128_S128x128_S2000x128_1_0_0_1_n_n.rhsIdx j k 1).val = (j 1).val := rfl

/-- The tile product into a zero accumulator, at row r and column j: the sum over the 128 contracted features. -/
theorem matmul5_apply {φ₁ φ₂ : FTy} (a : FVec Ideal S2000x128 φ₁) (w : FVec Ideal S128x128 φ₂) (r : Fin 2000) (j : Fin 128) :
    FloatOps.matmul dot_S2000x128_S128x128_S2000x128_1_0_0_1_n_n none a w (constant S2000x128 .f32 0x00000000#32) (ix2 r j)
      = ∑ k : Fin 128, a (ix2 r k) * w (ix2 k j) := by
  refine (Ideal.matmul_constant_zero_apply _ _ a w (ix2 r j)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r j) ((contrEquiv1 dot_S2000x128_S128x128_S2000x128_1_0_0_1_n_n 128 rfl rfl).symm k) = ix2 r k :=
    funext fun d => Fin.ext (by
      match d with
      | ⟨0, _⟩ => exact lhs5_0 _ _
      | ⟨1, _⟩ => exact (lhs5_1 _ _).trans hk)
  have hr : dot_S2000x128_S128x128_S2000x128_1_0_0_1_n_n.rhsIdx (ix2 r j) ((contrEquiv1 dot_S2000x128_S128x128_S2000x128_1_0_0_1_n_n 128 rfl rfl).symm k) = ix2 k j :=
    funext fun d => Fin.ext (by
      match d with
      | ⟨0, _⟩ => exact (rhs5_0 _ _).trans hk
      | ⟨1, _⟩ => exact rhs5_1 _ _)
  rw [hl, hr]

/-- One row of 128 numbers laid over the tile's rows, read at (r, k): its entry k. -/
theorem rowOver5 (v : Vec Ideal S1x128 .f32) (hs : S1x128.ShapeCasts S1x128) (hb : S1x128.Broadcasts S2000x128) (r : Fin 2000) (k : Fin 128) :
    broadcastTo S2000x128 (shapeCast S1x128 v hs) hb (ix2 r k) = v (ix2 0 k) :=
  (broadcastTo_1b_ab_apply (shapeCast S1x128 v hs) hb r k).trans (congrFun (shapeCast_self v hs) (ix2 0 k))

/-- The sum of a tile's column j over its 2000 rows, laid out as a row of 128. -/
theorem colOf5 (src : FVec Ideal S2000x128 .f32) (h : S2000x128.Reduces [0] S128) (hφ : FKind.Formats .f32)
    (hacc : (0x00000000#32 : BitVec FTy.f32.bits) = FKind.add.neutral .f32 hφ) (hc : S128.ShapeCasts S1x128) (j : Fin 128) :
    shapeCast S1x128 (multiReduction .add [0] S128 src 0x00000000#32 h hφ hacc) hc (ix2 0 j) = ∑ r : Fin 2000, src (ix2 r j) := by
  refine (shapeCast_a_1a_apply _ hc 0 j).trans ?_
  refine (Ideal.multiReduction_add_single src 0x00000000#32 h hφ hacc (ix1 j)).trans ?_
  refine Finset.sum_congr rfl fun r _ => congrArg src ?_
  funext d
  match d with
  | ⟨0, _⟩ => rfl
  | ⟨1, _⟩ => rfl

/-- The product tile at row r and column j: the activations of row r against column j of the weights, plus the bias. -/
theorem k5_pay3_apply (x0 : Vec Ideal S2000x128 .f32) (x1 x2 x3 x4 : Vec Ideal S1x128 .f32) (x5 : Vec Ideal S128x128 .f32)
    (x6 : Vec Ideal S1x128 .f32) (r : Fin 2000) (j : Fin 128) :
    k5_pay3 (F := Ideal) x0 x1 x2 x3 x4 x5 x6 (ix2 r j)
      = (∑ k : Fin 128, act5 x0 x1 x2 x3 x4 r k * x5 (ix2 k j)) + x6 (ix2 0 j) := by
  unfold k5_pay3
  refine (addf_apply _ _ (ix2 r j)).trans ?_
  refine congrArg₂ (· + ·) ((matmul5_apply _ _ r j).trans (Finset.sum_congr rfl fun k _ => ?_)) (rowOver5 x6 _ _ r j)
  refine congrArg₂ (· * ·) ?_ (congrFun (shapeCast_self x5 _) (ix2 k j))
  unfold act5
  refine congrArg₂ max ?_ rfl
  refine congrArg₂ (· + ·) (congrArg₂ (· * ·) (congrArg₂ (· * ·) (rowOver5 x3 _ _ r k) (congrArg₂ (· - ·) (congrFun (shapeCast_self x0 _) (ix2 r k)) (rowOver5 x1 _ _ r k))) ?_) (rowOver5 x4 _ _ r k)
  refine (broadcastTo_1b_ab_apply _ _ r k).trans ?_
  show Ideal.rsqrt (shapeCast S1x128 x2 _ (ix2 0 k) + _) = _
  rw [shapeCast_self]
  rfl

/-- A running row after the body: what it held, plus the column sums of the product tile. -/
theorem k5_pay1_apply (y : FVec Ideal S2000x128 .f32) (acc : Vec Ideal S1x128 .f32) (j : Fin 128) :
    k5_pay1 (F := Ideal) y acc (ix2 0 j) = acc (ix2 0 j) + ∑ r : Fin 2000, y (ix2 r j) := by
  unfold k5_pay1
  refine (addf_apply _ _ (ix2 0 j)).trans ?_
  exact congrArg₂ (· + ·) (congrFun (shapeCast_self acc _) (ix2 0 j)) (colOf5 y _ _ _ _ j)

/-- The same for the squares. -/
theorem k5_pay2_apply (y : FVec Ideal S2000x128 .f32) (acc : Vec Ideal S1x128 .f32) (j : Fin 128) :
    k5_pay2 (F := Ideal) y acc (ix2 0 j) = acc (ix2 0 j) + ∑ r : Fin 2000, y (ix2 r j) * y (ix2 r j) := by
  unfold k5_pay2
  refine (addf_apply _ _ (ix2 0 j)).trans ?_
  exact congrArg₂ (· + ·) (congrFun (shapeCast_self acc _) (ix2 0 j)) (colOf5 (mulf y y) _ _ _ _ j)

/-- The cleared rows hold zero. -/
theorem k5_pay4_apply (i : S1x128.Idx) : k5_pay4 (F := Ideal) i = 0 := by
  unfold k5_pay4
  exact Ideal.ofBits_zero_f32
theorem k5_pay5_apply (i : S1x128.Idx) : k5_pay5 (F := Ideal) i = 0 := by
  unfold k5_pay5
  exact Ideal.ofBits_zero_f32

end Cert.KernelIdeal.HandV

end
-- ==== Proof.KV.Val5.lean ====
import proofs.«411025_j54640573939922_1_alg».proof.Proof.KI.Reg5
import proofs.«411025_j54640573939922_1_alg».proof.Proof.KV.Val5M
import Idealize.ShloMosaic.Lib.Pipeline.Value
import Idealize.ShloMosaic.Lib.Tactic

/-! What region 5 leaves in its three result arrays, over the extended reals: the product array is the dense
    layer of the normalised, rectified first-stage output; the two rows are its column sums and the column sums of
    its square, each taken tile by tile in tile order. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.Tactic
open Idealize.SL.Sem
open Idealize.ShloMosaic.Pipeline (Dat)
open scoped BigOperators

theorem hz5 : (![0, 0] : Fin 2 → Nat) = fun _ => 0 := funext fun a => by fin_cases a <;> rfl

section AnyValues
variable {F : FTy → Type} [FloatOps F]

/-! ## What the runs found, as values -/

/-- On the first tile the product tile's buffer ends with one store of the whole tile: the body's arithmetic of the seven loaded blocks. -/
theorem out5_A_7_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out5_A_7 c i arg1 harg1 arg2 harg2 arg3 harg3 arg4 harg4 arg5 harg5 arg6 harg6 arg7 harg7 arg8 harg8 arg9 harg9 arg10 harg10 hc0 x0 x1 x2 x3 x4 x5 x6 = k5_pay3 x0 x1 x2 x3 x4 x5 x6 := by
  unfold out5_A_7
  rw [View.read_writes_eq_canon _ _ _ (cover5_A_7 c i arg1 harg1 arg2 harg2 arg3 harg3 arg4 harg4 arg5 harg5 arg6 harg6 arg7 harg7 arg8 harg8 arg9 harg9 arg10 harg10 hc0 x0 x1 x2 x3 x4 x5 x6)]
  unfold kernelRun5_A
  dsimp only
  sl_unfold_words
  rw [View.canon_unit_zero hz5]
  simp only [View.readAt_eq_ld, harg1.read_unread, harg2.read_unread, harg3.read_unread, harg4.read_unread, harg5.read_unread, harg6.read_unread, harg7.read_unread, View.ld_unit_zero (S := S2000x128) hz5, View.ld_unit_zero (S := S1x128) hz5, View.ld_unit_zero (S := S128x128) hz5]

/-- On the first tile the row of sums is cleared, read back, and stored with the tile's column sums added: the cleared row plus the sums. -/
theorem out5_A_8_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out5_A_8 c i arg1 harg1 arg2 harg2 arg3 harg3 arg4 harg4 arg5 harg5 arg6 harg6 arg7 harg7 arg8 harg8 arg9 harg9 arg10 harg10 hc0 x0 x1 x2 x3 x4 x5 x6 = k5_pay1 (k5_pay3 x0 x1 x2 x3 x4 x5 x6) k5_pay4 := by
  unfold out5_A_8
  rw [View.read_writes_eq_canon _ _ _ (cover5_A_8 c i arg1 harg1 arg2 harg2 arg3 harg3 arg4 harg4 arg5 harg5 arg6 harg6 arg7 harg7 arg8 harg8 arg9 harg9 arg10 harg10 hc0 x0 x1 x2 x3 x4 x5 x6)]
  unfold kernelRun5_A
  dsimp only
  sl_unfold_words
  rw [View.canon_cons_unit_zero (S := S1x128) hz5, View.readCov_unit_zero (S := S1x128) _ hz5]
  simp only [View.readAt_eq_ld, harg1.read_unread, harg2.read_unread, harg3.read_unread, harg4.read_unread, harg5.read_unread, harg6.read_unread, harg7.read_unread, View.ld_unit_zero (S := S2000x128) hz5, View.ld_unit_zero (S := S1x128) hz5, View.ld_unit_zero (S := S128x128) hz5]

/-- The same for the row of sums of squares. -/
theorem out5_A_9_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out5_A_9 c i arg1 harg1 arg2 harg2 arg3 harg3 arg4 harg4 arg5 harg5 arg6 harg6 arg7 harg7 arg8 harg8 arg9 harg9 arg10 harg10 hc0 x0 x1 x2 x3 x4 x5 x6 = k5_pay2 (k5_pay3 x0 x1 x2 x3 x4 x5 x6) k5_pay5 := by
  unfold out5_A_9
  rw [View.read_writes_eq_canon _ _ _ (cover5_A_9 c i arg1 harg1 arg2 harg2 arg3 harg3 arg4 harg4 arg5 harg5 arg6 harg6 arg7 harg7 arg8 harg8 arg9 harg9 arg10 harg10 hc0 x0 x1 x2 x3 x4 x5 x6)]
  unfold kernelRun5_A
  dsimp only
  sl_unfold_words
  rw [View.canon_cons_unit_zero (S := S1x128) hz5, View.readCov_unit_zero (S := S1x128) _ hz5]
  simp only [View.readAt_eq_ld, harg1.read_unread, harg2.read_unread, harg3.read_unread, harg4.read_unread, harg5.read_unread, harg6.read_unread, harg7.read_unread, View.ld_unit_zero (S := S2000x128) hz5, View.ld_unit_zero (S := S1x128) hz5, View.ld_unit_zero (S := S128x128) hz5]

/-- On a later tile likewise. -/
theorem out5_B_7_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out5_B_7 c i arg1 harg1 arg2 harg2 arg3 harg3 arg4 harg4 arg5 harg5 arg6 harg6 arg7 harg7 arg8 harg8 arg9 harg9 arg10 harg10 hc0 x0 x1 x2 x3 x4 x5 x6 xo8 xo9 = k5_pay3 x0 x1 x2 x3 x4 x5 x6 := by
  unfold out5_B_7
  rw [View.read_writes_eq_canon _ _ _ (cover5_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, View.ld_unit_zero (S := S2000x128) hz5, View.ld_unit_zero (S := S1x128) hz5, View.ld_unit_zero (S := S128x128) hz5]

/-- On a later tile the row of sums is read as the tile before left it and stored with the tile's column sums added. -/
theorem out5_B_8_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out5_B_8 c i arg1 harg1 arg2 harg2 arg3 harg3 arg4 harg4 arg5 harg5 arg6 harg6 arg7 harg7 arg8 harg8 arg9 harg9 arg10 harg10 hc0 x0 x1 x2 x3 x4 x5 x6 xo8 xo9 = k5_pay1 (k5_pay3 x0 x1 x2 x3 x4 x5 x6) xo8 := by
  unfold out5_B_8
  rw [View.read_writes_eq_canon _ _ _ (cover5_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg9.read_unread, View.ld_unit_zero (S := S2000x128) hz5, View.ld_unit_zero (S := S1x128) hz5, View.ld_unit_zero (S := S128x128) hz5]

/-- The same for the row of sums of squares. -/
theorem out5_B_9_eq (c : Dev nD) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond5_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out5_B_9 c i arg1 harg1 arg2 harg2 arg3 harg3 arg4 harg4 arg5 harg5 arg6 harg6 arg7 harg7 arg8 harg8 arg9 harg9 arg10 harg10 hc0 x0 x1 x2 x3 x4 x5 x6 xo8 xo9 = k5_pay2 (k5_pay3 x0 x1 x2 x3 x4 x5 x6) xo9 := by
  unfold out5_B_9
  rw [View.read_writes_eq_canon _ _ _ (cover5_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg10.read_unread, View.ld_unit_zero (S := S2000x128) hz5, View.ld_unit_zero (S := S1x128) hz5, View.ld_unit_zero (S := S128x128) hz5]

end AnyValues

section AnyValues
variable {F : FTy → Type} [FloatOps F]
variable (V : (c : Dev nD) → (b : Ref sig .tc) → Buf (Elt F) ((c : Thread nD τ).loc b))

/-- The product tile at tile n: the body's arithmetic of the seven input blocks there. -/
def tile5 (c : Dev nD) (n : ℕ) (h : n < cfg5.N) : Vec F S2000x128 .f32 :=
  k5_pay3 (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (iblk5 V c 6 ⟨n, h⟩)

/-- The two running rows after tile n: cleared and added to at tile 0, added to afterwards. -/
def rows5 (c : Dev nD) : (n : ℕ) → n < cfg5.N → Vec F S1x128 .f32 × Vec F S1x128 .f32
  | 0, h => (k5_pay1 (tile5 V c 0 h) (k5_pay4 (F := F)), k5_pay2 (tile5 V c 0 h) (k5_pay5 (F := F)))
  | n + 1, h => (k5_pay1 (tile5 V c (n + 1) h) (rows5 c n (Nat.lt_of_succ_lt h)).1,
                 k5_pay2 (tile5 V c (n + 1) h) (rows5 c n (Nat.lt_of_succ_lt h)).2)

/-- What the output buffers hold after tile n is the product tile there and the two running rows: by induction on the
    tile, the first tile's contents at 0 and the later-tile contents over the tile before afterwards. -/
theorem outsAt5_eq (c : Dev nD) : ∀ (n : ℕ) (h : n < cfg5.N),
    outsAt5 V c n h = (tile5 V c n h, (rows5 V c n h).1, (rows5 V c n h).2)
  | 0, h => by
    rw [outsAt5_A V c ⟨0, h⟩ rfl, out5_A_7_eq, out5_A_8_eq, out5_A_9_eq]
    rfl
  | n + 1, h => by
    have hN : n + 1 < 10 := lt_of_lt_of_eq h N_5
    have hB : ¬(⟨n + 1, h⟩ : Fin cfg5.N).val % 10 = 0 := by dsimp only; omega
    rw [outsAt5_B V c ⟨n + 1, h⟩ hB, out5_B_7_eq, out5_B_8_eq, out5_B_9_eq]
    show (_, k5_pay1 _ (outsAt5 V c n _).2.1, k5_pay2 _ (outsAt5 V c n _).2.2) = _
    rw [outsAt5_eq c n]
    rfl

end AnyValues

variable (V : (c : Dev nD) → (b : Ref sig .tc) → Buf (Elt Ideal) ((c : Thread nD τ).loc b))

/-! ## The blocks, read off the arrays the region finds -/

/-- The seven arrays the region reads, by their literal shapes: the first-stage output, its mean and variance rows,
    the scale and shift rows, the second weight matrix and its bias row. -/
abbrev arr5_0 (c : Dev nD) : Cert.Spec.SNH.Idx → EReal := V c main_v81_0
abbrev arr5_1 (c : Dev nD) : Cert.Spec.S1H.Idx → EReal := V c main_v83
abbrev arr5_2 (c : Dev nD) : Cert.Spec.S1H.Idx → EReal := V c main_v87
abbrev arr5_3 (c : Dev nD) : Cert.Spec.S1H.Idx → EReal := V c main_v90
abbrev arr5_4 (c : Dev nD) : Cert.Spec.S1H.Idx → EReal := V c main_v93
abbrev arr5_5 (c : Dev nD) : Cert.Spec.SHH.Idx → EReal := V c main_v98
abbrev arr5_6 (c : Dev nD) : Cert.Spec.S1H.Idx → EReal := V c main_v96

/-- Where the windows' blocks sit: the first-stage output and the product move one tile of rows per point, every
    other window stays on block (0, 0). Decided over the ten tiles. -/
theorem wpos5 : ∀ t : Fin cfg5.N, (win5_0.index t (0 : Fin 2) = t.val ∧ win5_0.index t (1 : Fin 2) = 0)
    ∧ (win5_7.index t (0 : Fin 2) = t.val ∧ win5_7.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_8.index t (0 : Fin 2) = 0 ∧ win5_8.index t (1 : Fin 2) = 0)
    ∧ (win5_9.index t (0 : Fin 2) = 0 ∧ win5_9.index t (1 : Fin 2) = 0) :=
  (by decide +kernel : ∀ t : Fin grid5.N, _)

/-- Tile t of the ten, as a number below ten. -/
abbrev tileOf5 (t : Fin cfg5.N) : Fin 10 := ⟨t.val, lt_of_lt_of_eq t.isLt N_5⟩

/-- Row r of the first-stage output's block at tile t is row 2000 t + r of the array. -/
theorem blk5_0 (c : Dev nD) (t : Fin cfg5.N) (r : Fin 2000) (k : Fin 128) :
    (iblk5 V c 0 t : Vec Ideal S2000x128 .f32) (ix2 r k) = arr5_0 V c (ix2 (Cert.Spec.row (tileOf5 t) r) k) := by
  obtain ⟨⟨e0, e1⟩, -⟩ := wpos5 t
  unfold iblk5
  rw [View.read_apply]
  show V c main_v81_0 _ = V c main_v81_0 _
  congr 1
  funext a
  apply Fin.ext
  match a with
  | ⟨0, _⟩ => show win5_0.index t (0 : Fin 2) * 2000 + 1 * r.val = 2000 * t.val + r.val; rw [e0]; omega
  | ⟨1, _⟩ => show win5_0.index t (1 : Fin 2) * 128 + 1 * k.val = k.val; rw [e1]; omega

/-- Window 1's one block is its whole array. -/
theorem blk5_1 (c : Dev nD) (t : Fin cfg5.N) (p : Fin 1) (q : Fin 128) :
    (iblk5 V c 1 t : Vec Ideal S1x128 .f32) (ix2 p q) = arr5_1 V c (ix2 p q) := by
  have e := wpos5 t
  have e0 : win5_1.index t (0 : Fin 2) = 0 := by omega
  have e1 : win5_1.index t (1 : Fin 2) = 0 := by omega
  unfold iblk5
  rw [View.read_apply]
  show V c main_v83 _ = V c main_v83 _
  congr 1
  funext a
  apply Fin.ext
  match a with
  | ⟨0, _⟩ => show win5_1.index t (0 : Fin 2) * 1 + 1 * p.val = p.val; rw [e0]; omega
  | ⟨1, _⟩ => show win5_1.index t (1 : Fin 2) * 128 + 1 * q.val = q.val; rw [e1]; omega

/-- Window 2's one block is its whole array. -/
theorem blk5_2 (c : Dev nD) (t : Fin cfg5.N) (p : Fin 1) (q : Fin 128) :
    (iblk5 V c 2 t : Vec Ideal S1x128 .f32) (ix2 p q) = arr5_2 V c (ix2 p q) := by
  have e := wpos5 t
  have e0 : win5_2.index t (0 : Fin 2) = 0 := by omega
  have e1 : win5_2.index t (1 : Fin 2) = 0 := by omega
  unfold iblk5
  rw [View.read_apply]
  show V c main_v87 _ = V c main_v87 _
  congr 1
  funext a
  apply Fin.ext
  match a with
  | ⟨0, _⟩ => show win5_2.index t (0 : Fin 2) * 1 + 1 * p.val = p.val; rw [e0]; omega
  | ⟨1, _⟩ => show win5_2.index t (1 : Fin 2) * 128 + 1 * q.val = q.val; rw [e1]; omega

/-- Window 3's one block is its whole array. -/
theorem blk5_3 (c : Dev nD) (t : Fin cfg5.N) (p : Fin 1) (q : Fin 128) :
    (iblk5 V c 3 t : Vec Ideal S1x128 .f32) (ix2 p q) = arr5_3 V c (ix2 p q) := by
  have e := wpos5 t
  have e0 : win5_3.index t (0 : Fin 2) = 0 := by omega
  have e1 : win5_3.index t (1 : Fin 2) = 0 := by omega
  unfold iblk5
  rw [View.read_apply]
  show V c main_v90 _ = V c main_v90 _
  congr 1
  funext a
  apply Fin.ext
  match a with
  | ⟨0, _⟩ => show win5_3.index t (0 : Fin 2) * 1 + 1 * p.val = p.val; rw [e0]; omega
  | ⟨1, _⟩ => show win5_3.index t (1 : Fin 2) * 128 + 1 * q.val = q.val; rw [e1]; omega

/-- Window 4's one block is its whole array. -/
theorem blk5_4 (c : Dev nD) (t : Fin cfg5.N) (p : Fin 1) (q : Fin 128) :
    (iblk5 V c 4 t : Vec Ideal S1x128 .f32) (ix2 p q) = arr5_4 V c (ix2 p q) := by
  have e := wpos5 t
  have e0 : win5_4.index t (0 : Fin 2) = 0 := by omega
  have e1 : win5_4.index t (1 : Fin 2) = 0 := by omega
  unfold iblk5
  rw [View.read_apply]
  show V c main_v93 _ = V c main_v93 _
  congr 1
  funext a
  apply Fin.ext
  match a with
  | ⟨0, _⟩ => show win5_4.index t (0 : Fin 2) * 1 + 1 * p.val = p.val; rw [e0]; omega
  | ⟨1, _⟩ => show win5_4.index t (1 : Fin 2) * 128 + 1 * q.val = q.val; rw [e1]; omega

/-- Window 5's one block is its whole array. -/
theorem blk5_5 (c : Dev nD) (t : Fin cfg5.N) (p : Fin 128) (q : Fin 128) :
    (iblk5 V c 5 t : Vec Ideal S128x128 .f32) (ix2 p q) = arr5_5 V c (ix2 p q) := by
  have e := wpos5 t
  have e0 : win5_5.index t (0 : Fin 2) = 0 := by omega
  have e1 : win5_5.index t (1 : Fin 2) = 0 := by omega
  unfold iblk5
  rw [View.read_apply]
  show V c main_v98 _ = V c main_v98 _
  congr 1
  funext a
  apply Fin.ext
  match a with
  | ⟨0, _⟩ => show win5_5.index t (0 : Fin 2) * 128 + 1 * p.val = p.val; rw [e0]; omega
  | ⟨1, _⟩ => show win5_5.index t (1 : Fin 2) * 128 + 1 * q.val = q.val; rw [e1]; omega

/-- Window 6's one block is its whole array. -/
theorem blk5_6 (c : Dev nD) (t : Fin cfg5.N) (p : Fin 1) (q : Fin 128) :
    (iblk5 V c 6 t : Vec Ideal S1x128 .f32) (ix2 p q) = arr5_6 V c (ix2 p q) := by
  have e := wpos5 t
  have e0 : win5_6.index t (0 : Fin 2) = 0 := by omega
  have e1 : win5_6.index t (1 : Fin 2) = 0 := by omega
  unfold iblk5
  rw [View.read_apply]
  show V c main_v96 _ = V c main_v96 _
  congr 1
  funext a
  apply Fin.ext
  match a with
  | ⟨0, _⟩ => show win5_6.index t (0 : Fin 2) * 1 + 1 * p.val = p.val; rw [e0]; omega
  | ⟨1, _⟩ => show win5_6.index t (1 : Fin 2) * 128 + 1 * q.val = q.val; rw [e1]; omega

/-! ## The product tile and the running rows, as numbers -/

/-- The dense layer of the normalised, rectified first-stage output: what the product array is to hold. -/
abbrev Y5 (c : Dev nD) : Cert.Spec.SNH.Idx → EReal :=
  Cert.Spec.lin (Cert.Spec.bnrelu (arr5_0 V c) (arr5_1 V c) (arr5_2 V c) (arr5_3 V c) (arr5_4 V c)) (arr5_5 V c) (arr5_6 V c)

/-- The product tile at tile t holds rows 2000 t .. 2000 t + 1999 of it. -/
theorem tile5_apply (c : Dev nD) (t : Fin cfg5.N) (r : Fin 2000) (j : Fin 128) :
    tile5 V c t.val t.isLt (ix2 r j) = Y5 V c (ix2 (Cert.Spec.row (tileOf5 t) r) j) := by
  unfold tile5
  refine (k5_pay3_apply _ _ _ _ _ _ _ r j).trans ?_
  show _ = (∑ k : Fin 128, Cert.Spec.bnrelu (arr5_0 V c) (arr5_1 V c) (arr5_2 V c) (arr5_3 V c) (arr5_4 V c) (ix2 (Cert.Spec.row (tileOf5 t) r) k) * arr5_5 V c (ix2 k j)) + arr5_6 V c (ix2 0 j)
  refine congrArg₂ (· + ·) (Finset.sum_congr rfl fun k _ => congrArg₂ (· * ·) ?_ (blk5_5 V c t k j)) (blk5_6 V c t 0 j)
  unfold act5
  show _ = max ((arr5_3 V c (ix2 0 k) * (arr5_0 V c (ix2 (Cert.Spec.row (tileOf5 t) r) k) - arr5_1 V c (ix2 0 k))) * Ideal.rsqrt (arr5_2 V c (ix2 0 k) + Cert.Spec.cEps) + arr5_4 V c (ix2 0 k)) Cert.Spec.cZero
  rw [blk5_0 V c t r k, blk5_1 V c t 0 k, blk5_2 V c t 0 k, blk5_3 V c t 0 k, blk5_4 V c t 0 k]

/-- The sum of column j of a 20000-row array over the rows of tile s (nothing past the tenth tile). -/
def tileSum5 (Y : Cert.Spec.SNH.Idx → EReal) (j : Fin 128) (s : ℕ) : EReal :=
  if h : s < 10 then ∑ r : Fin 2000, Y (ix2 (Cert.Spec.row ⟨s, h⟩ r) j) else 0

/-- After tile n the running rows hold the column sums of the product, and of its square, over tiles 0..n. -/
theorem rows5_apply (c : Dev nD) : ∀ (n : ℕ) (h : n < cfg5.N) (j : Fin 128),
    (rows5 V c n h).1 (ix2 0 j) = ∑ s ∈ Finset.range (n + 1), tileSum5 (Y5 V c) j s
    ∧ (rows5 V c n h).2 (ix2 0 j) = ∑ s ∈ Finset.range (n + 1), tileSum5 (fun a => Y5 V c a * Y5 V c a) j s
  | 0, h, j => by
    have h10 : (0 : ℕ) < 10 := by omega
    constructor
    · show k5_pay1 (tile5 V c 0 h) (k5_pay4 (F := Ideal)) (ix2 0 j) = _
      rw [k5_pay1_apply, k5_pay4_apply, zero_add, Finset.sum_range_one]
      unfold tileSum5
      rw [dif_pos h10]
      exact Finset.sum_congr rfl fun r _ => tile5_apply V c ⟨0, h⟩ r j
    · show k5_pay2 (tile5 V c 0 h) (k5_pay5 (F := Ideal)) (ix2 0 j) = _
      rw [k5_pay2_apply, k5_pay5_apply, zero_add, Finset.sum_range_one]
      unfold tileSum5
      rw [dif_pos h10]
      exact Finset.sum_congr rfl fun r _ => by rw [tile5_apply V c ⟨0, h⟩ r j]
  | n + 1, h, j => by
    have hN : n + 1 < 10 := lt_of_lt_of_eq h N_5
    obtain ⟨ih1, ih2⟩ := rows5_apply c n (Nat.lt_of_succ_lt h) j
    constructor
    · show k5_pay1 (tile5 V c (n + 1) h) (rows5 V c n _).1 (ix2 0 j) = _
      rw [k5_pay1_apply, ih1, Finset.sum_range_succ _ (n + 1)]
      congr 1
      unfold tileSum5
      rw [dif_pos hN]
      exact Finset.sum_congr rfl fun r _ => tile5_apply V c ⟨n + 1, h⟩ r j
    · show k5_pay2 (tile5 V c (n + 1) h) (rows5 V c n _).2 (ix2 0 j) = _
      rw [k5_pay2_apply, ih2, Finset.sum_range_succ _ (n + 1)]
      congr 1
      unfold tileSum5
      rw [dif_pos hN]
      exact Finset.sum_congr rfl fun r _ => by rw [tile5_apply V c ⟨n + 1, h⟩ r j]

/-- Over all ten tiles that is the tile-by-tile column sum. -/
theorem sum_tiles5 (Y : Cert.Spec.SNH.Idx → EReal) (j : Fin 128) :
    ∑ s ∈ Finset.range (9 + 1), tileSum5 Y j s = Cert.Spec.colsumT Y (ix2 0 j) := by
  rw [Finset.sum_range]
  unfold Cert.Spec.colsumT
  refine Finset.sum_congr rfl fun t _ => ?_
  unfold tileSum5
  rw [dif_pos t.isLt]

/-! ## The product array -/

/-- What tile t writes back into the product array is block t of the dense layer's output. -/
theorem flushed5_7 (c : Dev nD) (t : Fin cfg5.N) :
    (dat5 V c).flushed 7 t = ((cfg5.win 7).blk t).view.read (Elt Ideal) (Y5 V c) := by
  obtain ⟨-, ⟨e0, e1⟩, -⟩ := wpos5 t
  show (cfg5.win 7).cut (grid5.coords t) ((dat5 V c).after 7 t) = _
  rw [after5_7, outsAt5_eq]
  funext y
  show tile5 V c t.val t.isLt y = Y5 V c (((cfg5.win 7).blk t).view.emb y)
  obtain ⟨r, hr⟩ : ∃ r : Fin 2000, r = (y : S2000x128.Idx) 0 := ⟨_, rfl⟩
  obtain ⟨j, hj⟩ : ∃ j : Fin 128, j = (y : S2000x128.Idx) 1 := ⟨_, rfl⟩
  have hy : (y : S2000x128.Idx) = ix2 r j := by
    funext a
    apply Fin.ext
    match a with
    | ⟨0, _⟩ => show ((y : S2000x128.Idx) 0).val = r.val; rw [hr]
    | ⟨1, _⟩ => show ((y : S2000x128.Idx) 1).val = j.val; rw [hj]
  refine ((congrArg (tile5 V c t.val t.isLt) hy).trans (tile5_apply V c t r j)).trans ?_
  refine congrArg (Y5 V c) ?_
  funext a
  apply Fin.ext
  match a with
  | ⟨0, _⟩ => show 2000 * t.val + r.val = win5_7.index t (0 : Fin 2) * 2000 + 1 * ((y : S2000x128.Idx) 0).val; rw [e0, hr]; omega
  | ⟨1, _⟩ => show j.val = win5_7.index t (1 : Fin 2) * 128 + 1 * ((y : S2000x128.Idx) 1).val; rw [e1, hj]; omega

/-- An index of the product array is in tile t's block iff each coordinate is in the block's range. -/
theorem mem_blk5_7 (t : Fin cfg5.N) (i : S20000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v99_0).slice (win5_7.rect t)).set ↔ _
  rw [View.set_slice_whole, Rect.mem_set_unit]
  exact Iff.rfl

/-- THE PRODUCT ARRAY after the region: the dense layer of the normalised, rectified first-stage output. Row n lies in
    tile n / 2000. -/
theorem y2_5 (c : Dev nD) : (dat5 V c).arrAt 7 cfg5.N = Cert.Spec.lin (Cert.Spec.bnrelu (V c main_v81_0) (V c main_v83) (V c main_v87) (V c main_v90) (V c main_v93)) (V c main_v98) (V c main_v96) :=
  (dat5 V c).arrAt_eq_of_cover 7 (Y5 V c) (fun t _ => flushed5_7 V c t) fun i => by
    have hi0 : ((i : S20000x128.Idx) 0).val < 20000 := ((i : S20000x128.Idx) 0).isLt
    have hi1 : ((i : S20000x128.Idx) 1).val < 128 := ((i : S20000x128.Idx) 1).isLt
    have hq : ((i : S20000x128.Idx) 0).val / 2000 < cfg5.N := by rw [show cfg5.N = 10 from N_5]; omega
    obtain ⟨-, ⟨e0, e1⟩, -⟩ := wpos5 ⟨((i : S20000x128.Idx) 0).val / 2000, hq⟩
    refine ⟨⟨((i : S20000x128.Idx) 0).val / 2000, hq⟩, flush5_7 _, ?_⟩
    rw [mem_blk5_7]
    intro a
    match a with
    | ⟨0, _⟩ => show win5_7.index ⟨((i : S20000x128.Idx) 0).val / 2000, hq⟩ (0 : Fin 2) * 2000 ≤ ((i : S20000x128.Idx) 0).val ∧ ((i : S20000x128.Idx) 0).val < win5_7.index ⟨((i : S20000x128.Idx) 0).val / 2000, hq⟩ (0 : Fin 2) * 2000 + 2000
                rw [e0]; dsimp only; omega
    | ⟨1, _⟩ => show win5_7.index ⟨((i : S20000x128.Idx) 0).val / 2000, hq⟩ (1 : Fin 2) * 128 ≤ ((i : S20000x128.Idx) 1).val ∧ ((i : S20000x128.Idx) 1).val < win5_7.index ⟨((i : S20000x128.Idx) 0).val / 2000, hq⟩ (1 : Fin 2) * 128 + 128
                rw [e1]; omega

/-! ## The two rows of column sums -/

/-- The one write-back of window 8, after the last tile, writes the sums over all ten tiles: its block is the whole row. -/
theorem flushed5_8 (c : Dev nD) (t : Fin cfg5.N) (hf : (cfg5.win 8).flush t = true) :
    (dat5 V c).flushed 8 t = ((cfg5.win 8).blk t).view.read (Elt Ideal) (Cert.Spec.colsumT (Y5 V c)) := by
  have h9 : t.val = 9 := by have := (flush5_8 t).mp hf; have := lt_of_lt_of_eq t.isLt N_5; omega
  have e := wpos5 t
  have e0 : win5_8.index t (0 : Fin 2) = 0 := by omega
  have e1 : win5_8.index t (1 : Fin 2) = 0 := by omega
  clear e
  obtain ⟨n, hn⟩ := t
  obtain rfl : n = 9 := h9
  show (cfg5.win 8).cut (grid5.coords ⟨9, hn⟩) ((dat5 V c).after 8 ⟨9, hn⟩) = _
  rw [after5_8, outsAt5_eq]
  funext y
  show (rows5 V c 9 hn).1 y = Cert.Spec.colsumT (Y5 V c) (((cfg5.win 8).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg5.win 8).blk ⟨9, hn⟩).view.emb y = (ix2 0 j : S1x128.Idx) := by
    funext a
    apply Fin.ext
    match a with
    | ⟨0, _⟩ => show win5_8.index ⟨9, hn⟩ (0 : Fin 2) * 1 + 1 * ((y : S1x128.Idx) 0).val = 0; rw [e0]; omega
    | ⟨1, _⟩ => show win5_8.index ⟨9, hn⟩ (1 : Fin 2) * 128 + 1 * ((y : S1x128.Idx) 1).val = j.val; rw [e1, hj]; omega
  have h := rows5_apply V c 9 hn j
  exact (congrArg (rows5 V c 9 hn).1 hy).trans (h.1.trans ((sum_tiles5 (Y5 V c) j).trans (congrArg (Cert.Spec.colsumT (Y5 V c)) hemb.symm)))

/-- An index of that row is in the last tile's block: the block is the whole row. -/
theorem mem_blk5_8 (t : Fin cfg5.N) (i : S1x128.Idx) :
    i ∈ ((cfg5.win 8).blk t).view.set ↔ ∀ a : Fin 2, win5_8.index t a * S1x128.size a ≤ (i a).val ∧ (i a).val < win5_8.index t a * S1x128.size a + S1x128.size a := by
  show i ∈ ((View.whole main_v99_1).slice (win5_8.rect t)).set ↔ _
  rw [View.set_slice_whole, Rect.mem_set_unit]
  exact Iff.rfl

/-- The one write-back of window 9, after the last tile, writes the sums over all ten tiles: its block is the whole row. -/
theorem flushed5_9 (c : Dev nD) (t : Fin cfg5.N) (hf : (cfg5.win 9).flush t = true) :
    (dat5 V c).flushed 9 t = ((cfg5.win 9).blk t).view.read (Elt Ideal) (Cert.Spec.colsumT (fun a => Y5 V c a * Y5 V c a)) := by
  have h9 : t.val = 9 := by have := (flush5_9 t).mp hf; have := lt_of_lt_of_eq t.isLt N_5; omega
  have e := wpos5 t
  have e0 : win5_9.index t (0 : Fin 2) = 0 := by omega
  have e1 : win5_9.index t (1 : Fin 2) = 0 := by omega
  clear e
  obtain ⟨n, hn⟩ := t
  obtain rfl : n = 9 := h9
  show (cfg5.win 9).cut (grid5.coords ⟨9, hn⟩) ((dat5 V c).after 9 ⟨9, hn⟩) = _
  rw [after5_9, outsAt5_eq]
  funext y
  show (rows5 V c 9 hn).2 y = Cert.Spec.colsumT (fun a => Y5 V c a * Y5 V c a) (((cfg5.win 9).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg5.win 9).blk ⟨9, hn⟩).view.emb y = (ix2 0 j : S1x128.Idx) := by
    funext a
    apply Fin.ext
    match a with
    | ⟨0, _⟩ => show win5_9.index ⟨9, hn⟩ (0 : Fin 2) * 1 + 1 * ((y : S1x128.Idx) 0).val = 0; rw [e0]; omega
    | ⟨1, _⟩ => show win5_9.index ⟨9, hn⟩ (1 : Fin 2) * 128 + 1 * ((y : S1x128.Idx) 1).val = j.val; rw [e1, hj]; omega
  have h := rows5_apply V c 9 hn j
  exact (congrArg (rows5 V c 9 hn).2 hy).trans (h.2.trans ((sum_tiles5 (fun a => Y5 V c a * Y5 V c a) j).trans (congrArg (Cert.Spec.colsumT (fun a => Y5 V c a * Y5 V c a)) hemb.symm)))

/-- An index of that row is in the last tile's block: the block is the whole row. -/
theorem mem_blk5_9 (t : Fin cfg5.N) (i : S1x128.Idx) :
    i ∈ ((cfg5.win 9).blk t).view.set ↔ ∀ a : Fin 2, win5_9.index t a * S1x128.size a ≤ (i a).val ∧ (i a).val < win5_9.index t a * S1x128.size a + S1x128.size a := by
  show i ∈ ((View.whole main_v99_2).slice (win5_9.rect t)).set ↔ _
  rw [View.set_slice_whole, Rect.mem_set_unit]
  exact Iff.rfl

/-- THE ROW OF SUMS after the region: the column sums of the product array, tile by tile. -/
theorem sum_5 (c : Dev nD) : (dat5 V c).arrAt 8 cfg5.N = Cert.Spec.colsumT (Cert.Spec.lin (Cert.Spec.bnrelu (V c main_v81_0) (V c main_v83) (V c main_v87) (V c main_v90) (V c main_v93)) (V c main_v98) (V c main_v96)) :=
  (dat5 V c).arrAt_eq_of_cover 8 (Cert.Spec.colsumT (Y5 V c)) (flushed5_8 V c) fun i => by
    have h9 : (9 : ℕ) < cfg5.N := by rw [show cfg5.N = 10 from N_5]; omega
    have e := wpos5 ⟨9, h9⟩
    have e0 : win5_8.index ⟨9, h9⟩ (0 : Fin 2) = 0 := by omega
    have e1 : win5_8.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush5_8 _).mpr rfl, ?_⟩
    rw [mem_blk5_8]
    intro a
    match a with
    | ⟨0, _⟩ => show win5_8.index ⟨9, h9⟩ (0 : Fin 2) * 1 ≤ ((i : S1x128.Idx) 0).val ∧ ((i : S1x128.Idx) 0).val < win5_8.index ⟨9, h9⟩ (0 : Fin 2) * 1 + 1; rw [e0]; omega
    | ⟨1, _⟩ => show win5_8.index ⟨9, h9⟩ (1 : Fin 2) * 128 ≤ ((i : S1x128.Idx) 1).val ∧ ((i : S1x128.Idx) 1).val < win5_8.index ⟨9, h9⟩ (1 : Fin 2) * 128 + 128; rw [e1]; omega

/-- THE ROW OF SUMS OF SQUARES after the region: the column sums of the squared product array, tile by tile. -/
theorem sumsq_5 (c : Dev nD) : (dat5 V c).arrAt 9 cfg5.N = Cert.Spec.colsumT (fun a => Cert.Spec.lin (Cert.Spec.bnrelu (V c main_v81_0) (V c main_v83) (V c main_v87) (V c main_v90) (V c main_v93)) (V c main_v98) (V c main_v96) a * Cert.Spec.lin (Cert.Spec.bnrelu (V c main_v81_0) (V c main_v83) (V c main_v87) (V c main_v90) (V c main_v93)) (V c main_v98) (V c main_v96) a) :=
  (dat5 V c).arrAt_eq_of_cover 9 (Cert.Spec.colsumT (fun a => Y5 V c a * Y5 V c a)) (flushed5_9 V c) fun i => by
    have h9 : (9 : ℕ) < cfg5.N := by rw [show cfg5.N = 10 from N_5]; omega
    have e := wpos5 ⟨9, h9⟩
    have e0 : win5_9.index ⟨9, h9⟩ (0 : Fin 2) = 0 := by omega
    have e1 : win5_9.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush5_9 _).mpr rfl, ?_⟩
    rw [mem_blk5_9]
    intro a
    match a with
    | ⟨0, _⟩ => show win5_9.index ⟨9, h9⟩ (0 : Fin 2) * 1 ≤ ((i : S1x128.Idx) 0).val ∧ ((i : S1x128.Idx) 0).val < win5_9.index ⟨9, h9⟩ (0 : Fin 2) * 1 + 1; rw [e0]; omega
    | ⟨1, _⟩ => show win5_9.index ⟨9, h9⟩ (1 : Fin 2) * 128 ≤ ((i : S1x128.Idx) 1).val ∧ ((i : S1x128.Idx) 1).val < win5_9.index ⟨9, h9⟩ (1 : Fin 2) * 128 + 128; rw [e1]; omega

end Cert.KernelIdeal.HandV

end
-- ==== Proof.KV.Val6.lean ====
/- Region 6 at the extended reals: the array its output window ends holding, as one function of the arrays
   the region is entered with — normalise, scale, shift, rectify: `max ((g · (y − mean)) · rsqrt (var + ε) + β) 0`. The body's payload is read at an index; each point writes back the
   block of that function its output rectangle names; the ten blocks of two thousand rows cover the array. -/
import proofs.«411025_j54640573939922_1_alg».proof.Proof.KI.Reg6
import proofs.«411025_j54640573939922_1_alg».proof.Proof.Math.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zero_off6 : (![0, 0] : Fin 2 → Nat) = fun _ => 0 := funext fun a => by fin_cases a <;> rfl

/-- A row broadcast down the two thousand rows of a tile reads, at row `p` column `q`, the row's entry at column `q`. -/
theorem bcast_row6 {α : Type} (x : S1x128.Idx → α) (h : S1x128.Broadcasts S2000x128) (p : Fin 2000) (q : Fin 128) :
    broadcastTo S2000x128 x h (ix2 p q) = x (ix2 0 q) :=
  broadcastTo_apply x h (ix2 p q) (ix2 0 q) (fun a => by match a with | ⟨0, _⟩ => rfl | ⟨1, _⟩ => rfl)

/-- The reciprocal square root of a vector, at an index, is that of the entry. -/
theorem rsqrt_apply6 {s : Shape} {φ : FTy} (a : FVec Ideal s φ) (i : s.Idx) : rsqrt a i = Ideal.rsqrt (a i) := rfl

/-- The payload at row `p`, column `q`: the entry minus the column's mean, scaled by the column's gain and by the
    reciprocal square root of the column's variance plus the guard term, shifted by the column's offset, rectified. -/
theorem bn_pay_apply6 (x0 : Vec Ideal S2000x128 .f32) (x1 x2 x3 x4 : Vec Ideal S1x128 .f32) (p : Fin 2000) (q : Fin 128) :
    k6_pay1 x0 x1 x2 x3 x4 (ix2 p q)
      = max ((x3 (ix2 0 q) * (x0 (ix2 p q) - x1 (ix2 0 q))) * Ideal.rsqrt (x2 (ix2 0 q) + Cert.Spec.cEps) + x4 (ix2 0 q)) Cert.Spec.cZero := by
  unfold k6_pay1
  simp only [maximumf_apply, addf_apply, mulf_apply, subf_apply, broadcast_apply, shapeCast_self, bcast_row6, rsqrt_apply6]
  rfl

/-- Equal entries give equal values of `max ((g · (y − m)) · rsqrt (v + ε) + b) 0`. -/
theorem bn_congr6 (g y m v b g' y' m' v' b' : EReal) (hg : g = g') (hy : y = y') (hm : m = m') (hv : v = v') (hb : b = b') :
    max ((g * (y - m)) * Ideal.rsqrt (v + Cert.Spec.cEps) + b) Cert.Spec.cZero
      = max ((g' * (y' - m')) * Ideal.rsqrt (v' + Cert.Spec.cEps) + b') Cert.Spec.cZero := by
  rw [hg, hy, hm, hv, hb]

/-- The index maps, decided over the ten points: the input tile and the output tile move together down the rows, the
    four statistic and parameter rows stay put. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 4000000 in
/-- What point `t` writes back is block `t` of the normalised, rectified array of the entry arrays. -/
theorem flushed6_eq (c : Dev nD) (t : Fin cfg6.N) :
    (dat6 V c).flushed 5 t = ((cfg6.win 5).blk t).view.read (Elt Ideal)
      (Cert.Spec.bnrelu (V c main_v99_0) (V c main_v101) (V c main_v105) (V c main_v108) (V c main_v111)) := by
  show (cfg6.win 5).cut (grid6.coords t) ((dat6 V c).after 5 t) = _
  rw [after6_5]
  unfold out6_5
  rw [View.canon_unit_zero zero_off6]
  simp only [View.ld_unit_zero (S := S2000x128) zero_off6, View.ld_unit_zero (S := S1x128) zero_off6]
  funext j
  obtain ⟨p, q, rfl⟩ : ∃ (p : Fin 2000) (q : Fin 128), j = ix2 p q := ⟨j 0, j 1, eq_ix2 j⟩
  show k6_pay1 (iblk6 V c 0 t) (iblk6 V c 1 t) (iblk6 V c 2 t) (iblk6 V c 3 t) (iblk6 V c 4 t) (ix2 p q)
    = Cert.Spec.bnrelu (V c main_v99_0) (V c main_v101) (V c main_v105) (V c main_v108) (V c main_v111) (((cfg6.win 5).blk t).view.emb (ix2 p q))
  rw [bn_pay_apply6]
  unfold Cert.Spec.bnrelu iblk6
  simp only [View.read_apply]
  obtain ⟨e00, e01, e10, e11, e20, e21, e30, e31, e40, e41, e50, e51⟩ := idx_facts6 t
  refine bn_congr6 _ _ _ _ _ _ _ _ _ _ (congrArg (V c main_v108) ?_) (congrArg (V c main_v99_0) ?_) (congrArg (V c main_v101) ?_)
    (congrArg (V c main_v105) ?_) (congrArg (V c main_v111) ?_)
  · funext a; apply Fin.ext
    match a with
    | ⟨0, _⟩ => show win6_3.index t (0 : Fin 2) * 1 + 1 * 0 = 0; omega
    | ⟨1, _⟩ => show win6_3.index t (1 : Fin 2) * 128 + 1 * q.val = win6_5.index t (1 : Fin 2) * 128 + 1 * q.val; omega
  · funext a; apply Fin.ext
    match a with
    | ⟨0, _⟩ => show win6_0.index t (0 : Fin 2) * 2000 + 1 * p.val = win6_5.index t (0 : Fin 2) * 2000 + 1 * p.val; omega
    | ⟨1, _⟩ => show win6_0.index t (1 : Fin 2) * 128 + 1 * q.val = win6_5.index t (1 : Fin 2) * 128 + 1 * q.val; omega
  · funext a; apply Fin.ext
    match a with
    | ⟨0, _⟩ => show win6_1.index t (0 : Fin 2) * 1 + 1 * 0 = 0; omega
    | ⟨1, _⟩ => show win6_1.index t (1 : Fin 2) * 128 + 1 * q.val = win6_5.index t (1 : Fin 2) * 128 + 1 * q.val; omega
  · funext a; apply Fin.ext
    match a with
    | ⟨0, _⟩ => show win6_2.index t (0 : Fin 2) * 1 + 1 * 0 = 0; omega
    | ⟨1, _⟩ => show win6_2.index t (1 : Fin 2) * 128 + 1 * q.val = win6_5.index t (1 : Fin 2) * 128 + 1 * q.val; omega
  · funext a; apply Fin.ext
    match a with
    | ⟨0, _⟩ => show win6_4.index t (0 : Fin 2) * 1 + 1 * 0 = 0; omega
    | ⟨1, _⟩ => show win6_4.index t (1 : Fin 2) * 128 + 1 * q.val = win6_5.index t (1 : Fin 2) * 128 + 1 * q.val; omega

/-- An index of the array is in point `t`'s block iff each coordinate is in the block's range on its axis. -/
theorem mem_blk6 (t : Fin cfg6.N) (i : S20000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v112).slice (win6_5.rect t)).set ↔ _
  rw [View.set_slice_whole, Rect.mem_set_unit]
  exact Iff.rfl

/-- Every index of the array is in the block of the point its row falls in: row `r` is in tile `r / 2000`. -/
theorem cover6 (i : S20000x128.Idx) : ∃ t : Fin cfg6.N, (cfg6.win 5).flush t = true ∧ i ∈ ((cfg6.win 5).blk t).view.set := by
  have hi0 : (i 0).val < 20000 := (i 0).isLt
  have hi1 : (i 1).val < 128 := (i 1).isLt
  refine ⟨⟨(i 0).val / 2000, by show (i 0).val / 2000 < 10; omega⟩, flush6_5 _, ?_⟩
  rw [mem_blk6]
  obtain ⟨e00, e01, e10, e11, e20, e21, e30, e31, e40, e41, e50, e51⟩ := idx_facts6 ⟨(i 0).val / 2000, by show (i 0).val / 2000 < 10; omega⟩
  intro a
  match a with
  | ⟨0, _⟩ =>
    show win6_5.index _ (0 : Fin 2) * 2000 ≤ (i 0).val ∧ (i 0).val < win6_5.index _ (0 : Fin 2) * 2000 + 2000
    rw [e50]; show (i 0).val / 2000 * 2000 ≤ (i 0).val ∧ (i 0).val < (i 0).val / 2000 * 2000 + 2000; omega
  | ⟨1, _⟩ =>
    show win6_5.index _ (1 : Fin 2) * 128 ≤ (i 1).val ∧ (i 1).val < win6_5.index _ (1 : Fin 2) * 128 + 128
    rw [e51]; omega

/-- The array window 5 ends holding: the normalised, scaled, shifted, rectified form of the input array, by the mean,
    variance, gain and offset rows the region is entered with. -/
theorem out6 (c : Dev nD) : (dat6 V c).arrAt 5 cfg6.N
    = Cert.Spec.bnrelu (V c main_v99_0) (V c main_v101) (V c main_v105) (V c main_v108) (V c main_v111) :=
  (dat6 V c).arrAt_eq_of_cover 5 (Cert.Spec.bnrelu (V c main_v99_0) (V c main_v101) (V c main_v105) (V c main_v108) (V c main_v111))
    (fun t _ => flushed6_eq V c t) cover6

end Cert.KernelIdeal.HandV
-- ==== Proof.KV.Chain2.lean ====
/-
  The value chain, second layer. For any array `H` in the layer's input buffer, the layer's three stretches and three
  regions leave in its output buffer the layer of `H` with the tiled statistics, its parameters read from row 1 of the
  argument arrays and its neighbour sums taken along the edge list. The text is the first layer's at this layer's
  boundaries, regions and buffers.
-/
import proofs.«411025_j54640573939922_1_alg».proof.Proof.KI.RunA
import proofs.«411025_j54640573939922_1_alg».proof.Proof.KV.ChainKeep
import proofs.«411025_j54640573939922_1_alg».proof.Proof.KV.HostA
import proofs.«411025_j54640573939922_1_alg».proof.Proof.KV.HostB
import proofs.«411025_j54640573939922_1_alg».proof.Proof.KV.Val4
import proofs.«411025_j54640573939922_1_alg».proof.Proof.KV.Val5
import proofs.«411025_j54640573939922_1_alg».proof.Proof.KV.Val6
import proofs.«411025_j54640573939922_1_alg».proof.Proof.KV.Chain1
import proofs.«411025_j54640573939922_1_alg».proof.Proof.Math.Spec
import proofs.«411025_j54640573939922_1_alg».proof.Proof.Math.Agg
import proofs.«411025_j54640573939922_1_alg».proof.Proof.Math.Reads
import proofs.«411025_j54640573939922_1_alg».proof.Proof.Math.Net

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

set_option maxHeartbeats 4000000 in
/-- Layer 2: if the layer's input buffer holds `H` when its first stretch starts, its output buffer holds the layer of
    `H` (tiled statistics) when its last region ends. -/
theorem layer2 (H : Cert.Spec.SNH.Idx → EReal) (hH : W8 m ρ c (Proc.devRef .tc main_v59) = H) :
    W14 m ρ c (Proc.devRef .tc main_v112) =
      Cert.Spec.layerT (Cert.Spec.cOne + Cert.Spec.atOf (argA m c main_arg11) (1 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1)))
        (Cert.Spec.matOf (argA m c main_arg5) (1 : Fin 3)) (Cert.Spec.rowOf (argA m c main_arg6) (1 : Fin 3)) (Cert.Spec.rowOf (argA m c main_arg7) (1 : Fin 3)) (Cert.Spec.rowOf (argA m c main_arg8) (1 : Fin 3))
        (Cert.Spec.matOf (argA m c main_arg9) (1 : Fin 3)) (Cert.Spec.rowOf (argA m c main_arg10) (1 : Fin 3)) (Cert.Spec.rowOf (argA m c main_arg12) (1 : Fin 3)) (Cert.Spec.rowOf (argA m c main_arg13) (1 : Fin 3)) H := by
  -- the edge list's rows, carried from the first boundary
  have s1 : W8 m ρ c (Proc.devRef .tc main_v1) = Cert.Spec.srcOf (argA m c main_arg1) :=
    (W8_un1 m ρ un1_main_v1 c).trans ((h0_v1 (W0 m ρ c)).trans (congrArg Cert.Spec.srcOf (W0_arg m ρ (b := main_arg1) c)))
  have d1 : W8 m ρ c (Proc.devRef .tc main_v3) = Cert.Spec.dstOf (argA m c main_arg1) :=
    (W8_un1 m ρ un1_main_v3 c).trans ((h0_v3 (W0 m ρ c)).trans (congrArg Cert.Spec.dstOf (W0_arg m ρ (b := main_arg1) c)))
  -- the first dense map's input, weights and bias
  have e_x : V9 m ρ c main_v75 = Cert.Spec.mix (Cert.Spec.cOne + Cert.Spec.atOf (argA m c main_arg11) (1 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1))) H :=
    (h4_v75 (W8 m ρ c)).trans (mix_congr (congrArg (fun p => Cert.Spec.cOne + Cert.Spec.atOf p (1 : Fin 3)) (W8_arg m ρ (b := main_arg11) (by decide) un1_main_arg11 c))
      (nbr_congr _ _ s1 d1) hH)
  have e_w1 : V9 m ρ c main_v80 = Cert.Spec.matOf (argA m c main_arg5) (1 : Fin 3) :=
    (h4_v80 (W8 m ρ c)).trans (congrArg (fun p => Cert.Spec.matOf p (1 : Fin 3)) (W8_arg m ρ (b := main_arg5) (by decide) un1_main_arg5 c))
  have e_b1 : V9 m ρ c main_v78 = Cert.Spec.rowOf (argA m c main_arg6) (1 : Fin 3) :=
    (h4_v78 (W8 m ρ c)).trans (congrArg (fun p => Cert.Spec.rowOf p (1 : Fin 3)) (W8_arg m ρ (b := main_arg6) (by decide) un1_main_arg6 c))
  have e_y1 := lin_congr e_x e_w1 e_b1
  -- what the first dense region leaves: the array and its two running sums
  have y1_a := W10_arr m ρ c (3 : Fin cfg4.W)
  have y1_b := (y1_4 (V9 m ρ) c).trans (e_y1)
  have y1 : W10 m ρ c (Proc.devRef .tc main_v81_0) = _ := y1_a.trans y1_b
  have su1_a := W10_arr m ρ c (4 : Fin cfg4.W)
  have su1_b := (sum_4 (V9 m ρ) c).trans (congrArg Cert.Spec.colsumT e_y1)
  have su1 : W10 m ρ c (Proc.devRef .tc main_v81_1) = _ := su1_a.trans su1_b
  have sq1_a := W10_arr m ρ c (5 : Fin cfg4.W)
  have sq1_b := (sumsq_4 (V9 m ρ) c).trans (congrArg (fun y : Cert.Spec.SNH.Idx → EReal => Cert.Spec.colsumT fun a => y a * y a) e_y1)
  have sq1 : W10 m ρ c (Proc.devRef .tc main_v81_2) = _ := sq1_a.trans sq1_b
  -- the second dense map's input statistics, scale, shift, weights and bias
  have e_y1' : V11 m ρ c main_v81_0 = _ := (W11_of m ρ c main_v81_0 (by decide)).trans y1
  have e_m1 : V11 m ρ c main_v83 = _ :=
    (h5_v83 (W10 m ρ c)).trans ((congrArg Cert.Spec.meanOf su1).trans (Cert.Spec.meanOf_colsumT _))
  have e_v1 : V11 m ρ c main_v87 = _ :=
    (h5_v87 (W10 m ρ c)).trans ((congrArg₂ Cert.Spec.varOf su1 sq1).trans (Cert.Spec.varOf_colsumT _))
  have e_g1 : V11 m ρ c main_v90 = Cert.Spec.rowOf (argA m c main_arg7) (1 : Fin 3) :=
    (h5_v90 (W10 m ρ c)).trans (congrArg (fun p => Cert.Spec.rowOf p (1 : Fin 3)) (W10_arg m ρ (b := main_arg7) (by decide) un1_main_arg7 c))
  have e_be1 : V11 m ρ c main_v93 = Cert.Spec.rowOf (argA m c main_arg8) (1 : Fin 3) :=
    (h5_v93 (W10 m ρ c)).trans (congrArg (fun p => Cert.Spec.rowOf p (1 : Fin 3)) (W10_arg m ρ (b := main_arg8) (by decide) un1_main_arg8 c))
  have e_b2 : V11 m ρ c main_v96 = Cert.Spec.rowOf (argA m c main_arg10) (1 : Fin 3) :=
    (h5_v96 (W10 m ρ c)).trans (congrArg (fun p => Cert.Spec.rowOf p (1 : Fin 3)) (W10_arg m ρ (b := main_arg10) (by decide) un1_main_arg10 c))
  have e_w2 : V11 m ρ c main_v98 = Cert.Spec.matOf (argA m c main_arg9) (1 : Fin 3) :=
    (h5_v98 (W10 m ρ c)).trans (congrArg (fun p => Cert.Spec.matOf p (1 : Fin 3)) (W10_arg m ρ (b := main_arg9) (by decide) un1_main_arg9 c))
  have e_y2 := lin_congr (bnrelu_congr e_y1' e_m1 e_v1 e_g1 e_be1) e_w2 e_b2
  -- what the second dense region leaves
  have y2_a := W12_arr m ρ c (7 : Fin cfg5.W)
  have y2_b := (y2_5 (V11 m ρ) c).trans (e_y2)
  have y2 : W12 m ρ c (Proc.devRef .tc main_v99_0) = _ := y2_a.trans y2_b
  have su2_a := W12_arr m ρ c (8 : Fin cfg5.W)
  have su2_b := (sum_5 (V11 m ρ) c).trans (congrArg Cert.Spec.colsumT e_y2)
  have su2 : W12 m ρ c (Proc.devRef .tc main_v99_1) = _ := su2_a.trans su2_b
  have sq2_a := W12_arr m ρ c (9 : Fin cfg5.W)
  have sq2_b := (sumsq_5 (V11 m ρ) c).trans (congrArg (fun y : Cert.Spec.SNH.Idx → EReal => Cert.Spec.colsumT fun a => y a * y a) e_y2)
  have sq2 : W12 m ρ c (Proc.devRef .tc main_v99_2) = _ := sq2_a.trans sq2_b
  -- the closing normalisation's statistics, scale and shift
  have e_y2' : V13 m ρ c main_v99_0 = _ := (W13_of m ρ c main_v99_0 (by decide)).trans y2
  have e_m2 : V13 m ρ c main_v101 = _ :=
    (h6_v101 (W12 m ρ c)).trans ((congrArg Cert.Spec.meanOf su2).trans (Cert.Spec.meanOf_colsumT _))
  have e_v2 : V13 m ρ c main_v105 = _ :=
    (h6_v105 (W12 m ρ c)).trans ((congrArg₂ Cert.Spec.varOf su2 sq2).trans (Cert.Spec.varOf_colsumT _))
  have e_g2 : V13 m ρ c main_v108 = Cert.Spec.rowOf (argA m c main_arg12) (1 : Fin 3) :=
    (h6_v108 (W12 m ρ c)).trans (congrArg (fun p => Cert.Spec.rowOf p (1 : Fin 3)) (W12_arg m ρ (b := main_arg12) (by decide) un1_main_arg12 c))
  have e_be2 : V13 m ρ c main_v111 = Cert.Spec.rowOf (argA m c main_arg13) (1 : Fin 3) :=
    (h6_v111 (W12 m ρ c)).trans (congrArg (fun p => Cert.Spec.rowOf p (1 : Fin 3)) (W12_arg m ρ (b := main_arg13) (by decide) un1_main_arg13 c))
  have o_a := W14_arr m ρ c (5 : Fin cfg6.W)
  have o_b := (out6 (V13 m ρ) c).trans (bnrelu_congr e_y2' e_m2 e_v2 e_g2 e_be2)
  exact o_a.trans o_b

end Cert.KernelIdeal.HandV

end
-- ==== Proof.KV.HostC.lean ====
/-
  What the host operations between the kernel's regions leave in the arrays a later region reads, at the extended
  reals and from any contents `W` of the buffers: the three stretches of the third layer. The statements are the first
  layer's at this layer's buffers and at row 2 of every parameter array.
-/
import proofs.«411025_j54640573939922_1_alg».proof.Proof.Gen.KernelIdeal.Launch
import proofs.«411025_j54640573939922_1_alg».proof.Proof.Math.Spec
import proofs.«411025_j54640573939922_1_alg».proof.Proof.Math.Agg
import proofs.«411025_j54640573939922_1_alg».proof.Proof.Math.Reads
import Idealize.ShloMosaic.Lib.StableHlo.Run
import Idealize.ShloMosaic.Lib.ValueLayout
import Idealize.ShloMosaic.Lib.ValueIdx
import Idealize.ShloMosaic.Lib.IdealHost

set_option maxRecDepth 16384

noncomputable section

namespace Cert.KernelIdeal.HandV

open Idealize.ShloMosaic Idealize.ShloMosaic.TcCoe Idealize.ShloMosaic.ValueIdx
open Cert.KernelIdeal Cert.KernelIdeal.Gen

variable (W : Valuation τ sig (Elt Ideal))

/-! ## Layer 3: the stretch before its first dense map -/

set_option maxHeartbeats 4000000 in
/-- The first dense map's input: `(1 + ε) · h` plus the neighbour sums of `h`. -/
theorem h7_v128 : (StableHlo.after (hostOps7 (F := Ideal)) W (Proc.devRef .tc main_v128) : Cert.Spec.SNH.Idx → EReal)
    = Cert.Spec.mix (Cert.Spec.cOne + Cert.Spec.atOf (W (Proc.devRef .tc main_arg11)) (2 : Fin 3))
        (Cert.Spec.nbr gather_S20000x128_S640000x1_S640000x128_1_0_n_n_0_1_1128 scatter_S20000x128_S640000x1_S640000x128_1_0_0_1 (W (Proc.devRef .tc main_v1)) (W (Proc.devRef .tc main_v3))) (W (Proc.devRef .tc main_v112)) := by
  dsimp only [hostOps7]
  after_results_simp
  exact Cert.Spec.mix_read _ _ _ (2 : Fin 3) _ _ _ _ _ _ _ _ _ _ _

/-- The first dense map's bias row and weight matrix. -/
theorem h7_v131 : (StableHlo.after (hostOps7 (F := Ideal)) W (Proc.devRef .tc main_v131) : Cert.Spec.S1H.Idx → EReal)
    = Cert.Spec.rowOf (W (Proc.devRef .tc main_arg6)) (2 : Fin 3) := by
  dsimp only [hostOps7]
  after_results
  exact Cert.Spec.rowOf_read _ (2 : Fin 3) _ _ _

theorem h7_v133 : (StableHlo.after (hostOps7 (F := Ideal)) W (Proc.devRef .tc main_v133) : Cert.Spec.SHH.Idx → EReal)
    = Cert.Spec.matOf (W (Proc.devRef .tc main_arg5)) (2 : Fin 3) := by
  dsimp only [hostOps7]
  after_results
  exact Cert.Spec.matOf_read _ (2 : Fin 3) _ _

/-! ## Layer 3: the stretch before its second dense map -/

/-- The first normalisation's mean and variance, from the column sums and the column sums of squares. -/
theorem h8_v136 : (StableHlo.after (hostOps8 (F := Ideal)) W (Proc.devRef .tc main_v136) : Cert.Spec.S1H.Idx → EReal)
    = Cert.Spec.meanOf (W (Proc.devRef .tc main_v134_1)) := by
  dsimp only [hostOps8]
  after_results
  exact Cert.Spec.meanOf_read _ _

theorem h8_v140 : (StableHlo.after (hostOps8 (F := Ideal)) W (Proc.devRef .tc main_v140) : Cert.Spec.S1H.Idx → EReal)
    = Cert.Spec.varOf (W (Proc.devRef .tc main_v134_1)) (W (Proc.devRef .tc main_v134_2)) := by
  dsimp only [hostOps8]
  after_results
  exact Cert.Spec.varOf_read _ _ _ _

/-- The first normalisation's scale and shift rows, the second dense map's bias row and weight matrix. -/
theorem h8_v143 : (StableHlo.after (hostOps8 (F := Ideal)) W (Proc.devRef .tc main_v143) : Cert.Spec.S1H.Idx → EReal)
    = Cert.Spec.rowOf (W (Proc.devRef .tc main_arg7)) (2 : Fin 3) := by
  dsimp only [hostOps8]
  after_results
  exact Cert.Spec.rowOf_read _ (2 : Fin 3) _ _ _

theorem h8_v146 : (StableHlo.after (hostOps8 (F := Ideal)) W (Proc.devRef .tc main_v146) : Cert.Spec.S1H.Idx → EReal)
    = Cert.Spec.rowOf (W (Proc.devRef .tc main_arg8)) (2 : Fin 3) := by
  dsimp only [hostOps8]
  after_results
  exact Cert.Spec.rowOf_read _ (2 : Fin 3) _ _ _

theorem h8_v149 : (StableHlo.after (hostOps8 (F := Ideal)) W (Proc.devRef .tc main_v149) : Cert.Spec.S1H.Idx → EReal)
    = Cert.Spec.rowOf (W (Proc.devRef .tc main_arg10)) (2 : Fin 3) := by
  dsimp only [hostOps8]
  after_results
  exact Cert.Spec.rowOf_read _ (2 : Fin 3) _ _ _

theorem h8_v151 : (StableHlo.after (hostOps8 (F := Ideal)) W (Proc.devRef .tc main_v151) : Cert.Spec.SHH.Idx → EReal)
    = Cert.Spec.matOf (W (Proc.devRef .tc main_arg9)) (2 : Fin 3) := by
  dsimp only [hostOps8]
  after_results
  exact Cert.Spec.matOf_read _ (2 : Fin 3) _ _

/-! ## Layer 3: the stretch before its closing normalisation -/

/-- The closing normalisation's mean and variance, and its scale and shift rows. -/
theorem h9_v154 : (StableHlo.after (hostOps9 (F := Ideal)) W (Proc.devRef .tc main_v154) : Cert.Spec.S1H.Idx → EReal)
    = Cert.Spec.meanOf (W (Proc.devRef .tc main_v152_1)) := by
  dsimp only [hostOps9]
  after_results
  exact Cert.Spec.meanOf_read _ _

theorem h9_v158 : (StableHlo.after (hostOps9 (F := Ideal)) W (Proc.devRef .tc main_v158) : Cert.Spec.S1H.Idx → EReal)
    = Cert.Spec.varOf (W (Proc.devRef .tc main_v152_1)) (W (Proc.devRef .tc main_v152_2)) := by
  dsimp only [hostOps9]
  after_results
  exact Cert.Spec.varOf_read _ _ _ _

theorem h9_v161 : (StableHlo.after (hostOps9 (F := Ideal)) W (Proc.devRef .tc main_v161) : Cert.Spec.S1H.Idx → EReal)
    = Cert.Spec.rowOf (W (Proc.devRef .tc main_arg12)) (2 : Fin 3) := by
  dsimp only [hostOps9]
  after_results
  exact Cert.Spec.rowOf_read _ (2 : Fin 3) _ _ _

theorem h9_v164 : (StableHlo.after (hostOps9 (F := Ideal)) W (Proc.devRef .tc main_v164) : Cert.Spec.S1H.Idx → EReal)
    = Cert.Spec.rowOf (W (Proc.devRef .tc main_arg13)) (2 : Fin 3) := by
  dsimp only [hostOps9]
  after_results
  exact Cert.Spec.rowOf_read _ (2 : Fin 3) _ _ _

end Cert.KernelIdeal.HandV

end
-- ==== Proof.KV.Pay7.lean ====
/-
  The arithmetic of region 7's body at an entry, over the extended reals: the tile of the dense map is, at row r and
  column j, the sum over k of z(r,k) · W(k,j) plus the bias b(j) (the narrowing casts around the product are the
  identity here); a running row after the body is what it held plus the tile's column sum at j, of y or of y².
-/
import proofs.«411025_j54640573939922_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen
open Idealize.ShloMosaic Idealize.ShloMosaic.ValueIdx

/-- The product's dimension numbers: rows × contraction times contraction × columns. -/
abbrev dot_7 : DotDims S2000x128 S128x128 S2000x128 := dot_S2000x128_S128x128_S2000x128_1_0_0_1_n_n

/-- The operand indices of the product at output entry `i` and contraction position `q`, axis by axis: the left operand
    is read at (row of `i`, `q`), the right at (`q`, column of `i`). -/
theorem lhs0_7 (i : S2000x128.Idx) (q : dot_7.contr.Idx) : (dot_7.lhsIdx i q 0).val = (i 0).val := by
  unfold DotDims.lhsIdx
  rw [dif_neg (show ¬(0 : Fin S2000x128.rank) ∈ dot_7.lhsBatch by decide), dif_pos (show (0 : Fin S2000x128.rank) ∈ dot_7.lhsNonContracting by decide)]
  rfl
theorem lhs1_7 (i : S2000x128.Idx) (q : dot_7.contr.Idx) : (dot_7.lhsIdx i q 1).val = (q ⟨0, by decide⟩).val :=
  dot_7.lhsIdx_val_of_single rfl i q
theorem rhs0_7 (i : S2000x128.Idx) (q : dot_7.contr.Idx) : (dot_7.rhsIdx i q 0).val = (q ⟨0, by decide⟩).val :=
  dot_7.rhsIdx_val_of_single rfl i q
theorem rhs1_7 (i : S2000x128.Idx) (q : dot_7.contr.Idx) : (dot_7.rhsIdx i q 1).val = (i 1).val := by
  unfold DotDims.rhsIdx
  rw [dif_neg (show ¬(1 : Fin S128x128.rank) ∈ dot_7.rhsBatch by decide), dif_pos (show (1 : Fin S128x128.rank) ∈ dot_7.rhsNonContracting by decide)]
  rfl

/-- The tile of the dense map at an entry. -/
theorem pay1_apply_7 (x0 : Vec Ideal S2000x128 .f32) (x1 : Vec Ideal S128x128 .f32) (x2 : Vec Ideal S1x128 .f32) (r : Fin 2000) (j : Fin 128) :
    k7_pay1 x0 x1 x2 (ix2 r j) = (∑ k : Fin 128, x0 (ix2 r k) * x1 (ix2 k j)) + x2 (ix2 0 j) := by
  unfold k7_pay1
  refine (addf_apply _ _ _).trans ?_
  congr 1
  · simp only [matmul]
    rw [Ideal.matmul_constant_zero_apply, ← Equiv.sum_comp (contrEquiv1 dot_7 128 rfl rfl).symm]
    refine Finset.sum_congr rfl fun k _ => ?_
    have hk := contrEquiv1_symm_val dot_7 128 rfl rfl k
    have el : dot_7.lhsIdx (ix2 r j) ((contrEquiv1 dot_7 128 rfl rfl).symm k) = ix2 r k := funext fun a => Fin.ext (by
      match a with
      | ⟨0, _⟩ => exact lhs0_7 _ _
      | ⟨1, _⟩ => exact (lhs1_7 _ _).trans hk)
    have er : dot_7.rhsIdx (ix2 r j) ((contrEquiv1 dot_7 128 rfl rfl).symm k) = ix2 k j := funext fun a => Fin.ext (by
      match a with
      | ⟨0, _⟩ => exact (rhs0_7 _ _).trans hk
      | ⟨1, _⟩ => exact rhs1_7 _ _)
    rw [el, er]
    simp only [truncf_apply, shapeCast_self]
  · rw [shapeCast_self]
    exact broadcastTo_apply x2 broadcasts_S1x128_S2000x128 (ix2 r j) (ix2 0 j) (fun a => by
      match a with
      | ⟨0, _⟩ => rfl
      | ⟨1, _⟩ => rfl)

/-- The zero row stored at the first tile. -/
theorem pay2_apply_7 (i : S1x128.Idx) : (k7_pay2 (F := Ideal)) i = 0 := by
  unfold k7_pay2
  exact Ideal.ofBits_zero_f32
theorem pay3_apply_7 (i : S1x128.Idx) : (k7_pay3 (F := Ideal)) i = 0 := by
  unfold k7_pay3
  exact Ideal.ofBits_zero_f32

/-- The source entry over column `j` with row `k` put back. -/
theorem lift_7 (j : Fin 128) (k : Fin 2000) : reduces_S2000x128_S128.lift (ix1 j) k = ix2 k j :=
  funext fun a => Fin.ext (by
    match a with
    | ⟨0, _⟩ => rfl
    | ⟨1, _⟩ => rfl)

/-- The running column sums after the body: what the row held plus the tile's column sums. -/
theorem pay4_apply_7 (x0 : Vec Ideal S2000x128 .f32) (x1 : Vec Ideal S128x128 .f32) (x2 : Vec Ideal S1x128 .f32) (acc : Vec Ideal S1x128 .f32) (u : Fin 1) (j : Fin 128) :
    k7_pay4 x0 x1 x2 acc (ix2 u j) = acc (ix2 u j) + ∑ r : Fin 2000, k7_pay1 x0 x1 x2 (ix2 r j) := by
  unfold k7_pay4
  refine (addf_apply _ _ _).trans ?_
  rw [shapeCast_self]
  congr 1
  refine (shapeCast_a_1a_apply _ shapeCasts_S128_S1x128 u j).trans ?_
  refine (Ideal.multiReduction_add_single (k7_pay1 x0 x1 x2) 0x00000000#32 reduces_S2000x128_S128 (.inl rfl) rfl (ix1 j)).trans ?_
  exact Finset.sum_congr rfl fun k _ => congrArg (k7_pay1 x0 x1 x2) (lift_7 j k)

/-- The running column sums of squares likewise. -/
theorem pay5_apply_7 (x0 : Vec Ideal S2000x128 .f32) (x1 : Vec Ideal S128x128 .f32) (x2 : Vec Ideal S1x128 .f32) (acc : Vec Ideal S1x128 .f32) (u : Fin 1) (j : Fin 128) :
    k7_pay5 x0 x1 x2 acc (ix2 u j) = acc (ix2 u j) + ∑ r : Fin 2000, k7_pay1 x0 x1 x2 (ix2 r j) * k7_pay1 x0 x1 x2 (ix2 r j) := by
  unfold k7_pay5
  refine (addf_apply _ _ _).trans ?_
  rw [shapeCast_self]
  congr 1
  refine (shapeCast_a_1a_apply _ shapeCasts_S128_S1x128 u j).trans ?_
  refine (Ideal.multiReduction_add_single (mulf (k7_pay1 x0 x1 x2) (k7_pay1 x0 x1 x2)) 0x00000000#32 reduces_S2000x128_S128 (.inl rfl) rfl (ix1 j)).trans ?_
  exact Finset.sum_congr rfl fun k _ => (mulf_apply _ _ _).trans (congrArg (fun i => k7_pay1 x0 x1 x2 i * k7_pay1 x0 x1 x2 i) (lift_7 j k))

end Cert.KernelIdeal.HandV

end
-- ==== Proof.KV.Piece7.lean ====
/-
  What each case of region 7's body leaves in the three outputs' staging buffers, as values: the tile y of the
  dense map; and for a running row, at the first tile zero plus the tile's column sums (the zero row is stored and
  read back), at a later tile what the row held plus the tile's column sums. For any float model.
-/
import proofs.«411025_j54640573939922_1_alg».proof.Proof.KI.Reg7
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz_7 : (![0, 0] : Fin 2 → Nat) = fun _ => 0 := funext fun a => by fin_cases a <;> rfl

/-- First tile: the tile of the dense map, -/
theorem out_A_3_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) :
    out7_A_3 c i arg1 harg1 arg2 harg2 arg3 harg3 arg4 harg4 arg5 harg5 arg6 harg6 hc0 x0 x1 x2 = k7_pay1 x0 x1 x2 := by
  unfold out7_A_3
  rw [View.read_writes_eq_canon _ _ _ (cover7_A_3 c i arg1 harg1 arg2 harg2 arg3 harg3 arg4 harg4 arg5 harg5 arg6 harg6 hc0 x0 x1 x2)]
  unfold kernelRun7_A
  dsimp only
  sl_unfold_words
  rw [View.canon_unit_zero hz_7]
  simp only [View.readAt_eq_ld, harg1.read_unread, harg2.read_unread, harg3.read_unread, View.ld_unit_zero (S := S2000x128) hz_7, View.ld_unit_zero (S := S128x128) hz_7, View.ld_unit_zero (S := S1x128) hz_7]

/-- zero plus its column sums, -/
theorem out_A_4_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) :
    out7_A_4 c i arg1 harg1 arg2 harg2 arg3 harg3 arg4 harg4 arg5 harg5 arg6 harg6 hc0 x0 x1 x2 = k7_pay4 x0 x1 x2 (k7_pay2 (F := F)) := by
  unfold out7_A_4
  rw [View.read_writes_eq_canon _ _ _ (cover7_A_4 c i arg1 harg1 arg2 harg2 arg3 harg3 arg4 harg4 arg5 harg5 arg6 harg6 hc0 x0 x1 x2)]
  unfold kernelRun7_A
  dsimp only
  sl_unfold_words
  rw [View.canon_cons_unit_zero (S := S1x128) hz_7, View.readCov_unit_zero (S := S1x128) _ hz_7]
  simp only [View.readAt_eq_ld, harg1.read_unread, harg2.read_unread, harg3.read_unread, View.ld_unit_zero (S := S2000x128) hz_7, View.ld_unit_zero (S := S128x128) hz_7, View.ld_unit_zero (S := S1x128) hz_7]

/-- zero plus the column sums of its squares. -/
theorem out_A_5_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : cond7_0 i) (x0 : Vec F S2000x128 .f32) (x1 : Vec F S128x128 .f32) (x2 : Vec F S1x128 .f32) :
    out7_A_5 c i arg1 harg1 arg2 harg2 arg3 harg3 arg4 harg4 arg5 harg5 arg6 harg6 hc0 x0 x1 x2 = k7_pay5 x0 x1 x2 (k7_pay3 (F := F)) := by
  unfold out7_A_5
  rw [View.read_writes_eq_canon _ _ _ (cover7_A_5 c i arg1 harg1 arg2 harg2 arg3 harg3 arg4 harg4 arg5 harg5 arg6 harg6 hc0 x0 x1 x2)]
  unfold kernelRun7_A
  dsimp only
  sl_unfold_words
  rw [View.canon_cons_unit_zero (S := S1x128) hz_7, View.readCov_unit_zero (S := S1x128) _ hz_7]
  simp only [View.readAt_eq_ld, harg1.read_unread, harg2.read_unread, harg3.read_unread, View.ld_unit_zero (S := S2000x128) hz_7, View.ld_unit_zero (S := S128x128) hz_7, View.ld_unit_zero (S := S1x128) hz_7]

/-- A later tile: the tile of the dense map, -/
theorem out_B_3_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) :
    out7_B_3 c i arg1 harg1 arg2 harg2 arg3 harg3 arg4 harg4 arg5 harg5 arg6 harg6 hc0 x0 x1 x2 xo4 xo5 = k7_pay1 x0 x1 x2 := by
  unfold out7_B_3
  rw [View.read_writes_eq_canon _ _ _ (cover7_B_3 c i arg1 harg1 arg2 harg2 arg3 harg3 arg4 harg4 arg5 harg5 arg6 harg6 hc0 x0 x1 x2 xo4 xo5)]
  unfold kernelRun7_B
  dsimp only
  sl_unfold_words
  rw [View.canon_unit_zero hz_7]
  simp only [View.readAt_eq_ld, harg1.read_unread, harg2.read_unread, harg3.read_unread, harg5.read_unread, harg6.read_unread, View.ld_unit_zero (S := S2000x128) hz_7, View.ld_unit_zero (S := S128x128) hz_7, View.ld_unit_zero (S := S1x128) hz_7]

/-- the sums so far plus its column sums, -/
theorem out_B_4_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) :
    out7_B_4 c i arg1 harg1 arg2 harg2 arg3 harg3 arg4 harg4 arg5 harg5 arg6 harg6 hc0 x0 x1 x2 xo4 xo5 = k7_pay4 x0 x1 x2 xo4 := by
  unfold out7_B_4
  rw [View.read_writes_eq_canon _ _ _ (cover7_B_4 c i arg1 harg1 arg2 harg2 arg3 harg3 arg4 harg4 arg5 harg5 arg6 harg6 hc0 x0 x1 x2 xo4 xo5)]
  unfold kernelRun7_B
  dsimp only
  sl_unfold_words
  rw [View.canon_unit_zero hz_7]
  simp only [View.readAt_eq_ld, harg1.read_unread, harg2.read_unread, harg3.read_unread, harg5.read_unread, harg6.read_unread, View.ld_unit_zero (S := S2000x128) hz_7, View.ld_unit_zero (S := S128x128) hz_7, View.ld_unit_zero (S := S1x128) hz_7]

/-- the sums of squares so far plus the column sums of its squares. -/
theorem out_B_5_7 (c : Dev nD) (i : grid7.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (hc0 : ¬cond7_0 i) (x0 : Vec F S2000x128 .f32) (x1 : Vec F S128x128 .f32) (x2 : Vec F S1x128 .f32) (xo4 : Vec F S1x128 .f32) (xo5 : Vec F S1x128 .f32) :
    out7_B_5 c i arg1 harg1 arg2 harg2 arg3 harg3 arg4 harg4 arg5 harg5 arg6 harg6 hc0 x0 x1 x2 xo4 xo5 = k7_pay5 x0 x1 x2 xo5 := by
  unfold out7_B_5
  rw [View.read_writes_eq_canon _ _ _ (cover7_B_5 c i arg1 harg1 arg2 harg2 arg3 harg3 arg4 harg4 arg5 harg5 arg6 harg6 hc0 x0 x1 x2 xo4 xo5)]
  unfold kernelRun7_B
  dsimp only
  sl_unfold_words
  rw [View.canon_unit_zero hz_7]
  simp only [View.readAt_eq_ld, harg1.read_unread, harg2.read_unread, harg3.read_unread, harg5.read_unread, harg6.read_unread, View.ld_unit_zero (S := S2000x128) hz_7, View.ld_unit_zero (S := S128x128) hz_7, View.ld_unit_zero (S := S1x128) hz_7]

end Cert.KernelIdeal.HandV

end
-- ==== Proof.KV.Val7.lean ====
/-
  What region 7 leaves in its three result arrays, over the extended reals, as functions of the arrays it reads:
  the dense map y = z · W + b of all twenty thousand rows (each tile's write-back is that tile of y, and the ten
  tiles cover the array); the column sums of y taken tile by tile; and the column sums of y² likewise. The running
  rows are handled by induction on the tile: after tile n the row holds the sum over tiles 0..n of the tile's
  column sums (zero plus the first tile's at the start); only the last tile's contents are written back.
-/
import proofs.«411025_j54640573939922_1_alg».proof.Proof.KV.Pay7
import proofs.«411025_j54640573939922_1_alg».proof.Proof.KV.Piece7
import proofs.«411025_j54640573939922_1_alg».proof.Proof.Math.Spec
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The arrays the region reads: the rows z, the weights W, the bias b; and the dense map of them. -/
abbrev zarr_7 (c : Dev nD) : Cert.Spec.SNH.Idx → EReal := V c main_v128
abbrev warr_7 (c : Dev nD) : Cert.Spec.SHH.Idx → EReal := V c main_v133
abbrev barr_7 (c : Dev nD) : Cert.Spec.S1H.Idx → EReal := V c main_v131
abbrev yarr_7 (c : Dev nD) : Cert.Spec.SNH.Idx → EReal := Cert.Spec.lin (zarr_7 V c) (warr_7 V c) (barr_7 V c)

/-- The three input blocks at tile `t`, at their literal shapes. -/
abbrev zblk_7 (c : Dev nD) (t : Fin cfg7.N) : Vec Ideal S2000x128 .f32 := iblk7 V c 0 t
abbrev wblk_7 (c : Dev nD) (t : Fin cfg7.N) : Vec Ideal S128x128 .f32 := iblk7 V c 1 t
abbrev bblk_7 (c : Dev nD) (t : Fin cfg7.N) : Vec Ideal S1x128 .f32 := iblk7 V c 2 t

/-- The block index of every window at tile `t`: the rows' and the result tile's move with `t`, the others stay. -/
theorem idx_7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- A grid point as one of the ten tiles. -/
abbrev tile_7 (t : Fin cfg7.N) : Fin 10 := ⟨t.val, lt_of_lt_of_eq t.isLt (show cfg7.N = 10 from N_7)⟩

/-- The blocks read through their windows: row `r` of tile `t` is row `2000 t + r` of z; W and b are read whole. -/
theorem zblk_apply_7 (c : Dev nD) (t : Fin cfg7.N) (r : Fin 2000) (k : Fin 128) :
    zblk_7 V c t (ix2 r k) = zarr_7 V c (ix2 (Cert.Spec.row (tile_7 t) r) k) := by
  obtain ⟨e0, e1, -⟩ := idx_7 t
  show ((cfg7.win 0).blk t).view.read (Elt Ideal) (V c main_v128) (ix2 r k) = V c main_v128 _
  rw [View.read_apply]
  have he : ((cfg7.win 0).blk t).view.emb (ix2 r k) = ix2 (Cert.Spec.row (tile_7 t) r) k := by
    funext a
    apply Fin.ext
    match a with
    | ⟨0, _⟩ => show win7_0.index t 0 * 2000 + 1 * r.val = 2000 * t.val + r.val; rw [e0]; omega
    | ⟨1, _⟩ => show win7_0.index t 1 * 128 + 1 * k.val = k.val; rw [e1]; omega
  exact congrArg (V c main_v128) he

theorem wblk_apply_7 (c : Dev nD) (t : Fin cfg7.N) (k : Fin 128) (j : Fin 128) :
    wblk_7 V c t (ix2 k j) = warr_7 V c (ix2 k j) := by
  obtain ⟨-, -, e2, e3, -⟩ := idx_7 t
  show ((cfg7.win 1).blk t).view.read (Elt Ideal) (V c main_v133) (ix2 k j) = V c main_v133 _
  rw [View.read_apply]
  have he : ((cfg7.win 1).blk t).view.emb (ix2 k j) = ix2 k j := by
    funext a
    apply Fin.ext
    match a with
    | ⟨0, _⟩ => show win7_1.index t 0 * 128 + 1 * k.val = k.val; rw [e2]; omega
    | ⟨1, _⟩ => show win7_1.index t 1 * 128 + 1 * j.val = j.val; rw [e3]; omega
  exact congrArg (V c main_v133) he

theorem bblk_apply_7 (c : Dev nD) (t : Fin cfg7.N) (u : Fin 1) (j : Fin 128) :
    bblk_7 V c t (ix2 u j) = barr_7 V c (ix2 0 j) := by
  obtain ⟨-, -, -, -, e4, e5, -⟩ := idx_7 t
  show ((cfg7.win 2).blk t).view.read (Elt Ideal) (V c main_v131) (ix2 u j) = V c main_v131 _
  rw [View.read_apply]
  have he : ((cfg7.win 2).blk t).view.emb (ix2 u j) = ix2 0 j := by
    funext a
    apply Fin.ext
    match a with
    | ⟨0, _⟩ => show win7_2.index t 0 * 1 + 1 * u.val = 0; rw [e4]; omega
    | ⟨1, _⟩ => show win7_2.index t 1 * 128 + 1 * j.val = j.val; rw [e5]; omega
  exact congrArg (V c main_v131) he

/-- The body's tile is tile `t` of the dense map. -/
theorem tile_eq_7 (c : Dev nD) (t : Fin cfg7.N) (r : Fin 2000) (j : Fin 128) :
    k7_pay1 (zblk_7 V c t) (wblk_7 V c t) (bblk_7 V c t) (ix2 r j) = yarr_7 V c (ix2 (Cert.Spec.row (tile_7 t) r) j) := by
  refine (pay1_apply_7 (zblk_7 V c t) (wblk_7 V c t) (bblk_7 V c t) r j).trans ?_
  show _ = (∑ k : Fin 128, zarr_7 V c (ix2 (Cert.Spec.row (tile_7 t) r) k) * warr_7 V c (ix2 k j)) + barr_7 V c (ix2 0 j)
  rw [bblk_apply_7 V c t 0 j]
  congr 1
  exact Finset.sum_congr rfl fun k _ => by rw [zblk_apply_7 V c t r k, wblk_apply_7 V c t k j]

/-! ## The dense map's array -/

/-- After any tile the result window's buffer holds the body's tile. -/
theorem after3_eq_7 (c : Dev nD) (t : Fin cfg7.N) :
    (dat7 V c).after 3 t = k7_pay1 (zblk_7 V c t) (wblk_7 V c t) (bblk_7 V c t) := by
  rw [after7_3]
  by_cases h0 : t.val % 10 = 0
  · rw [outsAt7_A V c t h0]; dsimp only
    exact out_A_3_7 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)
  · rw [outsAt7_B V c t h0]; dsimp only
    exact out_B_3_7 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2

/-- What tile `t` writes back is block `t` of the dense map. -/
theorem flushed3_eq_7 (c : Dev nD) (t : Fin cfg7.N) :
    (dat7 V c).flushed 3 t = ((cfg7.win 3).blk t).view.read (Elt Ideal) (yarr_7 V c) := by
  show (cfg7.win 3).cut (grid7.coords t) ((dat7 V c).after 3 t) = _
  rw [after3_eq_7]
  obtain ⟨-, -, -, -, -, -, e6, e7, -⟩ := idx_7 t
  funext y
  obtain ⟨r, j, rfl⟩ : ∃ (r : Fin 2000) (j : Fin 128), y = ix2 r j := ⟨y 0, y 1, eq_ix2 y⟩
  show k7_pay1 (zblk_7 V c t) (wblk_7 V c t) (bblk_7 V c t) (ix2 r j) = yarr_7 V c (((cfg7.win 3).blk t).view.emb (ix2 r j))
  rw [tile_eq_7]
  congr 1
  funext a
  apply Fin.ext
  match a with
  | ⟨0, _⟩ => show 2000 * t.val + r.val = win7_3.index t 0 * 2000 + 1 * r.val; rw [e6]; omega
  | ⟨1, _⟩ => show j.val = win7_3.index t 1 * 128 + 1 * j.val; rw [e7]; omega

/-- The array of the dense map after the region: the ten tiles' write-backs cover it. -/
theorem y1_7 (c : Dev nD) : (dat7 V c).arrAt 3 cfg7.N = Cert.Spec.lin (V c main_v128) (V c main_v133) (V c main_v131) :=
  (dat7 V c).arrAt_eq_of_cover 3 (yarr_7 V c) (fun t _ => flushed3_eq_7 V c t) fun i => by
    have hi0 : (i 0).val < 20000 := (i 0).isLt
    have hi1 : (i 1).val < 128 := (i 1).isLt
    have hN : cfg7.N = 10 := N_7
    obtain ⟨t, ht⟩ : ∃ t : Fin cfg7.N, t.val = (i 0).val / 2000 := ⟨⟨(i 0).val / 2000, by omega⟩, rfl⟩
    obtain ⟨-, -, -, -, -, -, e6, e7, -⟩ := idx_7 t
    refine ⟨t, flush7_3 t, ?_⟩
    show i ∈ ((View.whole main_v134_0).slice (win7_3.rect t)).set
    rw [View.set_slice_whole, Rect.mem_set_unit]
    intro a
    match a with
    | ⟨0, _⟩ => show win7_3.index t 0 * 2000 ≤ (i 0).val ∧ (i 0).val < win7_3.index t 0 * 2000 + 2000; rw [e6]; omega
    | ⟨1, _⟩ => show win7_3.index t 1 * 128 ≤ (i 1).val ∧ (i 1).val < win7_3.index t 1 * 128 + 128; rw [e7]; omega

/-! ## The two running rows -/

/-- Column `j`'s sum over tile `k` of an array of all the rows (nothing past the tenth tile). -/
def tileSum_7 (y : Cert.Spec.SNH.Idx → EReal) (j : Fin 128) (k : ℕ) : EReal :=
  if h : k < 10 then ∑ r : Fin 2000, y (ix2 (Cert.Spec.row ⟨k, h⟩ r) j) else 0

/-- One step of each row at tile `t`: what it held plus that tile's column sum. -/
theorem step4_7 (c : Dev nD) (t : Fin cfg7.N) (acc : Vec Ideal S1x128 .f32) (u : Fin 1) (j : Fin 128) :
    k7_pay4 (zblk_7 V c t) (wblk_7 V c t) (bblk_7 V c t) acc (ix2 u j) = acc (ix2 u j) + tileSum_7 (yarr_7 V c) j t.val := by
  refine (pay4_apply_7 (zblk_7 V c t) (wblk_7 V c t) (bblk_7 V c t) acc u j).trans ?_
  congr 1
  unfold tileSum_7
  rw [dif_pos (lt_of_lt_of_eq t.isLt (show cfg7.N = 10 from N_7))]
  exact Finset.sum_congr rfl fun r _ => tile_eq_7 V c t r j

theorem step5_7 (c : Dev nD) (t : Fin cfg7.N) (acc : Vec Ideal S1x128 .f32) (u : Fin 1) (j : Fin 128) :
    k7_pay5 (zblk_7 V c t) (wblk_7 V c t) (bblk_7 V c t) acc (ix2 u j)
      = acc (ix2 u j) + tileSum_7 (fun a => yarr_7 V c a * yarr_7 V c a) j t.val := by
  refine (pay5_apply_7 (zblk_7 V c t) (wblk_7 V c t) (bblk_7 V c t) acc u j).trans ?_
  congr 1
  unfold tileSum_7
  rw [dif_pos (lt_of_lt_of_eq t.isLt (show cfg7.N = 10 from N_7))]
  exact Finset.sum_congr rfl fun r _ => by rw [tile_eq_7 V c t r j]

/-- What the rows' buffers hold after tile `t`, case by case. -/
theorem after4_A_7 (c : Dev nD) (t : Fin cfg7.N) (h0 : t.val % 10 = 0) :
    (outsAt7 V c t.val t.isLt).2.1 = k7_pay4 (zblk_7 V c t) (wblk_7 V c t) (bblk_7 V c t) (k7_pay2 (F := Ideal)) := by
  rw [outsAt7_A V c t h0]; dsimp only
  exact out_A_4_7 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)
theorem after4_B_7 (c : Dev nD) (t : Fin cfg7.N) (h0 : ¬t.val % 10 = 0) :
    (outsAt7 V c t.val t.isLt).2.1 = k7_pay4 (zblk_7 V c t) (wblk_7 V c t) (bblk_7 V c t) (outsAt7 V c (t.val - 1) (Nat.lt_of_le_of_lt (Nat.sub_le _ _) t.isLt)).2.1 := by
  rw [outsAt7_B V c t h0]; dsimp only
  exact out_B_4_7 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2
theorem after5_A_7 (c : Dev nD) (t : Fin cfg7.N) (h0 : t.val % 10 = 0) :
    (outsAt7 V c t.val t.isLt).2.2 = k7_pay5 (zblk_7 V c t) (wblk_7 V c t) (bblk_7 V c t) (k7_pay3 (F := Ideal)) := by
  rw [outsAt7_A V c t h0]; dsimp only
  exact out_A_5_7 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)
theorem after5_B_7 (c : Dev nD) (t : Fin cfg7.N) (h0 : ¬t.val % 10 = 0) :
    (outsAt7 V c t.val t.isLt).2.2 = k7_pay5 (zblk_7 V c t) (wblk_7 V c t) (bblk_7 V c t) (outsAt7 V c (t.val - 1) (Nat.lt_of_le_of_lt (Nat.sub_le _ _) t.isLt)).2.2 := by
  rw [outsAt7_B V c t h0]; dsimp only
  exact out_B_5_7 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2

/-- After tile `n` the row of sums holds the sum over tiles `0..n` of the tile's column sums: by induction on the tile. -/
theorem acc4_7 (c : Dev nD) : ∀ (n : ℕ) (h : n < cfg7.N) (u : Fin 1) (j : Fin 128),
    ((outsAt7 V c n h).2.1 : Vec Ideal S1x128 .f32) (ix2 u j) = ∑ k ∈ Finset.range (n + 1), tileSum_7 (yarr_7 V c) j k
  | 0, h, u, j => by
    refine (congrFun (after4_A_7 V c ⟨0, h⟩ rfl) (ix2 u j)).trans ?_
    rw [step4_7 V c ⟨0, h⟩, pay2_apply_7, zero_add, Finset.sum_range_one]
  | n + 1, h, u, j => by
    have hN : cfg7.N = 10 := N_7
    have hB : ¬(⟨n + 1, h⟩ : Fin cfg7.N).val % 10 = 0 := by dsimp only; omega
    refine (congrFun (after4_B_7 V c ⟨n + 1, h⟩ hB) (ix2 u j)).trans ?_
    rw [step4_7 V c ⟨n + 1, h⟩, Finset.sum_range_succ]
    congr 1
    exact acc4_7 c n _ u j

/-- The row of sums of squares likewise. -/
theorem acc5_7 (c : Dev nD) : ∀ (n : ℕ) (h : n < cfg7.N) (u : Fin 1) (j : Fin 128),
    ((outsAt7 V c n h).2.2 : Vec Ideal S1x128 .f32) (ix2 u j)
      = ∑ k ∈ Finset.range (n + 1), tileSum_7 (fun a => yarr_7 V c a * yarr_7 V c a) j k
  | 0, h, u, j => by
    refine (congrFun (after5_A_7 V c ⟨0, h⟩ rfl) (ix2 u j)).trans ?_
    rw [step5_7 V c ⟨0, h⟩, pay3_apply_7, zero_add, Finset.sum_range_one]
  | n + 1, h, u, j => by
    have hN : cfg7.N = 10 := N_7
    have hB : ¬(⟨n + 1, h⟩ : Fin cfg7.N).val % 10 = 0 := by dsimp only; omega
    refine (congrFun (after5_B_7 V c ⟨n + 1, h⟩ hB) (ix2 u j)).trans ?_
    rw [step5_7 V c ⟨n + 1, h⟩, Finset.sum_range_succ]
    congr 1
    exact acc5_7 c n _ u j

/-- The sum over the ten tiles, tile by tile, is the tiled column sum. -/
theorem tileSum_total_7 (y : Cert.Spec.SNH.Idx → EReal) (j : Fin 128) :
    ∑ k ∈ Finset.range 10, tileSum_7 y j k = ∑ t : Fin 10, ∑ r : Fin 2000, y (ix2 (Cert.Spec.row t r) j) := by
  rw [← Fin.sum_univ_eq_sum_range (fun k => tileSum_7 y j k) 10]
  exact Finset.sum_congr rfl fun k _ => by unfold tileSum_7; rw [dif_pos k.isLt]

/-- The one write-back of the row of sums, after the last tile, writes the tiled column sums of the dense map. -/
theorem flushed4_eq_7 (c : Dev nD) (t : Fin cfg7.N) (hf : (cfg7.win 4).flush t = true) :
    (dat7 V c).flushed 4 t = ((cfg7.win 4).blk t).view.read (Elt Ideal) (Cert.Spec.colsumT (yarr_7 V c)) := by
  have hN : cfg7.N = 10 := N_7
  have h9 : t.val = 9 := by have := (flush7_4 t).mp hf; have := t.isLt; omega
  obtain ⟨-, -, -, -, -, -, -, -, e8, e9, -⟩ := idx_7 t
  show (cfg7.win 4).cut (grid7.coords t) ((dat7 V c).after 4 t) = _
  rw [after7_4]
  funext y
  obtain ⟨u, j, rfl⟩ : ∃ (u : Fin 1) (j : Fin 128), y = ix2 u j := ⟨y 0, y 1, eq_ix2 y⟩
  have hemb : (((cfg7.win 4).blk t).view.emb (ix2 u j)) 1 = j :=
    Fin.ext (by show win7_4.index t 1 * 128 + 1 * j.val = j.val; rw [e9]; omega)
  show (outsAt7 V c t.val t.isLt).2.1 (ix2 u j)
    = ∑ t' : Fin 10, ∑ r : Fin 2000, yarr_7 V c (ix2 (Cert.Spec.row t' r) ((((cfg7.win 4).blk t).view.emb (ix2 u j)) 1))
  rw [hemb, acc4_7 V c t.val t.isLt u j, h9]
  exact tileSum_total_7 (yarr_7 V c) j

theorem flushed5_eq_7 (c : Dev nD) (t : Fin cfg7.N) (hf : (cfg7.win 5).flush t = true) :
    (dat7 V c).flushed 5 t = ((cfg7.win 5).blk t).view.read (Elt Ideal)
      (Cert.Spec.colsumT (fun a => yarr_7 V c a * yarr_7 V c a)) := by
  have hN : cfg7.N = 10 := N_7
  have h9 : t.val = 9 := by have := (flush7_5 t).mp hf; have := t.isLt; omega
  obtain ⟨-, -, -, -, -, -, -, -, -, -, e10, e11⟩ := idx_7 t
  show (cfg7.win 5).cut (grid7.coords t) ((dat7 V c).after 5 t) = _
  rw [after7_5]
  funext y
  obtain ⟨u, j, rfl⟩ : ∃ (u : Fin 1) (j : Fin 128), y = ix2 u j := ⟨y 0, y 1, eq_ix2 y⟩
  have hemb : (((cfg7.win 5).blk t).view.emb (ix2 u j)) 1 = j :=
    Fin.ext (by show win7_5.index t 1 * 128 + 1 * j.val = j.val; rw [e11]; omega)
  show (outsAt7 V c t.val t.isLt).2.2 (ix2 u j)
    = ∑ t' : Fin 10, ∑ r : Fin 2000, (fun a => yarr_7 V c a * yarr_7 V c a) (ix2 (Cert.Spec.row t' r) ((((cfg7.win 5).blk t).view.emb (ix2 u j)) 1))
  rw [hemb, acc5_7 V c t.val t.isLt u j, h9]
  exact tileSum_total_7 (fun a => yarr_7 V c a * yarr_7 V c a) j

/-- The array of column sums after the region. -/
theorem sum_7 (c : Dev nD) : (dat7 V c).arrAt 4 cfg7.N = Cert.Spec.colsumT (Cert.Spec.lin (V c main_v128) (V c main_v133) (V c main_v131)) :=
  (dat7 V c).arrAt_eq_of_cover 4 (Cert.Spec.colsumT (yarr_7 V c)) (flushed4_eq_7 V c) fun i => by
    have hi0 : (i 0).val < 1 := (i 0).isLt
    have hi1 : (i 1).val < 128 := (i 1).isLt
    have hN : cfg7.N = 10 := N_7
    obtain ⟨t, ht⟩ : ∃ t : Fin cfg7.N, t.val = 9 := ⟨⟨9, by omega⟩, rfl⟩
    obtain ⟨-, -, -, -, -, -, -, -, e8, e9, -⟩ := idx_7 t
    refine ⟨t, (flush7_4 t).mpr (by rw [ht]), ?_⟩
    show i ∈ ((View.whole main_v134_1).slice (win7_4.rect t)).set
    rw [View.set_slice_whole, Rect.mem_set_unit]
    intro a
    match a with
    | ⟨0, _⟩ => show win7_4.index t 0 * 1 ≤ (i 0).val ∧ (i 0).val < win7_4.index t 0 * 1 + 1; rw [e8]; omega
    | ⟨1, _⟩ => show win7_4.index t 1 * 128 ≤ (i 1).val ∧ (i 1).val < win7_4.index t 1 * 128 + 128; rw [e9]; omega

/-- The array of column sums of squares after the region. -/
theorem sumsq_7 (c : Dev nD) : (dat7 V c).arrAt 5 cfg7.N = Cert.Spec.colsumT (fun a => Cert.Spec.lin (V c main_v128) (V c main_v133) (V c main_v131) a * Cert.Spec.lin (V c main_v128) (V c main_v133) (V c main_v131) a) :=
  (dat7 V c).arrAt_eq_of_cover 5 (Cert.Spec.colsumT (fun a => yarr_7 V c a * yarr_7 V c a)) (flushed5_eq_7 V c) fun i => by
    have hi0 : (i 0).val < 1 := (i 0).isLt
    have hi1 : (i 1).val < 128 := (i 1).isLt
    have hN : cfg7.N = 10 := N_7
    obtain ⟨t, ht⟩ : ∃ t : Fin cfg7.N, t.val = 9 := ⟨⟨9, by omega⟩, rfl⟩
    obtain ⟨-, -, -, -, -, -, -, -, -, -, e10, e11⟩ := idx_7 t
    refine ⟨t, (flush7_5 t).mpr (by rw [ht]), ?_⟩
    show i ∈ ((View.whole main_v134_2).slice (win7_5.rect t)).set
    rw [View.set_slice_whole, Rect.mem_set_unit]
    intro a
    match a with
    | ⟨0, _⟩ => show win7_5.index t 0 * 1 ≤ (i 0).val ∧ (i 0).val < win7_5.index t 0 * 1 + 1; rw [e10]; omega
    | ⟨1, _⟩ => show win7_5.index t 1 * 128 ≤ (i 1).val ∧ (i 1).val < win7_5.index t 1 * 128 + 128; rw [e11]; omega

end Cert.KernelIdeal.HandV

end
-- ==== Proof.KV.Val8M.lean ====
import proofs.«411025_j54640573939922_1_alg».proof.Proof.Gen.KernelIdeal.Skeleton
import proofs.«411025_j54640573939922_1_alg».proof.Proof.Math.Spec
import Idealize.ShloMosaic.Lib.ValueIdx
import Idealize.ShloMosaic.Lib.ValueLayout
import Idealize.ShloMosaic.PureOps.Ideal.Laws

/-! The arithmetic of region 8's body over the extended reals, entry by entry: the product tile is
    (sum over k of a(r,k) * W(k,j)) + b(j) with a the normalised, rectified activation, and each running row
    gains, at column j, the sum over the tile's 2000 rows of the product tile (or of its square). -/

noncomputable section

namespace Cert.KernelIdeal.HandV

open Cert.KernelIdeal Cert.KernelIdeal.Gen
open Idealize.ShloMosaic Idealize.ShloMosaic.ValueIdx
open scoped BigOperators

/-- The normalised, rectified activation at row r and feature k of a tile. -/
def act8 (y : Vec Ideal S2000x128 .f32) (mean var g be : Vec Ideal S1x128 .f32) (r : Fin 2000) (k : Fin 128) : EReal :=
  max ((g (ix2 0 k) * (y (ix2 r k) - mean (ix2 0 k))) * Ideal.rsqrt (var (ix2 0 k) + Cert.Spec.cEps) + be (ix2 0 k)) Cert.Spec.cZero

/-- Where the product at (r, j) and contraction index k reads its factors: (r, k) on the left, (k, j) on the right. -/
theorem lhs8_0 (j : S2000x128.Idx) (k : dot_S2000x128_S128x128_S2000x128_1_0_0_1_n_n.contr.Idx) :
    (dot_S2000x128_S128x128_S2000x128_1_0_0_1_n_n.lhsIdx j k 0).val = (j 0).val := rfl
theorem lhs8_1 (j : S2000x128.Idx) (k : dot_S2000x128_S128x128_S2000x128_1_0_0_1_n_n.contr.Idx) :
    (dot_S2000x128_S128x128_S2000x128_1_0_0_1_n_n.lhsIdx j k 1).val = (k ⟨0, by decide⟩).val := rfl
theorem rhs8_0 (j : S2000x128.Idx) (k : dot_S2000x128_S128x128_S2000x128_1_0_0_1_n_n.contr.Idx) :
    (dot_S2000x128_S128x128_S2000x128_1_0_0_1_n_n.rhsIdx j k 0).val = (k ⟨0, by decide⟩).val := rfl
theorem rhs8_1 (j : S2000x128.Idx) (k : dot_S2000x128_S128x128_S2000x128_1_0_0_1_n_n.contr.Idx) :
    (dot_S2000x128_S128x128_S2000x128_1_0_0_1_n_n.rhsIdx j k 1).val = (j 1).val := rfl

/-- The tile product into a zero accumulator, at row r and column j: the sum over the 128 contracted features. -/
theorem matmul8_apply {φ₁ φ₂ : FTy} (a : FVec Ideal S2000x128 φ₁) (w : FVec Ideal S128x128 φ₂) (r : Fin 2000) (j : Fin 128) :
    FloatOps.matmul dot_S2000x128_S128x128_S2000x128_1_0_0_1_n_n none a w (constant S2000x128 .f32 0x00000000#32) (ix2 r j)
      = ∑ k : Fin 128, a (ix2 r k) * w (ix2 k j) := by
  refine (Ideal.matmul_constant_zero_apply _ _ a w (ix2 r j)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r j) ((contrEquiv1 dot_S2000x128_S128x128_S2000x128_1_0_0_1_n_n 128 rfl rfl).symm k) = ix2 r k :=
    funext fun d => Fin.ext (by
      match d with
      | ⟨0, _⟩ => exact lhs8_0 _ _
      | ⟨1, _⟩ => exact (lhs8_1 _ _).trans hk)
  have hr : dot_S2000x128_S128x128_S2000x128_1_0_0_1_n_n.rhsIdx (ix2 r j) ((contrEquiv1 dot_S2000x128_S128x128_S2000x128_1_0_0_1_n_n 128 rfl rfl).symm k) = ix2 k j :=
    funext fun d => Fin.ext (by
      match d with
      | ⟨0, _⟩ => exact (rhs8_0 _ _).trans hk
      | ⟨1, _⟩ => exact rhs8_1 _ _)
  rw [hl, hr]

/-- One row of 128 numbers laid over the tile's rows, read at (r, k): its entry k. -/
theorem rowOver8 (v : Vec Ideal S1x128 .f32) (hs : S1x128.ShapeCasts S1x128) (hb : S1x128.Broadcasts S2000x128) (r : Fin 2000) (k : Fin 128) :
    broadcastTo S2000x128 (shapeCast S1x128 v hs) hb (ix2 r k) = v (ix2 0 k) :=
  (broadcastTo_1b_ab_apply (shapeCast S1x128 v hs) hb r k).trans (congrFun (shapeCast_self v hs) (ix2 0 k))

/-- The sum of a tile's column j over its 2000 rows, laid out as a row of 128. -/
theorem colOf8 (src : FVec Ideal S2000x128 .f32) (h : S2000x128.Reduces [0] S128) (hφ : FKind.Formats .f32)
    (hacc : (0x00000000#32 : BitVec FTy.f32.bits) = FKind.add.neutral .f32 hφ) (hc : S128.ShapeCasts S1x128) (j : Fin 128) :
    shapeCast S1x128 (multiReduction .add [0] S128 src 0x00000000#32 h hφ hacc) hc (ix2 0 j) = ∑ r : Fin 2000, src (ix2 r j) := by
  refine (shapeCast_a_1a_apply _ hc 0 j).trans ?_
  refine (Ideal.multiReduction_add_single src 0x00000000#32 h hφ hacc (ix1 j)).trans ?_
  refine Finset.sum_congr rfl fun r _ => congrArg src ?_
  funext d
  match d with
  | ⟨0, _⟩ => rfl
  | ⟨1, _⟩ => rfl

/-- The product tile at row r and column j: the activations of row r against column j of the weights, plus the bias. -/
theorem k8_pay3_apply (x0 : Vec Ideal S2000x128 .f32) (x1 x2 x3 x4 : Vec Ideal S1x128 .f32) (x5 : Vec Ideal S128x128 .f32)
    (x6 : Vec Ideal S1x128 .f32) (r : Fin 2000) (j : Fin 128) :
    k8_pay3 (F := Ideal) x0 x1 x2 x3 x4 x5 x6 (ix2 r j)
      = (∑ k : Fin 128, act8 x0 x1 x2 x3 x4 r k * x5 (ix2 k j)) + x6 (ix2 0 j) := by
  unfold k8_pay3
  refine (addf_apply _ _ (ix2 r j)).trans ?_
  refine congrArg₂ (· + ·) ((matmul8_apply _ _ r j).trans (Finset.sum_congr rfl fun k _ => ?_)) (rowOver8 x6 _ _ r j)
  refine congrArg₂ (· * ·) ?_ (congrFun (shapeCast_self x5 _) (ix2 k j))
  unfold act8
  refine congrArg₂ max ?_ rfl
  refine congrArg₂ (· + ·) (congrArg₂ (· * ·) (congrArg₂ (· * ·) (rowOver8 x3 _ _ r k) (congrArg₂ (· - ·) (congrFun (shapeCast_self x0 _) (ix2 r k)) (rowOver8 x1 _ _ r k))) ?_) (rowOver8 x4 _ _ r k)
  refine (broadcastTo_1b_ab_apply _ _ r k).trans ?_
  show Ideal.rsqrt (shapeCast S1x128 x2 _ (ix2 0 k) + _) = _
  rw [shapeCast_self]
  rfl

/-- A running row after the body: what it held, plus the column sums of the product tile. -/
theorem k8_pay1_apply (y : FVec Ideal S2000x128 .f32) (acc : Vec Ideal S1x128 .f32) (j : Fin 128) :
    k8_pay1 (F := Ideal) y acc (ix2 0 j) = acc (ix2 0 j) + ∑ r : Fin 2000, y (ix2 r j) := by
  unfold k8_pay1
  refine (addf_apply _ _ (ix2 0 j)).trans ?_
  exact congrArg₂ (· + ·) (congrFun (shapeCast_self acc _) (ix2 0 j)) (colOf8 y _ _ _ _ j)

/-- The same for the squares. -/
theorem k8_pay2_apply (y : FVec Ideal S2000x128 .f32) (acc : Vec Ideal S1x128 .f32) (j : Fin 128) :
    k8_pay2 (F := Ideal) y acc (ix2 0 j) = acc (ix2 0 j) + ∑ r : Fin 2000, y (ix2 r j) * y (ix2 r j) := by
  unfold k8_pay2
  refine (addf_apply _ _ (ix2 0 j)).trans ?_
  exact congrArg₂ (· + ·) (congrFun (shapeCast_self acc _) (ix2 0 j)) (colOf8 (mulf y y) _ _ _ _ j)

/-- The cleared rows hold zero. -/
theorem k8_pay4_apply (i : S1x128.Idx) : k8_pay4 (F := Ideal) i = 0 := by
  unfold k8_pay4
  exact Ideal.ofBits_zero_f32
theorem k8_pay5_apply (i : S1x128.Idx) : k8_pay5 (F := Ideal) i = 0 := by
  unfold k8_pay5
  exact Ideal.ofBits_zero_f32

end Cert.KernelIdeal.HandV

end
-- ==== Proof.KV.Val8.lean ====
import proofs.«411025_j54640573939922_1_alg».proof.Proof.KI.Reg8
import proofs.«411025_j54640573939922_1_alg».proof.Proof.KV.Val8M
import Idealize.ShloMosaic.Lib.Pipeline.Value
import Idealize.ShloMosaic.Lib.Tactic

/-! What region 8 leaves in its three result arrays, over the extended reals: the product array is the dense
    layer of the normalised, rectified first-stage output; the two rows are its column sums and the column sums of
    its square, each taken tile by tile in tile order. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.ShloMosaic.Tactic
open Idealize.SL.Sem
open Idealize.ShloMosaic.Pipeline (Dat)
open scoped BigOperators

theorem hz8 : (![0, 0] : Fin 2 → Nat) = fun _ => 0 := funext fun a => by fin_cases a <;> rfl

section AnyValues
variable {F : FTy → Type} [FloatOps F]

/-! ## What the runs found, as values -/

/-- On the first tile the product tile's buffer ends with one store of the whole tile: the body's arithmetic of the seven loaded blocks. -/
theorem out8_A_7_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out8_A_7 c i arg1 harg1 arg2 harg2 arg3 harg3 arg4 harg4 arg5 harg5 arg6 harg6 arg7 harg7 arg8 harg8 arg9 harg9 arg10 harg10 hc0 x0 x1 x2 x3 x4 x5 x6 = k8_pay3 x0 x1 x2 x3 x4 x5 x6 := by
  unfold out8_A_7
  rw [View.read_writes_eq_canon _ _ _ (cover8_A_7 c i arg1 harg1 arg2 harg2 arg3 harg3 arg4 harg4 arg5 harg5 arg6 harg6 arg7 harg7 arg8 harg8 arg9 harg9 arg10 harg10 hc0 x0 x1 x2 x3 x4 x5 x6)]
  unfold kernelRun8_A
  dsimp only
  sl_unfold_words
  rw [View.canon_unit_zero hz8]
  simp only [View.readAt_eq_ld, harg1.read_unread, harg2.read_unread, harg3.read_unread, harg4.read_unread, harg5.read_unread, harg6.read_unread, harg7.read_unread, View.ld_unit_zero (S := S2000x128) hz8, View.ld_unit_zero (S := S1x128) hz8, View.ld_unit_zero (S := S128x128) hz8]

/-- On the first tile the row of sums is cleared, read back, and stored with the tile's column sums added: the cleared row plus the sums. -/
theorem out8_A_8_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out8_A_8 c i arg1 harg1 arg2 harg2 arg3 harg3 arg4 harg4 arg5 harg5 arg6 harg6 arg7 harg7 arg8 harg8 arg9 harg9 arg10 harg10 hc0 x0 x1 x2 x3 x4 x5 x6 = k8_pay1 (k8_pay3 x0 x1 x2 x3 x4 x5 x6) k8_pay4 := by
  unfold out8_A_8
  rw [View.read_writes_eq_canon _ _ _ (cover8_A_8 c i arg1 harg1 arg2 harg2 arg3 harg3 arg4 harg4 arg5 harg5 arg6 harg6 arg7 harg7 arg8 harg8 arg9 harg9 arg10 harg10 hc0 x0 x1 x2 x3 x4 x5 x6)]
  unfold kernelRun8_A
  dsimp only
  sl_unfold_words
  rw [View.canon_cons_unit_zero (S := S1x128) hz8, View.readCov_unit_zero (S := S1x128) _ hz8]
  simp only [View.readAt_eq_ld, harg1.read_unread, harg2.read_unread, harg3.read_unread, harg4.read_unread, harg5.read_unread, harg6.read_unread, harg7.read_unread, View.ld_unit_zero (S := S2000x128) hz8, View.ld_unit_zero (S := S1x128) hz8, View.ld_unit_zero (S := S128x128) hz8]

/-- The same for the row of sums of squares. -/
theorem out8_A_9_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) :
    out8_A_9 c i arg1 harg1 arg2 harg2 arg3 harg3 arg4 harg4 arg5 harg5 arg6 harg6 arg7 harg7 arg8 harg8 arg9 harg9 arg10 harg10 hc0 x0 x1 x2 x3 x4 x5 x6 = k8_pay2 (k8_pay3 x0 x1 x2 x3 x4 x5 x6) k8_pay5 := by
  unfold out8_A_9
  rw [View.read_writes_eq_canon _ _ _ (cover8_A_9 c i arg1 harg1 arg2 harg2 arg3 harg3 arg4 harg4 arg5 harg5 arg6 harg6 arg7 harg7 arg8 harg8 arg9 harg9 arg10 harg10 hc0 x0 x1 x2 x3 x4 x5 x6)]
  unfold kernelRun8_A
  dsimp only
  sl_unfold_words
  rw [View.canon_cons_unit_zero (S := S1x128) hz8, View.readCov_unit_zero (S := S1x128) _ hz8]
  simp only [View.readAt_eq_ld, harg1.read_unread, harg2.read_unread, harg3.read_unread, harg4.read_unread, harg5.read_unread, harg6.read_unread, harg7.read_unread, View.ld_unit_zero (S := S2000x128) hz8, View.ld_unit_zero (S := S1x128) hz8, View.ld_unit_zero (S := S128x128) hz8]

/-- On a later tile likewise. -/
theorem out8_B_7_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out8_B_7 c i arg1 harg1 arg2 harg2 arg3 harg3 arg4 harg4 arg5 harg5 arg6 harg6 arg7 harg7 arg8 harg8 arg9 harg9 arg10 harg10 hc0 x0 x1 x2 x3 x4 x5 x6 xo8 xo9 = k8_pay3 x0 x1 x2 x3 x4 x5 x6 := by
  unfold out8_B_7
  rw [View.read_writes_eq_canon _ _ _ (cover8_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, View.ld_unit_zero (S := S2000x128) hz8, View.ld_unit_zero (S := S1x128) hz8, View.ld_unit_zero (S := S128x128) hz8]

/-- On a later tile the row of sums is read as the tile before left it and stored with the tile's column sums added. -/
theorem out8_B_8_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out8_B_8 c i arg1 harg1 arg2 harg2 arg3 harg3 arg4 harg4 arg5 harg5 arg6 harg6 arg7 harg7 arg8 harg8 arg9 harg9 arg10 harg10 hc0 x0 x1 x2 x3 x4 x5 x6 xo8 xo9 = k8_pay1 (k8_pay3 x0 x1 x2 x3 x4 x5 x6) xo8 := by
  unfold out8_B_8
  rw [View.read_writes_eq_canon _ _ _ (cover8_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg9.read_unread, View.ld_unit_zero (S := S2000x128) hz8, View.ld_unit_zero (S := S1x128) hz8, View.ld_unit_zero (S := S128x128) hz8]

/-- The same for the row of sums of squares. -/
theorem out8_B_9_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i)
    (x0 : Vec F S2000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out8_B_9 c i arg1 harg1 arg2 harg2 arg3 harg3 arg4 harg4 arg5 harg5 arg6 harg6 arg7 harg7 arg8 harg8 arg9 harg9 arg10 harg10 hc0 x0 x1 x2 x3 x4 x5 x6 xo8 xo9 = k8_pay2 (k8_pay3 x0 x1 x2 x3 x4 x5 x6) xo9 := by
  unfold out8_B_9
  rw [View.read_writes_eq_canon _ _ _ (cover8_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg10.read_unread, View.ld_unit_zero (S := S2000x128) hz8, View.ld_unit_zero (S := S1x128) hz8, View.ld_unit_zero (S := S128x128) hz8]

end AnyValues

section AnyValues
variable {F : FTy → Type} [FloatOps F]
variable (V : (c : Dev nD) → (b : Ref sig .tc) → Buf (Elt F) ((c : Thread nD τ).loc b))

/-- The product tile at tile n: the body's arithmetic of the seven input blocks there. -/
def tile8 (c : Dev nD) (n : ℕ) (h : n < cfg8.N) : Vec F S2000x128 .f32 :=
  k8_pay3 (iblk8 V c 0 ⟨n, h⟩) (iblk8 V c 1 ⟨n, h⟩) (iblk8 V c 2 ⟨n, h⟩) (iblk8 V c 3 ⟨n, h⟩) (iblk8 V c 4 ⟨n, h⟩) (iblk8 V c 5 ⟨n, h⟩) (iblk8 V c 6 ⟨n, h⟩)

/-- The two running rows after tile n: cleared and added to at tile 0, added to afterwards. -/
def rows8 (c : Dev nD) : (n : ℕ) → n < cfg8.N → Vec F S1x128 .f32 × Vec F S1x128 .f32
  | 0, h => (k8_pay1 (tile8 V c 0 h) (k8_pay4 (F := F)), k8_pay2 (tile8 V c 0 h) (k8_pay5 (F := F)))
  | n + 1, h => (k8_pay1 (tile8 V c (n + 1) h) (rows8 c n (Nat.lt_of_succ_lt h)).1,
                 k8_pay2 (tile8 V c (n + 1) h) (rows8 c n (Nat.lt_of_succ_lt h)).2)

/-- What the output buffers hold after tile n is the product tile there and the two running rows: by induction on the
    tile, the first tile's contents at 0 and the later-tile contents over the tile before afterwards. -/
theorem outsAt8_eq (c : Dev nD) : ∀ (n : ℕ) (h : n < cfg8.N),
    outsAt8 V c n h = (tile8 V c n h, (rows8 V c n h).1, (rows8 V c n h).2)
  | 0, h => by
    rw [outsAt8_A V c ⟨0, h⟩ rfl, out8_A_7_eq, out8_A_8_eq, out8_A_9_eq]
    rfl
  | n + 1, h => by
    have hN : n + 1 < 10 := lt_of_lt_of_eq h N_8
    have hB : ¬(⟨n + 1, h⟩ : Fin cfg8.N).val % 10 = 0 := by dsimp only; omega
    rw [outsAt8_B V c ⟨n + 1, h⟩ hB, out8_B_7_eq, out8_B_8_eq, out8_B_9_eq]
    show (_, k8_pay1 _ (outsAt8 V c n _).2.1, k8_pay2 _ (outsAt8 V c n _).2.2) = _
    rw [outsAt8_eq c n]
    rfl

end AnyValues

variable (V : (c : Dev nD) → (b : Ref sig .tc) → Buf (Elt Ideal) ((c : Thread nD τ).loc b))

/-! ## The blocks, read off the arrays the region finds -/

/-- The seven arrays the region reads, by their literal shapes: the first-stage output, its mean and variance rows,
    the scale and shift rows, the second weight matrix and its bias row. -/
abbrev arr8_0 (c : Dev nD) : Cert.Spec.SNH.Idx → EReal := V c main_v134_0
abbrev arr8_1 (c : Dev nD) : Cert.Spec.S1H.Idx → EReal := V c main_v136
abbrev arr8_2 (c : Dev nD) : Cert.Spec.S1H.Idx → EReal := V c main_v140
abbrev arr8_3 (c : Dev nD) : Cert.Spec.S1H.Idx → EReal := V c main_v143
abbrev arr8_4 (c : Dev nD) : Cert.Spec.S1H.Idx → EReal := V c main_v146
abbrev arr8_5 (c : Dev nD) : Cert.Spec.SHH.Idx → EReal := V c main_v151
abbrev arr8_6 (c : Dev nD) : Cert.Spec.S1H.Idx → EReal := V c main_v149

/-- Where the windows' blocks sit: the first-stage output and the product move one tile of rows per point, every
    other window stays on block (0, 0). Decided over the ten tiles. -/
theorem wpos8 : ∀ t : Fin cfg8.N, (win8_0.index t (0 : Fin 2) = t.val ∧ win8_0.index t (1 : Fin 2) = 0)
    ∧ (win8_7.index t (0 : Fin 2) = t.val ∧ win8_7.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0)
    ∧ (win8_8.index t (0 : Fin 2) = 0 ∧ win8_8.index t (1 : Fin 2) = 0)
    ∧ (win8_9.index t (0 : Fin 2) = 0 ∧ win8_9.index t (1 : Fin 2) = 0) :=
  (by decide +kernel : ∀ t : Fin grid8.N, _)

/-- Tile t of the ten, as a number below ten. -/
abbrev tileOf8 (t : Fin cfg8.N) : Fin 10 := ⟨t.val, lt_of_lt_of_eq t.isLt N_8⟩

/-- Row r of the first-stage output's block at tile t is row 2000 t + r of the array. -/
theorem blk8_0 (c : Dev nD) (t : Fin cfg8.N) (r : Fin 2000) (k : Fin 128) :
    (iblk8 V c 0 t : Vec Ideal S2000x128 .f32) (ix2 r k) = arr8_0 V c (ix2 (Cert.Spec.row (tileOf8 t) r) k) := by
  obtain ⟨⟨e0, e1⟩, -⟩ := wpos8 t
  unfold iblk8
  rw [View.read_apply]
  show V c main_v134_0 _ = V c main_v134_0 _
  congr 1
  funext a
  apply Fin.ext
  match a with
  | ⟨0, _⟩ => show win8_0.index t (0 : Fin 2) * 2000 + 1 * r.val = 2000 * t.val + r.val; rw [e0]; omega
  | ⟨1, _⟩ => show win8_0.index t (1 : Fin 2) * 128 + 1 * k.val = k.val; rw [e1]; omega

/-- Window 1's one block is its whole array. -/
theorem blk8_1 (c : Dev nD) (t : Fin cfg8.N) (p : Fin 1) (q : Fin 128) :
    (iblk8 V c 1 t : Vec Ideal S1x128 .f32) (ix2 p q) = arr8_1 V c (ix2 p q) := by
  have e := wpos8 t
  have e0 : win8_1.index t (0 : Fin 2) = 0 := by omega
  have e1 : win8_1.index t (1 : Fin 2) = 0 := by omega
  unfold iblk8
  rw [View.read_apply]
  show V c main_v136 _ = V c main_v136 _
  congr 1
  funext a
  apply Fin.ext
  match a with
  | ⟨0, _⟩ => show win8_1.index t (0 : Fin 2) * 1 + 1 * p.val = p.val; rw [e0]; omega
  | ⟨1, _⟩ => show win8_1.index t (1 : Fin 2) * 128 + 1 * q.val = q.val; rw [e1]; omega

/-- Window 2's one block is its whole array. -/
theorem blk8_2 (c : Dev nD) (t : Fin cfg8.N) (p : Fin 1) (q : Fin 128) :
    (iblk8 V c 2 t : Vec Ideal S1x128 .f32) (ix2 p q) = arr8_2 V c (ix2 p q) := by
  have e := wpos8 t
  have e0 : win8_2.index t (0 : Fin 2) = 0 := by omega
  have e1 : win8_2.index t (1 : Fin 2) = 0 := by omega
  unfold iblk8
  rw [View.read_apply]
  show V c main_v140 _ = V c main_v140 _
  congr 1
  funext a
  apply Fin.ext
  match a with
  | ⟨0, _⟩ => show win8_2.index t (0 : Fin 2) * 1 + 1 * p.val = p.val; rw [e0]; omega
  | ⟨1, _⟩ => show win8_2.index t (1 : Fin 2) * 128 + 1 * q.val = q.val; rw [e1]; omega

/-- Window 3's one block is its whole array. -/
theorem blk8_3 (c : Dev nD) (t : Fin cfg8.N) (p : Fin 1) (q : Fin 128) :
    (iblk8 V c 3 t : Vec Ideal S1x128 .f32) (ix2 p q) = arr8_3 V c (ix2 p q) := by
  have e := wpos8 t
  have e0 : win8_3.index t (0 : Fin 2) = 0 := by omega
  have e1 : win8_3.index t (1 : Fin 2) = 0 := by omega
  unfold iblk8
  rw [View.read_apply]
  show V c main_v143 _ = V c main_v143 _
  congr 1
  funext a
  apply Fin.ext
  match a with
  | ⟨0, _⟩ => show win8_3.index t (0 : Fin 2) * 1 + 1 * p.val = p.val; rw [e0]; omega
  | ⟨1, _⟩ => show win8_3.index t (1 : Fin 2) * 128 + 1 * q.val = q.val; rw [e1]; omega

/-- Window 4's one block is its whole array. -/
theorem blk8_4 (c : Dev nD) (t : Fin cfg8.N) (p : Fin 1) (q : Fin 128) :
    (iblk8 V c 4 t : Vec Ideal S1x128 .f32) (ix2 p q) = arr8_4 V c (ix2 p q) := by
  have e := wpos8 t
  have e0 : win8_4.index t (0 : Fin 2) = 0 := by omega
  have e1 : win8_4.index t (1 : Fin 2) = 0 := by omega
  unfold iblk8
  rw [View.read_apply]
  show V c main_v146 _ = V c main_v146 _
  congr 1
  funext a
  apply Fin.ext
  match a with
  | ⟨0, _⟩ => show win8_4.index t (0 : Fin 2) * 1 + 1 * p.val = p.val; rw [e0]; omega
  | ⟨1, _⟩ => show win8_4.index t (1 : Fin 2) * 128 + 1 * q.val = q.val; rw [e1]; omega

/-- Window 5's one block is its whole array. -/
theorem blk8_5 (c : Dev nD) (t : Fin cfg8.N) (p : Fin 128) (q : Fin 128) :
    (iblk8 V c 5 t : Vec Ideal S128x128 .f32) (ix2 p q) = arr8_5 V c (ix2 p q) := by
  have e := wpos8 t
  have e0 : win8_5.index t (0 : Fin 2) = 0 := by omega
  have e1 : win8_5.index t (1 : Fin 2) = 0 := by omega
  unfold iblk8
  rw [View.read_apply]
  show V c main_v151 _ = V c main_v151 _
  congr 1
  funext a
  apply Fin.ext
  match a with
  | ⟨0, _⟩ => show win8_5.index t (0 : Fin 2) * 128 + 1 * p.val = p.val; rw [e0]; omega
  | ⟨1, _⟩ => show win8_5.index t (1 : Fin 2) * 128 + 1 * q.val = q.val; rw [e1]; omega

/-- Window 6's one block is its whole array. -/
theorem blk8_6 (c : Dev nD) (t : Fin cfg8.N) (p : Fin 1) (q : Fin 128) :
    (iblk8 V c 6 t : Vec Ideal S1x128 .f32) (ix2 p q) = arr8_6 V c (ix2 p q) := by
  have e := wpos8 t
  have e0 : win8_6.index t (0 : Fin 2) = 0 := by omega
  have e1 : win8_6.index t (1 : Fin 2) = 0 := by omega
  unfold iblk8
  rw [View.read_apply]
  show V c main_v149 _ = V c main_v149 _
  congr 1
  funext a
  apply Fin.ext
  match a with
  | ⟨0, _⟩ => show win8_6.index t (0 : Fin 2) * 1 + 1 * p.val = p.val; rw [e0]; omega
  | ⟨1, _⟩ => show win8_6.index t (1 : Fin 2) * 128 + 1 * q.val = q.val; rw [e1]; omega

/-! ## The product tile and the running rows, as numbers -/

/-- The dense layer of the normalised, rectified first-stage output: what the product array is to hold. -/
abbrev Y8 (c : Dev nD) : Cert.Spec.SNH.Idx → EReal :=
  Cert.Spec.lin (Cert.Spec.bnrelu (arr8_0 V c) (arr8_1 V c) (arr8_2 V c) (arr8_3 V c) (arr8_4 V c)) (arr8_5 V c) (arr8_6 V c)

/-- The product tile at tile t holds rows 2000 t .. 2000 t + 1999 of it. -/
theorem tile8_apply (c : Dev nD) (t : Fin cfg8.N) (r : Fin 2000) (j : Fin 128) :
    tile8 V c t.val t.isLt (ix2 r j) = Y8 V c (ix2 (Cert.Spec.row (tileOf8 t) r) j) := by
  unfold tile8
  refine (k8_pay3_apply _ _ _ _ _ _ _ r j).trans ?_
  show _ = (∑ k : Fin 128, Cert.Spec.bnrelu (arr8_0 V c) (arr8_1 V c) (arr8_2 V c) (arr8_3 V c) (arr8_4 V c) (ix2 (Cert.Spec.row (tileOf8 t) r) k) * arr8_5 V c (ix2 k j)) + arr8_6 V c (ix2 0 j)
  refine congrArg₂ (· + ·) (Finset.sum_congr rfl fun k _ => congrArg₂ (· * ·) ?_ (blk8_5 V c t k j)) (blk8_6 V c t 0 j)
  unfold act8
  show _ = max ((arr8_3 V c (ix2 0 k) * (arr8_0 V c (ix2 (Cert.Spec.row (tileOf8 t) r) k) - arr8_1 V c (ix2 0 k))) * Ideal.rsqrt (arr8_2 V c (ix2 0 k) + Cert.Spec.cEps) + arr8_4 V c (ix2 0 k)) Cert.Spec.cZero
  rw [blk8_0 V c t r k, blk8_1 V c t 0 k, blk8_2 V c t 0 k, blk8_3 V c t 0 k, blk8_4 V c t 0 k]

/-- The sum of column j of a 20000-row array over the rows of tile s (nothing past the tenth tile). -/
def tileSum8 (Y : Cert.Spec.SNH.Idx → EReal) (j : Fin 128) (s : ℕ) : EReal :=
  if h : s < 10 then ∑ r : Fin 2000, Y (ix2 (Cert.Spec.row ⟨s, h⟩ r) j) else 0

/-- After tile n the running rows hold the column sums of the product, and of its square, over tiles 0..n. -/
theorem rows8_apply (c : Dev nD) : ∀ (n : ℕ) (h : n < cfg8.N) (j : Fin 128),
    (rows8 V c n h).1 (ix2 0 j) = ∑ s ∈ Finset.range (n + 1), tileSum8 (Y8 V c) j s
    ∧ (rows8 V c n h).2 (ix2 0 j) = ∑ s ∈ Finset.range (n + 1), tileSum8 (fun a => Y8 V c a * Y8 V c a) j s
  | 0, h, j => by
    have h10 : (0 : ℕ) < 10 := by omega
    constructor
    · show k8_pay1 (tile8 V c 0 h) (k8_pay4 (F := Ideal)) (ix2 0 j) = _
      rw [k8_pay1_apply, k8_pay4_apply, zero_add, Finset.sum_range_one]
      unfold tileSum8
      rw [dif_pos h10]
      exact Finset.sum_congr rfl fun r _ => tile8_apply V c ⟨0, h⟩ r j
    · show k8_pay2 (tile8 V c 0 h) (k8_pay5 (F := Ideal)) (ix2 0 j) = _
      rw [k8_pay2_apply, k8_pay5_apply, zero_add, Finset.sum_range_one]
      unfold tileSum8
      rw [dif_pos h10]
      exact Finset.sum_congr rfl fun r _ => by rw [tile8_apply V c ⟨0, h⟩ r j]
  | n + 1, h, j => by
    have hN : n + 1 < 10 := lt_of_lt_of_eq h N_8
    obtain ⟨ih1, ih2⟩ := rows8_apply c n (Nat.lt_of_succ_lt h) j
    constructor
    · show k8_pay1 (tile8 V c (n + 1) h) (rows8 V c n _).1 (ix2 0 j) = _
      rw [k8_pay1_apply, ih1, Finset.sum_range_succ _ (n + 1)]
      congr 1
      unfold tileSum8
      rw [dif_pos hN]
      exact Finset.sum_congr rfl fun r _ => tile8_apply V c ⟨n + 1, h⟩ r j
    · show k8_pay2 (tile8 V c (n + 1) h) (rows8 V c n _).2 (ix2 0 j) = _
      rw [k8_pay2_apply, ih2, Finset.sum_range_succ _ (n + 1)]
      congr 1
      unfold tileSum8
      rw [dif_pos hN]
      exact Finset.sum_congr rfl fun r _ => by rw [tile8_apply V c ⟨n + 1, h⟩ r j]

/-- Over all ten tiles that is the tile-by-tile column sum. -/
theorem sum_tiles8 (Y : Cert.Spec.SNH.Idx → EReal) (j : Fin 128) :
    ∑ s ∈ Finset.range (9 + 1), tileSum8 Y j s = Cert.Spec.colsumT Y (ix2 0 j) := by
  rw [Finset.sum_range]
  unfold Cert.Spec.colsumT
  refine Finset.sum_congr rfl fun t _ => ?_
  unfold tileSum8
  rw [dif_pos t.isLt]

/-! ## The product array -/

/-- What tile t writes back into the product array is block t of the dense layer's output. -/
theorem flushed8_7 (c : Dev nD) (t : Fin cfg8.N) :
    (dat8 V c).flushed 7 t = ((cfg8.win 7).blk t).view.read (Elt Ideal) (Y8 V c) := by
  obtain ⟨-, ⟨e0, e1⟩, -⟩ := wpos8 t
  show (cfg8.win 7).cut (grid8.coords t) ((dat8 V c).after 7 t) = _
  rw [after8_7, outsAt8_eq]
  funext y
  show tile8 V c t.val t.isLt y = Y8 V c (((cfg8.win 7).blk t).view.emb y)
  obtain ⟨r, hr⟩ : ∃ r : Fin 2000, r = (y : S2000x128.Idx) 0 := ⟨_, rfl⟩
  obtain ⟨j, hj⟩ : ∃ j : Fin 128, j = (y : S2000x128.Idx) 1 := ⟨_, rfl⟩
  have hy : (y : S2000x128.Idx) = ix2 r j := by
    funext a
    apply Fin.ext
    match a with
    | ⟨0, _⟩ => show ((y : S2000x128.Idx) 0).val = r.val; rw [hr]
    | ⟨1, _⟩ => show ((y : S2000x128.Idx) 1).val = j.val; rw [hj]
  refine ((congrArg (tile8 V c t.val t.isLt) hy).trans (tile8_apply V c t r j)).trans ?_
  refine congrArg (Y8 V c) ?_
  funext a
  apply Fin.ext
  match a with
  | ⟨0, _⟩ => show 2000 * t.val + r.val = win8_7.index t (0 : Fin 2) * 2000 + 1 * ((y : S2000x128.Idx) 0).val; rw [e0, hr]; omega
  | ⟨1, _⟩ => show j.val = win8_7.index t (1 : Fin 2) * 128 + 1 * ((y : S2000x128.Idx) 1).val; rw [e1, hj]; omega

/-- An index of the product array is in tile t's block iff each coordinate is in the block's range. -/
theorem mem_blk8_7 (t : Fin cfg8.N) (i : S20000x128.Idx) :
    i ∈ ((cfg8.win 7).blk t).view.set ↔ ∀ a : Fin 2, win8_7.index t a * S2000x128.size a ≤ (i a).val ∧ (i a).val < win8_7.index t a * S2000x128.size a + S2000x128.size a := by
  show i ∈ ((View.whole main_v152_0).slice (win8_7.rect t)).set ↔ _
  rw [View.set_slice_whole, Rect.mem_set_unit]
  exact Iff.rfl

/-- THE PRODUCT ARRAY after the region: the dense layer of the normalised, rectified first-stage output. Row n lies in
    tile n / 2000. -/
theorem y2_8 (c : Dev nD) : (dat8 V c).arrAt 7 cfg8.N = Cert.Spec.lin (Cert.Spec.bnrelu (V c main_v134_0) (V c main_v136) (V c main_v140) (V c main_v143) (V c main_v146)) (V c main_v151) (V c main_v149) :=
  (dat8 V c).arrAt_eq_of_cover 7 (Y8 V c) (fun t _ => flushed8_7 V c t) fun i => by
    have hi0 : ((i : S20000x128.Idx) 0).val < 20000 := ((i : S20000x128.Idx) 0).isLt
    have hi1 : ((i : S20000x128.Idx) 1).val < 128 := ((i : S20000x128.Idx) 1).isLt
    have hq : ((i : S20000x128.Idx) 0).val / 2000 < cfg8.N := by rw [show cfg8.N = 10 from N_8]; omega
    obtain ⟨-, ⟨e0, e1⟩, -⟩ := wpos8 ⟨((i : S20000x128.Idx) 0).val / 2000, hq⟩
    refine ⟨⟨((i : S20000x128.Idx) 0).val / 2000, hq⟩, flush8_7 _, ?_⟩
    rw [mem_blk8_7]
    intro a
    match a with
    | ⟨0, _⟩ => show win8_7.index ⟨((i : S20000x128.Idx) 0).val / 2000, hq⟩ (0 : Fin 2) * 2000 ≤ ((i : S20000x128.Idx) 0).val ∧ ((i : S20000x128.Idx) 0).val < win8_7.index ⟨((i : S20000x128.Idx) 0).val / 2000, hq⟩ (0 : Fin 2) * 2000 + 2000
                rw [e0]; dsimp only; omega
    | ⟨1, _⟩ => show win8_7.index ⟨((i : S20000x128.Idx) 0).val / 2000, hq⟩ (1 : Fin 2) * 128 ≤ ((i : S20000x128.Idx) 1).val ∧ ((i : S20000x128.Idx) 1).val < win8_7.index ⟨((i : S20000x128.Idx) 0).val / 2000, hq⟩ (1 : Fin 2) * 128 + 128
                rw [e1]; omega

/-! ## The two rows of column sums -/

/-- The one write-back of window 8, after the last tile, writes the sums over all ten tiles: its block is the whole row. -/
theorem flushed8_8 (c : Dev nD) (t : Fin cfg8.N) (hf : (cfg8.win 8).flush t = true) :
    (dat8 V c).flushed 8 t = ((cfg8.win 8).blk t).view.read (Elt Ideal) (Cert.Spec.colsumT (Y8 V c)) := by
  have h9 : t.val = 9 := by have := (flush8_8 t).mp hf; have := lt_of_lt_of_eq t.isLt N_8; omega
  have e := wpos8 t
  have e0 : win8_8.index t (0 : Fin 2) = 0 := by omega
  have e1 : win8_8.index t (1 : Fin 2) = 0 := by omega
  clear e
  obtain ⟨n, hn⟩ := t
  obtain rfl : n = 9 := h9
  show (cfg8.win 8).cut (grid8.coords ⟨9, hn⟩) ((dat8 V c).after 8 ⟨9, hn⟩) = _
  rw [after8_8, outsAt8_eq]
  funext y
  show (rows8 V c 9 hn).1 y = Cert.Spec.colsumT (Y8 V c) (((cfg8.win 8).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg8.win 8).blk ⟨9, hn⟩).view.emb y = (ix2 0 j : S1x128.Idx) := by
    funext a
    apply Fin.ext
    match a with
    | ⟨0, _⟩ => show win8_8.index ⟨9, hn⟩ (0 : Fin 2) * 1 + 1 * ((y : S1x128.Idx) 0).val = 0; rw [e0]; omega
    | ⟨1, _⟩ => show win8_8.index ⟨9, hn⟩ (1 : Fin 2) * 128 + 1 * ((y : S1x128.Idx) 1).val = j.val; rw [e1, hj]; omega
  have h := rows8_apply V c 9 hn j
  exact (congrArg (rows8 V c 9 hn).1 hy).trans (h.1.trans ((sum_tiles8 (Y8 V c) j).trans (congrArg (Cert.Spec.colsumT (Y8 V c)) hemb.symm)))

/-- An index of that row is in the last tile's block: the block is the whole row. -/
theorem mem_blk8_8 (t : Fin cfg8.N) (i : S1x128.Idx) :
    i ∈ ((cfg8.win 8).blk t).view.set ↔ ∀ a : Fin 2, win8_8.index t a * S1x128.size a ≤ (i a).val ∧ (i a).val < win8_8.index t a * S1x128.size a + S1x128.size a := by
  show i ∈ ((View.whole main_v152_1).slice (win8_8.rect t)).set ↔ _
  rw [View.set_slice_whole, Rect.mem_set_unit]
  exact Iff.rfl

/-- The one write-back of window 9, after the last tile, writes the sums over all ten tiles: its block is the whole row. -/
theorem flushed8_9 (c : Dev nD) (t : Fin cfg8.N) (hf : (cfg8.win 9).flush t = true) :
    (dat8 V c).flushed 9 t = ((cfg8.win 9).blk t).view.read (Elt Ideal) (Cert.Spec.colsumT (fun a => Y8 V c a * Y8 V c a)) := by
  have h9 : t.val = 9 := by have := (flush8_9 t).mp hf; have := lt_of_lt_of_eq t.isLt N_8; omega
  have e := wpos8 t
  have e0 : win8_9.index t (0 : Fin 2) = 0 := by omega
  have e1 : win8_9.index t (1 : Fin 2) = 0 := by omega
  clear e
  obtain ⟨n, hn⟩ := t
  obtain rfl : n = 9 := h9
  show (cfg8.win 9).cut (grid8.coords ⟨9, hn⟩) ((dat8 V c).after 9 ⟨9, hn⟩) = _
  rw [after8_9, outsAt8_eq]
  funext y
  show (rows8 V c 9 hn).2 y = Cert.Spec.colsumT (fun a => Y8 V c a * Y8 V c a) (((cfg8.win 9).blk ⟨9, hn⟩).view.emb y)
  obtain ⟨j, hj⟩ : ∃ j : Fin 128, j = (y : S1x128.Idx) 1 := ⟨_, rfl⟩
  have hy0 : ((y : S1x128.Idx) 0).val < 1 := ((y : S1x128.Idx) 0).isLt
  have hy : (y : S1x128.Idx) = ix2 0 j := by
    funext a
    apply Fin.ext
    match a with
    | ⟨0, _⟩ => show ((y : S1x128.Idx) 0).val = 0; omega
    | ⟨1, _⟩ => show ((y : S1x128.Idx) 1).val = j.val; rw [hj]
  have hemb : ((cfg8.win 9).blk ⟨9, hn⟩).view.emb y = (ix2 0 j : S1x128.Idx) := by
    funext a
    apply Fin.ext
    match a with
    | ⟨0, _⟩ => show win8_9.index ⟨9, hn⟩ (0 : Fin 2) * 1 + 1 * ((y : S1x128.Idx) 0).val = 0; rw [e0]; omega
    | ⟨1, _⟩ => show win8_9.index ⟨9, hn⟩ (1 : Fin 2) * 128 + 1 * ((y : S1x128.Idx) 1).val = j.val; rw [e1, hj]; omega
  have h := rows8_apply V c 9 hn j
  exact (congrArg (rows8 V c 9 hn).2 hy).trans (h.2.trans ((sum_tiles8 (fun a => Y8 V c a * Y8 V c a) j).trans (congrArg (Cert.Spec.colsumT (fun a => Y8 V c a * Y8 V c a)) hemb.symm)))

/-- An index of that row is in the last tile's block: the block is the whole row. -/
theorem mem_blk8_9 (t : Fin cfg8.N) (i : S1x128.Idx) :
    i ∈ ((cfg8.win 9).blk t).view.set ↔ ∀ a : Fin 2, win8_9.index t a * S1x128.size a ≤ (i a).val ∧ (i a).val < win8_9.index t a * S1x128.size a + S1x128.size a := by
  show i ∈ ((View.whole main_v152_2).slice (win8_9.rect t)).set ↔ _
  rw [View.set_slice_whole, Rect.mem_set_unit]
  exact Iff.rfl

/-- THE ROW OF SUMS after the region: the column sums of the product array, tile by tile. -/
theorem sum_8 (c : Dev nD) : (dat8 V c).arrAt 8 cfg8.N = Cert.Spec.colsumT (Cert.Spec.lin (Cert.Spec.bnrelu (V c main_v134_0) (V c main_v136) (V c main_v140) (V c main_v143) (V c main_v146)) (V c main_v151) (V c main_v149)) :=
  (dat8 V c).arrAt_eq_of_cover 8 (Cert.Spec.colsumT (Y8 V c)) (flushed8_8 V c) fun i => by
    have h9 : (9 : ℕ) < cfg8.N := by rw [show cfg8.N = 10 from N_8]; omega
    have e := wpos8 ⟨9, h9⟩
    have e0 : win8_8.index ⟨9, h9⟩ (0 : Fin 2) = 0 := by omega
    have e1 : win8_8.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush8_8 _).mpr rfl, ?_⟩
    rw [mem_blk8_8]
    intro a
    match a with
    | ⟨0, _⟩ => show win8_8.index ⟨9, h9⟩ (0 : Fin 2) * 1 ≤ ((i : S1x128.Idx) 0).val ∧ ((i : S1x128.Idx) 0).val < win8_8.index ⟨9, h9⟩ (0 : Fin 2) * 1 + 1; rw [e0]; omega
    | ⟨1, _⟩ => show win8_8.index ⟨9, h9⟩ (1 : Fin 2) * 128 ≤ ((i : S1x128.Idx) 1).val ∧ ((i : S1x128.Idx) 1).val < win8_8.index ⟨9, h9⟩ (1 : Fin 2) * 128 + 128; rw [e1]; omega

/-- THE ROW OF SUMS OF SQUARES after the region: the column sums of the squared product array, tile by tile. -/
theorem sumsq_8 (c : Dev nD) : (dat8 V c).arrAt 9 cfg8.N = Cert.Spec.colsumT (fun a => Cert.Spec.lin (Cert.Spec.bnrelu (V c main_v134_0) (V c main_v136) (V c main_v140) (V c main_v143) (V c main_v146)) (V c main_v151) (V c main_v149) a * Cert.Spec.lin (Cert.Spec.bnrelu (V c main_v134_0) (V c main_v136) (V c main_v140) (V c main_v143) (V c main_v146)) (V c main_v151) (V c main_v149) a) :=
  (dat8 V c).arrAt_eq_of_cover 9 (Cert.Spec.colsumT (fun a => Y8 V c a * Y8 V c a)) (flushed8_9 V c) fun i => by
    have h9 : (9 : ℕ) < cfg8.N := by rw [show cfg8.N = 10 from N_8]; omega
    have e := wpos8 ⟨9, h9⟩
    have e0 : win8_9.index ⟨9, h9⟩ (0 : Fin 2) = 0 := by omega
    have e1 : win8_9.index ⟨9, h9⟩ (1 : Fin 2) = 0 := by omega
    clear e
    have hi0 : ((i : S1x128.Idx) 0).val < 1 := ((i : S1x128.Idx) 0).isLt
    have hi1 : ((i : S1x128.Idx) 1).val < 128 := ((i : S1x128.Idx) 1).isLt
    refine ⟨⟨9, h9⟩, (flush8_9 _).mpr rfl, ?_⟩
    rw [mem_blk8_9]
    intro a
    match a with
    | ⟨0, _⟩ => show win8_9.index ⟨9, h9⟩ (0 : Fin 2) * 1 ≤ ((i : S1x128.Idx) 0).val ∧ ((i : S1x128.Idx) 0).val < win8_9.index ⟨9, h9⟩ (0 : Fin 2) * 1 + 1; rw [e0]; omega
    | ⟨1, _⟩ => show win8_9.index ⟨9, h9⟩ (1 : Fin 2) * 128 ≤ ((i : S1x128.Idx) 1).val ∧ ((i : S1x128.Idx) 1).val < win8_9.index ⟨9, h9⟩ (1 : Fin 2) * 128 + 128; rw [e1]; omega

end Cert.KernelIdeal.HandV

end
-- ==== Proof.KV.Val9.lean ====
/- Region 9 at the extended reals: the array its output window ends holding, as one function of the arrays
   the region is entered with — normalise, scale, shift, rectify: `max ((g · (y − mean)) · rsqrt (var + ε) + β) 0`. The body's payload is read at an index; each point writes back the
   block of that function its output rectangle names; the ten blocks of two thousand rows cover the array. -/
import proofs.«411025_j54640573939922_1_alg».proof.Proof.KI.Reg9
import proofs.«411025_j54640573939922_1_alg».proof.Proof.Math.Spec
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets, however spelt. -/
theorem zero_off9 : (![0, 0] : Fin 2 → Nat) = fun _ => 0 := funext fun a => by fin_cases a <;> rfl

/-- A row broadcast down the two thousand rows of a tile reads, at row `p` column `q`, the row's entry at column `q`. -/
theorem bcast_row9 {α : Type} (x : S1x128.Idx → α) (h : S1x128.Broadcasts S2000x128) (p : Fin 2000) (q : Fin 128) :
    broadcastTo S2000x128 x h (ix2 p q) = x (ix2 0 q) :=
  broadcastTo_apply x h (ix2 p q) (ix2 0 q) (fun a => by match a with | ⟨0, _⟩ => rfl | ⟨1, _⟩ => rfl)

/-- The reciprocal square root of a vector, at an index, is that of the entry. -/
theorem rsqrt_apply9 {s : Shape} {φ : FTy} (a : FVec Ideal s φ) (i : s.Idx) : rsqrt a i = Ideal.rsqrt (a i) := rfl

/-- The payload at row `p`, column `q`: the entry minus the column's mean, scaled by the column's gain and by the
    reciprocal square root of the column's variance plus the guard term, shifted by the column's offset, rectified. -/
theorem bn_pay_apply9 (x0 : Vec Ideal S2000x128 .f32) (x1 x2 x3 x4 : Vec Ideal S1x128 .f32) (p : Fin 2000) (q : Fin 128) :
    k9_pay1 x0 x1 x2 x3 x4 (ix2 p q)
      = max ((x3 (ix2 0 q) * (x0 (ix2 p q) - x1 (ix2 0 q))) * Ideal.rsqrt (x2 (ix2 0 q) + Cert.Spec.cEps) + x4 (ix2 0 q)) Cert.Spec.cZero := by
  unfold k9_pay1
  simp only [maximumf_apply, addf_apply, mulf_apply, subf_apply, broadcast_apply, shapeCast_self, bcast_row9, rsqrt_apply9]
  rfl

/-- Equal entries give equal values of `max ((g · (y − m)) · rsqrt (v + ε) + b) 0`. -/
theorem bn_congr9 (g y m v b g' y' m' v' b' : EReal) (hg : g = g') (hy : y = y') (hm : m = m') (hv : v = v') (hb : b = b') :
    max ((g * (y - m)) * Ideal.rsqrt (v + Cert.Spec.cEps) + b) Cert.Spec.cZero
      = max ((g' * (y' - m')) * Ideal.rsqrt (v' + Cert.Spec.cEps) + b') Cert.Spec.cZero := by
  rw [hg, hy, hm, hv, hb]

/-- The index maps, decided over the ten points: the input tile and the output tile move together down the rows, the
    four statistic and parameter rows stay put. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

set_option maxHeartbeats 4000000 in
/-- What point `t` writes back is block `t` of the normalised, rectified array of the entry arrays. -/
theorem flushed9_eq (c : Dev nD) (t : Fin cfg9.N) :
    (dat9 V c).flushed 5 t = ((cfg9.win 5).blk t).view.read (Elt Ideal)
      (Cert.Spec.bnrelu (V c main_v152_0) (V c main_v154) (V c main_v158) (V c main_v161) (V c main_v164)) := by
  show (cfg9.win 5).cut (grid9.coords t) ((dat9 V c).after 5 t) = _
  rw [after9_5]
  unfold out9_5
  rw [View.canon_unit_zero zero_off9]
  simp only [View.ld_unit_zero (S := S2000x128) zero_off9, View.ld_unit_zero (S := S1x128) zero_off9]
  funext j
  obtain ⟨p, q, rfl⟩ : ∃ (p : Fin 2000) (q : Fin 128), j = ix2 p q := ⟨j 0, j 1, eq_ix2 j⟩
  show k9_pay1 (iblk9 V c 0 t) (iblk9 V c 1 t) (iblk9 V c 2 t) (iblk9 V c 3 t) (iblk9 V c 4 t) (ix2 p q)
    = Cert.Spec.bnrelu (V c main_v152_0) (V c main_v154) (V c main_v158) (V c main_v161) (V c main_v164) (((cfg9.win 5).blk t).view.emb (ix2 p q))
  rw [bn_pay_apply9]
  unfold Cert.Spec.bnrelu iblk9
  simp only [View.read_apply]
  obtain ⟨e00, e01, e10, e11, e20, e21, e30, e31, e40, e41, e50, e51⟩ := idx_facts9 t
  refine bn_congr9 _ _ _ _ _ _ _ _ _ _ (congrArg (V c main_v161) ?_) (congrArg (V c main_v152_0) ?_) (congrArg (V c main_v154) ?_)
    (congrArg (V c main_v158) ?_) (congrArg (V c main_v164) ?_)
  · funext a; apply Fin.ext
    match a with
    | ⟨0, _⟩ => show win9_3.index t (0 : Fin 2) * 1 + 1 * 0 = 0; omega
    | ⟨1, _⟩ => show win9_3.index t (1 : Fin 2) * 128 + 1 * q.val = win9_5.index t (1 : Fin 2) * 128 + 1 * q.val; omega
  · funext a; apply Fin.ext
    match a with
    | ⟨0, _⟩ => show win9_0.index t (0 : Fin 2) * 2000 + 1 * p.val = win9_5.index t (0 : Fin 2) * 2000 + 1 * p.val; omega
    | ⟨1, _⟩ => show win9_0.index t (1 : Fin 2) * 128 + 1 * q.val = win9_5.index t (1 : Fin 2) * 128 + 1 * q.val; omega
  · funext a; apply Fin.ext
    match a with
    | ⟨0, _⟩ => show win9_1.index t (0 : Fin 2) * 1 + 1 * 0 = 0; omega
    | ⟨1, _⟩ => show win9_1.index t (1 : Fin 2) * 128 + 1 * q.val = win9_5.index t (1 : Fin 2) * 128 + 1 * q.val; omega
  · funext a; apply Fin.ext
    match a with
    | ⟨0, _⟩ => show win9_2.index t (0 : Fin 2) * 1 + 1 * 0 = 0; omega
    | ⟨1, _⟩ => show win9_2.index t (1 : Fin 2) * 128 + 1 * q.val = win9_5.index t (1 : Fin 2) * 128 + 1 * q.val; omega
  · funext a; apply Fin.ext
    match a with
    | ⟨0, _⟩ => show win9_4.index t (0 : Fin 2) * 1 + 1 * 0 = 0; omega
    | ⟨1, _⟩ => show win9_4.index t (1 : Fin 2) * 128 + 1 * q.val = win9_5.index t (1 : Fin 2) * 128 + 1 * q.val; omega

/-- An index of the array is in point `t`'s block iff each coordinate is in the block's range on its axis. -/
theorem mem_blk9 (t : Fin cfg9.N) (i : S20000x128.Idx) :
    i ∈ ((cfg9.win 5).blk t).view.set ↔ ∀ a : Fin 2, win9_5.index t a * S2000x128.size a ≤ (i a).val ∧ (i a).val < win9_5.index t a * S2000x128.size a + S2000x128.size a := by
  show i ∈ ((View.whole main_v165).slice (win9_5.rect t)).set ↔ _
  rw [View.set_slice_whole, Rect.mem_set_unit]
  exact Iff.rfl

/-- Every index of the array is in the block of the point its row falls in: row `r` is in tile `r / 2000`. -/
theorem cover9 (i : S20000x128.Idx) : ∃ t : Fin cfg9.N, (cfg9.win 5).flush t = true ∧ i ∈ ((cfg9.win 5).blk t).view.set := by
  have hi0 : (i 0).val < 20000 := (i 0).isLt
  have hi1 : (i 1).val < 128 := (i 1).isLt
  refine ⟨⟨(i 0).val / 2000, by show (i 0).val / 2000 < 10; omega⟩, flush9_5 _, ?_⟩
  rw [mem_blk9]
  obtain ⟨e00, e01, e10, e11, e20, e21, e30, e31, e40, e41, e50, e51⟩ := idx_facts9 ⟨(i 0).val / 2000, by show (i 0).val / 2000 < 10; omega⟩
  intro a
  match a with
  | ⟨0, _⟩ =>
    show win9_5.index _ (0 : Fin 2) * 2000 ≤ (i 0).val ∧ (i 0).val < win9_5.index _ (0 : Fin 2) * 2000 + 2000
    rw [e50]; show (i 0).val / 2000 * 2000 ≤ (i 0).val ∧ (i 0).val < (i 0).val / 2000 * 2000 + 2000; omega
  | ⟨1, _⟩ =>
    show win9_5.index _ (1 : Fin 2) * 128 ≤ (i 1).val ∧ (i 1).val < win9_5.index _ (1 : Fin 2) * 128 + 128
    rw [e51]; omega

/-- The array window 5 ends holding: the normalised, scaled, shifted, rectified form of the input array, by the mean,
    variance, gain and offset rows the region is entered with. -/
theorem out9 (c : Dev nD) : (dat9 V c).arrAt 5 cfg9.N
    = Cert.Spec.bnrelu (V c main_v152_0) (V c main_v154) (V c main_v158) (V c main_v161) (V c main_v164) :=
  (dat9 V c).arrAt_eq_of_cover 5 (Cert.Spec.bnrelu (V c main_v152_0) (V c main_v154) (V c main_v158) (V c main_v161) (V c main_v164))
    (fun t _ => flushed9_eq V c t) cover9

end Cert.KernelIdeal.HandV
-- ==== Proof.KV.Chain3.lean ====
/-
  The value chain, third layer. For any array `H` in the layer's input buffer, the layer's three stretches and three
  regions leave in its output buffer the layer of `H` with the tiled statistics, its parameters read from row 2 of the
  argument arrays and its neighbour sums taken along the edge list. The text is the first layer's at this layer's
  boundaries, regions and buffers.
-/
import proofs.«411025_j54640573939922_1_alg».proof.Proof.KI.RunA
import proofs.«411025_j54640573939922_1_alg».proof.Proof.KV.ChainKeep
import proofs.«411025_j54640573939922_1_alg».proof.Proof.KV.HostA
import proofs.«411025_j54640573939922_1_alg».proof.Proof.KV.HostC
import proofs.«411025_j54640573939922_1_alg».proof.Proof.KV.Val7
import proofs.«411025_j54640573939922_1_alg».proof.Proof.KV.Val8
import proofs.«411025_j54640573939922_1_alg».proof.Proof.KV.Val9
import proofs.«411025_j54640573939922_1_alg».proof.Proof.KV.Chain1
import proofs.«411025_j54640573939922_1_alg».proof.Proof.Math.Spec
import proofs.«411025_j54640573939922_1_alg».proof.Proof.Math.Agg
import proofs.«411025_j54640573939922_1_alg».proof.Proof.Math.Reads
import proofs.«411025_j54640573939922_1_alg».proof.Proof.Math.Net

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

set_option maxHeartbeats 4000000 in
/-- Layer 3: if the layer's input buffer holds `H` when its first stretch starts, its output buffer holds the layer of
    `H` (tiled statistics) when its last region ends. -/
theorem layer3 (H : Cert.Spec.SNH.Idx → EReal) (hH : W14 m ρ c (Proc.devRef .tc main_v112) = H) :
    W20 m ρ c (Proc.devRef .tc main_v165) =
      Cert.Spec.layerT (Cert.Spec.cOne + Cert.Spec.atOf (argA m c main_arg11) (2 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1)))
        (Cert.Spec.matOf (argA m c main_arg5) (2 : Fin 3)) (Cert.Spec.rowOf (argA m c main_arg6) (2 : Fin 3)) (Cert.Spec.rowOf (argA m c main_arg7) (2 : Fin 3)) (Cert.Spec.rowOf (argA m c main_arg8) (2 : Fin 3))
        (Cert.Spec.matOf (argA m c main_arg9) (2 : Fin 3)) (Cert.Spec.rowOf (argA m c main_arg10) (2 : Fin 3)) (Cert.Spec.rowOf (argA m c main_arg12) (2 : Fin 3)) (Cert.Spec.rowOf (argA m c main_arg13) (2 : Fin 3)) H := by
  -- the edge list's rows, carried from the first boundary
  have s1 : W14 m ρ c (Proc.devRef .tc main_v1) = Cert.Spec.srcOf (argA m c main_arg1) :=
    (W14_un1 m ρ un1_main_v1 c).trans ((h0_v1 (W0 m ρ c)).trans (congrArg Cert.Spec.srcOf (W0_arg m ρ (b := main_arg1) c)))
  have d1 : W14 m ρ c (Proc.devRef .tc main_v3) = Cert.Spec.dstOf (argA m c main_arg1) :=
    (W14_un1 m ρ un1_main_v3 c).trans ((h0_v3 (W0 m ρ c)).trans (congrArg Cert.Spec.dstOf (W0_arg m ρ (b := main_arg1) c)))
  -- the first dense map's input, weights and bias
  have e_x : V15 m ρ c main_v128 = Cert.Spec.mix (Cert.Spec.cOne + Cert.Spec.atOf (argA m c main_arg11) (2 : Fin 3)) (Cert.Spec.nbr gather_S20000x128_S640000x1_S640000x128_1_0_n_n_0_1_1128 scatter_S20000x128_S640000x1_S640000x128_1_0_0_1 (Cert.Spec.srcOf (argA m c main_arg1)) (Cert.Spec.dstOf (argA m c main_arg1))) H :=
    (h7_v128 (W14 m ρ c)).trans (mix_congr (congrArg (fun p => Cert.Spec.cOne + Cert.Spec.atOf p (2 : Fin 3)) (W14_arg m ρ (b := main_arg11) (by decide) un1_main_arg11 c))
      (nbr_congr _ _ s1 d1) hH)
  have e_w1 : V15 m ρ c main_v133 = Cert.Spec.matOf (argA m c main_arg5) (2 : Fin 3) :=
    (h7_v133 (W14 m ρ c)).trans (congrArg (fun p => Cert.Spec.matOf p (2 : Fin 3)) (W14_arg m ρ (b := main_arg5) (by decide) un1_main_arg5 c))
  have e_b1 : V15 m ρ c main_v131 = Cert.Spec.rowOf (argA m c main_arg6) (2 : Fin 3) :=
    (h7_v131 (W14 m ρ c)).trans (congrArg (fun p => Cert.Spec.rowOf p (2 : Fin 3)) (W14_arg m ρ (b := main_arg6) (by decide) un1_main_arg6 c))
  have e_y1 := lin_congr e_x e_w1 e_b1
  -- what the first dense region leaves: the array and its two running sums
  have y1_a := W16_arr m ρ c (3 : Fin cfg7.W)
  have y1_b := (y1_7 (V15 m ρ) c).trans (e_y1)
  have y1 : W16 m ρ c (Proc.devRef .tc main_v134_0) = _ := y1_a.trans y1_b
  have su1_a := W16_arr m ρ c (4 : Fin cfg7.W)
  have su1_b := (sum_7 (V15 m ρ) c).trans (congrArg Cert.Spec.colsumT e_y1)
  have su1 : W16 m ρ c (Proc.devRef .tc main_v134_1) = _ := su1_a.trans su1_b
  have sq1_a := W16_arr m ρ c (5 : Fin cfg7.W)
  have sq1_b := (sumsq_7 (V15 m ρ) c).trans (congrArg (fun y : Cert.Spec.SNH.Idx → EReal => Cert.Spec.colsumT fun a => y a * y a) e_y1)
  have sq1 : W16 m ρ c (Proc.devRef .tc main_v134_2) = _ := sq1_a.trans sq1_b
  -- the second dense map's input statistics, scale, shift, weights and bias
  have e_y1' : V17 m ρ c main_v134_0 = _ := (W17_of m ρ c main_v134_0 (by decide)).trans y1
  have e_m1 : V17 m ρ c main_v136 = _ :=
    (h8_v136 (W16 m ρ c)).trans ((congrArg Cert.Spec.meanOf su1).trans (Cert.Spec.meanOf_colsumT _))
  have e_v1 : V17 m ρ c main_v140 = _ :=
    (h8_v140 (W16 m ρ c)).trans ((congrArg₂ Cert.Spec.varOf su1 sq1).trans (Cert.Spec.varOf_colsumT _))
  have e_g1 : V17 m ρ c main_v143 = Cert.Spec.rowOf (argA m c main_arg7) (2 : Fin 3) :=
    (h8_v143 (W16 m ρ c)).trans (congrArg (fun p => Cert.Spec.rowOf p (2 : Fin 3)) (W16_arg m ρ (b := main_arg7) (by decide) un1_main_arg7 c))
  have e_be1 : V17 m ρ c main_v146 = Cert.Spec.rowOf (argA m c main_arg8) (2 : Fin 3) :=
    (h8_v146 (W16 m ρ c)).trans (congrArg (fun p => Cert.Spec.rowOf p (2 : Fin 3)) (W16_arg m ρ (b := main_arg8) (by decide) un1_main_arg8 c))
  have e_b2 : V17 m ρ c main_v149 = Cert.Spec.rowOf (argA m c main_arg10) (2 : Fin 3) :=
    (h8_v149 (W16 m ρ c)).trans (congrArg (fun p => Cert.Spec.rowOf p (2 : Fin 3)) (W16_arg m ρ (b := main_arg10) (by decide) un1_main_arg10 c))
  have e_w2 : V17 m ρ c main_v151 = Cert.Spec.matOf (argA m c main_arg9) (2 : Fin 3) :=
    (h8_v151 (W16 m ρ c)).trans (congrArg (fun p => Cert.Spec.matOf p (2 : Fin 3)) (W16_arg m ρ (b := main_arg9) (by decide) un1_main_arg9 c))
  have e_y2 := lin_congr (bnrelu_congr e_y1' e_m1 e_v1 e_g1 e_be1) e_w2 e_b2
  -- what the second dense region leaves
  have y2_a := W18_arr m ρ c (7 : Fin cfg8.W)
  have y2_b := (y2_8 (V17 m ρ) c).trans (e_y2)
  have y2 : W18 m ρ c (Proc.devRef .tc main_v152_0) = _ := y2_a.trans y2_b
  have su2_a := W18_arr m ρ c (8 : Fin cfg8.W)
  have su2_b := (sum_8 (V17 m ρ) c).trans (congrArg Cert.Spec.colsumT e_y2)
  have su2 : W18 m ρ c (Proc.devRef .tc main_v152_1) = _ := su2_a.trans su2_b
  have sq2_a := W18_arr m ρ c (9 : Fin cfg8.W)
  have sq2_b := (sumsq_8 (V17 m ρ) c).trans (congrArg (fun y : Cert.Spec.SNH.Idx → EReal => Cert.Spec.colsumT fun a => y a * y a) e_y2)
  have sq2 : W18 m ρ c (Proc.devRef .tc main_v152_2) = _ := sq2_a.trans sq2_b
  -- the closing normalisation's statistics, scale and shift
  have e_y2' : V19 m ρ c main_v152_0 = _ := (W19_of m ρ c main_v152_0 (by decide)).trans y2
  have e_m2 : V19 m ρ c main_v154 = _ :=
    (h9_v154 (W18 m ρ c)).trans ((congrArg Cert.Spec.meanOf su2).trans (Cert.Spec.meanOf_colsumT _))
  have e_v2 : V19 m ρ c main_v158 = _ :=
    (h9_v158 (W18 m ρ c)).trans ((congrArg₂ Cert.Spec.varOf su2 sq2).trans (Cert.Spec.varOf_colsumT _))
  have e_g2 : V19 m ρ c main_v161 = Cert.Spec.rowOf (argA m c main_arg12) (2 : Fin 3) :=
    (h9_v161 (W18 m ρ c)).trans (congrArg (fun p => Cert.Spec.rowOf p (2 : Fin 3)) (W18_arg m ρ (b := main_arg12) (by decide) un1_main_arg12 c))
  have e_be2 : V19 m ρ c main_v164 = Cert.Spec.rowOf (argA m c main_arg13) (2 : Fin 3) :=
    (h9_v164 (W18 m ρ c)).trans (congrArg (fun p => Cert.Spec.rowOf p (2 : Fin 3)) (W18_arg m ρ (b := main_arg13) (by decide) un1_main_arg13 c))
  have o_a := W20_arr m ρ c (5 : Fin cfg9.W)
  have o_b := (out9 (V19 m ρ) c).trans (bnrelu_congr e_y2' e_m2 e_v2 e_g2 e_be2)
  exact o_a.trans o_b

end Cert.KernelIdeal.HandV

end
-- ==== Proof.KV.Chain.lean ====
/-
  The value chain, closed. Starting from the encoding of the node features, the three layers in turn, then the pooling
  by graph and the read-out: at the run's last boundary the result buffer holds the whole network, with the tiled
  statistics and the tiled pooling, as one term of the sixteen argument arrays the launch memory holds, its neighbour
  sums taken along the two rows of the edge list.
-/
import proofs.«411025_j54640573939922_1_alg».proof.Proof.KI.RunA
import proofs.«411025_j54640573939922_1_alg».proof.Proof.KV.ChainKeep
import proofs.«411025_j54640573939922_1_alg».proof.Proof.KV.HostA
import proofs.«411025_j54640573939922_1_alg».proof.Proof.KV.Val10
import proofs.«411025_j54640573939922_1_alg».proof.Proof.KV.Chain1
import proofs.«411025_j54640573939922_1_alg».proof.Proof.KV.Chain2
import proofs.«411025_j54640573939922_1_alg».proof.Proof.KV.Chain3
import proofs.«411025_j54640573939922_1_alg».proof.Proof.Math.Spec
import proofs.«411025_j54640573939922_1_alg».proof.Proof.Math.Agg
import proofs.«411025_j54640573939922_1_alg».proof.Proof.Math.Reads
import proofs.«411025_j54640573939922_1_alg».proof.Proof.Math.Net

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

set_option maxHeartbeats 4000000 in
/-- What the kernel program's result buffer holds when @main returns. -/
theorem value (m : (ℓ : Loc nD τ sig) → Buf (Elt Ideal) ℓ) (ρ : Dev nD → PrngReg) (c : Dev nD) :
    Cert.KernelIdeal.Hand.W22 m ρ c (Proc.devRef .tc main_v167) =
      Cert.Spec.netT
        (Cert.Spec.nbr gather_S20000x128_S640000x1_S640000x128_1_0_n_n_0_1_1128 scatter_S20000x128_S640000x1_S640000x128_1_0_0_1
          (Cert.Spec.srcOf (m ((c.tc : Thread nD τ).loc main_arg1))) (Cert.Spec.dstOf (m ((c.tc : Thread nD τ).loc main_arg1))))
        (m ((c.tc : Thread nD τ).loc main_arg0)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) := by
  -- the three layers, from the encoding
  have H3 := layer3 m ρ c _ (layer2 m ρ c _ (layer1 m ρ c _ (enc_at2 m ρ c)))
  -- what the last region reads: the features, the graph index as a column, the class weights, the class bias as a row
  have e_h : V21 m ρ c main_v165 = _ := (W21_of m ρ c main_v165 (by decide)).trans H3
  have e_b : V21 m ρ c main_v4 = Cert.Spec.colN (argA m c main_arg2) :=
    (W21_un1 m ρ un1_main_v4 c).trans ((h0_v4 (W0 m ρ c)).trans (congrArg Cert.Spec.colN (W0_arg m ρ (b := main_arg2) c)))
  have e_w : V21 m ρ c main_arg14 = argA m c main_arg14 := W21_arg m ρ (b := main_arg14) (by decide) un1_main_arg14 c
  have e_cb : V21 m ρ c main_v166 = Cert.Spec.row2 (argA m c main_arg15) :=
    (h10_v166 (W20 m ρ c)).trans (congrArg Cert.Spec.row2 (W20_arg m ρ (b := main_arg15) (by decide) un1_main_arg15 c))
  have o_a := W22_arr m ρ c (4 : Fin cfg10.W)
  have o_b := (out10 (V21 m ρ) c).trans
    (readout_congr (congrArg₂ Cert.Spec.poolSumT e_h e_b) (congrArg Cert.Spec.poolCntT e_b) e_w e_cb)
  exact o_a.trans o_b

end Cert.KernelIdeal.HandV

end
-- ==== Proof.Ref.OpsP0.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part0`, in order: 81 of them, each call's body in place of the call,
    read over that call's buffers. -/
abbrev opsP0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.binary main_arg0 main_arg3 main_v4 ((fun l r => Host.dotGeneral dot_S20000x1_S1x128_S20000x128_1_0_0_1_n_n none l r) : (⟨S20000x1, .f32⟩ : BufTy).Contents (Elt F) → (⟨S1x128, .f32⟩ : BufTy).Contents (Elt F) → (⟨S20000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S20000x128 ![0, 1] bcast_S1x128_S20000x128_0_1 : (⟨S1x128, .f32⟩ : BufTy).Contents (Elt F) → (⟨S20000x128, .f32⟩ : BufTy).Contents (Elt F)),
    StableHlo.binary main_v4 main_v6 main_v7 (addf : (⟨S20000x128, .f32⟩ : BufTy).Contents (Elt F) → (⟨S20000x128, .f32⟩ : BufTy).Contents (Elt F) → (⟨S20000x128, .f32⟩ : BufTy).Contents (Elt F)),
    StableHlo.nullary main_c (constantI S_ 32 0#32),
    StableHlo.unary main_c main_v8 (broadcastInDim S640000 ![] bcast_S_S640000 : (⟨S_, .i32⟩ : BufTy).Contents (Elt F) → (⟨S640000, .i32⟩ : BufTy).Contents (Elt F)),
    StableHlo.binary main_v1 main_v8 main_v9 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 20000#32),
    StableHlo.unary main_c_0 main_v10 (broadcastInDim S640000 ![] bcast_S_S640000 : (⟨S_, .i32⟩ : BufTy).Contents (Elt F) → (⟨S640000, .i32⟩ : BufTy).Contents (Elt F)),
    StableHlo.binary main_v1 main_v10 main_v11 (addi : (⟨S640000, .i32⟩ : BufTy).Contents (Elt F) → (⟨S640000, .i32⟩ : BufTy).Contents (Elt F) → (⟨S640000, .i32⟩ : BufTy).Contents (Elt F)),
    StableHlo.ternary main_v9 main_v11 main_v1 main_v12 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v12 main_v13 (broadcastInDim S640000x1 ![0] bcast_S640000_S640000x1_0 : (⟨S640000, .i32⟩ : BufTy).Contents (Elt F) → (⟨S640000x1, .i32⟩ : BufTy).Contents (Elt F)),
    StableHlo.binary main_v7 main_v13 main_v14 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v15 (broadcastInDim S20000x128 ![] bcast_S_S20000x128 : (⟨S_, .f32⟩ : BufTy).Contents (Elt F) → (⟨S20000x128, .f32⟩ : BufTy).Contents (Elt F)),
    StableHlo.unary main_v3 main_v16 (broadcastInDim S640000x1 ![0] bcast_S640000_S640000x1_0 : (⟨S640000, .i32⟩ : BufTy).Contents (Elt F) → (⟨S640000x1, .i32⟩ : BufTy).Contents (Elt F)),
    StableHlo.ternary main_v15 main_v16 main_v14 main_v17 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg11 main_v18 ((extractStridedSlice S1 ![0] · slices_S3_S1_0) : (⟨S3, .f32⟩ : BufTy).Contents (Elt F) → (⟨S1, .f32⟩ : BufTy).Contents (Elt F)),
    StableHlo.reshape main_v18 main_v19 rfl shapeCasts_S1_S_,
    StableHlo.nullary main_cst_1 (constant S_ .f32 0x3F800000#32),
    StableHlo.binary main_cst_1 main_v19 main_v20 (addf : (⟨S_, .f32⟩ : BufTy).Contents (Elt F) → (⟨S_, .f32⟩ : BufTy).Contents (Elt F) → (⟨S_, .f32⟩ : BufTy).Contents (Elt F)),
    StableHlo.unary main_v20 main_v21 (broadcastInDim S20000x128 ![] bcast_S_S20000x128 : (⟨S_, .f32⟩ : BufTy).Contents (Elt F) → (⟨S20000x128, .f32⟩ : BufTy).Contents (Elt F)),
    StableHlo.binary main_v21 main_v7 main_v22 (mulf : (⟨S20000x128, .f32⟩ : BufTy).Contents (Elt F) → (⟨S20000x128, .f32⟩ : BufTy).Contents (Elt F) → (⟨S20000x128, .f32⟩ : BufTy).Contents (Elt F)),
    StableHlo.binary main_v22 main_v17 main_v23 (addf : (⟨S20000x128, .f32⟩ : BufTy).Contents (Elt F) → (⟨S20000x128, .f32⟩ : BufTy).Contents (Elt F) → (⟨S20000x128, .f32⟩ : BufTy).Contents (Elt F)),
    StableHlo.unary main_arg5 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg6 main_v27 ((extractStridedSlice S1x128 ![0, 0] · slices_S3x128_S1x128_0_0) : (⟨S3x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S20000x128 ![0, 1] bcast_S1x128_S20000x128_0_1 : (⟨S1x128, .f32⟩ : BufTy).Contents (Elt F) → (⟨S20000x128, .f32⟩ : BufTy).Contents (Elt F)),
    StableHlo.binary main_v26 main_v30 main_v31 (addf : (⟨S20000x128, .f32⟩ : BufTy).Contents (Elt F) → (⟨S20000x128, .f32⟩ : BufTy).Contents (Elt F) → (⟨S20000x128, .f32⟩ : BufTy).Contents (Elt F)),
    StableHlo.unary main_arg7 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.unary main_arg8 main_v34 ((extractStridedSlice S1x128 ![0, 0] · slices_S3x128_S1x128_0_0) : (⟨S3x128, .f32⟩ : BufTy).Contents (Elt F) → (⟨S1x128, .f32⟩ : BufTy).Contents (Elt F)),
    StableHlo.reshape main_v34 main_v35 rfl shapeCasts_S1x128_S128,
    StableHlo.nullary main_cst_2 (constant S_ .f32 0x00000000#32),
    StableHlo.binary main_v31 main_cst_2 main_v36 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_3 (constant S_ .f32 0x469C4000#32),
    StableHlo.unary main_cst_3 main_v37 (broadcastInDim S128 ![] bcast_S_S128 : (⟨S_, .f32⟩ : BufTy).Contents (Elt F) → (⟨S128, .f32⟩ : BufTy).Contents (Elt F)),
    StableHlo.binary main_v36 main_v37 main_v38 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v31) main_call0.cst main_call0.v0 (fun x v => Host.reduceAdd x v reducesTo_S20000x128_S128_d0 h_S_),
    StableHlo.TRef.unary main_call0.v0 main_call0.v1 (broadcastInDim S1x128 ![1] bcast_S128_S1x128_1),
    StableHlo.TRef.nullary main_call0.cst_0 (constant S_ .f32 0x469C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S20000x128 ![0, 1] bcast_S1x128_S20000x128_0_1),
    StableHlo.TRef.binary (.of main_v31) main_call0.v4 main_call0.v5 subf,
    StableHlo.TRef.binary main_call0.v5 main_call0.v5 main_call0.v6 mulf,
    StableHlo.TRef.unary (.of main_c_4) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v38 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S20000x128 ![0, 1] bcast_S1x128_S20000x128_0_1 : (⟨S1x128, .f32⟩ : BufTy).Contents (Elt F) → (⟨S20000x128, .f32⟩ : BufTy).Contents (Elt F)),
    StableHlo.binary main_v31 main_v41 main_v42 (subf : (⟨S20000x128, .f32⟩ : BufTy).Contents (Elt F) → (⟨S20000x128, .f32⟩ : BufTy).Contents (Elt F) → (⟨S20000x128, .f32⟩ : BufTy).Contents (Elt F)),
    StableHlo.unary main_v33 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S20000x128 ![0, 1] bcast_S1x128_S20000x128_0_1 : (⟨S1x128, .f32⟩ : BufTy).Contents (Elt F) → (⟨S20000x128, .f32⟩ : BufTy).Contents (Elt F)),
    StableHlo.binary main_v44 main_v42 main_v45 (mulf : (⟨S20000x128, .f32⟩ : BufTy).Contents (Elt F) → (⟨S20000x128, .f32⟩ : BufTy).Contents (Elt F) → (⟨S20000x128, .f32⟩ : BufTy).Contents (Elt F)),
    StableHlo.nullary main_cst_5 (constant S_ .f32 0x3727C5AC#32),
    StableHlo.unary main_cst_5 main_v46 (broadcastInDim S128 ![] bcast_S_S128 : (⟨S_, .f32⟩ : BufTy).Contents (Elt F) → (⟨S128, .f32⟩ : BufTy).Contents (Elt F)),
    StableHlo.binary main_v39 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S20000x128 ![0, 1] bcast_S1x128_S20000x128_0_1 : (⟨S1x128, .f32⟩ : BufTy).Contents (Elt F) → (⟨S20000x128, .f32⟩ : BufTy).Contents (Elt F)),
    StableHlo.binary main_v45 main_v50 main_v51 (mulf : (⟨S20000x128, .f32⟩ : BufTy).Contents (Elt F) → (⟨S20000x128, .f32⟩ : BufTy).Contents (Elt F) → (⟨S20000x128, .f32⟩ : BufTy).Contents (Elt F)) ]

/-- The buffers those operations write, in order. -/
abbrev opsP0_W : List (Ref sig .tc) :=
  [main_v0, main_v1, main_v2, main_v3, main_v4, main_v5, main_v6, main_v7, main_c, main_v8, main_v9, main_c_0, main_v10, main_v11, main_v12, main_v13, main_v14, main_cst, main_v15, main_v16, main_v17, main_v18, main_v19, main_cst_1, main_v20, main_v21, main_v22, main_v23, main_v24, main_v25, main_v26, main_v27, main_v28, main_v29, main_v30, main_v31, main_v32, main_v33, main_v34, main_v35, main_cst_2, main_v36, main_cst_3, main_v37, main_v38, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v39, main_v40, main_v41, main_v42, main_v43, main_v44, main_v45, main_cst_5, main_v46, main_v47, main_v48, main_v49, main_v50, main_v51]

set_option maxRecDepth 8192 in
/-- `main_part0` is that straight line. -/
theorem main_part0_eq (c : Dev nD) : main_part0 (F := F) c = seq opsP0 := by
  simp only [main_part0, fn_relu.body, fn_var.body, fn_where.body, seq, bind_assoc, pure_bind]
  rfl

set_option maxRecDepth 8192 in
/-- Every operation of the line names TensorCore buffers only. -/
theorem opsP0_sub : (opsP0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub ..⟩

set_option maxRecDepth 8192 in
/-- No operation of the line allocates: each determines what it writes. -/
theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

set_option maxRecDepth 8192 in
/-- Every operation of the line writes a buffer of the list. -/
theorem opsP0_writes : (opsP0 : List (HloOp τ sig (Elt F))).Forall fun op =>
    op.writes ⊆ (opsP0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP0_keep (V : Valuation τ sig (Elt F)) (r : Ref sig .tc) (h : r ∉ opsP0_W) :
    after opsP0 V (Proc.devRef .tc r) = V (Proc.devRef .tc r) :=
  after_of_writes_sub opsP0 V opsP0_writes h

end Cert.ReferenceIdeal.RefRun

end
-- ==== Proof.Ref.OpsP1.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part1`, in order: 85 of them, each call's body in place of the call,
    read over that call's buffers. -/
abbrev opsP1 : List (HloOp τ sig (Elt F)) :=
  [ StableHlo.unary main_v35 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S20000x128 ![0, 1] bcast_S1x128_S20000x128_0_1 : (⟨S1x128, .f32⟩ : BufTy).Contents (Elt F) → (⟨S20000x128, .f32⟩ : BufTy).Contents (Elt F)),
    StableHlo.binary main_v51 main_v53 main_v54 (addf : (⟨S20000x128, .f32⟩ : BufTy).Contents (Elt F) → (⟨S20000x128, .f32⟩ : BufTy).Contents (Elt F) → (⟨S20000x128, .f32⟩ : BufTy).Contents (Elt F)),
    StableHlo.TRef.nullary main_call1.cst (constant S_ .f32 0x00000000#32),
    StableHlo.TRef.unary main_call1.cst main_call1.v0 (broadcastInDim S20000x128 ![] bcast_S_S20000x128),
    StableHlo.TRef.binary (.of main_v54) main_call1.v0 main_call1.v1 maximumf,
    StableHlo.unary main_arg9 main_v56 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg10 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S20000x128 ![0, 1] bcast_S1x128_S20000x128_0_1 : (⟨S1x128, .f32⟩ : BufTy).Contents (Elt F) → (⟨S20000x128, .f32⟩ : BufTy).Contents (Elt F)),
    StableHlo.binary main_v58 main_v62 main_v63 (addf : (⟨S20000x128, .f32⟩ : BufTy).Contents (Elt F) → (⟨S20000x128, .f32⟩ : BufTy).Contents (Elt F) → (⟨S20000x128, .f32⟩ : BufTy).Contents (Elt F)),
    StableHlo.unary main_arg12 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.unary main_arg13 main_v66 ((extractStridedSlice S1x128 ![0, 0] · slices_S3x128_S1x128_0_0) : (⟨S3x128, .f32⟩ : BufTy).Contents (Elt F) → (⟨S1x128, .f32⟩ : BufTy).Contents (Elt F)),
    StableHlo.reshape main_v66 main_v67 rfl shapeCasts_S1x128_S128,
    StableHlo.nullary main_cst_6 (constant S_ .f32 0x00000000#32),
    StableHlo.binary main_v63 main_cst_6 main_v68 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_7 (constant S_ .f32 0x469C4000#32),
    StableHlo.unary main_cst_7 main_v69 (broadcastInDim S128 ![] bcast_S_S128 : (⟨S_, .f32⟩ : BufTy).Contents (Elt F) → (⟨S128, .f32⟩ : BufTy).Contents (Elt F)),
    StableHlo.binary main_v68 main_v69 main_v70 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call2.cst (constant S_ .f32 0x00000000#32),
    StableHlo.TRef.binary (.of main_v63) main_call2.cst main_call2.v0 (fun x v => Host.reduceAdd x v reducesTo_S20000x128_S128_d0 h_S_),
    StableHlo.TRef.unary main_call2.v0 main_call2.v1 (broadcastInDim S1x128 ![1] bcast_S128_S1x128_1),
    StableHlo.TRef.nullary main_call2.cst_0 (constant S_ .f32 0x469C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S20000x128 ![0, 1] bcast_S1x128_S20000x128_0_1),
    StableHlo.TRef.binary (.of main_v63) main_call2.v4 main_call2.v5 subf,
    StableHlo.TRef.binary main_call2.v5 main_call2.v5 main_call2.v6 mulf,
    StableHlo.TRef.unary (.of main_c_8) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v70 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S20000x128 ![0, 1] bcast_S1x128_S20000x128_0_1 : (⟨S1x128, .f32⟩ : BufTy).Contents (Elt F) → (⟨S20000x128, .f32⟩ : BufTy).Contents (Elt F)),
    StableHlo.binary main_v63 main_v73 main_v74 (subf : (⟨S20000x128, .f32⟩ : BufTy).Contents (Elt F) → (⟨S20000x128, .f32⟩ : BufTy).Contents (Elt F) → (⟨S20000x128, .f32⟩ : BufTy).Contents (Elt F)),
    StableHlo.unary main_v65 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S20000x128 ![0, 1] bcast_S1x128_S20000x128_0_1 : (⟨S1x128, .f32⟩ : BufTy).Contents (Elt F) → (⟨S20000x128, .f32⟩ : BufTy).Contents (Elt F)),
    StableHlo.binary main_v76 main_v74 main_v77 (mulf : (⟨S20000x128, .f32⟩ : BufTy).Contents (Elt F) → (⟨S20000x128, .f32⟩ : BufTy).Contents (Elt F) → (⟨S20000x128, .f32⟩ : BufTy).Contents (Elt F)),
    StableHlo.nullary main_cst_9 (constant S_ .f32 0x3727C5AC#32),
    StableHlo.unary main_cst_9 main_v78 (broadcastInDim S128 ![] bcast_S_S128 : (⟨S_, .f32⟩ : BufTy).Contents (Elt F) → (⟨S128, .f32⟩ : BufTy).Contents (Elt F)),
    StableHlo.binary main_v71 main_v78 main_v79 (addf : (⟨S128, .f32⟩ : BufTy).Contents (Elt F) → (⟨S128, .f32⟩ : BufTy).Contents (Elt F) → (⟨S128, .f32⟩ : BufTy).Contents (Elt F)),
    StableHlo.unary main_v79 main_v80 (Host.rsqrt : (⟨S128, .f32⟩ : BufTy).Contents (Elt F) → (⟨S128, .f32⟩ : BufTy).Contents (Elt F)),
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S20000x128 ![0, 1] bcast_S1x128_S20000x128_0_1 : (⟨S1x128, .f32⟩ : BufTy).Contents (Elt F) → (⟨S20000x128, .f32⟩ : BufTy).Contents (Elt F)),
    StableHlo.binary main_v77 main_v82 main_v83 (mulf : (⟨S20000x128, .f32⟩ : BufTy).Contents (Elt F) → (⟨S20000x128, .f32⟩ : BufTy).Contents (Elt F) → (⟨S20000x128, .f32⟩ : BufTy).Contents (Elt F)),
    StableHlo.unary main_v67 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S20000x128 ![0, 1] bcast_S1x128_S20000x128_0_1 : (⟨S1x128, .f32⟩ : BufTy).Contents (Elt F) → (⟨S20000x128, .f32⟩ : BufTy).Contents (Elt F)),
    StableHlo.binary main_v83 main_v85 main_v86 (addf : (⟨S20000x128, .f32⟩ : BufTy).Contents (Elt F) → (⟨S20000x128, .f32⟩ : BufTy).Contents (Elt F) → (⟨S20000x128, .f32⟩ : BufTy).Contents (Elt F)),
    StableHlo.TRef.nullary main_call3.cst (constant S_ .f32 0x00000000#32),
    StableHlo.TRef.unary main_call3.cst main_call3.v0 (broadcastInDim S20000x128 ![] bcast_S_S20000x128),
    StableHlo.TRef.binary (.of main_v86) main_call3.v0 main_call3.v1 maximumf,
    StableHlo.nullary main_c_10 (constantI S_ 32 0#32),
    StableHlo.unary main_c_10 main_v88 (broadcastInDim S640000 ![] bcast_S_S640000 : (⟨S_, .i32⟩ : BufTy).Contents (Elt F) → (⟨S640000, .i32⟩ : BufTy).Contents (Elt F)),
    StableHlo.binary main_v1 main_v88 main_v89 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 20000#32),
    StableHlo.unary main_c_11 main_v90 (broadcastInDim S640000 ![] bcast_S_S640000 : (⟨S_, .i32⟩ : BufTy).Contents (Elt F) → (⟨S640000, .i32⟩ : BufTy).Contents (Elt F)),
    StableHlo.binary main_v1 main_v90 main_v91 (addi : (⟨S640000, .i32⟩ : BufTy).Contents (Elt F) → (⟨S640000, .i32⟩ : BufTy).Contents (Elt F) → (⟨S640000, .i32⟩ : BufTy).Contents (Elt F)),
    StableHlo.ternary main_v89 main_v91 main_v1 main_v92 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v92 main_v93 (broadcastInDim S640000x1 ![0] bcast_S640000_S640000x1_0 : (⟨S640000, .i32⟩ : BufTy).Contents (Elt F) → (⟨S640000x1, .i32⟩ : BufTy).Contents (Elt F)),
    StableHlo.binary main_v87 main_v93 main_v94 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_cst_12 (constant S_ .f32 0x00000000#32),
    StableHlo.unary main_cst_12 main_v95 (broadcastInDim S20000x128 ![] bcast_S_S20000x128 : (⟨S_, .f32⟩ : BufTy).Contents (Elt F) → (⟨S20000x128, .f32⟩ : BufTy).Contents (Elt F)),
    StableHlo.unary main_v3 main_v96 (broadcastInDim S640000x1 ![0] bcast_S640000_S640000x1_0 : (⟨S640000, .i32⟩ : BufTy).Contents (Elt F) → (⟨S640000x1, .i32⟩ : BufTy).Contents (Elt F)),
    StableHlo.ternary main_v95 main_v96 main_v94 main_v97 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg11 main_v98 ((extractStridedSlice S1 ![1] · slices_S3_S1_1) : (⟨S3, .f32⟩ : BufTy).Contents (Elt F) → (⟨S1, .f32⟩ : BufTy).Contents (Elt F)),
    StableHlo.reshape main_v98 main_v99 rfl shapeCasts_S1_S_,
    StableHlo.nullary main_cst_13 (constant S_ .f32 0x3F800000#32),
    StableHlo.binary main_cst_13 main_v99 main_v100 (addf : (⟨S_, .f32⟩ : BufTy).Contents (Elt F) → (⟨S_, .f32⟩ : BufTy).Contents (Elt F) → (⟨S_, .f32⟩ : BufTy).Contents (Elt F)),
    StableHlo.unary main_v100 main_v101 (broadcastInDim S20000x128 ![] bcast_S_S20000x128 : (⟨S_, .f32⟩ : BufTy).Contents (Elt F) → (⟨S20000x128, .f32⟩ : BufTy).Contents (Elt F)),
    StableHlo.binary main_v101 main_v87 main_v102 (mulf : (⟨S20000x128, .f32⟩ : BufTy).Contents (Elt F) → (⟨S20000x128, .f32⟩ : BufTy).Contents (Elt F) → (⟨S20000x128, .f32⟩ : BufTy).Contents (Elt F)),
    StableHlo.binary main_v102 main_v97 main_v103 (addf : (⟨S20000x128, .f32⟩ : BufTy).Contents (Elt F) → (⟨S20000x128, .f32⟩ : BufTy).Contents (Elt F) → (⟨S20000x128, .f32⟩ : BufTy).Contents (Elt F)) ]

/-- The buffers those operations write, in order. -/
abbrev opsP1_W : List (Ref sig .tc) :=
  [main_v52, main_v53, main_v54, main_call1_cst, main_call1_v0, main_v55, main_v56, main_v57, main_v58, main_v59, main_v60, main_v61, main_v62, main_v63, main_v64, main_v65, main_v66, main_v67, main_cst_6, main_v68, main_cst_7, main_v69, main_v70, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v71, main_v72, main_v73, main_v74, main_v75, main_v76, main_v77, main_cst_9, main_v78, main_v79, main_v80, main_v81, main_v82, main_v83, main_v84, main_v85, main_v86, main_call3_cst, main_call3_v0, main_v87, main_c_10, main_v88, main_v89, main_c_11, main_v90, main_v91, main_v92, main_v93, main_v94, main_cst_12, main_v95, main_v96, main_v97, main_v98, main_v99, main_cst_13, main_v100, main_v101, main_v102, main_v103]

set_option maxRecDepth 8192 in
/-- `main_part1` is that straight line. -/
theorem main_part1_eq (c : Dev nD) : main_part1 (F := F) c = seq opsP1 := by
  simp only [main_part1, fn_relu.body, fn_var.body, fn_where.body, seq, bind_assoc, pure_bind]
  rfl

set_option maxRecDepth 8192 in
/-- Every operation of the line names TensorCore buffers only. -/
theorem opsP1_sub : (opsP1 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., reshape_bufs_sub .., nullary_bufs_sub .., binary_bufs_sub .., unary_bufs_sub .., binary_bufs_sub ..,
    binary_bufs_sub ..⟩

set_option maxRecDepth 8192 in
/-- No operation of the line allocates: each determines what it writes. -/
theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
/-- Every operation of the line writes a buffer of the list. -/
theorem opsP1_writes : (opsP1 : List (HloOp τ sig (Elt F))).Forall fun op =>
    op.writes ⊆ (opsP1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP1_keep (V : Valuation τ sig (Elt F)) (r : Ref sig .tc) (h : r ∉ opsP1_W) :
    after opsP1 V (Proc.devRef .tc r) = V (Proc.devRef .tc r) :=
  after_of_writes_sub opsP1 V opsP1_writes h

end Cert.ReferenceIdeal.RefRun

end
-- ==== Proof.Ref.OpsP2.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part2`, in order: 104 of them, each call's body in place of the call,
    read over that call's buffers. -/
abbrev opsP2 : List (HloOp τ sig (Elt F)) :=
  [ StableHlo.unary main_arg5 main_v104 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v104 main_v105 rfl shapeCasts_S1x128x128_S128x128,
    StableHlo.binary main_v103 main_v105 main_v106 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg6 main_v107 ((extractStridedSlice S1x128 ![1, 0] · slices_S3x128_S1x128_1_0) : (⟨S3x128, .f32⟩ : BufTy).Contents (Elt F) → (⟨S1x128, .f32⟩ : BufTy).Contents (Elt F)),
    StableHlo.reshape main_v107 main_v108 rfl shapeCasts_S1x128_S128,
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S20000x128 ![0, 1] bcast_S1x128_S20000x128_0_1 : (⟨S1x128, .f32⟩ : BufTy).Contents (Elt F) → (⟨S20000x128, .f32⟩ : BufTy).Contents (Elt F)),
    StableHlo.binary main_v106 main_v110 main_v111 (addf : (⟨S20000x128, .f32⟩ : BufTy).Contents (Elt F) → (⟨S20000x128, .f32⟩ : BufTy).Contents (Elt F) → (⟨S20000x128, .f32⟩ : BufTy).Contents (Elt F)),
    StableHlo.unary main_arg7 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_arg8 main_v114 ((extractStridedSlice S1x128 ![1, 0] · slices_S3x128_S1x128_1_0) : (⟨S3x128, .f32⟩ : BufTy).Contents (Elt F) → (⟨S1x128, .f32⟩ : BufTy).Contents (Elt F)),
    StableHlo.reshape main_v114 main_v115 rfl shapeCasts_S1x128_S128,
    StableHlo.nullary main_cst_14 (constant S_ .f32 0x00000000#32),
    StableHlo.binary main_v111 main_cst_14 main_v116 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_15 (constant S_ .f32 0x469C4000#32),
    StableHlo.unary main_cst_15 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary (.of main_v111) main_call4.cst main_call4.v0 (fun x v => Host.reduceAdd x v reducesTo_S20000x128_S128_d0 h_S_),
    StableHlo.TRef.unary main_call4.v0 main_call4.v1 (broadcastInDim S1x128 ![1] bcast_S128_S1x128_1),
    StableHlo.TRef.nullary main_call4.cst_0 (constant S_ .f32 0x469C4000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S20000x128 ![0, 1] bcast_S1x128_S20000x128_0_1),
    StableHlo.TRef.binary (.of main_v111) main_call4.v4 main_call4.v5 subf,
    StableHlo.TRef.binary main_call4.v5 main_call4.v5 main_call4.v6 mulf,
    StableHlo.TRef.unary (.of main_c_16) main_call4.v7 (sitofp .f32),
    StableHlo.TRef.nullary main_call4.cst_1 (constant S_ .f32 0x469C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S20000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S20000x128 ![0, 1] bcast_S1x128_S20000x128_0_1 : (⟨S1x128, .f32⟩ : BufTy).Contents (Elt F) → (⟨S20000x128, .f32⟩ : BufTy).Contents (Elt F)),
    StableHlo.binary main_v111 main_v121 main_v122 (subf : (⟨S20000x128, .f32⟩ : BufTy).Contents (Elt F) → (⟨S20000x128, .f32⟩ : BufTy).Contents (Elt F) → (⟨S20000x128, .f32⟩ : BufTy).Contents (Elt F)),
    StableHlo.unary main_v113 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S20000x128 ![0, 1] bcast_S1x128_S20000x128_0_1 : (⟨S1x128, .f32⟩ : BufTy).Contents (Elt F) → (⟨S20000x128, .f32⟩ : BufTy).Contents (Elt F)),
    StableHlo.binary main_v124 main_v122 main_v125 (mulf : (⟨S20000x128, .f32⟩ : BufTy).Contents (Elt F) → (⟨S20000x128, .f32⟩ : BufTy).Contents (Elt F) → (⟨S20000x128, .f32⟩ : BufTy).Contents (Elt F)),
    StableHlo.nullary main_cst_17 (constant S_ .f32 0x3727C5AC#32),
    StableHlo.unary main_cst_17 main_v126 (broadcastInDim S128 ![] bcast_S_S128 : (⟨S_, .f32⟩ : BufTy).Contents (Elt F) → (⟨S128, .f32⟩ : BufTy).Contents (Elt F)),
    StableHlo.binary main_v119 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S20000x128 ![0, 1] bcast_S1x128_S20000x128_0_1 : (⟨S1x128, .f32⟩ : BufTy).Contents (Elt F) → (⟨S20000x128, .f32⟩ : BufTy).Contents (Elt F)),
    StableHlo.binary main_v125 main_v130 main_v131 (mulf : (⟨S20000x128, .f32⟩ : BufTy).Contents (Elt F) → (⟨S20000x128, .f32⟩ : BufTy).Contents (Elt F) → (⟨S20000x128, .f32⟩ : BufTy).Contents (Elt F)),
    StableHlo.unary main_v115 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S20000x128 ![0, 1] bcast_S1x128_S20000x128_0_1 : (⟨S1x128, .f32⟩ : BufTy).Contents (Elt F) → (⟨S20000x128, .f32⟩ : BufTy).Contents (Elt F)),
    StableHlo.binary main_v131 main_v133 main_v134 (addf : (⟨S20000x128, .f32⟩ : BufTy).Contents (Elt F) → (⟨S20000x128, .f32⟩ : BufTy).Contents (Elt F) → (⟨S20000x128, .f32⟩ : BufTy).Contents (Elt F)),
    StableHlo.TRef.nullary main_call5.cst (constant S_ .f32 0x00000000#32),
    StableHlo.TRef.unary main_call5.cst main_call5.v0 (broadcastInDim S20000x128 ![] bcast_S_S20000x128),
    StableHlo.TRef.binary (.of main_v134) main_call5.v0 main_call5.v1 maximumf,
    StableHlo.unary main_arg9 main_v136 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v136 main_v137 rfl shapeCasts_S1x128x128_S128x128,
    StableHlo.binary main_v135 main_v137 main_v138 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg10 main_v139 ((extractStridedSlice S1x128 ![1, 0] · slices_S3x128_S1x128_1_0) : (⟨S3x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S20000x128 ![0, 1] bcast_S1x128_S20000x128_0_1 : (⟨S1x128, .f32⟩ : BufTy).Contents (Elt F) → (⟨S20000x128, .f32⟩ : BufTy).Contents (Elt F)),
    StableHlo.binary main_v138 main_v142 main_v143 (addf : (⟨S20000x128, .f32⟩ : BufTy).Contents (Elt F) → (⟨S20000x128, .f32⟩ : BufTy).Contents (Elt F) → (⟨S20000x128, .f32⟩ : BufTy).Contents (Elt F)),
    StableHlo.unary main_arg12 main_v144 ((extractStridedSlice S1x128 ![1, 0] · slices_S3x128_S1x128_1_0) : (⟨S3x128, .f32⟩ : BufTy).Contents (Elt F) → (⟨S1x128, .f32⟩ : BufTy).Contents (Elt F)),
    StableHlo.reshape main_v144 main_v145 rfl shapeCasts_S1x128_S128,
    StableHlo.unary main_arg13 main_v146 ((extractStridedSlice S1x128 ![1, 0] · slices_S3x128_S1x128_1_0) : (⟨S3x128, .f32⟩ : BufTy).Contents (Elt F) → (⟨S1x128, .f32⟩ : BufTy).Contents (Elt F)),
    StableHlo.reshape main_v146 main_v147 rfl shapeCasts_S1x128_S128,
    StableHlo.nullary main_cst_18 (constant S_ .f32 0x00000000#32),
    StableHlo.binary main_v143 main_cst_18 main_v148 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_19 (constant S_ .f32 0x469C4000#32),
    StableHlo.unary main_cst_19 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call6.cst (constant S_ .f32 0x00000000#32),
    StableHlo.TRef.binary (.of main_v143) main_call6.cst main_call6.v0 (fun x v => Host.reduceAdd x v reducesTo_S20000x128_S128_d0 h_S_),
    StableHlo.TRef.unary main_call6.v0 main_call6.v1 (broadcastInDim S1x128 ![1] bcast_S128_S1x128_1),
    StableHlo.TRef.nullary main_call6.cst_0 (constant S_ .f32 0x469C4000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S20000x128 ![0, 1] bcast_S1x128_S20000x128_0_1),
    StableHlo.TRef.binary (.of main_v143) main_call6.v4 main_call6.v5 subf,
    StableHlo.TRef.binary main_call6.v5 main_call6.v5 main_call6.v6 mulf,
    StableHlo.TRef.unary (.of main_c_20) main_call6.v7 (sitofp .f32),
    StableHlo.TRef.nullary main_call6.cst_1 (constant S_ .f32 0x469C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S20000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S20000x128 ![0, 1] bcast_S1x128_S20000x128_0_1 : (⟨S1x128, .f32⟩ : BufTy).Contents (Elt F) → (⟨S20000x128, .f32⟩ : BufTy).Contents (Elt F)),
    StableHlo.binary main_v143 main_v153 main_v154 (subf : (⟨S20000x128, .f32⟩ : BufTy).Contents (Elt F) → (⟨S20000x128, .f32⟩ : BufTy).Contents (Elt F) → (⟨S20000x128, .f32⟩ : BufTy).Contents (Elt F)),
    StableHlo.unary main_v145 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S20000x128 ![0, 1] bcast_S1x128_S20000x128_0_1 : (⟨S1x128, .f32⟩ : BufTy).Contents (Elt F) → (⟨S20000x128, .f32⟩ : BufTy).Contents (Elt F)) ]

/-- The buffers those operations write, in order. -/
abbrev opsP2_W : List (Ref sig .tc) :=
  [main_v104, main_v105, main_v106, main_v107, main_v108, main_v109, main_v110, main_v111, main_v112, main_v113, main_v114, main_v115, main_cst_14, main_v116, main_cst_15, main_v117, main_v118, main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v119, main_v120, main_v121, main_v122, main_v123, main_v124, main_v125, main_cst_17, main_v126, main_v127, main_v128, main_v129, main_v130, main_v131, main_v132, main_v133, main_v134, main_call5_cst, main_call5_v0, main_v135, main_v136, main_v137, main_v138, main_v139, main_v140, main_v141, main_v142, main_v143, main_v144, main_v145, main_v146, main_v147, main_cst_18, main_v148, main_cst_19, main_v149, main_v150, main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v151, main_v152, main_v153, main_v154, main_v155, main_v156]

set_option maxRecDepth 8192 in
/-- `main_part2` is that straight line. -/
theorem main_part2_eq (c : Dev nD) : main_part2 (F := F) c = seq opsP2 := by
  simp only [main_part2, fn_relu.body, fn_var.body, fn_where.body, seq, bind_assoc, pure_bind]
  rfl

set_option maxRecDepth 8192 in
/-- Every operation of the line names TensorCore buffers only. -/
theorem opsP2_sub : (opsP2 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub ..⟩

set_option maxRecDepth 8192 in
/-- No operation of the line allocates: each determines what it writes. -/
theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

set_option maxRecDepth 8192 in
/-- Every operation of the line writes a buffer of the list. -/
theorem opsP2_writes : (opsP2 : List (HloOp τ sig (Elt F))).Forall fun op =>
    op.writes ⊆ (opsP2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP2_keep (V : Valuation τ sig (Elt F)) (r : Ref sig .tc) (h : r ∉ opsP2_W) :
    after opsP2 V (Proc.devRef .tc r) = V (Proc.devRef .tc r) :=
  after_of_writes_sub opsP2 V opsP2_writes h

end Cert.ReferenceIdeal.RefRun

end
-- ==== Proof.Ref.OpsP3.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part3`, in order: 83 of them, each call's body in place of the call,
    read over that call's buffers. -/
abbrev opsP3 : List (HloOp τ sig (Elt F)) :=
  [ StableHlo.binary main_v156 main_v154 main_v157 (mulf : (⟨S20000x128, .f32⟩ : BufTy).Contents (Elt F) → (⟨S20000x128, .f32⟩ : BufTy).Contents (Elt F) → (⟨S20000x128, .f32⟩ : BufTy).Contents (Elt F)),
    StableHlo.nullary main_cst_21 (constant S_ .f32 0x3727C5AC#32),
    StableHlo.unary main_cst_21 main_v158 (broadcastInDim S128 ![] bcast_S_S128 : (⟨S_, .f32⟩ : BufTy).Contents (Elt F) → (⟨S128, .f32⟩ : BufTy).Contents (Elt F)),
    StableHlo.binary main_v151 main_v158 main_v159 (addf : (⟨S128, .f32⟩ : BufTy).Contents (Elt F) → (⟨S128, .f32⟩ : BufTy).Contents (Elt F) → (⟨S128, .f32⟩ : BufTy).Contents (Elt F)),
    StableHlo.unary main_v159 main_v160 (Host.rsqrt : (⟨S128, .f32⟩ : BufTy).Contents (Elt F) → (⟨S128, .f32⟩ : BufTy).Contents (Elt F)),
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S20000x128 ![0, 1] bcast_S1x128_S20000x128_0_1 : (⟨S1x128, .f32⟩ : BufTy).Contents (Elt F) → (⟨S20000x128, .f32⟩ : BufTy).Contents (Elt F)),
    StableHlo.binary main_v157 main_v162 main_v163 (mulf : (⟨S20000x128, .f32⟩ : BufTy).Contents (Elt F) → (⟨S20000x128, .f32⟩ : BufTy).Contents (Elt F) → (⟨S20000x128, .f32⟩ : BufTy).Contents (Elt F)),
    StableHlo.unary main_v147 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S20000x128 ![0, 1] bcast_S1x128_S20000x128_0_1 : (⟨S1x128, .f32⟩ : BufTy).Contents (Elt F) → (⟨S20000x128, .f32⟩ : BufTy).Contents (Elt F)),
    StableHlo.binary main_v163 main_v165 main_v166 (addf : (⟨S20000x128, .f32⟩ : BufTy).Contents (Elt F) → (⟨S20000x128, .f32⟩ : BufTy).Contents (Elt F) → (⟨S20000x128, .f32⟩ : BufTy).Contents (Elt F)),
    StableHlo.TRef.nullary main_call7.cst (constant S_ .f32 0x00000000#32),
    StableHlo.TRef.unary main_call7.cst main_call7.v0 (broadcastInDim S20000x128 ![] bcast_S_S20000x128),
    StableHlo.TRef.binary (.of main_v166) main_call7.v0 main_call7.v1 maximumf,
    StableHlo.nullary main_c_22 (constantI S_ 32 0#32),
    StableHlo.unary main_c_22 main_v168 (broadcastInDim S640000 ![] bcast_S_S640000 : (⟨S_, .i32⟩ : BufTy).Contents (Elt F) → (⟨S640000, .i32⟩ : BufTy).Contents (Elt F)),
    StableHlo.binary main_v1 main_v168 main_v169 (cmpi .slt : (⟨S640000, .i32⟩ : BufTy).Contents (Elt F) → (⟨S640000, .i32⟩ : BufTy).Contents (Elt F) → (⟨S640000, .i1⟩ : BufTy).Contents (Elt F)),
    StableHlo.nullary main_c_23 (constantI S_ 32 20000#32),
    StableHlo.unary main_c_23 main_v170 (broadcastInDim S640000 ![] bcast_S_S640000 : (⟨S_, .i32⟩ : BufTy).Contents (Elt F) → (⟨S640000, .i32⟩ : BufTy).Contents (Elt F)),
    StableHlo.binary main_v1 main_v170 main_v171 (addi : (⟨S640000, .i32⟩ : BufTy).Contents (Elt F) → (⟨S640000, .i32⟩ : BufTy).Contents (Elt F) → (⟨S640000, .i32⟩ : BufTy).Contents (Elt F)),
    StableHlo.ternary main_v169 main_v171 main_v1 main_v172 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v172 main_v173 (broadcastInDim S640000x1 ![0] bcast_S640000_S640000x1_0 : (⟨S640000, .i32⟩ : BufTy).Contents (Elt F) → (⟨S640000x1, .i32⟩ : BufTy).Contents (Elt F)),
    StableHlo.binary main_v167 main_v173 main_v174 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_cst_24 (constant S_ .f32 0x00000000#32),
    StableHlo.unary main_cst_24 main_v175 (broadcastInDim S20000x128 ![] bcast_S_S20000x128 : (⟨S_, .f32⟩ : BufTy).Contents (Elt F) → (⟨S20000x128, .f32⟩ : BufTy).Contents (Elt F)),
    StableHlo.unary main_v3 main_v176 (broadcastInDim S640000x1 ![0] bcast_S640000_S640000x1_0 : (⟨S640000, .i32⟩ : BufTy).Contents (Elt F) → (⟨S640000x1, .i32⟩ : BufTy).Contents (Elt F)),
    StableHlo.ternary main_v175 main_v176 main_v174 main_v177 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg11 main_v178 ((extractStridedSlice S1 ![2] · slices_S3_S1_2) : (⟨S3, .f32⟩ : BufTy).Contents (Elt F) → (⟨S1, .f32⟩ : BufTy).Contents (Elt F)),
    StableHlo.reshape main_v178 main_v179 rfl shapeCasts_S1_S_,
    StableHlo.nullary main_cst_25 (constant S_ .f32 0x3F800000#32),
    StableHlo.binary main_cst_25 main_v179 main_v180 (addf : (⟨S_, .f32⟩ : BufTy).Contents (Elt F) → (⟨S_, .f32⟩ : BufTy).Contents (Elt F) → (⟨S_, .f32⟩ : BufTy).Contents (Elt F)),
    StableHlo.unary main_v180 main_v181 (broadcastInDim S20000x128 ![] bcast_S_S20000x128 : (⟨S_, .f32⟩ : BufTy).Contents (Elt F) → (⟨S20000x128, .f32⟩ : BufTy).Contents (Elt F)),
    StableHlo.binary main_v181 main_v167 main_v182 (mulf : (⟨S20000x128, .f32⟩ : BufTy).Contents (Elt F) → (⟨S20000x128, .f32⟩ : BufTy).Contents (Elt F) → (⟨S20000x128, .f32⟩ : BufTy).Contents (Elt F)),
    StableHlo.binary main_v182 main_v177 main_v183 (addf : (⟨S20000x128, .f32⟩ : BufTy).Contents (Elt F) → (⟨S20000x128, .f32⟩ : BufTy).Contents (Elt F) → (⟨S20000x128, .f32⟩ : BufTy).Contents (Elt F)),
    StableHlo.unary main_arg5 main_v184 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v184 main_v185 rfl shapeCasts_S1x128x128_S128x128,
    StableHlo.binary main_v183 main_v185 main_v186 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg6 main_v187 ((extractStridedSlice S1x128 ![2, 0] · slices_S3x128_S1x128_2_0) : (⟨S3x128, .f32⟩ : BufTy).Contents (Elt F) → (⟨S1x128, .f32⟩ : BufTy).Contents (Elt F)),
    StableHlo.reshape main_v187 main_v188 rfl shapeCasts_S1x128_S128,
    StableHlo.unary main_v188 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S20000x128 ![0, 1] bcast_S1x128_S20000x128_0_1 : (⟨S1x128, .f32⟩ : BufTy).Contents (Elt F) → (⟨S20000x128, .f32⟩ : BufTy).Contents (Elt F)),
    StableHlo.binary main_v186 main_v190 main_v191 (addf : (⟨S20000x128, .f32⟩ : BufTy).Contents (Elt F) → (⟨S20000x128, .f32⟩ : BufTy).Contents (Elt F) → (⟨S20000x128, .f32⟩ : BufTy).Contents (Elt F)),
    StableHlo.unary main_arg7 main_v192 ((extractStridedSlice S1x128 ![2, 0] · slices_S3x128_S1x128_2_0) : (⟨S3x128, .f32⟩ : BufTy).Contents (Elt F) → (⟨S1x128, .f32⟩ : BufTy).Contents (Elt F)),
    StableHlo.reshape main_v192 main_v193 rfl shapeCasts_S1x128_S128,
    StableHlo.unary main_arg8 main_v194 ((extractStridedSlice S1x128 ![2, 0] · slices_S3x128_S1x128_2_0) : (⟨S3x128, .f32⟩ : BufTy).Contents (Elt F) → (⟨S1x128, .f32⟩ : BufTy).Contents (Elt F)),
    StableHlo.reshape main_v194 main_v195 rfl shapeCasts_S1x128_S128,
    StableHlo.nullary main_cst_26 (constant S_ .f32 0x00000000#32),
    StableHlo.binary main_v191 main_cst_26 main_v196 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_27 (constant S_ .f32 0x469C4000#32),
    StableHlo.unary main_cst_27 main_v197 (broadcastInDim S128 ![] bcast_S_S128 : (⟨S_, .f32⟩ : BufTy).Contents (Elt F) → (⟨S128, .f32⟩ : BufTy).Contents (Elt F)),
    StableHlo.binary main_v196 main_v197 main_v198 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call8.cst (constant S_ .f32 0x00000000#32),
    StableHlo.TRef.binary (.of main_v191) main_call8.cst main_call8.v0 (fun x v => Host.reduceAdd x v reducesTo_S20000x128_S128_d0 h_S_),
    StableHlo.TRef.unary main_call8.v0 main_call8.v1 (broadcastInDim S1x128 ![1] bcast_S128_S1x128_1),
    StableHlo.TRef.nullary main_call8.cst_0 (constant S_ .f32 0x469C4000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S20000x128 ![0, 1] bcast_S1x128_S20000x128_0_1),
    StableHlo.TRef.binary (.of main_v191) main_call8.v4 main_call8.v5 subf,
    StableHlo.TRef.binary main_call8.v5 main_call8.v5 main_call8.v6 mulf,
    StableHlo.TRef.unary (.of main_c_28) main_call8.v7 (sitofp .f32),
    StableHlo.TRef.nullary main_call8.cst_1 (constant S_ .f32 0x469C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S20000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v198 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S20000x128 ![0, 1] bcast_S1x128_S20000x128_0_1 : (⟨S1x128, .f32⟩ : BufTy).Contents (Elt F) → (⟨S20000x128, .f32⟩ : BufTy).Contents (Elt F)),
    StableHlo.binary main_v191 main_v201 main_v202 (subf : (⟨S20000x128, .f32⟩ : BufTy).Contents (Elt F) → (⟨S20000x128, .f32⟩ : BufTy).Contents (Elt F) → (⟨S20000x128, .f32⟩ : BufTy).Contents (Elt F)),
    StableHlo.unary main_v193 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S20000x128 ![0, 1] bcast_S1x128_S20000x128_0_1 : (⟨S1x128, .f32⟩ : BufTy).Contents (Elt F) → (⟨S20000x128, .f32⟩ : BufTy).Contents (Elt F)),
    StableHlo.binary main_v204 main_v202 main_v205 (mulf : (⟨S20000x128, .f32⟩ : BufTy).Contents (Elt F) → (⟨S20000x128, .f32⟩ : BufTy).Contents (Elt F) → (⟨S20000x128, .f32⟩ : BufTy).Contents (Elt F)),
    StableHlo.nullary main_cst_29 (constant S_ .f32 0x3727C5AC#32),
    StableHlo.unary main_cst_29 main_v206 (broadcastInDim S128 ![] bcast_S_S128 : (⟨S_, .f32⟩ : BufTy).Contents (Elt F) → (⟨S128, .f32⟩ : BufTy).Contents (Elt F)),
    StableHlo.binary main_v199 main_v206 main_v207 (addf : (⟨S128, .f32⟩ : BufTy).Contents (Elt F) → (⟨S128, .f32⟩ : BufTy).Contents (Elt F) → (⟨S128, .f32⟩ : BufTy).Contents (Elt F)) ]

/-- The buffers those operations write, in order. -/
abbrev opsP3_W : List (Ref sig .tc) :=
  [main_v157, main_cst_21, main_v158, main_v159, main_v160, main_v161, main_v162, main_v163, main_v164, main_v165, main_v166, main_call7_cst, main_call7_v0, main_v167, main_c_22, main_v168, main_v169, main_c_23, main_v170, main_v171, main_v172, main_v173, main_v174, main_cst_24, main_v175, main_v176, main_v177, main_v178, main_v179, main_cst_25, main_v180, main_v181, main_v182, main_v183, main_v184, main_v185, main_v186, main_v187, main_v188, main_v189, main_v190, main_v191, main_v192, main_v193, main_v194, main_v195, main_cst_26, main_v196, main_cst_27, main_v197, main_v198, main_c_28, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v199, main_v200, main_v201, main_v202, main_v203, main_v204, main_v205, main_cst_29, main_v206, main_v207]

set_option maxRecDepth 8192 in
/-- `main_part3` is that straight line. -/
theorem main_part3_eq (c : Dev nD) : main_part3 (F := F) c = seq opsP3 := by
  simp only [main_part3, fn_relu.body, fn_var.body, fn_where.body, seq, bind_assoc, pure_bind]
  rfl

set_option maxRecDepth 8192 in
/-- Every operation of the line names TensorCore buffers only. -/
theorem opsP3_sub : (opsP3 : List (HloOp τ sig (Elt F))).Forall fun op => op.bufs ⊆ tcRefs τ sig :=
  ⟨binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., reshape_bufs_sub .., nullary_bufs_sub ..,
    binary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub ..⟩

set_option maxRecDepth 8192 in
/-- No operation of the line allocates: each determines what it writes. -/
theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
/-- Every operation of the line writes a buffer of the list. -/
theorem opsP3_writes : (opsP3 : List (HloOp τ sig (Elt F))).Forall fun op =>
    op.writes ⊆ (opsP3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP3_keep (V : Valuation τ sig (Elt F)) (r : Ref sig .tc) (h : r ∉ opsP3_W) :
    after opsP3 V (Proc.devRef .tc r) = V (Proc.devRef .tc r) :=
  after_of_writes_sub opsP3 V opsP3_writes h

end Cert.ReferenceIdeal.RefRun

end
-- ==== Proof.Ref.OpsP4.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part4`, in order: 85 of them, each call's body in place of the call,
    read over that call's buffers. -/
abbrev opsP4 : List (HloOp τ sig (Elt F)) :=
  [ StableHlo.unary main_v207 main_v208 (Host.rsqrt : (⟨S128, .f32⟩ : BufTy).Contents (Elt F) → (⟨S128, .f32⟩ : BufTy).Contents (Elt F)),
    StableHlo.unary main_v208 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S20000x128 ![0, 1] bcast_S1x128_S20000x128_0_1 : (⟨S1x128, .f32⟩ : BufTy).Contents (Elt F) → (⟨S20000x128, .f32⟩ : BufTy).Contents (Elt F)),
    StableHlo.binary main_v205 main_v210 main_v211 (mulf : (⟨S20000x128, .f32⟩ : BufTy).Contents (Elt F) → (⟨S20000x128, .f32⟩ : BufTy).Contents (Elt F) → (⟨S20000x128, .f32⟩ : BufTy).Contents (Elt F)),
    StableHlo.unary main_v195 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S20000x128 ![0, 1] bcast_S1x128_S20000x128_0_1 : (⟨S1x128, .f32⟩ : BufTy).Contents (Elt F) → (⟨S20000x128, .f32⟩ : BufTy).Contents (Elt F)),
    StableHlo.binary main_v211 main_v213 main_v214 (addf : (⟨S20000x128, .f32⟩ : BufTy).Contents (Elt F) → (⟨S20000x128, .f32⟩ : BufTy).Contents (Elt F) → (⟨S20000x128, .f32⟩ : BufTy).Contents (Elt F)),
    StableHlo.TRef.nullary main_call9.cst (constant S_ .f32 0x00000000#32),
    StableHlo.TRef.unary main_call9.cst main_call9.v0 (broadcastInDim S20000x128 ![] bcast_S_S20000x128),
    StableHlo.TRef.binary (.of main_v214) main_call9.v0 main_call9.v1 maximumf,
    StableHlo.unary main_arg9 main_v216 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v216 main_v217 rfl shapeCasts_S1x128x128_S128x128,
    StableHlo.binary main_v215 main_v217 main_v218 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg10 main_v219 ((extractStridedSlice S1x128 ![2, 0] · slices_S3x128_S1x128_2_0) : (⟨S3x128, .f32⟩ : BufTy).Contents (Elt F) → (⟨S1x128, .f32⟩ : BufTy).Contents (Elt F)),
    StableHlo.reshape main_v219 main_v220 rfl shapeCasts_S1x128_S128,
    StableHlo.unary main_v220 main_v221 (broadcastInDim S1x128 ![1] bcast_S128_S1x128_1 : (⟨S128, .f32⟩ : BufTy).Contents (Elt F) → (⟨S1x128, .f32⟩ : BufTy).Contents (Elt F)),
    StableHlo.unary main_v221 main_v222 (broadcastInDim S20000x128 ![0, 1] bcast_S1x128_S20000x128_0_1 : (⟨S1x128, .f32⟩ : BufTy).Contents (Elt F) → (⟨S20000x128, .f32⟩ : BufTy).Contents (Elt F)),
    StableHlo.binary main_v218 main_v222 main_v223 (addf : (⟨S20000x128, .f32⟩ : BufTy).Contents (Elt F) → (⟨S20000x128, .f32⟩ : BufTy).Contents (Elt F) → (⟨S20000x128, .f32⟩ : BufTy).Contents (Elt F)),
    StableHlo.unary main_arg12 main_v224 ((extractStridedSlice S1x128 ![2, 0] · slices_S3x128_S1x128_2_0) : (⟨S3x128, .f32⟩ : BufTy).Contents (Elt F) → (⟨S1x128, .f32⟩ : BufTy).Contents (Elt F)),
    StableHlo.reshape main_v224 main_v225 rfl shapeCasts_S1x128_S128,
    StableHlo.unary main_arg13 main_v226 ((extractStridedSlice S1x128 ![2, 0] · slices_S3x128_S1x128_2_0) : (⟨S3x128, .f32⟩ : BufTy).Contents (Elt F) → (⟨S1x128, .f32⟩ : BufTy).Contents (Elt F)),
    StableHlo.reshape main_v226 main_v227 rfl shapeCasts_S1x128_S128,
    StableHlo.nullary main_cst_30 (constant S_ .f32 0x00000000#32),
    StableHlo.binary main_v223 main_cst_30 main_v228 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_31 (constant S_ .f32 0x469C4000#32),
    StableHlo.unary main_cst_31 main_v229 (broadcastInDim S128 ![] bcast_S_S128 : (⟨S_, .f32⟩ : BufTy).Contents (Elt F) → (⟨S128, .f32⟩ : BufTy).Contents (Elt F)),
    StableHlo.binary main_v228 main_v229 main_v230 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call10.cst (constant S_ .f32 0x00000000#32),
    StableHlo.TRef.binary (.of main_v223) main_call10.cst main_call10.v0 (fun x v => Host.reduceAdd x v reducesTo_S20000x128_S128_d0 h_S_),
    StableHlo.TRef.unary main_call10.v0 main_call10.v1 (broadcastInDim S1x128 ![1] bcast_S128_S1x128_1),
    StableHlo.TRef.nullary main_call10.cst_0 (constant S_ .f32 0x469C4000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S20000x128 ![0, 1] bcast_S1x128_S20000x128_0_1),
    StableHlo.TRef.binary (.of main_v223) main_call10.v4 main_call10.v5 subf,
    StableHlo.TRef.binary main_call10.v5 main_call10.v5 main_call10.v6 mulf,
    StableHlo.TRef.unary (.of main_c_32) main_call10.v7 (sitofp .f32),
    StableHlo.TRef.nullary main_call10.cst_1 (constant S_ .f32 0x469C4000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S20000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v230 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S20000x128 ![0, 1] bcast_S1x128_S20000x128_0_1 : (⟨S1x128, .f32⟩ : BufTy).Contents (Elt F) → (⟨S20000x128, .f32⟩ : BufTy).Contents (Elt F)),
    StableHlo.binary main_v223 main_v233 main_v234 (subf : (⟨S20000x128, .f32⟩ : BufTy).Contents (Elt F) → (⟨S20000x128, .f32⟩ : BufTy).Contents (Elt F) → (⟨S20000x128, .f32⟩ : BufTy).Contents (Elt F)),
    StableHlo.unary main_v225 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S20000x128 ![0, 1] bcast_S1x128_S20000x128_0_1 : (⟨S1x128, .f32⟩ : BufTy).Contents (Elt F) → (⟨S20000x128, .f32⟩ : BufTy).Contents (Elt F)),
    StableHlo.binary main_v236 main_v234 main_v237 (mulf : (⟨S20000x128, .f32⟩ : BufTy).Contents (Elt F) → (⟨S20000x128, .f32⟩ : BufTy).Contents (Elt F) → (⟨S20000x128, .f32⟩ : BufTy).Contents (Elt F)),
    StableHlo.nullary main_cst_33 (constant S_ .f32 0x3727C5AC#32),
    StableHlo.unary main_cst_33 main_v238 (broadcastInDim S128 ![] bcast_S_S128 : (⟨S_, .f32⟩ : BufTy).Contents (Elt F) → (⟨S128, .f32⟩ : BufTy).Contents (Elt F)),
    StableHlo.binary main_v231 main_v238 main_v239 (addf : (⟨S128, .f32⟩ : BufTy).Contents (Elt F) → (⟨S128, .f32⟩ : BufTy).Contents (Elt F) → (⟨S128, .f32⟩ : BufTy).Contents (Elt F)),
    StableHlo.unary main_v239 main_v240 (Host.rsqrt : (⟨S128, .f32⟩ : BufTy).Contents (Elt F) → (⟨S128, .f32⟩ : BufTy).Contents (Elt F)),
    StableHlo.unary main_v240 main_v241 (broadcastInDim S1x128 ![1] bcast_S128_S1x128_1 : (⟨S128, .f32⟩ : BufTy).Contents (Elt F) → (⟨S1x128, .f32⟩ : BufTy).Contents (Elt F)),
    StableHlo.unary main_v241 main_v242 (broadcastInDim S20000x128 ![0, 1] bcast_S1x128_S20000x128_0_1 : (⟨S1x128, .f32⟩ : BufTy).Contents (Elt F) → (⟨S20000x128, .f32⟩ : BufTy).Contents (Elt F)),
    StableHlo.binary main_v237 main_v242 main_v243 (mulf : (⟨S20000x128, .f32⟩ : BufTy).Contents (Elt F) → (⟨S20000x128, .f32⟩ : BufTy).Contents (Elt F) → (⟨S20000x128, .f32⟩ : BufTy).Contents (Elt F)),
    StableHlo.unary main_v227 main_v244 (broadcastInDim S1x128 ![1] bcast_S128_S1x128_1 : (⟨S128, .f32⟩ : BufTy).Contents (Elt F) → (⟨S1x128, .f32⟩ : BufTy).Contents (Elt F)),
    StableHlo.unary main_v244 main_v245 (broadcastInDim S20000x128 ![0, 1] bcast_S1x128_S20000x128_0_1 : (⟨S1x128, .f32⟩ : BufTy).Contents (Elt F) → (⟨S20000x128, .f32⟩ : BufTy).Contents (Elt F)),
    StableHlo.binary main_v243 main_v245 main_v246 (addf : (⟨S20000x128, .f32⟩ : BufTy).Contents (Elt F) → (⟨S20000x128, .f32⟩ : BufTy).Contents (Elt F) → (⟨S20000x128, .f32⟩ : BufTy).Contents (Elt F)),
    StableHlo.TRef.nullary main_call11.cst (constant S_ .f32 0x00000000#32),
    StableHlo.TRef.unary main_call11.cst main_call11.v0 (broadcastInDim S20000x128 ![] bcast_S_S20000x128),
    StableHlo.TRef.binary (.of main_v246) main_call11.v0 main_call11.v1 maximumf,
    StableHlo.nullary main_cst_34 (constant S_ .f32 0x00000000#32),
    StableHlo.unary main_cst_34 main_v248 (broadcastInDim S128x128 ![] bcast_S_S128x128 : (⟨S_, .f32⟩ : BufTy).Contents (Elt F) → (⟨S128x128, .f32⟩ : BufTy).Contents (Elt F)),
    StableHlo.unary main_arg2 main_v249 (broadcastInDim S20000x1 ![0] bcast_S20000_S20000x1_0 : (⟨S20000, .i32⟩ : BufTy).Contents (Elt F) → (⟨S20000x1, .i32⟩ : BufTy).Contents (Elt F)),
    StableHlo.ternary main_v248 main_v249 main_v247 main_v250 ((fun x i u => Host.scatterAdd scatter_S128x128_S20000x1_S20000x128_1_0_0_1 x i u) : (⟨S128x128, .f32⟩ : BufTy).Contents (Elt F) → (⟨S20000x1, .i32⟩ : BufTy).Contents (Elt F) → (⟨S20000x128, .f32⟩ : BufTy).Contents (Elt F) → (⟨S128x128, .f32⟩ : BufTy).Contents (Elt F)),
    StableHlo.nullary main_cst_35 (constant S_ .f32 0x3F800000#32),
    StableHlo.unary main_cst_35 main_v251 (broadcastInDim S20000 ![] bcast_S_S20000 : (⟨S_, .f32⟩ : BufTy).Contents (Elt F) → (⟨S20000, .f32⟩ : BufTy).Contents (Elt F)),
    StableHlo.nullary main_cst_36 (constant S_ .f32 0x00000000#32),
    StableHlo.unary main_cst_36 main_v252 (broadcastInDim S128 ![] bcast_S_S128 : (⟨S_, .f32⟩ : BufTy).Contents (Elt F) → (⟨S128, .f32⟩ : BufTy).Contents (Elt F)),
    StableHlo.unary main_arg2 main_v253 (broadcastInDim S20000x1 ![0] bcast_S20000_S20000x1_0 : (⟨S20000, .i32⟩ : BufTy).Contents (Elt F) → (⟨S20000x1, .i32⟩ : BufTy).Contents (Elt F)),
    StableHlo.ternary main_v252 main_v253 main_v251 main_v254 ((fun x i u => Host.scatterAdd scatter_S128_S20000x1_S20000_n_0_0_1 x i u) : (⟨S128, .f32⟩ : BufTy).Contents (Elt F) → (⟨S20000x1, .i32⟩ : BufTy).Contents (Elt F) → (⟨S20000, .f32⟩ : BufTy).Contents (Elt F) → (⟨S128, .f32⟩ : BufTy).Contents (Elt F)),
    StableHlo.nullary main_cst_37 (constant S_ .f32 0x3F800000#32),
    StableHlo.unary main_cst_37 main_v255 (broadcastInDim S128 ![] bcast_S_S128 : (⟨S_, .f32⟩ : BufTy).Contents (Elt F) → (⟨S128, .f32⟩ : BufTy).Contents (Elt F)),
    StableHlo.binary main_v254 main_v255 main_v256 (maximumf : (⟨S128, .f32⟩ : BufTy).Contents (Elt F) → (⟨S128, .f32⟩ : BufTy).Contents (Elt F) → (⟨S128, .f32⟩ : BufTy).Contents (Elt F)),
    StableHlo.unary main_v256 main_v257 (broadcastInDim S128x1 ![0] bcast_S128_S128x1_0 : (⟨S128, .f32⟩ : BufTy).Contents (Elt F) → (⟨S128x1, .f32⟩ : BufTy).Contents (Elt F)),
    StableHlo.unary main_v257 main_v258 (broadcastInDim S128x128 ![0, 1] bcast_S128x1_S128x128_0_1 : (⟨S128x1, .f32⟩ : BufTy).Contents (Elt F) → (⟨S128x128, .f32⟩ : BufTy).Contents (Elt F)),
    StableHlo.binary main_v250 main_v258 main_v259 (Host.divf : (⟨S128x128, .f32⟩ : BufTy).Contents (Elt F) → (⟨S128x128, .f32⟩ : BufTy).Contents (Elt F) → (⟨S128x128, .f32⟩ : BufTy).Contents (Elt F)) ]

/-- The buffers those operations write, in order. -/
abbrev opsP4_W : List (Ref sig .tc) :=
  [main_v208, main_v209, main_v210, main_v211, main_v212, main_v213, main_v214, main_call9_cst, main_call9_v0, main_v215, main_v216, main_v217, main_v218, main_v219, main_v220, main_v221, main_v222, main_v223, main_v224, main_v225, main_v226, main_v227, main_cst_30, main_v228, main_cst_31, main_v229, main_v230, main_c_32, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v231, main_v232, main_v233, main_v234, main_v235, main_v236, main_v237, main_cst_33, main_v238, main_v239, main_v240, main_v241, main_v242, main_v243, main_v244, main_v245, main_v246, main_call11_cst, main_call11_v0, main_v247, main_cst_34, main_v248, main_v249, main_v250, main_cst_35, main_v251, main_cst_36, main_v252, main_v253, main_v254, main_cst_37, main_v255, main_v256, main_v257, main_v258, main_v259]

set_option maxRecDepth 8192 in
/-- `main_part4` is that straight line. -/
theorem main_part4_eq (c : Dev nD) : main_part4 (F := F) c = seq opsP4 := by
  simp only [main_part4, fn_relu.body, fn_var.body, fn_where.body, seq, bind_assoc, pure_bind]
  rfl

set_option maxRecDepth 8192 in
/-- Every operation of the line names TensorCore buffers only. -/
theorem opsP4_sub : (opsP4 : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

set_option maxRecDepth 8192 in
/-- No operation of the line allocates: each determines what it writes. -/
theorem opsP4_fresh : (opsP4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

set_option maxRecDepth 8192 in
/-- Every operation of the line writes a buffer of the list. -/
theorem opsP4_writes : (opsP4 : List (HloOp τ sig (Elt F))).Forall fun op =>
    op.writes ⊆ (opsP4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP4_keep (V : Valuation τ sig (Elt F)) (r : Ref sig .tc) (h : r ∉ opsP4_W) :
    after opsP4 V (Proc.devRef .tc r) = V (Proc.devRef .tc r) :=
  after_of_writes_sub opsP4 V opsP4_writes h

end Cert.ReferenceIdeal.RefRun

end
-- ==== Proof.Ref.OpsP5.lean ====
import proofs.«411025_j54640573939922_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of `main_part5`, in order: 4 of them, each call's body in place of the call,
    read over that call's buffers. -/
abbrev opsP5 : List (HloOp τ sig (Elt F)) :=
  [ StableHlo.binary main_v259 main_arg14 main_v260 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg15 main_v261 (broadcastInDim S1x2 ![1] bcast_S2_S1x2_1 : (⟨S2, .f32⟩ : BufTy).Contents (Elt F) → (⟨S1x2, .f32⟩ : BufTy).Contents (Elt F)),
    StableHlo.unary main_v261 main_v262 (broadcastInDim S128x2 ![0, 1] bcast_S1x2_S128x2_0_1 : (⟨S1x2, .f32⟩ : BufTy).Contents (Elt F) → (⟨S128x2, .f32⟩ : BufTy).Contents (Elt F)),
    StableHlo.binary main_v260 main_v262 main_v263 (addf : (⟨S128x2, .f32⟩ : BufTy).Contents (Elt F) → (⟨S128x2, .f32⟩ : BufTy).Contents (Elt F) → (⟨S128x2, .f32⟩ : BufTy).Contents (Elt F)) ]

/-- The buffers those operations write, in order. -/
abbrev opsP5_W : List (Ref sig .tc) :=
  [main_v260, main_v261, main_v262, main_v263]

set_option maxRecDepth 8192 in
/-- `main_part5` is that straight line. -/
theorem main_part5_eq (c : Dev nD) : main_part5 (F := F) c = seq opsP5 := rfl

set_option maxRecDepth 8192 in
/-- Every operation of the line names TensorCore buffers only. -/
theorem opsP5_sub : (opsP5 : List (HloOp τ sig (Elt F))).Forall fun op => op.bufs ⊆ tcRefs τ sig :=
  ⟨binary_bufs_sub .., unary_bufs_sub .., unary_bufs_sub .., binary_bufs_sub ..⟩

set_option maxRecDepth 8192 in
/-- No operation of the line allocates: each determines what it writes. -/
theorem opsP5_fresh : (opsP5 : List (HloOp τ sig (Elt F))).Forall fun op => op.fresh = ∅ :=
  ⟨rfl, rfl, rfl, rfl⟩

set_option maxRecDepth 8192 in
/-- Every operation of the line writes a buffer of the list. -/
theorem opsP5_writes : (opsP5 : List (HloOp τ sig (Elt F))).Forall fun op =>
    op.writes ⊆ (opsP5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the line does not write keeps its contents through it. -/
theorem opsP5_keep (V : Valuation τ sig (Elt F)) (r : Ref sig .tc) (h : r ∉ opsP5_W) :
    after opsP5 V (Proc.devRef .tc r) = V (Proc.devRef .tc r) :=
  after_of_writes_sub opsP5 V opsP5_writes h

end Cert.ReferenceIdeal.RefRun

end
-- ==== Proof.Ref.Ops.lean ====
import proofs.«411025_j54640573939922_1_alg».proof.Proof.Ref.OpsP0
import proofs.«411025_j54640573939922_1_alg».proof.Proof.Ref.OpsP1
import proofs.«411025_j54640573939922_1_alg».proof.Proof.Ref.OpsP2
import proofs.«411025_j54640573939922_1_alg».proof.Proof.Ref.OpsP3
import proofs.«411025_j54640573939922_1_alg».proof.Proof.Ref.OpsP4
import proofs.«411025_j54640573939922_1_alg».proof.Proof.Ref.OpsP5
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order, every call's body in place of the call: the six windows' lines one
    after another. -/
abbrev ops : List (HloOp τ sig (Elt F)) := opsP0 ++ opsP1 ++ opsP2 ++ opsP3 ++ opsP4 ++ opsP5

/-- An operation of the whole line lies in one of the six windows. -/
theorem mem_ops {op : HloOp τ sig (Elt F)} (h : op ∈ (ops : List (HloOp τ sig (Elt F)))) :
    op ∈ (opsP0 : List (HloOp τ sig (Elt F))) ∨ op ∈ (opsP1 : List (HloOp τ sig (Elt F))) ∨ op ∈ (opsP2 : List (HloOp τ sig (Elt F)))
      ∨ op ∈ (opsP3 : List (HloOp τ sig (Elt F))) ∨ op ∈ (opsP4 : List (HloOp τ sig (Elt F))) ∨ op ∈ (opsP5 : List (HloOp τ sig (Elt F))) := by
  rcases List.mem_append.mp h with h | h5
  · rcases List.mem_append.mp h with h | h4
    · rcases List.mem_append.mp h with h | h3
      · rcases List.mem_append.mp h with h | h2
        · rcases List.mem_append.mp h with h0 | h1
          · exact .inl h0
          · exact .inr (.inl h1)
        · exact .inr (.inr (.inl h2))
      · exact .inr (.inr (.inr (.inl h3)))
    · exact .inr (.inr (.inr (.inr (.inl h4))))
  · exact .inr (.inr (.inr (.inr (.inr h5))))

/-- @main is that straight line: each window is its own line, and lines run one after another are their
    concatenation run as one (sequencing reassociated). -/
theorem main_eq (c : Dev nD) : main (F := F) c = seq ops := by
  simp only [ops, seq_append, bind_assoc, ← main_part0_eq c, ← main_part1_eq c, ← main_part2_eq c,
    ← main_part3_eq c, ← main_part4_eq c, ← main_part5_eq c]
  rfl

/-- Every operation of @main names TensorCore buffers only. -/
theorem ops_sub : (ops : List (HloOp τ sig (Elt F))).Forall fun op => op.bufs ⊆ tcRefs τ sig :=
  List.forall_iff_forall_mem.mpr fun op h => by
    rcases mem_ops h with h | h | h | h | h | h
    exacts [List.forall_iff_forall_mem.mp opsP0_sub op h, List.forall_iff_forall_mem.mp opsP1_sub op h,
      List.forall_iff_forall_mem.mp opsP2_sub op h, List.forall_iff_forall_mem.mp opsP3_sub op h,
      List.forall_iff_forall_mem.mp opsP4_sub op h, List.forall_iff_forall_mem.mp opsP5_sub op h]

/-- No operation of @main allocates: each determines what it writes. -/
theorem ops_fresh : ∀ op ∈ (ops : List (HloOp τ sig (Elt F))), op.fresh = ∅ := fun op h => by
  rcases mem_ops h with h | h | h | h | h | h
  exacts [List.forall_iff_forall_mem.mp opsP0_fresh op h, List.forall_iff_forall_mem.mp opsP1_fresh op h,
    List.forall_iff_forall_mem.mp opsP2_fresh op h, List.forall_iff_forall_mem.mp opsP3_fresh op h,
    List.forall_iff_forall_mem.mp opsP4_fresh op h, List.forall_iff_forall_mem.mp opsP5_fresh op h]

/-- The contents after the whole line are the contents after the six windows in turn. -/
theorem after_ops (V : Valuation τ sig (Elt F)) :
    after ops V = after opsP5 (after opsP4 (after opsP3 (after opsP2 (after opsP1 (after opsP0 V))))) := by
  simp only [ops, StableHlo.after_append]

/-- A buffer no window writes keeps its contents through @main. -/
theorem ops_keep (V : Valuation τ sig (Elt F)) (r : Ref sig .tc) (h0 : r ∉ opsP0_W) (h1 : r ∉ opsP1_W)
    (h2 : r ∉ opsP2_W) (h3 : r ∉ opsP3_W) (h4 : r ∉ opsP4_W) (h5 : r ∉ opsP5_W) :
    after ops V (Proc.devRef .tc r) = V (Proc.devRef .tc r) := by
  rw [after_ops, opsP5_keep _ r h5, opsP4_keep _ r h4, opsP3_keep _ r h3, opsP2_keep _ r h2, opsP1_keep _ r h1,
    opsP0_keep V r h0]

end Cert.ReferenceIdeal.RefRun

end
-- ==== Proof.Ref.Run.lean ====
import proofs.«411025_j54640573939922_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-! No operation of @main writes an argument: each argument keeps its launch contents. -/

set_option maxRecDepth 8192
theorem arg0_keep (V : Valuation τ sig (Elt F)) :
    after ops V (Proc.devRef .tc main_arg0) = V (Proc.devRef .tc main_arg0) :=
  ops_keep V main_arg0 (by decide) (by decide) (by decide) (by decide) (by decide) (by decide)
theorem arg1_keep (V : Valuation τ sig (Elt F)) :
    after ops V (Proc.devRef .tc main_arg1) = V (Proc.devRef .tc main_arg1) :=
  ops_keep V main_arg1 (by decide) (by decide) (by decide) (by decide) (by decide) (by decide)
theorem arg2_keep (V : Valuation τ sig (Elt F)) :
    after ops V (Proc.devRef .tc main_arg2) = V (Proc.devRef .tc main_arg2) :=
  ops_keep V main_arg2 (by decide) (by decide) (by decide) (by decide) (by decide) (by decide)
theorem arg3_keep (V : Valuation τ sig (Elt F)) :
    after ops V (Proc.devRef .tc main_arg3) = V (Proc.devRef .tc main_arg3) :=
  ops_keep V main_arg3 (by decide) (by decide) (by decide) (by decide) (by decide) (by decide)
theorem arg4_keep (V : Valuation τ sig (Elt F)) :
    after ops V (Proc.devRef .tc main_arg4) = V (Proc.devRef .tc main_arg4) :=
  ops_keep V main_arg4 (by decide) (by decide) (by decide) (by decide) (by decide) (by decide)
theorem arg5_keep (V : Valuation τ sig (Elt F)) :
    after ops V (Proc.devRef .tc main_arg5) = V (Proc.devRef .tc main_arg5) :=
  ops_keep V main_arg5 (by decide) (by decide) (by decide) (by decide) (by decide) (by decide)
theorem arg6_keep (V : Valuation τ sig (Elt F)) :
    after ops V (Proc.devRef .tc main_arg6) = V (Proc.devRef .tc main_arg6) :=
  ops_keep V main_arg6 (by decide) (by decide) (by decide) (by decide) (by decide) (by decide)
theorem arg7_keep (V : Valuation τ sig (Elt F)) :
    after ops V (Proc.devRef .tc main_arg7) = V (Proc.devRef .tc main_arg7) :=
  ops_keep V main_arg7 (by decide) (by decide) (by decide) (by decide) (by decide) (by decide)
theorem arg8_keep (V : Valuation τ sig (Elt F)) :
    after ops V (Proc.devRef .tc main_arg8) = V (Proc.devRef .tc main_arg8) :=
  ops_keep V main_arg8 (by decide) (by decide) (by decide) (by decide) (by decide) (by decide)
theorem arg9_keep (V : Valuation τ sig (Elt F)) :
    after ops V (Proc.devRef .tc main_arg9) = V (Proc.devRef .tc main_arg9) :=
  ops_keep V main_arg9 (by decide) (by decide) (by decide) (by decide) (by decide) (by decide)
theorem arg10_keep (V : Valuation τ sig (Elt F)) :
    after ops V (Proc.devRef .tc main_arg10) = V (Proc.devRef .tc main_arg10) :=
  ops_keep V main_arg10 (by decide) (by decide) (by decide) (by decide) (by decide) (by decide)
theorem arg11_keep (V : Valuation τ sig (Elt F)) :
    after ops V (Proc.devRef .tc main_arg11) = V (Proc.devRef .tc main_arg11) :=
  ops_keep V main_arg11 (by decide) (by decide) (by decide) (by decide) (by decide) (by decide)
theorem arg12_keep (V : Valuation τ sig (Elt F)) :
    after ops V (Proc.devRef .tc main_arg12) = V (Proc.devRef .tc main_arg12) :=
  ops_keep V main_arg12 (by decide) (by decide) (by decide) (by decide) (by decide) (by decide)
theorem arg13_keep (V : Valuation τ sig (Elt F)) :
    after ops V (Proc.devRef .tc main_arg13) = V (Proc.devRef .tc main_arg13) :=
  ops_keep V main_arg13 (by decide) (by decide) (by decide) (by decide) (by decide) (by decide)
theorem arg14_keep (V : Valuation τ sig (Elt F)) :
    after ops V (Proc.devRef .tc main_arg14) = V (Proc.devRef .tc main_arg14) :=
  ops_keep V main_arg14 (by decide) (by decide) (by decide) (by decide) (by decide) (by decide)
theorem arg15_keep (V : Valuation τ sig (Elt F)) :
    after ops V (Proc.devRef .tc main_arg15) = V (Proc.devRef .tc main_arg15) :=
  ops_keep V main_arg15 (by decide) (by decide) (by decide) (by decide) (by decide) (by decide)

/-- On every device, for any float values, from any memory with zero counters: every weakly fair execution of
    @main terminates with the result buffer at the fold of the operations' results over the launch contents,
    and the sixteen arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v263)
        = StableHlo.after ops (fun b => m ((c : Thread nD τ).1, b)) (Proc.devRef .tc main_v263)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v263,
      (h c main_arg0).trans (arg0_keep _),
      (h c main_arg1).trans (arg1_keep _),
      (h c main_arg2).trans (arg2_keep _),
      (h c main_arg3).trans (arg3_keep _),
      (h c main_arg4).trans (arg4_keep _),
      (h c main_arg5).trans (arg5_keep _),
      (h c main_arg6).trans (arg6_keep _),
      (h c main_arg7).trans (arg7_keep _),
      (h c main_arg8).trans (arg8_keep _),
      (h c main_arg9).trans (arg9_keep _),
      (h c main_arg10).trans (arg10_keep _),
      (h c main_arg11).trans (arg11_keep _),
      (h c main_arg12).trans (arg12_keep _),
      (h c main_arg13).trans (arg13_keep _),
      (h c main_arg14).trans (arg14_keep _),
      (h c main_arg15).trans (arg15_keep _)⟩)
    (run_seq scopedRefs_eq scopedSems_eq defs main (fun _ => ops) main_eq (fun _ => ops_sub) m ρ (fun _ => ops_fresh))

end Cert.ReferenceIdeal.RefRun

end
-- ==== Proof.Ref.ValDefs0.lean ====
/-
  The values of the reference's statements 1 … 60 at the ideal instance, one definition per operation: each is its
  operation applied to the values of the operations it reads, the sixteen arguments read off an arbitrary valuation.
-/
import proofs.«411025_j54640573939922_1_alg».proof.Proof.Gen.ReferenceIdeal
import Idealize.ShloMosaic.Lib.StableHlo.Run
import Idealize.ShloMosaic.PureOps.Ideal

noncomputable section

namespace Cert.ReferenceIdeal.RefVal

open Cert.ReferenceIdeal Cert.ReferenceIdeal.Gen Idealize.ShloMosaic Idealize.ShloMosaic.TcCoe Idealize.SL.Sem Idealize.ShloMosaic.StableHlo

/-- Argument 0 as the valuation holds it. -/
abbrev val_main_arg0 (V : Valuation τ sig (Elt Ideal)) : FVec Ideal S20000x1 .f32 := V (Proc.devRef .tc main_arg0)
/-- Argument 1 as the valuation holds it. -/
abbrev val_main_arg1 (V : Valuation τ sig (Elt Ideal)) : IVec S2x640000 32 := V (Proc.devRef .tc main_arg1)
/-- Argument 2 as the valuation holds it. -/
abbrev val_main_arg2 (V : Valuation τ sig (Elt Ideal)) : IVec S20000 32 := V (Proc.devRef .tc main_arg2)
/-- Argument 3 as the valuation holds it. -/
abbrev val_main_arg3 (V : Valuation τ sig (Elt Ideal)) : FVec Ideal S1x128 .f32 := V (Proc.devRef .tc main_arg3)
/-- Argument 4 as the valuation holds it. -/
abbrev val_main_arg4 (V : Valuation τ sig (Elt Ideal)) : FVec Ideal S128 .f32 := V (Proc.devRef .tc main_arg4)
/-- Argument 5 as the valuation holds it. -/
abbrev val_main_arg5 (V : Valuation τ sig (Elt Ideal)) : FVec Ideal S3x128x128 .f32 := V (Proc.devRef .tc main_arg5)
/-- Argument 6 as the valuation holds it. -/
abbrev val_main_arg6 (V : Valuation τ sig (Elt Ideal)) : FVec Ideal S3x128 .f32 := V (Proc.devRef .tc main_arg6)
/-- Argument 7 as the valuation holds it. -/
abbrev val_main_arg7 (V : Valuation τ sig (Elt Ideal)) : FVec Ideal S3x128 .f32 := V (Proc.devRef .tc main_arg7)
/-- Argument 8 as the valuation holds it. -/
abbrev val_main_arg8 (V : Valuation τ sig (Elt Ideal)) : FVec Ideal S3x128 .f32 := V (Proc.devRef .tc main_arg8)
/-- Argument 9 as the valuation holds it. -/
abbrev val_main_arg9 (V : Valuation τ sig (Elt Ideal)) : FVec Ideal S3x128x128 .f32 := V (Proc.devRef .tc main_arg9)
/-- Argument 10 as the valuation holds it. -/
abbrev val_main_arg10 (V : Valuation τ sig (Elt Ideal)) : FVec Ideal S3x128 .f32 := V (Proc.devRef .tc main_arg10)
/-- Argument 11 as the valuation holds it. -/
abbrev val_main_arg11 (V : Valuation τ sig (Elt Ideal)) : FVec Ideal S3 .f32 := V (Proc.devRef .tc main_arg11)
/-- Argument 12 as the valuation holds it. -/
abbrev val_main_arg12 (V : Valuation τ sig (Elt Ideal)) : FVec Ideal S3x128 .f32 := V (Proc.devRef .tc main_arg12)
/-- Argument 13 as the valuation holds it. -/
abbrev val_main_arg13 (V : Valuation τ sig (Elt Ideal)) : FVec Ideal S3x128 .f32 := V (Proc.devRef .tc main_arg13)
/-- Argument 14 as the valuation holds it. -/
abbrev val_main_arg14 (V : Valuation τ sig (Elt Ideal)) : FVec Ideal S128x2 .f32 := V (Proc.devRef .tc main_arg14)
/-- Argument 15 as the valuation holds it. -/
abbrev val_main_arg15 (V : Valuation τ sig (Elt Ideal)) : FVec Ideal S2 .f32 := V (Proc.devRef .tc main_arg15)

def val_main_v0 (V : Valuation τ sig (Elt Ideal)) : IVec S1x640000 32 :=
  extractStridedSlice S1x640000 ![0, 0] (val_main_arg1 V) slices_S2x640000_S1x640000_0_0
def val_main_v1 (V : Valuation τ sig (Elt Ideal)) : IVec S640000 32 :=
  shapeCast S640000 (val_main_v0 V) shapeCasts_S1x640000_S640000
def val_main_v2 (V : Valuation τ sig (Elt Ideal)) : IVec S1x640000 32 :=
  extractStridedSlice S1x640000 ![1, 0] (val_main_arg1 V) slices_S2x640000_S1x640000_1_0
def val_main_v3 (V : Valuation τ sig (Elt Ideal)) : IVec S640000 32 :=
  shapeCast S640000 (val_main_v2 V) shapeCasts_S1x640000_S640000
def val_main_v4 (V : Valuation τ sig (Elt Ideal)) : FVec Ideal S20000x128 .f32 :=
  Host.dotGeneral (F := Ideal) dot_S20000x1_S1x128_S20000x128_1_0_0_1_n_n none (val_main_arg0 V) (val_main_arg3 V)
def val_main_v5 (V : Valuation τ sig (Elt Ideal)) : FVec Ideal S1x128 .f32 :=
  broadcastInDim S1x128 ![1] bcast_S128_S1x128_1 (val_main_arg4 V)
def val_main_v6 (V : Valuation τ sig (Elt Ideal)) : FVec Ideal S20000x128 .f32 :=
  broadcastInDim S20000x128 ![0, 1] bcast_S1x128_S20000x128_0_1 (val_main_v5 V)
def val_main_v7 (V : Valuation τ sig (Elt Ideal)) : FVec Ideal S20000x128 .f32 :=
  addf (val_main_v4 V) (val_main_v6 V)
def val_main_c (V : Valuation τ sig (Elt Ideal)) : IVec S_ 32 :=
  constantI S_ 32 0#32
def val_main_v8 (V : Valuation τ sig (Elt Ideal)) : IVec S640000 32 :=
  broadcastInDim S640000 ![] bcast_S_S640000 (val_main_c V)
def val_main_v9 (V : Valuation τ sig (Elt Ideal)) : IVec S640000 1 :=
  cmpi .slt (val_main_v1 V) (val_main_v8 V)
def val_main_c_0 (V : Valuation τ sig (Elt Ideal)) : IVec S_ 32 :=
  constantI S_ 32 20000#32
def val_main_v10 (V : Valuation τ sig (Elt Ideal)) : IVec S640000 32 :=
  broadcastInDim S640000 ![] bcast_S_S640000 (val_main_c_0 V)
def val_main_v11 (V : Valuation τ sig (Elt Ideal)) : IVec S640000 32 :=
  addi (val_main_v1 V) (val_main_v10 V)
def val_main_v12 (V : Valuation τ sig (Elt Ideal)) : IVec S640000 32 :=
  select (val_main_v9 V) (val_main_v11 V) (val_main_v1 V)
def val_main_v13 (V : Valuation τ sig (Elt Ideal)) : IVec S640000x1 32 :=
  broadcastInDim S640000x1 ![0] bcast_S640000_S640000x1_0 (val_main_v12 V)
def val_main_v14 (V : Valuation τ sig (Elt Ideal)) : FVec Ideal S640000x128 .f32 :=
  Host.gather gather_S20000x128_S640000x1_S640000x128_1_0_n_n_0_1_1128 (val_main_v7 V) (val_main_v13 V)
def val_main_cst (V : Valuation τ sig (Elt Ideal)) : FVec Ideal S_ .f32 :=
  constant (F := Ideal) S_ .f32 0x00000000#32
def val_main_v15 (V : Valuation τ sig (Elt Ideal)) : FVec Ideal S20000x128 .f32 :=
  broadcastInDim S20000x128 ![] bcast_S_S20000x128 (val_main_cst V)
def val_main_v16 (V : Valuation τ sig (Elt Ideal)) : IVec S640000x1 32 :=
  broadcastInDim S640000x1 ![0] bcast_S640000_S640000x1_0 (val_main_v3 V)
def val_main_v17 (V : Valuation τ sig (Elt Ideal)) : FVec Ideal S20000x128 .f32 :=
  Host.scatterAdd scatter_S20000x128_S640000x1_S640000x128_1_0_0_1 (val_main_v15 V) (val_main_v16 V) (val_main_v14 V)
def val_main_v18 (V : Valuation τ sig (Elt Ideal)) : FVec Ideal S1 .f32 :=
  extractStridedSlice S1 ![0] (val_main_arg11 V) slices_S3_S1_0
def val_main_v19 (V : Valuation τ sig (Elt Ideal)) : FVec Ideal S_ .f32 :=
  shapeCast S_ (val_main_v18 V) shapeCasts_S1_S_
def val_main_cst_1 (V : Valuation τ sig (Elt Ideal)) : FVec Ideal S_ .f32 :=
  constant (F := Ideal) S_ .f32 0x3F800000#32
def val_main_v20 (V : Valuation τ sig (Elt Ideal)) : FVec Ideal S_ .f32 :=
  addf (val_main_cst_1 V) (val_main_v19 V)
def val_main_v21 (V : Valuation τ sig (Elt Ideal)) : FVec Ideal S20000x128 .f32 :=
  broadcastInDim S20000x128 ![] bcast_S_S20000x128 (val_main_v20 V)
def val_main_v22 (V : Valuation τ sig (Elt Ideal)) : FVec Ideal S20000x128 .f32 :=
  mulf (val_main_v21 V) (val_main_v7 V)
def val_main_v23 (V : Valuation τ sig (Elt Ideal)) : FVec Ideal S20000x128 .f32 :=
  addf (val_main_v22 V) (val_main_v17 V)
def val_main_v24 (V : Valuation τ sig (Elt Ideal)) : FVec Ideal S1x128x128 .f32 :=
  extractStridedSlice S1x128x128 ![0, 0, 0] (val_main_arg5 V) slices_S3x128x128_S1x128x128_0_0_0
def val_main_v25 (V : Valuation τ sig (Elt Ideal)) : FVec Ideal S128x128 .f32 :=
  shapeCast S128x128 (val_main_v24 V) shapeCasts_S1x128x128_S128x128
def val_main_v26 (V : Valuation τ sig (Elt Ideal)) : FVec Ideal S20000x128 .f32 :=
  Host.dotGeneral (F := Ideal) dot_S20000x128_S128x128_S20000x128_1_0_0_1_n_n none (val_main_v23 V) (val_main_v25 V)
def val_main_v27 (V : Valuation τ sig (Elt Ideal)) : FVec Ideal S1x128 .f32 :=
  extractStridedSlice S1x128 ![0, 0] (val_main_arg6 V) slices_S3x128_S1x128_0_0
def val_main_v28 (V : Valuation τ sig (Elt Ideal)) : FVec Ideal S128 .f32 :=
  shapeCast S128 (val_main_v27 V) shapeCasts_S1x128_S128
def val_main_v29 (V : Valuation τ sig (Elt Ideal)) : FVec Ideal S1x128 .f32 :=
  broadcastInDim S1x128 ![1] bcast_S128_S1x128_1 (val_main_v28 V)
def val_main_v30 (V : Valuation τ sig (Elt Ideal)) : FVec Ideal S20000x128 .f32 :=
  broadcastInDim S20000x128 ![0, 1] bcast_S1x128_S20000x128_0_1 (val_main_v29 V)
def val_main_v31 (V : Valuation τ sig (Elt Ideal)) : FVec Ideal S20000x128 .f32 :=
  addf (val_main_v26 V) (val_main_v30 V)
def val_main_v32 (V : Valuation τ sig (Elt Ideal)) : FVec Ideal S1x128 .f32 :=
  extractStridedSlice S1x128 ![0, 0] (val_main_arg7 V) slices_S3x128_S1x128_0_0
def val_main_v33 (V : Valuation τ sig (Elt Ideal)) : FVec Ideal S128 .f32 :=
  shapeCast S128 (val_main_v32 V) shapeCasts_S1x128_S128
def val_main_v34 (V : Valuation τ sig (Elt Ideal)) : FVec Ideal S1x128 .f32 :=
  extractStridedSlice S1x128 ![0, 0] (val_main_arg8 V) slices_S3x128_S1x128_0_0
def val_main_v35 (V : Valuation τ sig (Elt Ideal)) : FVec Ideal S128 .f32 :=
  shapeCast S128 (val_main_v34 V) shapeCasts_S1x128_S128
def val_main_cst_2 (V : Valuation τ sig (Elt Ideal)) : FVec Ideal S_ .f32 :=
  constant (F := Ideal) S_ .f32 0x00000000#32
def val_main_v36 (V : Valuation τ sig (Elt Ideal)) : FVec Ideal S128 .f32 :=
  Host.reduceAdd (val_main_v31 V) (val_main_cst_2 V) reducesTo_S20000x128_S128_d0 h_S_
def val_main_cst_3 (V : Valuation τ sig (Elt Ideal)) : FVec Ideal S_ .f32 :=
  constant (F := Ideal) S_ .f32 0x469C4000#32
def val_main_v37 (V : Valuation τ sig (Elt Ideal)) : FVec Ideal S128 .f32 :=
  broadcastInDim S128 ![] bcast_S_S128 (val_main_cst_3 V)
def val_main_v38 (V : Valuation τ sig (Elt Ideal)) : FVec Ideal S128 .f32 :=
  Host.divf (val_main_v36 V) (val_main_v37 V)
def val_main_c_4 (V : Valuation τ sig (Elt Ideal)) : IVec S_ 32 :=
  constantI S_ 32 0#32
def val_main_call0_cst (V : Valuation τ sig (Elt Ideal)) : FVec Ideal S_ .f32 :=
  constant (F := Ideal) S_ .f32 0x00000000#32
def val_main_call0_v0 (V : Valuation τ sig (Elt Ideal)) : FVec Ideal S128 .f32 :=
  Host.reduceAdd (val_main_v31 V) (val_main_call0_cst V) reducesTo_S20000x128_S128_d0 h_S_
def val_main_call0_v1 (V : Valuation τ sig (Elt Ideal)) : FVec Ideal S1x128 .f32 :=
  broadcastInDim S1x128 ![1] bcast_S128_S1x128_1 (val_main_call0_v0 V)
def val_main_call0_cst_0 (V : Valuation τ sig (Elt Ideal)) : FVec Ideal S_ .f32 :=
  constant (F := Ideal) S_ .f32 0x469C4000#32
def val_main_call0_v2 (V : Valuation τ sig (Elt Ideal)) : FVec Ideal S1x128 .f32 :=
  broadcastInDim S1x128 ![] bcast_S_S1x128 (val_main_call0_cst_0 V)
def val_main_call0_v3 (V : Valuation τ sig (Elt Ideal)) : FVec Ideal S1x128 .f32 :=
  Host.divf (val_main_call0_v1 V) (val_main_call0_v2 V)
def val_main_call0_v4 (V : Valuation τ sig (Elt Ideal)) : FVec Ideal S20000x128 .f32 :=
  broadcastInDim S20000x128 ![0, 1] bcast_S1x128_S20000x128_0_1 (val_main_call0_v3 V)
def val_main_call0_v5 (V : Valuation τ sig (Elt Ideal)) : FVec Ideal S20000x128 .f32 :=
  subf (val_main_v31 V) (val_main_call0_v4 V)
def val_main_call0_v6 (V : Valuation τ sig (Elt Ideal)) : FVec Ideal S20000x128 .f32 :=
  mulf (val_main_call0_v5 V) (val_main_call0_v5 V)
def val_main_call0_v7 (V : Valuation τ sig (Elt Ideal)) : FVec Ideal S_ .f32 :=
  sitofp (F := Ideal) .f32 (val_main_c_4 V)
def val_main_call0_cst_1 (V : Valuation τ sig (Elt Ideal)) : FVec Ideal S_ .f32 :=
  constant (F := Ideal) S_ .f32 0x469C4000#32
def val_main_call0_v8 (V : Valuation τ sig (Elt Ideal)) : FVec Ideal S_ .f32 :=
  subf (val_main_call0_cst_1 V) (val_main_call0_v7 V)
def val_main_call0_cst_2 (V : Valuation τ sig (Elt Ideal)) : FVec Ideal S_ .f32 :=
  constant (F := Ideal) S_ .f32 0x00000000#32
def val_main_call0_v9 (V : Valuation τ sig (Elt Ideal)) : FVec Ideal S128 .f32 :=
  Host.reduceAdd (val_main_call0_v6 V) (val_main_call0_cst_2 V) reducesTo_S20000x128_S128_d0 h_S_
def val_main_call0_v10 (V : Valuation τ sig (Elt Ideal)) : FVec Ideal S128 .f32 :=
  broadcastInDim S128 ![] bcast_S_S128 (val_main_call0_v8 V)
def val_main_call0_v11 (V : Valuation τ sig (Elt Ideal)) : FVec Ideal S128 .f32 :=
  Host.divf (val_main_call0_v9 V) (val_main_call0_v10 V)
def val_main_call0_cst_3 (V : Valuation τ sig (Elt Ideal)) : FVec Ideal S_ .f32 :=
  constant (F := Ideal) S_ .f32 0x00000000#32
def val_main_call0_v12 (V : Valuation τ sig (Elt Ideal)) : IVec S_ 1 :=
  cmpf .ogt (val_main_call0_v8 V) (val_main_call0_cst_3 V)
def val_main_call0_cst_4 (V : Valuation τ sig (Elt Ideal)) : FVec Ideal S_ .f32 :=
  constant (F := Ideal) S_ .f32 0x7FC00000#32
def val_main_call0_call0_v0 (V : Valuation τ sig (Elt Ideal)) : FVec Ideal S_ .f32 :=
  val_main_call0_cst_4 V
def val_main_call0_call0_v1 (V : Valuation τ sig (Elt Ideal)) : FVec Ideal S128 .f32 :=
  broadcastInDim S128 ![] bcast_S_S128 (val_main_call0_call0_v0 V)
def val_main_v39 (V : Valuation τ sig (Elt Ideal)) : FVec Ideal S128 .f32 :=
  select (broadcastInDim S128 ![] bcast_S_S128 (val_main_call0_v12 V)) (val_main_call0_v11 V) (val_main_call0_call0_v1 V)
def val_main_v40 (V : Valuation τ sig (Elt Ideal)) : FVec Ideal S1x128 .f32 :=
  broadcastInDim S1x128 ![1] bcast_S128_S1x128_1 (val_main_v38 V)
def val_main_v41 (V : Valuation τ sig (Elt Ideal)) : FVec Ideal S20000x128 .f32 :=
  broadcastInDim S20000x128 ![0, 1] bcast_S1x128_S20000x128_0_1 (val_main_v40 V)
def val_main_v42 (V : Valuation τ sig (Elt Ideal)) : FVec Ideal S20000x128 .f32 :=
  subf (val_main_v31 V) (val_main_v41 V)
def val_main_v43 (V : Valuation τ sig (Elt Ideal)) : FVec Ideal S1x128 .f32 :=
  broadcastInDim S1x128 ![1] bcast_S128_S1x128_1 (val_main_v33 V)
def val_main_v44 (V : Valuation τ sig (Elt Ideal)) : FVec Ideal S20000x128 .f32 :=
  broadcastInDim S20000x128 ![0, 1] bcast_S1x128_S20000x128_0_1 (val_main_v43 V)
def val_main_v45 (V : Valuation τ sig (Elt Ideal)) : FVec Ideal S20000x128 .f32 :=
  mulf (val_main_v44 V) (val_main_v42 V)
def val_main_cst_5 (V : Valuation τ sig (Elt Ideal)) : FVec Ideal S_ .f32 :=
  constant (F := Ideal) S_ .f32 0x3727C5AC#32
def val_main_v46 (V : Valuation τ sig (Elt Ideal)) : FVec Ideal S128 .f32 :=
  broadcastInDim S128 ![] bcast_S_S128 (val_main_cst_5 V)
def val_main_v47 (V : Valuation τ sig (Elt Ideal)) : FVec Ideal S128 .f32 :=
  addf (val_main_v39 V) (val_main_v46 V)
def val_main_v48 (V : Valuation τ sig (Elt Ideal)) : FVec Ideal S128 .f32 :=
  Host.rsqrt (val_main_v47 V)
def val_main_v49 (V : Valuation τ sig (Elt Ideal)) : FVec Ideal S1x128 .f32 :=
  broadcastInDim S1x128 ![1] bcast_S128_S1x128_1 (val_main_v48 V)
def val_main_v50 (V : Valuation τ sig (Elt Ideal)) : FVec Ideal S20000x128 .f32 :=
  broadcastInDim S20000x128 ![0, 1] bcast_S1x128_S20000x128_0_1 (val_main_v49 V)
def val_main_v51 (V : Valuation τ sig (Elt Ideal)) : FVec Ideal S20000x128 .f32 :=
  mulf (val_main_v45 V) (val_main_v50 V)

end Cert.ReferenceIdeal.RefVal

end
-- ==== Proof.Ref.ValRun0.lean ====
/-
  What the reference's statements 1 … 60 leave in the buffers later statements read: from contents that hold, in each
  buffer the window reads, the value of the statement that wrote it, each such buffer ends at the value of its own statement.
-/
import proofs.«411025_j54640573939922_1_alg».proof.Proof.Ref.OpsP0
import proofs.«411025_j54640573939922_1_alg».proof.Proof.Ref.ValDefs0

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run0_main_v35 (V : Valuation τ sig (Elt Ideal)) :
    after (opsP0 (F := Ideal)) V (Proc.devRef .tc main_v35) = val_main_v35 V := by
  dsimp only [opsP0]
  after_results_simp
  rfl

theorem run0_main_v51 (V : Valuation τ sig (Elt Ideal)) :
    after (opsP0 (F := Ideal)) V (Proc.devRef .tc main_v51) = val_main_v51 V := by
  dsimp only [opsP0]
  after_results_simp
  rfl

theorem run0_main_v1 (V : Valuation τ sig (Elt Ideal)) :
    after (opsP0 (F := Ideal)) V (Proc.devRef .tc main_v1) = val_main_v1 V := by
  dsimp only [opsP0]
  after_results_simp
  rfl

theorem run0_main_v3 (V : Valuation τ sig (Elt Ideal)) :
    after (opsP0 (F := Ideal)) V (Proc.devRef .tc main_v3) = val_main_v3 V := by
  dsimp only [opsP0]
  after_results_simp
  rfl

end Cert.ReferenceIdeal.RefVal

end
-- ==== Proof.Ref.ValDefs1.lean ====
/-
  The values of the reference's statements 61 … 120 at the ideal instance, one definition per operation: each is its
  operation applied to the values of the operations it reads, the sixteen arguments read off an arbitrary valuation.
-/
import proofs.«411025_j54640573939922_1_alg».proof.Proof.Ref.ValDefs0

noncomputable section

namespace Cert.ReferenceIdeal.RefVal

open Cert.ReferenceIdeal Cert.ReferenceIdeal.Gen Idealize.ShloMosaic Idealize.ShloMosaic.TcCoe Idealize.SL.Sem Idealize.ShloMosaic.StableHlo

def val_main_v52 (V : Valuation τ sig (Elt Ideal)) : FVec Ideal S1x128 .f32 :=
  broadcastInDim S1x128 ![1] bcast_S128_S1x128_1 (val_main_v35 V)
def val_main_v53 (V : Valuation τ sig (Elt Ideal)) : FVec Ideal S20000x128 .f32 :=
  broadcastInDim S20000x128 ![0, 1] bcast_S1x128_S20000x128_0_1 (val_main_v52 V)
def val_main_v54 (V : Valuation τ sig (Elt Ideal)) : FVec Ideal S20000x128 .f32 :=
  addf (val_main_v51 V) (val_main_v53 V)
def val_main_call1_cst (V : Valuation τ sig (Elt Ideal)) : FVec Ideal S_ .f32 :=
  constant (F := Ideal) S_ .f32 0x00000000#32
def val_main_call1_v0 (V : Valuation τ sig (Elt Ideal)) : FVec Ideal S20000x128 .f32 :=
  broadcastInDim S20000x128 ![] bcast_S_S20000x128 (val_main_call1_cst V)
def val_main_v55 (V : Valuation τ sig (Elt Ideal)) : FVec Ideal S20000x128 .f32 :=
  maximumf (val_main_v54 V) (val_main_call1_v0 V)
def val_main_v56 (V : Valuation τ sig (Elt Ideal)) : FVec Ideal S1x128x128 .f32 :=
  extractStridedSlice S1x128x128 ![0, 0, 0] (val_main_arg9 V) slices_S3x128x128_S1x128x128_0_0_0
def val_main_v57 (V : Valuation τ sig (Elt Ideal)) : FVec Ideal S128x128 .f32 :=
  shapeCast S128x128 (val_main_v56 V) shapeCasts_S1x128x128_S128x128
def val_main_v58 (V : Valuation τ sig (Elt Ideal)) : FVec Ideal S20000x128 .f32 :=
  Host.dotGeneral (F := Ideal) dot_S20000x128_S128x128_S20000x128_1_0_0_1_n_n none (val_main_v55 V) (val_main_v57 V)
def val_main_v59 (V : Valuation τ sig (Elt Ideal)) : FVec Ideal S1x128 .f32 :=
  extractStridedSlice S1x128 ![0, 0] (val_main_arg10 V) slices_S3x128_S1x128_0_0
def val_main_v60 (V : Valuation τ sig (Elt Ideal)) : FVec Ideal S128 .f32 :=
  shapeCast S128 (val_main_v59 V) shapeCasts_S1x128_S128
def val_main_v61 (V : Valuation τ sig (Elt Ideal)) : FVec Ideal S1x128 .f32 :=
  broadcastInDim S1x128 ![1] bcast_S128_S1x128_1 (val_main_v60 V)
def val_main_v62 (V : Valuation τ sig (Elt Ideal)) : FVec Ideal S20000x128 .f32 :=
  broadcastInDim S20000x128 ![0, 1] bcast_S1x128_S20000x128_0_1 (val_main_v61 V)
def val_main_v63 (V : Valuation τ sig (Elt Ideal)) : FVec Ideal S20000x128 .f32 :=
  addf (val_main_v58 V) (val_main_v62 V)
def val_main_v64 (V : Valuation τ sig (Elt Ideal)) : FVec Ideal S1x128 .f32 :=
  extractStridedSlice S1x128 ![0, 0] (val_main_arg12 V) slices_S3x128_S1x128_0_0
def val_main_v65 (V : Valuation τ sig (Elt Ideal)) : FVec Ideal S128 .f32 :=
  shapeCast S128 (val_main_v64 V) shapeCasts_S1x128_S128
def val_main_v66 (V : Valuation τ sig (Elt Ideal)) : FVec Ideal S1x128 .f32 :=
  extractStridedSlice S1x128 ![0, 0] (val_main_arg13 V) slices_S3x128_S1x128_0_0
def val_main_v67 (V : Valuation τ sig (Elt Ideal)) : FVec Ideal S128 .f32 :=
  shapeCast S128 (val_main_v66 V) shapeCasts_S1x128_S128
def val_main_cst_6 (V : Valuation τ sig (Elt Ideal)) : FVec Ideal S_ .f32 :=
  constant (F := Ideal) S_ .f32 0x00000000#32
def val_main_v68 (V : Valuation τ sig (Elt Ideal)) : FVec Ideal S128 .f32 :=
  Host.reduceAdd (val_main_v63 V) (val_main_cst_6 V) reducesTo_S20000x128_S128_d0 h_S_
def val_main_cst_7 (V : Valuation τ sig (Elt Ideal)) : FVec Ideal S_ .f32 :=
  constant (F := Ideal) S_ .f32 0x469C4000#32
def val_main_v69 (V : Valuation τ sig (Elt Ideal)) : FVec Ideal S128 .f32 :=
  broadcastInDim S128 ![] bcast_S_S128 (val_main_cst_7 V)
def val_main_v70 (V : Valuation τ sig (Elt Ideal)) : FVec Ideal S128 .f32 :=
  Host.divf (val_main_v68 V) (val_main_v69 V)
def val_main_c_8 (V : Valuation τ sig (Elt Ideal)) : IVec S_ 32 :=
  constantI S_ 32 0#32
def val_main_call2_cst (V : Valuation τ sig (Elt Ideal)) : FVec Ideal S_ .f32 :=
  constant (F := Ideal) S_ .f32 0x00000000#32
def val_main_call2_v0 (V : Valuation τ sig (Elt Ideal)) : FVec Ideal S128 .f32 :=
  Host.reduceAdd (val_main_v63 V) (val_main_call2_cst V) reducesTo_S20000x128_S128_d0 h_S_
def val_main_call2_v1 (V : Valuation τ sig (Elt Ideal)) : FVec Ideal S1x128 .f32 :=
  broadcastInDim S1x128 ![1] bcast_S128_S1x128_1 (val_main_call2_v0 V)
def val_main_call2_cst_0 (V : Valuation τ sig (Elt Ideal)) : FVec Ideal S_ .f32 :=
  constant (F := Ideal) S_ .f32 0x469C4000#32
def val_main_call2_v2 (V : Valuation τ sig (Elt Ideal)) : FVec Ideal S1x128 .f32 :=
  broadcastInDim S1x128 ![] bcast_S_S1x128 (val_main_call2_cst_0 V)
def val_main_call2_v3 (V : Valuation τ sig (Elt Ideal)) : FVec Ideal S1x128 .f32 :=
  Host.divf (val_main_call2_v1 V) (val_main_call2_v2 V)
def val_main_call2_v4 (V : Valuation τ sig (Elt Ideal)) : FVec Ideal S20000x128 .f32 :=
  broadcastInDim S20000x128 ![0, 1] bcast_S1x128_S20000x128_0_1 (val_main_call2_v3 V)
def val_main_call2_v5 (V : Valuation τ sig (Elt Ideal)) : FVec Ideal S20000x128 .f32 :=
  subf (val_main_v63 V) (val_main_call2_v4 V)
def val_main_call2_v6 (V : Valuation τ sig (Elt Ideal)) : FVec Ideal S20000x128 .f32 :=
  mulf (val_main_call2_v5 V) (val_main_call2_v5 V)
def val_main_call2_v7 (V : Valuation τ sig (Elt Ideal)) : FVec Ideal S_ .f32 :=
  sitofp (F := Ideal) .f32 (val_main_c_8 V)
def val_main_call2_cst_1 (V : Valuation τ sig (Elt Ideal)) : FVec Ideal S_ .f32 :=
  constant (F := Ideal) S_ .f32 0x469C4000#32
def val_main_call2_v8 (V : Valuation τ sig (Elt Ideal)) : FVec Ideal S_ .f32 :=
  subf (val_main_call2_cst_1 V) (val_main_call2_v7 V)
def val_main_call2_cst_2 (V : Valuation τ sig (Elt Ideal)) : FVec Ideal S_ .f32 :=
  constant (F := Ideal) S_ .f32 0x00000000#32
def val_main_call2_v9 (V : Valuation τ sig (Elt Ideal)) : FVec Ideal S128 .f32 :=
  Host.reduceAdd (val_main_call2_v6 V) (val_main_call2_cst_2 V) reducesTo_S20000x128_S128_d0 h_S_
def val_main_call2_v10 (V : Valuation τ sig (Elt Ideal)) : FVec Ideal S128 .f32 :=
  broadcastInDim S128 ![] bcast_S_S128 (val_main_call2_v8 V)
def val_main_call2_v11 (V : Valuation τ sig (Elt Ideal)) : FVec Ideal S128 .f32 :=
  Host.divf (val_main_call2_v9 V) (val_main_call2_v10 V)
def val_main_call2_cst_3 (V : Valuation τ sig (Elt Ideal)) : FVec Ideal S_ .f32 :=
  constant (F := Ideal) S_ .f32 0x00000000#32
def val_main_call2_v12 (V : Valuation τ sig (Elt Ideal)) : IVec S_ 1 :=
  cmpf .ogt (val_main_call2_v8 V) (val_main_call2_cst_3 V)
def val_main_call2_cst_4 (V : Valuation τ sig (Elt Ideal)) : FVec Ideal S_ .f32 :=
  constant (F := Ideal) S_ .f32 0x7FC00000#32
def val_main_call2_call0_v0 (V : Valuation τ sig (Elt Ideal)) : FVec Ideal S_ .f32 :=
  val_main_call2_cst_4 V
def val_main_call2_call0_v1 (V : Valuation τ sig (Elt Ideal)) : FVec Ideal S128 .f32 :=
  broadcastInDim S128 ![] bcast_S_S128 (val_main_call2_call0_v0 V)
def val_main_v71 (V : Valuation τ sig (Elt Ideal)) : FVec Ideal S128 .f32 :=
  select (broadcastInDim S128 ![] bcast_S_S128 (val_main_call2_v12 V)) (val_main_call2_v11 V) (val_main_call2_call0_v1 V)
def val_main_v72 (V : Valuation τ sig (Elt Ideal)) : FVec Ideal S1x128 .f32 :=
  broadcastInDim S1x128 ![1] bcast_S128_S1x128_1 (val_main_v70 V)
def val_main_v73 (V : Valuation τ sig (Elt Ideal)) : FVec Ideal S20000x128 .f32 :=
  broadcastInDim S20000x128 ![0, 1] bcast_S1x128_S20000x128_0_1 (val_main_v72 V)
def val_main_v74 (V : Valuation τ sig (Elt Ideal)) : FVec Ideal S20000x128 .f32 :=
  subf (val_main_v63 V) (val_main_v73 V)
def val_main_v75 (V : Valuation τ sig (Elt Ideal)) : FVec Ideal S1x128 .f32 :=
  broadcastInDim S1x128 ![1] bcast_S128_S1x128_1 (val_main_v65 V)
def val_main_v76 (V : Valuation τ sig (Elt Ideal)) : FVec Ideal S20000x128 .f32 :=
  broadcastInDim S20000x128 ![0, 1] bcast_S1x128_S20000x128_0_1 (val_main_v75 V)
def val_main_v77 (V : Valuation τ sig (Elt Ideal)) : FVec Ideal S20000x128 .f32 :=
  mulf (val_main_v76 V) (val_main_v74 V)
def val_main_cst_9 (V : Valuation τ sig (Elt Ideal)) : FVec Ideal S_ .f32 :=
  constant (F := Ideal) S_ .f32 0x3727C5AC#32
def val_main_v78 (V : Valuation τ sig (Elt Ideal)) : FVec Ideal S128 .f32 :=
  broadcastInDim S128 ![] bcast_S_S128 (val_main_cst_9 V)
def val_main_v79 (V : Valuation τ sig (Elt Ideal)) : FVec Ideal S128 .f32 :=
  addf (val_main_v71 V) (val_main_v78 V)
def val_main_v80 (V : Valuation τ sig (Elt Ideal)) : FVec Ideal S128 .f32 :=
  Host.rsqrt (val_main_v79 V)
def val_main_v81 (V : Valuation τ sig (Elt Ideal)) : FVec Ideal S1x128 .f32 :=
  broadcastInDim S1x128 ![1] bcast_S128_S1x128_1 (val_main_v80 V)
def val_main_v82 (V : Valuation τ sig (Elt Ideal)) : FVec Ideal S20000x128 .f32 :=
  broadcastInDim S20000x128 ![0, 1] bcast_S1x128_S20000x128_0_1 (val_main_v81 V)
def val_main_v83 (V : Valuation τ sig (Elt Ideal)) : FVec Ideal S20000x128 .f32 :=
  mulf (val_main_v77 V) (val_main_v82 V)
def val_main_v84 (V : Valuation τ sig (Elt Ideal)) : FVec Ideal S1x128 .f32 :=
  broadcastInDim S1x128 ![1] bcast_S128_S1x128_1 (val_main_v67 V)
def val_main_v85 (V : Valuation τ sig (Elt Ideal)) : FVec Ideal S20000x128 .f32 :=
  broadcastInDim S20000x128 ![0, 1] bcast_S1x128_S20000x128_0_1 (val_main_v84 V)
def val_main_v86 (V : Valuation τ sig (Elt Ideal)) : FVec Ideal S20000x128 .f32 :=
  addf (val_main_v83 V) (val_main_v85 V)
def val_main_call3_cst (V : Valuation τ sig (Elt Ideal)) : FVec Ideal S_ .f32 :=
  constant (F := Ideal) S_ .f32 0x00000000#32
def val_main_call3_v0 (V : Valuation τ sig (Elt Ideal)) : FVec Ideal S20000x128 .f32 :=
  broadcastInDim S20000x128 ![] bcast_S_S20000x128 (val_main_call3_cst V)
def val_main_v87 (V : Valuation τ sig (Elt Ideal)) : FVec Ideal S20000x128 .f32 :=
  maximumf (val_main_v86 V) (val_main_call3_v0 V)
def val_main_c_10 (V : Valuation τ sig (Elt Ideal)) : IVec S_ 32 :=
  constantI S_ 32 0#32
def val_main_v88 (V : Valuation τ sig (Elt Ideal)) : IVec S640000 32 :=
  broadcastInDim S640000 ![] bcast_S_S640000 (val_main_c_10 V)
def val_main_v89 (V : Valuation τ sig (Elt Ideal)) : IVec S640000 1 :=
  cmpi .slt (val_main_v1 V) (val_main_v88 V)
def val_main_c_11 (V : Valuation τ sig (Elt Ideal)) : IVec S_ 32 :=
  constantI S_ 32 20000#32
def val_main_v90 (V : Valuation τ sig (Elt Ideal)) : IVec S640000 32 :=
  broadcastInDim S640000 ![] bcast_S_S640000 (val_main_c_11 V)
def val_main_v91 (V : Valuation τ sig (Elt Ideal)) : IVec S640000 32 :=
  addi (val_main_v1 V) (val_main_v90 V)
def val_main_v92 (V : Valuation τ sig (Elt Ideal)) : IVec S640000 32 :=
  select (val_main_v89 V) (val_main_v91 V) (val_main_v1 V)
def val_main_v93 (V : Valuation τ sig (Elt Ideal)) : IVec S640000x1 32 :=
  broadcastInDim S640000x1 ![0] bcast_S640000_S640000x1_0 (val_main_v92 V)
def val_main_v94 (V : Valuation τ sig (Elt Ideal)) : FVec Ideal S640000x128 .f32 :=
  Host.gather gather_S20000x128_S640000x1_S640000x128_1_0_n_n_0_1_1128 (val_main_v87 V) (val_main_v93 V)
def val_main_cst_12 (V : Valuation τ sig (Elt Ideal)) : FVec Ideal S_ .f32 :=
  constant (F := Ideal) S_ .f32 0x00000000#32
def val_main_v95 (V : Valuation τ sig (Elt Ideal)) : FVec Ideal S20000x128 .f32 :=
  broadcastInDim S20000x128 ![] bcast_S_S20000x128 (val_main_cst_12 V)
def val_main_v96 (V : Valuation τ sig (Elt Ideal)) : IVec S640000x1 32 :=
  broadcastInDim S640000x1 ![0] bcast_S640000_S640000x1_0 (val_main_v3 V)
def val_main_v97 (V : Valuation τ sig (Elt Ideal)) : FVec Ideal S20000x128 .f32 :=
  Host.scatterAdd scatter_S20000x128_S640000x1_S640000x128_1_0_0_1 (val_main_v95 V) (val_main_v96 V) (val_main_v94 V)
def val_main_v98 (V : Valuation τ sig (Elt Ideal)) : FVec Ideal S1 .f32 :=
  extractStridedSlice S1 ![1] (val_main_arg11 V) slices_S3_S1_1
def val_main_v99 (V : Valuation τ sig (Elt Ideal)) : FVec Ideal S_ .f32 :=
  shapeCast S_ (val_main_v98 V) shapeCasts_S1_S_
def val_main_cst_13 (V : Valuation τ sig (Elt Ideal)) : FVec Ideal S_ .f32 :=
  constant (F := Ideal) S_ .f32 0x3F800000#32
def val_main_v100 (V : Valuation τ sig (Elt Ideal)) : FVec Ideal S_ .f32 :=
  addf (val_main_cst_13 V) (val_main_v99 V)
def val_main_v101 (V : Valuation τ sig (Elt Ideal)) : FVec Ideal S20000x128 .f32 :=
  broadcastInDim S20000x128 ![] bcast_S_S20000x128 (val_main_v100 V)
def val_main_v102 (V : Valuation τ sig (Elt Ideal)) : FVec Ideal S20000x128 .f32 :=
  mulf (val_main_v101 V) (val_main_v87 V)
def val_main_v103 (V : Valuation τ sig (Elt Ideal)) : FVec Ideal S20000x128 .f32 :=
  addf (val_main_v102 V) (val_main_v97 V)

end Cert.ReferenceIdeal.RefVal

end
-- ==== Proof.Ref.ValRun1.lean ====
/-
  What the reference's statements 61 … 120 leave in the buffers later statements read: from contents that hold, in each
  buffer the window reads, the value of the statement that wrote it, each such buffer ends at the value of its own statement.
-/
import proofs.«411025_j54640573939922_1_alg».proof.Proof.Ref.OpsP1
import proofs.«411025_j54640573939922_1_alg».proof.Proof.Ref.ValDefs1

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run1_main_v103 (V Vk : Valuation τ sig (Elt Ideal))
    (h_main_v35 : Vk (Proc.devRef .tc main_v35) = val_main_v35 V)
    (h_main_v51 : Vk (Proc.devRef .tc main_v51) = val_main_v51 V)
    (h_main_arg9 : Vk (Proc.devRef .tc main_arg9) = val_main_arg9 V)
    (h_main_arg10 : Vk (Proc.devRef .tc main_arg10) = val_main_arg10 V)
    (h_main_arg12 : Vk (Proc.devRef .tc main_arg12) = val_main_arg12 V)
    (h_main_arg13 : Vk (Proc.devRef .tc main_arg13) = val_main_arg13 V)
    (h_main_v1 : Vk (Proc.devRef .tc main_v1) = val_main_v1 V)
    (h_main_v3 : Vk (Proc.devRef .tc main_v3) = val_main_v3 V)
    (h_main_arg11 : Vk (Proc.devRef .tc main_arg11) = val_main_arg11 V) :
    after (opsP1 (F := Ideal)) Vk (Proc.devRef .tc main_v103) = val_main_v103 V := by
  dsimp only [opsP1]
  after_results_simp
  simp only [h_main_v35, h_main_v51, h_main_arg9, h_main_arg10, h_main_arg12, h_main_arg13, h_main_v1, h_main_v3, h_main_arg11]
  rfl

end Cert.ReferenceIdeal.RefVal

end
-- ==== Proof.Ref.ValDefs2.lean ====
/-
  The values of the reference's statements 121 … 180 at the ideal instance, one definition per operation: each is its
  operation applied to the values of the operations it reads, the sixteen arguments read off an arbitrary valuation.
-/
import proofs.«411025_j54640573939922_1_alg».proof.Proof.Ref.ValDefs1

noncomputable section

namespace Cert.ReferenceIdeal.RefVal

open Cert.ReferenceIdeal Cert.ReferenceIdeal.Gen Idealize.ShloMosaic Idealize.ShloMosaic.TcCoe Idealize.SL.Sem Idealize.ShloMosaic.StableHlo

def val_main_v104 (V : Valuation τ sig (Elt Ideal)) : FVec Ideal S1x128x128 .f32 :=
  extractStridedSlice S1x128x128 ![1, 0, 0] (val_main_arg5 V) slices_S3x128x128_S1x128x128_1_0_0
def val_main_v105 (V : Valuation τ sig (Elt Ideal)) : FVec Ideal S128x128 .f32 :=
  shapeCast S128x128 (val_main_v104 V) shapeCasts_S1x128x128_S128x128
def val_main_v106 (V : Valuation τ sig (Elt Ideal)) : FVec Ideal S20000x128 .f32 :=
  Host.dotGeneral (F := Ideal) dot_S20000x128_S128x128_S20000x128_1_0_0_1_n_n none (val_main_v103 V) (val_main_v105 V)
def val_main_v107 (V : Valuation τ sig (Elt Ideal)) : FVec Ideal S1x128 .f32 :=
  extractStridedSlice S1x128 ![1, 0] (val_main_arg6 V) slices_S3x128_S1x128_1_0
def val_main_v108 (V : Valuation τ sig (Elt Ideal)) : FVec Ideal S128 .f32 :=
  shapeCast S128 (val_main_v107 V) shapeCasts_S1x128_S128
def val_main_v109 (V : Valuation τ sig (Elt Ideal)) : FVec Ideal S1x128 .f32 :=
  broadcastInDim S1x128 ![1] bcast_S128_S1x128_1 (val_main_v108 V)
def val_main_v110 (V : Valuation τ sig (Elt Ideal)) : FVec Ideal S20000x128 .f32 :=
  broadcastInDim S20000x128 ![0, 1] bcast_S1x128_S20000x128_0_1 (val_main_v109 V)
def val_main_v111 (V : Valuation τ sig (Elt Ideal)) : FVec Ideal S20000x128 .f32 :=
  addf (val_main_v106 V) (val_main_v110 V)
def val_main_v112 (V : Valuation τ sig (Elt Ideal)) : FVec Ideal S1x128 .f32 :=
  extractStridedSlice S1x128 ![1, 0] (val_main_arg7 V) slices_S3x128_S1x128_1_0
def val_main_v113 (V : Valuation τ sig (Elt Ideal)) : FVec Ideal S128 .f32 :=
  shapeCast S128 (val_main_v112 V) shapeCasts_S1x128_S128
def val_main_v114 (V : Valuation τ sig (Elt Ideal)) : FVec Ideal S1x128 .f32 :=
  extractStridedSlice S1x128 ![1, 0] (val_main_arg8 V) slices_S3x128_S1x128_1_0
def val_main_v115 (V : Valuation τ sig (Elt Ideal)) : FVec Ideal S128 .f32 :=
  shapeCast S128 (val_main_v114 V) shapeCasts_S1x128_S128
def val_main_cst_14 (V : Valuation τ sig (Elt Ideal)) : FVec Ideal S_ .f32 :=
  constant (F := Ideal) S_ .f32 0x00000000#32
def val_main_v116 (V : Valuation τ sig (Elt Ideal)) : FVec Ideal S128 .f32 :=
  Host.reduceAdd (val_main_v111 V) (val_main_cst_14 V) reducesTo_S20000x128_S128_d0 h_S_
def val_main_cst_15 (V : Valuation τ sig (Elt Ideal)) : FVec Ideal S_ .f32 :=
  constant (F := Ideal) S_ .f32 0x469C4000#32
def val_main_v117 (V : Valuation τ sig (Elt Ideal)) : FVec Ideal S128 .f32 :=
  broadcastInDim S128 ![] bcast_S_S128 (val_main_cst_15 V)
def val_main_v118 (V : Valuation τ sig (Elt Ideal)) : FVec Ideal S128 .f32 :=
  Host.divf (val_main_v116 V) (val_main_v117 V)
def val_main_c_16 (V : Valuation τ sig (Elt Ideal)) : IVec S_ 32 :=
  constantI S_ 32 0#32
def val_main_call4_cst (V : Valuation τ sig (Elt Ideal)) : FVec Ideal S_ .f32 :=
  constant (F := Ideal) S_ .f32 0x00000000#32
def val_main_call4_v0 (V : Valuation τ sig (Elt Ideal)) : FVec Ideal S128 .f32 :=
  Host.reduceAdd (val_main_v111 V) (val_main_call4_cst V) reducesTo_S20000x128_S128_d0 h_S_
def val_main_call4_v1 (V : Valuation τ sig (Elt Ideal)) : FVec Ideal S1x128 .f32 :=
  broadcastInDim S1x128 ![1] bcast_S128_S1x128_1 (val_main_call4_v0 V)
def val_main_call4_cst_0 (V : Valuation τ sig (Elt Ideal)) : FVec Ideal S_ .f32 :=
  constant (F := Ideal) S_ .f32 0x469C4000#32
def val_main_call4_v2 (V : Valuation τ sig (Elt Ideal)) : FVec Ideal S1x128 .f32 :=
  broadcastInDim S1x128 ![] bcast_S_S1x128 (val_main_call4_cst_0 V)
def val_main_call4_v3 (V : Valuation τ sig (Elt Ideal)) : FVec Ideal S1x128 .f32 :=
  Host.divf (val_main_call4_v1 V) (val_main_call4_v2 V)
def val_main_call4_v4 (V : Valuation τ sig (Elt Ideal)) : FVec Ideal S20000x128 .f32 :=
  broadcastInDim S20000x128 ![0, 1] bcast_S1x128_S20000x128_0_1 (val_main_call4_v3 V)
def val_main_call4_v5 (V : Valuation τ sig (Elt Ideal)) : FVec Ideal S20000x128 .f32 :=
  subf (val_main_v111 V) (val_main_call4_v4 V)
def val_main_call4_v6 (V : Valuation τ sig (Elt Ideal)) : FVec Ideal S20000x128 .f32 :=
  mulf (val_main_call4_v5 V) (val_main_call4_v5 V)
def val_main_call4_v7 (V : Valuation τ sig (Elt Ideal)) : FVec Ideal S_ .f32 :=
  sitofp (F := Ideal) .f32 (val_main_c_16 V)
def val_main_call4_cst_1 (V : Valuation τ sig (Elt Ideal)) : FVec Ideal S_ .f32 :=
  constant (F := Ideal) S_ .f32 0x469C4000#32
def val_main_call4_v8 (V : Valuation τ sig (Elt Ideal)) : FVec Ideal S_ .f32 :=
  subf (val_main_call4_cst_1 V) (val_main_call4_v7 V)
def val_main_call4_cst_2 (V : Valuation τ sig (Elt Ideal)) : FVec Ideal S_ .f32 :=
  constant (F := Ideal) S_ .f32 0x00000000#32
def val_main_call4_v9 (V : Valuation τ sig (Elt Ideal)) : FVec Ideal S128 .f32 :=
  Host.reduceAdd (val_main_call4_v6 V) (val_main_call4_cst_2 V) reducesTo_S20000x128_S128_d0 h_S_
def val_main_call4_v10 (V : Valuation τ sig (Elt Ideal)) : FVec Ideal S128 .f32 :=
  broadcastInDim S128 ![] bcast_S_S128 (val_main_call4_v8 V)
def val_main_call4_v11 (V : Valuation τ sig (Elt Ideal)) : FVec Ideal S128 .f32 :=
  Host.divf (val_main_call4_v9 V) (val_main_call4_v10 V)
def val_main_call4_cst_3 (V : Valuation τ sig (Elt Ideal)) : FVec Ideal S_ .f32 :=
  constant (F := Ideal) S_ .f32 0x00000000#32
def val_main_call4_v12 (V : Valuation τ sig (Elt Ideal)) : IVec S_ 1 :=
  cmpf .ogt (val_main_call4_v8 V) (val_main_call4_cst_3 V)
def val_main_call4_cst_4 (V : Valuation τ sig (Elt Ideal)) : FVec Ideal S_ .f32 :=
  constant (F := Ideal) S_ .f32 0x7FC00000#32
def val_main_call4_call0_v0 (V : Valuation τ sig (Elt Ideal)) : FVec Ideal S_ .f32 :=
  val_main_call4_cst_4 V
def val_main_call4_call0_v1 (V : Valuation τ sig (Elt Ideal)) : FVec Ideal S128 .f32 :=
  broadcastInDim S128 ![] bcast_S_S128 (val_main_call4_call0_v0 V)
def val_main_v119 (V : Valuation τ sig (Elt Ideal)) : FVec Ideal S128 .f32 :=
  select (broadcastInDim S128 ![] bcast_S_S128 (val_main_call4_v12 V)) (val_main_call4_v11 V) (val_main_call4_call0_v1 V)
def val_main_v120 (V : Valuation τ sig (Elt Ideal)) : FVec Ideal S1x128 .f32 :=
  broadcastInDim S1x128 ![1] bcast_S128_S1x128_1 (val_main_v118 V)
def val_main_v121 (V : Valuation τ sig (Elt Ideal)) : FVec Ideal S20000x128 .f32 :=
  broadcastInDim S20000x128 ![0, 1] bcast_S1x128_S20000x128_0_1 (val_main_v120 V)
def val_main_v122 (V : Valuation τ sig (Elt Ideal)) : FVec Ideal S20000x128 .f32 :=
  subf (val_main_v111 V) (val_main_v121 V)
def val_main_v123 (V : Valuation τ sig (Elt Ideal)) : FVec Ideal S1x128 .f32 :=
  broadcastInDim S1x128 ![1] bcast_S128_S1x128_1 (val_main_v113 V)
def val_main_v124 (V : Valuation τ sig (Elt Ideal)) : FVec Ideal S20000x128 .f32 :=
  broadcastInDim S20000x128 ![0, 1] bcast_S1x128_S20000x128_0_1 (val_main_v123 V)
def val_main_v125 (V : Valuation τ sig (Elt Ideal)) : FVec Ideal S20000x128 .f32 :=
  mulf (val_main_v124 V) (val_main_v122 V)
def val_main_cst_17 (V : Valuation τ sig (Elt Ideal)) : FVec Ideal S_ .f32 :=
  constant (F := Ideal) S_ .f32 0x3727C5AC#32
def val_main_v126 (V : Valuation τ sig (Elt Ideal)) : FVec Ideal S128 .f32 :=
  broadcastInDim S128 ![] bcast_S_S128 (val_main_cst_17 V)
def val_main_v127 (V : Valuation τ sig (Elt Ideal)) : FVec Ideal S128 .f32 :=
  addf (val_main_v119 V) (val_main_v126 V)
def val_main_v128 (V : Valuation τ sig (Elt Ideal)) : FVec Ideal S128 .f32 :=
  Host.rsqrt (val_main_v127 V)
def val_main_v129 (V : Valuation τ sig (Elt Ideal)) : FVec Ideal S1x128 .f32 :=
  broadcastInDim S1x128 ![1] bcast_S128_S1x128_1 (val_main_v128 V)
def val_main_v130 (V : Valuation τ sig (Elt Ideal)) : FVec Ideal S20000x128 .f32 :=
  broadcastInDim S20000x128 ![0, 1] bcast_S1x128_S20000x128_0_1 (val_main_v129 V)
def val_main_v131 (V : Valuation τ sig (Elt Ideal)) : FVec Ideal S20000x128 .f32 :=
  mulf (val_main_v125 V) (val_main_v130 V)
def val_main_v132 (V : Valuation τ sig (Elt Ideal)) : FVec Ideal S1x128 .f32 :=
  broadcastInDim S1x128 ![1] bcast_S128_S1x128_1 (val_main_v115 V)
def val_main_v133 (V : Valuation τ sig (Elt Ideal)) : FVec Ideal S20000x128 .f32 :=
  broadcastInDim S20000x128 ![0, 1] bcast_S1x128_S20000x128_0_1 (val_main_v132 V)
def val_main_v134 (V : Valuation τ sig (Elt Ideal)) : FVec Ideal S20000x128 .f32 :=
  addf (val_main_v131 V) (val_main_v133 V)
def val_main_call5_cst (V : Valuation τ sig (Elt Ideal)) : FVec Ideal S_ .f32 :=
  constant (F := Ideal) S_ .f32 0x00000000#32
def val_main_call5_v0 (V : Valuation τ sig (Elt Ideal)) : FVec Ideal S20000x128 .f32 :=
  broadcastInDim S20000x128 ![] bcast_S_S20000x128 (val_main_call5_cst V)
def val_main_v135 (V : Valuation τ sig (Elt Ideal)) : FVec Ideal S20000x128 .f32 :=
  maximumf (val_main_v134 V) (val_main_call5_v0 V)
def val_main_v136 (V : Valuation τ sig (Elt Ideal)) : FVec Ideal S1x128x128 .f32 :=
  extractStridedSlice S1x128x128 ![1, 0, 0] (val_main_arg9 V) slices_S3x128x128_S1x128x128_1_0_0
def val_main_v137 (V : Valuation τ sig (Elt Ideal)) : FVec Ideal S128x128 .f32 :=
  shapeCast S128x128 (val_main_v136 V) shapeCasts_S1x128x128_S128x128
def val_main_v138 (V : Valuation τ sig (Elt Ideal)) : FVec Ideal S20000x128 .f32 :=
  Host.dotGeneral (F := Ideal) dot_S20000x128_S128x128_S20000x128_1_0_0_1_n_n none (val_main_v135 V) (val_main_v137 V)
def val_main_v139 (V : Valuation τ sig (Elt Ideal)) : FVec Ideal S1x128 .f32 :=
  extractStridedSlice S1x128 ![1, 0] (val_main_arg10 V) slices_S3x128_S1x128_1_0
def val_main_v140 (V : Valuation τ sig (Elt Ideal)) : FVec Ideal S128 .f32 :=
  shapeCast S128 (val_main_v139 V) shapeCasts_S1x128_S128
def val_main_v141 (V : Valuation τ sig (Elt Ideal)) : FVec Ideal S1x128 .f32 :=
  broadcastInDim S1x128 ![1] bcast_S128_S1x128_1 (val_main_v140 V)
def val_main_v142 (V : Valuation τ sig (Elt Ideal)) : FVec Ideal S20000x128 .f32 :=
  broadcastInDim S20000x128 ![0, 1] bcast_S1x128_S20000x128_0_1 (val_main_v141 V)
def val_main_v143 (V : Valuation τ sig (Elt Ideal)) : FVec Ideal S20000x128 .f32 :=
  addf (val_main_v138 V) (val_main_v142 V)
def val_main_v144 (V : Valuation τ sig (Elt Ideal)) : FVec Ideal S1x128 .f32 :=
  extractStridedSlice S1x128 ![1, 0] (val_main_arg12 V) slices_S3x128_S1x128_1_0
def val_main_v145 (V : Valuation τ sig (Elt Ideal)) : FVec Ideal S128 .f32 :=
  shapeCast S128 (val_main_v144 V) shapeCasts_S1x128_S128
def val_main_v146 (V : Valuation τ sig (Elt Ideal)) : FVec Ideal S1x128 .f32 :=
  extractStridedSlice S1x128 ![1, 0] (val_main_arg13 V) slices_S3x128_S1x128_1_0
def val_main_v147 (V : Valuation τ sig (Elt Ideal)) : FVec Ideal S128 .f32 :=
  shapeCast S128 (val_main_v146 V) shapeCasts_S1x128_S128
def val_main_cst_18 (V : Valuation τ sig (Elt Ideal)) : FVec Ideal S_ .f32 :=
  constant (F := Ideal) S_ .f32 0x00000000#32
def val_main_v148 (V : Valuation τ sig (Elt Ideal)) : FVec Ideal S128 .f32 :=
  Host.reduceAdd (val_main_v143 V) (val_main_cst_18 V) reducesTo_S20000x128_S128_d0 h_S_
def val_main_cst_19 (V : Valuation τ sig (Elt Ideal)) : FVec Ideal S_ .f32 :=
  constant (F := Ideal) S_ .f32 0x469C4000#32
def val_main_v149 (V : Valuation τ sig (Elt Ideal)) : FVec Ideal S128 .f32 :=
  broadcastInDim S128 ![] bcast_S_S128 (val_main_cst_19 V)
def val_main_v150 (V : Valuation τ sig (Elt Ideal)) : FVec Ideal S128 .f32 :=
  Host.divf (val_main_v148 V) (val_main_v149 V)
def val_main_c_20 (V : Valuation τ sig (Elt Ideal)) : IVec S_ 32 :=
  constantI S_ 32 0#32
def val_main_call6_cst (V : Valuation τ sig (Elt Ideal)) : FVec Ideal S_ .f32 :=
  constant (F := Ideal) S_ .f32 0x00000000#32
def val_main_call6_v0 (V : Valuation τ sig (Elt Ideal)) : FVec Ideal S128 .f32 :=
  Host.reduceAdd (val_main_v143 V) (val_main_call6_cst V) reducesTo_S20000x128_S128_d0 h_S_
def val_main_call6_v1 (V : Valuation τ sig (Elt Ideal)) : FVec Ideal S1x128 .f32 :=
  broadcastInDim S1x128 ![1] bcast_S128_S1x128_1 (val_main_call6_v0 V)
def val_main_call6_cst_0 (V : Valuation τ sig (Elt Ideal)) : FVec Ideal S_ .f32 :=
  constant (F := Ideal) S_ .f32 0x469C4000#32
def val_main_call6_v2 (V : Valuation τ sig (Elt Ideal)) : FVec Ideal S1x128 .f32 :=
  broadcastInDim S1x128 ![] bcast_S_S1x128 (val_main_call6_cst_0 V)
def val_main_call6_v3 (V : Valuation τ sig (Elt Ideal)) : FVec Ideal S1x128 .f32 :=
  Host.divf (val_main_call6_v1 V) (val_main_call6_v2 V)
def val_main_call6_v4 (V : Valuation τ sig (Elt Ideal)) : FVec Ideal S20000x128 .f32 :=
  broadcastInDim S20000x128 ![0, 1] bcast_S1x128_S20000x128_0_1 (val_main_call6_v3 V)
def val_main_call6_v5 (V : Valuation τ sig (Elt Ideal)) : FVec Ideal S20000x128 .f32 :=
  subf (val_main_v143 V) (val_main_call6_v4 V)
def val_main_call6_v6 (V : Valuation τ sig (Elt Ideal)) : FVec Ideal S20000x128 .f32 :=
  mulf (val_main_call6_v5 V) (val_main_call6_v5 V)
def val_main_call6_v7 (V : Valuation τ sig (Elt Ideal)) : FVec Ideal S_ .f32 :=
  sitofp (F := Ideal) .f32 (val_main_c_20 V)
def val_main_call6_cst_1 (V : Valuation τ sig (Elt Ideal)) : FVec Ideal S_ .f32 :=
  constant (F := Ideal) S_ .f32 0x469C4000#32
def val_main_call6_v8 (V : Valuation τ sig (Elt Ideal)) : FVec Ideal S_ .f32 :=
  subf (val_main_call6_cst_1 V) (val_main_call6_v7 V)
def val_main_call6_cst_2 (V : Valuation τ sig (Elt Ideal)) : FVec Ideal S_ .f32 :=
  constant (F := Ideal) S_ .f32 0x00000000#32
def val_main_call6_v9 (V : Valuation τ sig (Elt Ideal)) : FVec Ideal S128 .f32 :=
  Host.reduceAdd (val_main_call6_v6 V) (val_main_call6_cst_2 V) reducesTo_S20000x128_S128_d0 h_S_
def val_main_call6_v10 (V : Valuation τ sig (Elt Ideal)) : FVec Ideal S128 .f32 :=
  broadcastInDim S128 ![] bcast_S_S128 (val_main_call6_v8 V)
def val_main_call6_v11 (V : Valuation τ sig (Elt Ideal)) : FVec Ideal S128 .f32 :=
  Host.divf (val_main_call6_v9 V) (val_main_call6_v10 V)
def val_main_call6_cst_3 (V : Valuation τ sig (Elt Ideal)) : FVec Ideal S_ .f32 :=
  constant (F := Ideal) S_ .f32 0x00000000#32
def val_main_call6_v12 (V : Valuation τ sig (Elt Ideal)) : IVec S_ 1 :=
  cmpf .ogt (val_main_call6_v8 V) (val_main_call6_cst_3 V)
def val_main_call6_cst_4 (V : Valuation τ sig (Elt Ideal)) : FVec Ideal S_ .f32 :=
  constant (F := Ideal) S_ .f32 0x7FC00000#32
def val_main_call6_call0_v0 (V : Valuation τ sig (Elt Ideal)) : FVec Ideal S_ .f32 :=
  val_main_call6_cst_4 V
def val_main_call6_call0_v1 (V : Valuation τ sig (Elt Ideal)) : FVec Ideal S128 .f32 :=
  broadcastInDim S128 ![] bcast_S_S128 (val_main_call6_call0_v0 V)
def val_main_v151 (V : Valuation τ sig (Elt Ideal)) : FVec Ideal S128 .f32 :=
  select (broadcastInDim S128 ![] bcast_S_S128 (val_main_call6_v12 V)) (val_main_call6_v11 V) (val_main_call6_call0_v1 V)
def val_main_v152 (V : Valuation τ sig (Elt Ideal)) : FVec Ideal S1x128 .f32 :=
  broadcastInDim S1x128 ![1] bcast_S128_S1x128_1 (val_main_v150 V)
def val_main_v153 (V : Valuation τ sig (Elt Ideal)) : FVec Ideal S20000x128 .f32 :=
  broadcastInDim S20000x128 ![0, 1] bcast_S1x128_S20000x128_0_1 (val_main_v152 V)
def val_main_v154 (V : Valuation τ sig (Elt Ideal)) : FVec Ideal S20000x128 .f32 :=
  subf (val_main_v143 V) (val_main_v153 V)
def val_main_v155 (V : Valuation τ sig (Elt Ideal)) : FVec Ideal S1x128 .f32 :=
  broadcastInDim S1x128 ![1] bcast_S128_S1x128_1 (val_main_v145 V)
def val_main_v156 (V : Valuation τ sig (Elt Ideal)) : FVec Ideal S20000x128 .f32 :=
  broadcastInDim S20000x128 ![0, 1] bcast_S1x128_S20000x128_0_1 (val_main_v155 V)

end Cert.ReferenceIdeal.RefVal

end
-- ==== Proof.Ref.ValRun2.lean ====
/-
  What the reference's statements 121 … 180 leave in the buffers later statements read: from contents that hold, in each
  buffer the window reads, the value of the statement that wrote it, each such buffer ends at the value of its own statement.
-/
import proofs.«411025_j54640573939922_1_alg».proof.Proof.Ref.OpsP2
import proofs.«411025_j54640573939922_1_alg».proof.Proof.Ref.ValDefs2

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run2_main_v156 (V Vk : Valuation τ sig (Elt Ideal))
    (h_main_arg12 : Vk (Proc.devRef .tc main_arg12) = val_main_arg12 V) :
    after (opsP2 (F := Ideal)) Vk (Proc.devRef .tc main_v156) = val_main_v156 V := by
  dsimp only [opsP2]
  after_results_simp
  simp only [h_main_arg12]
  rfl

theorem run2_main_v154 (V Vk : Valuation τ sig (Elt Ideal))
    (h_main_arg5 : Vk (Proc.devRef .tc main_arg5) = val_main_arg5 V)
    (h_main_v103 : Vk (Proc.devRef .tc main_v103) = val_main_v103 V)
    (h_main_arg6 : Vk (Proc.devRef .tc main_arg6) = val_main_arg6 V)
    (h_main_arg7 : Vk (Proc.devRef .tc main_arg7) = val_main_arg7 V)
    (h_main_arg8 : Vk (Proc.devRef .tc main_arg8) = val_main_arg8 V)
    (h_main_arg9 : Vk (Proc.devRef .tc main_arg9) = val_main_arg9 V)
    (h_main_arg10 : Vk (Proc.devRef .tc main_arg10) = val_main_arg10 V) :
    after (opsP2 (F := Ideal)) Vk (Proc.devRef .tc main_v154) = val_main_v154 V := by
  dsimp only [opsP2]
  after_results_simp
  simp only [h_main_arg5, h_main_v103, h_main_arg6, h_main_arg7, h_main_arg8, h_main_arg9, h_main_arg10]
  rfl

theorem run2_main_v151 (V Vk : Valuation τ sig (Elt Ideal))
    (h_main_arg5 : Vk (Proc.devRef .tc main_arg5) = val_main_arg5 V)
    (h_main_v103 : Vk (Proc.devRef .tc main_v103) = val_main_v103 V)
    (h_main_arg6 : Vk (Proc.devRef .tc main_arg6) = val_main_arg6 V)
    (h_main_arg7 : Vk (Proc.devRef .tc main_arg7) = val_main_arg7 V)
    (h_main_arg8 : Vk (Proc.devRef .tc main_arg8) = val_main_arg8 V)
    (h_main_arg9 : Vk (Proc.devRef .tc main_arg9) = val_main_arg9 V)
    (h_main_arg10 : Vk (Proc.devRef .tc main_arg10) = val_main_arg10 V) :
    after (opsP2 (F := Ideal)) Vk (Proc.devRef .tc main_v151) = val_main_v151 V := by
  dsimp only [opsP2]
  after_results_simp
  simp only [h_main_arg5, h_main_v103, h_main_arg6, h_main_arg7, h_main_arg8, h_main_arg9, h_main_arg10]
  rfl

theorem run2_main_v147 (V Vk : Valuation τ sig (Elt Ideal))
    (h_main_arg13 : Vk (Proc.devRef .tc main_arg13) = val_main_arg13 V) :
    after (opsP2 (F := Ideal)) Vk (Proc.devRef .tc main_v147) = val_main_v147 V := by
  dsimp only [opsP2]
  after_results_simp
  simp only [h_main_arg13]
  rfl

end Cert.ReferenceIdeal.RefVal

end
-- ==== Proof.Ref.ValDefs3.lean ====
/-
  The values of the reference's statements 181 … 240 at the ideal instance, one definition per operation: each is its
  operation applied to the values of the operations it reads, the sixteen arguments read off an arbitrary valuation.
-/
import proofs.«411025_j54640573939922_1_alg».proof.Proof.Ref.ValDefs2

noncomputable section

namespace Cert.ReferenceIdeal.RefVal

open Cert.ReferenceIdeal Cert.ReferenceIdeal.Gen Idealize.ShloMosaic Idealize.ShloMosaic.TcCoe Idealize.SL.Sem Idealize.ShloMosaic.StableHlo

def val_main_v157 (V : Valuation τ sig (Elt Ideal)) : FVec Ideal S20000x128 .f32 :=
  mulf (val_main_v156 V) (val_main_v154 V)
def val_main_cst_21 (V : Valuation τ sig (Elt Ideal)) : FVec Ideal S_ .f32 :=
  constant (F := Ideal) S_ .f32 0x3727C5AC#32
def val_main_v158 (V : Valuation τ sig (Elt Ideal)) : FVec Ideal S128 .f32 :=
  broadcastInDim S128 ![] bcast_S_S128 (val_main_cst_21 V)
def val_main_v159 (V : Valuation τ sig (Elt Ideal)) : FVec Ideal S128 .f32 :=
  addf (val_main_v151 V) (val_main_v158 V)
def val_main_v160 (V : Valuation τ sig (Elt Ideal)) : FVec Ideal S128 .f32 :=
  Host.rsqrt (val_main_v159 V)
def val_main_v161 (V : Valuation τ sig (Elt Ideal)) : FVec Ideal S1x128 .f32 :=
  broadcastInDim S1x128 ![1] bcast_S128_S1x128_1 (val_main_v160 V)
def val_main_v162 (V : Valuation τ sig (Elt Ideal)) : FVec Ideal S20000x128 .f32 :=
  broadcastInDim S20000x128 ![0, 1] bcast_S1x128_S20000x128_0_1 (val_main_v161 V)
def val_main_v163 (V : Valuation τ sig (Elt Ideal)) : FVec Ideal S20000x128 .f32 :=
  mulf (val_main_v157 V) (val_main_v162 V)
def val_main_v164 (V : Valuation τ sig (Elt Ideal)) : FVec Ideal S1x128 .f32 :=
  broadcastInDim S1x128 ![1] bcast_S128_S1x128_1 (val_main_v147 V)
def val_main_v165 (V : Valuation τ sig (Elt Ideal)) : FVec Ideal S20000x128 .f32 :=
  broadcastInDim S20000x128 ![0, 1] bcast_S1x128_S20000x128_0_1 (val_main_v164 V)
def val_main_v166 (V : Valuation τ sig (Elt Ideal)) : FVec Ideal S20000x128 .f32 :=
  addf (val_main_v163 V) (val_main_v165 V)
def val_main_call7_cst (V : Valuation τ sig (Elt Ideal)) : FVec Ideal S_ .f32 :=
  constant (F := Ideal) S_ .f32 0x00000000#32
def val_main_call7_v0 (V : Valuation τ sig (Elt Ideal)) : FVec Ideal S20000x128 .f32 :=
  broadcastInDim S20000x128 ![] bcast_S_S20000x128 (val_main_call7_cst V)
def val_main_v167 (V : Valuation τ sig (Elt Ideal)) : FVec Ideal S20000x128 .f32 :=
  maximumf (val_main_v166 V) (val_main_call7_v0 V)
def val_main_c_22 (V : Valuation τ sig (Elt Ideal)) : IVec S_ 32 :=
  constantI S_ 32 0#32
def val_main_v168 (V : Valuation τ sig (Elt Ideal)) : IVec S640000 32 :=
  broadcastInDim S640000 ![] bcast_S_S640000 (val_main_c_22 V)
def val_main_v169 (V : Valuation τ sig (Elt Ideal)) : IVec S640000 1 :=
  cmpi .slt (val_main_v1 V) (val_main_v168 V)
def val_main_c_23 (V : Valuation τ sig (Elt Ideal)) : IVec S_ 32 :=
  constantI S_ 32 20000#32
def val_main_v170 (V : Valuation τ sig (Elt Ideal)) : IVec S640000 32 :=
  broadcastInDim S640000 ![] bcast_S_S640000 (val_main_c_23 V)
def val_main_v171 (V : Valuation τ sig (Elt Ideal)) : IVec S640000 32 :=
  addi (val_main_v1 V) (val_main_v170 V)
def val_main_v172 (V : Valuation τ sig (Elt Ideal)) : IVec S640000 32 :=
  select (val_main_v169 V) (val_main_v171 V) (val_main_v1 V)
def val_main_v173 (V : Valuation τ sig (Elt Ideal)) : IVec S640000x1 32 :=
  broadcastInDim S640000x1 ![0] bcast_S640000_S640000x1_0 (val_main_v172 V)
def val_main_v174 (V : Valuation τ sig (Elt Ideal)) : FVec Ideal S640000x128 .f32 :=
  Host.gather gather_S20000x128_S640000x1_S640000x128_1_0_n_n_0_1_1128 (val_main_v167 V) (val_main_v173 V)
def val_main_cst_24 (V : Valuation τ sig (Elt Ideal)) : FVec Ideal S_ .f32 :=
  constant (F := Ideal) S_ .f32 0x00000000#32
def val_main_v175 (V : Valuation τ sig (Elt Ideal)) : FVec Ideal S20000x128 .f32 :=
  broadcastInDim S20000x128 ![] bcast_S_S20000x128 (val_main_cst_24 V)
def val_main_v176 (V : Valuation τ sig (Elt Ideal)) : IVec S640000x1 32 :=
  broadcastInDim S640000x1 ![0] bcast_S640000_S640000x1_0 (val_main_v3 V)
def val_main_v177 (V : Valuation τ sig (Elt Ideal)) : FVec Ideal S20000x128 .f32 :=
  Host.scatterAdd scatter_S20000x128_S640000x1_S640000x128_1_0_0_1 (val_main_v175 V) (val_main_v176 V) (val_main_v174 V)
def val_main_v178 (V : Valuation τ sig (Elt Ideal)) : FVec Ideal S1 .f32 :=
  extractStridedSlice S1 ![2] (val_main_arg11 V) slices_S3_S1_2
def val_main_v179 (V : Valuation τ sig (Elt Ideal)) : FVec Ideal S_ .f32 :=
  shapeCast S_ (val_main_v178 V) shapeCasts_S1_S_
def val_main_cst_25 (V : Valuation τ sig (Elt Ideal)) : FVec Ideal S_ .f32 :=
  constant (F := Ideal) S_ .f32 0x3F800000#32
def val_main_v180 (V : Valuation τ sig (Elt Ideal)) : FVec Ideal S_ .f32 :=
  addf (val_main_cst_25 V) (val_main_v179 V)
def val_main_v181 (V : Valuation τ sig (Elt Ideal)) : FVec Ideal S20000x128 .f32 :=
  broadcastInDim S20000x128 ![] bcast_S_S20000x128 (val_main_v180 V)
def val_main_v182 (V : Valuation τ sig (Elt Ideal)) : FVec Ideal S20000x128 .f32 :=
  mulf (val_main_v181 V) (val_main_v167 V)
def val_main_v183 (V : Valuation τ sig (Elt Ideal)) : FVec Ideal S20000x128 .f32 :=
  addf (val_main_v182 V) (val_main_v177 V)
def val_main_v184 (V : Valuation τ sig (Elt Ideal)) : FVec Ideal S1x128x128 .f32 :=
  extractStridedSlice S1x128x128 ![2, 0, 0] (val_main_arg5 V) slices_S3x128x128_S1x128x128_2_0_0
def val_main_v185 (V : Valuation τ sig (Elt Ideal)) : FVec Ideal S128x128 .f32 :=
  shapeCast S128x128 (val_main_v184 V) shapeCasts_S1x128x128_S128x128
def val_main_v186 (V : Valuation τ sig (Elt Ideal)) : FVec Ideal S20000x128 .f32 :=
  Host.dotGeneral (F := Ideal) dot_S20000x128_S128x128_S20000x128_1_0_0_1_n_n none (val_main_v183 V) (val_main_v185 V)
def val_main_v187 (V : Valuation τ sig (Elt Ideal)) : FVec Ideal S1x128 .f32 :=
  extractStridedSlice S1x128 ![2, 0] (val_main_arg6 V) slices_S3x128_S1x128_2_0
def val_main_v188 (V : Valuation τ sig (Elt Ideal)) : FVec Ideal S128 .f32 :=
  shapeCast S128 (val_main_v187 V) shapeCasts_S1x128_S128
def val_main_v189 (V : Valuation τ sig (Elt Ideal)) : FVec Ideal S1x128 .f32 :=
  broadcastInDim S1x128 ![1] bcast_S128_S1x128_1 (val_main_v188 V)
def val_main_v190 (V : Valuation τ sig (Elt Ideal)) : FVec Ideal S20000x128 .f32 :=
  broadcastInDim S20000x128 ![0, 1] bcast_S1x128_S20000x128_0_1 (val_main_v189 V)
def val_main_v191 (V : Valuation τ sig (Elt Ideal)) : FVec Ideal S20000x128 .f32 :=
  addf (val_main_v186 V) (val_main_v190 V)
def val_main_v192 (V : Valuation τ sig (Elt Ideal)) : FVec Ideal S1x128 .f32 :=
  extractStridedSlice S1x128 ![2, 0] (val_main_arg7 V) slices_S3x128_S1x128_2_0
def val_main_v193 (V : Valuation τ sig (Elt Ideal)) : FVec Ideal S128 .f32 :=
  shapeCast S128 (val_main_v192 V) shapeCasts_S1x128_S128
def val_main_v194 (V : Valuation τ sig (Elt Ideal)) : FVec Ideal S1x128 .f32 :=
  extractStridedSlice S1x128 ![2, 0] (val_main_arg8 V) slices_S3x128_S1x128_2_0
def val_main_v195 (V : Valuation τ sig (Elt Ideal)) : FVec Ideal S128 .f32 :=
  shapeCast S128 (val_main_v194 V) shapeCasts_S1x128_S128
def val_main_cst_26 (V : Valuation τ sig (Elt Ideal)) : FVec Ideal S_ .f32 :=
  constant (F := Ideal) S_ .f32 0x00000000#32
def val_main_v196 (V : Valuation τ sig (Elt Ideal)) : FVec Ideal S128 .f32 :=
  Host.reduceAdd (val_main_v191 V) (val_main_cst_26 V) reducesTo_S20000x128_S128_d0 h_S_
def val_main_cst_27 (V : Valuation τ sig (Elt Ideal)) : FVec Ideal S_ .f32 :=
  constant (F := Ideal) S_ .f32 0x469C4000#32
def val_main_v197 (V : Valuation τ sig (Elt Ideal)) : FVec Ideal S128 .f32 :=
  broadcastInDim S128 ![] bcast_S_S128 (val_main_cst_27 V)
def val_main_v198 (V : Valuation τ sig (Elt Ideal)) : FVec Ideal S128 .f32 :=
  Host.divf (val_main_v196 V) (val_main_v197 V)
def val_main_c_28 (V : Valuation τ sig (Elt Ideal)) : IVec S_ 32 :=
  constantI S_ 32 0#32
def val_main_call8_cst (V : Valuation τ sig (Elt Ideal)) : FVec Ideal S_ .f32 :=
  constant (F := Ideal) S_ .f32 0x00000000#32
def val_main_call8_v0 (V : Valuation τ sig (Elt Ideal)) : FVec Ideal S128 .f32 :=
  Host.reduceAdd (val_main_v191 V) (val_main_call8_cst V) reducesTo_S20000x128_S128_d0 h_S_
def val_main_call8_v1 (V : Valuation τ sig (Elt Ideal)) : FVec Ideal S1x128 .f32 :=
  broadcastInDim S1x128 ![1] bcast_S128_S1x128_1 (val_main_call8_v0 V)
def val_main_call8_cst_0 (V : Valuation τ sig (Elt Ideal)) : FVec Ideal S_ .f32 :=
  constant (F := Ideal) S_ .f32 0x469C4000#32
def val_main_call8_v2 (V : Valuation τ sig (Elt Ideal)) : FVec Ideal S1x128 .f32 :=
  broadcastInDim S1x128 ![] bcast_S_S1x128 (val_main_call8_cst_0 V)
def val_main_call8_v3 (V : Valuation τ sig (Elt Ideal)) : FVec Ideal S1x128 .f32 :=
  Host.divf (val_main_call8_v1 V) (val_main_call8_v2 V)
def val_main_call8_v4 (V : Valuation τ sig (Elt Ideal)) : FVec Ideal S20000x128 .f32 :=
  broadcastInDim S20000x128 ![0, 1] bcast_S1x128_S20000x128_0_1 (val_main_call8_v3 V)
def val_main_call8_v5 (V : Valuation τ sig (Elt Ideal)) : FVec Ideal S20000x128 .f32 :=
  subf (val_main_v191 V) (val_main_call8_v4 V)
def val_main_call8_v6 (V : Valuation τ sig (Elt Ideal)) : FVec Ideal S20000x128 .f32 :=
  mulf (val_main_call8_v5 V) (val_main_call8_v5 V)
def val_main_call8_v7 (V : Valuation τ sig (Elt Ideal)) : FVec Ideal S_ .f32 :=
  sitofp (F := Ideal) .f32 (val_main_c_28 V)
def val_main_call8_cst_1 (V : Valuation τ sig (Elt Ideal)) : FVec Ideal S_ .f32 :=
  constant (F := Ideal) S_ .f32 0x469C4000#32
def val_main_call8_v8 (V : Valuation τ sig (Elt Ideal)) : FVec Ideal S_ .f32 :=
  subf (val_main_call8_cst_1 V) (val_main_call8_v7 V)
def val_main_call8_cst_2 (V : Valuation τ sig (Elt Ideal)) : FVec Ideal S_ .f32 :=
  constant (F := Ideal) S_ .f32 0x00000000#32
def val_main_call8_v9 (V : Valuation τ sig (Elt Ideal)) : FVec Ideal S128 .f32 :=
  Host.reduceAdd (val_main_call8_v6 V) (val_main_call8_cst_2 V) reducesTo_S20000x128_S128_d0 h_S_
def val_main_call8_v10 (V : Valuation τ sig (Elt Ideal)) : FVec Ideal S128 .f32 :=
  broadcastInDim S128 ![] bcast_S_S128 (val_main_call8_v8 V)
def val_main_call8_v11 (V : Valuation τ sig (Elt Ideal)) : FVec Ideal S128 .f32 :=
  Host.divf (val_main_call8_v9 V) (val_main_call8_v10 V)
def val_main_call8_cst_3 (V : Valuation τ sig (Elt Ideal)) : FVec Ideal S_ .f32 :=
  constant (F := Ideal) S_ .f32 0x00000000#32
def val_main_call8_v12 (V : Valuation τ sig (Elt Ideal)) : IVec S_ 1 :=
  cmpf .ogt (val_main_call8_v8 V) (val_main_call8_cst_3 V)
def val_main_call8_cst_4 (V : Valuation τ sig (Elt Ideal)) : FVec Ideal S_ .f32 :=
  constant (F := Ideal) S_ .f32 0x7FC00000#32
def val_main_call8_call0_v0 (V : Valuation τ sig (Elt Ideal)) : FVec Ideal S_ .f32 :=
  val_main_call8_cst_4 V
def val_main_call8_call0_v1 (V : Valuation τ sig (Elt Ideal)) : FVec Ideal S128 .f32 :=
  broadcastInDim S128 ![] bcast_S_S128 (val_main_call8_call0_v0 V)
def val_main_v199 (V : Valuation τ sig (Elt Ideal)) : FVec Ideal S128 .f32 :=
  select (broadcastInDim S128 ![] bcast_S_S128 (val_main_call8_v12 V)) (val_main_call8_v11 V) (val_main_call8_call0_v1 V)
def val_main_v200 (V : Valuation τ sig (Elt Ideal)) : FVec Ideal S1x128 .f32 :=
  broadcastInDim S1x128 ![1] bcast_S128_S1x128_1 (val_main_v198 V)
def val_main_v201 (V : Valuation τ sig (Elt Ideal)) : FVec Ideal S20000x128 .f32 :=
  broadcastInDim S20000x128 ![0, 1] bcast_S1x128_S20000x128_0_1 (val_main_v200 V)
def val_main_v202 (V : Valuation τ sig (Elt Ideal)) : FVec Ideal S20000x128 .f32 :=
  subf (val_main_v191 V) (val_main_v201 V)
def val_main_v203 (V : Valuation τ sig (Elt Ideal)) : FVec Ideal S1x128 .f32 :=
  broadcastInDim S1x128 ![1] bcast_S128_S1x128_1 (val_main_v193 V)
def val_main_v204 (V : Valuation τ sig (Elt Ideal)) : FVec Ideal S20000x128 .f32 :=
  broadcastInDim S20000x128 ![0, 1] bcast_S1x128_S20000x128_0_1 (val_main_v203 V)
def val_main_v205 (V : Valuation τ sig (Elt Ideal)) : FVec Ideal S20000x128 .f32 :=
  mulf (val_main_v204 V) (val_main_v202 V)
def val_main_cst_29 (V : Valuation τ sig (Elt Ideal)) : FVec Ideal S_ .f32 :=
  constant (F := Ideal) S_ .f32 0x3727C5AC#32
def val_main_v206 (V : Valuation τ sig (Elt Ideal)) : FVec Ideal S128 .f32 :=
  broadcastInDim S128 ![] bcast_S_S128 (val_main_cst_29 V)
def val_main_v207 (V : Valuation τ sig (Elt Ideal)) : FVec Ideal S128 .f32 :=
  addf (val_main_v199 V) (val_main_v206 V)

end Cert.ReferenceIdeal.RefVal

end
-- ==== Proof.Ref.ValRun3.lean ====
/-
  What the reference's statements 181 … 240 leave in the buffers later statements read: from contents that hold, in each
  buffer the window reads, the value of the statement that wrote it, each such buffer ends at the value of its own statement.
-/
import proofs.«411025_j54640573939922_1_alg».proof.Proof.Ref.OpsP3
import proofs.«411025_j54640573939922_1_alg».proof.Proof.Ref.ValDefs3

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run3_main_v207 (V Vk : Valuation τ sig (Elt Ideal))
    (h_main_v156 : Vk (Proc.devRef .tc main_v156) = val_main_v156 V)
    (h_main_v154 : Vk (Proc.devRef .tc main_v154) = val_main_v154 V)
    (h_main_v151 : Vk (Proc.devRef .tc main_v151) = val_main_v151 V)
    (h_main_v147 : Vk (Proc.devRef .tc main_v147) = val_main_v147 V)
    (h_main_v1 : Vk (Proc.devRef .tc main_v1) = val_main_v1 V)
    (h_main_v3 : Vk (Proc.devRef .tc main_v3) = val_main_v3 V)
    (h_main_arg11 : Vk (Proc.devRef .tc main_arg11) = val_main_arg11 V)
    (h_main_arg5 : Vk (Proc.devRef .tc main_arg5) = val_main_arg5 V)
    (h_main_arg6 : Vk (Proc.devRef .tc main_arg6) = val_main_arg6 V) :
    after (opsP3 (F := Ideal)) Vk (Proc.devRef .tc main_v207) = val_main_v207 V := by
  dsimp only [opsP3]
  after_results_simp
  simp only [h_main_v156, h_main_v154, h_main_v151, h_main_v147, h_main_v1, h_main_v3, h_main_arg11, h_main_arg5, h_main_arg6]
  rfl

theorem run3_main_v205 (V Vk : Valuation τ sig (Elt Ideal))
    (h_main_v156 : Vk (Proc.devRef .tc main_v156) = val_main_v156 V)
    (h_main_v154 : Vk (Proc.devRef .tc main_v154) = val_main_v154 V)
    (h_main_v151 : Vk (Proc.devRef .tc main_v151) = val_main_v151 V)
    (h_main_v147 : Vk (Proc.devRef .tc main_v147) = val_main_v147 V)
    (h_main_v1 : Vk (Proc.devRef .tc main_v1) = val_main_v1 V)
    (h_main_v3 : Vk (Proc.devRef .tc main_v3) = val_main_v3 V)
    (h_main_arg11 : Vk (Proc.devRef .tc main_arg11) = val_main_arg11 V)
    (h_main_arg5 : Vk (Proc.devRef .tc main_arg5) = val_main_arg5 V)
    (h_main_arg6 : Vk (Proc.devRef .tc main_arg6) = val_main_arg6 V)
    (h_main_arg7 : Vk (Proc.devRef .tc main_arg7) = val_main_arg7 V) :
    after (opsP3 (F := Ideal)) Vk (Proc.devRef .tc main_v205) = val_main_v205 V := by
  dsimp only [opsP3]
  after_results_simp
  simp only [h_main_v156, h_main_v154, h_main_v151, h_main_v147, h_main_v1, h_main_v3, h_main_arg11, h_main_arg5, h_main_arg6, h_main_arg7]
  rfl

theorem run3_main_v195 (V Vk : Valuation τ sig (Elt Ideal))
    (h_main_arg8 : Vk (Proc.devRef .tc main_arg8) = val_main_arg8 V) :
    after (opsP3 (F := Ideal)) Vk (Proc.devRef .tc main_v195) = val_main_v195 V := by
  dsimp only [opsP3]
  after_results_simp
  simp only [h_main_arg8]
  rfl

end Cert.ReferenceIdeal.RefVal

end
-- ==== Proof.Ref.ValDefs4.lean ====
/-
  The values of the reference's statements 241 … 300 at the ideal instance, one definition per operation: each is its
  operation applied to the values of the operations it reads, the sixteen arguments read off an arbitrary valuation.
-/
import proofs.«411025_j54640573939922_1_alg».proof.Proof.Ref.ValDefs3

noncomputable section

namespace Cert.ReferenceIdeal.RefVal

open Cert.ReferenceIdeal Cert.ReferenceIdeal.Gen Idealize.ShloMosaic Idealize.ShloMosaic.TcCoe Idealize.SL.Sem Idealize.ShloMosaic.StableHlo

def val_main_v208 (V : Valuation τ sig (Elt Ideal)) : FVec Ideal S128 .f32 :=
  Host.rsqrt (val_main_v207 V)
def val_main_v209 (V : Valuation τ sig (Elt Ideal)) : FVec Ideal S1x128 .f32 :=
  broadcastInDim S1x128 ![1] bcast_S128_S1x128_1 (val_main_v208 V)
def val_main_v210 (V : Valuation τ sig (Elt Ideal)) : FVec Ideal S20000x128 .f32 :=
  broadcastInDim S20000x128 ![0, 1] bcast_S1x128_S20000x128_0_1 (val_main_v209 V)
def val_main_v211 (V : Valuation τ sig (Elt Ideal)) : FVec Ideal S20000x128 .f32 :=
  mulf (val_main_v205 V) (val_main_v210 V)
def val_main_v212 (V : Valuation τ sig (Elt Ideal)) : FVec Ideal S1x128 .f32 :=
  broadcastInDim S1x128 ![1] bcast_S128_S1x128_1 (val_main_v195 V)
def val_main_v213 (V : Valuation τ sig (Elt Ideal)) : FVec Ideal S20000x128 .f32 :=
  broadcastInDim S20000x128 ![0, 1] bcast_S1x128_S20000x128_0_1 (val_main_v212 V)
def val_main_v214 (V : Valuation τ sig (Elt Ideal)) : FVec Ideal S20000x128 .f32 :=
  addf (val_main_v211 V) (val_main_v213 V)
def val_main_call9_cst (V : Valuation τ sig (Elt Ideal)) : FVec Ideal S_ .f32 :=
  constant (F := Ideal) S_ .f32 0x00000000#32
def val_main_call9_v0 (V : Valuation τ sig (Elt Ideal)) : FVec Ideal S20000x128 .f32 :=
  broadcastInDim S20000x128 ![] bcast_S_S20000x128 (val_main_call9_cst V)
def val_main_v215 (V : Valuation τ sig (Elt Ideal)) : FVec Ideal S20000x128 .f32 :=
  maximumf (val_main_v214 V) (val_main_call9_v0 V)
def val_main_v216 (V : Valuation τ sig (Elt Ideal)) : FVec Ideal S1x128x128 .f32 :=
  extractStridedSlice S1x128x128 ![2, 0, 0] (val_main_arg9 V) slices_S3x128x128_S1x128x128_2_0_0
def val_main_v217 (V : Valuation τ sig (Elt Ideal)) : FVec Ideal S128x128 .f32 :=
  shapeCast S128x128 (val_main_v216 V) shapeCasts_S1x128x128_S128x128
def val_main_v218 (V : Valuation τ sig (Elt Ideal)) : FVec Ideal S20000x128 .f32 :=
  Host.dotGeneral (F := Ideal) dot_S20000x128_S128x128_S20000x128_1_0_0_1_n_n none (val_main_v215 V) (val_main_v217 V)
def val_main_v219 (V : Valuation τ sig (Elt Ideal)) : FVec Ideal S1x128 .f32 :=
  extractStridedSlice S1x128 ![2, 0] (val_main_arg10 V) slices_S3x128_S1x128_2_0
def val_main_v220 (V : Valuation τ sig (Elt Ideal)) : FVec Ideal S128 .f32 :=
  shapeCast S128 (val_main_v219 V) shapeCasts_S1x128_S128
def val_main_v221 (V : Valuation τ sig (Elt Ideal)) : FVec Ideal S1x128 .f32 :=
  broadcastInDim S1x128 ![1] bcast_S128_S1x128_1 (val_main_v220 V)
def val_main_v222 (V : Valuation τ sig (Elt Ideal)) : FVec Ideal S20000x128 .f32 :=
  broadcastInDim S20000x128 ![0, 1] bcast_S1x128_S20000x128_0_1 (val_main_v221 V)
def val_main_v223 (V : Valuation τ sig (Elt Ideal)) : FVec Ideal S20000x128 .f32 :=
  addf (val_main_v218 V) (val_main_v222 V)
def val_main_v224 (V : Valuation τ sig (Elt Ideal)) : FVec Ideal S1x128 .f32 :=
  extractStridedSlice S1x128 ![2, 0] (val_main_arg12 V) slices_S3x128_S1x128_2_0
def val_main_v225 (V : Valuation τ sig (Elt Ideal)) : FVec Ideal S128 .f32 :=
  shapeCast S128 (val_main_v224 V) shapeCasts_S1x128_S128
def val_main_v226 (V : Valuation τ sig (Elt Ideal)) : FVec Ideal S1x128 .f32 :=
  extractStridedSlice S1x128 ![2, 0] (val_main_arg13 V) slices_S3x128_S1x128_2_0
def val_main_v227 (V : Valuation τ sig (Elt Ideal)) : FVec Ideal S128 .f32 :=
  shapeCast S128 (val_main_v226 V) shapeCasts_S1x128_S128
def val_main_cst_30 (V : Valuation τ sig (Elt Ideal)) : FVec Ideal S_ .f32 :=
  constant (F := Ideal) S_ .f32 0x00000000#32
def val_main_v228 (V : Valuation τ sig (Elt Ideal)) : FVec Ideal S128 .f32 :=
  Host.reduceAdd (val_main_v223 V) (val_main_cst_30 V) reducesTo_S20000x128_S128_d0 h_S_
def val_main_cst_31 (V : Valuation τ sig (Elt Ideal)) : FVec Ideal S_ .f32 :=
  constant (F := Ideal) S_ .f32 0x469C4000#32
def val_main_v229 (V : Valuation τ sig (Elt Ideal)) : FVec Ideal S128 .f32 :=
  broadcastInDim S128 ![] bcast_S_S128 (val_main_cst_31 V)
def val_main_v230 (V : Valuation τ sig (Elt Ideal)) : FVec Ideal S128 .f32 :=
  Host.divf (val_main_v228 V) (val_main_v229 V)
def val_main_c_32 (V : Valuation τ sig (Elt Ideal)) : IVec S_ 32 :=
  constantI S_ 32 0#32
def val_main_call10_cst (V : Valuation τ sig (Elt Ideal)) : FVec Ideal S_ .f32 :=
  constant (F := Ideal) S_ .f32 0x00000000#32
def val_main_call10_v0 (V : Valuation τ sig (Elt Ideal)) : FVec Ideal S128 .f32 :=
  Host.reduceAdd (val_main_v223 V) (val_main_call10_cst V) reducesTo_S20000x128_S128_d0 h_S_
def val_main_call10_v1 (V : Valuation τ sig (Elt Ideal)) : FVec Ideal S1x128 .f32 :=
  broadcastInDim S1x128 ![1] bcast_S128_S1x128_1 (val_main_call10_v0 V)
def val_main_call10_cst_0 (V : Valuation τ sig (Elt Ideal)) : FVec Ideal S_ .f32 :=
  constant (F := Ideal) S_ .f32 0x469C4000#32
def val_main_call10_v2 (V : Valuation τ sig (Elt Ideal)) : FVec Ideal S1x128 .f32 :=
  broadcastInDim S1x128 ![] bcast_S_S1x128 (val_main_call10_cst_0 V)
def val_main_call10_v3 (V : Valuation τ sig (Elt Ideal)) : FVec Ideal S1x128 .f32 :=
  Host.divf (val_main_call10_v1 V) (val_main_call10_v2 V)
def val_main_call10_v4 (V : Valuation τ sig (Elt Ideal)) : FVec Ideal S20000x128 .f32 :=
  broadcastInDim S20000x128 ![0, 1] bcast_S1x128_S20000x128_0_1 (val_main_call10_v3 V)
def val_main_call10_v5 (V : Valuation τ sig (Elt Ideal)) : FVec Ideal S20000x128 .f32 :=
  subf (val_main_v223 V) (val_main_call10_v4 V)
def val_main_call10_v6 (V : Valuation τ sig (Elt Ideal)) : FVec Ideal S20000x128 .f32 :=
  mulf (val_main_call10_v5 V) (val_main_call10_v5 V)
def val_main_call10_v7 (V : Valuation τ sig (Elt Ideal)) : FVec Ideal S_ .f32 :=
  sitofp (F := Ideal) .f32 (val_main_c_32 V)
def val_main_call10_cst_1 (V : Valuation τ sig (Elt Ideal)) : FVec Ideal S_ .f32 :=
  constant (F := Ideal) S_ .f32 0x469C4000#32
def val_main_call10_v8 (V : Valuation τ sig (Elt Ideal)) : FVec Ideal S_ .f32 :=
  subf (val_main_call10_cst_1 V) (val_main_call10_v7 V)
def val_main_call10_cst_2 (V : Valuation τ sig (Elt Ideal)) : FVec Ideal S_ .f32 :=
  constant (F := Ideal) S_ .f32 0x00000000#32
def val_main_call10_v9 (V : Valuation τ sig (Elt Ideal)) : FVec Ideal S128 .f32 :=
  Host.reduceAdd (val_main_call10_v6 V) (val_main_call10_cst_2 V) reducesTo_S20000x128_S128_d0 h_S_
def val_main_call10_v10 (V : Valuation τ sig (Elt Ideal)) : FVec Ideal S128 .f32 :=
  broadcastInDim S128 ![] bcast_S_S128 (val_main_call10_v8 V)
def val_main_call10_v11 (V : Valuation τ sig (Elt Ideal)) : FVec Ideal S128 .f32 :=
  Host.divf (val_main_call10_v9 V) (val_main_call10_v10 V)
def val_main_call10_cst_3 (V : Valuation τ sig (Elt Ideal)) : FVec Ideal S_ .f32 :=
  constant (F := Ideal) S_ .f32 0x00000000#32
def val_main_call10_v12 (V : Valuation τ sig (Elt Ideal)) : IVec S_ 1 :=
  cmpf .ogt (val_main_call10_v8 V) (val_main_call10_cst_3 V)
def val_main_call10_cst_4 (V : Valuation τ sig (Elt Ideal)) : FVec Ideal S_ .f32 :=
  constant (F := Ideal) S_ .f32 0x7FC00000#32
def val_main_call10_call0_v0 (V : Valuation τ sig (Elt Ideal)) : FVec Ideal S_ .f32 :=
  val_main_call10_cst_4 V
def val_main_call10_call0_v1 (V : Valuation τ sig (Elt Ideal)) : FVec Ideal S128 .f32 :=
  broadcastInDim S128 ![] bcast_S_S128 (val_main_call10_call0_v0 V)
def val_main_v231 (V : Valuation τ sig (Elt Ideal)) : FVec Ideal S128 .f32 :=
  select (broadcastInDim S128 ![] bcast_S_S128 (val_main_call10_v12 V)) (val_main_call10_v11 V) (val_main_call10_call0_v1 V)
def val_main_v232 (V : Valuation τ sig (Elt Ideal)) : FVec Ideal S1x128 .f32 :=
  broadcastInDim S1x128 ![1] bcast_S128_S1x128_1 (val_main_v230 V)
def val_main_v233 (V : Valuation τ sig (Elt Ideal)) : FVec Ideal S20000x128 .f32 :=
  broadcastInDim S20000x128 ![0, 1] bcast_S1x128_S20000x128_0_1 (val_main_v232 V)
def val_main_v234 (V : Valuation τ sig (Elt Ideal)) : FVec Ideal S20000x128 .f32 :=
  subf (val_main_v223 V) (val_main_v233 V)
def val_main_v235 (V : Valuation τ sig (Elt Ideal)) : FVec Ideal S1x128 .f32 :=
  broadcastInDim S1x128 ![1] bcast_S128_S1x128_1 (val_main_v225 V)
def val_main_v236 (V : Valuation τ sig (Elt Ideal)) : FVec Ideal S20000x128 .f32 :=
  broadcastInDim S20000x128 ![0, 1] bcast_S1x128_S20000x128_0_1 (val_main_v235 V)
def val_main_v237 (V : Valuation τ sig (Elt Ideal)) : FVec Ideal S20000x128 .f32 :=
  mulf (val_main_v236 V) (val_main_v234 V)
def val_main_cst_33 (V : Valuation τ sig (Elt Ideal)) : FVec Ideal S_ .f32 :=
  constant (F := Ideal) S_ .f32 0x3727C5AC#32
def val_main_v238 (V : Valuation τ sig (Elt Ideal)) : FVec Ideal S128 .f32 :=
  broadcastInDim S128 ![] bcast_S_S128 (val_main_cst_33 V)
def val_main_v239 (V : Valuation τ sig (Elt Ideal)) : FVec Ideal S128 .f32 :=
  addf (val_main_v231 V) (val_main_v238 V)
def val_main_v240 (V : Valuation τ sig (Elt Ideal)) : FVec Ideal S128 .f32 :=
  Host.rsqrt (val_main_v239 V)
def val_main_v241 (V : Valuation τ sig (Elt Ideal)) : FVec Ideal S1x128 .f32 :=
  broadcastInDim S1x128 ![1] bcast_S128_S1x128_1 (val_main_v240 V)
def val_main_v242 (V : Valuation τ sig (Elt Ideal)) : FVec Ideal S20000x128 .f32 :=
  broadcastInDim S20000x128 ![0, 1] bcast_S1x128_S20000x128_0_1 (val_main_v241 V)
def val_main_v243 (V : Valuation τ sig (Elt Ideal)) : FVec Ideal S20000x128 .f32 :=
  mulf (val_main_v237 V) (val_main_v242 V)
def val_main_v244 (V : Valuation τ sig (Elt Ideal)) : FVec Ideal S1x128 .f32 :=
  broadcastInDim S1x128 ![1] bcast_S128_S1x128_1 (val_main_v227 V)
def val_main_v245 (V : Valuation τ sig (Elt Ideal)) : FVec Ideal S20000x128 .f32 :=
  broadcastInDim S20000x128 ![0, 1] bcast_S1x128_S20000x128_0_1 (val_main_v244 V)
def val_main_v246 (V : Valuation τ sig (Elt Ideal)) : FVec Ideal S20000x128 .f32 :=
  addf (val_main_v243 V) (val_main_v245 V)
def val_main_call11_cst (V : Valuation τ sig (Elt Ideal)) : FVec Ideal S_ .f32 :=
  constant (F := Ideal) S_ .f32 0x00000000#32
def val_main_call11_v0 (V : Valuation τ sig (Elt Ideal)) : FVec Ideal S20000x128 .f32 :=
  broadcastInDim S20000x128 ![] bcast_S_S20000x128 (val_main_call11_cst V)
def val_main_v247 (V : Valuation τ sig (Elt Ideal)) : FVec Ideal S20000x128 .f32 :=
  maximumf (val_main_v246 V) (val_main_call11_v0 V)
def val_main_cst_34 (V : Valuation τ sig (Elt Ideal)) : FVec Ideal S_ .f32 :=
  constant (F := Ideal) S_ .f32 0x00000000#32
def val_main_v248 (V : Valuation τ sig (Elt Ideal)) : FVec Ideal S128x128 .f32 :=
  broadcastInDim S128x128 ![] bcast_S_S128x128 (val_main_cst_34 V)
def val_main_v249 (V : Valuation τ sig (Elt Ideal)) : IVec S20000x1 32 :=
  broadcastInDim S20000x1 ![0] bcast_S20000_S20000x1_0 (val_main_arg2 V)
def val_main_v250 (V : Valuation τ sig (Elt Ideal)) : FVec Ideal S128x128 .f32 :=
  Host.scatterAdd scatter_S128x128_S20000x1_S20000x128_1_0_0_1 (val_main_v248 V) (val_main_v249 V) (val_main_v247 V)
def val_main_cst_35 (V : Valuation τ sig (Elt Ideal)) : FVec Ideal S_ .f32 :=
  constant (F := Ideal) S_ .f32 0x3F800000#32
def val_main_v251 (V : Valuation τ sig (Elt Ideal)) : FVec Ideal S20000 .f32 :=
  broadcastInDim S20000 ![] bcast_S_S20000 (val_main_cst_35 V)
def val_main_cst_36 (V : Valuation τ sig (Elt Ideal)) : FVec Ideal S_ .f32 :=
  constant (F := Ideal) S_ .f32 0x00000000#32
def val_main_v252 (V : Valuation τ sig (Elt Ideal)) : FVec Ideal S128 .f32 :=
  broadcastInDim S128 ![] bcast_S_S128 (val_main_cst_36 V)
def val_main_v253 (V : Valuation τ sig (Elt Ideal)) : IVec S20000x1 32 :=
  broadcastInDim S20000x1 ![0] bcast_S20000_S20000x1_0 (val_main_arg2 V)
def val_main_v254 (V : Valuation τ sig (Elt Ideal)) : FVec Ideal S128 .f32 :=
  Host.scatterAdd scatter_S128_S20000x1_S20000_n_0_0_1 (val_main_v252 V) (val_main_v253 V) (val_main_v251 V)
def val_main_cst_37 (V : Valuation τ sig (Elt Ideal)) : FVec Ideal S_ .f32 :=
  constant (F := Ideal) S_ .f32 0x3F800000#32
def val_main_v255 (V : Valuation τ sig (Elt Ideal)) : FVec Ideal S128 .f32 :=
  broadcastInDim S128 ![] bcast_S_S128 (val_main_cst_37 V)
def val_main_v256 (V : Valuation τ sig (Elt Ideal)) : FVec Ideal S128 .f32 :=
  maximumf (val_main_v254 V) (val_main_v255 V)
def val_main_v257 (V : Valuation τ sig (Elt Ideal)) : FVec Ideal S128x1 .f32 :=
  broadcastInDim S128x1 ![0] bcast_S128_S128x1_0 (val_main_v256 V)
def val_main_v258 (V : Valuation τ sig (Elt Ideal)) : FVec Ideal S128x128 .f32 :=
  broadcastInDim S128x128 ![0, 1] bcast_S128x1_S128x128_0_1 (val_main_v257 V)
def val_main_v259 (V : Valuation τ sig (Elt Ideal)) : FVec Ideal S128x128 .f32 :=
  Host.divf (val_main_v250 V) (val_main_v258 V)

end Cert.ReferenceIdeal.RefVal

end
-- ==== Proof.Ref.ValRun4.lean ====
/-
  What the reference's statements 241 … 300 leave in the buffers later statements read: from contents that hold, in each
  buffer the window reads, the value of the statement that wrote it, each such buffer ends at the value of its own statement.
-/
import proofs.«411025_j54640573939922_1_alg».proof.Proof.Ref.OpsP4
import proofs.«411025_j54640573939922_1_alg».proof.Proof.Ref.ValDefs4

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run4_main_v259 (V Vk : Valuation τ sig (Elt Ideal))
    (h_main_v207 : Vk (Proc.devRef .tc main_v207) = val_main_v207 V)
    (h_main_v205 : Vk (Proc.devRef .tc main_v205) = val_main_v205 V)
    (h_main_v195 : Vk (Proc.devRef .tc main_v195) = val_main_v195 V)
    (h_main_arg9 : Vk (Proc.devRef .tc main_arg9) = val_main_arg9 V)
    (h_main_arg10 : Vk (Proc.devRef .tc main_arg10) = val_main_arg10 V)
    (h_main_arg12 : Vk (Proc.devRef .tc main_arg12) = val_main_arg12 V)
    (h_main_arg13 : Vk (Proc.devRef .tc main_arg13) = val_main_arg13 V)
    (h_main_arg2 : Vk (Proc.devRef .tc main_arg2) = val_main_arg2 V) :
    after (opsP4 (F := Ideal)) Vk (Proc.devRef .tc main_v259) = val_main_v259 V := by
  dsimp only [opsP4]
  after_results_simp
  simp only [h_main_v207, h_main_v205, h_main_v195, h_main_arg9, h_main_arg10, h_main_arg12, h_main_arg13, h_main_arg2]
  rfl

end Cert.ReferenceIdeal.RefVal

end
-- ==== Proof.Ref.ValDefs5.lean ====
/-
  The values of the reference's statements 301 … 305 at the ideal instance, one definition per operation: each is its
  operation applied to the values of the operations it reads, the sixteen arguments read off an arbitrary valuation.
-/
import proofs.«411025_j54640573939922_1_alg».proof.Proof.Ref.ValDefs4

noncomputable section

namespace Cert.ReferenceIdeal.RefVal

open Cert.ReferenceIdeal Cert.ReferenceIdeal.Gen Idealize.ShloMosaic Idealize.ShloMosaic.TcCoe Idealize.SL.Sem Idealize.ShloMosaic.StableHlo

def val_main_v260 (V : Valuation τ sig (Elt Ideal)) : FVec Ideal S128x2 .f32 :=
  Host.dotGeneral (F := Ideal) dot_S128x128_S128x2_S128x2_1_0_0_1_n_n none (val_main_v259 V) (val_main_arg14 V)
def val_main_v261 (V : Valuation τ sig (Elt Ideal)) : FVec Ideal S1x2 .f32 :=
  broadcastInDim S1x2 ![1] bcast_S2_S1x2_1 (val_main_arg15 V)
def val_main_v262 (V : Valuation τ sig (Elt Ideal)) : FVec Ideal S128x2 .f32 :=
  broadcastInDim S128x2 ![0, 1] bcast_S1x2_S128x2_0_1 (val_main_v261 V)
def val_main_v263 (V : Valuation τ sig (Elt Ideal)) : FVec Ideal S128x2 .f32 :=
  addf (val_main_v260 V) (val_main_v262 V)

end Cert.ReferenceIdeal.RefVal

end
-- ==== Proof.Ref.ValRun5.lean ====
/-
  What the reference's statements 301 … 305 leave in the buffers later statements read: from contents that hold, in each
  buffer the window reads, the value of the statement that wrote it, each such buffer ends at the value of its own statement.
-/
import proofs.«411025_j54640573939922_1_alg».proof.Proof.Ref.OpsP5
import proofs.«411025_j54640573939922_1_alg».proof.Proof.Ref.ValDefs5

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

theorem run5_main_v263 (V Vk : Valuation τ sig (Elt Ideal))
    (h_main_v259 : Vk (Proc.devRef .tc main_v259) = val_main_v259 V)
    (h_main_arg14 : Vk (Proc.devRef .tc main_arg14) = val_main_arg14 V)
    (h_main_arg15 : Vk (Proc.devRef .tc main_arg15) = val_main_arg15 V) :
    after (opsP5 (F := Ideal)) Vk (Proc.devRef .tc main_v263) = val_main_v263 V := by
  dsimp only [opsP5]
  after_results_simp
  simp only [h_main_v259, h_main_arg14, h_main_arg15]
  rfl

end Cert.ReferenceIdeal.RefVal

end
-- ==== Proof.Ref.ValRunAll.lean ====
/-
  The reference's windows in turn: after each, every buffer a later window reads holds the value of the statement that
  wrote it (the arguments their launch contents), and after the last the result buffer holds the value of the last statement.
-/
import proofs.«411025_j54640573939922_1_alg».proof.Proof.Ref.Ops
import proofs.«411025_j54640573939922_1_alg».proof.Proof.Ref.ValRun0
import proofs.«411025_j54640573939922_1_alg».proof.Proof.Ref.ValRun1
import proofs.«411025_j54640573939922_1_alg».proof.Proof.Ref.ValRun2
import proofs.«411025_j54640573939922_1_alg».proof.Proof.Ref.ValRun3
import proofs.«411025_j54640573939922_1_alg».proof.Proof.Ref.ValRun4
import proofs.«411025_j54640573939922_1_alg».proof.Proof.Ref.ValRun5

noncomputable section

namespace Cert.ReferenceIdeal.RefVal

open Cert.ReferenceIdeal Cert.ReferenceIdeal.Gen Idealize.ShloMosaic Idealize.ShloMosaic.TcCoe Idealize.SL.Sem Idealize.ShloMosaic.StableHlo

open Cert.ReferenceIdeal.RefRun

set_option maxRecDepth 16384

/-- The contents after the first 1 windows. -/
abbrev X1 (W : Valuation τ sig (Elt Ideal)) : Valuation τ sig (Elt Ideal) := after (opsP0 (F := Ideal)) W
/-- The contents after the first 2 windows. -/
abbrev X2 (W : Valuation τ sig (Elt Ideal)) : Valuation τ sig (Elt Ideal) := after (opsP1 (F := Ideal)) (X1 W)
/-- The contents after the first 3 windows. -/
abbrev X3 (W : Valuation τ sig (Elt Ideal)) : Valuation τ sig (Elt Ideal) := after (opsP2 (F := Ideal)) (X2 W)
/-- The contents after the first 4 windows. -/
abbrev X4 (W : Valuation τ sig (Elt Ideal)) : Valuation τ sig (Elt Ideal) := after (opsP3 (F := Ideal)) (X3 W)
/-- The contents after the first 5 windows. -/
abbrev X5 (W : Valuation τ sig (Elt Ideal)) : Valuation τ sig (Elt Ideal) := after (opsP4 (F := Ideal)) (X4 W)

theorem at1_main_arg0 (W : Valuation τ sig (Elt Ideal)) : X1 W (Proc.devRef .tc main_arg0) = val_main_arg0 W :=
  opsP0_keep W main_arg0 (by decide)
theorem at2_main_arg0 (W : Valuation τ sig (Elt Ideal)) : X2 W (Proc.devRef .tc main_arg0) = val_main_arg0 W :=
  (opsP1_keep (X1 W) main_arg0 (by decide)).trans (at1_main_arg0 W)
theorem at3_main_arg0 (W : Valuation τ sig (Elt Ideal)) : X3 W (Proc.devRef .tc main_arg0) = val_main_arg0 W :=
  (opsP2_keep (X2 W) main_arg0 (by decide)).trans (at2_main_arg0 W)
theorem at4_main_arg0 (W : Valuation τ sig (Elt Ideal)) : X4 W (Proc.devRef .tc main_arg0) = val_main_arg0 W :=
  (opsP3_keep (X3 W) main_arg0 (by decide)).trans (at3_main_arg0 W)
theorem at5_main_arg0 (W : Valuation τ sig (Elt Ideal)) : X5 W (Proc.devRef .tc main_arg0) = val_main_arg0 W :=
  (opsP4_keep (X4 W) main_arg0 (by decide)).trans (at4_main_arg0 W)
theorem at1_main_arg1 (W : Valuation τ sig (Elt Ideal)) : X1 W (Proc.devRef .tc main_arg1) = val_main_arg1 W :=
  opsP0_keep W main_arg1 (by decide)
theorem at2_main_arg1 (W : Valuation τ sig (Elt Ideal)) : X2 W (Proc.devRef .tc main_arg1) = val_main_arg1 W :=
  (opsP1_keep (X1 W) main_arg1 (by decide)).trans (at1_main_arg1 W)
theorem at3_main_arg1 (W : Valuation τ sig (Elt Ideal)) : X3 W (Proc.devRef .tc main_arg1) = val_main_arg1 W :=
  (opsP2_keep (X2 W) main_arg1 (by decide)).trans (at2_main_arg1 W)
theorem at4_main_arg1 (W : Valuation τ sig (Elt Ideal)) : X4 W (Proc.devRef .tc main_arg1) = val_main_arg1 W :=
  (opsP3_keep (X3 W) main_arg1 (by decide)).trans (at3_main_arg1 W)
theorem at5_main_arg1 (W : Valuation τ sig (Elt Ideal)) : X5 W (Proc.devRef .tc main_arg1) = val_main_arg1 W :=
  (opsP4_keep (X4 W) main_arg1 (by decide)).trans (at4_main_arg1 W)
theorem at1_main_arg2 (W : Valuation τ sig (Elt Ideal)) : X1 W (Proc.devRef .tc main_arg2) = val_main_arg2 W :=
  opsP0_keep W main_arg2 (by decide)
theorem at2_main_arg2 (W : Valuation τ sig (Elt Ideal)) : X2 W (Proc.devRef .tc main_arg2) = val_main_arg2 W :=
  (opsP1_keep (X1 W) main_arg2 (by decide)).trans (at1_main_arg2 W)
theorem at3_main_arg2 (W : Valuation τ sig (Elt Ideal)) : X3 W (Proc.devRef .tc main_arg2) = val_main_arg2 W :=
  (opsP2_keep (X2 W) main_arg2 (by decide)).trans (at2_main_arg2 W)
theorem at4_main_arg2 (W : Valuation τ sig (Elt Ideal)) : X4 W (Proc.devRef .tc main_arg2) = val_main_arg2 W :=
  (opsP3_keep (X3 W) main_arg2 (by decide)).trans (at3_main_arg2 W)
theorem at5_main_arg2 (W : Valuation τ sig (Elt Ideal)) : X5 W (Proc.devRef .tc main_arg2) = val_main_arg2 W :=
  (opsP4_keep (X4 W) main_arg2 (by decide)).trans (at4_main_arg2 W)
theorem at1_main_arg3 (W : Valuation τ sig (Elt Ideal)) : X1 W (Proc.devRef .tc main_arg3) = val_main_arg3 W :=
  opsP0_keep W main_arg3 (by decide)
theorem at2_main_arg3 (W : Valuation τ sig (Elt Ideal)) : X2 W (Proc.devRef .tc main_arg3) = val_main_arg3 W :=
  (opsP1_keep (X1 W) main_arg3 (by decide)).trans (at1_main_arg3 W)
theorem at3_main_arg3 (W : Valuation τ sig (Elt Ideal)) : X3 W (Proc.devRef .tc main_arg3) = val_main_arg3 W :=
  (opsP2_keep (X2 W) main_arg3 (by decide)).trans (at2_main_arg3 W)
theorem at4_main_arg3 (W : Valuation τ sig (Elt Ideal)) : X4 W (Proc.devRef .tc main_arg3) = val_main_arg3 W :=
  (opsP3_keep (X3 W) main_arg3 (by decide)).trans (at3_main_arg3 W)
theorem at5_main_arg3 (W : Valuation τ sig (Elt Ideal)) : X5 W (Proc.devRef .tc main_arg3) = val_main_arg3 W :=
  (opsP4_keep (X4 W) main_arg3 (by decide)).trans (at4_main_arg3 W)
theorem at1_main_arg4 (W : Valuation τ sig (Elt Ideal)) : X1 W (Proc.devRef .tc main_arg4) = val_main_arg4 W :=
  opsP0_keep W main_arg4 (by decide)
theorem at2_main_arg4 (W : Valuation τ sig (Elt Ideal)) : X2 W (Proc.devRef .tc main_arg4) = val_main_arg4 W :=
  (opsP1_keep (X1 W) main_arg4 (by decide)).trans (at1_main_arg4 W)
theorem at3_main_arg4 (W : Valuation τ sig (Elt Ideal)) : X3 W (Proc.devRef .tc main_arg4) = val_main_arg4 W :=
  (opsP2_keep (X2 W) main_arg4 (by decide)).trans (at2_main_arg4 W)
theorem at4_main_arg4 (W : Valuation τ sig (Elt Ideal)) : X4 W (Proc.devRef .tc main_arg4) = val_main_arg4 W :=
  (opsP3_keep (X3 W) main_arg4 (by decide)).trans (at3_main_arg4 W)
theorem at5_main_arg4 (W : Valuation τ sig (Elt Ideal)) : X5 W (Proc.devRef .tc main_arg4) = val_main_arg4 W :=
  (opsP4_keep (X4 W) main_arg4 (by decide)).trans (at4_main_arg4 W)
theorem at1_main_arg5 (W : Valuation τ sig (Elt Ideal)) : X1 W (Proc.devRef .tc main_arg5) = val_main_arg5 W :=
  opsP0_keep W main_arg5 (by decide)
theorem at2_main_arg5 (W : Valuation τ sig (Elt Ideal)) : X2 W (Proc.devRef .tc main_arg5) = val_main_arg5 W :=
  (opsP1_keep (X1 W) main_arg5 (by decide)).trans (at1_main_arg5 W)
theorem at3_main_arg5 (W : Valuation τ sig (Elt Ideal)) : X3 W (Proc.devRef .tc main_arg5) = val_main_arg5 W :=
  (opsP2_keep (X2 W) main_arg5 (by decide)).trans (at2_main_arg5 W)
theorem at4_main_arg5 (W : Valuation τ sig (Elt Ideal)) : X4 W (Proc.devRef .tc main_arg5) = val_main_arg5 W :=
  (opsP3_keep (X3 W) main_arg5 (by decide)).trans (at3_main_arg5 W)
theorem at5_main_arg5 (W : Valuation τ sig (Elt Ideal)) : X5 W (Proc.devRef .tc main_arg5) = val_main_arg5 W :=
  (opsP4_keep (X4 W) main_arg5 (by decide)).trans (at4_main_arg5 W)
theorem at1_main_arg6 (W : Valuation τ sig (Elt Ideal)) : X1 W (Proc.devRef .tc main_arg6) = val_main_arg6 W :=
  opsP0_keep W main_arg6 (by decide)
theorem at2_main_arg6 (W : Valuation τ sig (Elt Ideal)) : X2 W (Proc.devRef .tc main_arg6) = val_main_arg6 W :=
  (opsP1_keep (X1 W) main_arg6 (by decide)).trans (at1_main_arg6 W)
theorem at3_main_arg6 (W : Valuation τ sig (Elt Ideal)) : X3 W (Proc.devRef .tc main_arg6) = val_main_arg6 W :=
  (opsP2_keep (X2 W) main_arg6 (by decide)).trans (at2_main_arg6 W)
theorem at4_main_arg6 (W : Valuation τ sig (Elt Ideal)) : X4 W (Proc.devRef .tc main_arg6) = val_main_arg6 W :=
  (opsP3_keep (X3 W) main_arg6 (by decide)).trans (at3_main_arg6 W)
theorem at5_main_arg6 (W : Valuation τ sig (Elt Ideal)) : X5 W (Proc.devRef .tc main_arg6) = val_main_arg6 W :=
  (opsP4_keep (X4 W) main_arg6 (by decide)).trans (at4_main_arg6 W)
theorem at1_main_arg7 (W : Valuation τ sig (Elt Ideal)) : X1 W (Proc.devRef .tc main_arg7) = val_main_arg7 W :=
  opsP0_keep W main_arg7 (by decide)
theorem at2_main_arg7 (W : Valuation τ sig (Elt Ideal)) : X2 W (Proc.devRef .tc main_arg7) = val_main_arg7 W :=
  (opsP1_keep (X1 W) main_arg7 (by decide)).trans (at1_main_arg7 W)
theorem at3_main_arg7 (W : Valuation τ sig (Elt Ideal)) : X3 W (Proc.devRef .tc main_arg7) = val_main_arg7 W :=
  (opsP2_keep (X2 W) main_arg7 (by decide)).trans (at2_main_arg7 W)
theorem at4_main_arg7 (W : Valuation τ sig (Elt Ideal)) : X4 W (Proc.devRef .tc main_arg7) = val_main_arg7 W :=
  (opsP3_keep (X3 W) main_arg7 (by decide)).trans (at3_main_arg7 W)
theorem at5_main_arg7 (W : Valuation τ sig (Elt Ideal)) : X5 W (Proc.devRef .tc main_arg7) = val_main_arg7 W :=
  (opsP4_keep (X4 W) main_arg7 (by decide)).trans (at4_main_arg7 W)
theorem at1_main_arg8 (W : Valuation τ sig (Elt Ideal)) : X1 W (Proc.devRef .tc main_arg8) = val_main_arg8 W :=
  opsP0_keep W main_arg8 (by decide)
theorem at2_main_arg8 (W : Valuation τ sig (Elt Ideal)) : X2 W (Proc.devRef .tc main_arg8) = val_main_arg8 W :=
  (opsP1_keep (X1 W) main_arg8 (by decide)).trans (at1_main_arg8 W)
theorem at3_main_arg8 (W : Valuation τ sig (Elt Ideal)) : X3 W (Proc.devRef .tc main_arg8) = val_main_arg8 W :=
  (opsP2_keep (X2 W) main_arg8 (by decide)).trans (at2_main_arg8 W)
theorem at4_main_arg8 (W : Valuation τ sig (Elt Ideal)) : X4 W (Proc.devRef .tc main_arg8) = val_main_arg8 W :=
  (opsP3_keep (X3 W) main_arg8 (by decide)).trans (at3_main_arg8 W)
theorem at5_main_arg8 (W : Valuation τ sig (Elt Ideal)) : X5 W (Proc.devRef .tc main_arg8) = val_main_arg8 W :=
  (opsP4_keep (X4 W) main_arg8 (by decide)).trans (at4_main_arg8 W)
theorem at1_main_arg9 (W : Valuation τ sig (Elt Ideal)) : X1 W (Proc.devRef .tc main_arg9) = val_main_arg9 W :=
  opsP0_keep W main_arg9 (by decide)
theorem at2_main_arg9 (W : Valuation τ sig (Elt Ideal)) : X2 W (Proc.devRef .tc main_arg9) = val_main_arg9 W :=
  (opsP1_keep (X1 W) main_arg9 (by decide)).trans (at1_main_arg9 W)
theorem at3_main_arg9 (W : Valuation τ sig (Elt Ideal)) : X3 W (Proc.devRef .tc main_arg9) = val_main_arg9 W :=
  (opsP2_keep (X2 W) main_arg9 (by decide)).trans (at2_main_arg9 W)
theorem at4_main_arg9 (W : Valuation τ sig (Elt Ideal)) : X4 W (Proc.devRef .tc main_arg9) = val_main_arg9 W :=
  (opsP3_keep (X3 W) main_arg9 (by decide)).trans (at3_main_arg9 W)
theorem at5_main_arg9 (W : Valuation τ sig (Elt Ideal)) : X5 W (Proc.devRef .tc main_arg9) = val_main_arg9 W :=
  (opsP4_keep (X4 W) main_arg9 (by decide)).trans (at4_main_arg9 W)
theorem at1_main_arg10 (W : Valuation τ sig (Elt Ideal)) : X1 W (Proc.devRef .tc main_arg10) = val_main_arg10 W :=
  opsP0_keep W main_arg10 (by decide)
theorem at2_main_arg10 (W : Valuation τ sig (Elt Ideal)) : X2 W (Proc.devRef .tc main_arg10) = val_main_arg10 W :=
  (opsP1_keep (X1 W) main_arg10 (by decide)).trans (at1_main_arg10 W)
theorem at3_main_arg10 (W : Valuation τ sig (Elt Ideal)) : X3 W (Proc.devRef .tc main_arg10) = val_main_arg10 W :=
  (opsP2_keep (X2 W) main_arg10 (by decide)).trans (at2_main_arg10 W)
theorem at4_main_arg10 (W : Valuation τ sig (Elt Ideal)) : X4 W (Proc.devRef .tc main_arg10) = val_main_arg10 W :=
  (opsP3_keep (X3 W) main_arg10 (by decide)).trans (at3_main_arg10 W)
theorem at5_main_arg10 (W : Valuation τ sig (Elt Ideal)) : X5 W (Proc.devRef .tc main_arg10) = val_main_arg10 W :=
  (opsP4_keep (X4 W) main_arg10 (by decide)).trans (at4_main_arg10 W)
theorem at1_main_arg11 (W : Valuation τ sig (Elt Ideal)) : X1 W (Proc.devRef .tc main_arg11) = val_main_arg11 W :=
  opsP0_keep W main_arg11 (by decide)
theorem at2_main_arg11 (W : Valuation τ sig (Elt Ideal)) : X2 W (Proc.devRef .tc main_arg11) = val_main_arg11 W :=
  (opsP1_keep (X1 W) main_arg11 (by decide)).trans (at1_main_arg11 W)
theorem at3_main_arg11 (W : Valuation τ sig (Elt Ideal)) : X3 W (Proc.devRef .tc main_arg11) = val_main_arg11 W :=
  (opsP2_keep (X2 W) main_arg11 (by decide)).trans (at2_main_arg11 W)
theorem at4_main_arg11 (W : Valuation τ sig (Elt Ideal)) : X4 W (Proc.devRef .tc main_arg11) = val_main_arg11 W :=
  (opsP3_keep (X3 W) main_arg11 (by decide)).trans (at3_main_arg11 W)
theorem at5_main_arg11 (W : Valuation τ sig (Elt Ideal)) : X5 W (Proc.devRef .tc main_arg11) = val_main_arg11 W :=
  (opsP4_keep (X4 W) main_arg11 (by decide)).trans (at4_main_arg11 W)
theorem at1_main_arg12 (W : Valuation τ sig (Elt Ideal)) : X1 W (Proc.devRef .tc main_arg12) = val_main_arg12 W :=
  opsP0_keep W main_arg12 (by decide)
theorem at2_main_arg12 (W : Valuation τ sig (Elt Ideal)) : X2 W (Proc.devRef .tc main_arg12) = val_main_arg12 W :=
  (opsP1_keep (X1 W) main_arg12 (by decide)).trans (at1_main_arg12 W)
theorem at3_main_arg12 (W : Valuation τ sig (Elt Ideal)) : X3 W (Proc.devRef .tc main_arg12) = val_main_arg12 W :=
  (opsP2_keep (X2 W) main_arg12 (by decide)).trans (at2_main_arg12 W)
theorem at4_main_arg12 (W : Valuation τ sig (Elt Ideal)) : X4 W (Proc.devRef .tc main_arg12) = val_main_arg12 W :=
  (opsP3_keep (X3 W) main_arg12 (by decide)).trans (at3_main_arg12 W)
theorem at5_main_arg12 (W : Valuation τ sig (Elt Ideal)) : X5 W (Proc.devRef .tc main_arg12) = val_main_arg12 W :=
  (opsP4_keep (X4 W) main_arg12 (by decide)).trans (at4_main_arg12 W)
theorem at1_main_arg13 (W : Valuation τ sig (Elt Ideal)) : X1 W (Proc.devRef .tc main_arg13) = val_main_arg13 W :=
  opsP0_keep W main_arg13 (by decide)
theorem at2_main_arg13 (W : Valuation τ sig (Elt Ideal)) : X2 W (Proc.devRef .tc main_arg13) = val_main_arg13 W :=
  (opsP1_keep (X1 W) main_arg13 (by decide)).trans (at1_main_arg13 W)
theorem at3_main_arg13 (W : Valuation τ sig (Elt Ideal)) : X3 W (Proc.devRef .tc main_arg13) = val_main_arg13 W :=
  (opsP2_keep (X2 W) main_arg13 (by decide)).trans (at2_main_arg13 W)
theorem at4_main_arg13 (W : Valuation τ sig (Elt Ideal)) : X4 W (Proc.devRef .tc main_arg13) = val_main_arg13 W :=
  (opsP3_keep (X3 W) main_arg13 (by decide)).trans (at3_main_arg13 W)
theorem at5_main_arg13 (W : Valuation τ sig (Elt Ideal)) : X5 W (Proc.devRef .tc main_arg13) = val_main_arg13 W :=
  (opsP4_keep (X4 W) main_arg13 (by decide)).trans (at4_main_arg13 W)
theorem at1_main_arg14 (W : Valuation τ sig (Elt Ideal)) : X1 W (Proc.devRef .tc main_arg14) = val_main_arg14 W :=
  opsP0_keep W main_arg14 (by decide)
theorem at2_main_arg14 (W : Valuation τ sig (Elt Ideal)) : X2 W (Proc.devRef .tc main_arg14) = val_main_arg14 W :=
  (opsP1_keep (X1 W) main_arg14 (by decide)).trans (at1_main_arg14 W)
theorem at3_main_arg14 (W : Valuation τ sig (Elt Ideal)) : X3 W (Proc.devRef .tc main_arg14) = val_main_arg14 W :=
  (opsP2_keep (X2 W) main_arg14 (by decide)).trans (at2_main_arg14 W)
theorem at4_main_arg14 (W : Valuation τ sig (Elt Ideal)) : X4 W (Proc.devRef .tc main_arg14) = val_main_arg14 W :=
  (opsP3_keep (X3 W) main_arg14 (by decide)).trans (at3_main_arg14 W)
theorem at5_main_arg14 (W : Valuation τ sig (Elt Ideal)) : X5 W (Proc.devRef .tc main_arg14) = val_main_arg14 W :=
  (opsP4_keep (X4 W) main_arg14 (by decide)).trans (at4_main_arg14 W)
theorem at1_main_arg15 (W : Valuation τ sig (Elt Ideal)) : X1 W (Proc.devRef .tc main_arg15) = val_main_arg15 W :=
  opsP0_keep W main_arg15 (by decide)
theorem at2_main_arg15 (W : Valuation τ sig (Elt Ideal)) : X2 W (Proc.devRef .tc main_arg15) = val_main_arg15 W :=
  (opsP1_keep (X1 W) main_arg15 (by decide)).trans (at1_main_arg15 W)
theorem at3_main_arg15 (W : Valuation τ sig (Elt Ideal)) : X3 W (Proc.devRef .tc main_arg15) = val_main_arg15 W :=
  (opsP2_keep (X2 W) main_arg15 (by decide)).trans (at2_main_arg15 W)
theorem at4_main_arg15 (W : Valuation τ sig (Elt Ideal)) : X4 W (Proc.devRef .tc main_arg15) = val_main_arg15 W :=
  (opsP3_keep (X3 W) main_arg15 (by decide)).trans (at3_main_arg15 W)
theorem at5_main_arg15 (W : Valuation τ sig (Elt Ideal)) : X5 W (Proc.devRef .tc main_arg15) = val_main_arg15 W :=
  (opsP4_keep (X4 W) main_arg15 (by decide)).trans (at4_main_arg15 W)

theorem at1_main_v35 (W : Valuation τ sig (Elt Ideal)) : X1 W (Proc.devRef .tc main_v35) = val_main_v35 W :=
  run0_main_v35 W
theorem at1_main_v51 (W : Valuation τ sig (Elt Ideal)) : X1 W (Proc.devRef .tc main_v51) = val_main_v51 W :=
  run0_main_v51 W
theorem at1_main_v1 (W : Valuation τ sig (Elt Ideal)) : X1 W (Proc.devRef .tc main_v1) = val_main_v1 W :=
  run0_main_v1 W
theorem at1_main_v3 (W : Valuation τ sig (Elt Ideal)) : X1 W (Proc.devRef .tc main_v3) = val_main_v3 W :=
  run0_main_v3 W
theorem at2_main_v103 (W : Valuation τ sig (Elt Ideal)) : X2 W (Proc.devRef .tc main_v103) = val_main_v103 W :=
  run1_main_v103 W (X1 W) (at1_main_v35 W) (at1_main_v51 W) (at1_main_arg9 W) (at1_main_arg10 W) (at1_main_arg12 W) (at1_main_arg13 W) (at1_main_v1 W) (at1_main_v3 W) (at1_main_arg11 W)
theorem at2_main_v1 (W : Valuation τ sig (Elt Ideal)) : X2 W (Proc.devRef .tc main_v1) = val_main_v1 W :=
  (opsP1_keep (X1 W) main_v1 (by decide)).trans (at1_main_v1 W)
theorem at2_main_v3 (W : Valuation τ sig (Elt Ideal)) : X2 W (Proc.devRef .tc main_v3) = val_main_v3 W :=
  (opsP1_keep (X1 W) main_v3 (by decide)).trans (at1_main_v3 W)
theorem at3_main_v156 (W : Valuation τ sig (Elt Ideal)) : X3 W (Proc.devRef .tc main_v156) = val_main_v156 W :=
  run2_main_v156 W (X2 W) (at2_main_arg12 W)
theorem at3_main_v154 (W : Valuation τ sig (Elt Ideal)) : X3 W (Proc.devRef .tc main_v154) = val_main_v154 W :=
  run2_main_v154 W (X2 W) (at2_main_arg5 W) (at2_main_v103 W) (at2_main_arg6 W) (at2_main_arg7 W) (at2_main_arg8 W) (at2_main_arg9 W) (at2_main_arg10 W)
theorem at3_main_v151 (W : Valuation τ sig (Elt Ideal)) : X3 W (Proc.devRef .tc main_v151) = val_main_v151 W :=
  run2_main_v151 W (X2 W) (at2_main_arg5 W) (at2_main_v103 W) (at2_main_arg6 W) (at2_main_arg7 W) (at2_main_arg8 W) (at2_main_arg9 W) (at2_main_arg10 W)
theorem at3_main_v147 (W : Valuation τ sig (Elt Ideal)) : X3 W (Proc.devRef .tc main_v147) = val_main_v147 W :=
  run2_main_v147 W (X2 W) (at2_main_arg13 W)
theorem at3_main_v1 (W : Valuation τ sig (Elt Ideal)) : X3 W (Proc.devRef .tc main_v1) = val_main_v1 W :=
  (opsP2_keep (X2 W) main_v1 (by decide)).trans (at2_main_v1 W)
theorem at3_main_v3 (W : Valuation τ sig (Elt Ideal)) : X3 W (Proc.devRef .tc main_v3) = val_main_v3 W :=
  (opsP2_keep (X2 W) main_v3 (by decide)).trans (at2_main_v3 W)
theorem at4_main_v207 (W : Valuation τ sig (Elt Ideal)) : X4 W (Proc.devRef .tc main_v207) = val_main_v207 W :=
  run3_main_v207 W (X3 W) (at3_main_v156 W) (at3_main_v154 W) (at3_main_v151 W) (at3_main_v147 W) (at3_main_v1 W) (at3_main_v3 W) (at3_main_arg11 W) (at3_main_arg5 W) (at3_main_arg6 W)
theorem at4_main_v205 (W : Valuation τ sig (Elt Ideal)) : X4 W (Proc.devRef .tc main_v205) = val_main_v205 W :=
  run3_main_v205 W (X3 W) (at3_main_v156 W) (at3_main_v154 W) (at3_main_v151 W) (at3_main_v147 W) (at3_main_v1 W) (at3_main_v3 W) (at3_main_arg11 W) (at3_main_arg5 W) (at3_main_arg6 W) (at3_main_arg7 W)
theorem at4_main_v195 (W : Valuation τ sig (Elt Ideal)) : X4 W (Proc.devRef .tc main_v195) = val_main_v195 W :=
  run3_main_v195 W (X3 W) (at3_main_arg8 W)
theorem at5_main_v259 (W : Valuation τ sig (Elt Ideal)) : X5 W (Proc.devRef .tc main_v259) = val_main_v259 W :=
  run4_main_v259 W (X4 W) (at4_main_v207 W) (at4_main_v205 W) (at4_main_v195 W) (at4_main_arg9 W) (at4_main_arg10 W) (at4_main_arg12 W) (at4_main_arg13 W) (at4_main_arg2 W)

/-- The reference's result buffer after all its operations holds the value of its last statement. -/
theorem run_val (W : Valuation τ sig (Elt Ideal)) :
    after (ops (F := Ideal)) W (Proc.devRef .tc main_v263) = val_main_v263 W := by
  rw [after_ops]
  exact run5_main_v263 W (X5 W) (at5_main_v259 W) (at5_main_arg14 W) (at5_main_arg15 W)

end Cert.ReferenceIdeal.RefVal

end
-- ==== Proof.Ref.ValLay.lean ====
/-
  Reading the reference's layout operations and its three matrix products entry by entry: a vector repeated as rows,
  a scalar repeated over a shape, one row, slab or entry of a stacked parameter array, and each product as the sum over
  the shared axis.
-/
import proofs.«411025_j54640573939922_1_alg».proof.Proof.Gen.ReferenceIdeal
import proofs.«411025_j54640573939922_1_alg».proof.Proof.Math.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefVal

open Idealize.ShloMosaic Idealize.ShloMosaic.ValueIdx Cert.ReferenceIdeal
open Facts₀ Facts

variable {α : Type}

/-- A length-128 vector laid as a row and repeated down the nodes, read at a node and a column. -/
theorem bcastRow_apply (v : S128.Idx → α) (i : S20000x128.Idx) :
    broadcastInDim S20000x128 ![0, 1] bcast_S1x128_S20000x128_0_1 (broadcastInDim S1x128 ![1] bcast_S128_S1x128_1 v) i = v (ix1 (i 1) : S128.Idx) := by
  refine (broadcastInDim_apply _ _ _ i (ix2 0 (i 1) : S1x128.Idx) fun a => ?_).trans ?_
  · match a with
    | ⟨0, _⟩ => rfl
    | ⟨1, _⟩ => rfl
  · refine broadcastInDim_apply _ _ _ _ (ix1 (i 1) : S128.Idx) fun a => ?_
    match a with
    | ⟨0, _⟩ => rfl

/-- A scalar repeated over a shape. -/
theorem bcastScalar_apply {t : Shape} (h : S_.BroadcastsInDim t (![] : Fin 0 → Fin t.rank)) (x : S_.Idx → α) (i : t.Idx) :
    broadcastInDim t ![] h x i = x ix0 :=
  broadcastInDim_apply _ _ _ i ix0 fun a => a.elim0

/-- Row `l` of a stacked 3×128 array as a length-128 vector. -/
theorem sliceRow_apply (l : ℕ) (hl : l < 3) (p : S3x128.Idx → α) (h : S3x128.Slices ![l, 0] S1x128) (j : S128.Idx) :
    shapeCast S128 (extractStridedSlice S1x128 ![l, 0] p h) shapeCasts_S1x128_S128 j = p (ix2 ⟨l, hl⟩ (j 0)) := by
  obtain ⟨q, rfl⟩ : ∃ q : Fin 128, j = ix1 q := ⟨j 0, eq_ix1 j⟩
  refine (shapeCast_1a_a_apply _ _ q).trans ?_
  refine extractStridedSlice_apply _ _ _ _ _ fun a => ?_
  match a with
  | ⟨0, _⟩ => rfl
  | ⟨1, _⟩ => show q.val = 0 + q.val; omega

/-- Slab `l` of a stacked 3×128×128 array as a matrix. -/
theorem sliceMat_apply (l : ℕ) (hl : l < 3) (p : S3x128x128.Idx → α) (h : S3x128x128.Slices ![l, 0, 0] S1x128x128) (j : S128x128.Idx) :
    shapeCast S128x128 (extractStridedSlice S1x128x128 ![l, 0, 0] p h) shapeCasts_S1x128x128_S128x128 j = p (ix3 ⟨l, hl⟩ (j 0) (j 1)) := by
  obtain ⟨q, r, rfl⟩ : ∃ (q : Fin 128) (r : Fin 128), j = ix2 q r := ⟨j 0, j 1, eq_ix2 j⟩
  refine (shapeCast_1ab_ab_apply _ _ q r).trans ?_
  refine extractStridedSlice_apply _ _ _ _ _ fun a => ?_
  match a with
  | ⟨0, _⟩ => rfl
  | ⟨1, _⟩ => show q.val = 0 + q.val; omega
  | ⟨2, _⟩ => show r.val = 0 + r.val; omega

/-- Entry `l` of a length-3 vector as a scalar. -/
theorem sliceAt_apply (l : ℕ) (hl : l < 3) (p : S3.Idx → α) (h : S3.Slices ![l] S1) (j : S_.Idx) :
    shapeCast S_ (extractStridedSlice S1 ![l] p h) shapeCasts_S1_S_ j = p (ix1 ⟨l, hl⟩) := by
  refine (shapeCast_apply _ _ j (ix1 0) ?_).trans ?_
  · rw [Shape.rowMajor_val_one]
    have h1 := (S_.rowMajor j).isLt
    have h2 : S_.numel = 1 := by decide
    show 0 = (S_.rowMajor j).val
    omega
  · refine extractStridedSlice_apply _ _ _ _ _ fun a => ?_
    match a with
    | ⟨0, _⟩ => rfl

/-! ## The three matrix products -/

theorem lhs_dotN1_0 (i : S20000x128.Idx) (q : dot_S20000x1_S1x128_S20000x128_1_0_0_1_n_n.contr.Idx) : (dot_S20000x1_S1x128_S20000x128_1_0_0_1_n_n.lhsIdx i q 0).val = (i 0).val := by
  unfold DotDims.lhsIdx
  rw [dif_neg (show ¬(0 : Fin S20000x1.rank) ∈ dot_S20000x1_S1x128_S20000x128_1_0_0_1_n_n.lhsBatch by decide), dif_pos (show (0 : Fin S20000x1.rank) ∈ dot_S20000x1_S1x128_S20000x128_1_0_0_1_n_n.lhsNonContracting by decide)]
  rfl
theorem lhs_dotN1_1 (i : S20000x128.Idx) (q : dot_S20000x1_S1x128_S20000x128_1_0_0_1_n_n.contr.Idx) : (dot_S20000x1_S1x128_S20000x128_1_0_0_1_n_n.lhsIdx i q 1).val = (q ⟨0, by decide⟩).val :=
  dot_S20000x1_S1x128_S20000x128_1_0_0_1_n_n.lhsIdx_val_of_single rfl i q
theorem rhs_dotN1_0 (i : S20000x128.Idx) (q : dot_S20000x1_S1x128_S20000x128_1_0_0_1_n_n.contr.Idx) : (dot_S20000x1_S1x128_S20000x128_1_0_0_1_n_n.rhsIdx i q 0).val = (q ⟨0, by decide⟩).val :=
  dot_S20000x1_S1x128_S20000x128_1_0_0_1_n_n.rhsIdx_val_of_single rfl i q
theorem rhs_dotN1_1 (i : S20000x128.Idx) (q : dot_S20000x1_S1x128_S20000x128_1_0_0_1_n_n.contr.Idx) : (dot_S20000x1_S1x128_S20000x128_1_0_0_1_n_n.rhsIdx i q 1).val = (i 1).val := by
  unfold DotDims.rhsIdx
  rw [dif_neg (show ¬(1 : Fin S1x128.rank) ∈ dot_S20000x1_S1x128_S20000x128_1_0_0_1_n_n.rhsBatch by decide), dif_pos (show (1 : Fin S1x128.rank) ∈ dot_S20000x1_S1x128_S20000x128_1_0_0_1_n_n.rhsNonContracting by decide)]
  rfl

/-- The product of the two arrays over their shared axis, entry by entry. -/
theorem dotN1_apply (l : FVec Ideal S20000x1 .f32) (r : FVec Ideal S1x128 .f32) (i : S20000x128.Idx) :
    Host.dotGeneral (F := Ideal) dot_S20000x1_S1x128_S20000x128_1_0_0_1_n_n none l r i = ∑ k : Fin 1, l (ix2 (i 0) k) * r (ix2 k (i 1)) := by
  simp only [Host.dotGeneral]
  rw [Ideal.dotGeneral_apply, ← Equiv.sum_comp (ValueIdx.contrEquiv1 dot_S20000x1_S1x128_S20000x128_1_0_0_1_n_n 1 rfl rfl).symm]
  refine Finset.sum_congr rfl fun k _ => ?_
  have hk := ValueIdx.contrEquiv1_symm_val dot_S20000x1_S1x128_S20000x128_1_0_0_1_n_n 1 rfl rfl k
  have el : dot_S20000x1_S1x128_S20000x128_1_0_0_1_n_n.lhsIdx i ((ValueIdx.contrEquiv1 dot_S20000x1_S1x128_S20000x128_1_0_0_1_n_n 1 rfl rfl).symm k) = ix2 (i 0) k := funext fun a => Fin.ext (by
    match a with
    | ⟨0, _⟩ => exact lhs_dotN1_0 _ _
    | ⟨1, _⟩ => exact (lhs_dotN1_1 _ _).trans hk)
  have er : dot_S20000x1_S1x128_S20000x128_1_0_0_1_n_n.rhsIdx i ((ValueIdx.contrEquiv1 dot_S20000x1_S1x128_S20000x128_1_0_0_1_n_n 1 rfl rfl).symm k) = ix2 k (i 1) := funext fun a => Fin.ext (by
    match a with
    | ⟨0, _⟩ => exact (rhs_dotN1_0 _ _).trans hk
    | ⟨1, _⟩ => exact rhs_dotN1_1 _ _)
  rw [el, er]
  rfl

theorem lhs_dotNH_0 (i : S20000x128.Idx) (q : dot_S20000x128_S128x128_S20000x128_1_0_0_1_n_n.contr.Idx) : (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_dotNH_1 (i : S20000x128.Idx) (q : dot_S20000x128_S128x128_S20000x128_1_0_0_1_n_n.contr.Idx) : (dot_S20000x128_S128x128_S20000x128_1_0_0_1_n_n.lhsIdx i q 1).val = (q ⟨0, by decide⟩).val :=
  dot_S20000x128_S128x128_S20000x128_1_0_0_1_n_n.lhsIdx_val_of_single rfl i q
theorem rhs_dotNH_0 (i : S20000x128.Idx) (q : dot_S20000x128_S128x128_S20000x128_1_0_0_1_n_n.contr.Idx) : (dot_S20000x128_S128x128_S20000x128_1_0_0_1_n_n.rhsIdx i q 0).val = (q ⟨0, by decide⟩).val :=
  dot_S20000x128_S128x128_S20000x128_1_0_0_1_n_n.rhsIdx_val_of_single rfl i q
theorem rhs_dotNH_1 (i : S20000x128.Idx) (q : dot_S20000x128_S128x128_S20000x128_1_0_0_1_n_n.contr.Idx) : (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The product of the two arrays over their shared axis, entry by entry. -/
theorem dotNH_apply (l : FVec Ideal S20000x128 .f32) (r : FVec Ideal S128x128 .f32) (i : S20000x128.Idx) :
    Host.dotGeneral (F := Ideal) dot_S20000x128_S128x128_S20000x128_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx i ((ValueIdx.contrEquiv1 dot_S20000x128_S128x128_S20000x128_1_0_0_1_n_n 128 rfl rfl).symm k) = ix2 (i 0) k := funext fun a => Fin.ext (by
    match a with
    | ⟨0, _⟩ => exact lhs_dotNH_0 _ _
    | ⟨1, _⟩ => exact (lhs_dotNH_1 _ _).trans hk)
  have er : dot_S20000x128_S128x128_S20000x128_1_0_0_1_n_n.rhsIdx i ((ValueIdx.contrEquiv1 dot_S20000x128_S128x128_S20000x128_1_0_0_1_n_n 128 rfl rfl).symm k) = ix2 k (i 1) := funext fun a => Fin.ext (by
    match a with
    | ⟨0, _⟩ => exact (rhs_dotNH_0 _ _).trans hk
    | ⟨1, _⟩ => exact rhs_dotNH_1 _ _)
  rw [el, er]
  rfl

theorem lhs_dotG2_0 (i : S128x2.Idx) (q : dot_S128x128_S128x2_S128x2_1_0_0_1_n_n.contr.Idx) : (dot_S128x128_S128x2_S128x2_1_0_0_1_n_n.lhsIdx i q 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem lhs_dotG2_1 (i : S128x2.Idx) (q : dot_S128x128_S128x2_S128x2_1_0_0_1_n_n.contr.Idx) : (dot_S128x128_S128x2_S128x2_1_0_0_1_n_n.lhsIdx i q 1).val = (q ⟨0, by decide⟩).val :=
  dot_S128x128_S128x2_S128x2_1_0_0_1_n_n.lhsIdx_val_of_single rfl i q
theorem rhs_dotG2_0 (i : S128x2.Idx) (q : dot_S128x128_S128x2_S128x2_1_0_0_1_n_n.contr.Idx) : (dot_S128x128_S128x2_S128x2_1_0_0_1_n_n.rhsIdx i q 0).val = (q ⟨0, by decide⟩).val :=
  dot_S128x128_S128x2_S128x2_1_0_0_1_n_n.rhsIdx_val_of_single rfl i q
theorem rhs_dotG2_1 (i : S128x2.Idx) (q : dot_S128x128_S128x2_S128x2_1_0_0_1_n_n.contr.Idx) : (dot_S128x128_S128x2_S128x2_1_0_0_1_n_n.rhsIdx i q 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

/-- The product of the two arrays over their shared axis, entry by entry. -/
theorem dotG2_apply (l : FVec Ideal S128x128 .f32) (r : FVec Ideal S128x2 .f32) (i : S128x2.Idx) :
    Host.dotGeneral (F := Ideal) dot_S128x128_S128x2_S128x2_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S128x128_S128x2_S128x2_1_0_0_1_n_n 128 rfl rfl).symm]
  refine Finset.sum_congr rfl fun k _ => ?_
  have hk := ValueIdx.contrEquiv1_symm_val dot_S128x128_S128x2_S128x2_1_0_0_1_n_n 128 rfl rfl k
  have el : dot_S128x128_S128x2_S128x2_1_0_0_1_n_n.lhsIdx i ((ValueIdx.contrEquiv1 dot_S128x128_S128x2_S128x2_1_0_0_1_n_n 128 rfl rfl).symm k) = ix2 (i 0) k := funext fun a => Fin.ext (by
    match a with
    | ⟨0, _⟩ => exact lhs_dotG2_0 _ _
    | ⟨1, _⟩ => exact (lhs_dotG2_1 _ _).trans hk)
  have er : dot_S128x128_S128x2_S128x2_1_0_0_1_n_n.rhsIdx i ((ValueIdx.contrEquiv1 dot_S128x128_S128x2_S128x2_1_0_0_1_n_n 128 rfl rfl).symm k) = ix2 k (i 1) := funext fun a => Fin.ext (by
    match a with
    | ⟨0, _⟩ => exact (rhs_dotG2_0 _ _).trans hk
    | ⟨1, _⟩ => exact rhs_dotG2_1 _ _)
  rw [el, er]
  rfl

end Cert.ReferenceIdeal.RefVal

end
-- ==== Proof.Ref.ValStage.lean ====
/-
  The reference's stages over arbitrary arrays, each as the specification's function of its operands: the column sums,
  means and variances over the nodes (the variance's guard on the node count takes the quotient), the encoder, a dense
  layer, the input of a layer's first dense map, the normalisation with its rectifier, the edge list's two rows and the
  neighbour sums.
-/
import proofs.«411025_j54640573939922_1_alg».proof.Proof.Ref.ValLay
import proofs.«411025_j54640573939922_1_alg».proof.Proof.Math.Agg
import proofs.«411025_j54640573939922_1_alg».proof.Proof.Math.Bridge1

noncomputable section

namespace Cert.ReferenceIdeal.RefVal

open Idealize.ShloMosaic Idealize.ShloMosaic.ValueIdx Cert.ReferenceIdeal
open Facts₀ Facts

open Cert.Spec in
/-- The column sums from zero. -/
theorem reduce0_apply (y : FVec Ideal S20000x128 .f32) (j : S128.Idx) :
    Host.reduceAdd y (constant (F := Ideal) S_ .f32 0x00000000#32) reducesTo_S20000x128_S128_d0 h_S_ j
      = Cert.Spec.colsum y (ix2 0 (j 0)) := by
  rw [hostReduceAdd_apply, Ideal.hostReduceAdd_single reducesTo_S20000x128_S128_d0 (by decide)]
  rw [constant_apply, Ideal.ofBits_zero_f32, zero_add]
  unfold Cert.Spec.colsum
  refine Finset.sum_congr rfl fun k _ => ?_
  exact congrArg y (funext fun a => Fin.ext (by match a with | ⟨0, _⟩ => rfl | ⟨1, _⟩ => rfl))

/-- The column means, as a length-128 vector. -/
theorem meanVec_apply (y : FVec Ideal S20000x128 .f32) (j : S128.Idx) :
    Host.divf (Host.reduceAdd y (constant (F := Ideal) S_ .f32 0x00000000#32) reducesTo_S20000x128_S128_d0 h_S_)
        (broadcastInDim S128 ![] bcast_S_S128 (constant (F := Ideal) S_ .f32 0x469C4000#32)) j
      = Cert.Spec.meanU y (ix2 0 (j 0)) := by
  rw [hostDivf_apply, reduce0_apply, broadcastInDim_scalar_apply, constant_apply]
  rfl

/-- The column means, as a row repeated down the nodes (the form the variance subtracts). -/
theorem meanRows_apply (y : FVec Ideal S20000x128 .f32) (i : S20000x128.Idx) :
    broadcastInDim S20000x128 ![0, 1] bcast_S1x128_S20000x128_0_1
        (Host.divf (broadcastInDim S1x128 ![1] bcast_S128_S1x128_1
            (Host.reduceAdd y (constant (F := Ideal) S_ .f32 0x00000000#32) reducesTo_S20000x128_S128_d0 h_S_))
          (broadcastInDim S1x128 ![] bcast_S_S1x128 (constant (F := Ideal) S_ .f32 0x469C4000#32))) i
      = Cert.Spec.meanU y (ix2 0 (i 1)) := by
  refine (broadcastInDim_apply _ _ _ i (ix2 0 (i 1) : S1x128.Idx) fun a => ?_).trans ?_
  · match a with
    | ⟨0, _⟩ => rfl
    | ⟨1, _⟩ => rfl
  · rw [hostDivf_apply, broadcastInDim_scalar_apply, constant_apply]
    rw [broadcastInDim_apply _ _ _ _ (ix1 (i 1) : S128.Idx) fun a => by match a with | ⟨0, _⟩ => rfl]
    rw [reduce0_apply]
    rfl

open Cert.Spec

/-- The encoder. -/
theorem enc_stage (x : FVec Ideal S20000x1 .f32) (w : FVec Ideal S1x128 .f32) (b : FVec Ideal S128 .f32) :
    addf (Host.dotGeneral (F := Ideal) dot_S20000x1_S1x128_S20000x128_1_0_0_1_n_n none x w)
        (broadcastInDim S20000x128 ![0, 1] bcast_S1x128_S20000x128_0_1 (broadcastInDim S1x128 ![1] bcast_S128_S1x128_1 b))
      = Cert.Spec.enc x w (Cert.Spec.rowH b) := by
  funext i
  rw [addf_apply, dotN1_apply, bcastRow_apply, Fin.sum_univ_one]
  rfl

/-- A dense layer whose weights are slab `l` and whose bias is row `l` of the stacked parameters. -/
theorem lin_stage (l : ℕ) (hl : l < 3) (z : FVec Ideal S20000x128 .f32) (p5 : FVec Ideal S3x128x128 .f32) (p6 : FVec Ideal S3x128 .f32)
    (h5 : S3x128x128.Slices ![l, 0, 0] S1x128x128) (h6 : S3x128.Slices ![l, 0] S1x128) :
    addf (Host.dotGeneral (F := Ideal) dot_S20000x128_S128x128_S20000x128_1_0_0_1_n_n none z
          (shapeCast S128x128 (extractStridedSlice S1x128x128 ![l, 0, 0] p5 h5) shapeCasts_S1x128x128_S128x128))
        (broadcastInDim S20000x128 ![0, 1] bcast_S1x128_S20000x128_0_1 (broadcastInDim S1x128 ![1] bcast_S128_S1x128_1
          (shapeCast S128 (extractStridedSlice S1x128 ![l, 0] p6 h6) shapeCasts_S1x128_S128)))
      = Cert.Spec.lin z (Cert.Spec.matOf p5 ⟨l, hl⟩) (Cert.Spec.rowOf p6 ⟨l, hl⟩) := by
  funext i
  rw [addf_apply, dotNH_apply, bcastRow_apply, sliceRow_apply l hl]
  simp only [sliceMat_apply l hl]
  rfl

/-- The input of a layer's first dense map, the neighbour sums given. -/
theorem mix_stage (l : ℕ) (hl : l < 3) (p11 : FVec Ideal S3 .f32) (h11 : S3.Slices ![l] S1) (h a : FVec Ideal S20000x128 .f32) :
    addf (mulf (broadcastInDim S20000x128 ![] bcast_S_S20000x128
          (addf (constant (F := Ideal) S_ .f32 0x3F800000#32) (shapeCast S_ (extractStridedSlice S1 ![l] p11 h11) shapeCasts_S1_S_))) h) a
      = fun i => (Cert.Spec.cOne + Cert.Spec.atOf p11 ⟨l, hl⟩) * h i + a i := by
  funext i
  rw [addf_apply, mulf_apply, broadcastInDim_scalar_apply, addf_apply, constant_apply, sliceAt_apply l hl]
  rfl

/-- The deviations from the column means. -/
abbrev devOps (y : FVec Ideal S20000x128 .f32) : FVec Ideal S20000x128 .f32 :=
  subf y (broadcastInDim S20000x128 ![0, 1] bcast_S1x128_S20000x128_0_1
    (Host.divf (broadcastInDim S1x128 ![1] bcast_S128_S1x128_1
        (Host.reduceAdd y (constant (F := Ideal) S_ .f32 0x00000000#32) reducesTo_S20000x128_S128_d0 h_S_))
      (broadcastInDim S1x128 ![] bcast_S_S1x128 (constant (F := Ideal) S_ .f32 0x469C4000#32))))

/-- The count of nodes less the zero correction, as a scalar array. -/
abbrev cntOps : FVec Ideal S_ .f32 :=
  subf (constant (F := Ideal) S_ .f32 0x469C4000#32) (sitofp (F := Ideal) .f32 (constantI S_ 32 0#32))

theorem sitofp_zero : (FloatOps.sitofp (F := Ideal) .f32 (0#32 : BitVec 32)) = (0 : EReal) := by
  show (((0#32 : BitVec 32).toInt : ℝ) : EReal) = 0
  simp

theorem cN_pos : (0 : EReal) < Cert.Spec.cN := by
  rw [Cert.Spec.cN_eq]
  exact_mod_cast (by norm_num : (0 : ℝ) < 20000)

theorem cntOps_apply (i : S_.Idx) : cntOps i = Cert.Spec.cN := by
  show Ideal.ofBits .f32 0x469C4000#32 - FloatOps.sitofp (F := Ideal) .f32 (0#32 : BitVec 32) = _
  rw [sitofp_zero, sub_zero]
  rfl

set_option maxRecDepth 16384 in
/-- The column variances, as a length-128 vector: the guard on the count takes the quotient's branch. -/
theorem var_stage (y : FVec Ideal S20000x128 .f32) (j : S128.Idx) :
    select (broadcastInDim S128 ![] bcast_S_S128 (cmpf .ogt cntOps (constant (F := Ideal) S_ .f32 0x00000000#32)))
        (Host.divf (Host.reduceAdd (mulf (devOps y) (devOps y)) (constant (F := Ideal) S_ .f32 0x00000000#32) reducesTo_S20000x128_S128_d0 h_S_)
          (broadcastInDim S128 ![] bcast_S_S128 cntOps))
        (broadcastInDim S128 ![] bcast_S_S128 (constant (F := Ideal) S_ .f32 0x7FC00000#32)) j
      = Cert.Spec.varU y (ix2 0 (j 0)) := by
  rw [select_apply, broadcastInDim_scalar_apply, cmpf_apply, cntOps_apply, constant_apply, Ideal.ofBits_zero_f32]
  have hc : FloatOps.cmpf (F := Ideal) (φ := .f32) .ogt Cert.Spec.cN 0 = 1#1 := by
    rw [Ideal.cmpf_def]
    show BitVec.ofBool (decide ((0 : EReal) < Cert.Spec.cN)) = 1#1
    rw [decide_eq_true cN_pos]
    rfl
  rw [hc, select_one]
  rw [hostDivf_apply]
  rw [reduce0_apply]
  rw [broadcastInDim_scalar_apply, cntOps_apply]
  unfold Cert.Spec.varU
  refine congrArg (fun s => Ideal.div s Cert.Spec.cN) ?_
  unfold Cert.Spec.colsum
  refine Finset.sum_congr rfl fun n _ => ?_
  rw [mulf_apply]
  show (y _ - _) * (y _ - _) = _
  rw [meanRows_apply]

/-- Normalise, scale, shift, rectify, the statistics given as length-128 vectors. -/
theorem bnrelu_stage (l : ℕ) (hl : l < 3) (y : FVec Ideal S20000x128 .f32) (m v : FVec Ideal S128 .f32)
    (mean var : S1x128.Idx → EReal) (hm : ∀ j : S128.Idx, m j = mean (ix2 0 (j 0))) (hv : ∀ j : S128.Idx, v j = var (ix2 0 (j 0)))
    (p7 p8 : FVec Ideal S3x128 .f32) (h7 h8 : S3x128.Slices ![l, 0] S1x128) :
    maximumf
        (addf
          (mulf
            (mulf (broadcastInDim S20000x128 ![0, 1] bcast_S1x128_S20000x128_0_1 (broadcastInDim S1x128 ![1] bcast_S128_S1x128_1
                (shapeCast S128 (extractStridedSlice S1x128 ![l, 0] p7 h7) shapeCasts_S1x128_S128)))
              (subf y (broadcastInDim S20000x128 ![0, 1] bcast_S1x128_S20000x128_0_1 (broadcastInDim S1x128 ![1] bcast_S128_S1x128_1 m))))
            (broadcastInDim S20000x128 ![0, 1] bcast_S1x128_S20000x128_0_1 (broadcastInDim S1x128 ![1] bcast_S128_S1x128_1
              (Host.rsqrt (addf v (broadcastInDim S128 ![] bcast_S_S128 (constant (F := Ideal) S_ .f32 0x3727C5AC#32)))))))
          (broadcastInDim S20000x128 ![0, 1] bcast_S1x128_S20000x128_0_1 (broadcastInDim S1x128 ![1] bcast_S128_S1x128_1
            (shapeCast S128 (extractStridedSlice S1x128 ![l, 0] p8 h8) shapeCasts_S1x128_S128))))
        (broadcastInDim S20000x128 ![] bcast_S_S20000x128 (constant (F := Ideal) S_ .f32 0x00000000#32))
      = Cert.Spec.bnrelu y mean var (Cert.Spec.rowOf p7 ⟨l, hl⟩) (Cert.Spec.rowOf p8 ⟨l, hl⟩) := by
  funext i
  rw [maximumf_apply, addf_apply, mulf_apply, mulf_apply, subf_apply, bcastRow_apply, bcastRow_apply, bcastRow_apply, bcastRow_apply,
    sliceRow_apply l hl, sliceRow_apply l hl, hm, broadcastInDim_scalar_apply, constant_apply]
  show max (_ * Ideal.rsqrt (v _ + _) + _) _ = _
  rw [hv, broadcastInDim_scalar_apply, constant_apply]
  rfl

/-- The edge list's rows as the printed slices and reshapes read them. -/
theorem src_stage (e : IVec S2x640000 32) (h : S2x640000.Slices ![0, 0] S1x640000) :
    shapeCast S640000 (extractStridedSlice S1x640000 ![0, 0] e h) shapeCasts_S1x640000_S640000 = Cert.Spec.srcOf e := by
  funext j
  obtain ⟨q, rfl⟩ : ∃ q : Fin 640000, j = ix1 q := ⟨j 0, eq_ix1 j⟩
  refine (shapeCast_1a_a_apply _ _ q).trans ?_
  refine extractStridedSlice_apply _ _ _ _ _ fun a => ?_
  match a with
  | ⟨0, _⟩ => rfl
  | ⟨1, _⟩ => show q.val = 0 + q.val; omega
theorem dst_stage (e : IVec S2x640000 32) (h : S2x640000.Slices ![1, 0] S1x640000) :
    shapeCast S640000 (extractStridedSlice S1x640000 ![1, 0] e h) shapeCasts_S1x640000_S640000 = Cert.Spec.dstOf e := by
  funext j
  obtain ⟨q, rfl⟩ : ∃ q : Fin 640000, j = ix1 q := ⟨j 0, eq_ix1 j⟩
  refine (shapeCast_1a_a_apply _ _ q).trans ?_
  refine extractStridedSlice_apply _ _ _ _ _ fun a => ?_
  match a with
  | ⟨0, _⟩ => rfl
  | ⟨1, _⟩ => show q.val = 0 + q.val; omega

/-- The neighbour sums as printed are the specification's. -/
theorem agg_stage (src dst : IVec S640000 32) (h : FVec Ideal S20000x128 .f32) :
    Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 dst)
        (Host.gather gather_S20000x128_S640000x1_S640000x128_1_0_n_n_0_1_1128 h
          (broadcastInDim S640000x1 ![0] bcast_S640000_S640000x1_0
            (select (cmpi .slt src (broadcastInDim S640000 ![] bcast_S_S640000 (constantI S_ 32 0#32)))
              (addi src (broadcastInDim S640000 ![] bcast_S_S640000 (constantI S_ 32 20000#32))) src)))
      = Cert.Spec.nbr gather_S20000x128_S640000x1_S640000x128_1_0_n_n_0_1_1128 scatter_S20000x128_S640000x1_S640000x128_1_0_0_1 src dst h := rfl

end Cert.ReferenceIdeal.RefVal

end
-- ==== Proof.Ref.ValPool.lean ====
/-
  The reference's pooling by graph and its read-out over arbitrary arrays, as the specification's functions: where a
  node's row lands (its batch word read signed names the graph; a word outside the graphs lands nowhere), the pooled
  sums and counts as sums over the nodes of the indicator of the graph, and the read-out.
-/
import proofs.«411025_j54640573939922_1_alg».proof.Proof.Ref.ValLay
import Idealize.ShloMosaic.Lib.ValueIdxRank1

noncomputable section

namespace Cert.ReferenceIdeal.RefVal

open Idealize.ShloMosaic Idealize.ShloMosaic.ValueIdx Cert.ReferenceIdeal
open Facts₀ Facts

/-! ## Pooling by graph -/

/-- A word read signed is a small natural exactly when it is that natural's word. -/
theorem toInt_eq_iff (x : BitVec 32) (g : ℕ) (hg : g < 128) : x.toInt = (g : ℤ) ↔ x = BitVec.ofNat 32 g := by
  have hg' : (BitVec.ofNat 32 g).toInt = (g : ℤ) := by
    rw [BitVec.toInt_eq_toNat_cond, BitVec.toNat_ofNat]
    split <;> omega
  constructor
  · intro h
    exact BitVec.eq_of_toInt_eq (h.trans hg'.symm)
  · rintro rfl
    exact hg'

/-- A length-20000 vector laid as a column. -/
theorem bcastCol_apply {α : Type} (b : S20000.Idx → α) (n : Fin 20000) (z : Fin 1) :
    broadcastInDim S20000x1 ![0] bcast_S20000_S20000x1_0 b (ix2 n z) = b (ix1 n) := by
  refine broadcastInDim_apply _ _ _ _ (ix1 n) fun a => ?_
  match a with
  | ⟨0, _⟩ => rfl

theorem sumStart0 (j : S20000x128.Idx) (idx : IVec S20000x1 32) :
    scatter_S128x128_S20000x1_S20000x128_1_0_0_1.start j idx 0 = (idx (ix2 (j 0) 0)).toInt := by
  unfold ScatterDims.start
  rw [dif_pos (show (0 : Fin S128x128.rank) ∈ scatter_S128x128_S20000x1_S20000x128_1_0_0_1.scatterDimsToOperandDims by decide)]
  refine congrArg (fun k => (idx k).toInt) (funext fun b => ?_)
  match b with
  | ⟨0, _⟩ => rfl
  | ⟨1, _⟩ => rfl
theorem sumStart1 (j : S20000x128.Idx) (idx : IVec S20000x1 32) : scatter_S128x128_S20000x1_S20000x128_1_0_0_1.start j idx 1 = 0 := by
  unfold ScatterDims.start
  rw [dif_neg (show ¬(1 : Fin S128x128.rank) ∈ scatter_S128x128_S20000x1_S20000x128_1_0_0_1.scatterDimsToOperandDims by decide)]
theorem sumWin0 (j : S20000x128.Idx) : scatter_S128x128_S20000x1_S20000x128_1_0_0_1.window j 0 = 0 := by
  unfold ScatterDims.window
  rw [dif_neg (show ¬(0 : Fin S128x128.rank) ∈ scatter_S128x128_S20000x1_S20000x128_1_0_0_1.sKept by decide)]
theorem sumWin1 (j : S20000x128.Idx) : scatter_S128x128_S20000x1_S20000x128_1_0_0_1.window j 1 = (j 1).val := by
  unfold ScatterDims.window
  rw [dif_pos (show (1 : Fin S128x128.rank) ∈ scatter_S128x128_S20000x1_S20000x128_1_0_0_1.sKept by decide)]
  rfl

/-- A node's row lands on graph `i 0`'s row exactly when the node's batch word, read signed, is that graph, column for column. -/
theorem sum_resultIdx_iff (j : S20000x128.Idx) (idx : IVec S20000x1 32) (i : S128x128.Idx) :
    scatter_S128x128_S20000x1_S20000x128_1_0_0_1.resultIdx? j idx = some i ↔ (idx (ix2 (j 0) 0)).toInt = ((i 0).val : ℤ) ∧ (j 1).val = (i 1).val := by
  have s0 := sumStart0 j idx
  have s1 := sumStart1 j idx
  have w0 := sumWin0 j
  have w1 := sumWin1 j
  have b0 := (i 0).isLt
  have b1 := (i 1).isLt
  unfold ScatterDims.resultIdx?
  split
  · rename_i h
    obtain ⟨h0, h1⟩ := Fin.forall_fin_two.mp h
    rw [s0, w0] at h0
    rw [s1, w1] at h1
    rw [Option.some.injEq, funext_iff, Fin.forall_fin_two]
    simp only [Fin.ext_iff]
    rw [s0, w0, s1, w1]
    constructor <;> rintro ⟨e0, e1⟩ <;> constructor <;> omega
  · rename_i h
    refine ⟨fun h' => (by cases h'), fun ⟨e0, e1⟩ => absurd (Fin.forall_fin_two.mpr ⟨?_, ?_⟩) h⟩
    · rw [s0, w0]
      omega
    · rw [s1, w1]
      omega

/-- The pooled sums: every node's row added onto its graph's row, from zero. -/
theorem poolSum_stage (h : FVec Ideal S20000x128 .f32) (b : IVec S20000 32) :
    Host.scatterAdd (F := Ideal) scatter_S128x128_S20000x1_S20000x128_1_0_0_1
        (broadcastInDim S128x128 ![] bcast_S_S128x128 (constant (F := Ideal) S_ .f32 0x00000000#32))
        (broadcastInDim S20000x1 ![0] bcast_S20000_S20000x1_0 b) h
      = Cert.Spec.poolSumU h (Cert.Spec.colN b) := by
  funext i
  unfold Host.scatterAdd
  rw [Ideal.hostScatterAdd_def]
  unfold Ideal.hostScatterAdd
  rw [broadcastInDim_scalar_apply, constant_apply, Ideal.ofBits_zero_f32, zero_add, Finset.sum_filter, sum_idx2]
  unfold Cert.Spec.poolSumU
  refine Finset.sum_congr rfl fun n _ => ?_
  have hiff : ∀ c : Fin 128, (scatter_S128x128_S20000x1_S20000x128_1_0_0_1.resultIdx? (ix2 n c) (broadcastInDim S20000x1 ![0] bcast_S20000_S20000x1_0 b) = some i)
      ↔ (b (ix1 n) = BitVec.ofNat 32 (i 0).val ∧ c.val = (i 1).val) := fun c => by
    refine (sum_resultIdx_iff (ix2 n c) _ i).trans ?_
    show ((broadcastInDim S20000x1 ![0] bcast_S20000_S20000x1_0 b) (ix2 n 0)).toInt = ((i 0).val : ℤ) ∧ c.val = (i 1).val ↔ _
    rw [bcastCol_apply, toInt_eq_iff _ _ (i 0).isLt]
  rw [Finset.sum_congr rfl fun c _ => if_congr (hiff c) rfl rfl]
  show _ = (if b (ix1 n) = BitVec.ofNat 32 (i 0).val then (1 : EReal) else 0) * h (ix2 n (i 1))
  by_cases hb : b (ix1 n) = BitVec.ofNat 32 (i 0).val
  · rw [if_pos hb, one_mul]
    refine (Finset.sum_eq_single (i 1 : Fin 128) ?_ ?_).trans ?_
    · intro c _ hne
      exact if_neg fun hc => hne (Fin.ext hc.2)
    · intro hx
      exact absurd (Finset.mem_univ _) hx
    · exact if_pos ⟨hb, rfl⟩
  · rw [if_neg hb, zero_mul]
    exact Finset.sum_eq_zero fun c _ => if_neg fun hc => hb hc.1

theorem cntStart0 (j : S20000.Idx) (idx : IVec S20000x1 32) :
    scatter_S128_S20000x1_S20000_n_0_0_1.start j idx 0 = (idx (ix2 (j 0) 0)).toInt := by
  unfold ScatterDims.start
  rw [dif_pos (show (0 : Fin S128.rank) ∈ scatter_S128_S20000x1_S20000_n_0_0_1.scatterDimsToOperandDims by decide)]
  refine congrArg (fun k => (idx k).toInt) (funext fun b => ?_)
  match b with
  | ⟨0, _⟩ => rfl
  | ⟨1, _⟩ => rfl
theorem cntWin0 (j : S20000.Idx) : scatter_S128_S20000x1_S20000_n_0_0_1.window j 0 = 0 := by
  unfold ScatterDims.window
  rw [dif_neg (show ¬(0 : Fin S128.rank) ∈ scatter_S128_S20000x1_S20000_n_0_0_1.sKept by decide)]

/-- A node counts for graph `i 0` exactly when its batch word, read signed, is that graph. -/
theorem cnt_resultIdx_iff (j : S20000.Idx) (idx : IVec S20000x1 32) (i : S128.Idx) :
    scatter_S128_S20000x1_S20000_n_0_0_1.resultIdx? j idx = some i ↔ (idx (ix2 (j 0) 0)).toInt = ((i 0).val : ℤ) := by
  have s0 := cntStart0 j idx
  have w0 := cntWin0 j
  have b0 := (i 0).isLt
  unfold ScatterDims.resultIdx?
  split
  · rename_i h
    have h0 := Fin.forall_fin_one.mp h
    rw [s0, w0] at h0
    rw [Option.some.injEq, funext_iff, Fin.forall_fin_one]
    simp only [Fin.ext_iff]
    rw [s0, w0]
    constructor <;> intro e0 <;> omega
  · rename_i h
    refine ⟨fun h' => (by cases h'), fun e0 => absurd (Fin.forall_fin_one.mpr ?_) h⟩
    rw [s0, w0]
    omega

/-- The pooled counts: one added onto its graph's entry for every node, from zero. -/
theorem poolCnt_stage (b : IVec S20000 32) (g : S128.Idx) :
    Host.scatterAdd (F := Ideal) scatter_S128_S20000x1_S20000_n_0_0_1
        (broadcastInDim S128 ![] bcast_S_S128 (constant (F := Ideal) S_ .f32 0x00000000#32))
        (broadcastInDim S20000x1 ![0] bcast_S20000_S20000x1_0 b)
        (broadcastInDim S20000 ![] bcast_S_S20000 (constant (F := Ideal) S_ .f32 0x3F800000#32)) g
      = Cert.Spec.poolCntU (Cert.Spec.colN b) (ix2 (g 0) 0) := by
  unfold Host.scatterAdd
  rw [Ideal.hostScatterAdd_def]
  unfold Ideal.hostScatterAdd
  rw [broadcastInDim_scalar_apply, constant_apply, Ideal.ofBits_zero_f32, zero_add, Finset.sum_filter,
    ← Equiv.sum_comp (idxEquiv1 (n := 20000)).symm]
  unfold Cert.Spec.poolCntU
  refine Finset.sum_congr rfl fun n _ => ?_
  have hiff : (scatter_S128_S20000x1_S20000_n_0_0_1.resultIdx? (ix1 n) (broadcastInDim S20000x1 ![0] bcast_S20000_S20000x1_0 b) = some g)
      ↔ b (ix1 n) = BitVec.ofNat 32 (g 0).val := by
    refine (cnt_resultIdx_iff (ix1 n) _ g).trans ?_
    show ((broadcastInDim S20000x1 ![0] bcast_S20000_S20000x1_0 b) (ix2 n 0)).toInt = ((g 0).val : ℤ) ↔ _
    rw [bcastCol_apply, toInt_eq_iff _ _ (g 0).isLt]
  show (if scatter_S128_S20000x1_S20000_n_0_0_1.resultIdx? (ix1 n) (broadcastInDim S20000x1 ![0] bcast_S20000_S20000x1_0 b) = some g then _ else 0) = _
  rw [if_congr hiff rfl rfl, broadcastInDim_scalar_apply, constant_apply, Ideal.ofBits_one_f32]
  rfl

/-- The read-out: pooled sums over the floored counts, times the class weights, plus the class bias. -/
theorem readout_stage (sums : FVec Ideal S128x128 .f32) (cnt : FVec Ideal S128 .f32) (cntS : S128x1.Idx → EReal)
    (hc : ∀ g : S128.Idx, cnt g = cntS (ix2 (g 0) 0)) (w : FVec Ideal S128x2 .f32) (b : FVec Ideal S2 .f32) :
    addf (Host.dotGeneral (F := Ideal) dot_S128x128_S128x2_S128x2_1_0_0_1_n_n none
          (Host.divf sums (broadcastInDim S128x128 ![0, 1] bcast_S128x1_S128x128_0_1 (broadcastInDim S128x1 ![0] bcast_S128_S128x1_0
            (maximumf cnt (broadcastInDim S128 ![] bcast_S_S128 (constant (F := Ideal) S_ .f32 0x3F800000#32)))))) w)
        (broadcastInDim S128x2 ![0, 1] bcast_S1x2_S128x2_0_1 (broadcastInDim S1x2 ![1] bcast_S2_S1x2_1 b))
      = Cert.Spec.readout sums cntS w (Cert.Spec.row2 b) := by
  funext i
  rw [addf_apply, dotG2_apply]
  unfold Cert.Spec.readout
  congr 1
  · refine Finset.sum_congr rfl fun k _ => ?_
    rw [hostDivf_apply]
    rw [broadcastInDim_apply _ _ _ _ (ix2 (i 0) 0 : S128x1.Idx) fun a => by match a with | ⟨0, _⟩ => rfl | ⟨1, _⟩ => rfl]
    rw [broadcastInDim_apply _ _ _ _ (ix1 (i 0) : S128.Idx) fun a => by match a with | ⟨0, _⟩ => rfl]
    rw [maximumf_apply, hc, broadcastInDim_scalar_apply, constant_apply]
    rfl
  · rw [broadcastInDim_apply _ _ _ _ (ix2 0 (i 1) : S1x2.Idx) fun a => by match a with | ⟨0, _⟩ => rfl | ⟨1, _⟩ => rfl]
    rw [broadcastInDim_apply _ _ _ _ (ix1 (i 1) : S2.Idx) fun a => by match a with | ⟨0, _⟩ => rfl]
    rfl

end Cert.ReferenceIdeal.RefVal

end
-- ==== Proof.Ref.ValReadSrc.lean ====
/-
  The reference's edge rows and encoder read into the specification.
-/
import proofs.«411025_j54640573939922_1_alg».proof.Proof.Ref.ValDefs5
import proofs.«411025_j54640573939922_1_alg».proof.Proof.Ref.ValStage
import proofs.«411025_j54640573939922_1_alg».proof.Proof.Ref.ValPool

noncomputable section

namespace Cert.ReferenceIdeal.RefVal

open Cert.ReferenceIdeal Cert.ReferenceIdeal.Gen Idealize.ShloMosaic Idealize.ShloMosaic.TcCoe Idealize.SL.Sem Idealize.ShloMosaic.StableHlo

open Idealize.ShloMosaic.ValueIdx

set_option maxRecDepth 16384

/-- The edge list's two rows. -/
theorem val_main_v1_eq (V : Valuation τ sig (Elt Ideal)) : val_main_v1 V = Cert.Spec.srcOf (val_main_arg1 V) := by
  simp only [val_main_v1, val_main_v0]
  exact src_stage _ _
theorem val_main_v3_eq (V : Valuation τ sig (Elt Ideal)) : val_main_v3 V = Cert.Spec.dstOf (val_main_arg1 V) := by
  simp only [val_main_v3, val_main_v2]
  exact dst_stage _ _

/-- The encoder. -/
theorem val_main_v7_eq (V : Valuation τ sig (Elt Ideal)) :
    val_main_v7 V = Cert.Spec.enc (val_main_arg0 V) (val_main_arg3 V) (Cert.Spec.rowH (val_main_arg4 V)) := by
  simp only [val_main_v7, val_main_v6, val_main_v5, val_main_v4]
  exact enc_stage _ _ _

end Cert.ReferenceIdeal.RefVal

end
-- ==== Proof.Ref.ValRead0.lean ====
/-
  Layer 0 of the reference read stage by stage into the specification: the neighbour sums, the input of the first dense
  map, each dense map, its column means and variances, each normalisation with its rectifier, and the layer whole.
-/
import proofs.«411025_j54640573939922_1_alg».proof.Proof.Ref.ValReadSrc

noncomputable section

namespace Cert.ReferenceIdeal.RefVal

open Cert.ReferenceIdeal Cert.ReferenceIdeal.Gen Idealize.ShloMosaic Idealize.ShloMosaic.TcCoe Idealize.SL.Sem Idealize.ShloMosaic.StableHlo

open Idealize.ShloMosaic.ValueIdx

set_option maxRecDepth 16384

/-- The neighbour sums of layer 0's input. -/
theorem val_main_v17_eq (V : Valuation τ sig (Elt Ideal)) :
    val_main_v17 V = Cert.Spec.nbr gather_S20000x128_S640000x1_S640000x128_1_0_n_n_0_1_1128 scatter_S20000x128_S640000x1_S640000x128_1_0_0_1 (val_main_v1 V) (val_main_v3 V) (val_main_v7 V) := by
  simp only [val_main_v17, val_main_v16, val_main_v15, val_main_cst, val_main_v14, val_main_v13, val_main_v12, val_main_v11, val_main_v10, val_main_c_0, val_main_v9, val_main_v8, val_main_c]
  exact agg_stage _ _ _

/-- The input of layer 0's first dense map. -/
theorem val_main_v23_eq (V : Valuation τ sig (Elt Ideal)) :
    val_main_v23 V = fun i => (Cert.Spec.cOne + Cert.Spec.atOf (val_main_arg11 V) 0) * val_main_v7 V i + val_main_v17 V i := by
  simp only [val_main_v23, val_main_v22, val_main_v21, val_main_v20, val_main_cst_1, val_main_v19, val_main_v18]
  exact mix_stage 0 (by decide) _ _ _ _

/-- Layer 0's first dense map. -/
theorem val_main_v31_eq (V : Valuation τ sig (Elt Ideal)) :
    val_main_v31 V = Cert.Spec.lin (val_main_v23 V) (Cert.Spec.matOf (val_main_arg5 V) 0) (Cert.Spec.rowOf (val_main_arg6 V) 0) := by
  simp only [val_main_v31, val_main_v30, val_main_v29, val_main_v28, val_main_v27, val_main_v26, val_main_v25, val_main_v24]
  exact lin_stage 0 (by decide) _ _ _ _ _

/-- The column means and variances of layer 0's first dense map. -/
theorem val_main_v38_eq (V : Valuation τ sig (Elt Ideal)) (j : S128.Idx) :
    val_main_v38 V j = Cert.Spec.meanU (val_main_v31 V) (ix2 0 (j 0)) := by
  simp only [val_main_v38, val_main_v37, val_main_cst_3, val_main_v36, val_main_cst_2]
  exact meanVec_apply _ j
theorem val_main_v39_eq (V : Valuation τ sig (Elt Ideal)) (j : S128.Idx) :
    val_main_v39 V j = Cert.Spec.varU (val_main_v31 V) (ix2 0 (j 0)) := by
  simp only [val_main_v39, val_main_call0_call0_v1, val_main_call0_call0_v0, val_main_call0_cst_4, val_main_call0_v12, val_main_call0_cst_3, val_main_call0_v11, val_main_call0_v10, val_main_call0_v9, val_main_call0_cst_2, val_main_call0_v8, val_main_call0_cst_1, val_main_call0_v7, val_main_call0_v6, val_main_call0_v5, val_main_call0_v4, val_main_call0_v3, val_main_call0_v2, val_main_call0_cst_0, val_main_call0_v1, val_main_call0_v0, val_main_call0_cst, val_main_c_4]
  exact var_stage _ j

/-- Layer 0's first normalisation and rectifier. -/
theorem val_main_v55_eq (V : Valuation τ sig (Elt Ideal)) :
    val_main_v55 V = Cert.Spec.bnrelu (val_main_v31 V) (Cert.Spec.meanU (val_main_v31 V)) (Cert.Spec.varU (val_main_v31 V))
      (Cert.Spec.rowOf (val_main_arg7 V) 0) (Cert.Spec.rowOf (val_main_arg8 V) 0) := by
  simp only [val_main_v55, val_main_call1_v0, val_main_call1_cst, val_main_v54, val_main_v53, val_main_v52, val_main_v51, val_main_v50, val_main_v49, val_main_v48, val_main_v47, val_main_v46, val_main_cst_5, val_main_v45, val_main_v44, val_main_v43, val_main_v42, val_main_v41, val_main_v40, val_main_v35, val_main_v34, val_main_v33, val_main_v32]
  exact bnrelu_stage 0 (by decide) _ _ _ _ _ (val_main_v38_eq V) (val_main_v39_eq V) _ _ _ _

/-- Layer 0's second dense map. -/
theorem val_main_v63_eq (V : Valuation τ sig (Elt Ideal)) :
    val_main_v63 V = Cert.Spec.lin (val_main_v55 V) (Cert.Spec.matOf (val_main_arg9 V) 0) (Cert.Spec.rowOf (val_main_arg10 V) 0) := by
  simp only [val_main_v63, val_main_v62, val_main_v61, val_main_v60, val_main_v59, val_main_v58, val_main_v57, val_main_v56]
  exact lin_stage 0 (by decide) _ _ _ _ _

/-- The column means and variances of layer 0's second dense map. -/
theorem val_main_v70_eq (V : Valuation τ sig (Elt Ideal)) (j : S128.Idx) :
    val_main_v70 V j = Cert.Spec.meanU (val_main_v63 V) (ix2 0 (j 0)) := by
  simp only [val_main_v70, val_main_v69, val_main_cst_7, val_main_v68, val_main_cst_6]
  exact meanVec_apply _ j
theorem val_main_v71_eq (V : Valuation τ sig (Elt Ideal)) (j : S128.Idx) :
    val_main_v71 V j = Cert.Spec.varU (val_main_v63 V) (ix2 0 (j 0)) := by
  simp only [val_main_v71, val_main_call2_call0_v1, val_main_call2_call0_v0, val_main_call2_cst_4, val_main_call2_v12, val_main_call2_cst_3, val_main_call2_v11, val_main_call2_v10, val_main_call2_v9, val_main_call2_cst_2, val_main_call2_v8, val_main_call2_cst_1, val_main_call2_v7, val_main_call2_v6, val_main_call2_v5, val_main_call2_v4, val_main_call2_v3, val_main_call2_v2, val_main_call2_cst_0, val_main_call2_v1, val_main_call2_v0, val_main_call2_cst, val_main_c_8]
  exact var_stage _ j

/-- Layer 0's second normalisation and rectifier. -/
theorem val_main_v87_eq (V : Valuation τ sig (Elt Ideal)) :
    val_main_v87 V = Cert.Spec.bnrelu (val_main_v63 V) (Cert.Spec.meanU (val_main_v63 V)) (Cert.Spec.varU (val_main_v63 V))
      (Cert.Spec.rowOf (val_main_arg12 V) 0) (Cert.Spec.rowOf (val_main_arg13 V) 0) := by
  simp only [val_main_v87, val_main_call3_v0, val_main_call3_cst, val_main_v86, val_main_v85, val_main_v84, val_main_v83, val_main_v82, val_main_v81, val_main_v80, val_main_v79, val_main_v78, val_main_cst_9, val_main_v77, val_main_v76, val_main_v75, val_main_v74, val_main_v73, val_main_v72, val_main_v67, val_main_v66, val_main_v65, val_main_v64]
  exact bnrelu_stage 0 (by decide) _ _ _ _ _ (val_main_v70_eq V) (val_main_v71_eq V) _ _ _ _

/-- Layer 0 whole: the specification's layer of its input. -/
theorem val_main_v87_layer (V : Valuation τ sig (Elt Ideal)) :
    val_main_v87 V = Cert.Spec.layerU (Cert.Spec.cOne + Cert.Spec.atOf (val_main_arg11 V) 0) (Cert.Spec.nbr gather_S20000x128_S640000x1_S640000x128_1_0_n_n_0_1_1128 scatter_S20000x128_S640000x1_S640000x128_1_0_0_1 (Cert.Spec.srcOf (val_main_arg1 V)) (Cert.Spec.dstOf (val_main_arg1 V)))
      (Cert.Spec.matOf (val_main_arg5 V) 0) (Cert.Spec.rowOf (val_main_arg6 V) 0) (Cert.Spec.rowOf (val_main_arg7 V) 0) (Cert.Spec.rowOf (val_main_arg8 V) 0)
      (Cert.Spec.matOf (val_main_arg9 V) 0) (Cert.Spec.rowOf (val_main_arg10 V) 0) (Cert.Spec.rowOf (val_main_arg12 V) 0) (Cert.Spec.rowOf (val_main_arg13 V) 0) (val_main_v7 V) := by
  rw [val_main_v87_eq, val_main_v63_eq, val_main_v55_eq, val_main_v31_eq, val_main_v23_eq, val_main_v17_eq, val_main_v1_eq, val_main_v3_eq]
  rfl

end Cert.ReferenceIdeal.RefVal

end
-- ==== Proof.Ref.ValRead1.lean ====
/-
  Layer 1 of the reference read stage by stage into the specification: the neighbour sums, the input of the first dense
  map, each dense map, its column means and variances, each normalisation with its rectifier, and the layer whole.
-/
import proofs.«411025_j54640573939922_1_alg».proof.Proof.Ref.ValReadSrc

noncomputable section

namespace Cert.ReferenceIdeal.RefVal

open Cert.ReferenceIdeal Cert.ReferenceIdeal.Gen Idealize.ShloMosaic Idealize.ShloMosaic.TcCoe Idealize.SL.Sem Idealize.ShloMosaic.StableHlo

open Idealize.ShloMosaic.ValueIdx

set_option maxRecDepth 16384

/-- The neighbour sums of layer 1's input. -/
theorem val_main_v97_eq (V : Valuation τ sig (Elt Ideal)) :
    val_main_v97 V = Cert.Spec.nbr gather_S20000x128_S640000x1_S640000x128_1_0_n_n_0_1_1128 scatter_S20000x128_S640000x1_S640000x128_1_0_0_1 (val_main_v1 V) (val_main_v3 V) (val_main_v87 V) := by
  simp only [val_main_v97, val_main_v96, val_main_v95, val_main_cst_12, val_main_v94, val_main_v93, val_main_v92, val_main_v91, val_main_v90, val_main_c_11, val_main_v89, val_main_v88, val_main_c_10]
  exact agg_stage _ _ _

/-- The input of layer 1's first dense map. -/
theorem val_main_v103_eq (V : Valuation τ sig (Elt Ideal)) :
    val_main_v103 V = fun i => (Cert.Spec.cOne + Cert.Spec.atOf (val_main_arg11 V) 1) * val_main_v87 V i + val_main_v97 V i := by
  simp only [val_main_v103, val_main_v102, val_main_v101, val_main_v100, val_main_cst_13, val_main_v99, val_main_v98]
  exact mix_stage 1 (by decide) _ _ _ _

/-- Layer 1's first dense map. -/
theorem val_main_v111_eq (V : Valuation τ sig (Elt Ideal)) :
    val_main_v111 V = Cert.Spec.lin (val_main_v103 V) (Cert.Spec.matOf (val_main_arg5 V) 1) (Cert.Spec.rowOf (val_main_arg6 V) 1) := by
  simp only [val_main_v111, val_main_v110, val_main_v109, val_main_v108, val_main_v107, val_main_v106, val_main_v105, val_main_v104]
  exact lin_stage 1 (by decide) _ _ _ _ _

/-- The column means and variances of layer 1's first dense map. -/
theorem val_main_v118_eq (V : Valuation τ sig (Elt Ideal)) (j : S128.Idx) :
    val_main_v118 V j = Cert.Spec.meanU (val_main_v111 V) (ix2 0 (j 0)) := by
  simp only [val_main_v118, val_main_v117, val_main_cst_15, val_main_v116, val_main_cst_14]
  exact meanVec_apply _ j
theorem val_main_v119_eq (V : Valuation τ sig (Elt Ideal)) (j : S128.Idx) :
    val_main_v119 V j = Cert.Spec.varU (val_main_v111 V) (ix2 0 (j 0)) := by
  simp only [val_main_v119, val_main_call4_call0_v1, val_main_call4_call0_v0, val_main_call4_cst_4, val_main_call4_v12, val_main_call4_cst_3, val_main_call4_v11, val_main_call4_v10, val_main_call4_v9, val_main_call4_cst_2, val_main_call4_v8, val_main_call4_cst_1, val_main_call4_v7, val_main_call4_v6, val_main_call4_v5, val_main_call4_v4, val_main_call4_v3, val_main_call4_v2, val_main_call4_cst_0, val_main_call4_v1, val_main_call4_v0, val_main_call4_cst, val_main_c_16]
  exact var_stage _ j

/-- Layer 1's first normalisation and rectifier. -/
theorem val_main_v135_eq (V : Valuation τ sig (Elt Ideal)) :
    val_main_v135 V = Cert.Spec.bnrelu (val_main_v111 V) (Cert.Spec.meanU (val_main_v111 V)) (Cert.Spec.varU (val_main_v111 V))
      (Cert.Spec.rowOf (val_main_arg7 V) 1) (Cert.Spec.rowOf (val_main_arg8 V) 1) := by
  simp only [val_main_v135, val_main_call5_v0, val_main_call5_cst, val_main_v134, val_main_v133, val_main_v132, val_main_v131, val_main_v130, val_main_v129, val_main_v128, val_main_v127, val_main_v126, val_main_cst_17, val_main_v125, val_main_v124, val_main_v123, val_main_v122, val_main_v121, val_main_v120, val_main_v115, val_main_v114, val_main_v113, val_main_v112]
  exact bnrelu_stage 1 (by decide) _ _ _ _ _ (val_main_v118_eq V) (val_main_v119_eq V) _ _ _ _

/-- Layer 1's second dense map. -/
theorem val_main_v143_eq (V : Valuation τ sig (Elt Ideal)) :
    val_main_v143 V = Cert.Spec.lin (val_main_v135 V) (Cert.Spec.matOf (val_main_arg9 V) 1) (Cert.Spec.rowOf (val_main_arg10 V) 1) := by
  simp only [val_main_v143, val_main_v142, val_main_v141, val_main_v140, val_main_v139, val_main_v138, val_main_v137, val_main_v136]
  exact lin_stage 1 (by decide) _ _ _ _ _

/-- The column means and variances of layer 1's second dense map. -/
theorem val_main_v150_eq (V : Valuation τ sig (Elt Ideal)) (j : S128.Idx) :
    val_main_v150 V j = Cert.Spec.meanU (val_main_v143 V) (ix2 0 (j 0)) := by
  simp only [val_main_v150, val_main_v149, val_main_cst_19, val_main_v148, val_main_cst_18]
  exact meanVec_apply _ j
theorem val_main_v151_eq (V : Valuation τ sig (Elt Ideal)) (j : S128.Idx) :
    val_main_v151 V j = Cert.Spec.varU (val_main_v143 V) (ix2 0 (j 0)) := by
  simp only [val_main_v151, val_main_call6_call0_v1, val_main_call6_call0_v0, val_main_call6_cst_4, val_main_call6_v12, val_main_call6_cst_3, val_main_call6_v11, val_main_call6_v10, val_main_call6_v9, val_main_call6_cst_2, val_main_call6_v8, val_main_call6_cst_1, val_main_call6_v7, val_main_call6_v6, val_main_call6_v5, val_main_call6_v4, val_main_call6_v3, val_main_call6_v2, val_main_call6_cst_0, val_main_call6_v1, val_main_call6_v0, val_main_call6_cst, val_main_c_20]
  exact var_stage _ j

/-- Layer 1's second normalisation and rectifier. -/
theorem val_main_v167_eq (V : Valuation τ sig (Elt Ideal)) :
    val_main_v167 V = Cert.Spec.bnrelu (val_main_v143 V) (Cert.Spec.meanU (val_main_v143 V)) (Cert.Spec.varU (val_main_v143 V))
      (Cert.Spec.rowOf (val_main_arg12 V) 1) (Cert.Spec.rowOf (val_main_arg13 V) 1) := by
  simp only [val_main_v167, val_main_call7_v0, val_main_call7_cst, val_main_v166, val_main_v165, val_main_v164, val_main_v163, val_main_v162, val_main_v161, val_main_v160, val_main_v159, val_main_v158, val_main_cst_21, val_main_v157, val_main_v156, val_main_v155, val_main_v154, val_main_v153, val_main_v152, val_main_v147, val_main_v146, val_main_v145, val_main_v144]
  exact bnrelu_stage 1 (by decide) _ _ _ _ _ (val_main_v150_eq V) (val_main_v151_eq V) _ _ _ _

/-- Layer 1 whole: the specification's layer of its input. -/
theorem val_main_v167_layer (V : Valuation τ sig (Elt Ideal)) :
    val_main_v167 V = Cert.Spec.layerU (Cert.Spec.cOne + Cert.Spec.atOf (val_main_arg11 V) 1) (Cert.Spec.nbr gather_S20000x128_S640000x1_S640000x128_1_0_n_n_0_1_1128 scatter_S20000x128_S640000x1_S640000x128_1_0_0_1 (Cert.Spec.srcOf (val_main_arg1 V)) (Cert.Spec.dstOf (val_main_arg1 V)))
      (Cert.Spec.matOf (val_main_arg5 V) 1) (Cert.Spec.rowOf (val_main_arg6 V) 1) (Cert.Spec.rowOf (val_main_arg7 V) 1) (Cert.Spec.rowOf (val_main_arg8 V) 1)
      (Cert.Spec.matOf (val_main_arg9 V) 1) (Cert.Spec.rowOf (val_main_arg10 V) 1) (Cert.Spec.rowOf (val_main_arg12 V) 1) (Cert.Spec.rowOf (val_main_arg13 V) 1) (val_main_v87 V) := by
  rw [val_main_v167_eq, val_main_v143_eq, val_main_v135_eq, val_main_v111_eq, val_main_v103_eq, val_main_v97_eq, val_main_v1_eq, val_main_v3_eq]
  rfl

end Cert.ReferenceIdeal.RefVal

end
-- ==== Proof.Ref.ValRead2.lean ====
/-
  Layer 2 of the reference read stage by stage into the specification: the neighbour sums, the input of the first dense
  map, each dense map, its column means and variances, each normalisation with its rectifier, and the layer whole.
-/
import proofs.«411025_j54640573939922_1_alg».proof.Proof.Ref.ValReadSrc

noncomputable section

namespace Cert.ReferenceIdeal.RefVal

open Cert.ReferenceIdeal Cert.ReferenceIdeal.Gen Idealize.ShloMosaic Idealize.ShloMosaic.TcCoe Idealize.SL.Sem Idealize.ShloMosaic.StableHlo

open Idealize.ShloMosaic.ValueIdx

set_option maxRecDepth 16384

/-- The neighbour sums of layer 2's input. -/
theorem val_main_v177_eq (V : Valuation τ sig (Elt Ideal)) :
    val_main_v177 V = Cert.Spec.nbr gather_S20000x128_S640000x1_S640000x128_1_0_n_n_0_1_1128 scatter_S20000x128_S640000x1_S640000x128_1_0_0_1 (val_main_v1 V) (val_main_v3 V) (val_main_v167 V) := by
  simp only [val_main_v177, val_main_v176, val_main_v175, val_main_cst_24, val_main_v174, val_main_v173, val_main_v172, val_main_v171, val_main_v170, val_main_c_23, val_main_v169, val_main_v168, val_main_c_22]
  exact agg_stage _ _ _

/-- The input of layer 2's first dense map. -/
theorem val_main_v183_eq (V : Valuation τ sig (Elt Ideal)) :
    val_main_v183 V = fun i => (Cert.Spec.cOne + Cert.Spec.atOf (val_main_arg11 V) 2) * val_main_v167 V i + val_main_v177 V i := by
  simp only [val_main_v183, val_main_v182, val_main_v181, val_main_v180, val_main_cst_25, val_main_v179, val_main_v178]
  exact mix_stage 2 (by decide) _ _ _ _

/-- Layer 2's first dense map. -/
theorem val_main_v191_eq (V : Valuation τ sig (Elt Ideal)) :
    val_main_v191 V = Cert.Spec.lin (val_main_v183 V) (Cert.Spec.matOf (val_main_arg5 V) 2) (Cert.Spec.rowOf (val_main_arg6 V) 2) := by
  simp only [val_main_v191, val_main_v190, val_main_v189, val_main_v188, val_main_v187, val_main_v186, val_main_v185, val_main_v184]
  exact lin_stage 2 (by decide) _ _ _ _ _

/-- The column means and variances of layer 2's first dense map. -/
theorem val_main_v198_eq (V : Valuation τ sig (Elt Ideal)) (j : S128.Idx) :
    val_main_v198 V j = Cert.Spec.meanU (val_main_v191 V) (ix2 0 (j 0)) := by
  simp only [val_main_v198, val_main_v197, val_main_cst_27, val_main_v196, val_main_cst_26]
  exact meanVec_apply _ j
theorem val_main_v199_eq (V : Valuation τ sig (Elt Ideal)) (j : S128.Idx) :
    val_main_v199 V j = Cert.Spec.varU (val_main_v191 V) (ix2 0 (j 0)) := by
  simp only [val_main_v199, val_main_call8_call0_v1, val_main_call8_call0_v0, val_main_call8_cst_4, val_main_call8_v12, val_main_call8_cst_3, val_main_call8_v11, val_main_call8_v10, val_main_call8_v9, val_main_call8_cst_2, val_main_call8_v8, val_main_call8_cst_1, val_main_call8_v7, val_main_call8_v6, val_main_call8_v5, val_main_call8_v4, val_main_call8_v3, val_main_call8_v2, val_main_call8_cst_0, val_main_call8_v1, val_main_call8_v0, val_main_call8_cst, val_main_c_28]
  exact var_stage _ j

/-- Layer 2's first normalisation and rectifier. -/
theorem val_main_v215_eq (V : Valuation τ sig (Elt Ideal)) :
    val_main_v215 V = Cert.Spec.bnrelu (val_main_v191 V) (Cert.Spec.meanU (val_main_v191 V)) (Cert.Spec.varU (val_main_v191 V))
      (Cert.Spec.rowOf (val_main_arg7 V) 2) (Cert.Spec.rowOf (val_main_arg8 V) 2) := by
  simp only [val_main_v215, val_main_call9_v0, val_main_call9_cst, val_main_v214, val_main_v213, val_main_v212, val_main_v211, val_main_v210, val_main_v209, val_main_v208, val_main_v207, val_main_v206, val_main_cst_29, val_main_v205, val_main_v204, val_main_v203, val_main_v202, val_main_v201, val_main_v200, val_main_v195, val_main_v194, val_main_v193, val_main_v192]
  exact bnrelu_stage 2 (by decide) _ _ _ _ _ (val_main_v198_eq V) (val_main_v199_eq V) _ _ _ _

/-- Layer 2's second dense map. -/
theorem val_main_v223_eq (V : Valuation τ sig (Elt Ideal)) :
    val_main_v223 V = Cert.Spec.lin (val_main_v215 V) (Cert.Spec.matOf (val_main_arg9 V) 2) (Cert.Spec.rowOf (val_main_arg10 V) 2) := by
  simp only [val_main_v223, val_main_v222, val_main_v221, val_main_v220, val_main_v219, val_main_v218, val_main_v217, val_main_v216]
  exact lin_stage 2 (by decide) _ _ _ _ _

/-- The column means and variances of layer 2's second dense map. -/
theorem val_main_v230_eq (V : Valuation τ sig (Elt Ideal)) (j : S128.Idx) :
    val_main_v230 V j = Cert.Spec.meanU (val_main_v223 V) (ix2 0 (j 0)) := by
  simp only [val_main_v230, val_main_v229, val_main_cst_31, val_main_v228, val_main_cst_30]
  exact meanVec_apply _ j
theorem val_main_v231_eq (V : Valuation τ sig (Elt Ideal)) (j : S128.Idx) :
    val_main_v231 V j = Cert.Spec.varU (val_main_v223 V) (ix2 0 (j 0)) := by
  simp only [val_main_v231, val_main_call10_call0_v1, val_main_call10_call0_v0, val_main_call10_cst_4, val_main_call10_v12, val_main_call10_cst_3, val_main_call10_v11, val_main_call10_v10, val_main_call10_v9, val_main_call10_cst_2, val_main_call10_v8, val_main_call10_cst_1, val_main_call10_v7, val_main_call10_v6, val_main_call10_v5, val_main_call10_v4, val_main_call10_v3, val_main_call10_v2, val_main_call10_cst_0, val_main_call10_v1, val_main_call10_v0, val_main_call10_cst, val_main_c_32]
  exact var_stage _ j

/-- Layer 2's second normalisation and rectifier. -/
theorem val_main_v247_eq (V : Valuation τ sig (Elt Ideal)) :
    val_main_v247 V = Cert.Spec.bnrelu (val_main_v223 V) (Cert.Spec.meanU (val_main_v223 V)) (Cert.Spec.varU (val_main_v223 V))
      (Cert.Spec.rowOf (val_main_arg12 V) 2) (Cert.Spec.rowOf (val_main_arg13 V) 2) := by
  simp only [val_main_v247, val_main_call11_v0, val_main_call11_cst, val_main_v246, val_main_v245, val_main_v244, val_main_v243, val_main_v242, val_main_v241, val_main_v240, val_main_v239, val_main_v238, val_main_cst_33, val_main_v237, val_main_v236, val_main_v235, val_main_v234, val_main_v233, val_main_v232, val_main_v227, val_main_v226, val_main_v225, val_main_v224]
  exact bnrelu_stage 2 (by decide) _ _ _ _ _ (val_main_v230_eq V) (val_main_v231_eq V) _ _ _ _

/-- Layer 2 whole: the specification's layer of its input. -/
theorem val_main_v247_layer (V : Valuation τ sig (Elt Ideal)) :
    val_main_v247 V = Cert.Spec.layerU (Cert.Spec.cOne + Cert.Spec.atOf (val_main_arg11 V) 2) (Cert.Spec.nbr gather_S20000x128_S640000x1_S640000x128_1_0_n_n_0_1_1128 scatter_S20000x128_S640000x1_S640000x128_1_0_0_1 (Cert.Spec.srcOf (val_main_arg1 V)) (Cert.Spec.dstOf (val_main_arg1 V)))
      (Cert.Spec.matOf (val_main_arg5 V) 2) (Cert.Spec.rowOf (val_main_arg6 V) 2) (Cert.Spec.rowOf (val_main_arg7 V) 2) (Cert.Spec.rowOf (val_main_arg8 V) 2)
      (Cert.Spec.matOf (val_main_arg9 V) 2) (Cert.Spec.rowOf (val_main_arg10 V) 2) (Cert.Spec.rowOf (val_main_arg12 V) 2) (Cert.Spec.rowOf (val_main_arg13 V) 2) (val_main_v167 V) := by
  rw [val_main_v247_eq, val_main_v223_eq, val_main_v215_eq, val_main_v191_eq, val_main_v183_eq, val_main_v177_eq, val_main_v1_eq, val_main_v3_eq]
  rfl

end Cert.ReferenceIdeal.RefVal

end
-- ==== Proof.Ref.ValReadTop.lean ====
/-
  The reference's pooling and read-out read into the specification, and its result as the specification's network of the
  sixteen arguments.
-/
import proofs.«411025_j54640573939922_1_alg».proof.Proof.Ref.ValRead0
import proofs.«411025_j54640573939922_1_alg».proof.Proof.Ref.ValRead1
import proofs.«411025_j54640573939922_1_alg».proof.Proof.Ref.ValRead2
import proofs.«411025_j54640573939922_1_alg».proof.Proof.Math.Net

noncomputable section

namespace Cert.ReferenceIdeal.RefVal

open Cert.ReferenceIdeal Cert.ReferenceIdeal.Gen Idealize.ShloMosaic Idealize.ShloMosaic.TcCoe Idealize.SL.Sem Idealize.ShloMosaic.StableHlo

open Idealize.ShloMosaic.ValueIdx

set_option maxRecDepth 16384

/-- The pooled sums and counts. -/
theorem val_main_v250_eq (V : Valuation τ sig (Elt Ideal)) :
    val_main_v250 V = Cert.Spec.poolSumU (val_main_v247 V) (Cert.Spec.colN (val_main_arg2 V)) := by
  simp only [val_main_v250, val_main_v249, val_main_v248, val_main_cst_34]
  exact poolSum_stage _ _
theorem val_main_v254_eq (V : Valuation τ sig (Elt Ideal)) (g : S128.Idx) :
    val_main_v254 V g = Cert.Spec.poolCntU (Cert.Spec.colN (val_main_arg2 V)) (ix2 (g 0) 0) := by
  simp only [val_main_v254, val_main_v253, val_main_v252, val_main_cst_36, val_main_v251, val_main_cst_35]
  exact poolCnt_stage _ g

/-- The read-out. -/
theorem val_main_v263_eq (V : Valuation τ sig (Elt Ideal)) :
    val_main_v263 V = Cert.Spec.readout (val_main_v250 V) (Cert.Spec.poolCntU (Cert.Spec.colN (val_main_arg2 V))) (val_main_arg14 V) (Cert.Spec.row2 (val_main_arg15 V)) := by
  simp only [val_main_v263, val_main_v262, val_main_v261, val_main_v260, val_main_v259, val_main_v258, val_main_v257, val_main_v256, val_main_v255, val_main_cst_37]
  exact readout_stage _ _ _ (val_main_v254_eq V) _ _

/-- The reference's result is the specification's network of the sixteen arguments. -/
theorem val_main_v263_net (V : Valuation τ sig (Elt Ideal)) :
    val_main_v263 V = Cert.Spec.netU (Cert.Spec.nbr gather_S20000x128_S640000x1_S640000x128_1_0_n_n_0_1_1128 scatter_S20000x128_S640000x1_S640000x128_1_0_0_1 (Cert.Spec.srcOf (val_main_arg1 V)) (Cert.Spec.dstOf (val_main_arg1 V)))
      (val_main_arg0 V) (val_main_arg2 V) (val_main_arg3 V) (val_main_arg4 V) (val_main_arg5 V) (val_main_arg6 V) (val_main_arg7 V) (val_main_arg8 V) (val_main_arg9 V) (val_main_arg10 V) (val_main_arg11 V) (val_main_arg12 V) (val_main_arg13 V) (val_main_arg14 V) (val_main_arg15 V) := by
  rw [val_main_v263_eq, val_main_v250_eq, val_main_v247_layer, val_main_v167_layer, val_main_v87_layer, val_main_v7_eq]
  rfl

end Cert.ReferenceIdeal.RefVal

end
-- ==== Proof.Ref.Val.lean ====
/-
  The reference's result at the ideal instance, for an arbitrary valuation of its buffers: after all its operations the
  result buffer holds the specification's network (textbook statistics, untiled pooling) of the sixteen arguments, the
  neighbour sums taken along the edge list's two rows.
-/
import proofs.«411025_j54640573939922_1_alg».proof.Proof.Ref.ValRunAll
import proofs.«411025_j54640573939922_1_alg».proof.Proof.Ref.ValReadTop
import proofs.«411025_j54640573939922_1_alg».proof.Proof.Math.Net

noncomputable section

namespace Cert.ReferenceIdeal.RefVal

open Cert.ReferenceIdeal Cert.ReferenceIdeal.Gen Idealize.ShloMosaic Idealize.ShloMosaic.TcCoe Idealize.SL.Sem Idealize.ShloMosaic.StableHlo

/-- The result buffer after the reference's operations, from any contents `W`, is the network of the arguments as `W` holds them. -/
theorem value (W : Valuation τ sig (Elt Ideal)) :
    StableHlo.after (Cert.ReferenceIdeal.RefRun.ops (F := Ideal)) W (Proc.devRef .tc main_v263)
      = Cert.Spec.netU
          (Cert.Spec.nbr gather_S20000x128_S640000x1_S640000x128_1_0_n_n_0_1_1128 scatter_S20000x128_S640000x1_S640000x128_1_0_0_1
            (Cert.Spec.srcOf (W (Proc.devRef .tc main_arg1) : Cert.Spec.S2xE.Idx → BitVec 32)) (Cert.Spec.dstOf (W (Proc.devRef .tc main_arg1) : Cert.Spec.S2xE.Idx → BitVec 32)))
          (W (Proc.devRef .tc main_arg0) : Cert.Spec.SN1.Idx → EReal) (W (Proc.devRef .tc main_arg2) : Cert.Spec.SN.Idx → BitVec 32) (W (Proc.devRef .tc main_arg3) : Cert.Spec.S1H.Idx → EReal) (W (Proc.devRef .tc main_arg4) : Cert.Spec.SH.Idx → EReal) (W (Proc.devRef .tc main_arg5) : Cert.Spec.S3HH.Idx → EReal) (W (Proc.devRef .tc main_arg6) : Cert.Spec.S3H.Idx → EReal) (W (Proc.devRef .tc main_arg7) : Cert.Spec.S3H.Idx → EReal)
          (W (Proc.devRef .tc main_arg8) : Cert.Spec.S3H.Idx → EReal) (W (Proc.devRef .tc main_arg9) : Cert.Spec.S3HH.Idx → EReal) (W (Proc.devRef .tc main_arg10) : Cert.Spec.S3H.Idx → EReal) (W (Proc.devRef .tc main_arg11) : Cert.Spec.S3.Idx → EReal) (W (Proc.devRef .tc main_arg12) : Cert.Spec.S3H.Idx → EReal) (W (Proc.devRef .tc main_arg13) : Cert.Spec.S3H.Idx → EReal)
          (W (Proc.devRef .tc main_arg14) : Cert.Spec.SH2.Idx → EReal) (W (Proc.devRef .tc main_arg15) : Cert.Spec.S2.Idx → EReal) :=
  (run_val W).trans (val_main_v263_net W)

end Cert.ReferenceIdeal.RefVal

end
-- ==== Proof.Math.PreFin.lean ====
/-
  The finiteness predicate read back: where the conjunction of the fourteen reductions "every |x| < +∞" is one,
  every entry of each of the fourteen float argument arrays is a real number.
-/
import proofs.«411025_j54640573939922_1_alg».proof.Defs
import proofs.«411025_j54640573939922_1_alg».proof.Proof.Math.Spec
import Idealize.ShloMosaic.Lib.ReduceAll
import Idealize.ShloMosaic.Lib.ValueIdx
import Idealize.ShloMosaic.PureOps.Ideal

noncomputable section

namespace Cert.PreFin

open Idealize.ShloMosaic Idealize.ShloMosaic.ValueIdx Idealize.SL.Sem Cert.Pre_finite_inputs

/-- The rank-zero shape has one index. -/
instance : Subsingleton S_.Idx := ⟨fun a b => funext fun d => d.elim0⟩

/-- An extended real whose absolute value lies strictly below the float word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One reduction "all of |x| < +∞" that is one makes every entry of `x` a real number. -/
theorem fin_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) : Cert.Spec.Fin' x := fun i =>
  real_of_abs_lt (x i) (Host.reduce_andi_all _ _ hr hu ix0 e i)

variable [hPre_finite_inputs : Cert.Pre_finite_inputs.Facts]

/-- Where the predicate is one, every float argument array has only real entries. -/
theorem fin_of_pre (a0 : FVec Ideal S20000x1 .f32) (a1 : IVec S2x640000 32) (a2 : IVec S20000 32) (a3 : FVec Ideal S1x128 .f32) (a4 : FVec Ideal S128 .f32) (a5 : FVec Ideal S3x128x128 .f32) (a6 : FVec Ideal S3x128 .f32) (a7 : FVec Ideal S3x128 .f32) (a8 : FVec Ideal S3x128 .f32) (a9 : FVec Ideal S3x128x128 .f32) (a10 : FVec Ideal S3x128 .f32) (a11 : FVec Ideal S3 .f32) (a12 : FVec Ideal S3x128 .f32) (a13 : FVec Ideal S3x128 .f32) (a14 : FVec Ideal S128x2 .f32) (a15 : FVec Ideal S2 .f32)
    (h : Cert.Pre_finite_inputs.fn (F := Ideal) a0 a1 a2 a3 a4 a5 a6 a7 a8 a9 a10 a11 a12 a13 a14 a15 = (fun _ => 1#1)) :
    Cert.Spec.Fin' a0 ∧ Cert.Spec.Fin' a3 ∧ Cert.Spec.Fin' a4 ∧ Cert.Spec.Fin' a5 ∧ Cert.Spec.Fin' a6 ∧ Cert.Spec.Fin' a7 ∧ Cert.Spec.Fin' a8 ∧ Cert.Spec.Fin' a9 ∧ Cert.Spec.Fin' a10 ∧ Cert.Spec.Fin' a11 ∧ Cert.Spec.Fin' a12 ∧ Cert.Spec.Fin' a13 ∧ Cert.Spec.Fin' a14 ∧ Cert.Spec.Fin' a15 := by
  have h0 := congrFun h ix0
  simp only [fn, fn_part1, fn_part2, fn_part3, fn_part4, Idealize.ShloMosaic.andi, IntOp.andi_eq_one] at h0
  obtain ⟨⟨⟨⟨⟨⟨⟨⟨⟨⟨⟨⟨⟨e0, e3⟩, e4⟩, e5⟩, e6⟩, e7⟩, e8⟩, e9⟩, e10⟩, e11⟩, e12⟩, e13⟩, e14⟩, e15⟩ := h0
  exact ⟨fin_of_all a0 _ _ _ e0, fin_of_all a3 _ _ _ e3, fin_of_all a4 _ _ _ e4, fin_of_all a5 _ _ _ e5, fin_of_all a6 _ _ _ e6, fin_of_all a7 _ _ _ e7, fin_of_all a8 _ _ _ e8, fin_of_all a9 _ _ _ e9, fin_of_all a10 _ _ _ e10, fin_of_all a11 _ _ _ e11, fin_of_all a12 _ _ _ e12, fin_of_all a13 _ _ _ e13, fin_of_all a14 _ _ _ e14, fin_of_all a15 _ _ _ e15⟩

/-- The precondition of the idealized kernel makes every float argument buffer, on every device, real-valued. -/
theorem fin_of_Pre_KernelIdeal
    (m : (ℓ : Loc Cert.KernelIdeal.nD Cert.KernelIdeal.τ Cert.KernelIdeal.sig) → Buf (Elt Ideal) ℓ)
    (hm : Cert.Pre_KernelIdeal m) (c : Dev Cert.KernelIdeal.nD) :
    Cert.Spec.Fin' (m ((c.tc : Thread Cert.KernelIdeal.nD Cert.KernelIdeal.τ).loc Cert.KernelIdeal.main_arg0))
      ∧ Cert.Spec.Fin' (m ((c.tc : Thread Cert.KernelIdeal.nD Cert.KernelIdeal.τ).loc Cert.KernelIdeal.main_arg3))
      ∧ Cert.Spec.Fin' (m ((c.tc : Thread Cert.KernelIdeal.nD Cert.KernelIdeal.τ).loc Cert.KernelIdeal.main_arg4))
      ∧ Cert.Spec.Fin' (m ((c.tc : Thread Cert.KernelIdeal.nD Cert.KernelIdeal.τ).loc Cert.KernelIdeal.main_arg5))
      ∧ Cert.Spec.Fin' (m ((c.tc : Thread Cert.KernelIdeal.nD Cert.KernelIdeal.τ).loc Cert.KernelIdeal.main_arg6))
      ∧ Cert.Spec.Fin' (m ((c.tc : Thread Cert.KernelIdeal.nD Cert.KernelIdeal.τ).loc Cert.KernelIdeal.main_arg7))
      ∧ Cert.Spec.Fin' (m ((c.tc : Thread Cert.KernelIdeal.nD Cert.KernelIdeal.τ).loc Cert.KernelIdeal.main_arg8))
      ∧ Cert.Spec.Fin' (m ((c.tc : Thread Cert.KernelIdeal.nD Cert.KernelIdeal.τ).loc Cert.KernelIdeal.main_arg9))
      ∧ Cert.Spec.Fin' (m ((c.tc : Thread Cert.KernelIdeal.nD Cert.KernelIdeal.τ).loc Cert.KernelIdeal.main_arg10))
      ∧ Cert.Spec.Fin' (m ((c.tc : Thread Cert.KernelIdeal.nD Cert.KernelIdeal.τ).loc Cert.KernelIdeal.main_arg11))
      ∧ Cert.Spec.Fin' (m ((c.tc : Thread Cert.KernelIdeal.nD Cert.KernelIdeal.τ).loc Cert.KernelIdeal.main_arg12))
      ∧ Cert.Spec.Fin' (m ((c.tc : Thread Cert.KernelIdeal.nD Cert.KernelIdeal.τ).loc Cert.KernelIdeal.main_arg13))
      ∧ Cert.Spec.Fin' (m ((c.tc : Thread Cert.KernelIdeal.nD Cert.KernelIdeal.τ).loc Cert.KernelIdeal.main_arg14))
      ∧ Cert.Spec.Fin' (m ((c.tc : Thread Cert.KernelIdeal.nD Cert.KernelIdeal.τ).loc Cert.KernelIdeal.main_arg15)) :=
  fin_of_pre _ _ _ _ _ _ _ _ _ _ _ _ _ _ _ _ (hm c)

end Cert.PreFin

end
-- ==== Proof.lean ====
/-
  The certificate's five claims for a three-layer graph network: neighbour sums on the host, and per layer two dense
  maps each followed by a batch normalisation over the 20000 nodes and a rectifier, then a mean pooling by graph and
  a two-class read-out. The kernel program tiles the nodes in ten tiles of 2000 rows and keeps running column sums of
  each dense map's output and of its square, so its variance is the mean of squares minus the squared mean; the
  reference takes the mean of squared deviations. On extended reals the two agree exactly when every entry is a real
  number, which the precondition (finite float inputs) propagates through the layers: a gathered row is a row of its
  operand, a scattered sum is a finite sum, and the variance is a non-negative real, so its guarded inverse square
  root is a real. Pooling by a one-hot matrix product equals the scattered sum by graph index, count included.
  The three frames: each program's run ends with its arguments as launched. The idealisation's one ledger entry (a
  round trip through the narrow format removed) is the rule's own statement.
-/
import proofs.«411025_j54640573939922_1_alg».proof.Defs
import proofs.«411025_j54640573939922_1_alg».proof.Proof.Gen.Kernel
import proofs.«411025_j54640573939922_1_alg».proof.Proof.Gen.KernelIdeal
import proofs.«411025_j54640573939922_1_alg».proof.Proof.Gen.ReferenceIdeal
import proofs.«411025_j54640573939922_1_alg».proof.Proof.Gen.Pre_finite_inputs
import proofs.«411025_j54640573939922_1_alg».proof.Proof.KB.Run
import proofs.«411025_j54640573939922_1_alg».proof.Proof.KI.Run
import proofs.«411025_j54640573939922_1_alg».proof.Proof.KV.Chain
import proofs.«411025_j54640573939922_1_alg».proof.Proof.Ref.Run
import proofs.«411025_j54640573939922_1_alg».proof.Proof.Ref.Val
import proofs.«411025_j54640573939922_1_alg».proof.Proof.Math.Net
import proofs.«411025_j54640573939922_1_alg».proof.Proof.Math.Agg
import proofs.«411025_j54640573939922_1_alg».proof.Proof.Math.PreFin
import Idealize.ShloMosaic.Adequacy
import Idealize.ShloMosaic.Init

noncomputable section

namespace Cert.Proof

open Idealize.ShloMosaic Idealize.SL.Sem

/-- The word-level kernel program runs to the end with its arguments as launched. -/
theorem frame_k : Cert.frame_Kernel := fun m ρ _ => Cert.Kernel.Hand.frame m ρ

/-- So does the idealised kernel program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ledger's one entry: widening after narrowing is the identity on extended reals. -/
theorem preserves : Cert.preserves_Kernel_KernelIdeal := IdealRules.truncf_extf.statement _ .f32 .bf16

/-- The network's textbook form respects equality of the neighbour-sum function and of each argument array. -/
theorem netU_congr {agg agg' : (Cert.Spec.SNH.Idx → EReal) → Cert.Spec.SNH.Idx → EReal} (hg : agg = agg')
    {a0 a0' : Cert.Spec.SN1.Idx → EReal} (h0 : a0 = a0')
    {a2 a2' : Cert.Spec.SN.Idx → BitVec 32} (h2 : a2 = a2')
    {a3 a3' : Cert.Spec.S1H.Idx → EReal} (h3 : a3 = a3')
    {a4 a4' : Cert.Spec.SH.Idx → EReal} (h4 : a4 = a4')
    {a5 a5' : Cert.Spec.S3HH.Idx → EReal} (h5 : a5 = a5')
    {a6 a6' : Cert.Spec.S3H.Idx → EReal} (h6 : a6 = a6')
    {a7 a7' : Cert.Spec.S3H.Idx → EReal} (h7 : a7 = a7')
    {a8 a8' : Cert.Spec.S3H.Idx → EReal} (h8 : a8 = a8')
    {a9 a9' : Cert.Spec.S3HH.Idx → EReal} (h9 : a9 = a9')
    {a10 a10' : Cert.Spec.S3H.Idx → EReal} (h10 : a10 = a10')
    {a11 a11' : Cert.Spec.S3.Idx → EReal} (h11 : a11 = a11')
    {a12 a12' : Cert.Spec.S3H.Idx → EReal} (h12 : a12 = a12')
    {a13 a13' : Cert.Spec.S3H.Idx → EReal} (h13 : a13 = a13')
    {a14 a14' : Cert.Spec.SH2.Idx → EReal} (h14 : a14 = a14')
    {a15 a15' : Cert.Spec.S2.Idx → EReal} (h15 : a15 = a15') :
    Cert.Spec.netU agg a0 a2 a3 a4 a5 a6 a7 a8 a9 a10 a11 a12 a13 a14 a15 = Cert.Spec.netU agg' a0' a2' a3' a4' a5' a6' a7' a8' a9' a10' a11' a12' a13' a14' a15' := by
  subst hg h0 h2 h3 h4 h5 h6 h7 h8 h9 h10 h11 h12 h13 h14 h15
  rfl

set_option maxHeartbeats 1600000 in
/-- Both idealised programs end with the same logits: the kernel's run leaves the tiled form of the network, the
    reference's the textbook form, of arguments that agree; the two forms are equal on finite inputs. -/
theorem algebraic : Cert.algebraic_KernelIdeal_ReferenceIdeal := by
  intro m ρ m' ρ' hpre hagree
  refine ⟨_, (θ_run Cert.KernelIdeal.defs _ _).mono (fun r h c => ⟨(h c).1.trans (Cert.KernelIdeal.HandV.value m ρ c), (h c).2⟩)
    (Cert.KernelIdeal.Hand.run_value (F := Ideal) m ρ), ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6, e7, e8, e9, e10, e11, e12, e13, e14, e15⟩ := hagree c
  obtain ⟨f0, f3, f4, f5, f6, f7, f8, f9, f10, f11, f12, f13, f14, f15⟩ := Cert.PreFin.fin_of_Pre_KernelIdeal m hpre c
  have hg : Cert.Spec.nbr Cert.ReferenceIdeal.gather_S20000x128_S640000x1_S640000x128_1_0_n_n_0_1_1128 Cert.ReferenceIdeal.scatter_S20000x128_S640000x1_S640000x128_1_0_0_1
        (Cert.Spec.srcOf (m' ((c.tc : Thread Cert.ReferenceIdeal.nD Cert.ReferenceIdeal.τ).loc Cert.ReferenceIdeal.main_arg1))) (Cert.Spec.dstOf (m' ((c.tc : Thread Cert.ReferenceIdeal.nD Cert.ReferenceIdeal.τ).loc Cert.ReferenceIdeal.main_arg1)))
      = Cert.Spec.nbr Cert.KernelIdeal.gather_S20000x128_S640000x1_S640000x128_1_0_n_n_0_1_1128 Cert.KernelIdeal.scatter_S20000x128_S640000x1_S640000x128_1_0_0_1
        (Cert.Spec.srcOf (m ((c.tc : Thread Cert.KernelIdeal.nD Cert.KernelIdeal.τ).loc Cert.KernelIdeal.main_arg1))) (Cert.Spec.dstOf (m ((c.tc : Thread Cert.KernelIdeal.nD Cert.KernelIdeal.τ).loc Cert.KernelIdeal.main_arg1))) := by
    rw [e1]; rfl
  refine (Cert.ReferenceIdeal.RefVal.value _).trans ?_
  refine (netU_congr hg e0 e2 e3 e4 e5 e6 e7 e8 e9 e10 e11 e12 e13 e14 e15).trans ?_
  exact (Cert.Spec.netT_eq_netU _ _ _ (fun h hh => Cert.Spec.Fin'_nbr _ _ _ _ h hh) f0 f3 f4 f5 f6 f7 f8 f9 f10 f11 f12 f13).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
